-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v251) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x192 : Shape := ⟨2, ![8192, 192]⟩
abbrev S8192x768 : Shape := ⟨2, ![8192, 768]⟩
abbrev S8192x8192 : Shape := ⟨2, ![8192, 8192]⟩
abbrev S960x192 : Shape := ⟨2, ![960, 192]⟩
abbrev S192 : Shape := ⟨1, ![192]⟩
abbrev S12x192x192 : Shape := ⟨3, ![12, 192, 192]⟩
abbrev S12x192 : Shape := ⟨2, ![12, 192]⟩
abbrev S192x3 : Shape := ⟨2, ![192, 3]⟩
abbrev S3 : Shape := ⟨1, ![3]⟩
abbrev S_ : Shape := ⟨0, ![]⟩
abbrev S8192x1 : Shape := ⟨2, ![8192, 1]⟩

class Facts : Prop where
  bcast_S_S8192x192 : S_.BroadcastsInDim S8192x192 (![] : Fin 0 → Fin S8192x192.rank)
  reducesTo_S8192x192_S_d0_1 : S8192x192.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S960x192 : S_.BroadcastsInDim S960x192 (![] : Fin 0 → Fin S960x192.rank)
  reducesTo_S960x192_S_d0_1 : S960x192.ReducesTo [0, 1] S_
  bcast_S_S192 : S_.BroadcastsInDim S192 (![] : Fin 0 → Fin S192.rank)
  reducesTo_S192_S_d0 : S192.ReducesTo [0] S_
  bcast_S_S12x192x192 : S_.BroadcastsInDim S12x192x192 (![] : Fin 0 → Fin S12x192x192.rank)
  reducesTo_S12x192x192_S_d0_1_2 : S12x192x192.ReducesTo [0, 1, 2] S_
  bcast_S_S12x192 : S_.BroadcastsInDim S12x192 (![] : Fin 0 → Fin S12x192.rank)
  reducesTo_S12x192_S_d0_1 : S12x192.ReducesTo [0, 1] S_
  bcast_S_S192x3 : S_.BroadcastsInDim S192x3 (![] : Fin 0 → Fin S192x3.rank)
  reducesTo_S192x3_S_d0_1 : S192x3.ReducesTo [0, 1] S_
  bcast_S_S3 : S_.BroadcastsInDim S3 (![] : Fin 0 → Fin S3.rank)
  reducesTo_S3_S_d0 : S3.ReducesTo [0] S_
  bcast_S_S8192x1 : S_.BroadcastsInDim S8192x1 (![] : Fin 0 → Fin S8192x1.rank)
  reducesTo_S8192x1_S_d0_1 : S8192x1.ReducesTo [0, 1] S_
  dot_S8192x8192_S8192x1_S8192x1_1_0_0_1_n_n_wf : DotDims.WF S8192x8192 S8192x1 S8192x1 [1] [0] [0] [1] [] []

variable [Facts]

def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf
def fn_part2 {F : FTy → Type} [FloatOps F] (main_arg2 : FVec F S8192x8192 .f32) (main_arg7 : FVec F S192x3 .f32) (main_arg8 : FVec F S3 .f32) (main_v33 : IVec S_ 1) : IVec S_ 1 :=
  let main_v34 : FVec F S192x3 .f32 := Host.absf main_arg7
  let main_cst_12 : FVec F S_ .f32 := constant S_ .f32 0x7F800000#32
  let main_v35 : FVec F S192x3 .f32 := broadcastInDim S192x3 ![] bcast_S_S192x3 main_cst_12
  let main_v36 : IVec S192x3 1 := cmpf .olt main_v34 main_v35
  let main_c_13 : IVec S_ 1 := constantI S_ 1 1#1
  let main_v37 : IVec S_ 1 := (fun x v => Host.reduce IntOp.andi x v reducesTo_S192x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_cst_16 : FVec F S_ .f32 := constant S_ .f32 0x3F800000#32
  let main_v44 : FVec F S8192x1 .f32 := broadcastInDim S8192x1 ![] bcast_S_S8192x1 main_cst_16
  let main_v45 : FVec F S8192x1 .f32 := (fun l r => Host.dotGeneral dot_S8192x8192_S8192x1_S8192x1_1_0_0_1_n_n none l r) main_arg2 main_v44
  let main_cst_17 : FVec F S_ .f32 := constant S_ .f32 0x00000000#32
  let main_v46 : FVec F S8192x1 .f32 := broadcastInDim S8192x1 ![] bcast_S_S8192x1 main_cst_17
  let main_v47 : IVec S8192x1 1 := cmpf .une main_v45 main_v46
  let main_c_18 : IVec S_ 1 := constantI S_ 1 1#1
  let main_v48 : IVec S_ 1 := (fun x v => Host.reduce IntOp.andi x v reducesTo_S8192x1_S_d0_1 h_S_) main_v47 main_c_18
  let main_v49 : IVec S_ 1 := andi main_v43 main_v48
  main_v49

def fn_part1 {F : FTy → Type} [FloatOps F] (main_arg2 : FVec F S8192x8192 .f32) (main_arg4 : FVec F S192 .f32) (main_arg5 : FVec F S12x192x192 .f32) (main_arg6 : FVec F S12x192 .f32) (main_arg7 : FVec F S192x3 .f32) (main_arg8 : FVec F S3 .f32) (main_v13 : IVec S_ 1) (main_v16 : IVec S960x192 1) : IVec S_ 1 :=
  let main_c_5 : IVec S_ 1 := constantI S_ 1 1#1
  let main_v17 : IVec S_ 1 := (fun x v => Host.reduce IntOp.andi x v reducesTo_S960x192_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S12x192x192 .f32 := Host.absf main_arg5
  let main_cst_8 : FVec F S_ .f32 := constant S_ .f32 0x7F800000#32
  let main_v25 : FVec F S12x192x192 .f32 := broadcastInDim S12x192x192 ![] bcast_S_S12x192x192 main_cst_8
  let main_v26 : IVec S12x192x192 1 := cmpf .olt main_v24 main_v25
  let main_c_9 : IVec S_ 1 := constantI S_ 1 1#1
  let main_v27 : IVec S_ 1 := (fun x v => Host.reduce IntOp.andi x v reducesTo_S12x192x192_S_d0_1_2 h_S_) main_v26 main_c_9
  let main_v28 : IVec S_ 1 := andi main_v23 main_v27
  let main_v29 : FVec F S12x192 .f32 := Host.absf main_arg6
  let main_cst_10 : FVec F S_ .f32 := constant S_ .f32 0x7F800000#32
  let main_v30 : FVec F S12x192 .f32 := broadcastInDim S12x192 ![] bcast_S_S12x192 main_cst_10
  let main_v31 : IVec S12x192 1 := cmpf .olt main_v29 main_v30
  let main_c_11 : IVec S_ 1 := constantI S_ 1 1#1
  let main_v32 : IVec S_ 1 := (fun x v => Host.reduce IntOp.andi x v reducesTo_S12x192_S_d0_1 h_S_) main_v31 main_c_11
  let main_v33 : IVec S_ 1 := andi main_v28 main_v32
  fn_part2 (F := F) main_arg2 main_arg7 main_arg8 main_v33

def fn {F : FTy → Type} [FloatOps F] (main_arg0 : FVec F S8192x192 .f32) (main_arg1 : FVec F S8192x768 .f32) (main_arg2 : FVec F S8192x8192 .f32) (main_arg3 : FVec F S960x192 .f32) (main_arg4 : FVec F S192 .f32) (main_arg5 : FVec F S12x192x192 .f32) (main_arg6 : FVec F S12x192 .f32) (main_arg7 : FVec F S192x3 .f32) (main_arg8 : FVec F S3 .f32) : IVec S_ 1 :=
  let main_v0 : FVec F S8192x192 .f32 := Host.absf main_arg0
  let main_cst : FVec F S_ .f32 := constant S_ .f32 0x7F800000#32
  let main_v1 : FVec F S8192x192 .f32 := broadcastInDim S8192x192 ![] bcast_S_S8192x192 main_cst
  let main_v2 : IVec S8192x192 1 := cmpf .olt main_v0 main_v1
  let main_c : IVec S_ 1 := constantI S_ 1 1#1
  let main_v3 : IVec S_ 1 := (fun x v => Host.reduce IntOp.andi x v reducesTo_S8192x192_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S960x192 .f32 := Host.absf main_arg3
  let main_cst_4 : FVec F S_ .f32 := constant S_ .f32 0x7F800000#32
  let main_v15 : FVec F S960x192 .f32 := broadcastInDim S960x192 ![] bcast_S_S960x192 main_cst_4
  let main_v16 : IVec S960x192 1 := cmpf .olt main_v14 main_v15
  fn_part1 (F := F) main_arg2 main_arg4 main_arg5 main_arg6 main_arg7 main_arg8 main_v13 main_v16
-- ==== Kernel.lean ====
abbrev S8192x192 : Shape := ⟨2, ![8192, 192]⟩
abbrev S8192x768 : Shape := ⟨2, ![8192, 768]⟩
abbrev S8192x8192 : Shape := ⟨2, ![8192, 8192]⟩
abbrev S960x192 : Shape := ⟨2, ![960, 192]⟩
abbrev S192 : Shape := ⟨1, ![192]⟩
abbrev S12x192x192 : Shape := ⟨3, ![12, 192, 192]⟩
abbrev S12x192 : Shape := ⟨2, ![12, 192]⟩
abbrev S192x3 : Shape := ⟨2, ![192, 3]⟩
abbrev S3 : Shape := ⟨1, ![3]⟩
abbrev S8192x960 : Shape := ⟨2, ![8192, 960]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S960x64 : Shape := ⟨2, ![960, 64]⟩
abbrev S960x128 : Shape := ⟨2, ![960, 128]⟩
abbrev S64 : Shape := ⟨1, ![64]⟩
abbrev S1x64 : Shape := ⟨2, ![1, 64]⟩
abbrev S128 : Shape := ⟨1, ![128]⟩
abbrev S1x128 : Shape := ⟨2, ![1, 128]⟩
abbrev S8192x64 : Shape := ⟨2, ![8192, 64]⟩
abbrev S8192x128 : Shape := ⟨2, ![8192, 128]⟩
abbrev S2048x960 : Shape := ⟨2, ![2048, 960]⟩
abbrev S2048x1 : Shape := ⟨2, ![2048, 1]⟩
abbrev S2048x64 : Shape := ⟨2, ![2048, 64]⟩
abbrev S2048x128 : Shape := ⟨2, ![2048, 128]⟩
abbrev S1024x8192 : Shape := ⟨2, ![1024, 8192]⟩
abbrev S1024x128 : Shape := ⟨2, ![1024, 128]⟩
abbrev S1024x192 : Shape := ⟨2, ![1024, 192]⟩
abbrev S1024x64 : Shape := ⟨2, ![1024, 64]⟩
abbrev S1x192x192 : Shape := ⟨3, ![1, 192, 192]⟩
abbrev S192x192 : Shape := ⟨2, ![192, 192]⟩
abbrev S1x192 : Shape := ⟨2, ![1, 192]⟩
abbrev S192x64 : Shape := ⟨2, ![192, 64]⟩
abbrev S192x128 : Shape := ⟨2, ![192, 128]⟩
abbrev S2048x192 : Shape := ⟨2, ![2048, 192]⟩
abbrev S192x2 : Shape := ⟨2, ![192, 2]⟩
abbrev S192x1 : Shape := ⟨2, ![192, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S8192x2 : Shape := ⟨2, ![8192, 2]⟩
abbrev S2048x2 : Shape := ⟨2, ![2048, 2]⟩
abbrev S8192x3 : Shape := ⟨2, ![8192, 3]⟩
abbrev S1024x1 : Shape := ⟨2, ![1024, 1]⟩
abbrev S1024x3 : Shape := ⟨2, ![1024, 3]⟩
abbrev S1024x2 : Shape := ⟨2, ![1024, 2]⟩

abbrev nBuf : Space → Nat
  | .hbm => 186
  | .vmem => 286
  | .smem => 0
  | _ => 0

abbrev hbmTy0_0 (i : Nat) : BufTy := match i % 128 with
  | 0 => ⟨S8192x192, .f32⟩
  | 1 => ⟨S8192x768, .f32⟩
  | 2 => ⟨S8192x8192, .f32⟩
  | 3 => ⟨S960x192, .f32⟩
  | 4 => ⟨S192, .f32⟩
  | 5 => ⟨S12x192x192, .f32⟩
  | 6 => ⟨S12x192, .f32⟩
  | 7 => ⟨S192x3, .f32⟩
  | 8 => ⟨S3, .f32⟩
  | 9 => ⟨S8192x960, .f32⟩
  | 10 => ⟨S8192x8192, .bf16⟩
  | 11 => ⟨S8192x1, .f32⟩
  | 12 => ⟨S960x64, .f32⟩
  | 13 => ⟨S960x128, .f32⟩
  | 14 => ⟨S64, .f32⟩
  | 15 => ⟨S1x64, .f32⟩
  | 16 => ⟨S128, .f32⟩
  | 17 => ⟨S1x128, .f32⟩
  | 18 => ⟨S8192x64, .bf16⟩
  | 19 => ⟨S8192x128, .f32⟩
  | 20 => ⟨S8192x192, .f32⟩
  | 21 => ⟨S1x192x192, .f32⟩
  | 22 => ⟨S192x192, .f32⟩
  | 23 => ⟨S1x192, .f32⟩
  | 24 => ⟨S192, .f32⟩
  | 25 => ⟨S192x64, .f32⟩
  | 26 => ⟨S192x128, .f32⟩
  | 27 => ⟨S64, .f32⟩
  | 28 => ⟨S1x64, .f32⟩
  | 29 => ⟨S128, .f32⟩
  | 30 => ⟨S1x128, .f32⟩
  | 31 => ⟨S8192x64, .bf16⟩
  | 32 => ⟨S8192x128, .f32⟩
  | 33 => ⟨S8192x192, .f32⟩
  | 34 => ⟨S1x192x192, .f32⟩
  | 35 => ⟨S192x192, .f32⟩
  | 36 => ⟨S1x192, .f32⟩
  | 37 => ⟨S192, .f32⟩
  | 38 => ⟨S192x64, .f32⟩
  | 39 => ⟨S192x128, .f32⟩
  | 40 => ⟨S64, .f32⟩
  | 41 => ⟨S1x64, .f32⟩
  | 42 => ⟨S128, .f32⟩
  | 43 => ⟨S1x128, .f32⟩
  | 44 => ⟨S8192x64, .bf16⟩
  | 45 => ⟨S8192x128, .f32⟩
  | 46 => ⟨S8192x192, .f32⟩
  | 47 => ⟨S1x192x192, .f32⟩
  | 48 => ⟨S192x192, .f32⟩
  | 49 => ⟨S1x192, .f32⟩
  | 50 => ⟨S192, .f32⟩
  | 51 => ⟨S192x64, .f32⟩
  | 52 => ⟨S192x128, .f32⟩
  | 53 => ⟨S64, .f32⟩
  | 54 => ⟨S1x64, .f32⟩
  | 55 => ⟨S128, .f32⟩
  | 56 => ⟨S1x128, .f32⟩
  | 57 => ⟨S8192x64, .bf16⟩
  | 58 => ⟨S8192x128, .f32⟩
  | 59 => ⟨S8192x192, .f32⟩
  | 60 => ⟨S1x192x192, .f32⟩
  | 61 => ⟨S192x192, .f32⟩
  | 62 => ⟨S1x192, .f32⟩
  | 63 => ⟨S192, .f32⟩
  | 64 => ⟨S192x64, .f32⟩
  | 65 => ⟨S192x128, .f32⟩
  | 66 => ⟨S64, .f32⟩
  | 67 => ⟨S1x64, .f32⟩
  | 68 => ⟨S128, .f32⟩
  | 69 => ⟨S1x128, .f32⟩
  | 70 => ⟨S8192x64, .bf16⟩
  | 71 => ⟨S8192x128, .f32⟩
  | 72 => ⟨S8192x192, .f32⟩
  | 73 => ⟨S1x192x192, .f32⟩
  | 74 => ⟨S192x192, .f32⟩
  | 75 => ⟨S1x192, .f32⟩
  | 76 => ⟨S192, .f32⟩
  | 77 => ⟨S192x64, .f32⟩
  | 78 => ⟨S192x128, .f32⟩
  | 79 => ⟨S64, .f32⟩
  | 80 => ⟨S1x64, .f32⟩
  | 81 => ⟨S128, .f32⟩
  | 82 => ⟨S1x128, .f32⟩
  | 83 => ⟨S8192x64, .bf16⟩
  | 84 => ⟨S8192x128, .f32⟩
  | 85 => ⟨S8192x192, .f32⟩
  | 86 => ⟨S1x192x192, .f32⟩
  | 87 => ⟨S192x192, .f32⟩
  | 88 => ⟨S1x192, .f32⟩
  | 89 => ⟨S192, .f32⟩
  | 90 => ⟨S192x64, .f32⟩
  | 91 => ⟨S192x128, .f32⟩
  | 92 => ⟨S64, .f32⟩
  | 93 => ⟨S1x64, .f32⟩
  | 94 => ⟨S128, .f32⟩
  | 95 => ⟨S1x128, .f32⟩
  | 96 => ⟨S8192x64, .bf16⟩
  | 97 => ⟨S8192x128, .f32⟩
  | 98 => ⟨S8192x192, .f32⟩
  | 99 => ⟨S1x192x192, .f32⟩
  | 100 => ⟨S192x192, .f32⟩
  | 101 => ⟨S1x192, .f32⟩
  | 102 => ⟨S192, .f32⟩
  | 103 => ⟨S192x64, .f32⟩
  | 104 => ⟨S192x128, .f32⟩
  | 105 => ⟨S64, .f32⟩
  | 106 => ⟨S1x64, .f32⟩
  | 107 => ⟨S128, .f32⟩
  | 108 => ⟨S1x128, .f32⟩
  | 109 => ⟨S8192x64, .bf16⟩
  | 110 => ⟨S8192x128, .f32⟩
  | 111 => ⟨S8192x192, .f32⟩
  | 112 => ⟨S1x192x192, .f32⟩
  | 113 => ⟨S192x192, .f32⟩
  | 114 => ⟨S1x192, .f32⟩
  | 115 => ⟨S192, .f32⟩
  | 116 => ⟨S192x64, .f32⟩
  | 117 => ⟨S192x128, .f32⟩
  | 118 => ⟨S64, .f32⟩
  | 119 => ⟨S1x64, .f32⟩
  | 120 => ⟨S128, .f32⟩
  | 121 => ⟨S1x128, .f32⟩
  | 122 => ⟨S8192x64, .bf16⟩
  | 123 => ⟨S8192x128, .f32⟩
  | 124 => ⟨S8192x192, .f32⟩
  | 125 => ⟨S1x192x192, .f32⟩
  | 126 => ⟨S192x192, .f32⟩
  | 127 => ⟨S1x192, .f32⟩
  | _ => ⟨S8192x192, .f32⟩

abbrev hbmTy0_1 (i : Nat) : BufTy := match i % 128 with
  | 0 => ⟨S192, .f32⟩
  | 1 => ⟨S192x64, .f32⟩
  | 2 => ⟨S192x128, .f32⟩
  | 3 => ⟨S64, .f32⟩
  | 4 => ⟨S1x64, .f32⟩
  | 5 => ⟨S128, .f32⟩
  | 6 => ⟨S1x128, .f32⟩
  | 7 => ⟨S8192x64, .bf16⟩
  | 8 => ⟨S8192x128, .f32⟩
  | 9 => ⟨S8192x192, .f32⟩
  | 10 => ⟨S1x192x192, .f32⟩
  | 11 => ⟨S192x192, .f32⟩
  | 12 => ⟨S1x192, .f32⟩
  | 13 => ⟨S192, .f32⟩
  | 14 => ⟨S192x64, .f32⟩
  | 15 => ⟨S192x128, .f32⟩
  | 16 => ⟨S64, .f32⟩
  | 17 => ⟨S1x64, .f32⟩
  | 18 => ⟨S128, .f32⟩
  | 19 => ⟨S1x128, .f32⟩
  | 20 => ⟨S8192x64, .bf16⟩
  | 21 => ⟨S8192x128, .f32⟩
  | 22 => ⟨S8192x192, .f32⟩
  | 23 => ⟨S1x192x192, .f32⟩
  | 24 => ⟨S192x192, .f32⟩
  | 25 => ⟨S1x192, .f32⟩
  | 26 => ⟨S192, .f32⟩
  | 27 => ⟨S192x64, .f32⟩
  | 28 => ⟨S192x128, .f32⟩
  | 29 => ⟨S64, .f32⟩
  | 30 => ⟨S1x64, .f32⟩
  | 31 => ⟨S128, .f32⟩
  | 32 => ⟨S1x128, .f32⟩
  | 33 => ⟨S8192x64, .bf16⟩
  | 34 => ⟨S8192x128, .f32⟩
  | 35 => ⟨S8192x192, .f32⟩
  | 36 => ⟨S1x192x192, .f32⟩
  | 37 => ⟨S192x192, .f32⟩
  | 38 => ⟨S1x192, .f32⟩
  | 39 => ⟨S192, .f32⟩
  | 40 => ⟨S192x64, .f32⟩
  | 41 => ⟨S192x128, .f32⟩
  | 42 => ⟨S64, .f32⟩
  | 43 => ⟨S1x64, .f32⟩
  | 44 => ⟨S128, .f32⟩
  | 45 => ⟨S1x128, .f32⟩
  | 46 => ⟨S8192x64, .bf16⟩
  | 47 => ⟨S8192x128, .f32⟩
  | 48 => ⟨S8192x192, .f32⟩
  | 49 => ⟨S192x2, .f32⟩
  | 50 => ⟨S192x1, .f32⟩
  | 51 => ⟨S2, .f32⟩
  | 52 => ⟨S1x2, .f32⟩
  | 53 => ⟨S1, .f32⟩
  | 54 => ⟨S1x1, .f32⟩
  | 55 => ⟨S8192x2, .bf16⟩
  | 56 => ⟨S8192x1, .f32⟩
  | 57 => ⟨S8192x3, .f32⟩
  | _ => ⟨S8192x192, .f32⟩

abbrev hbmTy (i : Nat) : BufTy := match i / 128 with
  | 0 => hbmTy0_0 i
  | 1 => hbmTy0_1 i
  | _ => ⟨S8192x192, .f32⟩

abbrev vmemTy0_0 (i : Nat) : BufTy := match i % 128 with
  | 0 => ⟨S256x8192, .f32⟩
  | 1 => ⟨S256x8192, .f32⟩
  | 2 => ⟨S256x8192, .bf16⟩
  | 3 => ⟨S256x8192, .bf16⟩
  | 4 => ⟨S256x1, .f32⟩
  | 5 => ⟨S256x1, .f32⟩
  | 6 => ⟨S2048x960, .f32⟩
  | 7 => ⟨S2048x960, .f32⟩
  | 8 => ⟨S960x64, .f32⟩
  | 9 => ⟨S960x128, .f32⟩
  | 10 => ⟨S1x128, .f32⟩
  | 11 => ⟨S2048x1, .f32⟩
  | 12 => ⟨S2048x1, .f32⟩
  | 13 => ⟨S2048x64, .bf16⟩
  | 14 => ⟨S2048x64, .bf16⟩
  | 15 => ⟨S2048x128, .f32⟩
  | 16 => ⟨S2048x128, .f32⟩
  | 17 => ⟨S1024x8192, .bf16⟩
  | 18 => ⟨S1024x8192, .bf16⟩
  | 19 => ⟨S8192x64, .bf16⟩
  | 20 => ⟨S1024x128, .f32⟩
  | 21 => ⟨S1024x128, .f32⟩
  | 22 => ⟨S1x64, .f32⟩
  | 23 => ⟨S1024x192, .f32⟩
  | 24 => ⟨S1024x192, .f32⟩
  | 25 => ⟨S2048x192, .f32⟩
  | 26 => ⟨S2048x192, .f32⟩
  | 27 => ⟨S192x64, .f32⟩
  | 28 => ⟨S192x128, .f32⟩
  | 29 => ⟨S1x128, .f32⟩
  | 30 => ⟨S2048x1, .f32⟩
  | 31 => ⟨S2048x1, .f32⟩
  | 32 => ⟨S2048x64, .bf16⟩
  | 33 => ⟨S2048x64, .bf16⟩
  | 34 => ⟨S2048x128, .f32⟩
  | 35 => ⟨S2048x128, .f32⟩
  | 36 => ⟨S1024x8192, .bf16⟩
  | 37 => ⟨S1024x8192, .bf16⟩
  | 38 => ⟨S8192x64, .bf16⟩
  | 39 => ⟨S1024x128, .f32⟩
  | 40 => ⟨S1024x128, .f32⟩
  | 41 => ⟨S1x64, .f32⟩
  | 42 => ⟨S1024x192, .f32⟩
  | 43 => ⟨S1024x192, .f32⟩
  | 44 => ⟨S1024x192, .f32⟩
  | 45 => ⟨S1024x192, .f32⟩
  | 46 => ⟨S2048x192, .f32⟩
  | 47 => ⟨S2048x192, .f32⟩
  | 48 => ⟨S192x64, .f32⟩
  | 49 => ⟨S192x128, .f32⟩
  | 50 => ⟨S1x128, .f32⟩
  | 51 => ⟨S2048x1, .f32⟩
  | 52 => ⟨S2048x1, .f32⟩
  | 53 => ⟨S2048x64, .bf16⟩
  | 54 => ⟨S2048x64, .bf16⟩
  | 55 => ⟨S2048x128, .f32⟩
  | 56 => ⟨S2048x128, .f32⟩
  | 57 => ⟨S1024x8192, .bf16⟩
  | 58 => ⟨S1024x8192, .bf16⟩
  | 59 => ⟨S8192x64, .bf16⟩
  | 60 => ⟨S1024x128, .f32⟩
  | 61 => ⟨S1024x128, .f32⟩
  | 62 => ⟨S1x64, .f32⟩
  | 63 => ⟨S1024x192, .f32⟩
  | 64 => ⟨S1024x192, .f32⟩
  | 65 => ⟨S2048x192, .f32⟩
  | 66 => ⟨S2048x192, .f32⟩
  | 67 => ⟨S192x64, .f32⟩
  | 68 => ⟨S192x128, .f32⟩
  | 69 => ⟨S1x128, .f32⟩
  | 70 => ⟨S2048x1, .f32⟩
  | 71 => ⟨S2048x1, .f32⟩
  | 72 => ⟨S2048x64, .bf16⟩
  | 73 => ⟨S2048x64, .bf16⟩
  | 74 => ⟨S2048x128, .f32⟩
  | 75 => ⟨S2048x128, .f32⟩
  | 76 => ⟨S1024x8192, .bf16⟩
  | 77 => ⟨S1024x8192, .bf16⟩
  | 78 => ⟨S8192x64, .bf16⟩
  | 79 => ⟨S1024x128, .f32⟩
  | 80 => ⟨S1024x128, .f32⟩
  | 81 => ⟨S1x64, .f32⟩
  | 82 => ⟨S1024x192, .f32⟩
  | 83 => ⟨S1024x192, .f32⟩
  | 84 => ⟨S1024x192, .f32⟩
  | 85 => ⟨S1024x192, .f32⟩
  | 86 => ⟨S2048x192, .f32⟩
  | 87 => ⟨S2048x192, .f32⟩
  | 88 => ⟨S192x64, .f32⟩
  | 89 => ⟨S192x128, .f32⟩
  | 90 => ⟨S1x128, .f32⟩
  | 91 => ⟨S2048x1, .f32⟩
  | 92 => ⟨S2048x1, .f32⟩
  | 93 => ⟨S2048x64, .bf16⟩
  | 94 => ⟨S2048x64, .bf16⟩
  | 95 => ⟨S2048x128, .f32⟩
  | 96 => ⟨S2048x128, .f32⟩
  | 97 => ⟨S1024x8192, .bf16⟩
  | 98 => ⟨S1024x8192, .bf16⟩
  | 99 => ⟨S8192x64, .bf16⟩
  | 100 => ⟨S1024x128, .f32⟩
  | 101 => ⟨S1024x128, .f32⟩
  | 102 => ⟨S1x64, .f32⟩
  | 103 => ⟨S1024x192, .f32⟩
  | 104 => ⟨S1024x192, .f32⟩
  | 105 => ⟨S2048x192, .f32⟩
  | 106 => ⟨S2048x192, .f32⟩
  | 107 => ⟨S192x64, .f32⟩
  | 108 => ⟨S192x128, .f32⟩
  | 109 => ⟨S1x128, .f32⟩
  | 110 => ⟨S2048x1, .f32⟩
  | 111 => ⟨S2048x1, .f32⟩
  | 112 => ⟨S2048x64, .bf16⟩
  | 113 => ⟨S2048x64, .bf16⟩
  | 114 => ⟨S2048x128, .f32⟩
  | 115 => ⟨S2048x128, .f32⟩
  | 116 => ⟨S1024x8192, .bf16⟩
  | 117 => ⟨S1024x8192, .bf16⟩
  | 118 => ⟨S8192x64, .bf16⟩
  | 119 => ⟨S1024x128, .f32⟩
  | 120 => ⟨S1024x128, .f32⟩
  | 121 => ⟨S1x64, .f32⟩
  | 122 => ⟨S1024x192, .f32⟩
  | 123 => ⟨S1024x192, .f32⟩
  | 124 => ⟨S1024x192, .f32⟩
  | 125 => ⟨S1024x192, .f32⟩
  | 126 => ⟨S2048x192, .f32⟩
  | 127 => ⟨S2048x192, .f32⟩
  | _ => ⟨S8192x192, .f32⟩

abbrev vmemTy0_1 (i : Nat) : BufTy := match i % 128 with
  | 0 => ⟨S192x64, .f32⟩
  | 1 => ⟨S192x128, .f32⟩
  | 2 => ⟨S1x128, .f32⟩
  | 3 => ⟨S2048x1, .f32⟩
  | 4 => ⟨S2048x1, .f32⟩
  | 5 => ⟨S2048x64, .bf16⟩
  | 6 => ⟨S2048x64, .bf16⟩
  | 7 => ⟨S2048x128, .f32⟩
  | 8 => ⟨S2048x128, .f32⟩
  | 9 => ⟨S1024x8192, .bf16⟩
  | 10 => ⟨S1024x8192, .bf16⟩
  | 11 => ⟨S8192x64, .bf16⟩
  | 12 => ⟨S1024x128, .f32⟩
  | 13 => ⟨S1024x128, .f32⟩
  | 14 => ⟨S1x64, .f32⟩
  | 15 => ⟨S1024x192, .f32⟩
  | 16 => ⟨S1024x192, .f32⟩
  | 17 => ⟨S2048x192, .f32⟩
  | 18 => ⟨S2048x192, .f32⟩
  | 19 => ⟨S192x64, .f32⟩
  | 20 => ⟨S192x128, .f32⟩
  | 21 => ⟨S1x128, .f32⟩
  | 22 => ⟨S2048x1, .f32⟩
  | 23 => ⟨S2048x1, .f32⟩
  | 24 => ⟨S2048x64, .bf16⟩
  | 25 => ⟨S2048x64, .bf16⟩
  | 26 => ⟨S2048x128, .f32⟩
  | 27 => ⟨S2048x128, .f32⟩
  | 28 => ⟨S1024x8192, .bf16⟩
  | 29 => ⟨S1024x8192, .bf16⟩
  | 30 => ⟨S8192x64, .bf16⟩
  | 31 => ⟨S1024x128, .f32⟩
  | 32 => ⟨S1024x128, .f32⟩
  | 33 => ⟨S1x64, .f32⟩
  | 34 => ⟨S1024x192, .f32⟩
  | 35 => ⟨S1024x192, .f32⟩
  | 36 => ⟨S1024x192, .f32⟩
  | 37 => ⟨S1024x192, .f32⟩
  | 38 => ⟨S2048x192, .f32⟩
  | 39 => ⟨S2048x192, .f32⟩
  | 40 => ⟨S192x64, .f32⟩
  | 41 => ⟨S192x128, .f32⟩
  | 42 => ⟨S1x128, .f32⟩
  | 43 => ⟨S2048x1, .f32⟩
  | 44 => ⟨S2048x1, .f32⟩
  | 45 => ⟨S2048x64, .bf16⟩
  | 46 => ⟨S2048x64, .bf16⟩
  | 47 => ⟨S2048x128, .f32⟩
  | 48 => ⟨S2048x128, .f32⟩
  | 49 => ⟨S1024x8192, .bf16⟩
  | 50 => ⟨S1024x8192, .bf16⟩
  | 51 => ⟨S8192x64, .bf16⟩
  | 52 => ⟨S1024x128, .f32⟩
  | 53 => ⟨S1024x128, .f32⟩
  | 54 => ⟨S1x64, .f32⟩
  | 55 => ⟨S1024x192, .f32⟩
  | 56 => ⟨S1024x192, .f32⟩
  | 57 => ⟨S2048x192, .f32⟩
  | 58 => ⟨S2048x192, .f32⟩
  | 59 => ⟨S192x64, .f32⟩
  | 60 => ⟨S192x128, .f32⟩
  | 61 => ⟨S1x128, .f32⟩
  | 62 => ⟨S2048x1, .f32⟩
  | 63 => ⟨S2048x1, .f32⟩
  | 64 => ⟨S2048x64, .bf16⟩
  | 65 => ⟨S2048x64, .bf16⟩
  | 66 => ⟨S2048x128, .f32⟩
  | 67 => ⟨S2048x128, .f32⟩
  | 68 => ⟨S1024x8192, .bf16⟩
  | 69 => ⟨S1024x8192, .bf16⟩
  | 70 => ⟨S8192x64, .bf16⟩
  | 71 => ⟨S1024x128, .f32⟩
  | 72 => ⟨S1024x128, .f32⟩
  | 73 => ⟨S1x64, .f32⟩
  | 74 => ⟨S1024x192, .f32⟩
  | 75 => ⟨S1024x192, .f32⟩
  | 76 => ⟨S1024x192, .f32⟩
  | 77 => ⟨S1024x192, .f32⟩
  | 78 => ⟨S2048x192, .f32⟩
  | 79 => ⟨S2048x192, .f32⟩
  | 80 => ⟨S192x64, .f32⟩
  | 81 => ⟨S192x128, .f32⟩
  | 82 => ⟨S1x128, .f32⟩
  | 83 => ⟨S2048x1, .f32⟩
  | 84 => ⟨S2048x1, .f32⟩
  | 85 => ⟨S2048x64, .bf16⟩
  | 86 => ⟨S2048x64, .bf16⟩
  | 87 => ⟨S2048x128, .f32⟩
  | 88 => ⟨S2048x128, .f32⟩
  | 89 => ⟨S1024x8192, .bf16⟩
  | 90 => ⟨S1024x8192, .bf16⟩
  | 91 => ⟨S8192x64, .bf16⟩
  | 92 => ⟨S1024x128, .f32⟩
  | 93 => ⟨S1024x128, .f32⟩
  | 94 => ⟨S1x64, .f32⟩
  | 95 => ⟨S1024x192, .f32⟩
  | 96 => ⟨S1024x192, .f32⟩
  | 97 => ⟨S2048x192, .f32⟩
  | 98 => ⟨S2048x192, .f32⟩
  | 99 => ⟨S192x64, .f32⟩
  | 100 => ⟨S192x128, .f32⟩
  | 101 => ⟨S1x128, .f32⟩
  | 102 => ⟨S2048x1, .f32⟩
  | 103 => ⟨S2048x1, .f32⟩
  | 104 => ⟨S2048x64, .bf16⟩
  | 105 => ⟨S2048x64, .bf16⟩
  | 106 => ⟨S2048x128, .f32⟩
  | 107 => ⟨S2048x128, .f32⟩
  | 108 => ⟨S1024x8192, .bf16⟩
  | 109 => ⟨S1024x8192, .bf16⟩
  | 110 => ⟨S8192x64, .bf16⟩
  | 111 => ⟨S1024x128, .f32⟩
  | 112 => ⟨S1024x128, .f32⟩
  | 113 => ⟨S1x64, .f32⟩
  | 114 => ⟨S1024x192, .f32⟩
  | 115 => ⟨S1024x192, .f32⟩
  | 116 => ⟨S1024x192, .f32⟩
  | 117 => ⟨S1024x192, .f32⟩
  | 118 => ⟨S2048x192, .f32⟩
  | 119 => ⟨S2048x192, .f32⟩
  | 120 => ⟨S192x64, .f32⟩
  | 121 => ⟨S192x128, .f32⟩
  | 122 => ⟨S1x128, .f32⟩
  | 123 => ⟨S2048x1, .f32⟩
  | 124 => ⟨S2048x1, .f32⟩
  | 125 => ⟨S2048x64, .bf16⟩
  | 126 => ⟨S2048x64, .bf16⟩
  | 127 => ⟨S2048x128, .f32⟩
  | _ => ⟨S8192x192, .f32⟩

abbrev vmemTy0_2 (i : Nat) : BufTy := match i % 128 with
  | 0 => ⟨S2048x128, .f32⟩
  | 1 => ⟨S1024x8192, .bf16⟩
  | 2 => ⟨S1024x8192, .bf16⟩
  | 3 => ⟨S8192x64, .bf16⟩
  | 4 => ⟨S1024x128, .f32⟩
  | 5 => ⟨S1024x128, .f32⟩
  | 6 => ⟨S1x64, .f32⟩
  | 7 => ⟨S1024x192, .f32⟩
  | 8 => ⟨S1024x192, .f32⟩
  | 9 => ⟨S1024x192, .f32⟩
  | 10 => ⟨S1024x192, .f32⟩
  | 11 => ⟨S2048x192, .f32⟩
  | 12 => ⟨S2048x192, .f32⟩
  | 13 => ⟨S192x2, .f32⟩
  | 14 => ⟨S192x1, .f32⟩
  | 15 => ⟨S1x1, .f32⟩
  | 16 => ⟨S2048x1, .f32⟩
  | 17 => ⟨S2048x1, .f32⟩
  | 18 => ⟨S2048x2, .bf16⟩
  | 19 => ⟨S2048x2, .bf16⟩
  | 20 => ⟨S2048x1, .f32⟩
  | 21 => ⟨S2048x1, .f32⟩
  | 22 => ⟨S1024x8192, .bf16⟩
  | 23 => ⟨S1024x8192, .bf16⟩
  | 24 => ⟨S8192x2, .bf16⟩
  | 25 => ⟨S1024x1, .f32⟩
  | 26 => ⟨S1024x1, .f32⟩
  | 27 => ⟨S1x2, .f32⟩
  | 28 => ⟨S1024x3, .f32⟩
  | 29 => ⟨S1024x3, .f32⟩
  | _ => ⟨S8192x192, .f32⟩

abbrev vmemTy (i : Nat) : BufTy := match i / 128 with
  | 0 => vmemTy0_0 i
  | 1 => vmemTy0_1 i
  | 2 => vmemTy0_2 i
  | _ => ⟨S8192x192, .f32⟩

abbrev bufTy : (tb : Table) → Fin (tcTables nBuf tb) → BufTy
  | .hbm, ⟨i, _⟩ => hbmTy i
  | .local _ .vmem, ⟨i, _⟩ => vmemTy i
  | _, _ => ⟨S8192x192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 286 → Bool
  | ⟨i, _⟩ => dmaSemScopedAt i

abbrev sig : RefSig :=
  ofTc nBuf bufTy 0 286 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56_0 : Ref sig .tc := ⟨.hbm, 70, rfl⟩
abbrev main_v56_1 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68_0 : Ref sig .tc := ⟨.hbm, 83, rfl⟩
abbrev main_v68_1 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80_0 : Ref sig .tc := ⟨.hbm, 96, rfl⟩
abbrev main_v80_1 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92_0 : Ref sig .tc := ⟨.hbm, 109, rfl⟩
abbrev main_v92_1 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104_0 : Ref sig .tc := ⟨.hbm, 122, rfl⟩
abbrev main_v104_1 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116_0 : Ref sig .tc := ⟨.hbm, 135, rfl⟩
abbrev main_v116_1 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128_0 : Ref sig .tc := ⟨.hbm, 148, rfl⟩
abbrev main_v128_1 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140_0 : Ref sig .tc := ⟨.hbm, 161, rfl⟩
abbrev main_v140_1 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152_0 : Ref sig .tc := ⟨.hbm, 174, rfl⟩
abbrev main_v152_1 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160_0 : Ref sig .tc := ⟨.hbm, 183, rfl⟩
abbrev main_v160_1 : Ref sig .tc := ⟨.hbm, 184, rfl⟩
abbrev main_v161 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg4_1 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc5_stg6_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg4_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc7_stg5_0 : Ref sig .tc := ⟨.vmem, 72, rfl⟩
abbrev cc7_stg5_1 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg2_1 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg4_1 : Ref sig .tc := ⟨.vmem, 83, rfl⟩
abbrev cc8_stg5_0 : Ref sig .tc := ⟨.vmem, 84, rfl⟩
abbrev cc8_stg5_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg4_1 : Ref sig .tc := ⟨.vmem, 92, rfl⟩
abbrev cc9_stg5_0 : Ref sig .tc := ⟨.vmem, 93, rfl⟩
abbrev cc9_stg5_1 : Ref sig .tc := ⟨.vmem, 94, rfl⟩
abbrev cc9_stg6_0 : Ref sig .tc := ⟨.vmem, 95, rfl⟩
abbrev cc9_stg6_1 : Ref sig .tc := ⟨.vmem, 96, rfl⟩
abbrev cc10_stg0_0 : Ref sig .tc := ⟨.vmem, 97, rfl⟩
abbrev cc10_stg0_1 : Ref sig .tc := ⟨.vmem, 98, rfl⟩
abbrev cc10_stg1_0 : Ref sig .tc := ⟨.vmem, 99, rfl⟩
abbrev cc10_stg2_0 : Ref sig .tc := ⟨.vmem, 100, rfl⟩
abbrev cc10_stg2_1 : Ref sig .tc := ⟨.vmem, 101, rfl⟩
abbrev cc10_stg3_0 : Ref sig .tc := ⟨.vmem, 102, rfl⟩
abbrev cc10_stg4_0 : Ref sig .tc := ⟨.vmem, 103, rfl⟩
abbrev cc10_stg4_1 : Ref sig .tc := ⟨.vmem, 104, rfl⟩
abbrev cc11_stg0_0 : Ref sig .tc := ⟨.vmem, 105, rfl⟩
abbrev cc11_stg0_1 : Ref sig .tc := ⟨.vmem, 106, rfl⟩
abbrev cc11_stg1_0 : Ref sig .tc := ⟨.vmem, 107, rfl⟩
abbrev cc11_stg2_0 : Ref sig .tc := ⟨.vmem, 108, rfl⟩
abbrev cc11_stg3_0 : Ref sig .tc := ⟨.vmem, 109, rfl⟩
abbrev cc11_stg4_0 : Ref sig .tc := ⟨.vmem, 110, rfl⟩
abbrev cc11_stg4_1 : Ref sig .tc := ⟨.vmem, 111, rfl⟩
abbrev cc11_stg5_0 : Ref sig .tc := ⟨.vmem, 112, rfl⟩
abbrev cc11_stg5_1 : Ref sig .tc := ⟨.vmem, 113, rfl⟩
abbrev cc11_stg6_0 : Ref sig .tc := ⟨.vmem, 114, rfl⟩
abbrev cc11_stg6_1 : Ref sig .tc := ⟨.vmem, 115, rfl⟩
abbrev cc12_stg0_0 : Ref sig .tc := ⟨.vmem, 116, rfl⟩
abbrev cc12_stg0_1 : Ref sig .tc := ⟨.vmem, 117, rfl⟩
abbrev cc12_stg1_0 : Ref sig .tc := ⟨.vmem, 118, rfl⟩
abbrev cc12_stg2_0 : Ref sig .tc := ⟨.vmem, 119, rfl⟩
abbrev cc12_stg2_1 : Ref sig .tc := ⟨.vmem, 120, rfl⟩
abbrev cc12_stg3_0 : Ref sig .tc := ⟨.vmem, 121, rfl⟩
abbrev cc12_stg4_0 : Ref sig .tc := ⟨.vmem, 122, rfl⟩
abbrev cc12_stg4_1 : Ref sig .tc := ⟨.vmem, 123, rfl⟩
abbrev cc12_stg5_0 : Ref sig .tc := ⟨.vmem, 124, rfl⟩
abbrev cc12_stg5_1 : Ref sig .tc := ⟨.vmem, 125, rfl⟩
abbrev cc13_stg0_0 : Ref sig .tc := ⟨.vmem, 126, rfl⟩
abbrev cc13_stg0_1 : Ref sig .tc := ⟨.vmem, 127, rfl⟩
abbrev cc13_stg1_0 : Ref sig .tc := ⟨.vmem, 128, rfl⟩
abbrev cc13_stg2_0 : Ref sig .tc := ⟨.vmem, 129, rfl⟩
abbrev cc13_stg3_0 : Ref sig .tc := ⟨.vmem, 130, rfl⟩
abbrev cc13_stg4_0 : Ref sig .tc := ⟨.vmem, 131, rfl⟩
abbrev cc13_stg4_1 : Ref sig .tc := ⟨.vmem, 132, rfl⟩
abbrev cc13_stg5_0 : Ref sig .tc := ⟨.vmem, 133, rfl⟩
abbrev cc13_stg5_1 : Ref sig .tc := ⟨.vmem, 134, rfl⟩
abbrev cc13_stg6_0 : Ref sig .tc := ⟨.vmem, 135, rfl⟩
abbrev cc13_stg6_1 : Ref sig .tc := ⟨.vmem, 136, rfl⟩
abbrev cc14_stg0_0 : Ref sig .tc := ⟨.vmem, 137, rfl⟩
abbrev cc14_stg0_1 : Ref sig .tc := ⟨.vmem, 138, rfl⟩
abbrev cc14_stg1_0 : Ref sig .tc := ⟨.vmem, 139, rfl⟩
abbrev cc14_stg2_0 : Ref sig .tc := ⟨.vmem, 140, rfl⟩
abbrev cc14_stg2_1 : Ref sig .tc := ⟨.vmem, 141, rfl⟩
abbrev cc14_stg3_0 : Ref sig .tc := ⟨.vmem, 142, rfl⟩
abbrev cc14_stg4_0 : Ref sig .tc := ⟨.vmem, 143, rfl⟩
abbrev cc14_stg4_1 : Ref sig .tc := ⟨.vmem, 144, rfl⟩
abbrev cc15_stg0_0 : Ref sig .tc := ⟨.vmem, 145, rfl⟩
abbrev cc15_stg0_1 : Ref sig .tc := ⟨.vmem, 146, rfl⟩
abbrev cc15_stg1_0 : Ref sig .tc := ⟨.vmem, 147, rfl⟩
abbrev cc15_stg2_0 : Ref sig .tc := ⟨.vmem, 148, rfl⟩
abbrev cc15_stg3_0 : Ref sig .tc := ⟨.vmem, 149, rfl⟩
abbrev cc15_stg4_0 : Ref sig .tc := ⟨.vmem, 150, rfl⟩
abbrev cc15_stg4_1 : Ref sig .tc := ⟨.vmem, 151, rfl⟩
abbrev cc15_stg5_0 : Ref sig .tc := ⟨.vmem, 152, rfl⟩
abbrev cc15_stg5_1 : Ref sig .tc := ⟨.vmem, 153, rfl⟩
abbrev cc15_stg6_0 : Ref sig .tc := ⟨.vmem, 154, rfl⟩
abbrev cc15_stg6_1 : Ref sig .tc := ⟨.vmem, 155, rfl⟩
abbrev cc16_stg0_0 : Ref sig .tc := ⟨.vmem, 156, rfl⟩
abbrev cc16_stg0_1 : Ref sig .tc := ⟨.vmem, 157, rfl⟩
abbrev cc16_stg1_0 : Ref sig .tc := ⟨.vmem, 158, rfl⟩
abbrev cc16_stg2_0 : Ref sig .tc := ⟨.vmem, 159, rfl⟩
abbrev cc16_stg2_1 : Ref sig .tc := ⟨.vmem, 160, rfl⟩
abbrev cc16_stg3_0 : Ref sig .tc := ⟨.vmem, 161, rfl⟩
abbrev cc16_stg4_0 : Ref sig .tc := ⟨.vmem, 162, rfl⟩
abbrev cc16_stg4_1 : Ref sig .tc := ⟨.vmem, 163, rfl⟩
abbrev cc16_stg5_0 : Ref sig .tc := ⟨.vmem, 164, rfl⟩
abbrev cc16_stg5_1 : Ref sig .tc := ⟨.vmem, 165, rfl⟩
abbrev cc17_stg0_0 : Ref sig .tc := ⟨.vmem, 166, rfl⟩
abbrev cc17_stg0_1 : Ref sig .tc := ⟨.vmem, 167, rfl⟩
abbrev cc17_stg1_0 : Ref sig .tc := ⟨.vmem, 168, rfl⟩
abbrev cc17_stg2_0 : Ref sig .tc := ⟨.vmem, 169, rfl⟩
abbrev cc17_stg3_0 : Ref sig .tc := ⟨.vmem, 170, rfl⟩
abbrev cc17_stg4_0 : Ref sig .tc := ⟨.vmem, 171, rfl⟩
abbrev cc17_stg4_1 : Ref sig .tc := ⟨.vmem, 172, rfl⟩
abbrev cc17_stg5_0 : Ref sig .tc := ⟨.vmem, 173, rfl⟩
abbrev cc17_stg5_1 : Ref sig .tc := ⟨.vmem, 174, rfl⟩
abbrev cc17_stg6_0 : Ref sig .tc := ⟨.vmem, 175, rfl⟩
abbrev cc17_stg6_1 : Ref sig .tc := ⟨.vmem, 176, rfl⟩
abbrev cc18_stg0_0 : Ref sig .tc := ⟨.vmem, 177, rfl⟩
abbrev cc18_stg0_1 : Ref sig .tc := ⟨.vmem, 178, rfl⟩
abbrev cc18_stg1_0 : Ref sig .tc := ⟨.vmem, 179, rfl⟩
abbrev cc18_stg2_0 : Ref sig .tc := ⟨.vmem, 180, rfl⟩
abbrev cc18_stg2_1 : Ref sig .tc := ⟨.vmem, 181, rfl⟩
abbrev cc18_stg3_0 : Ref sig .tc := ⟨.vmem, 182, rfl⟩
abbrev cc18_stg4_0 : Ref sig .tc := ⟨.vmem, 183, rfl⟩
abbrev cc18_stg4_1 : Ref sig .tc := ⟨.vmem, 184, rfl⟩
abbrev cc19_stg0_0 : Ref sig .tc := ⟨.vmem, 185, rfl⟩
abbrev cc19_stg0_1 : Ref sig .tc := ⟨.vmem, 186, rfl⟩
abbrev cc19_stg1_0 : Ref sig .tc := ⟨.vmem, 187, rfl⟩
abbrev cc19_stg2_0 : Ref sig .tc := ⟨.vmem, 188, rfl⟩
abbrev cc19_stg3_0 : Ref sig .tc := ⟨.vmem, 189, rfl⟩
abbrev cc19_stg4_0 : Ref sig .tc := ⟨.vmem, 190, rfl⟩
abbrev cc19_stg4_1 : Ref sig .tc := ⟨.vmem, 191, rfl⟩
abbrev cc19_stg5_0 : Ref sig .tc := ⟨.vmem, 192, rfl⟩
abbrev cc19_stg5_1 : Ref sig .tc := ⟨.vmem, 193, rfl⟩
abbrev cc19_stg6_0 : Ref sig .tc := ⟨.vmem, 194, rfl⟩
abbrev cc19_stg6_1 : Ref sig .tc := ⟨.vmem, 195, rfl⟩
abbrev cc20_stg0_0 : Ref sig .tc := ⟨.vmem, 196, rfl⟩
abbrev cc20_stg0_1 : Ref sig .tc := ⟨.vmem, 197, rfl⟩
abbrev cc20_stg1_0 : Ref sig .tc := ⟨.vmem, 198, rfl⟩
abbrev cc20_stg2_0 : Ref sig .tc := ⟨.vmem, 199, rfl⟩
abbrev cc20_stg2_1 : Ref sig .tc := ⟨.vmem, 200, rfl⟩
abbrev cc20_stg3_0 : Ref sig .tc := ⟨.vmem, 201, rfl⟩
abbrev cc20_stg4_0 : Ref sig .tc := ⟨.vmem, 202, rfl⟩
abbrev cc20_stg4_1 : Ref sig .tc := ⟨.vmem, 203, rfl⟩
abbrev cc20_stg5_0 : Ref sig .tc := ⟨.vmem, 204, rfl⟩
abbrev cc20_stg5_1 : Ref sig .tc := ⟨.vmem, 205, rfl⟩
abbrev cc21_stg0_0 : Ref sig .tc := ⟨.vmem, 206, rfl⟩
abbrev cc21_stg0_1 : Ref sig .tc := ⟨.vmem, 207, rfl⟩
abbrev cc21_stg1_0 : Ref sig .tc := ⟨.vmem, 208, rfl⟩
abbrev cc21_stg2_0 : Ref sig .tc := ⟨.vmem, 209, rfl⟩
abbrev cc21_stg3_0 : Ref sig .tc := ⟨.vmem, 210, rfl⟩
abbrev cc21_stg4_0 : Ref sig .tc := ⟨.vmem, 211, rfl⟩
abbrev cc21_stg4_1 : Ref sig .tc := ⟨.vmem, 212, rfl⟩
abbrev cc21_stg5_0 : Ref sig .tc := ⟨.vmem, 213, rfl⟩
abbrev cc21_stg5_1 : Ref sig .tc := ⟨.vmem, 214, rfl⟩
abbrev cc21_stg6_0 : Ref sig .tc := ⟨.vmem, 215, rfl⟩
abbrev cc21_stg6_1 : Ref sig .tc := ⟨.vmem, 216, rfl⟩
abbrev cc22_stg0_0 : Ref sig .tc := ⟨.vmem, 217, rfl⟩
abbrev cc22_stg0_1 : Ref sig .tc := ⟨.vmem, 218, rfl⟩
abbrev cc22_stg1_0 : Ref sig .tc := ⟨.vmem, 219, rfl⟩
abbrev cc22_stg2_0 : Ref sig .tc := ⟨.vmem, 220, rfl⟩
abbrev cc22_stg2_1 : Ref sig .tc := ⟨.vmem, 221, rfl⟩
abbrev cc22_stg3_0 : Ref sig .tc := ⟨.vmem, 222, rfl⟩
abbrev cc22_stg4_0 : Ref sig .tc := ⟨.vmem, 223, rfl⟩
abbrev cc22_stg4_1 : Ref sig .tc := ⟨.vmem, 224, rfl⟩
abbrev cc23_stg0_0 : Ref sig .tc := ⟨.vmem, 225, rfl⟩
abbrev cc23_stg0_1 : Ref sig .tc := ⟨.vmem, 226, rfl⟩
abbrev cc23_stg1_0 : Ref sig .tc := ⟨.vmem, 227, rfl⟩
abbrev cc23_stg2_0 : Ref sig .tc := ⟨.vmem, 228, rfl⟩
abbrev cc23_stg3_0 : Ref sig .tc := ⟨.vmem, 229, rfl⟩
abbrev cc23_stg4_0 : Ref sig .tc := ⟨.vmem, 230, rfl⟩
abbrev cc23_stg4_1 : Ref sig .tc := ⟨.vmem, 231, rfl⟩
abbrev cc23_stg5_0 : Ref sig .tc := ⟨.vmem, 232, rfl⟩
abbrev cc23_stg5_1 : Ref sig .tc := ⟨.vmem, 233, rfl⟩
abbrev cc23_stg6_0 : Ref sig .tc := ⟨.vmem, 234, rfl⟩
abbrev cc23_stg6_1 : Ref sig .tc := ⟨.vmem, 235, rfl⟩
abbrev cc24_stg0_0 : Ref sig .tc := ⟨.vmem, 236, rfl⟩
abbrev cc24_stg0_1 : Ref sig .tc := ⟨.vmem, 237, rfl⟩
abbrev cc24_stg1_0 : Ref sig .tc := ⟨.vmem, 238, rfl⟩
abbrev cc24_stg2_0 : Ref sig .tc := ⟨.vmem, 239, rfl⟩
abbrev cc24_stg2_1 : Ref sig .tc := ⟨.vmem, 240, rfl⟩
abbrev cc24_stg3_0 : Ref sig .tc := ⟨.vmem, 241, rfl⟩
abbrev cc24_stg4_0 : Ref sig .tc := ⟨.vmem, 242, rfl⟩
abbrev cc24_stg4_1 : Ref sig .tc := ⟨.vmem, 243, rfl⟩
abbrev cc24_stg5_0 : Ref sig .tc := ⟨.vmem, 244, rfl⟩
abbrev cc24_stg5_1 : Ref sig .tc := ⟨.vmem, 245, rfl⟩
abbrev cc25_stg0_0 : Ref sig .tc := ⟨.vmem, 246, rfl⟩
abbrev cc25_stg0_1 : Ref sig .tc := ⟨.vmem, 247, rfl⟩
abbrev cc25_stg1_0 : Ref sig .tc := ⟨.vmem, 248, rfl⟩
abbrev cc25_stg2_0 : Ref sig .tc := ⟨.vmem, 249, rfl⟩
abbrev cc25_stg3_0 : Ref sig .tc := ⟨.vmem, 250, rfl⟩
abbrev cc25_stg4_0 : Ref sig .tc := ⟨.vmem, 251, rfl⟩
abbrev cc25_stg4_1 : Ref sig .tc := ⟨.vmem, 252, rfl⟩
abbrev cc25_stg5_0 : Ref sig .tc := ⟨.vmem, 253, rfl⟩
abbrev cc25_stg5_1 : Ref sig .tc := ⟨.vmem, 254, rfl⟩
abbrev cc25_stg6_0 : Ref sig .tc := ⟨.vmem, 255, rfl⟩
abbrev cc25_stg6_1 : Ref sig .tc := ⟨.vmem, 256, rfl⟩
abbrev cc26_stg0_0 : Ref sig .tc := ⟨.vmem, 257, rfl⟩
abbrev cc26_stg0_1 : Ref sig .tc := ⟨.vmem, 258, rfl⟩
abbrev cc26_stg1_0 : Ref sig .tc := ⟨.vmem, 259, rfl⟩
abbrev cc26_stg2_0 : Ref sig .tc := ⟨.vmem, 260, rfl⟩
abbrev cc26_stg2_1 : Ref sig .tc := ⟨.vmem, 261, rfl⟩
abbrev cc26_stg3_0 : Ref sig .tc := ⟨.vmem, 262, rfl⟩
abbrev cc26_stg4_0 : Ref sig .tc := ⟨.vmem, 263, rfl⟩
abbrev cc26_stg4_1 : Ref sig .tc := ⟨.vmem, 264, rfl⟩
abbrev cc26_stg5_0 : Ref sig .tc := ⟨.vmem, 265, rfl⟩
abbrev cc26_stg5_1 : Ref sig .tc := ⟨.vmem, 266, rfl⟩
abbrev cc27_stg0_0 : Ref sig .tc := ⟨.vmem, 267, rfl⟩
abbrev cc27_stg0_1 : Ref sig .tc := ⟨.vmem, 268, rfl⟩
abbrev cc27_stg1_0 : Ref sig .tc := ⟨.vmem, 269, rfl⟩
abbrev cc27_stg2_0 : Ref sig .tc := ⟨.vmem, 270, rfl⟩
abbrev cc27_stg3_0 : Ref sig .tc := ⟨.vmem, 271, rfl⟩
abbrev cc27_stg4_0 : Ref sig .tc := ⟨.vmem, 272, rfl⟩
abbrev cc27_stg4_1 : Ref sig .tc := ⟨.vmem, 273, rfl⟩
abbrev cc27_stg5_0 : Ref sig .tc := ⟨.vmem, 274, rfl⟩
abbrev cc27_stg5_1 : Ref sig .tc := ⟨.vmem, 275, rfl⟩
abbrev cc27_stg6_0 : Ref sig .tc := ⟨.vmem, 276, rfl⟩
abbrev cc27_stg6_1 : Ref sig .tc := ⟨.vmem, 277, rfl⟩
abbrev cc28_stg0_0 : Ref sig .tc := ⟨.vmem, 278, rfl⟩
abbrev cc28_stg0_1 : Ref sig .tc := ⟨.vmem, 279, rfl⟩
abbrev cc28_stg1_0 : Ref sig .tc := ⟨.vmem, 280, rfl⟩
abbrev cc28_stg2_0 : Ref sig .tc := ⟨.vmem, 281, rfl⟩
abbrev cc28_stg2_1 : Ref sig .tc := ⟨.vmem, 282, rfl⟩
abbrev cc28_stg3_0 : Ref sig .tc := ⟨.vmem, 283, rfl⟩
abbrev cc28_stg4_0 : Ref sig .tc := ⟨.vmem, 284, rfl⟩
abbrev cc28_stg4_1 : Ref sig .tc := ⟨.vmem, 285, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem4_1 : DmaSem sig := 52
abbrev cc5_sem5_0 : DmaSem sig := 53
abbrev cc5_sem5_1 : DmaSem sig := 54
abbrev cc5_sem6_0 : DmaSem sig := 55
abbrev cc5_sem6_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem4_1 : DmaSem sig := 64
abbrev cc7_sem0_0 : DmaSem sig := 65
abbrev cc7_sem0_1 : DmaSem sig := 66
abbrev cc7_sem1_0 : DmaSem sig := 67
abbrev cc7_sem2_0 : DmaSem sig := 68
abbrev cc7_sem3_0 : DmaSem sig := 69
abbrev cc7_sem4_0 : DmaSem sig := 70
abbrev cc7_sem4_1 : DmaSem sig := 71
abbrev cc7_sem5_0 : DmaSem sig := 72
abbrev cc7_sem5_1 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem2_1 : DmaSem sig := 80
abbrev cc8_sem3_0 : DmaSem sig := 81
abbrev cc8_sem4_0 : DmaSem sig := 82
abbrev cc8_sem4_1 : DmaSem sig := 83
abbrev cc8_sem5_0 : DmaSem sig := 84
abbrev cc8_sem5_1 : DmaSem sig := 85
abbrev cc9_sem0_0 : DmaSem sig := 86
abbrev cc9_sem0_1 : DmaSem sig := 87
abbrev cc9_sem1_0 : DmaSem sig := 88
abbrev cc9_sem2_0 : DmaSem sig := 89
abbrev cc9_sem3_0 : DmaSem sig := 90
abbrev cc9_sem4_0 : DmaSem sig := 91
abbrev cc9_sem4_1 : DmaSem sig := 92
abbrev cc9_sem5_0 : DmaSem sig := 93
abbrev cc9_sem5_1 : DmaSem sig := 94
abbrev cc9_sem6_0 : DmaSem sig := 95
abbrev cc9_sem6_1 : DmaSem sig := 96
abbrev cc10_sem0_0 : DmaSem sig := 97
abbrev cc10_sem0_1 : DmaSem sig := 98
abbrev cc10_sem1_0 : DmaSem sig := 99
abbrev cc10_sem2_0 : DmaSem sig := 100
abbrev cc10_sem2_1 : DmaSem sig := 101
abbrev cc10_sem3_0 : DmaSem sig := 102
abbrev cc10_sem4_0 : DmaSem sig := 103
abbrev cc10_sem4_1 : DmaSem sig := 104
abbrev cc11_sem0_0 : DmaSem sig := 105
abbrev cc11_sem0_1 : DmaSem sig := 106
abbrev cc11_sem1_0 : DmaSem sig := 107
abbrev cc11_sem2_0 : DmaSem sig := 108
abbrev cc11_sem3_0 : DmaSem sig := 109
abbrev cc11_sem4_0 : DmaSem sig := 110
abbrev cc11_sem4_1 : DmaSem sig := 111
abbrev cc11_sem5_0 : DmaSem sig := 112
abbrev cc11_sem5_1 : DmaSem sig := 113
abbrev cc11_sem6_0 : DmaSem sig := 114
abbrev cc11_sem6_1 : DmaSem sig := 115
abbrev cc12_sem0_0 : DmaSem sig := 116
abbrev cc12_sem0_1 : DmaSem sig := 117
abbrev cc12_sem1_0 : DmaSem sig := 118
abbrev cc12_sem2_0 : DmaSem sig := 119
abbrev cc12_sem2_1 : DmaSem sig := 120
abbrev cc12_sem3_0 : DmaSem sig := 121
abbrev cc12_sem4_0 : DmaSem sig := 122
abbrev cc12_sem4_1 : DmaSem sig := 123
abbrev cc12_sem5_0 : DmaSem sig := 124
abbrev cc12_sem5_1 : DmaSem sig := 125
abbrev cc13_sem0_0 : DmaSem sig := 126
abbrev cc13_sem0_1 : DmaSem sig := 127
abbrev cc13_sem1_0 : DmaSem sig := 128
abbrev cc13_sem2_0 : DmaSem sig := 129
abbrev cc13_sem3_0 : DmaSem sig := 130
abbrev cc13_sem4_0 : DmaSem sig := 131
abbrev cc13_sem4_1 : DmaSem sig := 132
abbrev cc13_sem5_0 : DmaSem sig := 133
abbrev cc13_sem5_1 : DmaSem sig := 134
abbrev cc13_sem6_0 : DmaSem sig := 135
abbrev cc13_sem6_1 : DmaSem sig := 136
abbrev cc14_sem0_0 : DmaSem sig := 137
abbrev cc14_sem0_1 : DmaSem sig := 138
abbrev cc14_sem1_0 : DmaSem sig := 139
abbrev cc14_sem2_0 : DmaSem sig := 140
abbrev cc14_sem2_1 : DmaSem sig := 141
abbrev cc14_sem3_0 : DmaSem sig := 142
abbrev cc14_sem4_0 : DmaSem sig := 143
abbrev cc14_sem4_1 : DmaSem sig := 144
abbrev cc15_sem0_0 : DmaSem sig := 145
abbrev cc15_sem0_1 : DmaSem sig := 146
abbrev cc15_sem1_0 : DmaSem sig := 147
abbrev cc15_sem2_0 : DmaSem sig := 148
abbrev cc15_sem3_0 : DmaSem sig := 149
abbrev cc15_sem4_0 : DmaSem sig := 150
abbrev cc15_sem4_1 : DmaSem sig := 151
abbrev cc15_sem5_0 : DmaSem sig := 152
abbrev cc15_sem5_1 : DmaSem sig := 153
abbrev cc15_sem6_0 : DmaSem sig := 154
abbrev cc15_sem6_1 : DmaSem sig := 155
abbrev cc16_sem0_0 : DmaSem sig := 156
abbrev cc16_sem0_1 : DmaSem sig := 157
abbrev cc16_sem1_0 : DmaSem sig := 158
abbrev cc16_sem2_0 : DmaSem sig := 159
abbrev cc16_sem2_1 : DmaSem sig := 160
abbrev cc16_sem3_0 : DmaSem sig := 161
abbrev cc16_sem4_0 : DmaSem sig := 162
abbrev cc16_sem4_1 : DmaSem sig := 163
abbrev cc16_sem5_0 : DmaSem sig := 164
abbrev cc16_sem5_1 : DmaSem sig := 165
abbrev cc17_sem0_0 : DmaSem sig := 166
abbrev cc17_sem0_1 : DmaSem sig := 167
abbrev cc17_sem1_0 : DmaSem sig := 168
abbrev cc17_sem2_0 : DmaSem sig := 169
abbrev cc17_sem3_0 : DmaSem sig := 170
abbrev cc17_sem4_0 : DmaSem sig := 171
abbrev cc17_sem4_1 : DmaSem sig := 172
abbrev cc17_sem5_0 : DmaSem sig := 173
abbrev cc17_sem5_1 : DmaSem sig := 174
abbrev cc17_sem6_0 : DmaSem sig := 175
abbrev cc17_sem6_1 : DmaSem sig := 176
abbrev cc18_sem0_0 : DmaSem sig := 177
abbrev cc18_sem0_1 : DmaSem sig := 178
abbrev cc18_sem1_0 : DmaSem sig := 179
abbrev cc18_sem2_0 : DmaSem sig := 180
abbrev cc18_sem2_1 : DmaSem sig := 181
abbrev cc18_sem3_0 : DmaSem sig := 182
abbrev cc18_sem4_0 : DmaSem sig := 183
abbrev cc18_sem4_1 : DmaSem sig := 184
abbrev cc19_sem0_0 : DmaSem sig := 185
abbrev cc19_sem0_1 : DmaSem sig := 186
abbrev cc19_sem1_0 : DmaSem sig := 187
abbrev cc19_sem2_0 : DmaSem sig := 188
abbrev cc19_sem3_0 : DmaSem sig := 189
abbrev cc19_sem4_0 : DmaSem sig := 190
abbrev cc19_sem4_1 : DmaSem sig := 191
abbrev cc19_sem5_0 : DmaSem sig := 192
abbrev cc19_sem5_1 : DmaSem sig := 193
abbrev cc19_sem6_0 : DmaSem sig := 194
abbrev cc19_sem6_1 : DmaSem sig := 195
abbrev cc20_sem0_0 : DmaSem sig := 196
abbrev cc20_sem0_1 : DmaSem sig := 197
abbrev cc20_sem1_0 : DmaSem sig := 198
abbrev cc20_sem2_0 : DmaSem sig := 199
abbrev cc20_sem2_1 : DmaSem sig := 200
abbrev cc20_sem3_0 : DmaSem sig := 201
abbrev cc20_sem4_0 : DmaSem sig := 202
abbrev cc20_sem4_1 : DmaSem sig := 203
abbrev cc20_sem5_0 : DmaSem sig := 204
abbrev cc20_sem5_1 : DmaSem sig := 205
abbrev cc21_sem0_0 : DmaSem sig := 206
abbrev cc21_sem0_1 : DmaSem sig := 207
abbrev cc21_sem1_0 : DmaSem sig := 208
abbrev cc21_sem2_0 : DmaSem sig := 209
abbrev cc21_sem3_0 : DmaSem sig := 210
abbrev cc21_sem4_0 : DmaSem sig := 211
abbrev cc21_sem4_1 : DmaSem sig := 212
abbrev cc21_sem5_0 : DmaSem sig := 213
abbrev cc21_sem5_1 : DmaSem sig := 214
abbrev cc21_sem6_0 : DmaSem sig := 215
abbrev cc21_sem6_1 : DmaSem sig := 216
abbrev cc22_sem0_0 : DmaSem sig := 217
abbrev cc22_sem0_1 : DmaSem sig := 218
abbrev cc22_sem1_0 : DmaSem sig := 219
abbrev cc22_sem2_0 : DmaSem sig := 220
abbrev cc22_sem2_1 : DmaSem sig := 221
abbrev cc22_sem3_0 : DmaSem sig := 222
abbrev cc22_sem4_0 : DmaSem sig := 223
abbrev cc22_sem4_1 : DmaSem sig := 224
abbrev cc23_sem0_0 : DmaSem sig := 225
abbrev cc23_sem0_1 : DmaSem sig := 226
abbrev cc23_sem1_0 : DmaSem sig := 227
abbrev cc23_sem2_0 : DmaSem sig := 228
abbrev cc23_sem3_0 : DmaSem sig := 229
abbrev cc23_sem4_0 : DmaSem sig := 230
abbrev cc23_sem4_1 : DmaSem sig := 231
abbrev cc23_sem5_0 : DmaSem sig := 232
abbrev cc23_sem5_1 : DmaSem sig := 233
abbrev cc23_sem6_0 : DmaSem sig := 234
abbrev cc23_sem6_1 : DmaSem sig := 235
abbrev cc24_sem0_0 : DmaSem sig := 236
abbrev cc24_sem0_1 : DmaSem sig := 237
abbrev cc24_sem1_0 : DmaSem sig := 238
abbrev cc24_sem2_0 : DmaSem sig := 239
abbrev cc24_sem2_1 : DmaSem sig := 240
abbrev cc24_sem3_0 : DmaSem sig := 241
abbrev cc24_sem4_0 : DmaSem sig := 242
abbrev cc24_sem4_1 : DmaSem sig := 243
abbrev cc24_sem5_0 : DmaSem sig := 244
abbrev cc24_sem5_1 : DmaSem sig := 245
abbrev cc25_sem0_0 : DmaSem sig := 246
abbrev cc25_sem0_1 : DmaSem sig := 247
abbrev cc25_sem1_0 : DmaSem sig := 248
abbrev cc25_sem2_0 : DmaSem sig := 249
abbrev cc25_sem3_0 : DmaSem sig := 250
abbrev cc25_sem4_0 : DmaSem sig := 251
abbrev cc25_sem4_1 : DmaSem sig := 252
abbrev cc25_sem5_0 : DmaSem sig := 253
abbrev cc25_sem5_1 : DmaSem sig := 254
abbrev cc25_sem6_0 : DmaSem sig := 255
abbrev cc25_sem6_1 : DmaSem sig := 256
abbrev cc26_sem0_0 : DmaSem sig := 257
abbrev cc26_sem0_1 : DmaSem sig := 258
abbrev cc26_sem1_0 : DmaSem sig := 259
abbrev cc26_sem2_0 : DmaSem sig := 260
abbrev cc26_sem2_1 : DmaSem sig := 261
abbrev cc26_sem3_0 : DmaSem sig := 262
abbrev cc26_sem4_0 : DmaSem sig := 263
abbrev cc26_sem4_1 : DmaSem sig := 264
abbrev cc26_sem5_0 : DmaSem sig := 265
abbrev cc26_sem5_1 : DmaSem sig := 266
abbrev cc27_sem0_0 : DmaSem sig := 267
abbrev cc27_sem0_1 : DmaSem sig := 268
abbrev cc27_sem1_0 : DmaSem sig := 269
abbrev cc27_sem2_0 : DmaSem sig := 270
abbrev cc27_sem3_0 : DmaSem sig := 271
abbrev cc27_sem4_0 : DmaSem sig := 272
abbrev cc27_sem4_1 : DmaSem sig := 273
abbrev cc27_sem5_0 : DmaSem sig := 274
abbrev cc27_sem5_1 : DmaSem sig := 275
abbrev cc27_sem6_0 : DmaSem sig := 276
abbrev cc27_sem6_1 : DmaSem sig := 277
abbrev cc28_sem0_0 : DmaSem sig := 278
abbrev cc28_sem0_1 : DmaSem sig := 279
abbrev cc28_sem1_0 : DmaSem sig := 280
abbrev cc28_sem2_0 : DmaSem sig := 281
abbrev cc28_sem2_1 : DmaSem sig := 282
abbrev cc28_sem3_0 : DmaSem sig := 283
abbrev cc28_sem4_0 : DmaSem sig := 284
abbrev cc28_sem4_1 : DmaSem sig := 285

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x960 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S960x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S960x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S192x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2048x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2048x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1024x192 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1024x192 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S192x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S192x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2048x64 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2048x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x8192 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1024x192 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x192 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S192x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S192x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2048x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2048x64 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2048x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x8192 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S8192x64 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1024x192 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S1024x192 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x192 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S192x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S192x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2048x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2048x64 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S2048x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x8192 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S8192x64 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1024x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S1024x192 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2048x192 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S192x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S192x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2048x1 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S2048x64 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S2048x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x8192 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S8192x64 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1024x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1024x192 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S1024x192 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2048x192 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S192x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S192x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S2048x1 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S2048x64 .bf16 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S2048x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![8], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1024x8192 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S8192x64 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S1024x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S1024x192 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![4], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2048x192 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S192x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S192x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S2048x1 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev stage15_5 : Fin 2 → Memref sig .tc .vmem S2048x64 .bf16 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev stage15_6 : Fin 2 → Memref sig .tc .vmem S2048x128 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev grid16 : Pipeline.Grid := ⟨1, ![8], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S1024x8192 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S8192x64 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S1024x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S1x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 2 → Memref sig .tc .vmem S1024x192 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 2 → Memref sig .tc .vmem S1024x192 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![4], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_6 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2048x192 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S192x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S192x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 2 → Memref sig .tc .vmem S2048x1 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev stage17_5 : Fin 2 → Memref sig .tc .vmem S2048x64 .bf16 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev stage17_6 : Fin 2 → Memref sig .tc .vmem S2048x128 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![true]

abbrev grid18 : Pipeline.Grid := ⟨1, ![8], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S1024x8192 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S8192x64 .bf16 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S1024x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S1x64 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 2 → Memref sig .tc .vmem S1024x192 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev grid19 : Pipeline.Grid := ⟨1, ![4], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_6 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S2048x192 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S192x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S192x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 2 → Memref sig .tc .vmem S2048x1 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev stage19_5 : Fin 2 → Memref sig .tc .vmem S2048x64 .bf16 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev stage19_6 : Fin 2 → Memref sig .tc .vmem S2048x128 .f32 := fun | 0 => Memref.whole cc19_stg6_0 | 1 => Memref.whole cc19_stg6_1 | ⟨_ + 2, h⟩ => absurd h (Nat.not_lt.2 (Nat.le_add_left _ _))
abbrev sem19_6 : Fin 2 → DmaSem sig := fun | 0 => cc19_sem6_0 | 1 => cc19_sem6_1 | ⟨_ + 2, h⟩ => absurd h (Nat.not_lt.2 (Nat.le_add_left _ _))
abbrev reads19_6 : Fin grid19.rank → Bool := ![true]

abbrev grid20 : Pipeline.Grid := ⟨1, ![8], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_5 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S1024x8192 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S8192x64 .bf16 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S1024x128 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev stage20_3 : Fin 1 → Memref sig .tc .vmem S1x64 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 2 → Memref sig .tc .vmem S1024x192 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev stage20_5 : Fin 2 → Memref sig .tc .vmem S1024x192 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

abbrev grid21 : Pipeline.Grid := ⟨1, ![4], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_5 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_6 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2048x192 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S192x64 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S192x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 2 → Memref sig .tc .vmem S2048x1 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![true]

abbrev stage21_5 : Fin 2 → Memref sig .tc .vmem S2048x64 .bf16 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev stage21_6 : Fin 2 → Memref sig .tc .vmem S2048x128 .f32 := fun | 0 => Memref.whole cc21_stg6_0 | 1 => Memref.whole cc21_stg6_1 | ⟨_ + 2, h⟩ => absurd h (Nat.not_lt.2 (Nat.le_add_left _ _))
abbrev sem21_6 : Fin 2 → DmaSem sig := fun | 0 => cc21_sem6_0 | 1 => cc21_sem6_1 | ⟨_ + 2, h⟩ => absurd h (Nat.not_lt.2 (Nat.le_add_left _ _))
abbrev reads21_6 : Fin grid21.rank → Bool := ![true]

abbrev grid22 : Pipeline.Grid := ⟨1, ![8], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S1024x8192 .bf16 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S8192x64 .bf16 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S1024x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 1 → Memref sig .tc .vmem S1x64 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 2 → Memref sig .tc .vmem S1024x192 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev grid23 : Pipeline.Grid := ⟨1, ![4], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_5 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_6 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S2048x192 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S192x64 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S192x128 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S1x128 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 2 → Memref sig .tc .vmem S2048x1 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![true]

abbrev stage23_5 : Fin 2 → Memref sig .tc .vmem S2048x64 .bf16 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true]

abbrev stage23_6 : Fin 2 → Memref sig .tc .vmem S2048x128 .f32 := fun | 0 => Memref.whole cc23_stg6_0 | 1 => Memref.whole cc23_stg6_1 | ⟨_ + 2, h⟩ => absurd h (Nat.not_lt.2 (Nat.le_add_left _ _))
abbrev sem23_6 : Fin 2 → DmaSem sig := fun | 0 => cc23_sem6_0 | 1 => cc23_sem6_1 | ⟨_ + 2, h⟩ => absurd h (Nat.not_lt.2 (Nat.le_add_left _ _))
abbrev reads23_6 : Fin grid23.rank → Bool := ![true]

abbrev grid24 : Pipeline.Grid := ⟨1, ![8], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_5 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S1024x8192 .bf16 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S8192x64 .bf16 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 2 → Memref sig .tc .vmem S1024x128 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev stage24_3 : Fin 1 → Memref sig .tc .vmem S1x64 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 2 → Memref sig .tc .vmem S1024x192 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![true]

abbrev stage24_5 : Fin 2 → Memref sig .tc .vmem S1024x192 .f32 := fun | 0 => Memref.whole cc24_stg5_0 | 1 => Memref.whole cc24_stg5_1 | ⟨_ + 2, h⟩ => absurd h (Nat.not_lt.2 (Nat.le_add_left _ _))
abbrev sem24_5 : Fin 2 → DmaSem sig := fun | 0 => cc24_sem5_0 | 1 => cc24_sem5_1 | ⟨_ + 2, h⟩ => absurd h (Nat.not_lt.2 (Nat.le_add_left _ _))
abbrev reads24_5 : Fin grid24.rank → Bool := ![true]

abbrev grid25 : Pipeline.Grid := ⟨1, ![4], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_3 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_4 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_5 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_6 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S2048x192 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S192x64 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 1 → Memref sig .tc .vmem S192x128 .f32 := fun | 0 => Memref.whole cc25_stg2_0 | ⟨_ + 1, h⟩ => absurd h (Nat.not_lt.2 (Nat.le_add_left _ _))
abbrev sem25_2 : Fin 1 → DmaSem sig := fun | 0 => cc25_sem2_0 | ⟨_ + 1, h⟩ => absurd h (Nat.not_lt.2 (Nat.le_add_left _ _))
abbrev reads25_2 : Fin grid25.rank → Bool := ![false]

abbrev stage25_3 : Fin 1 → Memref sig .tc .vmem S1x128 .f32 := fun | 0 => Memref.whole cc25_stg3_0 | ⟨_ + 1, h⟩ => absurd h (Nat.not_lt.2 (Nat.le_add_left _ _))
abbrev sem25_3 : Fin 1 → DmaSem sig := fun | 0 => cc25_sem3_0 | ⟨_ + 1, h⟩ => absurd h (Nat.not_lt.2 (Nat.le_add_left _ _))
abbrev reads25_3 : Fin grid25.rank → Bool := ![false]

abbrev stage25_4 : Fin 2 → Memref sig .tc .vmem S2048x1 .f32 := fun | 0 => Memref.whole cc25_stg4_0 | 1 => Memref.whole cc25_stg4_1 | ⟨_ + 2, h⟩ => absurd h (Nat.not_lt.2 (Nat.le_add_left _ _))
abbrev sem25_4 : Fin 2 → DmaSem sig := fun | 0 => cc25_sem4_0 | 1 => cc25_sem4_1 | ⟨_ + 2, h⟩ => absurd h (Nat.not_lt.2 (Nat.le_add_left _ _))
abbrev reads25_4 : Fin grid25.rank → Bool := ![true]

abbrev stage25_5 : Fin 2 → Memref sig .tc .vmem S2048x64 .bf16 := fun | 0 => Memref.whole cc25_stg5_0 | 1 => Memref.whole cc25_stg5_1 | ⟨_ + 2, h⟩ => absurd h (Nat.not_lt.2 (Nat.le_add_left _ _))
abbrev sem25_5 : Fin 2 → DmaSem sig := fun | 0 => cc25_sem5_0 | 1 => cc25_sem5_1 | ⟨_ + 2, h⟩ => absurd h (Nat.not_lt.2 (Nat.le_add_left _ _))
abbrev reads25_5 : Fin grid25.rank → Bool := ![true]

abbrev stage25_6 : Fin 2 → Memref sig .tc .vmem S2048x128 .f32 := fun | 0 => Memref.whole cc25_stg6_0 | 1 => Memref.whole cc25_stg6_1 | ⟨_ + 2, h⟩ => absurd h (Nat.not_lt.2 (Nat.le_add_left _ _))
abbrev sem25_6 : Fin 2 → DmaSem sig := fun | 0 => cc25_sem6_0 | 1 => cc25_sem6_1 | ⟨_ + 2, h⟩ => absurd h (Nat.not_lt.2 (Nat.le_add_left _ _))
abbrev reads25_6 : Fin grid25.rank → Bool := ![true]

abbrev grid26 : Pipeline.Grid := ⟨1, ![8], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_3 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_4 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_5 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S1024x8192 .bf16 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S8192x64 .bf16 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 2 → Memref sig .tc .vmem S1024x128 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true]

abbrev stage26_3 : Fin 1 → Memref sig .tc .vmem S1x64 .f32 := fun | 0 => Memref.whole cc26_stg3_0 | ⟨_ + 1, h⟩ => absurd h (Nat.not_lt.2 (Nat.le_add_left _ _))
abbrev sem26_3 : Fin 1 → DmaSem sig := fun | 0 => cc26_sem3_0 | ⟨_ + 1, h⟩ => absurd h (Nat.not_lt.2 (Nat.le_add_left _ _))
abbrev reads26_3 : Fin grid26.rank → Bool := ![false]

abbrev stage26_4 : Fin 2 → Memref sig .tc .vmem S1024x192 .f32 := fun | 0 => Memref.whole cc26_stg4_0 | 1 => Memref.whole cc26_stg4_1 | ⟨_ + 2, h⟩ => absurd h (Nat.not_lt.2 (Nat.le_add_left _ _))
abbrev sem26_4 : Fin 2 → DmaSem sig := fun | 0 => cc26_sem4_0 | 1 => cc26_sem4_1 | ⟨_ + 2, h⟩ => absurd h (Nat.not_lt.2 (Nat.le_add_left _ _))
abbrev reads26_4 : Fin grid26.rank → Bool := ![true]

abbrev stage26_5 : Fin 2 → Memref sig .tc .vmem S1024x192 .f32 := fun | 0 => Memref.whole cc26_stg5_0 | 1 => Memref.whole cc26_stg5_1 | ⟨_ + 2, h⟩ => absurd h (Nat.not_lt.2 (Nat.le_add_left _ _))
abbrev sem26_5 : Fin 2 → DmaSem sig := fun | 0 => cc26_sem5_0 | 1 => cc26_sem5_1 | ⟨_ + 2, h⟩ => absurd h (Nat.not_lt.2 (Nat.le_add_left _ _))
abbrev reads26_5 : Fin grid26.rank → Bool := ![true]

abbrev grid27 : Pipeline.Grid := ⟨1, ![4], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_3 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_4 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_5 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_6 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S2048x192 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S192x2 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 1 → Memref sig .tc .vmem S192x1 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 1 → Memref sig .tc .vmem S1x1 .f32 := fun | 0 => Memref.whole cc27_stg3_0 | ⟨_ + 1, h⟩ => absurd h (Nat.not_lt.2 (Nat.le_add_left _ _))
abbrev sem27_3 : Fin 1 → DmaSem sig := fun | 0 => cc27_sem3_0 | ⟨_ + 1, h⟩ => absurd h (Nat.not_lt.2 (Nat.le_add_left _ _))
abbrev reads27_3 : Fin grid27.rank → Bool := ![false]

abbrev stage27_4 : Fin 2 → Memref sig .tc .vmem S2048x1 .f32 := fun | 0 => Memref.whole cc27_stg4_0 | 1 => Memref.whole cc27_stg4_1 | ⟨_ + 2, h⟩ => absurd h (Nat.not_lt.2 (Nat.le_add_left _ _))
abbrev sem27_4 : Fin 2 → DmaSem sig := fun | 0 => cc27_sem4_0 | 1 => cc27_sem4_1 | ⟨_ + 2, h⟩ => absurd h (Nat.not_lt.2 (Nat.le_add_left _ _))
abbrev reads27_4 : Fin grid27.rank → Bool := ![true]

abbrev stage27_5 : Fin 2 → Memref sig .tc .vmem S2048x2 .bf16 := fun | 0 => Memref.whole cc27_stg5_0 | 1 => Memref.whole cc27_stg5_1 | ⟨_ + 2, h⟩ => absurd h (Nat.not_lt.2 (Nat.le_add_left _ _))
abbrev sem27_5 : Fin 2 → DmaSem sig := fun | 0 => cc27_sem5_0 | 1 => cc27_sem5_1 | ⟨_ + 2, h⟩ => absurd h (Nat.not_lt.2 (Nat.le_add_left _ _))
abbrev reads27_5 : Fin grid27.rank → Bool := ![true]

abbrev stage27_6 : Fin 2 → Memref sig .tc .vmem S2048x1 .f32 := fun | 0 => Memref.whole cc27_stg6_0 | 1 => Memref.whole cc27_stg6_1 | ⟨_ + 2, h⟩ => absurd h (Nat.not_lt.2 (Nat.le_add_left _ _))
abbrev sem27_6 : Fin 2 → DmaSem sig := fun | 0 => cc27_sem6_0 | 1 => cc27_sem6_1 | ⟨_ + 2, h⟩ => absurd h (Nat.not_lt.2 (Nat.le_add_left _ _))
abbrev reads27_6 : Fin grid27.rank → Bool := ![true]

abbrev grid28 : Pipeline.Grid := ⟨1, ![8], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_3 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_4 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S1024x8192 .bf16 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S8192x2 .bf16 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 2 → Memref sig .tc .vmem S1024x1 .f32 := fun | 0 => Memref.whole cc28_stg2_0 | 1 => Memref.whole cc28_stg2_1 | ⟨_ + 2, h⟩ => absurd h (Nat.not_lt.2 (Nat.le_add_left _ _))
abbrev sem28_2 : Fin 2 → DmaSem sig := fun | 0 => cc28_sem2_0 | 1 => cc28_sem2_1 | ⟨_ + 2, h⟩ => absurd h (Nat.not_lt.2 (Nat.le_add_left _ _))
abbrev reads28_2 : Fin grid28.rank → Bool := ![true]

abbrev stage28_3 : Fin 1 → Memref sig .tc .vmem S1x2 .f32 := fun | 0 => Memref.whole cc28_stg3_0 | ⟨_ + 1, h⟩ => absurd h (Nat.not_lt.2 (Nat.le_add_left _ _))
abbrev sem28_3 : Fin 1 → DmaSem sig := fun | 0 => cc28_sem3_0 | ⟨_ + 1, h⟩ => absurd h (Nat.not_lt.2 (Nat.le_add_left _ _))
abbrev reads28_3 : Fin grid28.rank → Bool := ![false]

abbrev stage28_4 : Fin 2 → Memref sig .tc .vmem S1024x3 .f32 := fun | 0 => Memref.whole cc28_stg4_0 | 1 => Memref.whole cc28_stg4_1 | ⟨_ + 2, h⟩ => absurd h (Nat.not_lt.2 (Nat.le_add_left _ _))
abbrev sem28_4 : Fin 2 → DmaSem sig := fun | 0 => cc28_sem4_0 | 1 => cc28_sem4_1 | ⟨_ + 2, h⟩ => absurd h (Nat.not_lt.2 (Nat.le_add_left _ _))
abbrev reads28_4 : Fin grid28.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .bf16 = 32 ∨ (Rect.block (s := S8192x8192) S256x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x960.size a ≤ S8192x960.size a
  hwx1_0 : ∀ i : grid1.Coords, EltTy.bits .f32 = 32 ∨ (Rect.block (s := S8192x960) S2048x960.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S960x64.size a ≤ S960x64.size a
  hwx1_1 : ∀ i : grid1.Coords, EltTy.bits .f32 = 32 ∨ (Rect.block (s := S960x64) S960x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S960x128.size a ≤ S960x128.size a
  hwx1_2 : ∀ i : grid1.Coords, EltTy.bits .f32 = 32 ∨ (Rect.block (s := S960x128) S960x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S8192x1.size a
  hwx1_4 : ∀ i : grid1.Coords, EltTy.bits .f32 = 32 ∨ (Rect.block (s := S8192x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S8192x64.size a
  hwx1_5 : ∀ i : grid1.Coords, EltTy.bits .bf16 = 32 ∨ (Rect.block (s := S8192x64) S2048x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x128.size a ≤ S8192x128.size a
  hwx1_6 : ∀ i : grid1.Coords, EltTy.bits .f32 = 32 ∨ (Rect.block (s := S8192x128) S2048x128.size (cc1_transform_6 i) (hinb1_6 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x8192.size a ≤ S8192x8192.size a
  hwx2_0 : ∀ i : grid2.Coords, EltTy.bits .bf16 = 32 ∨ (Rect.block (s := S8192x8192) S1024x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x192.size a ≤ S8192x192.size a
  hwx2_4 : ∀ i : grid2.Coords, EltTy.bits .f32 = 32 ∨ (Rect.block (s := S8192x192) S1024x192.size (cc2_transform_4 i) (hinb2_4 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x192.size a ≤ S8192x192.size a
  hwx3_0 : ∀ i : grid3.Coords, EltTy.bits .f32 = 32 ∨ (Rect.block (s := S8192x192) S2048x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x64.size a ≤ S192x64.size a
  hwx3_1 : ∀ i : grid3.Coords, EltTy.bits .f32 = 32 ∨ (Rect.block (s := S192x64) S192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192x128.size a ≤ S192x128.size a
  hwx3_2 : ∀ i : grid3.Coords, EltTy.bits .f32 = 32 ∨ (Rect.block (s := S192x128) S192x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x1.size a ≤ S8192x1.size a
  hwx3_4 : ∀ i : grid3.Coords, EltTy.bits .f32 = 32 ∨ (Rect.block (s := S8192x1) S2048x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x64.size a ≤ S8192x64.size a
  hwx3_5 : ∀ i : grid3.Coords, EltTy.bits .bf16 = 32 ∨ (Rect.block (s := S8192x64) S2048x64.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x128.size a ≤ S8192x128.size a
  hwx3_6 : ∀ i : grid3.Coords, EltTy.bits .f32 = 32 ∨ (Rect.block (s := S8192x128) S2048x128.size (cc3_transform_6 i) (hinb3_6 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x8192.size a ≤ S8192x8192.size a
  hwx4_0 : ∀ i : grid4.Coords, EltTy.bits .bf16 = 32 ∨ (Rect.block (s := S8192x8192) S1024x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .bf16 = 32 ∨ (Rect.block (s := S8192x64) S8192x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x192.size a ≤ S8192x192.size a
  hwx4_4 : ∀ i : grid4.Coords, EltTy.bits .f32 = 32 ∨ (Rect.block (s := S8192x192) S1024x192.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x192.size a ≤ S8192x192.size a
  hwx4_5 : ∀ i : grid4.Coords, EltTy.bits .f32 = 32 ∨ (Rect.block (s := S8192x192) S1024x192.size (cc4_transform_5 i) (hinb4_5 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x192.size a ≤ S8192x192.size a
  hwx5_0 : ∀ i : grid5.Coords, EltTy.bits .f32 = 32 ∨ (Rect.block (s := S8192x192) S2048x192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S192x64.size a ≤ S192x64.size a
  hwx5_1 : ∀ i : grid5.Coords, EltTy.bits .f32 = 32 ∨ (Rect.block (s := S192x64) S192x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S192x128.size a ≤ S192x128.size a
  hwx5_2 : ∀ i : grid5.Coords, EltTy.bits .f32 = 32 ∨ (Rect.block (s := S192x128) S192x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x1.size a ≤ S8192x1.size a
  hwx5_4 : ∀ i : grid5.Coords, EltTy.bits .f32 = 32 ∨ (Rect.block (s := S8192x1) S2048x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x64.size a ≤ S8192x64.size a
  hwx5_5 : ∀ i : grid5.Coords, EltTy.bits .bf16 = 32 ∨ (Rect.block (s := S8192x64) S2048x64.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2048x128.size a ≤ S8192x128.size a
  hwx5_6 : ∀ i : grid5.Coords, EltTy.bits .f32 = 32 ∨ (Rect.block (s := S8192x128) S2048x128.size (cc5_transform_6 i) (hinb5_6 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x8192.size a ≤ S8192x8192.size a
  hwx6_0 : ∀ i : grid6.Coords, EltTy.bits .bf16 = 32 ∨ (Rect.block (s := S8192x8192) S1024x8192.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x64.size a ≤ S8192x64.size a
  hwx6_1 : ∀ i : grid6.Coords, EltTy.bits .bf16 = 32 ∨ (Rect.block (s := S8192x64) S8192x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S8192x128.size a
  hwx6_2 : ∀ i : grid6.Coords, EltTy.bits .f32 = 32 ∨ (Rect.block (s := S8192x128) S1024x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x192.size a ≤ S8192x192.size a
  hwx6_4 : ∀ i : grid6.Coords, EltTy.bits .f32 = 32 ∨ (Rect.block (s := S8192x192) S1024x192.size (cc6_transform_4 i) (hinb6_4 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x192.size a ≤ S8192x192.size a
  hwx7_0 : ∀ i : grid7.Coords, EltTy.bits .f32 = 32 ∨ (Rect.block (s := S8192x192) S2048x192.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S192x64.size a ≤ S192x64.size a
  hwx7_1 : ∀ i : grid7.Coords, EltTy.bits .f32 = 32 ∨ (Rect.block (s := S192x64) S192x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S192x128.size a ≤ S192x128.size a
  hwx7_2 : ∀ i : grid7.Coords, EltTy.bits .f32 = 32 ∨ (Rect.block (s := S192x128) S192x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2048x1.size a ≤ S8192x1.size a
  hwx7_4 : ∀ i : grid7.Coords, EltTy.bits .f32 = 32 ∨ (Rect.block (s := S8192x1) S2048x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2048x64.size a ≤ S8192x64.size a
  hwx7_5 : ∀ i : grid7.Coords, EltTy.bits .bf16 = 32 ∨ (Rect.block (s := S8192x64) S2048x64.size (cc7_transform_5 i) (hinb7_5 i)).WholeWords (EltTy.packing .bf16)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2048x128.size a ≤ S8192x128.size a
  hwx7_6 : ∀ i : grid7.Coords, EltTy.bits .f32 = 32 ∨ (Rect.block (s := S8192x128) S2048x128.size (cc7_transform_6 i) (hinb7_6 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x8192.size a ≤ S8192x8192.size a
  hwx8_0 : ∀ i : grid8.Coords, EltTy.bits .bf16 = 32 ∨ (Rect.block (s := S8192x8192) S1024x8192.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S8192x64.size a ≤ S8192x64.size a
  hwx8_1 : ∀ i : grid8.Coords, EltTy.bits .bf16 = 32 ∨ (Rect.block (s := S8192x64) S8192x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S8192x128.size a
  hwx8_2 : ∀ i : grid8.Coords, EltTy.bits .f32 = 32 ∨ (Rect.block (s := S8192x128) S1024x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1024x192.size a ≤ S8192x192.size a
  hwx8_4 : ∀ i : grid8.Coords, EltTy.bits .f32 = 32 ∨ (Rect.block (s := S8192x192) S1024x192.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x192.size a ≤ S8192x192.size a
  hwx8_5 : ∀ i : grid8.Coords, EltTy.bits .f32 = 32 ∨ (Rect.block (s := S8192x192) S1024x192.size (cc8_transform_5 i) (hinb8_5 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x192.size a ≤ S8192x192.size a
  hwx9_0 : ∀ i : grid9.Coords, EltTy.bits .f32 = 32 ∨ (Rect.block (s := S8192x192) S2048x192.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S192x64.size a ≤ S192x64.size a
  hwx9_1 : ∀ i : grid9.Coords, EltTy.bits .f32 = 32 ∨ (Rect.block (s := S192x64) S192x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S192x128.size a ≤ S192x128.size a
  hwx9_2 : ∀ i : grid9.Coords, EltTy.bits .f32 = 32 ∨ (Rect.block (s := S192x128) S192x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2048x1.size a ≤ S8192x1.size a
  hwx9_4 : ∀ i : grid9.Coords, EltTy.bits .f32 = 32 ∨ (Rect.block (s := S8192x1) S2048x1.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2048x64.size a ≤ S8192x64.size a
  hwx9_5 : ∀ i : grid9.Coords, EltTy.bits .bf16 = 32 ∨ (Rect.block (s := S8192x64) S2048x64.size (cc9_transform_5 i) (hinb9_5 i)).WholeWords (EltTy.packing .bf16)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2048x128.size a ≤ S8192x128.size a
  hwx9_6 : ∀ i : grid9.Coords, EltTy.bits .f32 = 32 ∨ (Rect.block (s := S8192x128) S2048x128.size (cc9_transform_6 i) (hinb9_6 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x8192.size a ≤ S8192x8192.size a
  hwx10_0 : ∀ i : grid10.Coords, EltTy.bits .bf16 = 32 ∨ (Rect.block (s := S8192x8192) S1024x8192.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S8192x64.size a ≤ S8192x64.size a
  hwx10_1 : ∀ i : grid10.Coords, EltTy.bits .bf16 = 32 ∨ (Rect.block (s := S8192x64) S8192x64.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x128.size a ≤ S8192x128.size a
  hwx10_2 : ∀ i : grid10.Coords, EltTy.bits .f32 = 32 ∨ (Rect.block (s := S8192x128) S1024x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1024x192.size a ≤ S8192x192.size a
  hwx10_4 : ∀ i : grid10.Coords, EltTy.bits .f32 = 32 ∨ (Rect.block (s := S8192x192) S1024x192.size (cc10_transform_4 i) (hinb10_4 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x192.size a ≤ S8192x192.size a
  hwx11_0 : ∀ i : grid11.Coords, EltTy.bits .f32 = 32 ∨ (Rect.block (s := S8192x192) S2048x192.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S192x64.size a ≤ S192x64.size a
  hwx11_1 : ∀ i : grid11.Coords, EltTy.bits .f32 = 32 ∨ (Rect.block (s := S192x64) S192x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S192x128.size a ≤ S192x128.size a
  hwx11_2 : ∀ i : grid11.Coords, EltTy.bits .f32 = 32 ∨ (Rect.block (s := S192x128) S192x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2048x1.size a ≤ S8192x1.size a
  hwx11_4 : ∀ i : grid11.Coords, EltTy.bits .f32 = 32 ∨ (Rect.block (s := S8192x1) S2048x1.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2048x64.size a ≤ S8192x64.size a
  hwx11_5 : ∀ i : grid11.Coords, EltTy.bits .bf16 = 32 ∨ (Rect.block (s := S8192x64) S2048x64.size (cc11_transform_5 i) (hinb11_5 i)).WholeWords (EltTy.packing .bf16)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S2048x128.size a ≤ S8192x128.size a
  hwx11_6 : ∀ i : grid11.Coords, EltTy.bits .f32 = 32 ∨ (Rect.block (s := S8192x128) S2048x128.size (cc11_transform_6 i) (hinb11_6 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x8192.size a ≤ S8192x8192.size a
  hwx12_0 : ∀ i : grid12.Coords, EltTy.bits .bf16 = 32 ∨ (Rect.block (s := S8192x8192) S1024x8192.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S8192x64.size a ≤ S8192x64.size a
  hwx12_1 : ∀ i : grid12.Coords, EltTy.bits .bf16 = 32 ∨ (Rect.block (s := S8192x64) S8192x64.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x128.size a ≤ S8192x128.size a
  hwx12_2 : ∀ i : grid12.Coords, EltTy.bits .f32 = 32 ∨ (Rect.block (s := S8192x128) S1024x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1024x192.size a ≤ S8192x192.size a
  hwx12_4 : ∀ i : grid12.Coords, EltTy.bits .f32 = 32 ∨ (Rect.block (s := S8192x192) S1024x192.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1024x192.size a ≤ S8192x192.size a
  hwx12_5 : ∀ i : grid12.Coords, EltTy.bits .f32 = 32 ∨ (Rect.block (s := S8192x192) S1024x192.size (cc12_transform_5 i) (hinb12_5 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x192.size a ≤ S8192x192.size a
  hwx13_0 : ∀ i : grid13.Coords, EltTy.bits .f32 = 32 ∨ (Rect.block (s := S8192x192) S2048x192.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S192x64.size a ≤ S192x64.size a
  hwx13_1 : ∀ i : grid13.Coords, EltTy.bits .f32 = 32 ∨ (Rect.block (s := S192x64) S192x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S192x128.size a ≤ S192x128.size a
  hwx13_2 : ∀ i : grid13.Coords, EltTy.bits .f32 = 32 ∨ (Rect.block (s := S192x128) S192x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2048x1.size a ≤ S8192x1.size a
  hwx13_4 : ∀ i : grid13.Coords, EltTy.bits .f32 = 32 ∨ (Rect.block (s := S8192x1) S2048x1.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2048x64.size a ≤ S8192x64.size a
  hwx13_5 : ∀ i : grid13.Coords, EltTy.bits .bf16 = 32 ∨ (Rect.block (s := S8192x64) S2048x64.size (cc13_transform_5 i) (hinb13_5 i)).WholeWords (EltTy.packing .bf16)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S2048x128.size a ≤ S8192x128.size a
  hwx13_6 : ∀ i : grid13.Coords, EltTy.bits .f32 = 32 ∨ (Rect.block (s := S8192x128) S2048x128.size (cc13_transform_6 i) (hinb13_6 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1024x8192.size a ≤ S8192x8192.size a
  hwx14_0 : ∀ i : grid14.Coords, EltTy.bits .bf16 = 32 ∨ (Rect.block (s := S8192x8192) S1024x8192.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S8192x64.size a ≤ S8192x64.size a
  hwx14_1 : ∀ i : grid14.Coords, EltTy.bits .bf16 = 32 ∨ (Rect.block (s := S8192x64) S8192x64.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1024x128.size a ≤ S8192x128.size a
  hwx14_2 : ∀ i : grid14.Coords, EltTy.bits .f32 = 32 ∨ (Rect.block (s := S8192x128) S1024x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S1024x192.size a ≤ S8192x192.size a
  hwx14_4 : ∀ i : grid14.Coords, EltTy.bits .f32 = 32 ∨ (Rect.block (s := S8192x192) S1024x192.size (cc14_transform_4 i) (hinb14_4 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2048x192.size a ≤ S8192x192.size a
  hwx15_0 : ∀ i : grid15.Coords, EltTy.bits .f32 = 32 ∨ (Rect.block (s := S8192x192) S2048x192.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S192x64.size a ≤ S192x64.size a
  hwx15_1 : ∀ i : grid15.Coords, EltTy.bits .f32 = 32 ∨ (Rect.block (s := S192x64) S192x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S192x128.size a ≤ S192x128.size a
  hwx15_2 : ∀ i : grid15.Coords, EltTy.bits .f32 = 32 ∨ (Rect.block (s := S192x128) S192x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S2048x1.size a ≤ S8192x1.size a
  hwx15_4 : ∀ i : grid15.Coords, EltTy.bits .f32 = 32 ∨ (Rect.block (s := S8192x1) S2048x1.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S2048x64.size a ≤ S8192x64.size a
  hwx15_5 : ∀ i : grid15.Coords, EltTy.bits .bf16 = 32 ∨ (Rect.block (s := S8192x64) S2048x64.size (cc15_transform_5 i) (hinb15_5 i)).WholeWords (EltTy.packing .bf16)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S2048x128.size a ≤ S8192x128.size a
  hwx15_6 : ∀ i : grid15.Coords, EltTy.bits .f32 = 32 ∨ (Rect.block (s := S8192x128) S2048x128.size (cc15_transform_6 i) (hinb15_6 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1024x8192.size a ≤ S8192x8192.size a
  hwx16_0 : ∀ i : grid16.Coords, EltTy.bits .bf16 = 32 ∨ (Rect.block (s := S8192x8192) S1024x8192.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S8192x64.size a ≤ S8192x64.size a
  hwx16_1 : ∀ i : grid16.Coords, EltTy.bits .bf16 = 32 ∨ (Rect.block (s := S8192x64) S8192x64.size (cc16_transform_1 i) (hinb16_1 i)).WholeWords (EltTy.packing .bf16)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1024x128.size a ≤ S8192x128.size a
  hwx16_2 : ∀ i : grid16.Coords, EltTy.bits .f32 = 32 ∨ (Rect.block (s := S8192x128) S1024x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x64.size a ≤ S1x64.size a
  hwx16_3 : ∀ i : grid16.Coords, EltTy.bits .f32 = 32 ∨ (Rect.block (s := S1x64) S1x64.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S1024x192.size a ≤ S8192x192.size a
  hwx16_4 : ∀ i : grid16.Coords, EltTy.bits .f32 = 32 ∨ (Rect.block (s := S8192x192) S1024x192.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S1024x192.size a ≤ S8192x192.size a
  hwx16_5 : ∀ i : grid16.Coords, EltTy.bits .f32 = 32 ∨ (Rect.block (s := S8192x192) S1024x192.size (cc16_transform_5 i) (hinb16_5 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2048x192.size a ≤ S8192x192.size a
  hwx17_0 : ∀ i : grid17.Coords, EltTy.bits .f32 = 32 ∨ (Rect.block (s := S8192x192) S2048x192.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S192x64.size a ≤ S192x64.size a
  hwx17_1 : ∀ i : grid17.Coords, EltTy.bits .f32 = 32 ∨ (Rect.block (s := S192x64) S192x64.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S192x128.size a ≤ S192x128.size a
  hwx17_2 : ∀ i : grid17.Coords, EltTy.bits .f32 = 32 ∨ (Rect.block (s := S192x128) S192x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S2048x1.size a ≤ S8192x1.size a
  hwx17_4 : ∀ i : grid17.Coords, EltTy.bits .f32 = 32 ∨ (Rect.block (s := S8192x1) S2048x1.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S2048x64.size a ≤ S8192x64.size a
  hwx17_5 : ∀ i : grid17.Coords, EltTy.bits .bf16 = 32 ∨ (Rect.block (s := S8192x64) S2048x64.size (cc17_transform_5 i) (hinb17_5 i)).WholeWords (EltTy.packing .bf16)
  hstage17_6 : ∀ j, (stage17_6 j).IsWhole
  nbuf17_6 : grid17.bufCount reads17_6 false = 2
  hreads17_6 : ∀ i i' : grid17.Coords, (∀ a, reads17_6 a = true → i a = i' a) → cc17_transform_6 i = cc17_transform_6 i'
  hinb17_6 : ∀ (i : grid17.Coords) a, (cc17_transform_6 i a + 1) * S2048x128.size a ≤ S8192x128.size a
  hwx17_6 : ∀ i : grid17.Coords, EltTy.bits .f32 = 32 ∨ (Rect.block (s := S8192x128) S2048x128.size (cc17_transform_6 i) (hinb17_6 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1024x8192.size a ≤ S8192x8192.size a
  hwx18_0 : ∀ i : grid18.Coords, EltTy.bits .bf16 = 32 ∨ (Rect.block (s := S8192x8192) S1024x8192.size (cc18_transform_0 i) (hinb18_0 i)).WholeWords (EltTy.packing .bf16)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S8192x64.size a ≤ S8192x64.size a
  hwx18_1 : ∀ i : grid18.Coords, EltTy.bits .bf16 = 32 ∨ (Rect.block (s := S8192x64) S8192x64.size (cc18_transform_1 i) (hinb18_1 i)).WholeWords (EltTy.packing .bf16)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1024x128.size a ≤ S8192x128.size a
  hwx18_2 : ∀ i : grid18.Coords, EltTy.bits .f32 = 32 ∨ (Rect.block (s := S8192x128) S1024x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x64.size a ≤ S1x64.size a
  hwx18_3 : ∀ i : grid18.Coords, EltTy.bits .f32 = 32 ∨ (Rect.block (s := S1x64) S1x64.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S1024x192.size a ≤ S8192x192.size a
  hwx18_4 : ∀ i : grid18.Coords, EltTy.bits .f32 = 32 ∨ (Rect.block (s := S8192x192) S1024x192.size (cc18_transform_4 i) (hinb18_4 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2048x192.size a ≤ S8192x192.size a
  hwx19_0 : ∀ i : grid19.Coords, EltTy.bits .f32 = 32 ∨ (Rect.block (s := S8192x192) S2048x192.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S192x64.size a ≤ S192x64.size a
  hwx19_1 : ∀ i : grid19.Coords, EltTy.bits .f32 = 32 ∨ (Rect.block (s := S192x64) S192x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S192x128.size a ≤ S192x128.size a
  hwx19_2 : ∀ i : grid19.Coords, EltTy.bits .f32 = 32 ∨ (Rect.block (s := S192x128) S192x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x128.size a ≤ S1x128.size a
  hwx19_3 : ∀ i : grid19.Coords, EltTy.bits .f32 = 32 ∨ (Rect.block (s := S1x128) S1x128.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S2048x1.size a ≤ S8192x1.size a
  hwx19_4 : ∀ i : grid19.Coords, EltTy.bits .f32 = 32 ∨ (Rect.block (s := S8192x1) S2048x1.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S2048x64.size a ≤ S8192x64.size a
  hwx19_5 : ∀ i : grid19.Coords, EltTy.bits .bf16 = 32 ∨ (Rect.block (s := S8192x64) S2048x64.size (cc19_transform_5 i) (hinb19_5 i)).WholeWords (EltTy.packing .bf16)
  hstage19_6 : ∀ j, (stage19_6 j).IsWhole
  nbuf19_6 : grid19.bufCount reads19_6 false = 2
  hreads19_6 : ∀ i i' : grid19.Coords, (∀ a, reads19_6 a = true → i a = i' a) → cc19_transform_6 i = cc19_transform_6 i'
  hinb19_6 : ∀ (i : grid19.Coords) a, (cc19_transform_6 i a + 1) * S2048x128.size a ≤ S8192x128.size a
  hwx19_6 : ∀ i : grid19.Coords, EltTy.bits .f32 = 32 ∨ (Rect.block (s := S8192x128) S2048x128.size (cc19_transform_6 i) (hinb19_6 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S1024x8192.size a ≤ S8192x8192.size a
  hwx20_0 : ∀ i : grid20.Coords, EltTy.bits .bf16 = 32 ∨ (Rect.block (s := S8192x8192) S1024x8192.size (cc20_transform_0 i) (hinb20_0 i)).WholeWords (EltTy.packing .bf16)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S8192x64.size a ≤ S8192x64.size a
  hwx20_1 : ∀ i : grid20.Coords, EltTy.bits .bf16 = 32 ∨ (Rect.block (s := S8192x64) S8192x64.size (cc20_transform_1 i) (hinb20_1 i)).WholeWords (EltTy.packing .bf16)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S1024x128.size a ≤ S8192x128.size a
  hwx20_2 : ∀ i : grid20.Coords, EltTy.bits .f32 = 32 ∨ (Rect.block (s := S8192x128) S1024x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x64.size a ≤ S1x64.size a
  hwx20_3 : ∀ i : grid20.Coords, EltTy.bits .f32 = 32 ∨ (Rect.block (s := S1x64) S1x64.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S1024x192.size a ≤ S8192x192.size a
  hwx20_4 : ∀ i : grid20.Coords, EltTy.bits .f32 = 32 ∨ (Rect.block (s := S8192x192) S1024x192.size (cc20_transform_4 i) (hinb20_4 i)).WholeWords (EltTy.packing .f32)
  hstage20_5 : ∀ j, (stage20_5 j).IsWhole
  nbuf20_5 : grid20.bufCount reads20_5 false = 2
  hreads20_5 : ∀ i i' : grid20.Coords, (∀ a, reads20_5 a = true → i a = i' a) → cc20_transform_5 i = cc20_transform_5 i'
  hinb20_5 : ∀ (i : grid20.Coords) a, (cc20_transform_5 i a + 1) * S1024x192.size a ≤ S8192x192.size a
  hwx20_5 : ∀ i : grid20.Coords, EltTy.bits .f32 = 32 ∨ (Rect.block (s := S8192x192) S1024x192.size (cc20_transform_5 i) (hinb20_5 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2048x192.size a ≤ S8192x192.size a
  hwx21_0 : ∀ i : grid21.Coords, EltTy.bits .f32 = 32 ∨ (Rect.block (s := S8192x192) S2048x192.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S192x64.size a ≤ S192x64.size a
  hwx21_1 : ∀ i : grid21.Coords, EltTy.bits .f32 = 32 ∨ (Rect.block (s := S192x64) S192x64.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S192x128.size a ≤ S192x128.size a
  hwx21_2 : ∀ i : grid21.Coords, EltTy.bits .f32 = 32 ∨ (Rect.block (s := S192x128) S192x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x128.size a ≤ S1x128.size a
  hwx21_3 : ∀ i : grid21.Coords, EltTy.bits .f32 = 32 ∨ (Rect.block (s := S1x128) S1x128.size (cc21_transform_3 i) (hinb21_3 i)).WholeWords (EltTy.packing .f32)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S2048x1.size a ≤ S8192x1.size a
  hwx21_4 : ∀ i : grid21.Coords, EltTy.bits .f32 = 32 ∨ (Rect.block (s := S8192x1) S2048x1.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S2048x64.size a ≤ S8192x64.size a
  hwx21_5 : ∀ i : grid21.Coords, EltTy.bits .bf16 = 32 ∨ (Rect.block (s := S8192x64) S2048x64.size (cc21_transform_5 i) (hinb21_5 i)).WholeWords (EltTy.packing .bf16)
  hstage21_6 : ∀ j, (stage21_6 j).IsWhole
  nbuf21_6 : grid21.bufCount reads21_6 false = 2
  hreads21_6 : ∀ i i' : grid21.Coords, (∀ a, reads21_6 a = true → i a = i' a) → cc21_transform_6 i = cc21_transform_6 i'
  hinb21_6 : ∀ (i : grid21.Coords) a, (cc21_transform_6 i a + 1) * S2048x128.size a ≤ S8192x128.size a
  hwx21_6 : ∀ i : grid21.Coords, EltTy.bits .f32 = 32 ∨ (Rect.block (s := S8192x128) S2048x128.size (cc21_transform_6 i) (hinb21_6 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S1024x8192.size a ≤ S8192x8192.size a
  hwx22_0 : ∀ i : grid22.Coords, EltTy.bits .bf16 = 32 ∨ (Rect.block (s := S8192x8192) S1024x8192.size (cc22_transform_0 i) (hinb22_0 i)).WholeWords (EltTy.packing .bf16)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S8192x64.size a ≤ S8192x64.size a
  hwx22_1 : ∀ i : grid22.Coords, EltTy.bits .bf16 = 32 ∨ (Rect.block (s := S8192x64) S8192x64.size (cc22_transform_1 i) (hinb22_1 i)).WholeWords (EltTy.packing .bf16)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S1024x128.size a ≤ S8192x128.size a
  hwx22_2 : ∀ i : grid22.Coords, EltTy.bits .f32 = 32 ∨ (Rect.block (s := S8192x128) S1024x128.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S1x64.size a ≤ S1x64.size a
  hwx22_3 : ∀ i : grid22.Coords, EltTy.bits .f32 = 32 ∨ (Rect.block (s := S1x64) S1x64.size (cc22_transform_3 i) (hinb22_3 i)).WholeWords (EltTy.packing .f32)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S1024x192.size a ≤ S8192x192.size a
  hwx22_4 : ∀ i : grid22.Coords, EltTy.bits .f32 = 32 ∨ (Rect.block (s := S8192x192) S1024x192.size (cc22_transform_4 i) (hinb22_4 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S2048x192.size a ≤ S8192x192.size a
  hwx23_0 : ∀ i : grid23.Coords, EltTy.bits .f32 = 32 ∨ (Rect.block (s := S8192x192) S2048x192.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S192x64.size a ≤ S192x64.size a
  hwx23_1 : ∀ i : grid23.Coords, EltTy.bits .f32 = 32 ∨ (Rect.block (s := S192x64) S192x64.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S192x128.size a ≤ S192x128.size a
  hwx23_2 : ∀ i : grid23.Coords, EltTy.bits .f32 = 32 ∨ (Rect.block (s := S192x128) S192x128.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S1x128.size a ≤ S1x128.size a
  hwx23_3 : ∀ i : grid23.Coords, EltTy.bits .f32 = 32 ∨ (Rect.block (s := S1x128) S1x128.size (cc23_transform_3 i) (hinb23_3 i)).WholeWords (EltTy.packing .f32)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S2048x1.size a ≤ S8192x1.size a
  hwx23_4 : ∀ i : grid23.Coords, EltTy.bits .f32 = 32 ∨ (Rect.block (s := S8192x1) S2048x1.size (cc23_transform_4 i) (hinb23_4 i)).WholeWords (EltTy.packing .f32)
  hstage23_5 : ∀ j, (stage23_5 j).IsWhole
  nbuf23_5 : grid23.bufCount reads23_5 false = 2
  hreads23_5 : ∀ i i' : grid23.Coords, (∀ a, reads23_5 a = true → i a = i' a) → cc23_transform_5 i = cc23_transform_5 i'
  hinb23_5 : ∀ (i : grid23.Coords) a, (cc23_transform_5 i a + 1) * S2048x64.size a ≤ S8192x64.size a
  hwx23_5 : ∀ i : grid23.Coords, EltTy.bits .bf16 = 32 ∨ (Rect.block (s := S8192x64) S2048x64.size (cc23_transform_5 i) (hinb23_5 i)).WholeWords (EltTy.packing .bf16)
  hstage23_6 : ∀ j, (stage23_6 j).IsWhole
  nbuf23_6 : grid23.bufCount reads23_6 false = 2
  hreads23_6 : ∀ i i' : grid23.Coords, (∀ a, reads23_6 a = true → i a = i' a) → cc23_transform_6 i = cc23_transform_6 i'
  hinb23_6 : ∀ (i : grid23.Coords) a, (cc23_transform_6 i a + 1) * S2048x128.size a ≤ S8192x128.size a
  hwx23_6 : ∀ i : grid23.Coords, EltTy.bits .f32 = 32 ∨ (Rect.block (s := S8192x128) S2048x128.size (cc23_transform_6 i) (hinb23_6 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S1024x8192.size a ≤ S8192x8192.size a
  hwx24_0 : ∀ i : grid24.Coords, EltTy.bits .bf16 = 32 ∨ (Rect.block (s := S8192x8192) S1024x8192.size (cc24_transform_0 i) (hinb24_0 i)).WholeWords (EltTy.packing .bf16)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S8192x64.size a ≤ S8192x64.size a
  hwx24_1 : ∀ i : grid24.Coords, EltTy.bits .bf16 = 32 ∨ (Rect.block (s := S8192x64) S8192x64.size (cc24_transform_1 i) (hinb24_1 i)).WholeWords (EltTy.packing .bf16)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S1024x128.size a ≤ S8192x128.size a
  hwx24_2 : ∀ i : grid24.Coords, EltTy.bits .f32 = 32 ∨ (Rect.block (s := S8192x128) S1024x128.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S1x64.size a ≤ S1x64.size a
  hwx24_3 : ∀ i : grid24.Coords, EltTy.bits .f32 = 32 ∨ (Rect.block (s := S1x64) S1x64.size (cc24_transform_3 i) (hinb24_3 i)).WholeWords (EltTy.packing .f32)
  hstage24_4 : ∀ j, (stage24_4 j).IsWhole
  nbuf24_4 : grid24.bufCount reads24_4 false = 2
  hreads24_4 : ∀ i i' : grid24.Coords, (∀ a, reads24_4 a = true → i a = i' a) → cc24_transform_4 i = cc24_transform_4 i'
  hinb24_4 : ∀ (i : grid24.Coords) a, (cc24_transform_4 i a + 1) * S1024x192.size a ≤ S8192x192.size a
  hwx24_4 : ∀ i : grid24.Coords, EltTy.bits .f32 = 32 ∨ (Rect.block (s := S8192x192) S1024x192.size (cc24_transform_4 i) (hinb24_4 i)).WholeWords (EltTy.packing .f32)
  hstage24_5 : ∀ j, (stage24_5 j).IsWhole
  nbuf24_5 : grid24.bufCount reads24_5 false = 2
  hreads24_5 : ∀ i i' : grid24.Coords, (∀ a, reads24_5 a = true → i a = i' a) → cc24_transform_5 i = cc24_transform_5 i'
  hinb24_5 : ∀ (i : grid24.Coords) a, (cc24_transform_5 i a + 1) * S1024x192.size a ≤ S8192x192.size a
  hwx24_5 : ∀ i : grid24.Coords, EltTy.bits .f32 = 32 ∨ (Rect.block (s := S8192x192) S1024x192.size (cc24_transform_5 i) (hinb24_5 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S2048x192.size a ≤ S8192x192.size a
  hwx25_0 : ∀ i : grid25.Coords, EltTy.bits .f32 = 32 ∨ (Rect.block (s := S8192x192) S2048x192.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S192x64.size a ≤ S192x64.size a
  hwx25_1 : ∀ i : grid25.Coords, EltTy.bits .f32 = 32 ∨ (Rect.block (s := S192x64) S192x64.size (cc25_transform_1 i) (hinb25_1 i)).WholeWords (EltTy.packing .f32)
  hstage25_2 : ∀ j, (stage25_2 j).IsWhole
  nbuf25_2 : grid25.bufCount reads25_2 true = 1
  hreads25_2 : ∀ i i' : grid25.Coords, (∀ a, reads25_2 a = true → i a = i' a) → cc25_transform_2 i = cc25_transform_2 i'
  hinb25_2 : ∀ (i : grid25.Coords) a, (cc25_transform_2 i a + 1) * S192x128.size a ≤ S192x128.size a
  hwx25_2 : ∀ i : grid25.Coords, EltTy.bits .f32 = 32 ∨ (Rect.block (s := S192x128) S192x128.size (cc25_transform_2 i) (hinb25_2 i)).WholeWords (EltTy.packing .f32)
  hstage25_3 : ∀ j, (stage25_3 j).IsWhole
  nbuf25_3 : grid25.bufCount reads25_3 true = 1
  hreads25_3 : ∀ i i' : grid25.Coords, (∀ a, reads25_3 a = true → i a = i' a) → cc25_transform_3 i = cc25_transform_3 i'
  hinb25_3 : ∀ (i : grid25.Coords) a, (cc25_transform_3 i a + 1) * S1x128.size a ≤ S1x128.size a
  hwx25_3 : ∀ i : grid25.Coords, EltTy.bits .f32 = 32 ∨ (Rect.block (s := S1x128) S1x128.size (cc25_transform_3 i) (hinb25_3 i)).WholeWords (EltTy.packing .f32)
  hstage25_4 : ∀ j, (stage25_4 j).IsWhole
  nbuf25_4 : grid25.bufCount reads25_4 false = 2
  hreads25_4 : ∀ i i' : grid25.Coords, (∀ a, reads25_4 a = true → i a = i' a) → cc25_transform_4 i = cc25_transform_4 i'
  hinb25_4 : ∀ (i : grid25.Coords) a, (cc25_transform_4 i a + 1) * S2048x1.size a ≤ S8192x1.size a
  hwx25_4 : ∀ i : grid25.Coords, EltTy.bits .f32 = 32 ∨ (Rect.block (s := S8192x1) S2048x1.size (cc25_transform_4 i) (hinb25_4 i)).WholeWords (EltTy.packing .f32)
  hstage25_5 : ∀ j, (stage25_5 j).IsWhole
  nbuf25_5 : grid25.bufCount reads25_5 false = 2
  hreads25_5 : ∀ i i' : grid25.Coords, (∀ a, reads25_5 a = true → i a = i' a) → cc25_transform_5 i = cc25_transform_5 i'
  hinb25_5 : ∀ (i : grid25.Coords) a, (cc25_transform_5 i a + 1) * S2048x64.size a ≤ S8192x64.size a
  hwx25_5 : ∀ i : grid25.Coords, EltTy.bits .bf16 = 32 ∨ (Rect.block (s := S8192x64) S2048x64.size (cc25_transform_5 i) (hinb25_5 i)).WholeWords (EltTy.packing .bf16)
  hstage25_6 : ∀ j, (stage25_6 j).IsWhole
  nbuf25_6 : grid25.bufCount reads25_6 false = 2
  hreads25_6 : ∀ i i' : grid25.Coords, (∀ a, reads25_6 a = true → i a = i' a) → cc25_transform_6 i = cc25_transform_6 i'
  hinb25_6 : ∀ (i : grid25.Coords) a, (cc25_transform_6 i a + 1) * S2048x128.size a ≤ S8192x128.size a
  hwx25_6 : ∀ i : grid25.Coords, EltTy.bits .f32 = 32 ∨ (Rect.block (s := S8192x128) S2048x128.size (cc25_transform_6 i) (hinb25_6 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S1024x8192.size a ≤ S8192x8192.size a
  hwx26_0 : ∀ i : grid26.Coords, EltTy.bits .bf16 = 32 ∨ (Rect.block (s := S8192x8192) S1024x8192.size (cc26_transform_0 i) (hinb26_0 i)).WholeWords (EltTy.packing .bf16)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S8192x64.size a ≤ S8192x64.size a
  hwx26_1 : ∀ i : grid26.Coords, EltTy.bits .bf16 = 32 ∨ (Rect.block (s := S8192x64) S8192x64.size (cc26_transform_1 i) (hinb26_1 i)).WholeWords (EltTy.packing .bf16)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S1024x128.size a ≤ S8192x128.size a
  hwx26_2 : ∀ i : grid26.Coords, EltTy.bits .f32 = 32 ∨ (Rect.block (s := S8192x128) S1024x128.size (cc26_transform_2 i) (hinb26_2 i)).WholeWords (EltTy.packing .f32)
  hstage26_3 : ∀ j, (stage26_3 j).IsWhole
  nbuf26_3 : grid26.bufCount reads26_3 true = 1
  hreads26_3 : ∀ i i' : grid26.Coords, (∀ a, reads26_3 a = true → i a = i' a) → cc26_transform_3 i = cc26_transform_3 i'
  hinb26_3 : ∀ (i : grid26.Coords) a, (cc26_transform_3 i a + 1) * S1x64.size a ≤ S1x64.size a
  hwx26_3 : ∀ i : grid26.Coords, EltTy.bits .f32 = 32 ∨ (Rect.block (s := S1x64) S1x64.size (cc26_transform_3 i) (hinb26_3 i)).WholeWords (EltTy.packing .f32)
  hstage26_4 : ∀ j, (stage26_4 j).IsWhole
  nbuf26_4 : grid26.bufCount reads26_4 false = 2
  hreads26_4 : ∀ i i' : grid26.Coords, (∀ a, reads26_4 a = true → i a = i' a) → cc26_transform_4 i = cc26_transform_4 i'
  hinb26_4 : ∀ (i : grid26.Coords) a, (cc26_transform_4 i a + 1) * S1024x192.size a ≤ S8192x192.size a
  hwx26_4 : ∀ i : grid26.Coords, EltTy.bits .f32 = 32 ∨ (Rect.block (s := S8192x192) S1024x192.size (cc26_transform_4 i) (hinb26_4 i)).WholeWords (EltTy.packing .f32)
  hstage26_5 : ∀ j, (stage26_5 j).IsWhole
  nbuf26_5 : grid26.bufCount reads26_5 false = 2
  hreads26_5 : ∀ i i' : grid26.Coords, (∀ a, reads26_5 a = true → i a = i' a) → cc26_transform_5 i = cc26_transform_5 i'
  hinb26_5 : ∀ (i : grid26.Coords) a, (cc26_transform_5 i a + 1) * S1024x192.size a ≤ S8192x192.size a
  hwx26_5 : ∀ i : grid26.Coords, EltTy.bits .f32 = 32 ∨ (Rect.block (s := S8192x192) S1024x192.size (cc26_transform_5 i) (hinb26_5 i)).WholeWords (EltTy.packing .f32)

class K27.Facts₀ : Prop where
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S2048x192.size a ≤ S8192x192.size a
  hwx27_0 : ∀ i : grid27.Coords, EltTy.bits .f32 = 32 ∨ (Rect.block (s := S8192x192) S2048x192.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S192x2.size a ≤ S192x2.size a
  hwx27_1 : ∀ i : grid27.Coords, EltTy.bits .f32 = 32 ∨ (Rect.block (s := S192x2) S192x2.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S192x1.size a ≤ S192x1.size a
  hwx27_2 : ∀ i : grid27.Coords, EltTy.bits .f32 = 32 ∨ (Rect.block (s := S192x1) S192x1.size (cc27_transform_2 i) (hinb27_2 i)).WholeWords (EltTy.packing .f32)
  hstage27_3 : ∀ j, (stage27_3 j).IsWhole
  nbuf27_3 : grid27.bufCount reads27_3 true = 1
  hreads27_3 : ∀ i i' : grid27.Coords, (∀ a, reads27_3 a = true → i a = i' a) → cc27_transform_3 i = cc27_transform_3 i'
  hinb27_3 : ∀ (i : grid27.Coords) a, (cc27_transform_3 i a + 1) * S1x1.size a ≤ S1x1.size a
  hwx27_3 : ∀ i : grid27.Coords, EltTy.bits .f32 = 32 ∨ (Rect.block (s := S1x1) S1x1.size (cc27_transform_3 i) (hinb27_3 i)).WholeWords (EltTy.packing .f32)
  hstage27_4 : ∀ j, (stage27_4 j).IsWhole
  nbuf27_4 : grid27.bufCount reads27_4 false = 2
  hreads27_4 : ∀ i i' : grid27.Coords, (∀ a, reads27_4 a = true → i a = i' a) → cc27_transform_4 i = cc27_transform_4 i'
  hinb27_4 : ∀ (i : grid27.Coords) a, (cc27_transform_4 i a + 1) * S2048x1.size a ≤ S8192x1.size a
  hwx27_4 : ∀ i : grid27.Coords, EltTy.bits .f32 = 32 ∨ (Rect.block (s := S8192x1) S2048x1.size (cc27_transform_4 i) (hinb27_4 i)).WholeWords (EltTy.packing .f32)
  hstage27_5 : ∀ j, (stage27_5 j).IsWhole
  nbuf27_5 : grid27.bufCount reads27_5 false = 2
  hreads27_5 : ∀ i i' : grid27.Coords, (∀ a, reads27_5 a = true → i a = i' a) → cc27_transform_5 i = cc27_transform_5 i'
  hinb27_5 : ∀ (i : grid27.Coords) a, (cc27_transform_5 i a + 1) * S2048x2.size a ≤ S8192x2.size a
  hwx27_5 : ∀ i : grid27.Coords, EltTy.bits .bf16 = 32 ∨ (Rect.block (s := S8192x2) S2048x2.size (cc27_transform_5 i) (hinb27_5 i)).WholeWords (EltTy.packing .bf16)
  hstage27_6 : ∀ j, (stage27_6 j).IsWhole
  nbuf27_6 : grid27.bufCount reads27_6 false = 2
  hreads27_6 : ∀ i i' : grid27.Coords, (∀ a, reads27_6 a = true → i a = i' a) → cc27_transform_6 i = cc27_transform_6 i'
  hinb27_6 : ∀ (i : grid27.Coords) a, (cc27_transform_6 i a + 1) * S2048x1.size a ≤ S8192x1.size a
  hwx27_6 : ∀ i : grid27.Coords, EltTy.bits .f32 = 32 ∨ (Rect.block (s := S8192x1) S2048x1.size (cc27_transform_6 i) (hinb27_6 i)).WholeWords (EltTy.packing .f32)

class K28.Facts₀ : Prop where
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S1024x8192.size a ≤ S8192x8192.size a
  hwx28_0 : ∀ i : grid28.Coords, EltTy.bits .bf16 = 32 ∨ (Rect.block (s := S8192x8192) S1024x8192.size (cc28_transform_0 i) (hinb28_0 i)).WholeWords (EltTy.packing .bf16)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S8192x2.size a ≤ S8192x2.size a
  hwx28_1 : ∀ i : grid28.Coords, EltTy.bits .bf16 = 32 ∨ (Rect.block (s := S8192x2) S8192x2.size (cc28_transform_1 i) (hinb28_1 i)).WholeWords (EltTy.packing .bf16)
  hstage28_2 : ∀ j, (stage28_2 j).IsWhole
  nbuf28_2 : grid28.bufCount reads28_2 false = 2
  hreads28_2 : ∀ i i' : grid28.Coords, (∀ a, reads28_2 a = true → i a = i' a) → cc28_transform_2 i = cc28_transform_2 i'
  hinb28_2 : ∀ (i : grid28.Coords) a, (cc28_transform_2 i a + 1) * S1024x1.size a ≤ S8192x1.size a
  hwx28_2 : ∀ i : grid28.Coords, EltTy.bits .f32 = 32 ∨ (Rect.block (s := S8192x1) S1024x1.size (cc28_transform_2 i) (hinb28_2 i)).WholeWords (EltTy.packing .f32)
  hstage28_3 : ∀ j, (stage28_3 j).IsWhole
  nbuf28_3 : grid28.bufCount reads28_3 true = 1
  hreads28_3 : ∀ i i' : grid28.Coords, (∀ a, reads28_3 a = true → i a = i' a) → cc28_transform_3 i = cc28_transform_3 i'
  hinb28_3 : ∀ (i : grid28.Coords) a, (cc28_transform_3 i a + 1) * S1x2.size a ≤ S1x2.size a
  hwx28_3 : ∀ i : grid28.Coords, EltTy.bits .f32 = 32 ∨ (Rect.block (s := S1x2) S1x2.size (cc28_transform_3 i) (hinb28_3 i)).WholeWords (EltTy.packing .f32)
  hstage28_4 : ∀ j, (stage28_4 j).IsWhole
  nbuf28_4 : grid28.bufCount reads28_4 false = 2
  hreads28_4 : ∀ i i' : grid28.Coords, (∀ a, reads28_4 a = true → i a = i' a) → cc28_transform_4 i = cc28_transform_4 i'
  hinb28_4 : ∀ (i : grid28.Coords) a, (cc28_transform_4 i a + 1) * S1024x3.size a ≤ S8192x3.size a
  hwx28_4 : ∀ i : grid28.Coords, EltTy.bits .f32 = 32 ∨ (Rect.block (s := S8192x3) S1024x3.size (cc28_transform_4 i) (hinb28_4 i)).WholeWords (EltTy.packing .f32)

class Shapes1.Facts₀ : Prop where
  concatenates_S8192x192_S8192x768_S8192x960_d1 : Shape.Concatenates [S8192x192, S8192x768] S8192x960 1
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  slices_S960x192_S960x64_0_0 : S960x192.Slices ![0, 0] S960x64
  slices_S960x192_S960x128_0_64 : S960x192.Slices ![0, 64] S960x128
  slices_S192_S64_0 : S192.Slices ![0] S64
  shapeCasts_S64_S1x64 : S64.ShapeCasts S1x64
  slices_S192_S128_64 : S192.Slices ![64] S128
  shapeCasts_S128_S1x128 : S128.ShapeCasts S1x128
  inb_S2048x960_S2048x960_0_0 : ∀ a, (![0, 0] : Fin 2 → Nat) a + S2048x960.size a ≤ S2048x960.size a
  h_S2048x960 : 0 < S2048x960.numel
  shapeCasts_S2048x960_S2048x960 : S2048x960.ShapeCasts S2048x960
  inb_S960x64_S960x64_0_0 : ∀ a, (![0, 0] : Fin 2 → Nat) a + S960x64.size a ≤ S960x64.size a
  h_S960x64 : 0 < S960x64.numel
  shapeCasts_S960x64_S960x64 : S960x64.ShapeCasts S960x64
  inb_S960x128_S960x128_0_0 : ∀ a, (![0, 0] : Fin 2 → Nat) a + S960x128.size a ≤ S960x128.size a
  h_S960x128 : 0 < S960x128.numel
  shapeCasts_S960x128_S960x128 : S960x128.ShapeCasts S960x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  inb_S2048x128_S2048x128_0_0 : ∀ a, (![0, 0] : Fin 2 → Nat) a + S2048x128.size a ≤ S2048x128.size a
  h_S2048x128 : 0 < S2048x128.numel
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x192_S1024x64_0_0 : ∀ a, (![0, 0] : Fin 2 → Nat) a + S1024x64.size a ≤ S1024x192.size a
  h_S1024x64 : 0 < S1024x64.numel
  inb_S1024x192_S1024x128_0_64 : ∀ a, (![0, 64] : Fin 2 → Nat) a + S1024x128.size a ≤ S1024x192.size a
  slices_S12x192x192_S1x192x192_0_0_0 : S12x192x192.Slices ![0, 0, 0] S1x192x192
  shapeCasts_S1x192x192_S192x192 : S1x192x192.ShapeCasts S192x192
  slices_S12x192_S1x192_0_0 : S12x192.Slices ![0, 0] S1x192
  shapeCasts_S1x192_S192 : S1x192.ShapeCasts S192
  slices_S192x192_S192x64_0_0 : S192x192.Slices ![0, 0] S192x64
  slices_S192x192_S192x128_0_64 : S192x192.Slices ![0, 64] S192x128
  inb_S2048x192_S2048x192_0_0 : ∀ a, (![0, 0] : Fin 2 → Nat) a + S2048x192.size a ≤ S2048x192.size a
  h_S2048x192 : 0 < S2048x192.numel
  shapeCasts_S2048x192_S2048x192 : S2048x192.ShapeCasts S2048x192
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S192x128_S192x128_0_0 : ∀ a, (![0, 0] : Fin 2 → Nat) a + S192x128.size a ≤ S192x128.size a
  h_S192x128 : 0 < S192x128.numel
  shapeCasts_S192x128_S192x128 : S192x128.ShapeCasts S192x128
  slices_S12x192x192_S1x192x192_1_0_0 : S12x192x192.Slices ![1, 0, 0] S1x192x192
  slices_S12x192_S1x192_1_0 : S12x192.Slices ![1, 0] S1x192
  slices_S12x192x192_S1x192x192_2_0_0 : S12x192x192.Slices ![2, 0, 0] S1x192x192
  slices_S12x192_S1x192_2_0 : S12x192.Slices ![2, 0] S1x192
  shapeCasts_S1024x64_S1024x64 : S1024x64.ShapeCasts S1024x64
  slices_S12x192x192_S1x192x192_3_0_0 : S12x192x192.Slices ![3, 0, 0] S1x192x192
  slices_S12x192_S1x192_3_0 : S12x192.Slices ![3, 0] S1x192
  slices_S12x192x192_S1x192x192_4_0_0 : S12x192x192.Slices ![4, 0, 0] S1x192x192
  slices_S12x192_S1x192_4_0 : S12x192.Slices ![4, 0] S1x192
  slices_S12x192x192_S1x192x192_5_0_0 : S12x192x192.Slices ![5, 0, 0] S1x192x192
  slices_S12x192_S1x192_5_0 : S12x192.Slices ![5, 0] S1x192
  slices_S12x192x192_S1x192x192_6_0_0 : S12x192x192.Slices ![6, 0, 0] S1x192x192
  slices_S12x192_S1x192_6_0 : S12x192.Slices ![6, 0] S1x192
  slices_S12x192x192_S1x192x192_7_0_0 : S12x192x192.Slices ![7, 0, 0] S1x192x192
  slices_S12x192_S1x192_7_0 : S12x192.Slices ![7, 0] S1x192
  slices_S12x192x192_S1x192x192_8_0_0 : S12x192x192.Slices ![8, 0, 0] S1x192x192
  slices_S12x192_S1x192_8_0 : S12x192.Slices ![8, 0] S1x192
  slices_S12x192x192_S1x192x192_9_0_0 : S12x192x192.Slices ![9, 0, 0] S1x192x192
  slices_S12x192_S1x192_9_0 : S12x192.Slices ![9, 0] S1x192
  slices_S12x192x192_S1x192x192_10_0_0 : S12x192x192.Slices ![10, 0, 0] S1x192x192
  slices_S12x192_S1x192_10_0 : S12x192.Slices ![10, 0] S1x192
  slices_S12x192x192_S1x192x192_11_0_0 : S12x192x192.Slices ![11, 0, 0] S1x192x192
  slices_S12x192_S1x192_11_0 : S12x192.Slices ![11, 0] S1x192
  slices_S192x3_S192x2_0_0 : S192x3.Slices ![0, 0] S192x2
  slices_S192x3_S192x1_0_2 : S192x3.Slices ![0, 2] S192x1
  slices_S3_S2_0 : S3.Slices ![0] S2
  shapeCasts_S2_S1x2 : S2.ShapeCasts S1x2
  slices_S3_S1_2 : S3.Slices ![2] S1
  shapeCasts_S1_S1x1 : S1.ShapeCasts S1x1
  inb_S192x2_S192x2_0_0 : ∀ a, (![0, 0] : Fin 2 → Nat) a + S192x2.size a ≤ S192x2.size a
  h_S192x2 : 0 < S192x2.numel
  shapeCasts_S192x2_S192x2 : S192x2.ShapeCasts S192x2
  inb_S192x1_S192x1_0_0 : ∀ a, (![0, 0] : Fin 2 → Nat) a + S192x1.size a ≤ S192x1.size a
  h_S192x1 : 0 < S192x1.numel
  shapeCasts_S192x1_S192x1 : S192x1.ShapeCasts S192x1
  broadcasts_S2048x1_S2048x2 : S2048x1.Broadcasts S2048x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x2_S2048x2_0_0 : ∀ a, (![0, 0] : Fin 2 → Nat) a + S2048x2.size a ≤ S2048x2.size a
  h_S2048x2 : 0 < S2048x2.numel
  packedbf16_S2048x2_S2048x2_0_0 : (Rect.unit (s := S2048x2) ![0, 0] S2048x2.size inb_S2048x2_S2048x2_0_0).PackedRows (EltTy.packing .bf16)
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x2_0_0 : ∀ a, (![0, 0] : Fin 2 → Nat) a + S1024x2.size a ≤ S1024x3.size a
  h_S1024x2 : 0 < S1024x2.numel
  inb_S1024x3_S1024x1_0_2 : ∀ a, (![0, 2] : Fin 2 → Nat) a + S1024x1.size a ≤ S1024x3.size a
  dot_S2048x960_S960x64_S2048x64_1_0_0_1_n_n_wf : DotDims.WF S2048x960 S960x64 S2048x64 [1] [0] [0] [1] [] []
  dot_S2048x960_S960x128_S2048x128_1_0_0_1_n_n_wf : DotDims.WF S2048x960 S960x128 S2048x128 [1] [0] [0] [1] [] []
  dot_S1024x8192_S8192x64_S1024x64_1_0_0_1_n_n_wf : DotDims.WF S1024x8192 S8192x64 S1024x64 [1] [0] [0] [1] [] []
  dot_S2048x192_S192x64_S2048x64_1_0_0_1_n_n_wf : DotDims.WF S2048x192 S192x64 S2048x64 [1] [0] [0] [1] [] []
  dot_S2048x192_S192x128_S2048x128_1_0_0_1_n_n_wf : DotDims.WF S2048x192 S192x128 S2048x128 [1] [0] [0] [1] [] []
  dot_S2048x192_S192x2_S2048x2_1_0_0_1_n_n_wf : DotDims.WF S2048x192 S192x2 S2048x2 [1] [0] [0] [1] [] []
  dot_S2048x192_S192x1_S2048x1_1_0_0_1_n_n_wf : DotDims.WF S2048x192 S192x1 S2048x1 [1] [0] [0] [1] [] []
  dot_S1024x8192_S8192x2_S1024x2_1_0_0_1_n_n_wf : DotDims.WF S1024x8192 S8192x2 S1024x2 [1] [0] [0] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.shapes1

variable [Facts₀]

def dot_S2048x960_S960x64_S2048x64_1_0_0_1_n_n : DotDims S2048x960 S960x64 S2048x64 where
  lhsContracting := [1]
  rhsContracting := [0]
  lhsNonContracting := [0]
  rhsNonContracting := [1]
  lhsBatch := []
  rhsBatch := []
  wf := dot_S2048x960_S960x64_S2048x64_1_0_0_1_n_n_wf
def dot_S2048x960_S960x128_S2048x128_1_0_0_1_n_n : DotDims S2048x960 S960x128 S2048x128 where
  lhsContracting := [1]
  rhsContracting := [0]
  lhsNonContracting := [0]
  rhsNonContracting := [1]
  lhsBatch := []
  rhsBatch := []
  wf := dot_S2048x960_S960x128_S2048x128_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def dot_S2048x192_S192x64_S2048x64_1_0_0_1_n_n : DotDims S2048x192 S192x64 S2048x64 where
  lhsContracting := [1]
  rhsContracting := [0]
  lhsNonContracting := [0]
  rhsNonContracting := [1]
  lhsBatch := []
  rhsBatch := []
  wf := dot_S2048x192_S192x64_S2048x64_1_0_0_1_n_n_wf
def dot_S2048x192_S192x128_S2048x128_1_0_0_1_n_n : DotDims S2048x192 S192x128 S2048x128 where
  lhsContracting := [1]
  rhsContracting := [0]
  lhsNonContracting := [0]
  rhsNonContracting := [1]
  lhsBatch := []
  rhsBatch := []
  wf := dot_S2048x192_S192x128_S2048x128_1_0_0_1_n_n_wf
def dot_S2048x192_S192x2_S2048x2_1_0_0_1_n_n : DotDims S2048x192 S192x2 S2048x2 where
  lhsContracting := [1]
  rhsContracting := [0]
  lhsNonContracting := [0]
  rhsNonContracting := [1]
  lhsBatch := []
  rhsBatch := []
  wf := dot_S2048x192_S192x2_S2048x2_1_0_0_1_n_n_wf
def dot_S2048x192_S192x1_S2048x1_1_0_0_1_n_n : DotDims S2048x192 S192x1 S2048x1 where
  lhsContracting := [1]
  rhsContracting := [0]
  lhsNonContracting := [0]
  rhsNonContracting := [1]
  lhsBatch := []
  rhsBatch := []
  wf := dot_S2048x192_S192x1_S2048x1_1_0_0_1_n_n_wf
def dot_S1024x8192_S8192x2_S1024x2_1_0_0_1_n_n : DotDims S1024x8192 S8192x2 S1024x2 where
  lhsContracting := [1]
  rhsContracting := [0]
  lhsNonContracting := [0]
  rhsNonContracting := [1]
  lhsBatch := []
  rhsBatch := []
  wf := dot_S1024x8192_S8192x2_S1024x2_1_0_0_1_n_n_wf

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x8192.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x960.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S960x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S960x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S2048x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S2048x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v1_0) S1024x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_0) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_1) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1024x192.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9) S2048x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S192x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v1_1) S2048x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v20_0) S2048x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v20_1) S2048x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v1_0) S1024x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20_0) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20_1) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v17) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg0) S1024x192.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v21) S1024x192.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v21) S2048x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S192x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v27) S192x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v31) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v1_1) S2048x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v32_0) S2048x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v32_1) S2048x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v1_0) S1024x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v32_0) S8192x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v32_1) S1024x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v29) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v33) S1024x192.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v33) S2048x192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v38) S192x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v39) S192x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v43) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v1_1) S2048x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v44_0) S2048x64.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v44_1) S2048x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v1_0) S1024x8192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v44_0) S8192x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v44_1) S1024x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v41) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v21) S1024x192.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v45) S1024x192.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v45) S2048x192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v50) S192x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v51) S192x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v55) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v1_1) S2048x1.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v56_0) S2048x64.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v56_1) S2048x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v1_0) S1024x8192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v56_0) S8192x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v56_1) S1024x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v53) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v57) S1024x192.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v57) S2048x192.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v62) S192x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v63) S192x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v67) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v1_1) S2048x1.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v68_0) S2048x64.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v68_1) S2048x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v1_0) S1024x8192.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v68_0) S8192x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v68_1) S1024x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v65) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v45) S1024x192.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v69) S1024x192.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v69) S2048x192.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v74) S192x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v75) S192x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v79) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v1_1) S2048x1.size cc13_transform_4 reads13_4 false false 2 stage13_4 sem13_4
    hrank13 hreads13_4 hinb13_4 nbuf13_4 (Memref.isWhole_whole _) hwx13_4 hstage13_4

abbrev win13_5 : Pipeline.Window sig grid13 :=
  Pipeline.Window.ofSpec (Memref.whole main_v80_0) S2048x64.size cc13_transform_5 reads13_5 true false 2 stage13_5 sem13_5
    hrank13 hreads13_5 hinb13_5 nbuf13_5 (Memref.isWhole_whole _) hwx13_5 hstage13_5

abbrev win13_6 : Pipeline.Window sig grid13 :=
  Pipeline.Window.ofSpec (Memref.whole main_v80_1) S2048x128.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v1_0) S1024x8192.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v80_0) S8192x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v80_1) S1024x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v77) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v81) S1024x192.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v81) S2048x192.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v86) S192x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v87) S192x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v91) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v1_1) S2048x1.size cc15_transform_4 reads15_4 false false 2 stage15_4 sem15_4
    hrank15 hreads15_4 hinb15_4 nbuf15_4 (Memref.isWhole_whole _) hwx15_4 hstage15_4

abbrev win15_5 : Pipeline.Window sig grid15 :=
  Pipeline.Window.ofSpec (Memref.whole main_v92_0) S2048x64.size cc15_transform_5 reads15_5 true false 2 stage15_5 sem15_5
    hrank15 hreads15_5 hinb15_5 nbuf15_5 (Memref.isWhole_whole _) hwx15_5 hstage15_5

abbrev win15_6 : Pipeline.Window sig grid15 :=
  Pipeline.Window.ofSpec (Memref.whole main_v92_1) S2048x128.size cc15_transform_6 reads15_6 true false 2 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

abbrev win16_0 : Pipeline.Window sig grid16 :=
  Pipeline.Window.ofSpec (Memref.whole main_v1_0) S1024x8192.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v92_0) S8192x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v92_1) S1024x128.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v89) S1x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v69) S1024x192.size cc16_transform_4 reads16_4 false false 2 stage16_4 sem16_4
    hrank16 hreads16_4 hinb16_4 nbuf16_4 (Memref.isWhole_whole _) hwx16_4 hstage16_4

abbrev win16_5 : Pipeline.Window sig grid16 :=
  Pipeline.Window.ofSpec (Memref.whole main_v93) S1024x192.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v93) S2048x192.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v98) S192x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v99) S192x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v103) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v1_1) S2048x1.size cc17_transform_4 reads17_4 false false 2 stage17_4 sem17_4
    hrank17 hreads17_4 hinb17_4 nbuf17_4 (Memref.isWhole_whole _) hwx17_4 hstage17_4

abbrev win17_5 : Pipeline.Window sig grid17 :=
  Pipeline.Window.ofSpec (Memref.whole main_v104_0) S2048x64.size cc17_transform_5 reads17_5 true false 2 stage17_5 sem17_5
    hrank17 hreads17_5 hinb17_5 nbuf17_5 (Memref.isWhole_whole _) hwx17_5 hstage17_5

abbrev win17_6 : Pipeline.Window sig grid17 :=
  Pipeline.Window.ofSpec (Memref.whole main_v104_1) S2048x128.size cc17_transform_6 reads17_6 true false 2 stage17_6 sem17_6
    hrank17 hreads17_6 hinb17_6 nbuf17_6 (Memref.isWhole_whole _) hwx17_6 hstage17_6

abbrev win17 : Fin 7 → Pipeline.Window sig grid17 := fun | 0 => win17_0 | 1 => win17_1 | 2 => win17_2 | 3 => win17_3 | 4 => win17_4 | 5 => win17_5 | 6 => win17_6 | ⟨_ + 7, h⟩ => absurd h (Nat.not_lt.2 (Nat.le_add_left _ _))
abbrev spec17 : Fin 7 → Pipeline.WinSpec sig grid17.rank := fun w => (win17 w).toWinSpec

abbrev win18_0 : Pipeline.Window sig grid18 :=
  Pipeline.Window.ofSpec (Memref.whole main_v1_0) S1024x8192.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v104_0) S8192x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v104_1) S1024x128.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v101) S1x64.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v105) S1024x192.size cc18_transform_4 reads18_4 true false 2 stage18_4 sem18_4
    hrank18 hreads18_4 hinb18_4 nbuf18_4 (Memref.isWhole_whole _) hwx18_4 hstage18_4

abbrev win18 : Fin 5 → Pipeline.Window sig grid18 := fun | 0 => win18_0 | 1 => win18_1 | 2 => win18_2 | 3 => win18_3 | 4 => win18_4 | ⟨_ + 5, h⟩ => absurd h (Nat.not_lt.2 (Nat.le_add_left _ _))
abbrev spec18 : Fin 5 → Pipeline.WinSpec sig grid18.rank := fun w => (win18 w).toWinSpec

abbrev win19_0 : Pipeline.Window sig grid19 :=
  Pipeline.Window.ofSpec (Memref.whole main_v105) S2048x192.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v110) S192x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v111) S192x128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v115) S1x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v1_1) S2048x1.size cc19_transform_4 reads19_4 false false 2 stage19_4 sem19_4
    hrank19 hreads19_4 hinb19_4 nbuf19_4 (Memref.isWhole_whole _) hwx19_4 hstage19_4

abbrev win19_5 : Pipeline.Window sig grid19 :=
  Pipeline.Window.ofSpec (Memref.whole main_v116_0) S2048x64.size cc19_transform_5 reads19_5 true false 2 stage19_5 sem19_5
    hrank19 hreads19_5 hinb19_5 nbuf19_5 (Memref.isWhole_whole _) hwx19_5 hstage19_5

abbrev win19_6 : Pipeline.Window sig grid19 :=
  Pipeline.Window.ofSpec (Memref.whole main_v116_1) S2048x128.size cc19_transform_6 reads19_6 true false 2 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

abbrev win20_0 : Pipeline.Window sig grid20 :=
  Pipeline.Window.ofSpec (Memref.whole main_v1_0) S1024x8192.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v116_0) S8192x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v116_1) S1024x128.size cc20_transform_2 reads20_2 false false 2 stage20_2 sem20_2
    hrank20 hreads20_2 hinb20_2 nbuf20_2 (Memref.isWhole_whole _) hwx20_2 hstage20_2

abbrev win20_3 : Pipeline.Window sig grid20 :=
  Pipeline.Window.ofSpec (Memref.whole main_v113) S1x64.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v93) S1024x192.size cc20_transform_4 reads20_4 false false 2 stage20_4 sem20_4
    hrank20 hreads20_4 hinb20_4 nbuf20_4 (Memref.isWhole_whole _) hwx20_4 hstage20_4

abbrev win20_5 : Pipeline.Window sig grid20 :=
  Pipeline.Window.ofSpec (Memref.whole main_v117) S1024x192.size cc20_transform_5 reads20_5 true false 2 stage20_5 sem20_5
    hrank20 hreads20_5 hinb20_5 nbuf20_5 (Memref.isWhole_whole _) hwx20_5 hstage20_5

abbrev win20 : Fin 6 → Pipeline.Window sig grid20 := fun | 0 => win20_0 | 1 => win20_1 | 2 => win20_2 | 3 => win20_3 | 4 => win20_4 | 5 => win20_5 | ⟨_ + 6, h⟩ => absurd h (Nat.not_lt.2 (Nat.le_add_left _ _))
abbrev spec20 : Fin 6 → Pipeline.WinSpec sig grid20.rank := fun w => (win20 w).toWinSpec

abbrev win21_0 : Pipeline.Window sig grid21 :=
  Pipeline.Window.ofSpec (Memref.whole main_v117) S2048x192.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v122) S192x64.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v123) S192x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v127) S1x128.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v1_1) S2048x1.size cc21_transform_4 reads21_4 false false 2 stage21_4 sem21_4
    hrank21 hreads21_4 hinb21_4 nbuf21_4 (Memref.isWhole_whole _) hwx21_4 hstage21_4

abbrev win21_5 : Pipeline.Window sig grid21 :=
  Pipeline.Window.ofSpec (Memref.whole main_v128_0) S2048x64.size cc21_transform_5 reads21_5 true false 2 stage21_5 sem21_5
    hrank21 hreads21_5 hinb21_5 nbuf21_5 (Memref.isWhole_whole _) hwx21_5 hstage21_5

abbrev win21_6 : Pipeline.Window sig grid21 :=
  Pipeline.Window.ofSpec (Memref.whole main_v128_1) S2048x128.size cc21_transform_6 reads21_6 true false 2 stage21_6 sem21_6
    hrank21 hreads21_6 hinb21_6 nbuf21_6 (Memref.isWhole_whole _) hwx21_6 hstage21_6

abbrev win21 : Fin 7 → Pipeline.Window sig grid21 := fun | 0 => win21_0 | 1 => win21_1 | 2 => win21_2 | 3 => win21_3 | 4 => win21_4 | 5 => win21_5 | 6 => win21_6 | ⟨_ + 7, h⟩ => absurd h (Nat.not_lt.2 (Nat.le_add_left _ _))
abbrev spec21 : Fin 7 → Pipeline.WinSpec sig grid21.rank := fun w => (win21 w).toWinSpec

abbrev win22_0 : Pipeline.Window sig grid22 :=
  Pipeline.Window.ofSpec (Memref.whole main_v1_0) S1024x8192.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v128_0) S8192x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v128_1) S1024x128.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_v125) S1x64.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v129) S1024x192.size cc22_transform_4 reads22_4 true false 2 stage22_4 sem22_4
    hrank22 hreads22_4 hinb22_4 nbuf22_4 (Memref.isWhole_whole _) hwx22_4 hstage22_4

abbrev win22 : Fin 5 → Pipeline.Window sig grid22 := fun | 0 => win22_0 | 1 => win22_1 | 2 => win22_2 | 3 => win22_3 | 4 => win22_4 | ⟨_ + 5, h⟩ => absurd h (Nat.not_lt.2 (Nat.le_add_left _ _))
abbrev spec22 : Fin 5 → Pipeline.WinSpec sig grid22.rank := fun w => (win22 w).toWinSpec

abbrev win23_0 : Pipeline.Window sig grid23 :=
  Pipeline.Window.ofSpec (Memref.whole main_v129) S2048x192.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v134) S192x64.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v135) S192x128.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v139) S1x128.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v1_1) S2048x1.size cc23_transform_4 reads23_4 false false 2 stage23_4 sem23_4
    hrank23 hreads23_4 hinb23_4 nbuf23_4 (Memref.isWhole_whole _) hwx23_4 hstage23_4

abbrev win23_5 : Pipeline.Window sig grid23 :=
  Pipeline.Window.ofSpec (Memref.whole main_v140_0) S2048x64.size cc23_transform_5 reads23_5 true false 2 stage23_5 sem23_5
    hrank23 hreads23_5 hinb23_5 nbuf23_5 (Memref.isWhole_whole _) hwx23_5 hstage23_5

abbrev win23_6 : Pipeline.Window sig grid23 :=
  Pipeline.Window.ofSpec (Memref.whole main_v140_1) S2048x128.size cc23_transform_6 reads23_6 true false 2 stage23_6 sem23_6
    hrank23 hreads23_6 hinb23_6 nbuf23_6 (Memref.isWhole_whole _) hwx23_6 hstage23_6

abbrev win23 : Fin 7 → Pipeline.Window sig grid23 := fun | 0 => win23_0 | 1 => win23_1 | 2 => win23_2 | 3 => win23_3 | 4 => win23_4 | 5 => win23_5 | 6 => win23_6 | ⟨_ + 7, h⟩ => absurd h (Nat.not_lt.2 (Nat.le_add_left _ _))
abbrev spec23 : Fin 7 → Pipeline.WinSpec sig grid23.rank := fun w => (win23 w).toWinSpec

abbrev win24_0 : Pipeline.Window sig grid24 :=
  Pipeline.Window.ofSpec (Memref.whole main_v1_0) S1024x8192.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v140_0) S8192x64.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v140_1) S1024x128.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_v137) S1x64.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v117) S1024x192.size cc24_transform_4 reads24_4 false false 2 stage24_4 sem24_4
    hrank24 hreads24_4 hinb24_4 nbuf24_4 (Memref.isWhole_whole _) hwx24_4 hstage24_4

abbrev win24_5 : Pipeline.Window sig grid24 :=
  Pipeline.Window.ofSpec (Memref.whole main_v141) S1024x192.size cc24_transform_5 reads24_5 true false 2 stage24_5 sem24_5
    hrank24 hreads24_5 hinb24_5 nbuf24_5 (Memref.isWhole_whole _) hwx24_5 hstage24_5

abbrev win24 : Fin 6 → Pipeline.Window sig grid24 := fun | 0 => win24_0 | 1 => win24_1 | 2 => win24_2 | 3 => win24_3 | 4 => win24_4 | 5 => win24_5 | ⟨_ + 6, h⟩ => absurd h (Nat.not_lt.2 (Nat.le_add_left _ _))
abbrev spec24 : Fin 6 → Pipeline.WinSpec sig grid24.rank := fun w => (win24 w).toWinSpec

abbrev win25_0 : Pipeline.Window sig grid25 :=
  Pipeline.Window.ofSpec (Memref.whole main_v141) S2048x192.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v146) S192x64.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v147) S192x128.size cc25_transform_2 reads25_2 false true 1 stage25_2 sem25_2
    hrank25 hreads25_2 hinb25_2 nbuf25_2 (Memref.isWhole_whole _) hwx25_2 hstage25_2

abbrev win25_3 : Pipeline.Window sig grid25 :=
  Pipeline.Window.ofSpec (Memref.whole main_v151) S1x128.size cc25_transform_3 reads25_3 false true 1 stage25_3 sem25_3
    hrank25 hreads25_3 hinb25_3 nbuf25_3 (Memref.isWhole_whole _) hwx25_3 hstage25_3

abbrev win25_4 : Pipeline.Window sig grid25 :=
  Pipeline.Window.ofSpec (Memref.whole main_v1_1) S2048x1.size cc25_transform_4 reads25_4 false false 2 stage25_4 sem25_4
    hrank25 hreads25_4 hinb25_4 nbuf25_4 (Memref.isWhole_whole _) hwx25_4 hstage25_4

abbrev win25_5 : Pipeline.Window sig grid25 :=
  Pipeline.Window.ofSpec (Memref.whole main_v152_0) S2048x64.size cc25_transform_5 reads25_5 true false 2 stage25_5 sem25_5
    hrank25 hreads25_5 hinb25_5 nbuf25_5 (Memref.isWhole_whole _) hwx25_5 hstage25_5

abbrev win25_6 : Pipeline.Window sig grid25 :=
  Pipeline.Window.ofSpec (Memref.whole main_v152_1) S2048x128.size cc25_transform_6 reads25_6 true false 2 stage25_6 sem25_6
    hrank25 hreads25_6 hinb25_6 nbuf25_6 (Memref.isWhole_whole _) hwx25_6 hstage25_6

abbrev win25 : Fin 7 → Pipeline.Window sig grid25 := fun | 0 => win25_0 | 1 => win25_1 | 2 => win25_2 | 3 => win25_3 | 4 => win25_4 | 5 => win25_5 | 6 => win25_6 | ⟨_ + 7, h⟩ => absurd h (Nat.not_lt.2 (Nat.le_add_left _ _))
abbrev spec25 : Fin 7 → Pipeline.WinSpec sig grid25.rank := fun w => (win25 w).toWinSpec

abbrev win26_0 : Pipeline.Window sig grid26 :=
  Pipeline.Window.ofSpec (Memref.whole main_v1_0) S1024x8192.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v152_0) S8192x64.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v152_1) S1024x128.size cc26_transform_2 reads26_2 false false 2 stage26_2 sem26_2
    hrank26 hreads26_2 hinb26_2 nbuf26_2 (Memref.isWhole_whole _) hwx26_2 hstage26_2

abbrev win26_3 : Pipeline.Window sig grid26 :=
  Pipeline.Window.ofSpec (Memref.whole main_v149) S1x64.size cc26_transform_3 reads26_3 false true 1 stage26_3 sem26_3
    hrank26 hreads26_3 hinb26_3 nbuf26_3 (Memref.isWhole_whole _) hwx26_3 hstage26_3

abbrev win26_4 : Pipeline.Window sig grid26 :=
  Pipeline.Window.ofSpec (Memref.whole main_v141) S1024x192.size cc26_transform_4 reads26_4 false false 2 stage26_4 sem26_4
    hrank26 hreads26_4 hinb26_4 nbuf26_4 (Memref.isWhole_whole _) hwx26_4 hstage26_4

abbrev win26_5 : Pipeline.Window sig grid26 :=
  Pipeline.Window.ofSpec (Memref.whole main_v153) S1024x192.size cc26_transform_5 reads26_5 true false 2 stage26_5 sem26_5
    hrank26 hreads26_5 hinb26_5 nbuf26_5 (Memref.isWhole_whole _) hwx26_5 hstage26_5

abbrev win26 : Fin 6 → Pipeline.Window sig grid26 := fun | 0 => win26_0 | 1 => win26_1 | 2 => win26_2 | 3 => win26_3 | 4 => win26_4 | 5 => win26_5 | ⟨_ + 6, h⟩ => absurd h (Nat.not_lt.2 (Nat.le_add_left _ _))
abbrev spec26 : Fin 6 → Pipeline.WinSpec sig grid26.rank := fun w => (win26 w).toWinSpec

abbrev win27_0 : Pipeline.Window sig grid27 :=
  Pipeline.Window.ofSpec (Memref.whole main_v153) S2048x192.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v154) S192x2.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v155) S192x1.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_v159) S1x1.size cc27_transform_3 reads27_3 false true 1 stage27_3 sem27_3
    hrank27 hreads27_3 hinb27_3 nbuf27_3 (Memref.isWhole_whole _) hwx27_3 hstage27_3

abbrev win27_4 : Pipeline.Window sig grid27 :=
  Pipeline.Window.ofSpec (Memref.whole main_v1_1) S2048x1.size cc27_transform_4 reads27_4 false false 2 stage27_4 sem27_4
    hrank27 hreads27_4 hinb27_4 nbuf27_4 (Memref.isWhole_whole _) hwx27_4 hstage27_4

abbrev win27_5 : Pipeline.Window sig grid27 :=
  Pipeline.Window.ofSpec (Memref.whole main_v160_0) S2048x2.size cc27_transform_5 reads27_5 true false 2 stage27_5 sem27_5
    hrank27 hreads27_5 hinb27_5 nbuf27_5 (Memref.isWhole_whole _) hwx27_5 hstage27_5

abbrev win27_6 : Pipeline.Window sig grid27 :=
  Pipeline.Window.ofSpec (Memref.whole main_v160_1) S2048x1.size cc27_transform_6 reads27_6 true false 2 stage27_6 sem27_6
    hrank27 hreads27_6 hinb27_6 nbuf27_6 (Memref.isWhole_whole _) hwx27_6 hstage27_6

abbrev win27 : Fin 7 → Pipeline.Window sig grid27 := fun | 0 => win27_0 | 1 => win27_1 | 2 => win27_2 | 3 => win27_3 | 4 => win27_4 | 5 => win27_5 | 6 => win27_6 | ⟨_ + 7, h⟩ => absurd h (Nat.not_lt.2 (Nat.le_add_left _ _))
abbrev spec27 : Fin 7 → Pipeline.WinSpec sig grid27.rank := fun w => (win27 w).toWinSpec

abbrev win28_0 : Pipeline.Window sig grid28 :=
  Pipeline.Window.ofSpec (Memref.whole main_v1_0) S1024x8192.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v160_0) S8192x2.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_v160_1) S1024x1.size cc28_transform_2 reads28_2 false false 2 stage28_2 sem28_2
    hrank28 hreads28_2 hinb28_2 nbuf28_2 (Memref.isWhole_whole _) hwx28_2 hstage28_2

abbrev win28_3 : Pipeline.Window sig grid28 :=
  Pipeline.Window.ofSpec (Memref.whole main_v157) S1x2.size cc28_transform_3 reads28_3 false true 1 stage28_3 sem28_3
    hrank28 hreads28_3 hinb28_3 nbuf28_3 (Memref.isWhole_whole _) hwx28_3 hstage28_3

abbrev win28_4 : Pipeline.Window sig grid28 :=
  Pipeline.Window.ofSpec (Memref.whole main_v161) S1024x3.size cc28_transform_4 reads28_4 true false 2 stage28_4 sem28_4
    hrank28 hreads28_4 hinb28_4 nbuf28_4 (Memref.isWhole_whole _) hwx28_4 hstage28_4

abbrev win28 : Fin 5 → Pipeline.Window sig grid28 := fun | 0 => win28_0 | 1 => win28_1 | 2 => win28_2 | 3 => win28_3 | 4 => win28_4 | ⟨_ + 5, h⟩ => absurd h (Nat.not_lt.2 (Nat.le_add_left _ _))
abbrev spec28 : Fin 5 → Pipeline.WinSpec sig grid28.rank := fun w => (win28 w).toWinSpec

class Facts : Prop extends Facts₀ where

variable [Facts]
-- ==== ReferenceIdeal.lean ====
abbrev S8192x192 : Shape := ⟨2, ![8192, 192]⟩
abbrev S8192x768 : Shape := ⟨2, ![8192, 768]⟩
abbrev S8192x8192 : Shape := ⟨2, ![8192, 8192]⟩
abbrev S960x192 : Shape := ⟨2, ![960, 192]⟩
abbrev S192 : Shape := ⟨1, ![192]⟩
abbrev S12x192x192 : Shape := ⟨3, ![12, 192, 192]⟩
abbrev S12x192 : Shape := ⟨2, ![12, 192]⟩
abbrev S192x3 : Shape := ⟨2, ![192, 3]⟩
abbrev S3 : Shape := ⟨1, ![3]⟩
abbrev S8192x960 : Shape := ⟨2, ![8192, 960]⟩
abbrev S_ : Shape := ⟨0, ![]⟩
abbrev S8192x1 : Shape := ⟨2, ![8192, 1]⟩
abbrev S8192x64 : Shape := ⟨2, ![8192, 64]⟩
abbrev S8192x128 : Shape := ⟨2, ![8192, 128]⟩
abbrev S1x192 : Shape := ⟨2, ![1, 192]⟩
abbrev S1x192x192 : Shape := ⟨3, ![1, 192, 192]⟩
abbrev S192x192 : Shape := ⟨2, ![192, 192]⟩
abbrev S8192x3 : Shape := ⟨2, ![8192, 3]⟩
abbrev S8192x2 : Shape := ⟨2, ![8192, 2]⟩
abbrev S1x3 : Shape := ⟨2, ![1, 3]⟩

abbrev nBuf : Space → Nat
  | .hbm => 308
  | .vmem => 0
  | .smem => 0
  | _ => 0

abbrev hbmTy0_0 (i : Nat) : BufTy := match i % 128 with
  | 0 => ⟨S8192x192, .f32⟩
  | 1 => ⟨S8192x768, .f32⟩
  | 2 => ⟨S8192x8192, .f32⟩
  | 3 => ⟨S960x192, .f32⟩
  | 4 => ⟨S192, .f32⟩
  | 5 => ⟨S12x192x192, .f32⟩
  | 6 => ⟨S12x192, .f32⟩
  | 7 => ⟨S192x3, .f32⟩
  | 8 => ⟨S3, .f32⟩
  | 9 => ⟨S8192x960, .f32⟩
  | 10 => ⟨S8192x192, .f32⟩
  | 11 => ⟨S_, .f32⟩
  | 12 => ⟨S8192x1, .f32⟩
  | 13 => ⟨S8192x1, .f32⟩
  | 14 => ⟨S8192x64, .f32⟩
  | 15 => ⟨S8192x64, .f32⟩
  | 16 => ⟨S8192x64, .f32⟩
  | 17 => ⟨S8192x64, .f32⟩
  | 18 => ⟨S8192x128, .f32⟩
  | 19 => ⟨S8192x192, .f32⟩
  | 20 => ⟨S1x192, .f32⟩
  | 21 => ⟨S8192x192, .f32⟩
  | 22 => ⟨S8192x192, .f32⟩
  | 23 => ⟨S_, .f32⟩
  | 24 => ⟨S8192x192, .f32⟩
  | 25 => ⟨S8192x192, .f32⟩
  | 26 => ⟨S1x192x192, .f32⟩
  | 27 => ⟨S192x192, .f32⟩
  | 28 => ⟨S1x192, .f32⟩
  | 29 => ⟨S192, .f32⟩
  | 30 => ⟨S8192x192, .f32⟩
  | 31 => ⟨S_, .f32⟩
  | 32 => ⟨S8192x1, .f32⟩
  | 33 => ⟨S8192x1, .f32⟩
  | 34 => ⟨S8192x64, .f32⟩
  | 35 => ⟨S8192x64, .f32⟩
  | 36 => ⟨S8192x64, .f32⟩
  | 37 => ⟨S8192x64, .f32⟩
  | 38 => ⟨S8192x128, .f32⟩
  | 39 => ⟨S8192x192, .f32⟩
  | 40 => ⟨S1x192, .f32⟩
  | 41 => ⟨S8192x192, .f32⟩
  | 42 => ⟨S8192x192, .f32⟩
  | 43 => ⟨S_, .f32⟩
  | 44 => ⟨S8192x192, .f32⟩
  | 45 => ⟨S8192x192, .f32⟩
  | 46 => ⟨S8192x192, .f32⟩
  | 47 => ⟨S8192x192, .f32⟩
  | 48 => ⟨S_, .f32⟩
  | 49 => ⟨S8192x192, .f32⟩
  | 50 => ⟨S8192x192, .f32⟩
  | 51 => ⟨S1x192x192, .f32⟩
  | 52 => ⟨S192x192, .f32⟩
  | 53 => ⟨S1x192, .f32⟩
  | 54 => ⟨S192, .f32⟩
  | 55 => ⟨S8192x192, .f32⟩
  | 56 => ⟨S_, .f32⟩
  | 57 => ⟨S8192x1, .f32⟩
  | 58 => ⟨S8192x1, .f32⟩
  | 59 => ⟨S8192x64, .f32⟩
  | 60 => ⟨S8192x64, .f32⟩
  | 61 => ⟨S8192x64, .f32⟩
  | 62 => ⟨S8192x64, .f32⟩
  | 63 => ⟨S8192x128, .f32⟩
  | 64 => ⟨S8192x192, .f32⟩
  | 65 => ⟨S1x192, .f32⟩
  | 66 => ⟨S8192x192, .f32⟩
  | 67 => ⟨S8192x192, .f32⟩
  | 68 => ⟨S_, .f32⟩
  | 69 => ⟨S8192x192, .f32⟩
  | 70 => ⟨S8192x192, .f32⟩
  | 71 => ⟨S1x192x192, .f32⟩
  | 72 => ⟨S192x192, .f32⟩
  | 73 => ⟨S1x192, .f32⟩
  | 74 => ⟨S192, .f32⟩
  | 75 => ⟨S8192x192, .f32⟩
  | 76 => ⟨S_, .f32⟩
  | 77 => ⟨S8192x1, .f32⟩
  | 78 => ⟨S8192x1, .f32⟩
  | 79 => ⟨S8192x64, .f32⟩
  | 80 => ⟨S8192x64, .f32⟩
  | 81 => ⟨S8192x64, .f32⟩
  | 82 => ⟨S8192x64, .f32⟩
  | 83 => ⟨S8192x128, .f32⟩
  | 84 => ⟨S8192x192, .f32⟩
  | 85 => ⟨S1x192, .f32⟩
  | 86 => ⟨S8192x192, .f32⟩
  | 87 => ⟨S8192x192, .f32⟩
  | 88 => ⟨S_, .f32⟩
  | 89 => ⟨S8192x192, .f32⟩
  | 90 => ⟨S8192x192, .f32⟩
  | 91 => ⟨S8192x192, .f32⟩
  | 92 => ⟨S_, .f32⟩
  | 93 => ⟨S8192x192, .f32⟩
  | 94 => ⟨S8192x192, .f32⟩
  | 95 => ⟨S1x192x192, .f32⟩
  | 96 => ⟨S192x192, .f32⟩
  | 97 => ⟨S1x192, .f32⟩
  | 98 => ⟨S192, .f32⟩
  | 99 => ⟨S8192x192, .f32⟩
  | 100 => ⟨S_, .f32⟩
  | 101 => ⟨S8192x1, .f32⟩
  | 102 => ⟨S8192x1, .f32⟩
  | 103 => ⟨S8192x64, .f32⟩
  | 104 => ⟨S8192x64, .f32⟩
  | 105 => ⟨S8192x64, .f32⟩
  | 106 => ⟨S8192x64, .f32⟩
  | 107 => ⟨S8192x128, .f32⟩
  | 108 => ⟨S8192x192, .f32⟩
  | 109 => ⟨S1x192, .f32⟩
  | 110 => ⟨S8192x192, .f32⟩
  | 111 => ⟨S8192x192, .f32⟩
  | 112 => ⟨S_, .f32⟩
  | 113 => ⟨S8192x192, .f32⟩
  | 114 => ⟨S8192x192, .f32⟩
  | 115 => ⟨S1x192x192, .f32⟩
  | 116 => ⟨S192x192, .f32⟩
  | 117 => ⟨S1x192, .f32⟩
  | 118 => ⟨S192, .f32⟩
  | 119 => ⟨S8192x192, .f32⟩
  | 120 => ⟨S_, .f32⟩
  | 121 => ⟨S8192x1, .f32⟩
  | 122 => ⟨S8192x1, .f32⟩
  | 123 => ⟨S8192x64, .f32⟩
  | 124 => ⟨S8192x64, .f32⟩
  | 125 => ⟨S8192x64, .f32⟩
  | 126 => ⟨S8192x64, .f32⟩
  | 127 => ⟨S8192x128, .f32⟩
  | _ => ⟨S8192x192, .f32⟩

abbrev hbmTy0_1 (i : Nat) : BufTy := match i % 128 with
  | 0 => ⟨S8192x192, .f32⟩
  | 1 => ⟨S1x192, .f32⟩
  | 2 => ⟨S8192x192, .f32⟩
  | 3 => ⟨S8192x192, .f32⟩
  | 4 => ⟨S_, .f32⟩
  | 5 => ⟨S8192x192, .f32⟩
  | 6 => ⟨S8192x192, .f32⟩
  | 7 => ⟨S8192x192, .f32⟩
  | 8 => ⟨S_, .f32⟩
  | 9 => ⟨S8192x192, .f32⟩
  | 10 => ⟨S8192x192, .f32⟩
  | 11 => ⟨S1x192x192, .f32⟩
  | 12 => ⟨S192x192, .f32⟩
  | 13 => ⟨S1x192, .f32⟩
  | 14 => ⟨S192, .f32⟩
  | 15 => ⟨S8192x192, .f32⟩
  | 16 => ⟨S_, .f32⟩
  | 17 => ⟨S8192x1, .f32⟩
  | 18 => ⟨S8192x1, .f32⟩
  | 19 => ⟨S8192x64, .f32⟩
  | 20 => ⟨S8192x64, .f32⟩
  | 21 => ⟨S8192x64, .f32⟩
  | 22 => ⟨S8192x64, .f32⟩
  | 23 => ⟨S8192x128, .f32⟩
  | 24 => ⟨S8192x192, .f32⟩
  | 25 => ⟨S1x192, .f32⟩
  | 26 => ⟨S8192x192, .f32⟩
  | 27 => ⟨S8192x192, .f32⟩
  | 28 => ⟨S_, .f32⟩
  | 29 => ⟨S8192x192, .f32⟩
  | 30 => ⟨S8192x192, .f32⟩
  | 31 => ⟨S1x192x192, .f32⟩
  | 32 => ⟨S192x192, .f32⟩
  | 33 => ⟨S1x192, .f32⟩
  | 34 => ⟨S192, .f32⟩
  | 35 => ⟨S8192x192, .f32⟩
  | 36 => ⟨S_, .f32⟩
  | 37 => ⟨S8192x1, .f32⟩
  | 38 => ⟨S8192x1, .f32⟩
  | 39 => ⟨S8192x64, .f32⟩
  | 40 => ⟨S8192x64, .f32⟩
  | 41 => ⟨S8192x64, .f32⟩
  | 42 => ⟨S8192x64, .f32⟩
  | 43 => ⟨S8192x128, .f32⟩
  | 44 => ⟨S8192x192, .f32⟩
  | 45 => ⟨S1x192, .f32⟩
  | 46 => ⟨S8192x192, .f32⟩
  | 47 => ⟨S8192x192, .f32⟩
  | 48 => ⟨S_, .f32⟩
  | 49 => ⟨S8192x192, .f32⟩
  | 50 => ⟨S8192x192, .f32⟩
  | 51 => ⟨S8192x192, .f32⟩
  | 52 => ⟨S_, .f32⟩
  | 53 => ⟨S8192x192, .f32⟩
  | 54 => ⟨S8192x192, .f32⟩
  | 55 => ⟨S1x192x192, .f32⟩
  | 56 => ⟨S192x192, .f32⟩
  | 57 => ⟨S1x192, .f32⟩
  | 58 => ⟨S192, .f32⟩
  | 59 => ⟨S8192x192, .f32⟩
  | 60 => ⟨S_, .f32⟩
  | 61 => ⟨S8192x1, .f32⟩
  | 62 => ⟨S8192x1, .f32⟩
  | 63 => ⟨S8192x64, .f32⟩
  | 64 => ⟨S8192x64, .f32⟩
  | 65 => ⟨S8192x64, .f32⟩
  | 66 => ⟨S8192x64, .f32⟩
  | 67 => ⟨S8192x128, .f32⟩
  | 68 => ⟨S8192x192, .f32⟩
  | 69 => ⟨S1x192, .f32⟩
  | 70 => ⟨S8192x192, .f32⟩
  | 71 => ⟨S8192x192, .f32⟩
  | 72 => ⟨S_, .f32⟩
  | 73 => ⟨S8192x192, .f32⟩
  | 74 => ⟨S8192x192, .f32⟩
  | 75 => ⟨S1x192x192, .f32⟩
  | 76 => ⟨S192x192, .f32⟩
  | 77 => ⟨S1x192, .f32⟩
  | 78 => ⟨S192, .f32⟩
  | 79 => ⟨S8192x192, .f32⟩
  | 80 => ⟨S_, .f32⟩
  | 81 => ⟨S8192x1, .f32⟩
  | 82 => ⟨S8192x1, .f32⟩
  | 83 => ⟨S8192x64, .f32⟩
  | 84 => ⟨S8192x64, .f32⟩
  | 85 => ⟨S8192x64, .f32⟩
  | 86 => ⟨S8192x64, .f32⟩
  | 87 => ⟨S8192x128, .f32⟩
  | 88 => ⟨S8192x192, .f32⟩
  | 89 => ⟨S1x192, .f32⟩
  | 90 => ⟨S8192x192, .f32⟩
  | 91 => ⟨S8192x192, .f32⟩
  | 92 => ⟨S_, .f32⟩
  | 93 => ⟨S8192x192, .f32⟩
  | 94 => ⟨S8192x192, .f32⟩
  | 95 => ⟨S8192x192, .f32⟩
  | 96 => ⟨S_, .f32⟩
  | 97 => ⟨S8192x192, .f32⟩
  | 98 => ⟨S8192x192, .f32⟩
  | 99 => ⟨S1x192x192, .f32⟩
  | 100 => ⟨S192x192, .f32⟩
  | 101 => ⟨S1x192, .f32⟩
  | 102 => ⟨S192, .f32⟩
  | 103 => ⟨S8192x192, .f32⟩
  | 104 => ⟨S_, .f32⟩
  | 105 => ⟨S8192x1, .f32⟩
  | 106 => ⟨S8192x1, .f32⟩
  | 107 => ⟨S8192x64, .f32⟩
  | 108 => ⟨S8192x64, .f32⟩
  | 109 => ⟨S8192x64, .f32⟩
  | 110 => ⟨S8192x64, .f32⟩
  | 111 => ⟨S8192x128, .f32⟩
  | 112 => ⟨S8192x192, .f32⟩
  | 113 => ⟨S1x192, .f32⟩
  | 114 => ⟨S8192x192, .f32⟩
  | 115 => ⟨S8192x192, .f32⟩
  | 116 => ⟨S_, .f32⟩
  | 117 => ⟨S8192x192, .f32⟩
  | 118 => ⟨S8192x192, .f32⟩
  | 119 => ⟨S1x192x192, .f32⟩
  | 120 => ⟨S192x192, .f32⟩
  | 121 => ⟨S1x192, .f32⟩
  | 122 => ⟨S192, .f32⟩
  | 123 => ⟨S8192x192, .f32⟩
  | 124 => ⟨S_, .f32⟩
  | 125 => ⟨S8192x1, .f32⟩
  | 126 => ⟨S8192x1, .f32⟩
  | 127 => ⟨S8192x64, .f32⟩
  | _ => ⟨S8192x192, .f32⟩

abbrev hbmTy0_2 (i : Nat) : BufTy := match i % 128 with
  | 0 => ⟨S8192x64, .f32⟩
  | 1 => ⟨S8192x64, .f32⟩
  | 2 => ⟨S8192x64, .f32⟩
  | 3 => ⟨S8192x128, .f32⟩
  | 4 => ⟨S8192x192, .f32⟩
  | 5 => ⟨S1x192, .f32⟩
  | 6 => ⟨S8192x192, .f32⟩
  | 7 => ⟨S8192x192, .f32⟩
  | 8 => ⟨S_, .f32⟩
  | 9 => ⟨S8192x192, .f32⟩
  | 10 => ⟨S8192x192, .f32⟩
  | 11 => ⟨S8192x192, .f32⟩
  | 12 => ⟨S_, .f32⟩
  | 13 => ⟨S8192x192, .f32⟩
  | 14 => ⟨S8192x192, .f32⟩
  | 15 => ⟨S1x192x192, .f32⟩
  | 16 => ⟨S192x192, .f32⟩
  | 17 => ⟨S1x192, .f32⟩
  | 18 => ⟨S192, .f32⟩
  | 19 => ⟨S8192x192, .f32⟩
  | 20 => ⟨S_, .f32⟩
  | 21 => ⟨S8192x1, .f32⟩
  | 22 => ⟨S8192x1, .f32⟩
  | 23 => ⟨S8192x64, .f32⟩
  | 24 => ⟨S8192x64, .f32⟩
  | 25 => ⟨S8192x64, .f32⟩
  | 26 => ⟨S8192x64, .f32⟩
  | 27 => ⟨S8192x128, .f32⟩
  | 28 => ⟨S8192x192, .f32⟩
  | 29 => ⟨S1x192, .f32⟩
  | 30 => ⟨S8192x192, .f32⟩
  | 31 => ⟨S8192x192, .f32⟩
  | 32 => ⟨S_, .f32⟩
  | 33 => ⟨S8192x192, .f32⟩
  | 34 => ⟨S8192x192, .f32⟩
  | 35 => ⟨S8192x192, .f32⟩
  | 36 => ⟨S_, .f32⟩
  | 37 => ⟨S8192x192, .f32⟩
  | 38 => ⟨S8192x192, .f32⟩
  | 39 => ⟨S8192x3, .f32⟩
  | 40 => ⟨S_, .f32⟩
  | 41 => ⟨S8192x1, .f32⟩
  | 42 => ⟨S8192x1, .f32⟩
  | 43 => ⟨S8192x2, .f32⟩
  | 44 => ⟨S8192x2, .f32⟩
  | 45 => ⟨S8192x2, .f32⟩
  | 46 => ⟨S8192x2, .f32⟩
  | 47 => ⟨S8192x1, .f32⟩
  | 48 => ⟨S8192x3, .f32⟩
  | 49 => ⟨S1x3, .f32⟩
  | 50 => ⟨S8192x3, .f32⟩
  | 51 => ⟨S8192x3, .f32⟩
  | _ => ⟨S8192x192, .f32⟩

abbrev hbmTy (i : Nat) : BufTy := match i / 128 with
  | 0 => hbmTy0_0 i
  | 1 => hbmTy0_1 i
  | 2 => hbmTy0_2 i
  | _ => ⟨S8192x192, .f32⟩

abbrev bufTy : (tb : Table) → Fin (tcTables nBuf tb) → BufTy
  | .hbm, ⟨i, _⟩ => hbmTy i
  | _, _ => ⟨S8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call2_cst : Ref sig .tc := ⟨.hbm, 68, rfl⟩
abbrev main_call2_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call3_cst : Ref sig .tc := ⟨.hbm, 88, rfl⟩
abbrev main_call3_v0 : Ref sig .tc := ⟨.hbm, 89, rfl⟩
abbrev main_v68 : Ref sig .tc := ⟨.hbm, 90, rfl⟩
abbrev main_v69 : Ref sig .tc := ⟨.hbm, 91, rfl⟩
abbrev main_cst_4 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_5 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call4_cst : Ref sig .tc := ⟨.hbm, 112, rfl⟩
abbrev main_call4_v0 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_6 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_call5_cst : Ref sig .tc := ⟨.hbm, 132, rfl⟩
abbrev main_call5_v0 : Ref sig .tc := ⟨.hbm, 133, rfl⟩
abbrev main_v105 : Ref sig .tc := ⟨.hbm, 134, rfl⟩
abbrev main_v106 : Ref sig .tc := ⟨.hbm, 135, rfl⟩
abbrev main_cst_7 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_8 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_call6_cst : Ref sig .tc := ⟨.hbm, 156, rfl⟩
abbrev main_call6_v0 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_9 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_call7_cst : Ref sig .tc := ⟨.hbm, 176, rfl⟩
abbrev main_call7_v0 : Ref sig .tc := ⟨.hbm, 177, rfl⟩
abbrev main_v142 : Ref sig .tc := ⟨.hbm, 178, rfl⟩
abbrev main_v143 : Ref sig .tc := ⟨.hbm, 179, rfl⟩
abbrev main_cst_10 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_11 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_call8_cst : Ref sig .tc := ⟨.hbm, 200, rfl⟩
abbrev main_call8_v0 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_12 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_call9_cst : Ref sig .tc := ⟨.hbm, 220, rfl⟩
abbrev main_call9_v0 : Ref sig .tc := ⟨.hbm, 221, rfl⟩
abbrev main_v179 : Ref sig .tc := ⟨.hbm, 222, rfl⟩
abbrev main_v180 : Ref sig .tc := ⟨.hbm, 223, rfl⟩
abbrev main_cst_13 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_14 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_call10_cst : Ref sig .tc := ⟨.hbm, 244, rfl⟩
abbrev main_call10_v0 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_15 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_call11_cst : Ref sig .tc := ⟨.hbm, 264, rfl⟩
abbrev main_call11_v0 : Ref sig .tc := ⟨.hbm, 265, rfl⟩
abbrev main_v216 : Ref sig .tc := ⟨.hbm, 266, rfl⟩
abbrev main_v217 : Ref sig .tc := ⟨.hbm, 267, rfl⟩
abbrev main_cst_16 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_cst_17 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_call12_cst : Ref sig .tc := ⟨.hbm, 288, rfl⟩
abbrev main_call12_v0 : Ref sig .tc := ⟨.hbm, 289, rfl⟩
abbrev main_v236 : Ref sig .tc := ⟨.hbm, 290, rfl⟩
abbrev main_v237 : Ref sig .tc := ⟨.hbm, 291, rfl⟩
abbrev main_cst_18 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_cst_19 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩

abbrev nD : Nat := 1
abbrev τ : Topo := Topo.v7x

variable {F : FTy → Type} [FloatOps F]

class Facts₀ : Prop where
  concatenates_S8192x192_S8192x768_S8192x960_d1 : Shape.Concatenates [S8192x192, S8192x768] S8192x960 1
  bcast_S_S8192x1 : S_.BroadcastsInDim S8192x1 (![] : Fin 0 → Fin S8192x1.rank)
  slices_S8192x192_S8192x64_0_0 : S8192x192.Slices ![0, 0] S8192x64
  bcast_S8192x1_S8192x64_0_1 : S8192x1.BroadcastsInDim S8192x64 (![0, 1] : Fin 2 → Fin S8192x64.rank)
  slices_S8192x192_S8192x128_0_64 : S8192x192.Slices ![0, 64] S8192x128
  concatenates_S8192x64_S8192x128_S8192x192_d1 : Shape.Concatenates [S8192x64, S8192x128] S8192x192 1
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  bcast_S_S8192x192 : S_.BroadcastsInDim S8192x192 (![] : Fin 0 → Fin S8192x192.rank)
  slices_S12x192x192_S1x192x192_0_0_0 : S12x192x192.Slices ![0, 0, 0] S1x192x192
  shapeCasts_S1x192x192_S192x192 : S1x192x192.ShapeCasts S192x192
  slices_S12x192_S1x192_0_0 : S12x192.Slices ![0, 0] S1x192
  shapeCasts_S1x192_S192 : S1x192.ShapeCasts S192
  slices_S8192x960_S8192x192_0_0 : S8192x960.Slices ![0, 0] S8192x192
  slices_S12x192x192_S1x192x192_1_0_0 : S12x192x192.Slices ![1, 0, 0] S1x192x192
  slices_S12x192_S1x192_1_0 : S12x192.Slices ![1, 0] S1x192
  slices_S12x192x192_S1x192x192_2_0_0 : S12x192x192.Slices ![2, 0, 0] S1x192x192
  slices_S12x192_S1x192_2_0 : S12x192.Slices ![2, 0] S1x192
  slices_S12x192x192_S1x192x192_3_0_0 : S12x192x192.Slices ![3, 0, 0] S1x192x192
  slices_S12x192_S1x192_3_0 : S12x192.Slices ![3, 0] S1x192
  slices_S12x192x192_S1x192x192_4_0_0 : S12x192x192.Slices ![4, 0, 0] S1x192x192
  slices_S12x192_S1x192_4_0 : S12x192.Slices ![4, 0] S1x192
  slices_S12x192x192_S1x192x192_5_0_0 : S12x192x192.Slices ![5, 0, 0] S1x192x192
  slices_S12x192_S1x192_5_0 : S12x192.Slices ![5, 0] S1x192
  slices_S12x192x192_S1x192x192_6_0_0 : S12x192x192.Slices ![6, 0, 0] S1x192x192
  slices_S12x192_S1x192_6_0 : S12x192.Slices ![6, 0] S1x192
  slices_S12x192x192_S1x192x192_7_0_0 : S12x192x192.Slices ![7, 0, 0] S1x192x192
  slices_S12x192_S1x192_7_0 : S12x192.Slices ![7, 0] S1x192
  slices_S12x192x192_S1x192x192_8_0_0 : S12x192x192.Slices ![8, 0, 0] S1x192x192
  slices_S12x192_S1x192_8_0 : S12x192.Slices ![8, 0] S1x192
  slices_S12x192x192_S1x192x192_9_0_0 : S12x192x192.Slices ![9, 0, 0] S1x192x192
  slices_S12x192_S1x192_9_0 : S12x192.Slices ![9, 0] S1x192
  slices_S12x192x192_S1x192x192_10_0_0 : S12x192x192.Slices ![10, 0, 0] S1x192x192
  slices_S12x192_S1x192_10_0 : S12x192.Slices ![10, 0] S1x192
  slices_S12x192x192_S1x192x192_11_0_0 : S12x192x192.Slices ![11, 0, 0] S1x192x192
  slices_S12x192_S1x192_11_0 : S12x192.Slices ![11, 0] S1x192
  slices_S8192x3_S8192x2_0_0 : S8192x3.Slices ![0, 0] S8192x2
  bcast_S8192x1_S8192x2_0_1 : S8192x1.BroadcastsInDim S8192x2 (![0, 1] : Fin 2 → Fin S8192x2.rank)
  slices_S8192x3_S8192x1_0_2 : S8192x3.Slices ![0, 2] S8192x1
  concatenates_S8192x2_S8192x1_S8192x3_d1 : Shape.Concatenates [S8192x2, S8192x1] S8192x3 1
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  dot_S8192x960_S960x192_S8192x192_1_0_0_1_n_n_wf : DotDims.WF S8192x960 S960x192 S8192x192 [1] [0] [0] [1] [] []
  dot_S8192x8192_S8192x1_S8192x1_1_0_0_1_n_n_wf : DotDims.WF S8192x8192 S8192x1 S8192x1 [1] [0] [0] [1] [] []
  dot_S8192x8192_S8192x64_S8192x64_1_0_0_1_n_n_wf : DotDims.WF S8192x8192 S8192x64 S8192x64 [1] [0] [0] [1] [] []
  dot_S8192x192_S192x192_S8192x192_1_0_0_1_n_n_wf : DotDims.WF S8192x192 S192x192 S8192x192 [1] [0] [0] [1] [] []
  dot_S8192x192_S192x3_S8192x3_1_0_0_1_n_n_wf : DotDims.WF S8192x192 S192x3 S8192x3 [1] [0] [0] [1] [] []
  dot_S8192x8192_S8192x2_S8192x2_1_0_0_1_n_n_wf : DotDims.WF S8192x8192 S8192x2 S8192x2 [1] [0] [0] [1] [] []

variable [Facts₀]

def dot_S8192x960_S960x192_S8192x192_1_0_0_1_n_n : DotDims S8192x960 S960x192 S8192x192 where
  lhsContracting := [1]
  rhsContracting := [0]
  lhsNonContracting := [0]
  rhsNonContracting := [1]
  lhsBatch := []
  rhsBatch := []
  wf := dot_S8192x960_S960x192_S8192x192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x192_S192x192_S8192x192_1_0_0_1_n_n : DotDims S8192x192 S192x192 S8192x192 where
  lhsContracting := [1]
  rhsContracting := [0]
  lhsNonContracting := [0]
  rhsNonContracting := [1]
  lhsBatch := []
  rhsBatch := []
  wf := dot_S8192x192_S192x192_S8192x192_1_0_0_1_n_n_wf
def dot_S8192x192_S192x3_S8192x3_1_0_0_1_n_n : DotDims S8192x192 S192x3 S8192x3 where
  lhsContracting := [1]
  rhsContracting := [0]
  lhsNonContracting := [0]
  rhsNonContracting := [1]
  lhsBatch := []
  rhsBatch := []
  wf := dot_S8192x192_S192x3_S8192x3_1_0_0_1_n_n_wf
def dot_S8192x8192_S8192x2_S8192x2_1_0_0_1_n_n : DotDims S8192x8192 S8192x2 S8192x2 where
  lhsContracting := [1]
  rhsContracting := [0]
  lhsNonContracting := [0]
  rhsNonContracting := [1]
  lhsBatch := []
  rhsBatch := []
  wf := dot_S8192x8192_S8192x2_S8192x2_1_0_0_1_n_n_wf

class Facts : Prop extends Facts₀ where

variable [Facts]
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.KV.R1.lean ====
/-
  Region 1 (a layer's support kernel), read at the extended reals. With x the layer's input [8192, 960], W₁ [960, 64] and
  W₂ [960, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg1
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz1 : (![0, 0] : Fin 2 → Nat) = fun _ => 0 := funext fun a => by fin_cases a <;> rfl

/-! ## The payloads at an index -/

/-- The generated dimension record of the [2048,960]·[960,64] product is the plain one. -/
theorem dot1_scaled_eq : dot_S2048x960_S960x64_S2048x64_1_0_0_1_n_n = DotDims.plain 2048 960 64 := rfl
/-- The generated dimension record of the [2048,960]·[960,128] product is the plain one. -/
theorem dot1_resid_eq : dot_S2048x960_S960x128_S2048x128_1_0_0_1_n_n = DotDims.plain 2048 960 128 := rfl

/-- The narrowed copy of the x block is the x block (a format change is the identity on extended reals). -/
theorem xcast1_eq (v0 : FVec Ideal S2048x960 .f32) : k1_pay1 (F := Ideal) v0 = v0 := by
  unfold k1_pay1
  exact shapeCast_self v0 _

/-- The scaled payload at (a, b): (∑ₗ x(a, l) · W₁(l, b)) · s(a, 0). -/
theorem scaled1_pay_apply (v0 : FVec Ideal S2048x960 .f32) (v3 : FVec Ideal S960x64 .f32) (v11 : FVec Ideal S2048x1 .f32)
    (a : Fin 2048) (b : Fin 64) :
    k1_pay3 (F := Ideal) v0 v3 v11 (ix2 a b) = (∑ l : Fin 960, v0 (ix2 a l) * v3 (ix2 l b)) * v11 (ix2 a (0 : Fin 1)) := by
  unfold k1_pay3
  simp only [xcast1_eq, shapeCast_self]
  show (matmul dot_S2048x960_S960x64_S2048x64_1_0_0_1_n_n none v0 v3 (constant (F := Ideal) S2048x64 .f32 0x00000000#32) (ix2 a b))
    * (broadcastTo S2048x64 v11 broadcasts_S2048x1_S2048x64 (ix2 a b)) = _
  rw [dot1_scaled_eq]
  exact congr (congrArg _ (LibPlainMatmul.matmul_zero_apply 2048 960 64 none v0 v3 a b))
    (LibKeepdims.broadcastTo_a1_ab_apply v11 broadcasts_S2048x1_S2048x64 a b)

/-- The residual payload at (a, b): (∑ₗ x(a, l) · W₂(l, b)) + b(0, b). -/
theorem resid1_pay_apply (v0 : FVec Ideal S2048x960 .f32) (v6 : FVec Ideal S960x128 .f32) (v15 : FVec Ideal S1x128 .f32)
    (a : Fin 2048) (b : Fin 128) :
    k1_pay2 (F := Ideal) v0 v6 v15 (ix2 a b) = (∑ l : Fin 960, v0 (ix2 a l) * v6 (ix2 l b)) + v15 (ix2 (0 : Fin 1) b) := by
  unfold k1_pay2
  simp only [xcast1_eq, shapeCast_self]
  show (matmul dot_S2048x960_S960x128_S2048x128_1_0_0_1_n_n none v0 v6 (constant (F := Ideal) S2048x128 .f32 0x00000000#32) (ix2 a b))
    + (broadcastTo S2048x128 v15 broadcasts_S1x128_S2048x128 (ix2 a b)) = _
  rw [dot1_resid_eq]
  refine congr (congrArg _ (LibPlainMatmul.matmul_zero_apply 2048 960 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin1 (c : Dev nD) : FVec Ideal S8192x960 .f32 := V c (Pipeline.arrRef spec1 0)
/-- The weight's scaled column group W₁. -/
abbrev wsc1 (c : Dev nD) : FVec Ideal S960x64 .f32 := V c (Pipeline.arrRef spec1 1)
/-- The weight's residual column group W₂. -/
abbrev wre1 (c : Dev nD) : FVec Ideal S960x128 .f32 := V c (Pipeline.arrRef spec1 2)
/-- The bias row b. -/
abbrev bia1 (c : Dev nD) : FVec Ideal S1x128 .f32 := V c (Pipeline.arrRef spec1 3)
/-- The column s of inverse row sums. -/
abbrev inv1 (c : Dev nD) : FVec Ideal S8192x1 .f32 := V c (Pipeline.arrRef spec1 4)

/-- Entry (p, q) of the scaled output. -/
def scaledAt1 (c : Dev nD) (p : Fin 8192) (q : Fin 64) : EReal :=
  (∑ l : Fin 960, xin1 V c (ix2 p l) * wsc1 V c (ix2 l q)) * inv1 V c (ix2 p (0 : Fin 1))

/-- Entry (p, q) of the residual output. -/
def residAt1 (c : Dev nD) (p : Fin 8192) (q : Fin 128) : EReal :=
  (∑ l : Fin 960, xin1 V c (ix2 p l) * wre1 V c (ix2 l q)) + bia1 V c (ix2 (0 : Fin 1) q)

/-- What the scaled output ends holding. -/
abbrev G1_5 (c : Dev nD) : FVec Ideal S8192x64 .bf16 := fun i => scaledAt1 V c ⟨(i 0).val, idx2_lt0 i⟩ ⟨(i 1).val, idx2_lt1 i⟩
/-- What the residual output ends holding. -/
abbrev G1_6 (c : Dev nD) : FVec Ideal S8192x128 .f32 := fun i => residAt1 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_5.index t (1 : Fin 2) = 0
    ∧ win1_6.index t (0 : Fin 2) = win1_5.index t (0 : Fin 2) ∧ win1_6.index t (1 : Fin 2) = 0
    ∧ win1_5.index t (0 : Fin 2) < 4 :=
  (by decide +kernel : ∀ t : Fin grid1.N, _)

/-- Every row block is some point's, for the scaled output … -/
theorem idx_onto1_5 : ∀ q0 : Fin 4, ∃ t : Fin cfg1.N, win1_5.index t = ![q0.val, 0] :=
  (by decide +kernel : ∀ q0 : Fin 4, ∃ t : Fin grid1.N, win1_5.index t = ![q0.val, 0])

/-- … and for the residual output. -/
theorem idx_onto1_6 : ∀ q0 : Fin 4, ∃ t : Fin cfg1.N, win1_6.index t = ![q0.val, 0] :=
  (by decide +kernel : ∀ q0 : Fin 4, ∃ t : Fin grid1.N, win1_6.index t = ![q0.val, 0])

/-! ## Output window 5: the scaled output -/

/-- WHAT POINT t WRITES BACK is block t of the scaled output's function of the arrays. -/
theorem flushed1_5_eq (c : Dev nD) (t : Fin cfg1.N) :
    (dat1 (F := Ideal) V c).flushed 5 t = ((cfg1.win 5).blk t).view.read (Elt Ideal) (G1_5 V c) := by
  show (cfg1.win 5).cut (grid1.coords t) ((dat1 (F := Ideal) V c).after 5 t) = _
  rw [after1_5]
  unfold out1_5
  rw [View.canon_unit_zero hz1]
  simp only [View.ld_unit_zero (S := S2048x960) hz1, View.ld_unit_zero (S := S960x64) hz1, View.ld_unit_zero (S := S2048x1) hz1]
  obtain ⟨e00, e01, e10, e11, e20, e21, e30, e31, e40, e41, e51, e60, e61, e5⟩ := idx_facts1 t
  funext j
  obtain ⟨a, b, rfl⟩ : ∃ (a : Fin 2048) (b : Fin 64), j = ix2 a b := ⟨j 0, j 1, eq_ix2 j⟩
  refine (scaled1_pay_apply (iblk1 V c 0 t) (iblk1 V c 1 t) (iblk1 V c 4 t) a b).trans ?_
  show (∑ l : Fin 960, xin1 V c (((cfg1.win 0).blk t).view.emb (ix2 a l)) * wsc1 V c (((cfg1.win 1).blk t).view.emb (ix2 l b)))
      * inv1 V c (((cfg1.win 4).blk t).view.emb (ix2 a (0 : Fin 1)))
    = scaledAt1 V c ⟨((((cfg1.win 5).blk t).view.emb (ix2 a b)) 0).val, _⟩ ⟨((((cfg1.win 5).blk t).view.emb (ix2 a b)) 1).val, _⟩
  unfold scaledAt1
  refine congr (congrArg _ (Finset.sum_congr rfl fun l _ => congr (congrArg _ (congrArg _ ?_)) (congrArg _ ?_))) (congrArg _ ?_)
  · funext d; apply Fin.ext
    match d with
    | ⟨0, _⟩ => show win1_0.index t (0 : Fin 2) * 2048 + 1 * a.val = win1_5.index t (0 : Fin 2) * 2048 + 1 * a.val; omega
    | ⟨1, _⟩ => show win1_0.index t (1 : Fin 2) * 960 + 1 * l.val = l.val; omega
  · funext d; apply Fin.ext
    match d with
    | ⟨0, _⟩ => show win1_1.index t (0 : Fin 2) * 960 + 1 * l.val = l.val; omega
    | ⟨1, _⟩ => show win1_1.index t (1 : Fin 2) * 64 + 1 * b.val = win1_5.index t (1 : Fin 2) * 64 + 1 * b.val; omega
  · funext d; apply Fin.ext
    match d with
    | ⟨0, _⟩ => show win1_4.index t (0 : Fin 2) * 2048 + 1 * a.val = win1_5.index t (0 : Fin 2) * 2048 + 1 * a.val; omega
    | ⟨1, _⟩ => show win1_4.index t (1 : Fin 2) * 1 + 1 * 0 = 0; omega

/-- An index of the scaled output is in point t's block iff each coordinate is in the block's range on its axis. -/
theorem mem_blk1_5 (t : Fin cfg1.N) (i : S8192x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole (Pipeline.arrRef spec1 5)).slice (win1_5.rect t)).set ↔ _
  rw [View.set_slice_whole, Rect.mem_set_unit]
  exact Iff.rfl

/-- Every index is in the block of the point of its row block, row / 2048. -/
theorem covered1_5 (i : S8192x64.Idx) :
    ∃ t : Fin cfg1.N, (cfg1.win 5).flush t = true ∧ i ∈ ((cfg1.win 5).blk t).view.set := by
  have hi0 : (i 0).val < 8192 := (i 0).isLt
  have hi1 : (i 1).val < 64 := (i 1).isLt
  obtain ⟨t, ht⟩ := idx_onto1_5 ⟨(i 0).val / 2048, by omega⟩
  have q0 : win1_5.index t (0 : Fin 2) = (i 0).val / 2048 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 64 ≤ (i 1).val ∧ (i 1).val < win1_5.index t (1 : Fin 2) * 64 + 64; omega

/-- THE SCALED OUTPUT after the region. -/
theorem arr1_5 (c : Dev nD) : (dat1 (F := Ideal) V c).arrAt 5 cfg1.N = G1_5 V c :=
  (dat1 (F := Ideal) V c).arrAt_eq_of_cover 5 (G1_5 V c) (fun t _ => flushed1_5_eq V c t) covered1_5

theorem r1_scaled (c : Dev nD) (p : Fin 8192) (q : Fin 64) :
    (dat1 (F := Ideal) V c).arrAt 5 cfg1.N (ix2 p q)
      = (∑ l : Fin 960, xin1 V c (ix2 p l) * wsc1 V c (ix2 l q)) * inv1 V c (ix2 p (0 : Fin 1)) :=
  congrFun (arr1_5 V c) (ix2 p q)

/-! ## Output window 6: the residual output -/

/-- WHAT POINT t WRITES BACK is block t of the residual output's function of the arrays. -/
theorem flushed1_6_eq (c : Dev nD) (t : Fin cfg1.N) :
    (dat1 (F := Ideal) V c).flushed 6 t = ((cfg1.win 6).blk t).view.read (Elt Ideal) (G1_6 V c) := by
  show (cfg1.win 6).cut (grid1.coords t) ((dat1 (F := Ideal) V c).after 6 t) = _
  rw [after1_6]
  unfold out1_6
  rw [View.canon_unit_zero hz1]
  simp only [View.ld_unit_zero (S := S2048x960) hz1, View.ld_unit_zero (S := S960x128) hz1, View.ld_unit_zero (S := S1x128) hz1]
  obtain ⟨e00, e01, e10, e11, e20, e21, e30, e31, e40, e41, e51, e60, e61, e5⟩ := idx_facts1 t
  funext j
  obtain ⟨a, b, rfl⟩ : ∃ (a : Fin 2048) (b : Fin 128), j = ix2 a b := ⟨j 0, j 1, eq_ix2 j⟩
  refine (resid1_pay_apply (iblk1 V c 0 t) (iblk1 V c 2 t) (iblk1 V c 3 t) a b).trans ?_
  show (∑ l : Fin 960, xin1 V c (((cfg1.win 0).blk t).view.emb (ix2 a l)) * wre1 V c (((cfg1.win 2).blk t).view.emb (ix2 l b)))
      + bia1 V c (((cfg1.win 3).blk t).view.emb (ix2 (0 : Fin 1) b))
    = residAt1 V c ⟨((((cfg1.win 6).blk t).view.emb (ix2 a b)) 0).val, _⟩ ⟨((((cfg1.win 6).blk t).view.emb (ix2 a b)) 1).val, _⟩
  unfold residAt1
  refine congr (congrArg _ (Finset.sum_congr rfl fun l _ => congr (congrArg _ (congrArg _ ?_)) (congrArg _ ?_))) (congrArg _ ?_)
  · funext d; apply Fin.ext
    match d with
    | ⟨0, _⟩ => show win1_0.index t (0 : Fin 2) * 2048 + 1 * a.val = win1_6.index t (0 : Fin 2) * 2048 + 1 * a.val; omega
    | ⟨1, _⟩ => show win1_0.index t (1 : Fin 2) * 960 + 1 * l.val = l.val; omega
  · funext d; apply Fin.ext
    match d with
    | ⟨0, _⟩ => show win1_2.index t (0 : Fin 2) * 960 + 1 * l.val = l.val; omega
    | ⟨1, _⟩ => show win1_2.index t (1 : Fin 2) * 128 + 1 * b.val = win1_6.index t (1 : Fin 2) * 128 + 1 * b.val; omega
  · funext d; apply Fin.ext
    match d with
    | ⟨0, _⟩ => show win1_3.index t (0 : Fin 2) * 1 + 1 * 0 = 0; omega
    | ⟨1, _⟩ => show win1_3.index t (1 : Fin 2) * 128 + 1 * b.val = win1_6.index t (1 : Fin 2) * 128 + 1 * b.val; omega

/-- An index of the residual output is in point t's block iff each coordinate is in the block's range on its axis. -/
theorem mem_blk1_6 (t : Fin cfg1.N) (i : S8192x128.Idx) :
    i ∈ ((cfg1.win 6).blk t).view.set ↔ ∀ a : Fin 2, win1_6.index t a * S2048x128.size a ≤ (i a).val ∧ (i a).val < win1_6.index t a * S2048x128.size a + S2048x128.size a := by
  show i ∈ ((View.whole (Pipeline.arrRef spec1 6)).slice (win1_6.rect t)).set ↔ _
  rw [View.set_slice_whole, Rect.mem_set_unit]
  exact Iff.rfl

/-- Every index is in the block of the point of its row block, row / 2048. -/
theorem covered1_6 (i : S8192x128.Idx) :
    ∃ t : Fin cfg1.N, (cfg1.win 6).flush t = true ∧ i ∈ ((cfg1.win 6).blk t).view.set := by
  have hi0 : (i 0).val < 8192 := (i 0).isLt
  have hi1 : (i 1).val < 128 := (i 1).isLt
  obtain ⟨t, ht⟩ := idx_onto1_6 ⟨(i 0).val / 2048, by omega⟩
  have q0 : win1_6.index t (0 : Fin 2) = (i 0).val / 2048 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 128 ≤ (i 1).val ∧ (i 1).val < win1_6.index t (1 : Fin 2) * 128 + 128; omega

/-- THE RESIDUAL OUTPUT after the region. -/
theorem arr1_6 (c : Dev nD) : (dat1 (F := Ideal) V c).arrAt 6 cfg1.N = G1_6 V c :=
  (dat1 (F := Ideal) V c).arrAt_eq_of_cover 6 (G1_6 V c) (fun t _ => flushed1_6_eq V c t) covered1_6

theorem r1_resid (c : Dev nD) (p : Fin 8192) (q : Fin 128) :
    (dat1 (F := Ideal) V c).arrAt 6 cfg1.N (ix2 p q)
      = (∑ l : Fin 960, xin1 V c (ix2 p l) * wre1 V c (ix2 l q)) + bia1 V c (ix2 (0 : Fin 1) q) :=
  congrFun (arr1_6 V c) (ix2 p q)

end Cert.KernelIdeal.KV

end
-- ==== Proof.KV.R2.lean ====
/-
  Region 2, an aggregation layer with rectifier and no residual: what its output array holds after the region,
  entry by entry, as a function of the arrays the region finds.

  The body writes its output block [1024, 192] by two column slices: columns [0, 64) hold
  max(A·S + b, 0) (A the row block of the adjacency, S the scaled features, b the bias row broadcast over the rows) and
  columns [64, 192) hold max(R, 0) (R the row block of the other feature group). The two slices are disjoint and cover the
  block, so each entry of the block is the payload of the slice that holds it. Row block t of the output array is
  written by grid point t (8 points of 1024 rows), and the points' blocks cover the array; so entry (p, q) of the array
  is ∑ₖ A(p, k)·S(k, q) + b(0, q) rectified for q < 64, and R(p, q − 64) rectified for q ≥ 64.
-/
import proofs.«405499_j28269474742810_3_alg».proof.Proof.Fr.KernelIdeal.Reg2
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r2_hz : (![0, 0] : Fin 2 → Nat) = fun _ => 0 := funext fun a => match a with | ⟨0, _⟩ => rfl | ⟨1, _⟩ => rfl

/-- The product's dimension numbers are those of a plain M×K by K×N product. -/
theorem r2_dot_plain : dot_S1024x8192_S8192x64_S1024x64_1_0_0_1_n_n = DotDims.plain 1024 8192 64 := rfl

/-- Columns [0, 64) at entry (a, b): the product's entry plus the bias of column b, rectified. -/
theorem r2_pay1_apply (x0 : Vec Ideal S1024x8192 .bf16) (x1 : Vec Ideal S8192x64 .bf16) (x3 : Vec Ideal S1x64 .f32)
    (a : Fin 1024) (b : Fin 64) :
    k2_pay1 (F := Ideal) x0 x1 x3 (ix2 a b)
      = max ((∑ k : Fin 8192, x0 (ix2 a k) * x1 (ix2 k b)) + x3 (ix2 (0 : Fin 1) b)) (Ideal.ofBits .f32 0x00000000#32) := by
  unfold k2_pay1
  simp only [shapeCast_self]
  show max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32) = _
  rw [r2_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the other feature group's entry, rectified. -/
theorem r2_pay2_apply (x2 : Vec Ideal S1024x128 .f32) (a : Fin 1024) (b : Fin 128) :
    k2_pay2 (F := Ideal) x2 (ix2 a b) = max (x2 (ix2 a b)) (Ideal.ofBits .f32 0x00000000#32) := by
  unfold k2_pay2
  simp only [shapeCast_self]
  rfl

/-! ## What the body leaves in the output block: each entry is the payload of the slice that holds it -/

/-- An entry in columns [0, 64): off the later slice, under the earlier one. -/
theorem r2_out_lo (c : Dev nD) (i : grid2.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 64) (hy0 : (y 0).val = a.val) (hy1 : (y 1).val = b.val) :
    out2_A_4 (F := Ideal) c i a1 h1 a2 h2 a3 h3 a4 h4 a5 h5 x0 x1 x2 x3 y = k2_pay1 (F := Ideal) x0 x1 x3 (ix2 a b) := by
  unfold out2_A_4
  rw [View.read_writes_eq_canon _ _ _ (cover2_A_4 c i a1 h1 a2 h2 a3 h3 a4 h4 a5 h5 x0 x1 x2 x3)]
  unfold kernelRun2_A
  dsimp only
  sl_unfold_words
  simp only [View.readAt_eq_ld, h1.read_unread, h2.read_unread, h3.read_unread, h4.read_unread,
    View.ld_unit_zero (S := S1024x8192) r2_hz, View.ld_unit_zero (S := S8192x64) r2_hz,
    View.ld_unit_zero (S := S1024x128) r2_hz, View.ld_unit_zero (S := S1x64) r2_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r2_out_hi (c : Dev nD) (i : grid2.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 128) (hy0 : (y 0).val = a.val) (hy1 : (y 1).val = 64 + b.val) :
    out2_A_4 (F := Ideal) c i a1 h1 a2 h2 a3 h3 a4 h4 a5 h5 x0 x1 x2 x3 y = k2_pay2 (F := Ideal) x2 (ix2 a b) := by
  unfold out2_A_4
  rw [View.read_writes_eq_canon _ _ _ (cover2_A_4 c i a1 h1 a2 h2 a3 h3 a4 h4 a5 h5 x0 x1 x2 x3)]
  unfold kernelRun2_A
  dsimp only
  sl_unfold_words
  simp only [View.readAt_eq_ld, h1.read_unread, h2.read_unread, h3.read_unread, h4.read_unread,
    View.ld_unit_zero (S := S1024x8192) r2_hz, View.ld_unit_zero (S := S8192x64) r2_hz,
    View.ld_unit_zero (S := S1024x128) r2_hz, View.ld_unit_zero (S := S1x64) r2_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group and the bias row, as the region finds them. -/
abbrev r2_adj (c : Dev nD) : Vec Ideal S8192x8192 .bf16 := V c (Pipeline.arrRef spec2 0)
abbrev r2_scaled (c : Dev nD) : Vec Ideal S8192x64 .bf16 := V c (Pipeline.arrRef spec2 1)
abbrev r2_resid (c : Dev nD) : Vec Ideal S8192x128 .f32 := V c (Pipeline.arrRef spec2 2)
abbrev r2_bias (c : Dev nD) : Vec Ideal S1x64 .f32 := V c (Pipeline.arrRef spec2 3)

/-- The windows' blocks at a point, at their literal types. -/
abbrev r2_b0 (c : Dev nD) (t : Fin cfg2.N) : Vec Ideal S1024x8192 .bf16 := iblk2 (F := Ideal) V c 0 t
abbrev r2_b1 (c : Dev nD) (t : Fin cfg2.N) : Vec Ideal S8192x64 .bf16 := iblk2 (F := Ideal) V c 1 t
abbrev r2_b2 (c : Dev nD) (t : Fin cfg2.N) : Vec Ideal S1024x128 .f32 := iblk2 (F := Ideal) V c 2 t
abbrev r2_b3 (c : Dev nD) (t : Fin cfg2.N) : Vec Ideal S1x64 .f32 := iblk2 (F := Ideal) V c 3 t

/-- Entry (p, q) of the array the region leaves. -/
def r2_val (c : Dev nD) (p : Fin 8192) (q : Fin 192) : EReal :=
  if h : q.val < 64 then
    max ((∑ k : Fin 8192, r2_adj V c (ix2 p k) * r2_scaled V c (ix2 k (⟨q.val, h⟩ : Fin 64)))
      + r2_bias V c (ix2 (0 : Fin 1) (⟨q.val, h⟩ : Fin 64))) (Ideal.ofBits .f32 0x00000000#32)
  else
    max (r2_resid V c (ix2 p (⟨q.val - 64, by have := q.isLt; omega⟩ : Fin 128))) (Ideal.ofBits .f32 0x00000000#32)

/-- The array the region leaves. -/
def r2_G (c : Dev nD) : Vec Ideal S8192x192 .f32 := fun i => r2_val V c (i 0) (i 1)

/-- The printed index maps, decided over the grid: the row-blocked windows are at block row t, column block 0; the whole
    windows at block (0, 0). -/
theorem r2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row block t of the adjacency: entry (a, k) of the block is entry (1024 t + a, k) of the array. -/
theorem r2_b0_apply (c : Dev nD) (t : Fin cfg2.N) (a : Fin 1024) (k : Fin 8192) (p : Fin 8192)
    (hp : p.val = t.val * 1024 + a.val) : r2_b0 V c t (ix2 a k) = r2_adj V c (ix2 p k) := by
  obtain ⟨e00, e01, -⟩ := r2_idx_facts t
  show V c (Pipeline.arrRef spec2 0) (((cfg2.win 0).blk t).view.emb (ix2 a k)) = V c (Pipeline.arrRef spec2 0) (ix2 p k)
  refine congrArg _ (funext fun d => Fin.ext ?_)
  match d with
  | ⟨0, _⟩ => show win2_0.index t (0 : Fin 2) * 1024 + 1 * a.val = p.val; omega
  | ⟨1, _⟩ => show win2_0.index t (1 : Fin 2) * 8192 + 1 * k.val = k.val; omega

/-- The scaled features' one block is the array. -/
theorem r2_b1_apply (c : Dev nD) (t : Fin cfg2.N) (k : Fin 8192) (b : Fin 64) :
    r2_b1 V c t (ix2 k b) = r2_scaled V c (ix2 k b) := by
  obtain ⟨-, -, e10, e11, -⟩ := r2_idx_facts t
  show V c (Pipeline.arrRef spec2 1) (((cfg2.win 1).blk t).view.emb (ix2 k b)) = V c (Pipeline.arrRef spec2 1) (ix2 k b)
  refine congrArg _ (funext fun d => Fin.ext ?_)
  match d with
  | ⟨0, _⟩ => show win2_1.index t (0 : Fin 2) * 8192 + 1 * k.val = k.val; omega
  | ⟨1, _⟩ => show win2_1.index t (1 : Fin 2) * 64 + 1 * b.val = b.val; omega

/-- Row block t of the other feature group. -/
theorem r2_b2_apply (c : Dev nD) (t : Fin cfg2.N) (a : Fin 1024) (b : Fin 128) (p : Fin 8192)
    (hp : p.val = t.val * 1024 + a.val) : r2_b2 V c t (ix2 a b) = r2_resid V c (ix2 p b) := by
  obtain ⟨-, -, -, -, e20, e21, -⟩ := r2_idx_facts t
  show V c (Pipeline.arrRef spec2 2) (((cfg2.win 2).blk t).view.emb (ix2 a b)) = V c (Pipeline.arrRef spec2 2) (ix2 p b)
  refine congrArg _ (funext fun d => Fin.ext ?_)
  match d with
  | ⟨0, _⟩ => show win2_2.index t (0 : Fin 2) * 1024 + 1 * a.val = p.val; omega
  | ⟨1, _⟩ => show win2_2.index t (1 : Fin 2) * 128 + 1 * b.val = b.val; omega

/-- The bias row's one block is the array. -/
theorem r2_b3_apply (c : Dev nD) (t : Fin cfg2.N) (b : Fin 64) :
    r2_b3 V c t (ix2 (0 : Fin 1) b) = r2_bias V c (ix2 (0 : Fin 1) b) := by
  obtain ⟨-, -, -, -, -, -, e30, e31, -⟩ := r2_idx_facts t
  show V c (Pipeline.arrRef spec2 3) (((cfg2.win 3).blk t).view.emb (ix2 (0 : Fin 1) b)) = V c (Pipeline.arrRef spec2 3) (ix2 (0 : Fin 1) b)
  refine congrArg _ (funext fun d => Fin.ext ?_)
  match d with
  | ⟨0, _⟩ => show win2_3.index t (0 : Fin 2) * 1 + 1 * 0 = 0; omega
  | ⟨1, _⟩ => show win2_3.index t (1 : Fin 2) * 64 + 1 * b.val = b.val; omega

/-- WHAT POINT t WRITES BACK is block t of the array the region leaves. -/
theorem r2_flushed_eq (c : Dev nD) (t : Fin cfg2.N) :
    (dat2 (F := Ideal) V c).flushed 4 t = ((cfg2.win 4).blk t).view.read (Elt Ideal) (r2_G V c) := by
  show (cfg2.win 4).cut (grid2.coords t) ((dat2 (F := Ideal) V c).after 4 t) = _
  rw [after2_4]
  obtain ⟨-, -, -, -, -, -, -, -, e40, e41⟩ := r2_idx_facts t
  funext j
  have hj0 : (j 0).val < 1024 := (j 0).isLt
  have hj1 : (j 1).val < 192 := (j 1).isLt
  have ht : t.val < 8 := lt_of_lt_of_eq t.isLt N_2
  have hp : t.val * 1024 + (j 0).val < 8192 := by omega
  have hemb : ((cfg2.win 4).blk t).view.emb j
      = ix2 (⟨t.val * 1024 + (j 0).val, hp⟩ : Fin 8192) (⟨(j 1).val, hj1⟩ : Fin 192) := by
    funext d; apply Fin.ext
    match d with
    | ⟨0, _⟩ => show win2_4.index t (0 : Fin 2) * 1024 + 1 * (j 0).val = t.val * 1024 + (j 0).val; omega
    | ⟨1, _⟩ => show win2_4.index t (1 : Fin 2) * 192 + 1 * (j 1).val = (j 1).val; omega
  show outsAt2 (F := Ideal) V c t ((cfg2.win 4).xinj (grid2.coords t) j) = r2_G V c (((cfg2.win 4).blk t).view.emb j)
  rw [hemb]
  show _ = r2_val V c (⟨t.val * 1024 + (j 0).val, hp⟩ : Fin 8192) (⟨(j 1).val, hj1⟩ : Fin 192)
  unfold outsAt2 r2_val
  by_cases h : (j 1).val < 64
  · rw [dif_pos h]
    refine (r2_out_lo c (grid2.coords t) (ms2_0 t) (hs2_0 t) (ms2_1 t) (hs2_1 t) (ms2_2 t) (hs2_2 t) (ms2_3 t) (hs2_3 t)
      (ms2_4 t) (hs2_4 t) (r2_b0 V c t) (r2_b1 V c t) (r2_b2 V c t) (r2_b3 V c t)
      ((cfg2.win 4).xinj (grid2.coords t) j) (⟨(j 0).val, hj0⟩ : Fin 1024) (⟨(j 1).val, h⟩ : Fin 64) rfl rfl).trans ?_
    refine (r2_pay1_apply (r2_b0 V c t) (r2_b1 V c t) (r2_b3 V c t) (⟨(j 0).val, hj0⟩ : Fin 1024) (⟨(j 1).val, h⟩ : Fin 64)).trans ?_
    refine congrArg₂ max (congrArg₂ (· + ·) (Finset.sum_congr rfl fun k _ =>
      congrArg₂ (· * ·) (r2_b0_apply V c t (⟨(j 0).val, hj0⟩ : Fin 1024) k (⟨t.val * 1024 + (j 0).val, hp⟩ : Fin 8192) rfl)
        (r2_b1_apply V c t k (⟨(j 1).val, h⟩ : Fin 64))) (r2_b3_apply V c t (⟨(j 1).val, h⟩ : Fin 64))) rfl
  · rw [dif_neg h]
    have h128 : (j 1).val - 64 < 128 := by omega
    refine (r2_out_hi c (grid2.coords t) (ms2_0 t) (hs2_0 t) (ms2_1 t) (hs2_1 t) (ms2_2 t) (hs2_2 t) (ms2_3 t) (hs2_3 t)
      (ms2_4 t) (hs2_4 t) (r2_b0 V c t) (r2_b1 V c t) (r2_b2 V c t) (r2_b3 V c t)
      ((cfg2.win 4).xinj (grid2.coords t) j) (⟨(j 0).val, hj0⟩ : Fin 1024) (⟨(j 1).val - 64, h128⟩ : Fin 128) rfl
      (by show (j 1).val = 64 + ((j 1).val - 64); omega)).trans ?_
    refine (r2_pay2_apply (r2_b2 V c t) (⟨(j 0).val, hj0⟩ : Fin 1024) (⟨(j 1).val - 64, h128⟩ : Fin 128)).trans ?_
    exact congrArg₂ max (r2_b2_apply V c t (⟨(j 0).val, hj0⟩ : Fin 1024) (⟨(j 1).val - 64, h128⟩ : Fin 128)
      (⟨t.val * 1024 + (j 0).val, hp⟩ : Fin 8192) rfl) rfl

/-! ## The points' blocks cover the array -/

/-- An index of the array is in point t's block iff each coordinate is in the block's range on its axis. -/
theorem r2_mem_blk (t : Fin cfg2.N) (i : S8192x192.Idx) :
    i ∈ ((cfg2.win 4).blk t).view.set ↔ ∀ a : Fin 2, win2_4.index t a * S1024x192.size a ≤ (i a).val
      ∧ (i a).val < win2_4.index t a * S1024x192.size a + S1024x192.size a := by
  show i ∈ ((View.whole (Pipeline.arrRef spec2 4)).slice (win2_4.rect t)).set ↔ _
  rw [View.set_slice_whole, Rect.mem_set_unit]
  exact Iff.rfl

/-- Row r of the array is in the block of point r / 1024. -/
theorem r2_cover (i : S8192x192.Idx) :
    ∃ t : Fin cfg2.N, (cfg2.win 4).flush t = true ∧ i ∈ ((cfg2.win 4).blk t).view.set := by
  have hi0 : (i 0).val < 8192 := (i 0).isLt
  have hi1 : (i 1).val < 192 := (i 1).isLt
  have hlt : (i 0).val / 1024 < cfg2.N := lt_of_lt_of_eq (by omega : (i 0).val / 1024 < 8) N_2.symm
  obtain ⟨-, -, -, -, -, -, -, -, e40, e41⟩ := r2_idx_facts ⟨(i 0).val / 1024, hlt⟩
  refine ⟨⟨(i 0).val / 1024, hlt⟩, flush2_4 _, ?_⟩
  rw [r2_mem_blk]
  intro a
  match a with
  | ⟨0, _⟩ =>
    show win2_4.index ⟨(i 0).val / 1024, hlt⟩ (0 : Fin 2) * 1024 ≤ (i 0).val
      ∧ (i 0).val < win2_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win2_4.index ⟨(i 0).val / 1024, hlt⟩ (1 : Fin 2) * 192 ≤ (i 1).val
      ∧ (i 1).val < win2_4.index ⟨(i 0).val / 1024, hlt⟩ (1 : Fin 2) * 192 + 192
    rw [e41]; omega

/-! ## The output array after the region -/

/-- The output array ends holding the array of the entries above. -/
theorem r2_final (c : Dev nD) : (dat2 (F := Ideal) V c).arrAt 4 cfg2.N = r2_G V c :=
  (dat2 (F := Ideal) V c).arrAt_eq_of_cover 4 (r2_G V c) (fun t _ => r2_flushed_eq V c t) r2_cover

/-- Columns [0, 64): the aggregated, biased, rectified features. -/
theorem r2_lo (c : Dev nD) (p : Fin 8192) (q : Fin 64) :
    (dat2 (F := Ideal) V c).arrAt 4 cfg2.N (ix2 p (⟨q.val, by have := q.isLt; omega⟩ : Fin 192))
      = max ((∑ k : Fin 8192, r2_adj V c (ix2 p k) * r2_scaled V c (ix2 k q)) + r2_bias V c (ix2 (0 : Fin 1) q))
          (Ideal.ofBits .f32 0x00000000#32) := by
  rw [r2_final]
  show r2_val V c p (⟨q.val, _⟩ : Fin 192) = _
  unfold r2_val
  rw [dif_pos (show (⟨q.val, _⟩ : Fin 192).val < 64 from q.isLt)]

/-- Columns [64, 192): the other feature group, rectified. -/
theorem r2_hi (c : Dev nD) (p : Fin 8192) (q : Fin 128) :
    (dat2 (F := Ideal) V c).arrAt 4 cfg2.N (ix2 p (⟨64 + q.val, by have := q.isLt; omega⟩ : Fin 192))
      = max (r2_resid V c (ix2 p q)) (Ideal.ofBits .f32 0x00000000#32) := by
  rw [r2_final]
  show r2_val V c p (⟨64 + q.val, _⟩ : Fin 192) = _
  unfold r2_val
  rw [dif_neg (show ¬ (⟨64 + q.val, _⟩ : Fin 192).val < 64 from by show ¬ 64 + q.val < 64; omega)]
  refine congrArg₂ max (congrArg _ (congrArg (ix2 p) (Fin.ext ?_))) rfl
  show 64 + q.val - 64 = q.val
  omega

end Cert.KernelIdeal.KV

end
-- ==== Proof.KV.R0.lean ====
/-
  Region 0 (the preparation of the adjacency array), read at the extended reals: after it the narrowed copy of the
  adjacency array holds the adjacency array's entries (a format change is the identity on extended reals), and the
  column of inverse row sums holds, in row p, the quotient 1 / (∑ₖ adj(p, k)).

  Each grid point t reads rows 256·t … 256·t+255 of the adjacency array and writes the same rows of the two outputs;
  the 32 points' row blocks cover the 8192 rows.
-/
import proofs.«405499_j28269474742810_3_alg».proof.Proof.Fr.KernelIdeal.Reg0
import proofs.«405499_j28269474742810_3_alg».proof.Proof.LibKeepdims
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz0 : (![0, 0] : Fin 2 → Nat) = fun _ => 0 := funext fun a => by fin_cases a <;> rfl

/-! ## The payloads at an index -/

/-- The lane sum of a [256, 8192] block at row a is the sum of the row's 8192 entries. -/
theorem rowsum0_apply (v0 : FVec Ideal S256x8192 .f32) (h : Shape.Reduces S256x8192 [1] S256) (hφ : FKind.Formats .f32)
    (hacc : (0x00000000#32 : BitVec 32) = 0x00000000#32) (a : Fin 256) :
    multiReduction (F := Ideal) .add [1] S256 v0 0x00000000#32 h hφ hacc (ix1 a) = ∑ k : Fin 8192, v0 (ix2 a k) := by
  refine (Ideal.multiReduction_add_single v0 0x00000000#32 h hφ hacc (ix1 a)).trans ?_
  refine Finset.sum_congr rfl fun k _ => congrArg v0 ?_
  funext d; apply Fin.ext
  match d with
  | ⟨0, _⟩ => rfl
  | ⟨1, _⟩ => rfl

/-- The inverse-row-sum payload at (a, u): 1 / (∑ₖ x(a, k)). -/
theorem pay0_inv_apply (v0 : FVec Ideal S256x8192 .f32) (a : Fin 256) (u : Fin 1) :
    k0_pay1 (F := Ideal) v0 (ix2 a u) = Ideal.div (Ideal.ofBits .f32 0x3F800000#32) (∑ k : Fin 8192, v0 (ix2 a k)) := by
  unfold k0_pay1
  show Ideal.div _ _ = _
  congr 1
  exact (LibKeepdims.shapeCast_a_a1_apply _ _ a u).trans (rowsum0_apply v0 _ _ _ a)

/-- The narrowed copy of a block is the block. -/
theorem pay0_bf_eq (v0 : FVec Ideal S256x8192 .f32) : k0_pay2 (F := Ideal) v0 = v0 := rfl

/-! ## The arrays -/

/-- The adjacency array as the region finds it. -/
abbrev adj0 (c : Dev nD) : FVec Ideal S8192x8192 .f32 := V c (Pipeline.arrRef spec0 0)

/-- What the narrowed copy ends holding: the adjacency array's entries. -/
abbrev G0_1 (c : Dev nD) : FVec Ideal S8192x8192 .bf16 := fun i => adj0 V c i

/-- Row p's inverse row sum. -/
def invRow0 (c : Dev nD) (p : Fin 8192) : EReal :=
  Ideal.div (Ideal.ofBits .f32 0x3F800000#32) (∑ k : Fin 8192, adj0 V c (ix2 p k))

/-- What the column of inverse row sums ends holding. -/
abbrev G0_2 (c : Dev nD) : FVec Ideal S8192x1 .f32 := fun i => invRow0 V c ⟨(i 0).val, idx2_lt0 i⟩

/-! ## The index maps over the grid -/

/-- The printed index maps, decided over the 32 points: all three windows sit at row block t, column block 0. -/
theorem idx_facts0 : ∀ t : Fin cfg0.N, win0_0.index t (0 : Fin 2) = win0_1.index t (0 : Fin 2)
    ∧ win0_0.index t (1 : Fin 2) = 0
    ∧ win0_1.index t (1 : Fin 2) = 0
    ∧ win0_2.index t (0 : Fin 2) = win0_1.index t (0 : Fin 2)
    ∧ win0_2.index t (1 : Fin 2) = 0
    ∧ win0_1.index t (0 : Fin 2) ≤ 31 :=
  (by decide +kernel : ∀ t : Fin grid0.N, _)

/-- Every row block is some point's, for the narrowed copy … -/
theorem idx_onto0_1 : ∀ q0 : Fin 32, ∃ t : Fin cfg0.N, win0_1.index t = ![q0.val, 0] :=
  (by decide +kernel : ∀ q0 : Fin 32, ∃ t : Fin grid0.N, win0_1.index t = ![q0.val, 0])

/-- … and for the column of inverse row sums. -/
theorem idx_onto0_2 : ∀ q0 : Fin 32, ∃ t : Fin cfg0.N, win0_2.index t = ![q0.val, 0] :=
  (by decide +kernel : ∀ q0 : Fin 32, ∃ t : Fin grid0.N, win0_2.index t = ![q0.val, 0])

/-! ## Output window 1: the narrowed copy -/

/-- WHAT POINT t WRITES BACK is block t of the adjacency array. -/
theorem flushed0_1_eq (c : Dev nD) (t : Fin cfg0.N) :
    (dat0 (F := Ideal) V c).flushed 1 t = ((cfg0.win 1).blk t).view.read (Elt Ideal) (G0_1 V c) := by
  show (cfg0.win 1).cut (grid0.coords t) ((dat0 (F := Ideal) V c).after 1 t) = _
  rw [after0_1]
  unfold out0_1
  rw [View.canon_unit_zero hz0]
  simp only [View.ld_unit_zero (S := S256x8192) hz0]
  rw [pay0_bf_eq]
  obtain ⟨e0, e1, e2, e3, e4, e5⟩ := idx_facts0 t
  funext j
  show V c (Pipeline.arrRef spec0 0) (((cfg0.win 0).blk t).view.emb j) = V c (Pipeline.arrRef spec0 0) (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 8192 + 1 * (j 1).val = win0_1.index t (1 : Fin 2) * 8192 + 1 * (j 1).val; omega
  rw [h0]

/-- An index of the array is in point t's block iff each coordinate is in the block's range on its axis. -/
theorem mem_blk0_1 (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v1_0).slice (win0_1.rect t)).set ↔ _
  rw [View.set_slice_whole, Rect.mem_set_unit]
  exact Iff.rfl

/-- Every index is in the block of the point of its row block, row / 256. -/
theorem covered0_1 (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto0_1 ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 8192 ≤ (i 1).val ∧ (i 1).val < win0_1.index t (1 : Fin 2) * 8192 + 8192; omega

/-- THE NARROWED COPY after the region: the adjacency array. -/
theorem arr0_1 (c : Dev nD) : (dat0 (F := Ideal) V c).arrAt 1 cfg0.N = G0_1 V c :=
  (dat0 (F := Ideal) V c).arrAt_eq_of_cover 1 (G0_1 V c) (fun t _ => flushed0_1_eq V c t) covered0_1

theorem r0_bf (c : Dev nD) (p k : Fin 8192) :
    (dat0 (F := Ideal) V c).arrAt 1 cfg0.N (ix2 p k) = adj0 V c (ix2 p k) :=
  congrFun (arr0_1 V c) (ix2 p k)

/-! ## Output window 2: the inverse row sums -/

/-- WHAT POINT t WRITES BACK is block t of the column of inverse row sums. -/
theorem flushed0_2_eq (c : Dev nD) (t : Fin cfg0.N) :
    (dat0 (F := Ideal) V c).flushed 2 t = ((cfg0.win 2).blk t).view.read (Elt Ideal) (G0_2 V c) := by
  show (cfg0.win 2).cut (grid0.coords t) ((dat0 (F := Ideal) V c).after 2 t) = _
  rw [after0_2]
  unfold out0_2
  rw [View.canon_unit_zero hz0]
  simp only [View.ld_unit_zero (S := S256x8192) hz0]
  obtain ⟨e0, e1, e2, e3, e4, e5⟩ := idx_facts0 t
  funext j
  obtain ⟨a, u, rfl⟩ : ∃ (a : Fin 256) (u : Fin 1), j = ix2 a u := ⟨j 0, j 1, eq_ix2 j⟩
  refine (pay0_inv_apply (iblk0 V c 0 t) a u).trans ?_
  show Ideal.div (Ideal.ofBits .f32 0x3F800000#32) (∑ k : Fin 8192, V c (Pipeline.arrRef spec0 0) (((cfg0.win 0).blk t).view.emb (ix2 a k)))
    = invRow0 V c ⟨((((cfg0.win 2).blk t).view.emb (ix2 a u)) 0).val, _⟩
  unfold invRow0
  refine congrArg _ (Finset.sum_congr rfl fun k _ => congrArg _ ?_)
  funext d; apply Fin.ext
  match d with
  | ⟨0, _⟩ => show win0_0.index t (0 : Fin 2) * 256 + 1 * a.val = win0_2.index t (0 : Fin 2) * 256 + 1 * a.val; omega
  | ⟨1, _⟩ => show win0_0.index t (1 : Fin 2) * 8192 + 1 * k.val = k.val; omega

/-- An index of the column is in point t's block iff each coordinate is in the block's range on its axis. -/
theorem mem_blk0_2 (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_1).slice (win0_2.rect t)).set ↔ _
  rw [View.set_slice_whole, Rect.mem_set_unit]
  exact Iff.rfl

/-- Every index is in the block of the point of its row block, row / 256. -/
theorem covered0_2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := idx_onto0_2 ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- THE COLUMN OF INVERSE ROW SUMS after the region. -/
theorem arr0_2 (c : Dev nD) : (dat0 (F := Ideal) V c).arrAt 2 cfg0.N = G0_2 V c :=
  (dat0 (F := Ideal) V c).arrAt_eq_of_cover 2 (G0_2 V c) (fun t _ => flushed0_2_eq V c t) covered0_2

theorem r0_inv (c : Dev nD) (p : Fin 8192) :
    (dat0 (F := Ideal) V c).arrAt 2 cfg0.N (ix2 p (0 : Fin 1))
      = Ideal.div (Ideal.ofBits .f32 0x3F800000#32) (∑ k : Fin 8192, adj0 V c (ix2 p k)) :=
  congrFun (arr0_2 V c) (ix2 p (0 : Fin 1))

end Cert.KernelIdeal.KV

end
-- ==== Proof.KV.StepsA.lean ====
/-
  One step of the run leaves a buffer it does not write as it was: a stretch of host operations none of which writes the buffer, or a pallas_call of which the buffer is an input array or no array at all. Steps 1 to 11 of the 44.
-/
import proofs.«405499_j28269474742810_3_alg».proof.Proof.Fr.KernelIdeal.Chain

set_option maxRecDepth 16384

noncomputable section

namespace Cert.KernelIdeal.KV

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem st1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st1_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st1_main_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st1_main_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st1_main_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st1_main_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st1_main_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st1_main_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st2_main_arg0 (c : Dev nD) : W2 m ρ c (Proc.devRef .tc main_arg0) = W1 m ρ c (Proc.devRef .tc main_arg0) :=
  W2_of_ne m ρ c main_arg0 (by decide)
theorem st2_main_arg3 (c : Dev nD) : W2 m ρ c (Proc.devRef .tc main_arg3) = W1 m ρ c (Proc.devRef .tc main_arg3) :=
  W2_of_ne m ρ c main_arg3 (by decide)
theorem st2_main_arg4 (c : Dev nD) : W2 m ρ c (Proc.devRef .tc main_arg4) = W1 m ρ c (Proc.devRef .tc main_arg4) :=
  W2_of_ne m ρ c main_arg4 (by decide)
theorem st2_main_arg5 (c : Dev nD) : W2 m ρ c (Proc.devRef .tc main_arg5) = W1 m ρ c (Proc.devRef .tc main_arg5) :=
  W2_of_ne m ρ c main_arg5 (by decide)
theorem st2_main_arg6 (c : Dev nD) : W2 m ρ c (Proc.devRef .tc main_arg6) = W1 m ρ c (Proc.devRef .tc main_arg6) :=
  W2_of_ne m ρ c main_arg6 (by decide)
theorem st2_main_arg7 (c : Dev nD) : W2 m ρ c (Proc.devRef .tc main_arg7) = W1 m ρ c (Proc.devRef .tc main_arg7) :=
  W2_of_ne m ρ c main_arg7 (by decide)
theorem st2_main_arg8 (c : Dev nD) : W2 m ρ c (Proc.devRef .tc main_arg8) = W1 m ρ c (Proc.devRef .tc main_arg8) :=
  W2_of_ne m ρ c main_arg8 (by decide)
theorem st2_main_v0 (c : Dev nD) : W2 m ρ c (Proc.devRef .tc main_v0) = W1 m ρ c (Proc.devRef .tc main_v0) :=
  W2_of_ne m ρ c main_v0 (by decide)
theorem st3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st3_main_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st3_main_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st3_main_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st3_main_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st3_main_v0 (c : Dev nD) : W3 m ρ c (Proc.devRef .tc main_v0) = W2 m ρ c (Proc.devRef .tc main_v0) :=
  StableHlo.after_of_forall_not_mem (b := Proc.devRef .tc main_v0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st3_main_v1_0 (c : Dev nD) : W3 m ρ c (Proc.devRef .tc main_v1_0) = W2 m ρ c (Proc.devRef .tc main_v1_0) :=
  StableHlo.after_of_forall_not_mem (b := Proc.devRef .tc main_v1_0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st3_main_v1_1 (c : Dev nD) : W3 m ρ c (Proc.devRef .tc main_v1_1) = W2 m ρ c (Proc.devRef .tc main_v1_1) :=
  StableHlo.after_of_forall_not_mem (b := Proc.devRef .tc main_v1_1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st4_main_arg0 (c : Dev nD) : W4 m ρ c (Proc.devRef .tc main_arg0) = W3 m ρ c (Proc.devRef .tc main_arg0) :=
  W4_of_ne m ρ c main_arg0 (by decide)
theorem st4_main_arg5 (c : Dev nD) : W4 m ρ c (Proc.devRef .tc main_arg5) = W3 m ρ c (Proc.devRef .tc main_arg5) :=
  W4_of_ne m ρ c main_arg5 (by decide)
theorem st4_main_arg6 (c : Dev nD) : W4 m ρ c (Proc.devRef .tc main_arg6) = W3 m ρ c (Proc.devRef .tc main_arg6) :=
  W4_of_ne m ρ c main_arg6 (by decide)
theorem st4_main_arg7 (c : Dev nD) : W4 m ρ c (Proc.devRef .tc main_arg7) = W3 m ρ c (Proc.devRef .tc main_arg7) :=
  W4_of_ne m ρ c main_arg7 (by decide)
theorem st4_main_arg8 (c : Dev nD) : W4 m ρ c (Proc.devRef .tc main_arg8) = W3 m ρ c (Proc.devRef .tc main_arg8) :=
  W4_of_ne m ρ c main_arg8 (by decide)
theorem st4_main_v1_0 (c : Dev nD) : W4 m ρ c (Proc.devRef .tc main_v1_0) = W3 m ρ c (Proc.devRef .tc main_v1_0) :=
  W4_of_ne m ρ c main_v1_0 (by decide)
theorem st4_main_v1_1 (c : Dev nD) : W4 m ρ c (Proc.devRef .tc main_v1_1) = W3 m ρ c (Proc.devRef .tc main_v1_1) :=
  (W4_arr m ρ c 4).trans (((dat1 (V3 m ρ) c).arrAt_in 4 rfl _).trans (A_eq1 (V3 m ρ) c 4))
theorem st4_main_v5 (c : Dev nD) : W4 m ρ c (Proc.devRef .tc main_v5) = W3 m ρ c (Proc.devRef .tc main_v5) :=
  W4_of_ne m ρ c main_v5 (by decide)
theorem st5_main_arg0 (c : Dev nD) : W5 m ρ c (Proc.devRef .tc main_arg0) = W4 m ρ c (Proc.devRef .tc main_arg0) :=
  W5_of_ne m ρ c main_arg0 (by decide)
theorem st5_main_arg5 (c : Dev nD) : W5 m ρ c (Proc.devRef .tc main_arg5) = W4 m ρ c (Proc.devRef .tc main_arg5) :=
  W5_of_ne m ρ c main_arg5 (by decide)
theorem st5_main_arg6 (c : Dev nD) : W5 m ρ c (Proc.devRef .tc main_arg6) = W4 m ρ c (Proc.devRef .tc main_arg6) :=
  W5_of_ne m ρ c main_arg6 (by decide)
theorem st5_main_arg7 (c : Dev nD) : W5 m ρ c (Proc.devRef .tc main_arg7) = W4 m ρ c (Proc.devRef .tc main_arg7) :=
  W5_of_ne m ρ c main_arg7 (by decide)
theorem st5_main_arg8 (c : Dev nD) : W5 m ρ c (Proc.devRef .tc main_arg8) = W4 m ρ c (Proc.devRef .tc main_arg8) :=
  W5_of_ne m ρ c main_arg8 (by decide)
theorem st5_main_v1_0 (c : Dev nD) : W5 m ρ c (Proc.devRef .tc main_v1_0) = W4 m ρ c (Proc.devRef .tc main_v1_0) :=
  (W5_arr m ρ c 0).trans (((dat2 (V4 m ρ) c).arrAt_in 0 rfl _).trans (A_eq2 (V4 m ρ) c 0))
theorem st5_main_v1_1 (c : Dev nD) : W5 m ρ c (Proc.devRef .tc main_v1_1) = W4 m ρ c (Proc.devRef .tc main_v1_1) :=
  W5_of_ne m ρ c main_v1_1 (by decide)
theorem st6_main_arg0 (c : Dev nD) : W6 m ρ c (Proc.devRef .tc main_arg0) = W5 m ρ c (Proc.devRef .tc main_arg0) :=
  StableHlo.after_of_forall_not_mem (b := Proc.devRef .tc main_arg0) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st6_main_arg5 (c : Dev nD) : W6 m ρ c (Proc.devRef .tc main_arg5) = W5 m ρ c (Proc.devRef .tc main_arg5) :=
  StableHlo.after_of_forall_not_mem (b := Proc.devRef .tc main_arg5) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st6_main_arg6 (c : Dev nD) : W6 m ρ c (Proc.devRef .tc main_arg6) = W5 m ρ c (Proc.devRef .tc main_arg6) :=
  StableHlo.after_of_forall_not_mem (b := Proc.devRef .tc main_arg6) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st6_main_arg7 (c : Dev nD) : W6 m ρ c (Proc.devRef .tc main_arg7) = W5 m ρ c (Proc.devRef .tc main_arg7) :=
  StableHlo.after_of_forall_not_mem (b := Proc.devRef .tc main_arg7) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st6_main_arg8 (c : Dev nD) : W6 m ρ c (Proc.devRef .tc main_arg8) = W5 m ρ c (Proc.devRef .tc main_arg8) :=
  StableHlo.after_of_forall_not_mem (b := Proc.devRef .tc main_arg8) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st6_main_v1_0 (c : Dev nD) : W6 m ρ c (Proc.devRef .tc main_v1_0) = W5 m ρ c (Proc.devRef .tc main_v1_0) :=
  StableHlo.after_of_forall_not_mem (b := Proc.devRef .tc main_v1_0) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st6_main_v1_1 (c : Dev nD) : W6 m ρ c (Proc.devRef .tc main_v1_1) = W5 m ρ c (Proc.devRef .tc main_v1_1) :=
  StableHlo.after_of_forall_not_mem (b := Proc.devRef .tc main_v1_1) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st6_main_v9 (c : Dev nD) : W6 m ρ c (Proc.devRef .tc main_v9) = W5 m ρ c (Proc.devRef .tc main_v9) :=
  StableHlo.after_of_forall_not_mem (b := Proc.devRef .tc main_v9) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st7_main_arg0 (c : Dev nD) : W7 m ρ c (Proc.devRef .tc main_arg0) = W6 m ρ c (Proc.devRef .tc main_arg0) :=
  W7_of_ne m ρ c main_arg0 (by decide)
theorem st7_main_arg5 (c : Dev nD) : W7 m ρ c (Proc.devRef .tc main_arg5) = W6 m ρ c (Proc.devRef .tc main_arg5) :=
  W7_of_ne m ρ c main_arg5 (by decide)
theorem st7_main_arg6 (c : Dev nD) : W7 m ρ c (Proc.devRef .tc main_arg6) = W6 m ρ c (Proc.devRef .tc main_arg6) :=
  W7_of_ne m ρ c main_arg6 (by decide)
theorem st7_main_arg7 (c : Dev nD) : W7 m ρ c (Proc.devRef .tc main_arg7) = W6 m ρ c (Proc.devRef .tc main_arg7) :=
  W7_of_ne m ρ c main_arg7 (by decide)
theorem st7_main_arg8 (c : Dev nD) : W7 m ρ c (Proc.devRef .tc main_arg8) = W6 m ρ c (Proc.devRef .tc main_arg8) :=
  W7_of_ne m ρ c main_arg8 (by decide)
theorem st7_main_v1_0 (c : Dev nD) : W7 m ρ c (Proc.devRef .tc main_v1_0) = W6 m ρ c (Proc.devRef .tc main_v1_0) :=
  W7_of_ne m ρ c main_v1_0 (by decide)
theorem st7_main_v1_1 (c : Dev nD) : W7 m ρ c (Proc.devRef .tc main_v1_1) = W6 m ρ c (Proc.devRef .tc main_v1_1) :=
  (W7_arr m ρ c 4).trans (((dat3 (V6 m ρ) c).arrAt_in 4 rfl _).trans (A_eq3 (V6 m ρ) c 4))
theorem st7_main_v17 (c : Dev nD) : W7 m ρ c (Proc.devRef .tc main_v17) = W6 m ρ c (Proc.devRef .tc main_v17) :=
  W7_of_ne m ρ c main_v17 (by decide)
theorem st8_main_arg5 (c : Dev nD) : W8 m ρ c (Proc.devRef .tc main_arg5) = W7 m ρ c (Proc.devRef .tc main_arg5) :=
  W8_of_ne m ρ c main_arg5 (by decide)
theorem st8_main_arg6 (c : Dev nD) : W8 m ρ c (Proc.devRef .tc main_arg6) = W7 m ρ c (Proc.devRef .tc main_arg6) :=
  W8_of_ne m ρ c main_arg6 (by decide)
theorem st8_main_arg7 (c : Dev nD) : W8 m ρ c (Proc.devRef .tc main_arg7) = W7 m ρ c (Proc.devRef .tc main_arg7) :=
  W8_of_ne m ρ c main_arg7 (by decide)
theorem st8_main_arg8 (c : Dev nD) : W8 m ρ c (Proc.devRef .tc main_arg8) = W7 m ρ c (Proc.devRef .tc main_arg8) :=
  W8_of_ne m ρ c main_arg8 (by decide)
theorem st8_main_v1_0 (c : Dev nD) : W8 m ρ c (Proc.devRef .tc main_v1_0) = W7 m ρ c (Proc.devRef .tc main_v1_0) :=
  (W8_arr m ρ c 0).trans (((dat4 (V7 m ρ) c).arrAt_in 0 rfl _).trans (A_eq4 (V7 m ρ) c 0))
theorem st8_main_v1_1 (c : Dev nD) : W8 m ρ c (Proc.devRef .tc main_v1_1) = W7 m ρ c (Proc.devRef .tc main_v1_1) :=
  W8_of_ne m ρ c main_v1_1 (by decide)
theorem st9_main_arg5 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st9_main_arg6 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st9_main_arg7 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st9_main_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st9_main_v1_0 (c : Dev nD) : W9 m ρ c (Proc.devRef .tc main_v1_0) = W8 m ρ c (Proc.devRef .tc main_v1_0) :=
  StableHlo.after_of_forall_not_mem (b := Proc.devRef .tc main_v1_0) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st9_main_v1_1 (c : Dev nD) : W9 m ρ c (Proc.devRef .tc main_v1_1) = W8 m ρ c (Proc.devRef .tc main_v1_1) :=
  StableHlo.after_of_forall_not_mem (b := Proc.devRef .tc main_v1_1) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st9_main_v21 (c : Dev nD) : W9 m ρ c (Proc.devRef .tc main_v21) = W8 m ρ c (Proc.devRef .tc main_v21) :=
  StableHlo.after_of_forall_not_mem (b := Proc.devRef .tc main_v21) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st10_main_arg5 (c : Dev nD) : W10 m ρ c (Proc.devRef .tc main_arg5) = W9 m ρ c (Proc.devRef .tc main_arg5) :=
  W10_of_ne m ρ c main_arg5 (by decide)
theorem st10_main_arg6 (c : Dev nD) : W10 m ρ c (Proc.devRef .tc main_arg6) = W9 m ρ c (Proc.devRef .tc main_arg6) :=
  W10_of_ne m ρ c main_arg6 (by decide)
theorem st10_main_arg7 (c : Dev nD) : W10 m ρ c (Proc.devRef .tc main_arg7) = W9 m ρ c (Proc.devRef .tc main_arg7) :=
  W10_of_ne m ρ c main_arg7 (by decide)
theorem st10_main_arg8 (c : Dev nD) : W10 m ρ c (Proc.devRef .tc main_arg8) = W9 m ρ c (Proc.devRef .tc main_arg8) :=
  W10_of_ne m ρ c main_arg8 (by decide)
theorem st10_main_v1_0 (c : Dev nD) : W10 m ρ c (Proc.devRef .tc main_v1_0) = W9 m ρ c (Proc.devRef .tc main_v1_0) :=
  W10_of_ne m ρ c main_v1_0 (by decide)
theorem st10_main_v1_1 (c : Dev nD) : W10 m ρ c (Proc.devRef .tc main_v1_1) = W9 m ρ c (Proc.devRef .tc main_v1_1) :=
  (W10_arr m ρ c 4).trans (((dat5 (V9 m ρ) c).arrAt_in 4 rfl _).trans (A_eq5 (V9 m ρ) c 4))
theorem st10_main_v21 (c : Dev nD) : W10 m ρ c (Proc.devRef .tc main_v21) = W9 m ρ c (Proc.devRef .tc main_v21) :=
  (W10_arr m ρ c 0).trans (((dat5 (V9 m ρ) c).arrAt_in 0 rfl _).trans (A_eq5 (V9 m ρ) c 0))
theorem st10_main_v29 (c : Dev nD) : W10 m ρ c (Proc.devRef .tc main_v29) = W9 m ρ c (Proc.devRef .tc main_v29) :=
  W10_of_ne m ρ c main_v29 (by decide)
theorem st11_main_arg5 (c : Dev nD) : W11 m ρ c (Proc.devRef .tc main_arg5) = W10 m ρ c (Proc.devRef .tc main_arg5) :=
  W11_of_ne m ρ c main_arg5 (by decide)
theorem st11_main_arg6 (c : Dev nD) : W11 m ρ c (Proc.devRef .tc main_arg6) = W10 m ρ c (Proc.devRef .tc main_arg6) :=
  W11_of_ne m ρ c main_arg6 (by decide)
theorem st11_main_arg7 (c : Dev nD) : W11 m ρ c (Proc.devRef .tc main_arg7) = W10 m ρ c (Proc.devRef .tc main_arg7) :=
  W11_of_ne m ρ c main_arg7 (by decide)
theorem st11_main_arg8 (c : Dev nD) : W11 m ρ c (Proc.devRef .tc main_arg8) = W10 m ρ c (Proc.devRef .tc main_arg8) :=
  W11_of_ne m ρ c main_arg8 (by decide)
theorem st11_main_v1_0 (c : Dev nD) : W11 m ρ c (Proc.devRef .tc main_v1_0) = W10 m ρ c (Proc.devRef .tc main_v1_0) :=
  (W11_arr m ρ c 0).trans (((dat6 (V10 m ρ) c).arrAt_in 0 rfl _).trans (A_eq6 (V10 m ρ) c 0))
theorem st11_main_v1_1 (c : Dev nD) : W11 m ρ c (Proc.devRef .tc main_v1_1) = W10 m ρ c (Proc.devRef .tc main_v1_1) :=
  W11_of_ne m ρ c main_v1_1 (by decide)
theorem st11_main_v21 (c : Dev nD) : W11 m ρ c (Proc.devRef .tc main_v21) = W10 m ρ c (Proc.devRef .tc main_v21) :=
  W11_of_ne m ρ c main_v21 (by decide)

end Cert.KernelIdeal.KV

end
-- ==== Proof.KV.StepsB.lean ====
/-
  One step of the run leaves a buffer it does not write as it was: a stretch of host operations none of which writes the buffer, or a pallas_call of which the buffer is an input array or no array at all. Steps 12 to 22 of the 44.
-/
import proofs.«405499_j28269474742810_3_alg».proof.Proof.Fr.KernelIdeal.Chain

set_option maxRecDepth 16384

noncomputable section

namespace Cert.KernelIdeal.KV

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem st12_main_arg5 (c : Dev nD) : W12 m ρ c (Proc.devRef .tc main_arg5) = W11 m ρ c (Proc.devRef .tc main_arg5) :=
  StableHlo.after_of_forall_not_mem (b := Proc.devRef .tc main_arg5) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st12_main_arg6 (c : Dev nD) : W12 m ρ c (Proc.devRef .tc main_arg6) = W11 m ρ c (Proc.devRef .tc main_arg6) :=
  StableHlo.after_of_forall_not_mem (b := Proc.devRef .tc main_arg6) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st12_main_arg7 (c : Dev nD) : W12 m ρ c (Proc.devRef .tc main_arg7) = W11 m ρ c (Proc.devRef .tc main_arg7) :=
  StableHlo.after_of_forall_not_mem (b := Proc.devRef .tc main_arg7) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st12_main_arg8 (c : Dev nD) : W12 m ρ c (Proc.devRef .tc main_arg8) = W11 m ρ c (Proc.devRef .tc main_arg8) :=
  StableHlo.after_of_forall_not_mem (b := Proc.devRef .tc main_arg8) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st12_main_v1_0 (c : Dev nD) : W12 m ρ c (Proc.devRef .tc main_v1_0) = W11 m ρ c (Proc.devRef .tc main_v1_0) :=
  StableHlo.after_of_forall_not_mem (b := Proc.devRef .tc main_v1_0) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st12_main_v1_1 (c : Dev nD) : W12 m ρ c (Proc.devRef .tc main_v1_1) = W11 m ρ c (Proc.devRef .tc main_v1_1) :=
  StableHlo.after_of_forall_not_mem (b := Proc.devRef .tc main_v1_1) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st12_main_v21 (c : Dev nD) : W12 m ρ c (Proc.devRef .tc main_v21) = W11 m ρ c (Proc.devRef .tc main_v21) :=
  StableHlo.after_of_forall_not_mem (b := Proc.devRef .tc main_v21) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st12_main_v33 (c : Dev nD) : W12 m ρ c (Proc.devRef .tc main_v33) = W11 m ρ c (Proc.devRef .tc main_v33) :=
  StableHlo.after_of_forall_not_mem (b := Proc.devRef .tc main_v33) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st13_main_arg5 (c : Dev nD) : W13 m ρ c (Proc.devRef .tc main_arg5) = W12 m ρ c (Proc.devRef .tc main_arg5) :=
  W13_of_ne m ρ c main_arg5 (by decide)
theorem st13_main_arg6 (c : Dev nD) : W13 m ρ c (Proc.devRef .tc main_arg6) = W12 m ρ c (Proc.devRef .tc main_arg6) :=
  W13_of_ne m ρ c main_arg6 (by decide)
theorem st13_main_arg7 (c : Dev nD) : W13 m ρ c (Proc.devRef .tc main_arg7) = W12 m ρ c (Proc.devRef .tc main_arg7) :=
  W13_of_ne m ρ c main_arg7 (by decide)
theorem st13_main_arg8 (c : Dev nD) : W13 m ρ c (Proc.devRef .tc main_arg8) = W12 m ρ c (Proc.devRef .tc main_arg8) :=
  W13_of_ne m ρ c main_arg8 (by decide)
theorem st13_main_v1_0 (c : Dev nD) : W13 m ρ c (Proc.devRef .tc main_v1_0) = W12 m ρ c (Proc.devRef .tc main_v1_0) :=
  W13_of_ne m ρ c main_v1_0 (by decide)
theorem st13_main_v1_1 (c : Dev nD) : W13 m ρ c (Proc.devRef .tc main_v1_1) = W12 m ρ c (Proc.devRef .tc main_v1_1) :=
  (W13_arr m ρ c 4).trans (((dat7 (V12 m ρ) c).arrAt_in 4 rfl _).trans (A_eq7 (V12 m ρ) c 4))
theorem st13_main_v21 (c : Dev nD) : W13 m ρ c (Proc.devRef .tc main_v21) = W12 m ρ c (Proc.devRef .tc main_v21) :=
  W13_of_ne m ρ c main_v21 (by decide)
theorem st13_main_v41 (c : Dev nD) : W13 m ρ c (Proc.devRef .tc main_v41) = W12 m ρ c (Proc.devRef .tc main_v41) :=
  W13_of_ne m ρ c main_v41 (by decide)
theorem st14_main_arg5 (c : Dev nD) : W14 m ρ c (Proc.devRef .tc main_arg5) = W13 m ρ c (Proc.devRef .tc main_arg5) :=
  W14_of_ne m ρ c main_arg5 (by decide)
theorem st14_main_arg6 (c : Dev nD) : W14 m ρ c (Proc.devRef .tc main_arg6) = W13 m ρ c (Proc.devRef .tc main_arg6) :=
  W14_of_ne m ρ c main_arg6 (by decide)
theorem st14_main_arg7 (c : Dev nD) : W14 m ρ c (Proc.devRef .tc main_arg7) = W13 m ρ c (Proc.devRef .tc main_arg7) :=
  W14_of_ne m ρ c main_arg7 (by decide)
theorem st14_main_arg8 (c : Dev nD) : W14 m ρ c (Proc.devRef .tc main_arg8) = W13 m ρ c (Proc.devRef .tc main_arg8) :=
  W14_of_ne m ρ c main_arg8 (by decide)
theorem st14_main_v1_0 (c : Dev nD) : W14 m ρ c (Proc.devRef .tc main_v1_0) = W13 m ρ c (Proc.devRef .tc main_v1_0) :=
  (W14_arr m ρ c 0).trans (((dat8 (V13 m ρ) c).arrAt_in 0 rfl _).trans (A_eq8 (V13 m ρ) c 0))
theorem st14_main_v1_1 (c : Dev nD) : W14 m ρ c (Proc.devRef .tc main_v1_1) = W13 m ρ c (Proc.devRef .tc main_v1_1) :=
  W14_of_ne m ρ c main_v1_1 (by decide)
theorem st15_main_arg5 (c : Dev nD) : W15 m ρ c (Proc.devRef .tc main_arg5) = W14 m ρ c (Proc.devRef .tc main_arg5) :=
  StableHlo.after_of_forall_not_mem (b := Proc.devRef .tc main_arg5) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st15_main_arg6 (c : Dev nD) : W15 m ρ c (Proc.devRef .tc main_arg6) = W14 m ρ c (Proc.devRef .tc main_arg6) :=
  StableHlo.after_of_forall_not_mem (b := Proc.devRef .tc main_arg6) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st15_main_arg7 (c : Dev nD) : W15 m ρ c (Proc.devRef .tc main_arg7) = W14 m ρ c (Proc.devRef .tc main_arg7) :=
  StableHlo.after_of_forall_not_mem (b := Proc.devRef .tc main_arg7) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st15_main_arg8 (c : Dev nD) : W15 m ρ c (Proc.devRef .tc main_arg8) = W14 m ρ c (Proc.devRef .tc main_arg8) :=
  StableHlo.after_of_forall_not_mem (b := Proc.devRef .tc main_arg8) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st15_main_v1_0 (c : Dev nD) : W15 m ρ c (Proc.devRef .tc main_v1_0) = W14 m ρ c (Proc.devRef .tc main_v1_0) :=
  StableHlo.after_of_forall_not_mem (b := Proc.devRef .tc main_v1_0) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st15_main_v1_1 (c : Dev nD) : W15 m ρ c (Proc.devRef .tc main_v1_1) = W14 m ρ c (Proc.devRef .tc main_v1_1) :=
  StableHlo.after_of_forall_not_mem (b := Proc.devRef .tc main_v1_1) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st15_main_v45 (c : Dev nD) : W15 m ρ c (Proc.devRef .tc main_v45) = W14 m ρ c (Proc.devRef .tc main_v45) :=
  StableHlo.after_of_forall_not_mem (b := Proc.devRef .tc main_v45) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st16_main_arg5 (c : Dev nD) : W16 m ρ c (Proc.devRef .tc main_arg5) = W15 m ρ c (Proc.devRef .tc main_arg5) :=
  W16_of_ne m ρ c main_arg5 (by decide)
theorem st16_main_arg6 (c : Dev nD) : W16 m ρ c (Proc.devRef .tc main_arg6) = W15 m ρ c (Proc.devRef .tc main_arg6) :=
  W16_of_ne m ρ c main_arg6 (by decide)
theorem st16_main_arg7 (c : Dev nD) : W16 m ρ c (Proc.devRef .tc main_arg7) = W15 m ρ c (Proc.devRef .tc main_arg7) :=
  W16_of_ne m ρ c main_arg7 (by decide)
theorem st16_main_arg8 (c : Dev nD) : W16 m ρ c (Proc.devRef .tc main_arg8) = W15 m ρ c (Proc.devRef .tc main_arg8) :=
  W16_of_ne m ρ c main_arg8 (by decide)
theorem st16_main_v1_0 (c : Dev nD) : W16 m ρ c (Proc.devRef .tc main_v1_0) = W15 m ρ c (Proc.devRef .tc main_v1_0) :=
  W16_of_ne m ρ c main_v1_0 (by decide)
theorem st16_main_v1_1 (c : Dev nD) : W16 m ρ c (Proc.devRef .tc main_v1_1) = W15 m ρ c (Proc.devRef .tc main_v1_1) :=
  (W16_arr m ρ c 4).trans (((dat9 (V15 m ρ) c).arrAt_in 4 rfl _).trans (A_eq9 (V15 m ρ) c 4))
theorem st16_main_v45 (c : Dev nD) : W16 m ρ c (Proc.devRef .tc main_v45) = W15 m ρ c (Proc.devRef .tc main_v45) :=
  (W16_arr m ρ c 0).trans (((dat9 (V15 m ρ) c).arrAt_in 0 rfl _).trans (A_eq9 (V15 m ρ) c 0))
theorem st16_main_v53 (c : Dev nD) : W16 m ρ c (Proc.devRef .tc main_v53) = W15 m ρ c (Proc.devRef .tc main_v53) :=
  W16_of_ne m ρ c main_v53 (by decide)
theorem st17_main_arg5 (c : Dev nD) : W17 m ρ c (Proc.devRef .tc main_arg5) = W16 m ρ c (Proc.devRef .tc main_arg5) :=
  W17_of_ne m ρ c main_arg5 (by decide)
theorem st17_main_arg6 (c : Dev nD) : W17 m ρ c (Proc.devRef .tc main_arg6) = W16 m ρ c (Proc.devRef .tc main_arg6) :=
  W17_of_ne m ρ c main_arg6 (by decide)
theorem st17_main_arg7 (c : Dev nD) : W17 m ρ c (Proc.devRef .tc main_arg7) = W16 m ρ c (Proc.devRef .tc main_arg7) :=
  W17_of_ne m ρ c main_arg7 (by decide)
theorem st17_main_arg8 (c : Dev nD) : W17 m ρ c (Proc.devRef .tc main_arg8) = W16 m ρ c (Proc.devRef .tc main_arg8) :=
  W17_of_ne m ρ c main_arg8 (by decide)
theorem st17_main_v1_0 (c : Dev nD) : W17 m ρ c (Proc.devRef .tc main_v1_0) = W16 m ρ c (Proc.devRef .tc main_v1_0) :=
  (W17_arr m ρ c 0).trans (((dat10 (V16 m ρ) c).arrAt_in 0 rfl _).trans (A_eq10 (V16 m ρ) c 0))
theorem st17_main_v1_1 (c : Dev nD) : W17 m ρ c (Proc.devRef .tc main_v1_1) = W16 m ρ c (Proc.devRef .tc main_v1_1) :=
  W17_of_ne m ρ c main_v1_1 (by decide)
theorem st17_main_v45 (c : Dev nD) : W17 m ρ c (Proc.devRef .tc main_v45) = W16 m ρ c (Proc.devRef .tc main_v45) :=
  W17_of_ne m ρ c main_v45 (by decide)
theorem st18_main_arg5 (c : Dev nD) : W18 m ρ c (Proc.devRef .tc main_arg5) = W17 m ρ c (Proc.devRef .tc main_arg5) :=
  StableHlo.after_of_forall_not_mem (b := Proc.devRef .tc main_arg5) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st18_main_arg6 (c : Dev nD) : W18 m ρ c (Proc.devRef .tc main_arg6) = W17 m ρ c (Proc.devRef .tc main_arg6) :=
  StableHlo.after_of_forall_not_mem (b := Proc.devRef .tc main_arg6) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st18_main_arg7 (c : Dev nD) : W18 m ρ c (Proc.devRef .tc main_arg7) = W17 m ρ c (Proc.devRef .tc main_arg7) :=
  StableHlo.after_of_forall_not_mem (b := Proc.devRef .tc main_arg7) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st18_main_arg8 (c : Dev nD) : W18 m ρ c (Proc.devRef .tc main_arg8) = W17 m ρ c (Proc.devRef .tc main_arg8) :=
  StableHlo.after_of_forall_not_mem (b := Proc.devRef .tc main_arg8) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st18_main_v1_0 (c : Dev nD) : W18 m ρ c (Proc.devRef .tc main_v1_0) = W17 m ρ c (Proc.devRef .tc main_v1_0) :=
  StableHlo.after_of_forall_not_mem (b := Proc.devRef .tc main_v1_0) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st18_main_v1_1 (c : Dev nD) : W18 m ρ c (Proc.devRef .tc main_v1_1) = W17 m ρ c (Proc.devRef .tc main_v1_1) :=
  StableHlo.after_of_forall_not_mem (b := Proc.devRef .tc main_v1_1) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st18_main_v45 (c : Dev nD) : W18 m ρ c (Proc.devRef .tc main_v45) = W17 m ρ c (Proc.devRef .tc main_v45) :=
  StableHlo.after_of_forall_not_mem (b := Proc.devRef .tc main_v45) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st18_main_v57 (c : Dev nD) : W18 m ρ c (Proc.devRef .tc main_v57) = W17 m ρ c (Proc.devRef .tc main_v57) :=
  StableHlo.after_of_forall_not_mem (b := Proc.devRef .tc main_v57) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st19_main_arg5 (c : Dev nD) : W19 m ρ c (Proc.devRef .tc main_arg5) = W18 m ρ c (Proc.devRef .tc main_arg5) :=
  W19_of_ne m ρ c main_arg5 (by decide)
theorem st19_main_arg6 (c : Dev nD) : W19 m ρ c (Proc.devRef .tc main_arg6) = W18 m ρ c (Proc.devRef .tc main_arg6) :=
  W19_of_ne m ρ c main_arg6 (by decide)
theorem st19_main_arg7 (c : Dev nD) : W19 m ρ c (Proc.devRef .tc main_arg7) = W18 m ρ c (Proc.devRef .tc main_arg7) :=
  W19_of_ne m ρ c main_arg7 (by decide)
theorem st19_main_arg8 (c : Dev nD) : W19 m ρ c (Proc.devRef .tc main_arg8) = W18 m ρ c (Proc.devRef .tc main_arg8) :=
  W19_of_ne m ρ c main_arg8 (by decide)
theorem st19_main_v1_0 (c : Dev nD) : W19 m ρ c (Proc.devRef .tc main_v1_0) = W18 m ρ c (Proc.devRef .tc main_v1_0) :=
  W19_of_ne m ρ c main_v1_0 (by decide)
theorem st19_main_v1_1 (c : Dev nD) : W19 m ρ c (Proc.devRef .tc main_v1_1) = W18 m ρ c (Proc.devRef .tc main_v1_1) :=
  (W19_arr m ρ c 4).trans (((dat11 (V18 m ρ) c).arrAt_in 4 rfl _).trans (A_eq11 (V18 m ρ) c 4))
theorem st19_main_v45 (c : Dev nD) : W19 m ρ c (Proc.devRef .tc main_v45) = W18 m ρ c (Proc.devRef .tc main_v45) :=
  W19_of_ne m ρ c main_v45 (by decide)
theorem st19_main_v65 (c : Dev nD) : W19 m ρ c (Proc.devRef .tc main_v65) = W18 m ρ c (Proc.devRef .tc main_v65) :=
  W19_of_ne m ρ c main_v65 (by decide)
theorem st20_main_arg5 (c : Dev nD) : W20 m ρ c (Proc.devRef .tc main_arg5) = W19 m ρ c (Proc.devRef .tc main_arg5) :=
  W20_of_ne m ρ c main_arg5 (by decide)
theorem st20_main_arg6 (c : Dev nD) : W20 m ρ c (Proc.devRef .tc main_arg6) = W19 m ρ c (Proc.devRef .tc main_arg6) :=
  W20_of_ne m ρ c main_arg6 (by decide)
theorem st20_main_arg7 (c : Dev nD) : W20 m ρ c (Proc.devRef .tc main_arg7) = W19 m ρ c (Proc.devRef .tc main_arg7) :=
  W20_of_ne m ρ c main_arg7 (by decide)
theorem st20_main_arg8 (c : Dev nD) : W20 m ρ c (Proc.devRef .tc main_arg8) = W19 m ρ c (Proc.devRef .tc main_arg8) :=
  W20_of_ne m ρ c main_arg8 (by decide)
theorem st20_main_v1_0 (c : Dev nD) : W20 m ρ c (Proc.devRef .tc main_v1_0) = W19 m ρ c (Proc.devRef .tc main_v1_0) :=
  (W20_arr m ρ c 0).trans (((dat12 (V19 m ρ) c).arrAt_in 0 rfl _).trans (A_eq12 (V19 m ρ) c 0))
theorem st20_main_v1_1 (c : Dev nD) : W20 m ρ c (Proc.devRef .tc main_v1_1) = W19 m ρ c (Proc.devRef .tc main_v1_1) :=
  W20_of_ne m ρ c main_v1_1 (by decide)
theorem st21_main_arg5 (c : Dev nD) : W21 m ρ c (Proc.devRef .tc main_arg5) = W20 m ρ c (Proc.devRef .tc main_arg5) :=
  StableHlo.after_of_forall_not_mem (b := Proc.devRef .tc main_arg5) _ _ (List.forall_iff_forall_mem.mp (by
      simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st21_main_arg6 (c : Dev nD) : W21 m ρ c (Proc.devRef .tc main_arg6) = W20 m ρ c (Proc.devRef .tc main_arg6) :=
  StableHlo.after_of_forall_not_mem (b := Proc.devRef .tc main_arg6) _ _ (List.forall_iff_forall_mem.mp (by
      simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st21_main_arg7 (c : Dev nD) : W21 m ρ c (Proc.devRef .tc main_arg7) = W20 m ρ c (Proc.devRef .tc main_arg7) :=
  StableHlo.after_of_forall_not_mem (b := Proc.devRef .tc main_arg7) _ _ (List.forall_iff_forall_mem.mp (by
      simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st21_main_arg8 (c : Dev nD) : W21 m ρ c (Proc.devRef .tc main_arg8) = W20 m ρ c (Proc.devRef .tc main_arg8) :=
  StableHlo.after_of_forall_not_mem (b := Proc.devRef .tc main_arg8) _ _ (List.forall_iff_forall_mem.mp (by
      simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st21_main_v1_0 (c : Dev nD) : W21 m ρ c (Proc.devRef .tc main_v1_0) = W20 m ρ c (Proc.devRef .tc main_v1_0) :=
  StableHlo.after_of_forall_not_mem (b := Proc.devRef .tc main_v1_0) _ _ (List.forall_iff_forall_mem.mp (by
      simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st21_main_v1_1 (c : Dev nD) : W21 m ρ c (Proc.devRef .tc main_v1_1) = W20 m ρ c (Proc.devRef .tc main_v1_1) :=
  StableHlo.after_of_forall_not_mem (b := Proc.devRef .tc main_v1_1) _ _ (List.forall_iff_forall_mem.mp (by
      simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st21_main_v69 (c : Dev nD) : W21 m ρ c (Proc.devRef .tc main_v69) = W20 m ρ c (Proc.devRef .tc main_v69) :=
  StableHlo.after_of_forall_not_mem (b := Proc.devRef .tc main_v69) _ _ (List.forall_iff_forall_mem.mp (by
      simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st22_main_arg5 (c : Dev nD) : W22 m ρ c (Proc.devRef .tc main_arg5) = W21 m ρ c (Proc.devRef .tc main_arg5) :=
  W22_of_ne m ρ c main_arg5 (by decide)
theorem st22_main_arg6 (c : Dev nD) : W22 m ρ c (Proc.devRef .tc main_arg6) = W21 m ρ c (Proc.devRef .tc main_arg6) :=
  W22_of_ne m ρ c main_arg6 (by decide)
theorem st22_main_arg7 (c : Dev nD) : W22 m ρ c (Proc.devRef .tc main_arg7) = W21 m ρ c (Proc.devRef .tc main_arg7) :=
  W22_of_ne m ρ c main_arg7 (by decide)
theorem st22_main_arg8 (c : Dev nD) : W22 m ρ c (Proc.devRef .tc main_arg8) = W21 m ρ c (Proc.devRef .tc main_arg8) :=
  W22_of_ne m ρ c main_arg8 (by decide)
theorem st22_main_v1_0 (c : Dev nD) : W22 m ρ c (Proc.devRef .tc main_v1_0) = W21 m ρ c (Proc.devRef .tc main_v1_0) :=
  W22_of_ne m ρ c main_v1_0 (by decide)
theorem st22_main_v1_1 (c : Dev nD) : W22 m ρ c (Proc.devRef .tc main_v1_1) = W21 m ρ c (Proc.devRef .tc main_v1_1) :=
  (W22_arr m ρ c 4).trans (((dat13 (V21 m ρ) c).arrAt_in 4 rfl _).trans (A_eq13 (V21 m ρ) c 4))
theorem st22_main_v69 (c : Dev nD) : W22 m ρ c (Proc.devRef .tc main_v69) = W21 m ρ c (Proc.devRef .tc main_v69) :=
  (W22_arr m ρ c 0).trans (((dat13 (V21 m ρ) c).arrAt_in 0 rfl _).trans (A_eq13 (V21 m ρ) c 0))
theorem st22_main_v77 (c : Dev nD) : W22 m ρ c (Proc.devRef .tc main_v77) = W21 m ρ c (Proc.devRef .tc main_v77) :=
  W22_of_ne m ρ c main_v77 (by decide)

end Cert.KernelIdeal.KV

end
-- ==== Proof.KV.StepsC.lean ====
/-
  One step of the run leaves a buffer it does not write as it was: a stretch of host operations none of which writes the buffer, or a pallas_call of which the buffer is an input array or no array at all. Steps 23 to 33 of the 44.
-/
import proofs.«405499_j28269474742810_3_alg».proof.Proof.Fr.KernelIdeal.Chain

set_option maxRecDepth 16384

noncomputable section

namespace Cert.KernelIdeal.KV

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem st23_main_arg5 (c : Dev nD) : W23 m ρ c (Proc.devRef .tc main_arg5) = W22 m ρ c (Proc.devRef .tc main_arg5) :=
  W23_of_ne m ρ c main_arg5 (by decide)
theorem st23_main_arg6 (c : Dev nD) : W23 m ρ c (Proc.devRef .tc main_arg6) = W22 m ρ c (Proc.devRef .tc main_arg6) :=
  W23_of_ne m ρ c main_arg6 (by decide)
theorem st23_main_arg7 (c : Dev nD) : W23 m ρ c (Proc.devRef .tc main_arg7) = W22 m ρ c (Proc.devRef .tc main_arg7) :=
  W23_of_ne m ρ c main_arg7 (by decide)
theorem st23_main_arg8 (c : Dev nD) : W23 m ρ c (Proc.devRef .tc main_arg8) = W22 m ρ c (Proc.devRef .tc main_arg8) :=
  W23_of_ne m ρ c main_arg8 (by decide)
theorem st23_main_v1_0 (c : Dev nD) : W23 m ρ c (Proc.devRef .tc main_v1_0) = W22 m ρ c (Proc.devRef .tc main_v1_0) :=
  (W23_arr m ρ c 0).trans (((dat14 (V22 m ρ) c).arrAt_in 0 rfl _).trans (A_eq14 (V22 m ρ) c 0))
theorem st23_main_v1_1 (c : Dev nD) : W23 m ρ c (Proc.devRef .tc main_v1_1) = W22 m ρ c (Proc.devRef .tc main_v1_1) :=
  W23_of_ne m ρ c main_v1_1 (by decide)
theorem st23_main_v69 (c : Dev nD) : W23 m ρ c (Proc.devRef .tc main_v69) = W22 m ρ c (Proc.devRef .tc main_v69) :=
  W23_of_ne m ρ c main_v69 (by decide)
theorem st24_main_arg5 (c : Dev nD) : W24 m ρ c (Proc.devRef .tc main_arg5) = W23 m ρ c (Proc.devRef .tc main_arg5) :=
  StableHlo.after_of_forall_not_mem (b := Proc.devRef .tc main_arg5) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st24_main_arg6 (c : Dev nD) : W24 m ρ c (Proc.devRef .tc main_arg6) = W23 m ρ c (Proc.devRef .tc main_arg6) :=
  StableHlo.after_of_forall_not_mem (b := Proc.devRef .tc main_arg6) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st24_main_arg7 (c : Dev nD) : W24 m ρ c (Proc.devRef .tc main_arg7) = W23 m ρ c (Proc.devRef .tc main_arg7) :=
  StableHlo.after_of_forall_not_mem (b := Proc.devRef .tc main_arg7) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st24_main_arg8 (c : Dev nD) : W24 m ρ c (Proc.devRef .tc main_arg8) = W23 m ρ c (Proc.devRef .tc main_arg8) :=
  StableHlo.after_of_forall_not_mem (b := Proc.devRef .tc main_arg8) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st24_main_v1_0 (c : Dev nD) : W24 m ρ c (Proc.devRef .tc main_v1_0) = W23 m ρ c (Proc.devRef .tc main_v1_0) :=
  StableHlo.after_of_forall_not_mem (b := Proc.devRef .tc main_v1_0) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st24_main_v1_1 (c : Dev nD) : W24 m ρ c (Proc.devRef .tc main_v1_1) = W23 m ρ c (Proc.devRef .tc main_v1_1) :=
  StableHlo.after_of_forall_not_mem (b := Proc.devRef .tc main_v1_1) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st24_main_v69 (c : Dev nD) : W24 m ρ c (Proc.devRef .tc main_v69) = W23 m ρ c (Proc.devRef .tc main_v69) :=
  StableHlo.after_of_forall_not_mem (b := Proc.devRef .tc main_v69) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st24_main_v81 (c : Dev nD) : W24 m ρ c (Proc.devRef .tc main_v81) = W23 m ρ c (Proc.devRef .tc main_v81) :=
  StableHlo.after_of_forall_not_mem (b := Proc.devRef .tc main_v81) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st25_main_arg5 (c : Dev nD) : W25 m ρ c (Proc.devRef .tc main_arg5) = W24 m ρ c (Proc.devRef .tc main_arg5) :=
  W25_of_ne m ρ c main_arg5 (by decide)
theorem st25_main_arg6 (c : Dev nD) : W25 m ρ c (Proc.devRef .tc main_arg6) = W24 m ρ c (Proc.devRef .tc main_arg6) :=
  W25_of_ne m ρ c main_arg6 (by decide)
theorem st25_main_arg7 (c : Dev nD) : W25 m ρ c (Proc.devRef .tc main_arg7) = W24 m ρ c (Proc.devRef .tc main_arg7) :=
  W25_of_ne m ρ c main_arg7 (by decide)
theorem st25_main_arg8 (c : Dev nD) : W25 m ρ c (Proc.devRef .tc main_arg8) = W24 m ρ c (Proc.devRef .tc main_arg8) :=
  W25_of_ne m ρ c main_arg8 (by decide)
theorem st25_main_v1_0 (c : Dev nD) : W25 m ρ c (Proc.devRef .tc main_v1_0) = W24 m ρ c (Proc.devRef .tc main_v1_0) :=
  W25_of_ne m ρ c main_v1_0 (by decide)
theorem st25_main_v1_1 (c : Dev nD) : W25 m ρ c (Proc.devRef .tc main_v1_1) = W24 m ρ c (Proc.devRef .tc main_v1_1) :=
  (W25_arr m ρ c 4).trans (((dat15 (V24 m ρ) c).arrAt_in 4 rfl _).trans (A_eq15 (V24 m ρ) c 4))
theorem st25_main_v69 (c : Dev nD) : W25 m ρ c (Proc.devRef .tc main_v69) = W24 m ρ c (Proc.devRef .tc main_v69) :=
  W25_of_ne m ρ c main_v69 (by decide)
theorem st25_main_v89 (c : Dev nD) : W25 m ρ c (Proc.devRef .tc main_v89) = W24 m ρ c (Proc.devRef .tc main_v89) :=
  W25_of_ne m ρ c main_v89 (by decide)
theorem st26_main_arg5 (c : Dev nD) : W26 m ρ c (Proc.devRef .tc main_arg5) = W25 m ρ c (Proc.devRef .tc main_arg5) :=
  W26_of_ne m ρ c main_arg5 (by decide)
theorem st26_main_arg6 (c : Dev nD) : W26 m ρ c (Proc.devRef .tc main_arg6) = W25 m ρ c (Proc.devRef .tc main_arg6) :=
  W26_of_ne m ρ c main_arg6 (by decide)
theorem st26_main_arg7 (c : Dev nD) : W26 m ρ c (Proc.devRef .tc main_arg7) = W25 m ρ c (Proc.devRef .tc main_arg7) :=
  W26_of_ne m ρ c main_arg7 (by decide)
theorem st26_main_arg8 (c : Dev nD) : W26 m ρ c (Proc.devRef .tc main_arg8) = W25 m ρ c (Proc.devRef .tc main_arg8) :=
  W26_of_ne m ρ c main_arg8 (by decide)
theorem st26_main_v1_0 (c : Dev nD) : W26 m ρ c (Proc.devRef .tc main_v1_0) = W25 m ρ c (Proc.devRef .tc main_v1_0) :=
  (W26_arr m ρ c 0).trans (((dat16 (V25 m ρ) c).arrAt_in 0 rfl _).trans (A_eq16 (V25 m ρ) c 0))
theorem st26_main_v1_1 (c : Dev nD) : W26 m ρ c (Proc.devRef .tc main_v1_1) = W25 m ρ c (Proc.devRef .tc main_v1_1) :=
  W26_of_ne m ρ c main_v1_1 (by decide)
theorem st27_main_arg5 (c : Dev nD) : W27 m ρ c (Proc.devRef .tc main_arg5) = W26 m ρ c (Proc.devRef .tc main_arg5) :=
  StableHlo.after_of_forall_not_mem (b := Proc.devRef .tc main_arg5) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st27_main_arg6 (c : Dev nD) : W27 m ρ c (Proc.devRef .tc main_arg6) = W26 m ρ c (Proc.devRef .tc main_arg6) :=
  StableHlo.after_of_forall_not_mem (b := Proc.devRef .tc main_arg6) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st27_main_arg7 (c : Dev nD) : W27 m ρ c (Proc.devRef .tc main_arg7) = W26 m ρ c (Proc.devRef .tc main_arg7) :=
  StableHlo.after_of_forall_not_mem (b := Proc.devRef .tc main_arg7) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st27_main_arg8 (c : Dev nD) : W27 m ρ c (Proc.devRef .tc main_arg8) = W26 m ρ c (Proc.devRef .tc main_arg8) :=
  StableHlo.after_of_forall_not_mem (b := Proc.devRef .tc main_arg8) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st27_main_v1_0 (c : Dev nD) : W27 m ρ c (Proc.devRef .tc main_v1_0) = W26 m ρ c (Proc.devRef .tc main_v1_0) :=
  StableHlo.after_of_forall_not_mem (b := Proc.devRef .tc main_v1_0) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st27_main_v1_1 (c : Dev nD) : W27 m ρ c (Proc.devRef .tc main_v1_1) = W26 m ρ c (Proc.devRef .tc main_v1_1) :=
  StableHlo.after_of_forall_not_mem (b := Proc.devRef .tc main_v1_1) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st27_main_v93 (c : Dev nD) : W27 m ρ c (Proc.devRef .tc main_v93) = W26 m ρ c (Proc.devRef .tc main_v93) :=
  StableHlo.after_of_forall_not_mem (b := Proc.devRef .tc main_v93) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st28_main_arg5 (c : Dev nD) : W28 m ρ c (Proc.devRef .tc main_arg5) = W27 m ρ c (Proc.devRef .tc main_arg5) :=
  W28_of_ne m ρ c main_arg5 (by decide)
theorem st28_main_arg6 (c : Dev nD) : W28 m ρ c (Proc.devRef .tc main_arg6) = W27 m ρ c (Proc.devRef .tc main_arg6) :=
  W28_of_ne m ρ c main_arg6 (by decide)
theorem st28_main_arg7 (c : Dev nD) : W28 m ρ c (Proc.devRef .tc main_arg7) = W27 m ρ c (Proc.devRef .tc main_arg7) :=
  W28_of_ne m ρ c main_arg7 (by decide)
theorem st28_main_arg8 (c : Dev nD) : W28 m ρ c (Proc.devRef .tc main_arg8) = W27 m ρ c (Proc.devRef .tc main_arg8) :=
  W28_of_ne m ρ c main_arg8 (by decide)
theorem st28_main_v1_0 (c : Dev nD) : W28 m ρ c (Proc.devRef .tc main_v1_0) = W27 m ρ c (Proc.devRef .tc main_v1_0) :=
  W28_of_ne m ρ c main_v1_0 (by decide)
theorem st28_main_v1_1 (c : Dev nD) : W28 m ρ c (Proc.devRef .tc main_v1_1) = W27 m ρ c (Proc.devRef .tc main_v1_1) :=
  (W28_arr m ρ c 4).trans (((dat17 (V27 m ρ) c).arrAt_in 4 rfl _).trans (A_eq17 (V27 m ρ) c 4))
theorem st28_main_v101 (c : Dev nD) : W28 m ρ c (Proc.devRef .tc main_v101) = W27 m ρ c (Proc.devRef .tc main_v101) :=
  W28_of_ne m ρ c main_v101 (by decide)
theorem st28_main_v93 (c : Dev nD) : W28 m ρ c (Proc.devRef .tc main_v93) = W27 m ρ c (Proc.devRef .tc main_v93) :=
  (W28_arr m ρ c 0).trans (((dat17 (V27 m ρ) c).arrAt_in 0 rfl _).trans (A_eq17 (V27 m ρ) c 0))
theorem st29_main_arg5 (c : Dev nD) : W29 m ρ c (Proc.devRef .tc main_arg5) = W28 m ρ c (Proc.devRef .tc main_arg5) :=
  W29_of_ne m ρ c main_arg5 (by decide)
theorem st29_main_arg6 (c : Dev nD) : W29 m ρ c (Proc.devRef .tc main_arg6) = W28 m ρ c (Proc.devRef .tc main_arg6) :=
  W29_of_ne m ρ c main_arg6 (by decide)
theorem st29_main_arg7 (c : Dev nD) : W29 m ρ c (Proc.devRef .tc main_arg7) = W28 m ρ c (Proc.devRef .tc main_arg7) :=
  W29_of_ne m ρ c main_arg7 (by decide)
theorem st29_main_arg8 (c : Dev nD) : W29 m ρ c (Proc.devRef .tc main_arg8) = W28 m ρ c (Proc.devRef .tc main_arg8) :=
  W29_of_ne m ρ c main_arg8 (by decide)
theorem st29_main_v1_0 (c : Dev nD) : W29 m ρ c (Proc.devRef .tc main_v1_0) = W28 m ρ c (Proc.devRef .tc main_v1_0) :=
  (W29_arr m ρ c 0).trans (((dat18 (V28 m ρ) c).arrAt_in 0 rfl _).trans (A_eq18 (V28 m ρ) c 0))
theorem st29_main_v1_1 (c : Dev nD) : W29 m ρ c (Proc.devRef .tc main_v1_1) = W28 m ρ c (Proc.devRef .tc main_v1_1) :=
  W29_of_ne m ρ c main_v1_1 (by decide)
theorem st29_main_v93 (c : Dev nD) : W29 m ρ c (Proc.devRef .tc main_v93) = W28 m ρ c (Proc.devRef .tc main_v93) :=
  W29_of_ne m ρ c main_v93 (by decide)
theorem st30_main_arg5 (c : Dev nD) : W30 m ρ c (Proc.devRef .tc main_arg5) = W29 m ρ c (Proc.devRef .tc main_arg5) :=
  StableHlo.after_of_forall_not_mem (b := Proc.devRef .tc main_arg5) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st30_main_arg6 (c : Dev nD) : W30 m ρ c (Proc.devRef .tc main_arg6) = W29 m ρ c (Proc.devRef .tc main_arg6) :=
  StableHlo.after_of_forall_not_mem (b := Proc.devRef .tc main_arg6) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st30_main_arg7 (c : Dev nD) : W30 m ρ c (Proc.devRef .tc main_arg7) = W29 m ρ c (Proc.devRef .tc main_arg7) :=
  StableHlo.after_of_forall_not_mem (b := Proc.devRef .tc main_arg7) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st30_main_arg8 (c : Dev nD) : W30 m ρ c (Proc.devRef .tc main_arg8) = W29 m ρ c (Proc.devRef .tc main_arg8) :=
  StableHlo.after_of_forall_not_mem (b := Proc.devRef .tc main_arg8) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st30_main_v1_0 (c : Dev nD) : W30 m ρ c (Proc.devRef .tc main_v1_0) = W29 m ρ c (Proc.devRef .tc main_v1_0) :=
  StableHlo.after_of_forall_not_mem (b := Proc.devRef .tc main_v1_0) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st30_main_v1_1 (c : Dev nD) : W30 m ρ c (Proc.devRef .tc main_v1_1) = W29 m ρ c (Proc.devRef .tc main_v1_1) :=
  StableHlo.after_of_forall_not_mem (b := Proc.devRef .tc main_v1_1) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st30_main_v105 (c : Dev nD) : W30 m ρ c (Proc.devRef .tc main_v105) = W29 m ρ c (Proc.devRef .tc main_v105) :=
  StableHlo.after_of_forall_not_mem (b := Proc.devRef .tc main_v105) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st30_main_v93 (c : Dev nD) : W30 m ρ c (Proc.devRef .tc main_v93) = W29 m ρ c (Proc.devRef .tc main_v93) :=
  StableHlo.after_of_forall_not_mem (b := Proc.devRef .tc main_v93) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st31_main_arg5 (c : Dev nD) : W31 m ρ c (Proc.devRef .tc main_arg5) = W30 m ρ c (Proc.devRef .tc main_arg5) :=
  W31_of_ne m ρ c main_arg5 (by decide)
theorem st31_main_arg6 (c : Dev nD) : W31 m ρ c (Proc.devRef .tc main_arg6) = W30 m ρ c (Proc.devRef .tc main_arg6) :=
  W31_of_ne m ρ c main_arg6 (by decide)
theorem st31_main_arg7 (c : Dev nD) : W31 m ρ c (Proc.devRef .tc main_arg7) = W30 m ρ c (Proc.devRef .tc main_arg7) :=
  W31_of_ne m ρ c main_arg7 (by decide)
theorem st31_main_arg8 (c : Dev nD) : W31 m ρ c (Proc.devRef .tc main_arg8) = W30 m ρ c (Proc.devRef .tc main_arg8) :=
  W31_of_ne m ρ c main_arg8 (by decide)
theorem st31_main_v1_0 (c : Dev nD) : W31 m ρ c (Proc.devRef .tc main_v1_0) = W30 m ρ c (Proc.devRef .tc main_v1_0) :=
  W31_of_ne m ρ c main_v1_0 (by decide)
theorem st31_main_v1_1 (c : Dev nD) : W31 m ρ c (Proc.devRef .tc main_v1_1) = W30 m ρ c (Proc.devRef .tc main_v1_1) :=
  (W31_arr m ρ c 4).trans (((dat19 (V30 m ρ) c).arrAt_in 4 rfl _).trans (A_eq19 (V30 m ρ) c 4))
theorem st31_main_v113 (c : Dev nD) : W31 m ρ c (Proc.devRef .tc main_v113) = W30 m ρ c (Proc.devRef .tc main_v113) :=
  W31_of_ne m ρ c main_v113 (by decide)
theorem st31_main_v93 (c : Dev nD) : W31 m ρ c (Proc.devRef .tc main_v93) = W30 m ρ c (Proc.devRef .tc main_v93) :=
  W31_of_ne m ρ c main_v93 (by decide)
theorem st32_main_arg5 (c : Dev nD) : W32 m ρ c (Proc.devRef .tc main_arg5) = W31 m ρ c (Proc.devRef .tc main_arg5) :=
  W32_of_ne m ρ c main_arg5 (by decide)
theorem st32_main_arg6 (c : Dev nD) : W32 m ρ c (Proc.devRef .tc main_arg6) = W31 m ρ c (Proc.devRef .tc main_arg6) :=
  W32_of_ne m ρ c main_arg6 (by decide)
theorem st32_main_arg7 (c : Dev nD) : W32 m ρ c (Proc.devRef .tc main_arg7) = W31 m ρ c (Proc.devRef .tc main_arg7) :=
  W32_of_ne m ρ c main_arg7 (by decide)
theorem st32_main_arg8 (c : Dev nD) : W32 m ρ c (Proc.devRef .tc main_arg8) = W31 m ρ c (Proc.devRef .tc main_arg8) :=
  W32_of_ne m ρ c main_arg8 (by decide)
theorem st32_main_v1_0 (c : Dev nD) : W32 m ρ c (Proc.devRef .tc main_v1_0) = W31 m ρ c (Proc.devRef .tc main_v1_0) :=
  (W32_arr m ρ c 0).trans (((dat20 (V31 m ρ) c).arrAt_in 0 rfl _).trans (A_eq20 (V31 m ρ) c 0))
theorem st32_main_v1_1 (c : Dev nD) : W32 m ρ c (Proc.devRef .tc main_v1_1) = W31 m ρ c (Proc.devRef .tc main_v1_1) :=
  W32_of_ne m ρ c main_v1_1 (by decide)
theorem st33_main_arg5 (c : Dev nD) : W33 m ρ c (Proc.devRef .tc main_arg5) = W32 m ρ c (Proc.devRef .tc main_arg5) :=
  StableHlo.after_of_forall_not_mem (b := Proc.devRef .tc main_arg5) _ _ (List.forall_iff_forall_mem.mp (by
      simp only [hostOps21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st33_main_arg6 (c : Dev nD) : W33 m ρ c (Proc.devRef .tc main_arg6) = W32 m ρ c (Proc.devRef .tc main_arg6) :=
  StableHlo.after_of_forall_not_mem (b := Proc.devRef .tc main_arg6) _ _ (List.forall_iff_forall_mem.mp (by
      simp only [hostOps21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st33_main_arg7 (c : Dev nD) : W33 m ρ c (Proc.devRef .tc main_arg7) = W32 m ρ c (Proc.devRef .tc main_arg7) :=
  StableHlo.after_of_forall_not_mem (b := Proc.devRef .tc main_arg7) _ _ (List.forall_iff_forall_mem.mp (by
      simp only [hostOps21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st33_main_arg8 (c : Dev nD) : W33 m ρ c (Proc.devRef .tc main_arg8) = W32 m ρ c (Proc.devRef .tc main_arg8) :=
  StableHlo.after_of_forall_not_mem (b := Proc.devRef .tc main_arg8) _ _ (List.forall_iff_forall_mem.mp (by
      simp only [hostOps21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st33_main_v1_0 (c : Dev nD) : W33 m ρ c (Proc.devRef .tc main_v1_0) = W32 m ρ c (Proc.devRef .tc main_v1_0) :=
  StableHlo.after_of_forall_not_mem (b := Proc.devRef .tc main_v1_0) _ _ (List.forall_iff_forall_mem.mp (by
      simp only [hostOps21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st33_main_v1_1 (c : Dev nD) : W33 m ρ c (Proc.devRef .tc main_v1_1) = W32 m ρ c (Proc.devRef .tc main_v1_1) :=
  StableHlo.after_of_forall_not_mem (b := Proc.devRef .tc main_v1_1) _ _ (List.forall_iff_forall_mem.mp (by
      simp only [hostOps21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st33_main_v117 (c : Dev nD) : W33 m ρ c (Proc.devRef .tc main_v117) = W32 m ρ c (Proc.devRef .tc main_v117) :=
  StableHlo.after_of_forall_not_mem (b := Proc.devRef .tc main_v117) _ _ (List.forall_iff_forall_mem.mp (by
      simp only [hostOps21, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.KV

end
-- ==== Proof.KV.StepsD.lean ====
/-
  One step of the run leaves a buffer it does not write as it was: a stretch of host operations none of which writes the buffer, or a pallas_call of which the buffer is an input array or no array at all. Steps 34 to 44 of the 44.
-/
import proofs.«405499_j28269474742810_3_alg».proof.Proof.Fr.KernelIdeal.Chain

set_option maxRecDepth 16384

noncomputable section

namespace Cert.KernelIdeal.KV

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem st34_main_arg5 (c : Dev nD) : W34 m ρ c (Proc.devRef .tc main_arg5) = W33 m ρ c (Proc.devRef .tc main_arg5) :=
  W34_of_ne m ρ c main_arg5 (by decide)
theorem st34_main_arg6 (c : Dev nD) : W34 m ρ c (Proc.devRef .tc main_arg6) = W33 m ρ c (Proc.devRef .tc main_arg6) :=
  W34_of_ne m ρ c main_arg6 (by decide)
theorem st34_main_arg7 (c : Dev nD) : W34 m ρ c (Proc.devRef .tc main_arg7) = W33 m ρ c (Proc.devRef .tc main_arg7) :=
  W34_of_ne m ρ c main_arg7 (by decide)
theorem st34_main_arg8 (c : Dev nD) : W34 m ρ c (Proc.devRef .tc main_arg8) = W33 m ρ c (Proc.devRef .tc main_arg8) :=
  W34_of_ne m ρ c main_arg8 (by decide)
theorem st34_main_v1_0 (c : Dev nD) : W34 m ρ c (Proc.devRef .tc main_v1_0) = W33 m ρ c (Proc.devRef .tc main_v1_0) :=
  W34_of_ne m ρ c main_v1_0 (by decide)
theorem st34_main_v1_1 (c : Dev nD) : W34 m ρ c (Proc.devRef .tc main_v1_1) = W33 m ρ c (Proc.devRef .tc main_v1_1) :=
  (W34_arr m ρ c 4).trans (((dat21 (V33 m ρ) c).arrAt_in 4 rfl _).trans (A_eq21 (V33 m ρ) c 4))
theorem st34_main_v117 (c : Dev nD) : W34 m ρ c (Proc.devRef .tc main_v117) = W33 m ρ c (Proc.devRef .tc main_v117) :=
  (W34_arr m ρ c 0).trans (((dat21 (V33 m ρ) c).arrAt_in 0 rfl _).trans (A_eq21 (V33 m ρ) c 0))
theorem st34_main_v125 (c : Dev nD) : W34 m ρ c (Proc.devRef .tc main_v125) = W33 m ρ c (Proc.devRef .tc main_v125) :=
  W34_of_ne m ρ c main_v125 (by decide)
theorem st35_main_arg5 (c : Dev nD) : W35 m ρ c (Proc.devRef .tc main_arg5) = W34 m ρ c (Proc.devRef .tc main_arg5) :=
  W35_of_ne m ρ c main_arg5 (by decide)
theorem st35_main_arg6 (c : Dev nD) : W35 m ρ c (Proc.devRef .tc main_arg6) = W34 m ρ c (Proc.devRef .tc main_arg6) :=
  W35_of_ne m ρ c main_arg6 (by decide)
theorem st35_main_arg7 (c : Dev nD) : W35 m ρ c (Proc.devRef .tc main_arg7) = W34 m ρ c (Proc.devRef .tc main_arg7) :=
  W35_of_ne m ρ c main_arg7 (by decide)
theorem st35_main_arg8 (c : Dev nD) : W35 m ρ c (Proc.devRef .tc main_arg8) = W34 m ρ c (Proc.devRef .tc main_arg8) :=
  W35_of_ne m ρ c main_arg8 (by decide)
theorem st35_main_v1_0 (c : Dev nD) : W35 m ρ c (Proc.devRef .tc main_v1_0) = W34 m ρ c (Proc.devRef .tc main_v1_0) :=
  (W35_arr m ρ c 0).trans (((dat22 (V34 m ρ) c).arrAt_in 0 rfl _).trans (A_eq22 (V34 m ρ) c 0))
theorem st35_main_v1_1 (c : Dev nD) : W35 m ρ c (Proc.devRef .tc main_v1_1) = W34 m ρ c (Proc.devRef .tc main_v1_1) :=
  W35_of_ne m ρ c main_v1_1 (by decide)
theorem st35_main_v117 (c : Dev nD) : W35 m ρ c (Proc.devRef .tc main_v117) = W34 m ρ c (Proc.devRef .tc main_v117) :=
  W35_of_ne m ρ c main_v117 (by decide)
theorem st36_main_arg5 (c : Dev nD) : W36 m ρ c (Proc.devRef .tc main_arg5) = W35 m ρ c (Proc.devRef .tc main_arg5) :=
  StableHlo.after_of_forall_not_mem (b := Proc.devRef .tc main_arg5) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st36_main_arg6 (c : Dev nD) : W36 m ρ c (Proc.devRef .tc main_arg6) = W35 m ρ c (Proc.devRef .tc main_arg6) :=
  StableHlo.after_of_forall_not_mem (b := Proc.devRef .tc main_arg6) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st36_main_arg7 (c : Dev nD) : W36 m ρ c (Proc.devRef .tc main_arg7) = W35 m ρ c (Proc.devRef .tc main_arg7) :=
  StableHlo.after_of_forall_not_mem (b := Proc.devRef .tc main_arg7) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st36_main_arg8 (c : Dev nD) : W36 m ρ c (Proc.devRef .tc main_arg8) = W35 m ρ c (Proc.devRef .tc main_arg8) :=
  StableHlo.after_of_forall_not_mem (b := Proc.devRef .tc main_arg8) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st36_main_v1_0 (c : Dev nD) : W36 m ρ c (Proc.devRef .tc main_v1_0) = W35 m ρ c (Proc.devRef .tc main_v1_0) :=
  StableHlo.after_of_forall_not_mem (b := Proc.devRef .tc main_v1_0) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st36_main_v1_1 (c : Dev nD) : W36 m ρ c (Proc.devRef .tc main_v1_1) = W35 m ρ c (Proc.devRef .tc main_v1_1) :=
  StableHlo.after_of_forall_not_mem (b := Proc.devRef .tc main_v1_1) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st36_main_v117 (c : Dev nD) : W36 m ρ c (Proc.devRef .tc main_v117) = W35 m ρ c (Proc.devRef .tc main_v117) :=
  StableHlo.after_of_forall_not_mem (b := Proc.devRef .tc main_v117) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st36_main_v129 (c : Dev nD) : W36 m ρ c (Proc.devRef .tc main_v129) = W35 m ρ c (Proc.devRef .tc main_v129) :=
  StableHlo.after_of_forall_not_mem (b := Proc.devRef .tc main_v129) _ _ (List.forall_iff_forall_mem.mp (by
      simp only [hostOps23, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st37_main_arg5 (c : Dev nD) : W37 m ρ c (Proc.devRef .tc main_arg5) = W36 m ρ c (Proc.devRef .tc main_arg5) :=
  W37_of_ne m ρ c main_arg5 (by decide)
theorem st37_main_arg6 (c : Dev nD) : W37 m ρ c (Proc.devRef .tc main_arg6) = W36 m ρ c (Proc.devRef .tc main_arg6) :=
  W37_of_ne m ρ c main_arg6 (by decide)
theorem st37_main_arg7 (c : Dev nD) : W37 m ρ c (Proc.devRef .tc main_arg7) = W36 m ρ c (Proc.devRef .tc main_arg7) :=
  W37_of_ne m ρ c main_arg7 (by decide)
theorem st37_main_arg8 (c : Dev nD) : W37 m ρ c (Proc.devRef .tc main_arg8) = W36 m ρ c (Proc.devRef .tc main_arg8) :=
  W37_of_ne m ρ c main_arg8 (by decide)
theorem st37_main_v1_0 (c : Dev nD) : W37 m ρ c (Proc.devRef .tc main_v1_0) = W36 m ρ c (Proc.devRef .tc main_v1_0) :=
  W37_of_ne m ρ c main_v1_0 (by decide)
theorem st37_main_v1_1 (c : Dev nD) : W37 m ρ c (Proc.devRef .tc main_v1_1) = W36 m ρ c (Proc.devRef .tc main_v1_1) :=
  (W37_arr m ρ c 4).trans (((dat23 (V36 m ρ) c).arrAt_in 4 rfl _).trans (A_eq23 (V36 m ρ) c 4))
theorem st37_main_v117 (c : Dev nD) : W37 m ρ c (Proc.devRef .tc main_v117) = W36 m ρ c (Proc.devRef .tc main_v117) :=
  W37_of_ne m ρ c main_v117 (by decide)
theorem st37_main_v137 (c : Dev nD) : W37 m ρ c (Proc.devRef .tc main_v137) = W36 m ρ c (Proc.devRef .tc main_v137) :=
  W37_of_ne m ρ c main_v137 (by decide)
theorem st38_main_arg5 (c : Dev nD) : W38 m ρ c (Proc.devRef .tc main_arg5) = W37 m ρ c (Proc.devRef .tc main_arg5) :=
  W38_of_ne m ρ c main_arg5 (by decide)
theorem st38_main_arg6 (c : Dev nD) : W38 m ρ c (Proc.devRef .tc main_arg6) = W37 m ρ c (Proc.devRef .tc main_arg6) :=
  W38_of_ne m ρ c main_arg6 (by decide)
theorem st38_main_arg7 (c : Dev nD) : W38 m ρ c (Proc.devRef .tc main_arg7) = W37 m ρ c (Proc.devRef .tc main_arg7) :=
  W38_of_ne m ρ c main_arg7 (by decide)
theorem st38_main_arg8 (c : Dev nD) : W38 m ρ c (Proc.devRef .tc main_arg8) = W37 m ρ c (Proc.devRef .tc main_arg8) :=
  W38_of_ne m ρ c main_arg8 (by decide)
theorem st38_main_v1_0 (c : Dev nD) : W38 m ρ c (Proc.devRef .tc main_v1_0) = W37 m ρ c (Proc.devRef .tc main_v1_0) :=
  (W38_arr m ρ c 0).trans (((dat24 (V37 m ρ) c).arrAt_in 0 rfl _).trans (A_eq24 (V37 m ρ) c 0))
theorem st38_main_v1_1 (c : Dev nD) : W38 m ρ c (Proc.devRef .tc main_v1_1) = W37 m ρ c (Proc.devRef .tc main_v1_1) :=
  W38_of_ne m ρ c main_v1_1 (by decide)
theorem st39_main_arg7 (c : Dev nD) : W39 m ρ c (Proc.devRef .tc main_arg7) = W38 m ρ c (Proc.devRef .tc main_arg7) :=
  StableHlo.after_of_forall_not_mem (b := Proc.devRef .tc main_arg7) _ _ (List.forall_iff_forall_mem.mp (by
      simp only [hostOps25, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st39_main_arg8 (c : Dev nD) : W39 m ρ c (Proc.devRef .tc main_arg8) = W38 m ρ c (Proc.devRef .tc main_arg8) :=
  StableHlo.after_of_forall_not_mem (b := Proc.devRef .tc main_arg8) _ _ (List.forall_iff_forall_mem.mp (by
      simp only [hostOps25, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st39_main_v1_0 (c : Dev nD) : W39 m ρ c (Proc.devRef .tc main_v1_0) = W38 m ρ c (Proc.devRef .tc main_v1_0) :=
  StableHlo.after_of_forall_not_mem (b := Proc.devRef .tc main_v1_0) _ _ (List.forall_iff_forall_mem.mp (by
      simp only [hostOps25, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st39_main_v1_1 (c : Dev nD) : W39 m ρ c (Proc.devRef .tc main_v1_1) = W38 m ρ c (Proc.devRef .tc main_v1_1) :=
  StableHlo.after_of_forall_not_mem (b := Proc.devRef .tc main_v1_1) _ _ (List.forall_iff_forall_mem.mp (by
      simp only [hostOps25, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st39_main_v141 (c : Dev nD) : W39 m ρ c (Proc.devRef .tc main_v141) = W38 m ρ c (Proc.devRef .tc main_v141) :=
  StableHlo.after_of_forall_not_mem (b := Proc.devRef .tc main_v141) _ _ (List.forall_iff_forall_mem.mp (by
      simp only [hostOps25, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st40_main_arg7 (c : Dev nD) : W40 m ρ c (Proc.devRef .tc main_arg7) = W39 m ρ c (Proc.devRef .tc main_arg7) :=
  W40_of_ne m ρ c main_arg7 (by decide)
theorem st40_main_arg8 (c : Dev nD) : W40 m ρ c (Proc.devRef .tc main_arg8) = W39 m ρ c (Proc.devRef .tc main_arg8) :=
  W40_of_ne m ρ c main_arg8 (by decide)
theorem st40_main_v1_0 (c : Dev nD) : W40 m ρ c (Proc.devRef .tc main_v1_0) = W39 m ρ c (Proc.devRef .tc main_v1_0) :=
  W40_of_ne m ρ c main_v1_0 (by decide)
theorem st40_main_v1_1 (c : Dev nD) : W40 m ρ c (Proc.devRef .tc main_v1_1) = W39 m ρ c (Proc.devRef .tc main_v1_1) :=
  (W40_arr m ρ c 4).trans (((dat25 (V39 m ρ) c).arrAt_in 4 rfl _).trans (A_eq25 (V39 m ρ) c 4))
theorem st40_main_v141 (c : Dev nD) : W40 m ρ c (Proc.devRef .tc main_v141) = W39 m ρ c (Proc.devRef .tc main_v141) :=
  (W40_arr m ρ c 0).trans (((dat25 (V39 m ρ) c).arrAt_in 0 rfl _).trans (A_eq25 (V39 m ρ) c 0))
theorem st40_main_v149 (c : Dev nD) : W40 m ρ c (Proc.devRef .tc main_v149) = W39 m ρ c (Proc.devRef .tc main_v149) :=
  W40_of_ne m ρ c main_v149 (by decide)
theorem st41_main_arg7 (c : Dev nD) : W41 m ρ c (Proc.devRef .tc main_arg7) = W40 m ρ c (Proc.devRef .tc main_arg7) :=
  W41_of_ne m ρ c main_arg7 (by decide)
theorem st41_main_arg8 (c : Dev nD) : W41 m ρ c (Proc.devRef .tc main_arg8) = W40 m ρ c (Proc.devRef .tc main_arg8) :=
  W41_of_ne m ρ c main_arg8 (by decide)
theorem st41_main_v1_0 (c : Dev nD) : W41 m ρ c (Proc.devRef .tc main_v1_0) = W40 m ρ c (Proc.devRef .tc main_v1_0) :=
  (W41_arr m ρ c 0).trans (((dat26 (V40 m ρ) c).arrAt_in 0 rfl _).trans (A_eq26 (V40 m ρ) c 0))
theorem st41_main_v1_1 (c : Dev nD) : W41 m ρ c (Proc.devRef .tc main_v1_1) = W40 m ρ c (Proc.devRef .tc main_v1_1) :=
  W41_of_ne m ρ c main_v1_1 (by decide)
theorem st42_main_v1_0 (c : Dev nD) : W42 m ρ c (Proc.devRef .tc main_v1_0) = W41 m ρ c (Proc.devRef .tc main_v1_0) :=
  StableHlo.after_of_forall_not_mem (b := Proc.devRef .tc main_v1_0) _ _ (List.forall_iff_forall_mem.mp (by
      simp only [hostOps27, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st42_main_v1_1 (c : Dev nD) : W42 m ρ c (Proc.devRef .tc main_v1_1) = W41 m ρ c (Proc.devRef .tc main_v1_1) :=
  StableHlo.after_of_forall_not_mem (b := Proc.devRef .tc main_v1_1) _ _ (List.forall_iff_forall_mem.mp (by
      simp only [hostOps27, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st42_main_v153 (c : Dev nD) : W42 m ρ c (Proc.devRef .tc main_v153) = W41 m ρ c (Proc.devRef .tc main_v153) :=
  StableHlo.after_of_forall_not_mem (b := Proc.devRef .tc main_v153) _ _ (List.forall_iff_forall_mem.mp (by
      simp only [hostOps27, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem st43_main_v1_0 (c : Dev nD) : W43 m ρ c (Proc.devRef .tc main_v1_0) = W42 m ρ c (Proc.devRef .tc main_v1_0) :=
  W43_of_ne m ρ c main_v1_0 (by decide)
theorem st43_main_v153 (c : Dev nD) : W43 m ρ c (Proc.devRef .tc main_v153) = W42 m ρ c (Proc.devRef .tc main_v153) :=
  (W43_arr m ρ c 0).trans (((dat27 (V42 m ρ) c).arrAt_in 0 rfl _).trans (A_eq27 (V42 m ρ) c 0))
theorem st43_main_v157 (c : Dev nD) : W43 m ρ c (Proc.devRef .tc main_v157) = W42 m ρ c (Proc.devRef .tc main_v157) :=
  W43_of_ne m ρ c main_v157 (by decide)
theorem st44_main_v153 (c : Dev nD) : W44 m ρ c (Proc.devRef .tc main_v153) = W43 m ρ c (Proc.devRef .tc main_v153) :=
  W44_of_ne m ρ c main_v153 (by decide)

end Cert.KernelIdeal.KV

end
-- ==== Proof.KV.Traces.lean ====
/-
  A buffer between the step that made it and a later step that reads it: the single steps composed.
-/
import proofs.«405499_j28269474742810_3_alg».proof.Proof.KV.StepsA
import proofs.«405499_j28269474742810_3_alg».proof.Proof.KV.StepsB
import proofs.«405499_j28269474742810_3_alg».proof.Proof.KV.StepsC
import proofs.«405499_j28269474742810_3_alg».proof.Proof.KV.StepsD

set_option maxRecDepth 16384

noncomputable section

namespace Cert.KernelIdeal.KV

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

theorem tr_main_arg2_0_1 (c : Dev nD) : W1 m ρ c (Proc.devRef .tc main_arg2) = W0 m ρ c (Proc.devRef .tc main_arg2) :=
  (st1_main_arg2 m ρ c)
theorem tr_main_arg3_0_2 (c : Dev nD) : W2 m ρ c (Proc.devRef .tc main_arg3) = W0 m ρ c (Proc.devRef .tc main_arg3) :=
  (st2_main_arg3 m ρ c).trans ((st1_main_arg3 m ρ c))
theorem tr_main_arg4_0_2 (c : Dev nD) : W2 m ρ c (Proc.devRef .tc main_arg4) = W0 m ρ c (Proc.devRef .tc main_arg4) :=
  (st2_main_arg4 m ρ c).trans ((st1_main_arg4 m ρ c))
theorem tr_main_v0_1_3 (c : Dev nD) : W3 m ρ c (Proc.devRef .tc main_v0) = W1 m ρ c (Proc.devRef .tc main_v0) :=
  (st3_main_v0 m ρ c).trans ((st2_main_v0 m ρ c))
theorem tr_main_v1_1_2_3 (c : Dev nD) : W3 m ρ c (Proc.devRef .tc main_v1_1) = W2 m ρ c (Proc.devRef .tc main_v1_1) :=
  (st3_main_v1_1 m ρ c)
theorem tr_main_v1_0_2_4 (c : Dev nD) : W4 m ρ c (Proc.devRef .tc main_v1_0) = W2 m ρ c (Proc.devRef .tc main_v1_0) :=
  (st4_main_v1_0 m ρ c).trans ((st3_main_v1_0 m ρ c))
theorem tr_main_v5_3_4 (c : Dev nD) : W4 m ρ c (Proc.devRef .tc main_v5) = W3 m ρ c (Proc.devRef .tc main_v5) :=
  (st4_main_v5 m ρ c)
theorem tr_main_arg5_0_5 (c : Dev nD) : W5 m ρ c (Proc.devRef .tc main_arg5) = W0 m ρ c (Proc.devRef .tc main_arg5) :=
  (st5_main_arg5 m ρ c).trans ((st4_main_arg5 m ρ c).trans ((st3_main_arg5 m ρ c).trans ((st2_main_arg5 m ρ c).trans ((st1_main_arg5 m ρ c)))))
theorem tr_main_arg6_0_5 (c : Dev nD) : W5 m ρ c (Proc.devRef .tc main_arg6) = W0 m ρ c (Proc.devRef .tc main_arg6) :=
  (st5_main_arg6 m ρ c).trans ((st4_main_arg6 m ρ c).trans ((st3_main_arg6 m ρ c).trans ((st2_main_arg6 m ρ c).trans ((st1_main_arg6 m ρ c)))))
theorem tr_main_v1_1_2_6 (c : Dev nD) : W6 m ρ c (Proc.devRef .tc main_v1_1) = W2 m ρ c (Proc.devRef .tc main_v1_1) :=
  (st6_main_v1_1 m ρ c).trans ((st5_main_v1_1 m ρ c).trans ((st4_main_v1_1 m ρ c).trans ((st3_main_v1_1 m ρ c))))
theorem tr_main_v9_5_6 (c : Dev nD) : W6 m ρ c (Proc.devRef .tc main_v9) = W5 m ρ c (Proc.devRef .tc main_v9) :=
  (st6_main_v9 m ρ c)
theorem tr_main_arg0_0_7 (c : Dev nD) : W7 m ρ c (Proc.devRef .tc main_arg0) = W0 m ρ c (Proc.devRef .tc main_arg0) :=
  (st7_main_arg0 m ρ c).trans ((st6_main_arg0 m ρ c).trans ((st5_main_arg0 m ρ c).trans ((st4_main_arg0 m ρ c).trans ((st3_main_arg0 m ρ c).trans ((st2_main_arg0 m ρ c).trans ((st1_main_arg0 m ρ c)))))))
theorem tr_main_v1_0_2_7 (c : Dev nD) : W7 m ρ c (Proc.devRef .tc main_v1_0) = W2 m ρ c (Proc.devRef .tc main_v1_0) :=
  (st7_main_v1_0 m ρ c).trans ((st6_main_v1_0 m ρ c).trans ((st5_main_v1_0 m ρ c).trans ((st4_main_v1_0 m ρ c).trans ((st3_main_v1_0 m ρ c)))))
theorem tr_main_v17_6_7 (c : Dev nD) : W7 m ρ c (Proc.devRef .tc main_v17) = W6 m ρ c (Proc.devRef .tc main_v17) :=
  (st7_main_v17 m ρ c)
theorem tr_main_arg5_0_8 (c : Dev nD) : W8 m ρ c (Proc.devRef .tc main_arg5) = W0 m ρ c (Proc.devRef .tc main_arg5) :=
  (st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c))))))))
theorem tr_main_arg6_0_8 (c : Dev nD) : W8 m ρ c (Proc.devRef .tc main_arg6) = W0 m ρ c (Proc.devRef .tc main_arg6) :=
  (st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c))))))))
theorem tr_main_v1_1_2_9 (c : Dev nD) : W9 m ρ c (Proc.devRef .tc main_v1_1) = W2 m ρ c (Proc.devRef .tc main_v1_1) :=
  (st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c)))))))
theorem tr_main_v21_8_9 (c : Dev nD) : W9 m ρ c (Proc.devRef .tc main_v21) = W8 m ρ c (Proc.devRef .tc main_v21) :=
  (st9_main_v21 m ρ c)
theorem tr_main_v1_0_2_10 (c : Dev nD) : W10 m ρ c (Proc.devRef .tc main_v1_0) = W2 m ρ c (Proc.devRef .tc main_v1_0) :=
  (st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c))))))))
theorem tr_main_v29_9_10 (c : Dev nD) : W10 m ρ c (Proc.devRef .tc main_v29) = W9 m ρ c (Proc.devRef .tc main_v29) :=
  (st10_main_v29 m ρ c)
theorem tr_main_arg5_0_11 (c : Dev nD) : W11 m ρ c (Proc.devRef .tc main_arg5) = W0 m ρ c (Proc.devRef .tc main_arg5) :=
  (st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c)))))))))))
theorem tr_main_arg6_0_11 (c : Dev nD) : W11 m ρ c (Proc.devRef .tc main_arg6) = W0 m ρ c (Proc.devRef .tc main_arg6) :=
  (st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c)))))))))))
theorem tr_main_v1_1_2_12 (c : Dev nD) : W12 m ρ c (Proc.devRef .tc main_v1_1) = W2 m ρ c (Proc.devRef .tc main_v1_1) :=
  (st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c))))))))))
theorem tr_main_v33_11_12 (c : Dev nD) : W12 m ρ c (Proc.devRef .tc main_v33) = W11 m ρ c (Proc.devRef .tc main_v33) :=
  (st12_main_v33 m ρ c)
theorem tr_main_v1_0_2_13 (c : Dev nD) : W13 m ρ c (Proc.devRef .tc main_v1_0) = W2 m ρ c (Proc.devRef .tc main_v1_0) :=
  (st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c)))))))))))
theorem tr_main_v21_8_13 (c : Dev nD) : W13 m ρ c (Proc.devRef .tc main_v21) = W8 m ρ c (Proc.devRef .tc main_v21) :=
  (st13_main_v21 m ρ c).trans ((st12_main_v21 m ρ c).trans ((st11_main_v21 m ρ c).trans ((st10_main_v21 m ρ c).trans ((st9_main_v21 m ρ c)))))
theorem tr_main_v41_12_13 (c : Dev nD) : W13 m ρ c (Proc.devRef .tc main_v41) = W12 m ρ c (Proc.devRef .tc main_v41) :=
  (st13_main_v41 m ρ c)
theorem tr_main_arg5_0_14 (c : Dev nD) : W14 m ρ c (Proc.devRef .tc main_arg5) = W0 m ρ c (Proc.devRef .tc main_arg5) :=
  (st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c))))))))))))))
theorem tr_main_arg6_0_14 (c : Dev nD) : W14 m ρ c (Proc.devRef .tc main_arg6) = W0 m ρ c (Proc.devRef .tc main_arg6) :=
  (st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c))))))))))))))
theorem tr_main_v1_1_2_15 (c : Dev nD) : W15 m ρ c (Proc.devRef .tc main_v1_1) = W2 m ρ c (Proc.devRef .tc main_v1_1) :=
  (st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c)))))))))))))
theorem tr_main_v45_14_15 (c : Dev nD) : W15 m ρ c (Proc.devRef .tc main_v45) = W14 m ρ c (Proc.devRef .tc main_v45) :=
  (st15_main_v45 m ρ c)
theorem tr_main_v1_0_2_16 (c : Dev nD) : W16 m ρ c (Proc.devRef .tc main_v1_0) = W2 m ρ c (Proc.devRef .tc main_v1_0) :=
  (st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c))))))))))))))
theorem tr_main_v53_15_16 (c : Dev nD) : W16 m ρ c (Proc.devRef .tc main_v53) = W15 m ρ c (Proc.devRef .tc main_v53) :=
  (st16_main_v53 m ρ c)
theorem tr_main_arg5_0_17 (c : Dev nD) : W17 m ρ c (Proc.devRef .tc main_arg5) = W0 m ρ c (Proc.devRef .tc main_arg5) :=
  (st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c)))))))))))))))))
theorem tr_main_arg6_0_17 (c : Dev nD) : W17 m ρ c (Proc.devRef .tc main_arg6) = W0 m ρ c (Proc.devRef .tc main_arg6) :=
  (st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c)))))))))))))))))
theorem tr_main_v1_1_2_18 (c : Dev nD) : W18 m ρ c (Proc.devRef .tc main_v1_1) = W2 m ρ c (Proc.devRef .tc main_v1_1) :=
  (st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c))))))))))))))))
theorem tr_main_v57_17_18 (c : Dev nD) : W18 m ρ c (Proc.devRef .tc main_v57) = W17 m ρ c (Proc.devRef .tc main_v57) :=
  (st18_main_v57 m ρ c)
theorem tr_main_v1_0_2_19 (c : Dev nD) : W19 m ρ c (Proc.devRef .tc main_v1_0) = W2 m ρ c (Proc.devRef .tc main_v1_0) :=
  (st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c)))))))))))))))))
theorem tr_main_v45_14_19 (c : Dev nD) : W19 m ρ c (Proc.devRef .tc main_v45) = W14 m ρ c (Proc.devRef .tc main_v45) :=
  (st19_main_v45 m ρ c).trans ((st18_main_v45 m ρ c).trans ((st17_main_v45 m ρ c).trans ((st16_main_v45 m ρ c).trans ((st15_main_v45 m ρ c)))))
theorem tr_main_v65_18_19 (c : Dev nD) : W19 m ρ c (Proc.devRef .tc main_v65) = W18 m ρ c (Proc.devRef .tc main_v65) :=
  (st19_main_v65 m ρ c)
theorem tr_main_arg5_0_20 (c : Dev nD) : W20 m ρ c (Proc.devRef .tc main_arg5) = W0 m ρ c (Proc.devRef .tc main_arg5) :=
  (st20_main_arg5 m ρ c).trans ((st19_main_arg5 m ρ c).trans ((st18_main_arg5 m ρ c).trans ((st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c))))))))))))))))))))
theorem tr_main_arg6_0_20 (c : Dev nD) : W20 m ρ c (Proc.devRef .tc main_arg6) = W0 m ρ c (Proc.devRef .tc main_arg6) :=
  (st20_main_arg6 m ρ c).trans ((st19_main_arg6 m ρ c).trans ((st18_main_arg6 m ρ c).trans ((st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c))))))))))))))))))))
theorem tr_main_v1_1_2_21 (c : Dev nD) : W21 m ρ c (Proc.devRef .tc main_v1_1) = W2 m ρ c (Proc.devRef .tc main_v1_1) :=
  (st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c)))))))))))))))))))
theorem tr_main_v69_20_21 (c : Dev nD) : W21 m ρ c (Proc.devRef .tc main_v69) = W20 m ρ c (Proc.devRef .tc main_v69) :=
  (st21_main_v69 m ρ c)
theorem tr_main_v1_0_2_22 (c : Dev nD) : W22 m ρ c (Proc.devRef .tc main_v1_0) = W2 m ρ c (Proc.devRef .tc main_v1_0) :=
  (st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c))))))))))))))))))))
theorem tr_main_v77_21_22 (c : Dev nD) : W22 m ρ c (Proc.devRef .tc main_v77) = W21 m ρ c (Proc.devRef .tc main_v77) :=
  (st22_main_v77 m ρ c)
theorem tr_main_arg5_0_23 (c : Dev nD) : W23 m ρ c (Proc.devRef .tc main_arg5) = W0 m ρ c (Proc.devRef .tc main_arg5) :=
  (st23_main_arg5 m ρ c).trans ((st22_main_arg5 m ρ c).trans ((st21_main_arg5 m ρ c).trans ((st20_main_arg5 m ρ c).trans ((st19_main_arg5 m ρ c).trans ((st18_main_arg5 m ρ c).trans ((st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c)))))))))))))))))))))))
theorem tr_main_arg6_0_23 (c : Dev nD) : W23 m ρ c (Proc.devRef .tc main_arg6) = W0 m ρ c (Proc.devRef .tc main_arg6) :=
  (st23_main_arg6 m ρ c).trans ((st22_main_arg6 m ρ c).trans ((st21_main_arg6 m ρ c).trans ((st20_main_arg6 m ρ c).trans ((st19_main_arg6 m ρ c).trans ((st18_main_arg6 m ρ c).trans ((st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c)))))))))))))))))))))))
theorem tr_main_v1_1_2_24 (c : Dev nD) : W24 m ρ c (Proc.devRef .tc main_v1_1) = W2 m ρ c (Proc.devRef .tc main_v1_1) :=
  (st24_main_v1_1 m ρ c).trans ((st23_main_v1_1 m ρ c).trans ((st22_main_v1_1 m ρ c).trans ((st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c))))))))))))))))))))))
theorem tr_main_v81_23_24 (c : Dev nD) : W24 m ρ c (Proc.devRef .tc main_v81) = W23 m ρ c (Proc.devRef .tc main_v81) :=
  (st24_main_v81 m ρ c)
theorem tr_main_v1_0_2_25 (c : Dev nD) : W25 m ρ c (Proc.devRef .tc main_v1_0) = W2 m ρ c (Proc.devRef .tc main_v1_0) :=
  (st25_main_v1_0 m ρ c).trans ((st24_main_v1_0 m ρ c).trans ((st23_main_v1_0 m ρ c).trans ((st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c)))))))))))))))))))))))
theorem tr_main_v69_20_25 (c : Dev nD) : W25 m ρ c (Proc.devRef .tc main_v69) = W20 m ρ c (Proc.devRef .tc main_v69) :=
  (st25_main_v69 m ρ c).trans ((st24_main_v69 m ρ c).trans ((st23_main_v69 m ρ c).trans ((st22_main_v69 m ρ c).trans ((st21_main_v69 m ρ c)))))
theorem tr_main_v89_24_25 (c : Dev nD) : W25 m ρ c (Proc.devRef .tc main_v89) = W24 m ρ c (Proc.devRef .tc main_v89) :=
  (st25_main_v89 m ρ c)
theorem tr_main_arg5_0_26 (c : Dev nD) : W26 m ρ c (Proc.devRef .tc main_arg5) = W0 m ρ c (Proc.devRef .tc main_arg5) :=
  (st26_main_arg5 m ρ c).trans ((st25_main_arg5 m ρ c).trans ((st24_main_arg5 m ρ c).trans ((st23_main_arg5 m ρ c).trans ((st22_main_arg5 m ρ c).trans ((st21_main_arg5 m ρ c).trans ((st20_main_arg5 m ρ c).trans ((st19_main_arg5 m ρ c).trans ((st18_main_arg5 m ρ c).trans ((st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c))))))))))))))))))))))))))
theorem tr_main_arg6_0_26 (c : Dev nD) : W26 m ρ c (Proc.devRef .tc main_arg6) = W0 m ρ c (Proc.devRef .tc main_arg6) :=
  (st26_main_arg6 m ρ c).trans ((st25_main_arg6 m ρ c).trans ((st24_main_arg6 m ρ c).trans ((st23_main_arg6 m ρ c).trans ((st22_main_arg6 m ρ c).trans ((st21_main_arg6 m ρ c).trans ((st20_main_arg6 m ρ c).trans ((st19_main_arg6 m ρ c).trans ((st18_main_arg6 m ρ c).trans ((st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c))))))))))))))))))))))))))
theorem tr_main_v1_1_2_27 (c : Dev nD) : W27 m ρ c (Proc.devRef .tc main_v1_1) = W2 m ρ c (Proc.devRef .tc main_v1_1) :=
  (st27_main_v1_1 m ρ c).trans ((st26_main_v1_1 m ρ c).trans ((st25_main_v1_1 m ρ c).trans ((st24_main_v1_1 m ρ c).trans ((st23_main_v1_1 m ρ c).trans ((st22_main_v1_1 m ρ c).trans ((st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c)))))))))))))))))))))))))
theorem tr_main_v93_26_27 (c : Dev nD) : W27 m ρ c (Proc.devRef .tc main_v93) = W26 m ρ c (Proc.devRef .tc main_v93) :=
  (st27_main_v93 m ρ c)
theorem tr_main_v1_0_2_28 (c : Dev nD) : W28 m ρ c (Proc.devRef .tc main_v1_0) = W2 m ρ c (Proc.devRef .tc main_v1_0) :=
  (st28_main_v1_0 m ρ c).trans ((st27_main_v1_0 m ρ c).trans ((st26_main_v1_0 m ρ c).trans ((st25_main_v1_0 m ρ c).trans ((st24_main_v1_0 m ρ c).trans ((st23_main_v1_0 m ρ c).trans ((st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c))))))))))))))))))))))))))
theorem tr_main_v101_27_28 (c : Dev nD) : W28 m ρ c (Proc.devRef .tc main_v101) = W27 m ρ c (Proc.devRef .tc main_v101) :=
  (st28_main_v101 m ρ c)
theorem tr_main_arg5_0_29 (c : Dev nD) : W29 m ρ c (Proc.devRef .tc main_arg5) = W0 m ρ c (Proc.devRef .tc main_arg5) :=
  (st29_main_arg5 m ρ c).trans ((st28_main_arg5 m ρ c).trans ((st27_main_arg5 m ρ c).trans ((st26_main_arg5 m ρ c).trans ((st25_main_arg5 m ρ c).trans ((st24_main_arg5 m ρ c).trans ((st23_main_arg5 m ρ c).trans ((st22_main_arg5 m ρ c).trans ((st21_main_arg5 m ρ c).trans ((st20_main_arg5 m ρ c).trans ((st19_main_arg5 m ρ c).trans ((st18_main_arg5 m ρ c).trans ((st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c)))))))))))))))))))))))))))))
theorem tr_main_arg6_0_29 (c : Dev nD) : W29 m ρ c (Proc.devRef .tc main_arg6) = W0 m ρ c (Proc.devRef .tc main_arg6) :=
  (st29_main_arg6 m ρ c).trans ((st28_main_arg6 m ρ c).trans ((st27_main_arg6 m ρ c).trans ((st26_main_arg6 m ρ c).trans ((st25_main_arg6 m ρ c).trans ((st24_main_arg6 m ρ c).trans ((st23_main_arg6 m ρ c).trans ((st22_main_arg6 m ρ c).trans ((st21_main_arg6 m ρ c).trans ((st20_main_arg6 m ρ c).trans ((st19_main_arg6 m ρ c).trans ((st18_main_arg6 m ρ c).trans ((st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c)))))))))))))))))))))))))))))
theorem tr_main_v1_1_2_30 (c : Dev nD) : W30 m ρ c (Proc.devRef .tc main_v1_1) = W2 m ρ c (Proc.devRef .tc main_v1_1) :=
  (st30_main_v1_1 m ρ c).trans ((st29_main_v1_1 m ρ c).trans ((st28_main_v1_1 m ρ c).trans ((st27_main_v1_1 m ρ c).trans ((st26_main_v1_1 m ρ c).trans ((st25_main_v1_1 m ρ c).trans ((st24_main_v1_1 m ρ c).trans ((st23_main_v1_1 m ρ c).trans ((st22_main_v1_1 m ρ c).trans ((st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c))))))))))))))))))))))))))))
theorem tr_main_v105_29_30 (c : Dev nD) : W30 m ρ c (Proc.devRef .tc main_v105) = W29 m ρ c (Proc.devRef .tc main_v105) :=
  (st30_main_v105 m ρ c)
theorem tr_main_v1_0_2_31 (c : Dev nD) : W31 m ρ c (Proc.devRef .tc main_v1_0) = W2 m ρ c (Proc.devRef .tc main_v1_0) :=
  (st31_main_v1_0 m ρ c).trans ((st30_main_v1_0 m ρ c).trans ((st29_main_v1_0 m ρ c).trans ((st28_main_v1_0 m ρ c).trans ((st27_main_v1_0 m ρ c).trans ((st26_main_v1_0 m ρ c).trans ((st25_main_v1_0 m ρ c).trans ((st24_main_v1_0 m ρ c).trans ((st23_main_v1_0 m ρ c).trans ((st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c)))))))))))))))))))))))))))))
theorem tr_main_v113_30_31 (c : Dev nD) : W31 m ρ c (Proc.devRef .tc main_v113) = W30 m ρ c (Proc.devRef .tc main_v113) :=
  (st31_main_v113 m ρ c)
theorem tr_main_v93_26_31 (c : Dev nD) : W31 m ρ c (Proc.devRef .tc main_v93) = W26 m ρ c (Proc.devRef .tc main_v93) :=
  (st31_main_v93 m ρ c).trans ((st30_main_v93 m ρ c).trans ((st29_main_v93 m ρ c).trans ((st28_main_v93 m ρ c).trans ((st27_main_v93 m ρ c)))))
theorem tr_main_arg5_0_32 (c : Dev nD) : W32 m ρ c (Proc.devRef .tc main_arg5) = W0 m ρ c (Proc.devRef .tc main_arg5) :=
  (st32_main_arg5 m ρ c).trans ((st31_main_arg5 m ρ c).trans ((st30_main_arg5 m ρ c).trans ((st29_main_arg5 m ρ c).trans ((st28_main_arg5 m ρ c).trans ((st27_main_arg5 m ρ c).trans ((st26_main_arg5 m ρ c).trans ((st25_main_arg5 m ρ c).trans ((st24_main_arg5 m ρ c).trans ((st23_main_arg5 m ρ c).trans ((st22_main_arg5 m ρ c).trans ((st21_main_arg5 m ρ c).trans ((st20_main_arg5 m ρ c).trans ((st19_main_arg5 m ρ c).trans ((st18_main_arg5 m ρ c).trans ((st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c))))))))))))))))))))))))))))))))
theorem tr_main_arg6_0_32 (c : Dev nD) : W32 m ρ c (Proc.devRef .tc main_arg6) = W0 m ρ c (Proc.devRef .tc main_arg6) :=
  (st32_main_arg6 m ρ c).trans ((st31_main_arg6 m ρ c).trans ((st30_main_arg6 m ρ c).trans ((st29_main_arg6 m ρ c).trans ((st28_main_arg6 m ρ c).trans ((st27_main_arg6 m ρ c).trans ((st26_main_arg6 m ρ c).trans ((st25_main_arg6 m ρ c).trans ((st24_main_arg6 m ρ c).trans ((st23_main_arg6 m ρ c).trans ((st22_main_arg6 m ρ c).trans ((st21_main_arg6 m ρ c).trans ((st20_main_arg6 m ρ c).trans ((st19_main_arg6 m ρ c).trans ((st18_main_arg6 m ρ c).trans ((st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c))))))))))))))))))))))))))))))))
theorem tr_main_v1_1_2_33 (c : Dev nD) : W33 m ρ c (Proc.devRef .tc main_v1_1) = W2 m ρ c (Proc.devRef .tc main_v1_1) :=
  (st33_main_v1_1 m ρ c).trans ((st32_main_v1_1 m ρ c).trans ((st31_main_v1_1 m ρ c).trans ((st30_main_v1_1 m ρ c).trans ((st29_main_v1_1 m ρ c).trans ((st28_main_v1_1 m ρ c).trans ((st27_main_v1_1 m ρ c).trans ((st26_main_v1_1 m ρ c).trans ((st25_main_v1_1 m ρ c).trans ((st24_main_v1_1 m ρ c).trans ((st23_main_v1_1 m ρ c).trans ((st22_main_v1_1 m ρ c).trans ((st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c)))))))))))))))))))))))))))))))
theorem tr_main_v117_32_33 (c : Dev nD) : W33 m ρ c (Proc.devRef .tc main_v117) = W32 m ρ c (Proc.devRef .tc main_v117) :=
  (st33_main_v117 m ρ c)
theorem tr_main_v1_0_2_34 (c : Dev nD) : W34 m ρ c (Proc.devRef .tc main_v1_0) = W2 m ρ c (Proc.devRef .tc main_v1_0) :=
  (st34_main_v1_0 m ρ c).trans ((st33_main_v1_0 m ρ c).trans ((st32_main_v1_0 m ρ c).trans ((st31_main_v1_0 m ρ c).trans ((st30_main_v1_0 m ρ c).trans ((st29_main_v1_0 m ρ c).trans ((st28_main_v1_0 m ρ c).trans ((st27_main_v1_0 m ρ c).trans ((st26_main_v1_0 m ρ c).trans ((st25_main_v1_0 m ρ c).trans ((st24_main_v1_0 m ρ c).trans ((st23_main_v1_0 m ρ c).trans ((st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c))))))))))))))))))))))))))))))))
theorem tr_main_v125_33_34 (c : Dev nD) : W34 m ρ c (Proc.devRef .tc main_v125) = W33 m ρ c (Proc.devRef .tc main_v125) :=
  (st34_main_v125 m ρ c)
theorem tr_main_arg5_0_35 (c : Dev nD) : W35 m ρ c (Proc.devRef .tc main_arg5) = W0 m ρ c (Proc.devRef .tc main_arg5) :=
  (st35_main_arg5 m ρ c).trans ((st34_main_arg5 m ρ c).trans ((st33_main_arg5 m ρ c).trans ((st32_main_arg5 m ρ c).trans ((st31_main_arg5 m ρ c).trans ((st30_main_arg5 m ρ c).trans ((st29_main_arg5 m ρ c).trans ((st28_main_arg5 m ρ c).trans ((st27_main_arg5 m ρ c).trans ((st26_main_arg5 m ρ c).trans ((st25_main_arg5 m ρ c).trans ((st24_main_arg5 m ρ c).trans ((st23_main_arg5 m ρ c).trans ((st22_main_arg5 m ρ c).trans ((st21_main_arg5 m ρ c).trans ((st20_main_arg5 m ρ c).trans ((st19_main_arg5 m ρ c).trans ((st18_main_arg5 m ρ c).trans ((st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c)))))))))))))))))))))))))))))))))))
theorem tr_main_arg6_0_35 (c : Dev nD) : W35 m ρ c (Proc.devRef .tc main_arg6) = W0 m ρ c (Proc.devRef .tc main_arg6) :=
  (st35_main_arg6 m ρ c).trans ((st34_main_arg6 m ρ c).trans ((st33_main_arg6 m ρ c).trans ((st32_main_arg6 m ρ c).trans ((st31_main_arg6 m ρ c).trans ((st30_main_arg6 m ρ c).trans ((st29_main_arg6 m ρ c).trans ((st28_main_arg6 m ρ c).trans ((st27_main_arg6 m ρ c).trans ((st26_main_arg6 m ρ c).trans ((st25_main_arg6 m ρ c).trans ((st24_main_arg6 m ρ c).trans ((st23_main_arg6 m ρ c).trans ((st22_main_arg6 m ρ c).trans ((st21_main_arg6 m ρ c).trans ((st20_main_arg6 m ρ c).trans ((st19_main_arg6 m ρ c).trans ((st18_main_arg6 m ρ c).trans ((st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c)))))))))))))))))))))))))))))))))))
theorem tr_main_v1_1_2_36 (c : Dev nD) : W36 m ρ c (Proc.devRef .tc main_v1_1) = W2 m ρ c (Proc.devRef .tc main_v1_1) :=
  (st36_main_v1_1 m ρ c).trans ((st35_main_v1_1 m ρ c).trans ((st34_main_v1_1 m ρ c).trans ((st33_main_v1_1 m ρ c).trans ((st32_main_v1_1 m ρ c).trans ((st31_main_v1_1 m ρ c).trans ((st30_main_v1_1 m ρ c).trans ((st29_main_v1_1 m ρ c).trans ((st28_main_v1_1 m ρ c).trans ((st27_main_v1_1 m ρ c).trans ((st26_main_v1_1 m ρ c).trans ((st25_main_v1_1 m ρ c).trans ((st24_main_v1_1 m ρ c).trans ((st23_main_v1_1 m ρ c).trans ((st22_main_v1_1 m ρ c).trans ((st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c))))))))))))))))))))))))))))))))))
theorem tr_main_v129_35_36 (c : Dev nD) : W36 m ρ c (Proc.devRef .tc main_v129) = W35 m ρ c (Proc.devRef .tc main_v129) :=
  (st36_main_v129 m ρ c)
theorem tr_main_v1_0_2_37 (c : Dev nD) : W37 m ρ c (Proc.devRef .tc main_v1_0) = W2 m ρ c (Proc.devRef .tc main_v1_0) :=
  (st37_main_v1_0 m ρ c).trans ((st36_main_v1_0 m ρ c).trans ((st35_main_v1_0 m ρ c).trans ((st34_main_v1_0 m ρ c).trans ((st33_main_v1_0 m ρ c).trans ((st32_main_v1_0 m ρ c).trans ((st31_main_v1_0 m ρ c).trans ((st30_main_v1_0 m ρ c).trans ((st29_main_v1_0 m ρ c).trans ((st28_main_v1_0 m ρ c).trans ((st27_main_v1_0 m ρ c).trans ((st26_main_v1_0 m ρ c).trans ((st25_main_v1_0 m ρ c).trans ((st24_main_v1_0 m ρ c).trans ((st23_main_v1_0 m ρ c).trans ((st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c)))))))))))))))))))))))))))))))))))
theorem tr_main_v117_32_37 (c : Dev nD) : W37 m ρ c (Proc.devRef .tc main_v117) = W32 m ρ c (Proc.devRef .tc main_v117) :=
  (st37_main_v117 m ρ c).trans ((st36_main_v117 m ρ c).trans ((st35_main_v117 m ρ c).trans ((st34_main_v117 m ρ c).trans ((st33_main_v117 m ρ c)))))
theorem tr_main_v137_36_37 (c : Dev nD) : W37 m ρ c (Proc.devRef .tc main_v137) = W36 m ρ c (Proc.devRef .tc main_v137) :=
  (st37_main_v137 m ρ c)
theorem tr_main_arg5_0_38 (c : Dev nD) : W38 m ρ c (Proc.devRef .tc main_arg5) = W0 m ρ c (Proc.devRef .tc main_arg5) :=
  (st38_main_arg5 m ρ c).trans ((st37_main_arg5 m ρ c).trans ((st36_main_arg5 m ρ c).trans ((st35_main_arg5 m ρ c).trans ((st34_main_arg5 m ρ c).trans ((st33_main_arg5 m ρ c).trans ((st32_main_arg5 m ρ c).trans ((st31_main_arg5 m ρ c).trans ((st30_main_arg5 m ρ c).trans ((st29_main_arg5 m ρ c).trans ((st28_main_arg5 m ρ c).trans ((st27_main_arg5 m ρ c).trans ((st26_main_arg5 m ρ c).trans ((st25_main_arg5 m ρ c).trans ((st24_main_arg5 m ρ c).trans ((st23_main_arg5 m ρ c).trans ((st22_main_arg5 m ρ c).trans ((st21_main_arg5 m ρ c).trans ((st20_main_arg5 m ρ c).trans ((st19_main_arg5 m ρ c).trans ((st18_main_arg5 m ρ c).trans ((st17_main_arg5 m ρ c).trans ((st16_main_arg5 m ρ c).trans ((st15_main_arg5 m ρ c).trans ((st14_main_arg5 m ρ c).trans ((st13_main_arg5 m ρ c).trans ((st12_main_arg5 m ρ c).trans ((st11_main_arg5 m ρ c).trans ((st10_main_arg5 m ρ c).trans ((st9_main_arg5 m ρ c).trans ((st8_main_arg5 m ρ c).trans ((st7_main_arg5 m ρ c).trans ((st6_main_arg5 m ρ c).trans ((st5_main_arg5 m ρ c).trans ((st4_main_arg5 m ρ c).trans ((st3_main_arg5 m ρ c).trans ((st2_main_arg5 m ρ c).trans ((st1_main_arg5 m ρ c))))))))))))))))))))))))))))))))))))))
theorem tr_main_arg6_0_38 (c : Dev nD) : W38 m ρ c (Proc.devRef .tc main_arg6) = W0 m ρ c (Proc.devRef .tc main_arg6) :=
  (st38_main_arg6 m ρ c).trans ((st37_main_arg6 m ρ c).trans ((st36_main_arg6 m ρ c).trans ((st35_main_arg6 m ρ c).trans ((st34_main_arg6 m ρ c).trans ((st33_main_arg6 m ρ c).trans ((st32_main_arg6 m ρ c).trans ((st31_main_arg6 m ρ c).trans ((st30_main_arg6 m ρ c).trans ((st29_main_arg6 m ρ c).trans ((st28_main_arg6 m ρ c).trans ((st27_main_arg6 m ρ c).trans ((st26_main_arg6 m ρ c).trans ((st25_main_arg6 m ρ c).trans ((st24_main_arg6 m ρ c).trans ((st23_main_arg6 m ρ c).trans ((st22_main_arg6 m ρ c).trans ((st21_main_arg6 m ρ c).trans ((st20_main_arg6 m ρ c).trans ((st19_main_arg6 m ρ c).trans ((st18_main_arg6 m ρ c).trans ((st17_main_arg6 m ρ c).trans ((st16_main_arg6 m ρ c).trans ((st15_main_arg6 m ρ c).trans ((st14_main_arg6 m ρ c).trans ((st13_main_arg6 m ρ c).trans ((st12_main_arg6 m ρ c).trans ((st11_main_arg6 m ρ c).trans ((st10_main_arg6 m ρ c).trans ((st9_main_arg6 m ρ c).trans ((st8_main_arg6 m ρ c).trans ((st7_main_arg6 m ρ c).trans ((st6_main_arg6 m ρ c).trans ((st5_main_arg6 m ρ c).trans ((st4_main_arg6 m ρ c).trans ((st3_main_arg6 m ρ c).trans ((st2_main_arg6 m ρ c).trans ((st1_main_arg6 m ρ c))))))))))))))))))))))))))))))))))))))
theorem tr_main_v1_1_2_39 (c : Dev nD) : W39 m ρ c (Proc.devRef .tc main_v1_1) = W2 m ρ c (Proc.devRef .tc main_v1_1) :=
  (st39_main_v1_1 m ρ c).trans ((st38_main_v1_1 m ρ c).trans ((st37_main_v1_1 m ρ c).trans ((st36_main_v1_1 m ρ c).trans ((st35_main_v1_1 m ρ c).trans ((st34_main_v1_1 m ρ c).trans ((st33_main_v1_1 m ρ c).trans ((st32_main_v1_1 m ρ c).trans ((st31_main_v1_1 m ρ c).trans ((st30_main_v1_1 m ρ c).trans ((st29_main_v1_1 m ρ c).trans ((st28_main_v1_1 m ρ c).trans ((st27_main_v1_1 m ρ c).trans ((st26_main_v1_1 m ρ c).trans ((st25_main_v1_1 m ρ c).trans ((st24_main_v1_1 m ρ c).trans ((st23_main_v1_1 m ρ c).trans ((st22_main_v1_1 m ρ c).trans ((st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c)))))))))))))))))))))))))))))))))))))
theorem tr_main_v141_38_39 (c : Dev nD) : W39 m ρ c (Proc.devRef .tc main_v141) = W38 m ρ c (Proc.devRef .tc main_v141) :=
  (st39_main_v141 m ρ c)
theorem tr_main_v1_0_2_40 (c : Dev nD) : W40 m ρ c (Proc.devRef .tc main_v1_0) = W2 m ρ c (Proc.devRef .tc main_v1_0) :=
  (st40_main_v1_0 m ρ c).trans ((st39_main_v1_0 m ρ c).trans ((st38_main_v1_0 m ρ c).trans ((st37_main_v1_0 m ρ c).trans ((st36_main_v1_0 m ρ c).trans ((st35_main_v1_0 m ρ c).trans ((st34_main_v1_0 m ρ c).trans ((st33_main_v1_0 m ρ c).trans ((st32_main_v1_0 m ρ c).trans ((st31_main_v1_0 m ρ c).trans ((st30_main_v1_0 m ρ c).trans ((st29_main_v1_0 m ρ c).trans ((st28_main_v1_0 m ρ c).trans ((st27_main_v1_0 m ρ c).trans ((st26_main_v1_0 m ρ c).trans ((st25_main_v1_0 m ρ c).trans ((st24_main_v1_0 m ρ c).trans ((st23_main_v1_0 m ρ c).trans ((st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c))))))))))))))))))))))))))))))))))))))
theorem tr_main_v141_38_40 (c : Dev nD) : W40 m ρ c (Proc.devRef .tc main_v141) = W38 m ρ c (Proc.devRef .tc main_v141) :=
  (st40_main_v141 m ρ c).trans ((st39_main_v141 m ρ c))
theorem tr_main_v149_39_40 (c : Dev nD) : W40 m ρ c (Proc.devRef .tc main_v149) = W39 m ρ c (Proc.devRef .tc main_v149) :=
  (st40_main_v149 m ρ c)
theorem tr_main_arg7_0_41 (c : Dev nD) : W41 m ρ c (Proc.devRef .tc main_arg7) = W0 m ρ c (Proc.devRef .tc main_arg7) :=
  (st41_main_arg7 m ρ c).trans ((st40_main_arg7 m ρ c).trans ((st39_main_arg7 m ρ c).trans ((st38_main_arg7 m ρ c).trans ((st37_main_arg7 m ρ c).trans ((st36_main_arg7 m ρ c).trans ((st35_main_arg7 m ρ c).trans ((st34_main_arg7 m ρ c).trans ((st33_main_arg7 m ρ c).trans ((st32_main_arg7 m ρ c).trans ((st31_main_arg7 m ρ c).trans ((st30_main_arg7 m ρ c).trans ((st29_main_arg7 m ρ c).trans ((st28_main_arg7 m ρ c).trans ((st27_main_arg7 m ρ c).trans ((st26_main_arg7 m ρ c).trans ((st25_main_arg7 m ρ c).trans ((st24_main_arg7 m ρ c).trans ((st23_main_arg7 m ρ c).trans ((st22_main_arg7 m ρ c).trans ((st21_main_arg7 m ρ c).trans ((st20_main_arg7 m ρ c).trans ((st19_main_arg7 m ρ c).trans ((st18_main_arg7 m ρ c).trans ((st17_main_arg7 m ρ c).trans ((st16_main_arg7 m ρ c).trans ((st15_main_arg7 m ρ c).trans ((st14_main_arg7 m ρ c).trans ((st13_main_arg7 m ρ c).trans ((st12_main_arg7 m ρ c).trans ((st11_main_arg7 m ρ c).trans ((st10_main_arg7 m ρ c).trans ((st9_main_arg7 m ρ c).trans ((st8_main_arg7 m ρ c).trans ((st7_main_arg7 m ρ c).trans ((st6_main_arg7 m ρ c).trans ((st5_main_arg7 m ρ c).trans ((st4_main_arg7 m ρ c).trans ((st3_main_arg7 m ρ c).trans ((st2_main_arg7 m ρ c).trans ((st1_main_arg7 m ρ c)))))))))))))))))))))))))))))))))))))))))
theorem tr_main_arg8_0_41 (c : Dev nD) : W41 m ρ c (Proc.devRef .tc main_arg8) = W0 m ρ c (Proc.devRef .tc main_arg8) :=
  (st41_main_arg8 m ρ c).trans ((st40_main_arg8 m ρ c).trans ((st39_main_arg8 m ρ c).trans ((st38_main_arg8 m ρ c).trans ((st37_main_arg8 m ρ c).trans ((st36_main_arg8 m ρ c).trans ((st35_main_arg8 m ρ c).trans ((st34_main_arg8 m ρ c).trans ((st33_main_arg8 m ρ c).trans ((st32_main_arg8 m ρ c).trans ((st31_main_arg8 m ρ c).trans ((st30_main_arg8 m ρ c).trans ((st29_main_arg8 m ρ c).trans ((st28_main_arg8 m ρ c).trans ((st27_main_arg8 m ρ c).trans ((st26_main_arg8 m ρ c).trans ((st25_main_arg8 m ρ c).trans ((st24_main_arg8 m ρ c).trans ((st23_main_arg8 m ρ c).trans ((st22_main_arg8 m ρ c).trans ((st21_main_arg8 m ρ c).trans ((st20_main_arg8 m ρ c).trans ((st19_main_arg8 m ρ c).trans ((st18_main_arg8 m ρ c).trans ((st17_main_arg8 m ρ c).trans ((st16_main_arg8 m ρ c).trans ((st15_main_arg8 m ρ c).trans ((st14_main_arg8 m ρ c).trans ((st13_main_arg8 m ρ c).trans ((st12_main_arg8 m ρ c).trans ((st11_main_arg8 m ρ c).trans ((st10_main_arg8 m ρ c).trans ((st9_main_arg8 m ρ c).trans ((st8_main_arg8 m ρ c).trans ((st7_main_arg8 m ρ c).trans ((st6_main_arg8 m ρ c).trans ((st5_main_arg8 m ρ c).trans ((st4_main_arg8 m ρ c).trans ((st3_main_arg8 m ρ c).trans ((st2_main_arg8 m ρ c).trans ((st1_main_arg8 m ρ c)))))))))))))))))))))))))))))))))))))))))
theorem tr_main_v1_1_2_42 (c : Dev nD) : W42 m ρ c (Proc.devRef .tc main_v1_1) = W2 m ρ c (Proc.devRef .tc main_v1_1) :=
  (st42_main_v1_1 m ρ c).trans ((st41_main_v1_1 m ρ c).trans ((st40_main_v1_1 m ρ c).trans ((st39_main_v1_1 m ρ c).trans ((st38_main_v1_1 m ρ c).trans ((st37_main_v1_1 m ρ c).trans ((st36_main_v1_1 m ρ c).trans ((st35_main_v1_1 m ρ c).trans ((st34_main_v1_1 m ρ c).trans ((st33_main_v1_1 m ρ c).trans ((st32_main_v1_1 m ρ c).trans ((st31_main_v1_1 m ρ c).trans ((st30_main_v1_1 m ρ c).trans ((st29_main_v1_1 m ρ c).trans ((st28_main_v1_1 m ρ c).trans ((st27_main_v1_1 m ρ c).trans ((st26_main_v1_1 m ρ c).trans ((st25_main_v1_1 m ρ c).trans ((st24_main_v1_1 m ρ c).trans ((st23_main_v1_1 m ρ c).trans ((st22_main_v1_1 m ρ c).trans ((st21_main_v1_1 m ρ c).trans ((st20_main_v1_1 m ρ c).trans ((st19_main_v1_1 m ρ c).trans ((st18_main_v1_1 m ρ c).trans ((st17_main_v1_1 m ρ c).trans ((st16_main_v1_1 m ρ c).trans ((st15_main_v1_1 m ρ c).trans ((st14_main_v1_1 m ρ c).trans ((st13_main_v1_1 m ρ c).trans ((st12_main_v1_1 m ρ c).trans ((st11_main_v1_1 m ρ c).trans ((st10_main_v1_1 m ρ c).trans ((st9_main_v1_1 m ρ c).trans ((st8_main_v1_1 m ρ c).trans ((st7_main_v1_1 m ρ c).trans ((st6_main_v1_1 m ρ c).trans ((st5_main_v1_1 m ρ c).trans ((st4_main_v1_1 m ρ c).trans ((st3_main_v1_1 m ρ c))))))))))))))))))))))))))))))))))))))))
theorem tr_main_v153_41_42 (c : Dev nD) : W42 m ρ c (Proc.devRef .tc main_v153) = W41 m ρ c (Proc.devRef .tc main_v153) :=
  (st42_main_v153 m ρ c)
theorem tr_main_v1_0_2_43 (c : Dev nD) : W43 m ρ c (Proc.devRef .tc main_v1_0) = W2 m ρ c (Proc.devRef .tc main_v1_0) :=
  (st43_main_v1_0 m ρ c).trans ((st42_main_v1_0 m ρ c).trans ((st41_main_v1_0 m ρ c).trans ((st40_main_v1_0 m ρ c).trans ((st39_main_v1_0 m ρ c).trans ((st38_main_v1_0 m ρ c).trans ((st37_main_v1_0 m ρ c).trans ((st36_main_v1_0 m ρ c).trans ((st35_main_v1_0 m ρ c).trans ((st34_main_v1_0 m ρ c).trans ((st33_main_v1_0 m ρ c).trans ((st32_main_v1_0 m ρ c).trans ((st31_main_v1_0 m ρ c).trans ((st30_main_v1_0 m ρ c).trans ((st29_main_v1_0 m ρ c).trans ((st28_main_v1_0 m ρ c).trans ((st27_main_v1_0 m ρ c).trans ((st26_main_v1_0 m ρ c).trans ((st25_main_v1_0 m ρ c).trans ((st24_main_v1_0 m ρ c).trans ((st23_main_v1_0 m ρ c).trans ((st22_main_v1_0 m ρ c).trans ((st21_main_v1_0 m ρ c).trans ((st20_main_v1_0 m ρ c).trans ((st19_main_v1_0 m ρ c).trans ((st18_main_v1_0 m ρ c).trans ((st17_main_v1_0 m ρ c).trans ((st16_main_v1_0 m ρ c).trans ((st15_main_v1_0 m ρ c).trans ((st14_main_v1_0 m ρ c).trans ((st13_main_v1_0 m ρ c).trans ((st12_main_v1_0 m ρ c).trans ((st11_main_v1_0 m ρ c).trans ((st10_main_v1_0 m ρ c).trans ((st9_main_v1_0 m ρ c).trans ((st8_main_v1_0 m ρ c).trans ((st7_main_v1_0 m ρ c).trans ((st6_main_v1_0 m ρ c).trans ((st5_main_v1_0 m ρ c).trans ((st4_main_v1_0 m ρ c).trans ((st3_main_v1_0 m ρ c)))))))))))))))))))))))))))))))))))))))))
theorem tr_main_v157_42_43 (c : Dev nD) : W43 m ρ c (Proc.devRef .tc main_v157) = W42 m ρ c (Proc.devRef .tc main_v157) :=
  (st43_main_v157 m ρ c)
theorem tr_main_v153_41_44 (c : Dev nD) : W44 m ρ c (Proc.devRef .tc main_v153) = W41 m ρ c (Proc.devRef .tc main_v153) :=
  (st44_main_v153 m ρ c).trans ((st43_main_v153 m ρ c).trans ((st42_main_v153 m ρ c)))

end Cert.KernelIdeal.KV

end
-- ==== Proof.Spec.lean ====
/-
  The two programs' layers as functions on matrices of extended reals, and the law that joins them.

  A layer takes node features x (N rows), an adjacency matrix A (N × N), a weight matrix W and a bias b. With
  support = x · W, its first S output columns are the neighbour average A · (support / rowsum A) and the remaining
  columns are support itself; the bias is added to every column. One program divides each support row by the row sum
  of A; the other multiplies it by the reciprocal 1 / rowsum, computed once. On the extended reals x / s and
  x · (1 / s) are both x · s⁻¹ as soon as s ≠ 0, whatever x is (finite or not), and they differ only at s = 0; so where
  every row sum of A is nonzero the two layers are one function, entry by entry, with no finiteness needed. The
  residual step halves a sum: one program multiplies by the constant 1/2, the other divides by 2, which agree on every
  extended real.
-/
import Idealize.ShloMosaic.PureOps.Ideal
import Idealize.ShloMosaic.PureOps.Ideal.Laws

noncomputable section

open scoped BigOperators

namespace Cert.Spec

open Idealize.ShloMosaic

/-- A matrix of extended reals with a rows and b columns. -/
abbrev Mx (a b : ℕ) := Fin a → Fin b → EReal

/-- The float patterns of 1, 0, 1/2 and 2 as they stand in the printed programs. -/
abbrev one : EReal := Ideal.ofBits .f32 0x3F800000#32
abbrev zero : EReal := Ideal.ofBits .f32 0x00000000#32
abbrev half : EReal := Ideal.ofBits .f32 0x3F000000#32
abbrev two : EReal := Ideal.ofBits .f32 0x40000000#32

/-- Row sums of A as the first program takes them: a plain sum along the row. -/
def rowsum {n : ℕ} (A : Mx n n) (i : Fin n) : EReal := ∑ k, A i k

/-- Row sums of A as the second program takes them: the product with a column of ones. -/
def rowsumOnes {n : ℕ} (A : Mx n n) (i : Fin n) : EReal := ∑ k, A i k * one

/-- The layer before its activation, first program: column j < S is ∑ₖ A(p,k) · (support(k,j) · (1 / rowsum k)) + b j,
    column j ≥ S is support(p,j) + b j. -/
def preK (S : ℕ) {n d o : ℕ} (A : Mx n n) (x : Mx n d) (W : Mx d o) (b : Fin o → EReal) : Mx n o :=
  fun p j => if j.val < S then (∑ k, A p k * ((∑ l, x k l * W l j) * Ideal.div one (rowsum A k))) + b j
    else (∑ l, x p l * W l j) + b j

/-- The layer before its activation, second program: column j < S is ∑ₖ A(p,k) · (support(k,j) / rowsum k) + b j. -/
def preR (S : ℕ) {n d o : ℕ} (A : Mx n n) (x : Mx n d) (W : Mx d o) (b : Fin o → EReal) : Mx n o :=
  fun p j => if j.val < S then (∑ k, A p k * Ideal.div (∑ l, x k l * W l j) (rowsumOnes A k)) + b j
    else (∑ l, x p l * W l j) + b j

/-- max(·, 0), entry by entry. -/
def relu {n o : ℕ} (y : Mx n o) : Mx n o := fun p j => max (y p j) zero

/-- The residual step of the first program: (prev + y) · 1/2. -/
def resK {n o : ℕ} (prev y : Mx n o) : Mx n o := fun p j => (prev p j + y p j) * half

/-- The residual step of the second program: (prev + y) / 2. -/
def resR {n o : ℕ} (prev y : Mx n o) : Mx n o := fun p j => Ideal.div (prev p j + y p j) two

theorem one_eq : one = (1 : EReal) := by
  show Ideal.ofBits .f32 0x3F800000#32 = 1
  simp [Ideal.ofBits, Ideal.ieee, -EReal.coe_mul]; norm_num

theorem rowsumOnes_eq {n : ℕ} (A : Mx n n) : rowsumOnes A = rowsum A := by
  funext i
  unfold rowsumOnes rowsum
  exact Finset.sum_congr rfl fun k _ => by rw [one_eq, mul_one]

/-- x · (1 / s) = x / s for s ≠ 0, on every extended real x: both are x · s⁻¹. -/
theorem mul_recip (x s : EReal) (hs : s ≠ 0) : x * Ideal.div one s = Ideal.div x s := by
  unfold Ideal.div
  rw [if_neg hs, if_neg hs, one_eq, one_mul]

/-- Where every row sum of A is nonzero the two layers agree before the activation. -/
theorem preK_eq_preR (S : ℕ) {n d o : ℕ} (A : Mx n n) (x : Mx n d) (W : Mx d o) (b : Fin o → EReal)
    (hA : ∀ k, rowsum A k ≠ 0) : preK S A x W b = preR S A x W b := by
  funext p j
  unfold preK preR
  rw [rowsumOnes_eq]
  split
  · refine congrArg (· + b j) (Finset.sum_congr rfl fun k _ => ?_)
    rw [mul_recip _ _ (hA k)]
  · rfl

theorem half_eq : half = ((1 / 2 : ℝ) : EReal) := by
  show Ideal.ofBits .f32 0x3F000000#32 = _
  simp [Ideal.ofBits, Ideal.ieee, -EReal.coe_mul]; norm_num

theorem two_eq : two = ((2 : ℝ) : EReal) := by
  show Ideal.ofBits .f32 0x40000000#32 = _
  simp [Ideal.ofBits, Ideal.ieee, -EReal.coe_mul]; norm_num

/-- Halving by the constant 1/2 is dividing by 2 on every extended real. -/
theorem resK_eq_resR {n o : ℕ} (prev y : Mx n o) : resK prev y = resR prev y := by
  funext p j
  unfold resK resR
  rw [half_eq, two_eq, Ideal.div_coe (by norm_num : (2 : ℝ) ≠ 0)]

/-- ONE LAYER OF THE FIRST PROGRAM, assembled. It runs in two passes. The first leaves, from x and the two column
    groups of W, the scaled columns sc(k,q) = (∑ₗ x(k,l) · W(l,q)) · inv k and the pass-through columns
    rs(p,q) = ∑ₗ x(p,l) · W(l,S+q) + b(S+q); the second leaves in column q < S the activation of
    ∑ₖ A(p,k) · sc(k,q) + b q and in column S+q the activation of rs(p,q). With inv the reciprocal row sums this is
    the activation of preK, entry by entry. The activation f may depend on the entry (a residual term does). -/
theorem layer_assemble {n d S R O : ℕ} (hO : S + R = O) (A : Mx n n) (x : Mx n d) (W : Mx d O) (b : Fin O → EReal)
    (inv : Fin n → EReal) (hinv : ∀ k, inv k = Ideal.div one (rowsum A k))
    (sc : Mx n S) (hsc : ∀ k (q : Fin S), sc k q = (∑ l, x k l * W l ⟨q.val, by omega⟩) * inv k)
    (rs : Mx n R) (hrs : ∀ p (q : Fin R), rs p q = (∑ l, x p l * W l ⟨S + q.val, by omega⟩) + b ⟨S + q.val, by omega⟩)
    (f : Fin n → Fin O → EReal → EReal) (out : Mx n O)
    (hlo : ∀ p (q : Fin S), out p ⟨q.val, by omega⟩ = f p ⟨q.val, by omega⟩ ((∑ k, A p k * sc k q) + b ⟨q.val, by omega⟩))
    (hhi : ∀ p (q : Fin R), out p ⟨S + q.val, by omega⟩ = f p ⟨S + q.val, by omega⟩ (rs p q))
    (p : Fin n) (j : Fin O) : out p j = f p j (preK S A x W b p j) := by
  unfold preK
  by_cases hj : j.val < S
  · have e : j = ⟨(⟨j.val, hj⟩ : Fin S).val, by omega⟩ := rfl
    rw [if_pos hj, e, hlo p ⟨j.val, hj⟩]
    refine congrArg (f p _) (congrArg (· + b _) (Finset.sum_congr rfl fun k _ => ?_))
    rw [hsc k ⟨j.val, hj⟩, hinv k]
  · have hj' : j.val - S < R := by have := j.isLt; omega
    have e : j = ⟨S + (⟨j.val - S, hj'⟩ : Fin R).val, by have := j.isLt; simp only; omega⟩ := Fin.ext (by simp only; omega)
    rw [if_neg hj]
    conv_lhs => rw [e]
    rw [hhi p ⟨j.val - S, hj'⟩, hrs p ⟨j.val - S, hj'⟩]
    have e2 : (⟨S + (⟨j.val - S, hj'⟩ : Fin R).val, by have := j.isLt; simp only; omega⟩ : Fin O) = j := e.symm
    rw [e2]

end Cert.Spec

end
-- ==== Proof.Net.lean ====
/-
  The whole network as each program composes it from the layer functions, and their equality.

  Fourteen layers over one adjacency matrix A: a first layer on the 960 input columns, a second with the residual of
  the original features, five pairs (a plain layer, then a layer with the residual of the pair's input), one more
  residual layer on its own input, and a last layer of width 3 without activation. The two programs compose the same
  layers; they differ only in how a layer divides by the row sums of A and in how a residual halves, and those agree
  where every row sum of A is nonzero.
-/
import proofs.«405499_j28269474742810_3_alg».proof.Proof.Spec

noncomputable section

namespace Cert.Spec

/-- What both programs are given: the adjacency matrix, the features, the 960-column input, and the weights and
    biases of the first layer, the twelve middle layers and the last layer. -/
structure Params where
  A : Mx 8192 8192
  f0 : Mx 8192 192
  x0 : Mx 8192 960
  W1 : Mx 960 192
  b1 : Fin 192 → EReal
  Wm : Fin 12 → Mx 192 192
  bm : Fin 12 → Fin 192 → EReal
  W15 : Mx 192 3
  b15 : Fin 3 → EReal

variable (P : Params)

/-- A plain middle layer, first program. -/
def plainK (i : Fin 12) (x : Mx 8192 192) : Mx 8192 192 := relu (preK 64 P.A x (P.Wm i) (P.bm i))
/-- A residual middle layer, first program: (prev + layer x) · 1/2. -/
def residK (i : Fin 12) (prev x : Mx 8192 192) : Mx 8192 192 := resK prev (relu (preK 64 P.A x (P.Wm i) (P.bm i)))
def plainR (i : Fin 12) (x : Mx 8192 192) : Mx 8192 192 := relu (preR 64 P.A x (P.Wm i) (P.bm i))
def residR (i : Fin 12) (prev x : Mx 8192 192) : Mx 8192 192 := resR prev (relu (preR 64 P.A x (P.Wm i) (P.bm i)))

def k1 : Mx 8192 192 := relu (preK 64 P.A P.x0 P.W1 P.b1)
def kf1 : Mx 8192 192 := residK P 0 P.f0 (k1 P)
def kf2 : Mx 8192 192 := residK P 2 (kf1 P) (plainK P 1 (kf1 P))
def kf3 : Mx 8192 192 := residK P 4 (kf2 P) (plainK P 3 (kf2 P))
def kf4 : Mx 8192 192 := residK P 6 (kf3 P) (plainK P 5 (kf3 P))
def kf5 : Mx 8192 192 := residK P 8 (kf4 P) (plainK P 7 (kf4 P))
def kf6 : Mx 8192 192 := residK P 10 (kf5 P) (plainK P 9 (kf5 P))
def kf7 : Mx 8192 192 := residK P 11 (kf6 P) (kf6 P)
def kcoords : Mx 8192 3 := preK 2 P.A (kf7 P) P.W15 P.b15

def r1 : Mx 8192 192 := relu (preR 64 P.A P.x0 P.W1 P.b1)
def rf1 : Mx 8192 192 := residR P 0 P.f0 (r1 P)
def rf2 : Mx 8192 192 := residR P 2 (rf1 P) (plainR P 1 (rf1 P))
def rf3 : Mx 8192 192 := residR P 4 (rf2 P) (plainR P 3 (rf2 P))
def rf4 : Mx 8192 192 := residR P 6 (rf3 P) (plainR P 5 (rf3 P))
def rf5 : Mx 8192 192 := residR P 8 (rf4 P) (plainR P 7 (rf4 P))
def rf6 : Mx 8192 192 := residR P 10 (rf5 P) (plainR P 9 (rf5 P))
def rf7 : Mx 8192 192 := residR P 11 (rf6 P) (rf6 P)
def rcoords : Mx 8192 3 := preR 2 P.A (rf7 P) P.W15 P.b15

variable (hA : ∀ k, rowsum P.A k ≠ 0)
include hA

theorem plain_eq (i : Fin 12) (x : Mx 8192 192) : plainK P i x = plainR P i x := by
  unfold plainK plainR; rw [preK_eq_preR _ _ _ _ _ hA]
theorem resid_eq (i : Fin 12) (prev x : Mx 8192 192) : residK P i prev x = residR P i prev x := by
  unfold residK residR; rw [preK_eq_preR _ _ _ _ _ hA, resK_eq_resR]
theorem k1_eq : k1 P = r1 P := by unfold k1 r1; rw [preK_eq_preR _ _ _ _ _ hA]
theorem kf1_eq : kf1 P = rf1 P := by unfold kf1 rf1; rw [k1_eq P hA, resid_eq P hA]
theorem kf2_eq : kf2 P = rf2 P := by unfold kf2 rf2; rw [kf1_eq P hA, plain_eq P hA, resid_eq P hA]
theorem kf3_eq : kf3 P = rf3 P := by unfold kf3 rf3; rw [kf2_eq P hA, plain_eq P hA, resid_eq P hA]
theorem kf4_eq : kf4 P = rf4 P := by unfold kf4 rf4; rw [kf3_eq P hA, plain_eq P hA, resid_eq P hA]
theorem kf5_eq : kf5 P = rf5 P := by unfold kf5 rf5; rw [kf4_eq P hA, plain_eq P hA, resid_eq P hA]
theorem kf6_eq : kf6 P = rf6 P := by unfold kf6 rf6; rw [kf5_eq P hA, plain_eq P hA, resid_eq P hA]
theorem kf7_eq : kf7 P = rf7 P := by unfold kf7 rf7; rw [kf6_eq P hA, resid_eq P hA]
theorem kcoords_eq : kcoords P = rcoords P := by unfold kcoords rcoords; rw [kf7_eq P hA, preK_eq_preR _ _ _ _ _ hA]

end Cert.Spec

end
-- ==== Proof.Params.lean ====
/-
  The network's parameters read off the nine argument arrays, the same for both programs: the adjacency matrix, the
  features, the 960-column input (the features' 192 columns followed by the pooled 768), and the weights and biases.
-/
import proofs.«405499_j28269474742810_3_alg».proof.Proof.Net
import Idealize.ShloMosaic.Lib.Pipeline.Value
import Idealize.ShloMosaic.Lib.ValueIdx

noncomputable section

namespace Cert.Spec

open Idealize.ShloMosaic Idealize.ShloMosaic.ValueIdx

/-- The parameters as entries of the argument arrays. -/
def mkParams (a0 : (⟨2, ![8192, 192]⟩ : Shape).Idx → EReal) (a1 : (⟨2, ![8192, 768]⟩ : Shape).Idx → EReal)
    (a2 : (⟨2, ![8192, 8192]⟩ : Shape).Idx → EReal) (a3 : (⟨2, ![960, 192]⟩ : Shape).Idx → EReal)
    (a4 : (⟨1, ![192]⟩ : Shape).Idx → EReal) (a5 : (⟨3, ![12, 192, 192]⟩ : Shape).Idx → EReal)
    (a6 : (⟨2, ![12, 192]⟩ : Shape).Idx → EReal) (a7 : (⟨2, ![192, 3]⟩ : Shape).Idx → EReal)
    (a8 : (⟨1, ![3]⟩ : Shape).Idx → EReal) : Params where
  A := fun p k => a2 (ix2 p k)
  f0 := fun p l => a0 (ix2 p l)
  x0 := fun p l => if h : l.val < 192 then a0 (ix2 p ⟨l.val, h⟩) else a1 (ix2 p ⟨l.val - 192, by have := l.isLt; omega⟩)
  W1 := fun l j => a3 (ix2 l j)
  b1 := fun j => a4 (ix1 j)
  Wm := fun i l j => a5 (ix3 i l j)
  bm := fun i j => a6 (ix2 i j)
  W15 := fun l j => a7 (ix2 l j)
  b15 := fun j => a8 (ix1 j)

/-- Two column blocks [n, a] and [n, b] laid side by side into [n, c], c = a + b, read at (p, l): the left block for
    l < a, else the right block at column l - a. -/
theorem concat_cols_apply {α : Type} {n a b c : ℕ} (hc : a + b = c) (x : (⟨2, ![n, a]⟩ : Shape).Idx → α)
    (y : (⟨2, ![n, b]⟩ : Shape).Idx → α)
    (h : Shape.Concatenates [⟨2, ![n, a]⟩, ⟨2, ![n, b]⟩] ⟨2, ![n, c]⟩ (1 : Fin 2)) (p : Fin n) (l : Fin c) :
    concatenate ⟨2, ![n, c]⟩ (1 : Fin 2) [⟨⟨2, ![n, a]⟩, x⟩, ⟨⟨2, ![n, b]⟩, y⟩] h (ix2 p l)
      = if hl : l.val < a then x (ix2 p ⟨l.val, hl⟩) else y (ix2 p ⟨l.val - a, by have := l.isLt; omega⟩) := by
  split
  · rename_i hl
    refine concatenate_pair_apply_left (1 : Fin 2) x y h (ix2 p l) rfl (ix2 p ⟨l.val, hl⟩) fun ax => ?_
    match ax with
    | ⟨0, _⟩ => rfl
    | ⟨1, _⟩ => rfl
  · rename_i hl
    refine concatenate_pair_apply_right (1 : Fin 2) x y h (ix2 p l) rfl rfl (ix2 p ⟨l.val - a, by have := l.isLt; omega⟩) (fun ax hax => ?_) ?_
    · match ax with
      | ⟨0, _⟩ => rfl
      | ⟨1, _⟩ => exact absurd rfl hax
    · show (l.val - a) + a = l.val
      omega

/-- The instance the programs use: 192 feature columns and 768 pooled columns side by side in 960. -/
theorem concat_960_apply {α : Type} (x : (⟨2, ![8192, 192]⟩ : Shape).Idx → α) (y : (⟨2, ![8192, 768]⟩ : Shape).Idx → α)
    (h : Shape.Concatenates [⟨2, ![8192, 192]⟩, ⟨2, ![8192, 768]⟩] ⟨2, ![8192, 960]⟩ (1 : Fin 2)) (p : Fin 8192) (l : Fin 960) :
    concatenate ⟨2, ![8192, 960]⟩ (1 : Fin 2) [⟨⟨2, ![8192, 192]⟩, x⟩, ⟨⟨2, ![8192, 768]⟩, y⟩] h (ix2 p l)
      = if hl : l.val < 192 then x (ix2 p ⟨l.val, hl⟩) else y (ix2 p ⟨l.val - 192, by have := l.isLt; omega⟩) :=
  concat_cols_apply (by norm_num) x y h p l

end Cert.Spec

end
-- ==== Proof.KV.Prep.lean ====
/-
  What the first pallas_call leaves, in terms of the launch memory: the copy of the adjacency matrix holds the
  adjacency matrix itself (a change of float format is the identity on the extended reals), and the column beside it
  holds the reciprocal of each row sum.
-/
import proofs.«405499_j28269474742810_3_alg».proof.Proof.KV.R0
import proofs.«405499_j28269474742810_3_alg».proof.Proof.KV.Traces
import proofs.«405499_j28269474742810_3_alg».proof.Proof.Params
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The network's parameters as the launch memory of device c holds them. -/
def P (c : Dev nD) : Cert.Spec.Params :=
  Cert.Spec.mkParams (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The adjacency matrix as the first pallas_call finds it is the launch memory's. -/
theorem adj_entry (c : Dev nD) (p k : Fin 8192) : V1 m ρ c main_arg2 (ix2 p k) = (P m c).A p k :=
  congrFun (tr_main_arg2_0_1 m ρ c) (ix2 p k)

/-- After the first pallas_call the copy holds the adjacency matrix. -/
theorem adjb_W2 (c : Dev nD) (p k : Fin 8192) : V2 m ρ c main_v1_0 (ix2 p k) = (P m c).A p k :=
  (congrFun (W2_arr m ρ c 1) (ix2 p k)).trans ((r0_bf (V1 m ρ) c p k).trans (adj_entry m ρ c p k))

/-- After the first pallas_call the column holds the reciprocal row sums. -/
theorem inv_W2 (c : Dev nD) (p : Fin 8192) :
    V2 m ρ c main_v1_1 (ix2 p (0 : Fin 1)) = Ideal.div Cert.Spec.one (Cert.Spec.rowsum (P m c).A p) :=
  (congrFun (W2_arr m ρ c 2) (ix2 p (0 : Fin 1))).trans ((r0_inv (V1 m ρ) c p).trans
    (congrArg (Ideal.div Cert.Spec.one) (Finset.sum_congr rfl fun k _ => adj_entry m ρ c p k)))

/-- The 960-column input the first layer reads: the features' columns followed by the pooled columns. -/
theorem x0_entry (c : Dev nD) (k : Fin 8192) (l : Fin 960) : V1 m ρ c main_v0 (ix2 k l) = (P m c).x0 k l := by
  have e : V1 m ρ c main_v0 = concatenate S8192x960 1 [⟨S8192x192, m ((c : Thread nD τ).loc main_arg0)⟩, ⟨S8192x768, m ((c : Thread nD τ).loc main_arg1)⟩] concatenates_S8192x192_S8192x768_S8192x960_d1 := by
    show StableHlo.after hostOps0 (W0 m ρ c) (Proc.devRef .tc main_v0) = _
    after_results <;> rfl
  rw [e]
  exact Cert.Spec.concat_960_apply _ _ _ k l

end Cert.KernelIdeal.KV

end
-- ==== Proof.Slices.lean ====
/-
  The weight and bias pieces a layer is given, read at an entry.

  Layer i's weight matrix is page i of a stack [12, 192, 192] (a slice of one page, then the unit axis dropped) and its
  bias row i of [12, 192]; the two column groups of a weight matrix are its columns [0, S) and [S, O); the two bias
  groups are the entries [0, S) and [S, O) of the bias, each laid out as one row [1, ·].
-/
import Idealize.ShloMosaic.Lib.Pipeline.Value
import Idealize.ShloMosaic.Lib.ValueIdx

namespace Cert.Slices

open Idealize.ShloMosaic Idealize.ShloMosaic.ValueIdx

variable {α : Type}

/-- Page i of a stack [n, a, b], the unit axis dropped, at (l, j): the stack's entry (i, l, j). -/
theorem page_apply {n a b : ℕ} (x : (⟨3, ![n, a, b]⟩ : Shape).Idx → α) (i : ℕ) (hi : i < n)
    (h1 : (⟨3, ![n, a, b]⟩ : Shape).Slices ![i, 0, 0] ⟨3, ![1, a, b]⟩)
    (h2 : (⟨3, ![1, a, b]⟩ : Shape).ShapeCasts ⟨2, ![a, b]⟩) (l : Fin a) (j : Fin b) :
    shapeCast ⟨2, ![a, b]⟩ (extractStridedSlice ⟨3, ![1, a, b]⟩ ![i, 0, 0] x h1) h2 (ix2 l j) = x (ix3 ⟨i, hi⟩ l j) := by
  rw [shapeCast_apply _ h2 (ix2 l j) (ix3 (0 : Fin 1) l j) (by
    rw [Shape.rowMajor_val_two, Shape.rowMajor_val_three]
    show (0 * a + l.val) * b + j.val = l.val * b + j.val
    rw [Nat.zero_mul, Nat.zero_add])]
  refine extractStridedSlice_apply _ x h1 _ _ fun ax => ?_
  match ax with
  | ⟨0, _⟩ => show i = i + 0; rfl
  | ⟨1, _⟩ => show l.val = 0 + l.val; exact (Nat.zero_add _).symm
  | ⟨2, _⟩ => show j.val = 0 + j.val; exact (Nat.zero_add _).symm

/-- Row i of [n, a], the unit axis dropped, at j: the entry (i, j). -/
theorem row_apply {n a : ℕ} (x : (⟨2, ![n, a]⟩ : Shape).Idx → α) (i : ℕ) (hi : i < n)
    (h1 : (⟨2, ![n, a]⟩ : Shape).Slices ![i, 0] ⟨2, ![1, a]⟩)
    (h2 : (⟨2, ![1, a]⟩ : Shape).ShapeCasts ⟨1, ![a]⟩) (j : Fin a) :
    shapeCast ⟨1, ![a]⟩ (extractStridedSlice ⟨2, ![1, a]⟩ ![i, 0] x h1) h2 (ix1 j) = x (ix2 ⟨i, hi⟩ j) := by
  rw [shapeCast_apply _ h2 (ix1 j) (ix2 (0 : Fin 1) j) (by
    rw [Shape.rowMajor_val_one, Shape.rowMajor_val_two]
    show 0 * a + j.val = j.val
    rw [Nat.zero_mul, Nat.zero_add])]
  refine extractStridedSlice_apply _ x h1 _ _ fun ax => ?_
  match ax with
  | ⟨0, _⟩ => show i = i + 0; rfl
  | ⟨1, _⟩ => show j.val = 0 + j.val; exact (Nat.zero_add _).symm

/-- Columns [o, o + s) of a matrix [a, b] at (l, q): the matrix's entry (l, o + q). -/
theorem cols_apply {a b s : ℕ} (x : (⟨2, ![a, b]⟩ : Shape).Idx → α) (o : ℕ)
    (h : (⟨2, ![a, b]⟩ : Shape).Slices ![0, o] ⟨2, ![a, s]⟩) (l : Fin a) (q : Fin s) (hq : o + q.val < b) :
    extractStridedSlice ⟨2, ![a, s]⟩ ![0, o] x h (ix2 l q) = x (ix2 l ⟨o + q.val, hq⟩) := by
  refine extractStridedSlice_apply _ x h _ _ fun ax => ?_
  match ax with
  | ⟨0, _⟩ => show l.val = 0 + l.val; exact (Nat.zero_add _).symm
  | ⟨1, _⟩ => rfl

/-- Entries [o, o + s) of a vector [b], laid out as one row [1, s], at (0, q): the vector's entry o + q. -/
theorem seg_row_apply {b s : ℕ} (x : (⟨1, ![b]⟩ : Shape).Idx → α) (o : ℕ)
    (h1 : (⟨1, ![b]⟩ : Shape).Slices ![o] ⟨1, ![s]⟩) (h2 : (⟨1, ![s]⟩ : Shape).ShapeCasts ⟨2, ![1, s]⟩)
    (u : Fin 1) (q : Fin s) (hq : o + q.val < b) :
    shapeCast ⟨2, ![1, s]⟩ (extractStridedSlice ⟨1, ![s]⟩ ![o] x h1) h2 (ix2 u q) = x (ix1 ⟨o + q.val, hq⟩) := by
  rw [shapeCast_apply _ h2 (ix2 u q) (ix1 q) (by
    have hu : u.val = 0 := by omega
    rw [Shape.rowMajor_val_one, Shape.rowMajor_val_two]
    show q.val = u.val * s + q.val
    rw [hu, Nat.zero_mul, Nat.zero_add])]
  refine extractStridedSlice_apply _ x h1 _ _ fun ax => ?_
  match ax with
  | ⟨0, _⟩ => rfl

end Cert.Slices
-- ==== Proof.KV.L1.lean ====
/-
  Layer 1 of the first program (the first layer, on the 960 input columns): what its two
  pallas_calls leave in the output array, entry by entry, is the layer's specification applied to the entries of its input array.
-/
import proofs.«405499_j28269474742810_3_alg».proof.Proof.KV.R1
import proofs.«405499_j28269474742810_3_alg».proof.Proof.KV.R2
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L1_w (c : Dev nD) : V2 m ρ c main_arg3 = m ((c : Thread nD τ).loc main_arg3) := tr_main_arg3_0_2 m ρ c
theorem L1_b (c : Dev nD) : V2 m ρ c main_arg4 = m ((c : Thread nD τ).loc main_arg4) := tr_main_arg4_0_2 m ρ c

/-- The scaled column group of the layer's weights, at an entry. -/
theorem L1_ws (c : Dev nD) (l : Fin 960) (q : Fin 64) : V3 m ρ c main_v2 (ix2 l q) = (P m c).W1 l ⟨q.val, by omega⟩ := by
  have e : V3 m ρ c main_v2 = extractStridedSlice S960x64 ![0, 0] (V2 m ρ c main_arg3) slices_S960x192_S960x64_0_0 := by
    show StableHlo.after hostOps1 (W2 m ρ c) (Proc.devRef .tc main_v2) = _
    after_results <;> rfl
  rw [e, Cert.Slices.cols_apply _ 0 _ l q (by omega), L1_w]
  show _ = m ((c : Thread nD τ).loc main_arg3) (ix2 l ⟨q.val, by omega⟩)
  congr 2
  exact Fin.ext (Nat.zero_add _)

/-- The pass-through column group of the layer's weights, at an entry. -/
theorem L1_wr (c : Dev nD) (l : Fin 960) (q : Fin 128) : V3 m ρ c main_v3 (ix2 l q) = (P m c).W1 l ⟨64 + q.val, by omega⟩ := by
  have e : V3 m ρ c main_v3 = extractStridedSlice S960x128 ![0, 64] (V2 m ρ c main_arg3) slices_S960x192_S960x128_0_64 := by
    show StableHlo.after hostOps1 (W2 m ρ c) (Proc.devRef .tc main_v3) = _
    after_results <;> rfl
  rw [e, Cert.Slices.cols_apply _ 64 _ l q (by omega), L1_w]
  rfl

/-- The bias of the scaled columns, one row, at an entry. -/
theorem L1_bs (c : Dev nD) (q : Fin 64) : V3 m ρ c main_v5 (ix2 (0 : Fin 1) q) = (P m c).b1 ⟨q.val, by omega⟩ := by
  have e : V3 m ρ c main_v5 = shapeCast S1x64 (extractStridedSlice S64 ![0] (V2 m ρ c main_arg4) slices_S192_S64_0) shapeCasts_S64_S1x64 := by
    show StableHlo.after hostOps1 (W2 m ρ c) (Proc.devRef .tc main_v5) = _
    after_results <;> rfl
  rw [e, Cert.Slices.seg_row_apply _ 0 _ _ (0 : Fin 1) q (by omega), L1_b]
  show _ = m ((c : Thread nD τ).loc main_arg4) (ix1 ⟨q.val, by omega⟩)
  congr 2
  exact Fin.ext (Nat.zero_add _)

/-- The bias of the pass-through columns, one row, at an entry. -/
theorem L1_br (c : Dev nD) (q : Fin 128) : V3 m ρ c main_v7 (ix2 (0 : Fin 1) q) = (P m c).b1 ⟨64 + q.val, by omega⟩ := by
  have e : V3 m ρ c main_v7 = shapeCast S1x128 (extractStridedSlice S128 ![64] (V2 m ρ c main_arg4) slices_S192_S128_64) shapeCasts_S128_S1x128 := by
    show StableHlo.after hostOps1 (W2 m ρ c) (Proc.devRef .tc main_v7) = _
    after_results <;> rfl
  rw [e, Cert.Slices.seg_row_apply _ 64 _ _ (0 : Fin 1) q (by omega), L1_b]
  rfl

/-- THE LAYER: the output array after its second pallas_call, at (p, j), is the layer's specification of the input array's entries. -/
theorem L1_out (c : Dev nD) (x : Cert.Spec.Mx 8192 960) (hx : ∀ k l, V1 m ρ c main_v0 (ix2 k l) = x k l)
    (p : Fin 8192) (j : Fin 192) : V5 m ρ c main_v9 (ix2 p j) = Cert.Spec.relu (Cert.Spec.preK 64 (P m c).A x (P m c).W1 (P m c).b1) p j := by
  unfold Cert.Spec.relu
  refine Cert.Spec.layer_assemble (S := 64) (R := 128) (O := 192) rfl (P m c).A x (P m c).W1 (P m c).b1
    (fun k => V3 m ρ c main_v1_1 (ix2 k (0 : Fin 1))) (fun k => ?hinv)
    (fun k q => V4 m ρ c main_v8_0 (ix2 k q)) (fun k q => ?hsc)
    (fun p q => V4 m ρ c main_v8_1 (ix2 p q)) (fun p q => ?hrs)
    (fun _ _ y => max y Cert.Spec.zero) (fun p j => V5 m ρ c main_v9 (ix2 p j)) (fun p q => ?hlo) (fun p q => ?hhi) p j
  case hinv =>
    exact (congrFun (tr_main_v1_1_2_3 m ρ c) (ix2 k (0 : Fin 1))).trans (inv_W2 m ρ c k)
  case hsc =>
    refine (congrFun (W4_arr m ρ c 5) (ix2 k q)).trans ((r1_scaled (V3 m ρ) c k q).trans ?_)
    refine congrArg (· * _) (Finset.sum_congr rfl fun l _ => ?_)
    exact congrArg₂ (· * ·) ((congrFun (tr_main_v0_1_3 m ρ c) (ix2 k l)).trans (hx k l)) (L1_ws m ρ c l q)
  case hrs =>
    refine (congrFun (W4_arr m ρ c 6) (ix2 p q)).trans ((r1_resid (V3 m ρ) c p q).trans ?_)
    refine congrArg₂ (· + ·) (Finset.sum_congr rfl fun l _ => ?_) (L1_br m ρ c q)
    exact congrArg₂ (· * ·) ((congrFun (tr_main_v0_1_3 m ρ c) (ix2 p l)).trans (hx p l)) (L1_wr m ρ c l q)
  case hlo =>
    refine (congrFun (W5_arr m ρ c 4) (ix2 p _)).trans ((r2_lo (V4 m ρ) c p q).trans ?_)
    refine congrArg (fun y : EReal => max y _) ?_
    refine congrArg₂ (· + ·) (Finset.sum_congr rfl fun k _ => ?_)
      ((congrFun (tr_main_v5_3_4 m ρ c) (ix2 (0 : Fin 1) q)).trans (L1_bs m ρ c q))
    exact congrArg (· * _) ((congrFun (tr_main_v1_0_2_4 m ρ c) (ix2 p k)).trans (adjb_W2 m ρ c p k))
  case hhi =>
    exact (congrFun (W5_arr m ρ c 4) (ix2 p _)).trans (r2_hi (V4 m ρ) c p q)

end Cert.KernelIdeal.KV

end
-- ==== Proof.KV.R3.lean ====
/-
  Region 3 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg3
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz3 : (![0, 0] : Fin 2 → Nat) = fun _ => 0 := funext fun a => by fin_cases a <;> rfl

/-! ## The payloads at an index -/

/-- The generated dimension record of the [2048,192]·[192,64] product is the plain one. -/
theorem dot3_scaled_eq : dot_S2048x192_S192x64_S2048x64_1_0_0_1_n_n = DotDims.plain 2048 192 64 := rfl
/-- The generated dimension record of the [2048,192]·[192,128] product is the plain one. -/
theorem dot3_resid_eq : dot_S2048x192_S192x128_S2048x128_1_0_0_1_n_n = DotDims.plain 2048 192 128 := rfl

/-- The narrowed copy of the x block is the x block (a format change is the identity on extended reals). -/
theorem xcast3_eq (v0 : FVec Ideal S2048x192 .f32) : k3_pay1 (F := Ideal) v0 = v0 := by
  unfold k3_pay1
  exact shapeCast_self v0 _

/-- The scaled payload at (a, b): (∑ₗ x(a, l) · W₁(l, b)) · s(a, 0). -/
theorem scaled3_pay_apply (v0 : FVec Ideal S2048x192 .f32) (v3 : FVec Ideal S192x64 .f32) (v11 : FVec Ideal S2048x1 .f32)
    (a : Fin 2048) (b : Fin 64) :
    k3_pay3 (F := Ideal) v0 v3 v11 (ix2 a b) = (∑ l : Fin 192, v0 (ix2 a l) * v3 (ix2 l b)) * v11 (ix2 a (0 : Fin 1)) := by
  unfold k3_pay3
  simp only [xcast3_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot3_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid3_pay_apply (v0 : FVec Ideal S2048x192 .f32) (v6 : FVec Ideal S192x128 .f32) (v15 : FVec Ideal S1x128 .f32)
    (a : Fin 2048) (b : Fin 128) :
    k3_pay2 (F := Ideal) v0 v6 v15 (ix2 a b) = (∑ l : Fin 192, v0 (ix2 a l) * v6 (ix2 l b)) + v15 (ix2 (0 : Fin 1) b) := by
  unfold k3_pay2
  simp only [xcast3_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot3_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin3 (c : Dev nD) : FVec Ideal S8192x192 .f32 := V c (Pipeline.arrRef spec3 0)
/-- The weight's scaled column group W₁. -/
abbrev wsc3 (c : Dev nD) : FVec Ideal S192x64 .f32 := V c (Pipeline.arrRef spec3 1)
/-- The weight's residual column group W₂. -/
abbrev wre3 (c : Dev nD) : FVec Ideal S192x128 .f32 := V c (Pipeline.arrRef spec3 2)
/-- The bias row b. -/
abbrev bia3 (c : Dev nD) : FVec Ideal S1x128 .f32 := V c (Pipeline.arrRef spec3 3)
/-- The column s of inverse row sums. -/
abbrev inv3 (c : Dev nD) : FVec Ideal S8192x1 .f32 := V c (Pipeline.arrRef spec3 4)

/-- Entry (p, q) of the scaled output. -/
def scaledAt3 (c : Dev nD) (p : Fin 8192) (q : Fin 64) : EReal :=
  (∑ l : Fin 192, xin3 V c (ix2 p l) * wsc3 V c (ix2 l q)) * inv3 V c (ix2 p (0 : Fin 1))

/-- Entry (p, q) of the residual output. -/
def residAt3 (c : Dev nD) (p : Fin 8192) (q : Fin 128) : EReal :=
  (∑ l : Fin 192, xin3 V c (ix2 p l) * wre3 V c (ix2 l q)) + bia3 V c (ix2 (0 : Fin 1) q)

/-- What the scaled output ends holding. -/
abbrev G3_5 (c : Dev nD) : FVec Ideal S8192x64 .bf16 := fun i => scaledAt3 V c ⟨(i 0).val, idx2_lt0 i⟩ ⟨(i 1).val, idx2_lt1 i⟩
/-- What the residual output ends holding. -/
abbrev G3_6 (c : Dev nD) : FVec Ideal S8192x128 .f32 := fun i => residAt3 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts3 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = win3_5.index t (0 : Fin 2) ∧ win3_4.index t (1 : Fin 2) = 0
    ∧ win3_5.index t (1 : Fin 2) = 0
    ∧ win3_6.index t (0 : Fin 2) = win3_5.index t (0 : Fin 2) ∧ win3_6.index t (1 : Fin 2) = 0
    ∧ win3_5.index t (0 : Fin 2) < 4 :=
  (by decide +kernel : ∀ t : Fin grid3.N, _)

/-- Every row block is some point's, for the scaled output … -/
theorem idx_onto3_5 : ∀ q0 : Fin 4, ∃ t : Fin cfg3.N, win3_5.index t = ![q0.val, 0] :=
  (by decide +kernel : ∀ q0 : Fin 4, ∃ t : Fin grid3.N, win3_5.index t = ![q0.val, 0])

/-- … and for the residual output. -/
theorem idx_onto3_6 : ∀ q0 : Fin 4, ∃ t : Fin cfg3.N, win3_6.index t = ![q0.val, 0] :=
  (by decide +kernel : ∀ q0 : Fin 4, ∃ t : Fin grid3.N, win3_6.index t = ![q0.val, 0])

/-! ## Output window 5: the scaled output -/

/-- WHAT POINT t WRITES BACK is block t of the scaled output's function of the arrays. -/
theorem flushed3_5_eq (c : Dev nD) (t : Fin cfg3.N) :
    (dat3 (F := Ideal) V c).flushed 5 t = ((cfg3.win 5).blk t).view.read (Elt Ideal) (G3_5 V c) := by
  show (cfg3.win 5).cut (grid3.coords t) ((dat3 (F := Ideal) V c).after 5 t) = _
  rw [after3_5]
  unfold out3_5
  rw [View.canon_unit_zero hz3]
  simp only [View.ld_unit_zero (S := S2048x192) hz3, View.ld_unit_zero (S := S192x64) hz3, View.ld_unit_zero (S := S2048x1) hz3]
  obtain ⟨e00, e01, e10, e11, e20, e21, e30, e31, e40, e41, e51, e60, e61, e5⟩ := idx_facts3 t
  funext j
  obtain ⟨a, b, rfl⟩ : ∃ (a : Fin 2048) (b : Fin 64), j = ix2 a b := ⟨j 0, j 1, eq_ix2 j⟩
  refine (scaled3_pay_apply (iblk3 V c 0 t) (iblk3 V c 1 t) (iblk3 V c 4 t) a b).trans ?_
  show (∑ l : Fin 192, xin3 V c (((cfg3.win 0).blk t).view.emb (ix2 a l)) * wsc3 V c (((cfg3.win 1).blk t).view.emb (ix2 l b)))
      * inv3 V c (((cfg3.win 4).blk t).view.emb (ix2 a (0 : Fin 1)))
    = scaledAt3 V c ⟨((((cfg3.win 5).blk t).view.emb (ix2 a b)) 0).val, _⟩ ⟨((((cfg3.win 5).blk t).view.emb (ix2 a b)) 1).val, _⟩
  unfold scaledAt3
  refine congr (congrArg _ (Finset.sum_congr rfl fun l _ => congr (congrArg _ (congrArg _ ?_)) (congrArg _ ?_))) (congrArg _ ?_)
  · funext d; apply Fin.ext
    match d with
    | ⟨0, _⟩ => show win3_0.index t (0 : Fin 2) * 2048 + 1 * a.val = win3_5.index t (0 : Fin 2) * 2048 + 1 * a.val; omega
    | ⟨1, _⟩ => show win3_0.index t (1 : Fin 2) * 192 + 1 * l.val = l.val; omega
  · funext d; apply Fin.ext
    match d with
    | ⟨0, _⟩ => show win3_1.index t (0 : Fin 2) * 192 + 1 * l.val = l.val; omega
    | ⟨1, _⟩ => show win3_1.index t (1 : Fin 2) * 64 + 1 * b.val = win3_5.index t (1 : Fin 2) * 64 + 1 * b.val; omega
  · funext d; apply Fin.ext
    match d with
    | ⟨0, _⟩ => show win3_4.index t (0 : Fin 2) * 2048 + 1 * a.val = win3_5.index t (0 : Fin 2) * 2048 + 1 * a.val; omega
    | ⟨1, _⟩ => show win3_4.index t (1 : Fin 2) * 1 + 1 * 0 = 0; omega

/-- An index of the scaled output is in point t's block iff each coordinate is in the block's range on its axis. -/
theorem mem_blk3_5 (t : Fin cfg3.N) (i : S8192x64.Idx) :
    i ∈ ((cfg3.win 5).blk t).view.set ↔ ∀ a : Fin 2, win3_5.index t a * S2048x64.size a ≤ (i a).val ∧ (i a).val < win3_5.index t a * S2048x64.size a + S2048x64.size a := by
  show i ∈ ((View.whole (Pipeline.arrRef spec3 5)).slice (win3_5.rect t)).set ↔ _
  rw [View.set_slice_whole, Rect.mem_set_unit]
  exact Iff.rfl

/-- Every index is in the block of the point of its row block, row / 2048. -/
theorem covered3_5 (i : S8192x64.Idx) :
    ∃ t : Fin cfg3.N, (cfg3.win 5).flush t = true ∧ i ∈ ((cfg3.win 5).blk t).view.set := by
  have hi0 : (i 0).val < 8192 := (i 0).isLt
  have hi1 : (i 1).val < 64 := (i 1).isLt
  obtain ⟨t, ht⟩ := idx_onto3_5 ⟨(i 0).val / 2048, by omega⟩
  have q0 : win3_5.index t (0 : Fin 2) = (i 0).val / 2048 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 2048 ≤ (i 0).val ∧ (i 0).val < win3_5.index t (0 : Fin 2) * 2048 + 2048; omega
  | ⟨1, _⟩ => show win3_5.index t (1 : Fin 2) * 64 ≤ (i 1).val ∧ (i 1).val < win3_5.index t (1 : Fin 2) * 64 + 64; omega

/-- THE SCALED OUTPUT after the region. -/
theorem arr3_5 (c : Dev nD) : (dat3 (F := Ideal) V c).arrAt 5 cfg3.N = G3_5 V c :=
  (dat3 (F := Ideal) V c).arrAt_eq_of_cover 5 (G3_5 V c) (fun t _ => flushed3_5_eq V c t) covered3_5

theorem r3_scaled (c : Dev nD) (p : Fin 8192) (q : Fin 64) :
    (dat3 (F := Ideal) V c).arrAt 5 cfg3.N (ix2 p q)
      = (∑ l : Fin 192, xin3 V c (ix2 p l) * wsc3 V c (ix2 l q)) * inv3 V c (ix2 p (0 : Fin 1)) :=
  congrFun (arr3_5 V c) (ix2 p q)

/-! ## Output window 6: the residual output -/

/-- WHAT POINT t WRITES BACK is block t of the residual output's function of the arrays. -/
theorem flushed3_6_eq (c : Dev nD) (t : Fin cfg3.N) :
    (dat3 (F := Ideal) V c).flushed 6 t = ((cfg3.win 6).blk t).view.read (Elt Ideal) (G3_6 V c) := by
  show (cfg3.win 6).cut (grid3.coords t) ((dat3 (F := Ideal) V c).after 6 t) = _
  rw [after3_6]
  unfold out3_6
  rw [View.canon_unit_zero hz3]
  simp only [View.ld_unit_zero (S := S2048x192) hz3, View.ld_unit_zero (S := S192x128) hz3, View.ld_unit_zero (S := S1x128) hz3]
  obtain ⟨e00, e01, e10, e11, e20, e21, e30, e31, e40, e41, e51, e60, e61, e5⟩ := idx_facts3 t
  funext j
  obtain ⟨a, b, rfl⟩ : ∃ (a : Fin 2048) (b : Fin 128), j = ix2 a b := ⟨j 0, j 1, eq_ix2 j⟩
  refine (resid3_pay_apply (iblk3 V c 0 t) (iblk3 V c 2 t) (iblk3 V c 3 t) a b).trans ?_
  show (∑ l : Fin 192, xin3 V c (((cfg3.win 0).blk t).view.emb (ix2 a l)) * wre3 V c (((cfg3.win 2).blk t).view.emb (ix2 l b)))
      + bia3 V c (((cfg3.win 3).blk t).view.emb (ix2 (0 : Fin 1) b))
    = residAt3 V c ⟨((((cfg3.win 6).blk t).view.emb (ix2 a b)) 0).val, _⟩ ⟨((((cfg3.win 6).blk t).view.emb (ix2 a b)) 1).val, _⟩
  unfold residAt3
  refine congr (congrArg _ (Finset.sum_congr rfl fun l _ => congr (congrArg _ (congrArg _ ?_)) (congrArg _ ?_))) (congrArg _ ?_)
  · funext d; apply Fin.ext
    match d with
    | ⟨0, _⟩ => show win3_0.index t (0 : Fin 2) * 2048 + 1 * a.val = win3_6.index t (0 : Fin 2) * 2048 + 1 * a.val; omega
    | ⟨1, _⟩ => show win3_0.index t (1 : Fin 2) * 192 + 1 * l.val = l.val; omega
  · funext d; apply Fin.ext
    match d with
    | ⟨0, _⟩ => show win3_2.index t (0 : Fin 2) * 192 + 1 * l.val = l.val; omega
    | ⟨1, _⟩ => show win3_2.index t (1 : Fin 2) * 128 + 1 * b.val = win3_6.index t (1 : Fin 2) * 128 + 1 * b.val; omega
  · funext d; apply Fin.ext
    match d with
    | ⟨0, _⟩ => show win3_3.index t (0 : Fin 2) * 1 + 1 * 0 = 0; omega
    | ⟨1, _⟩ => show win3_3.index t (1 : Fin 2) * 128 + 1 * b.val = win3_6.index t (1 : Fin 2) * 128 + 1 * b.val; omega

/-- An index of the residual output is in point t's block iff each coordinate is in the block's range on its axis. -/
theorem mem_blk3_6 (t : Fin cfg3.N) (i : S8192x128.Idx) :
    i ∈ ((cfg3.win 6).blk t).view.set ↔ ∀ a : Fin 2, win3_6.index t a * S2048x128.size a ≤ (i a).val ∧ (i a).val < win3_6.index t a * S2048x128.size a + S2048x128.size a := by
  show i ∈ ((View.whole (Pipeline.arrRef spec3 6)).slice (win3_6.rect t)).set ↔ _
  rw [View.set_slice_whole, Rect.mem_set_unit]
  exact Iff.rfl

/-- Every index is in the block of the point of its row block, row / 2048. -/
theorem covered3_6 (i : S8192x128.Idx) :
    ∃ t : Fin cfg3.N, (cfg3.win 6).flush t = true ∧ i ∈ ((cfg3.win 6).blk t).view.set := by
  have hi0 : (i 0).val < 8192 := (i 0).isLt
  have hi1 : (i 1).val < 128 := (i 1).isLt
  obtain ⟨t, ht⟩ := idx_onto3_6 ⟨(i 0).val / 2048, by omega⟩
  have q0 : win3_6.index t (0 : Fin 2) = (i 0).val / 2048 := congrFun ht 0
  have q1 : win3_6.index t (1 : Fin 2) = 0 := congrFun ht 1
  refine ⟨t, flush3_6 t, ?_⟩
  rw [mem_blk3_6]
  intro a
  match a with
  | ⟨0, _⟩ => show win3_6.index t (0 : Fin 2) * 2048 ≤ (i 0).val ∧ (i 0).val < win3_6.index t (0 : Fin 2) * 2048 + 2048; omega
  | ⟨1, _⟩ => show win3_6.index t (1 : Fin 2) * 128 ≤ (i 1).val ∧ (i 1).val < win3_6.index t (1 : Fin 2) * 128 + 128; omega

/-- THE RESIDUAL OUTPUT after the region. -/
theorem arr3_6 (c : Dev nD) : (dat3 (F := Ideal) V c).arrAt 6 cfg3.N = G3_6 V c :=
  (dat3 (F := Ideal) V c).arrAt_eq_of_cover 6 (G3_6 V c) (fun t _ => flushed3_6_eq V c t) covered3_6

theorem r3_resid (c : Dev nD) (p : Fin 8192) (q : Fin 128) :
    (dat3 (F := Ideal) V c).arrAt 6 cfg3.N (ix2 p q)
      = (∑ l : Fin 192, xin3 V c (ix2 p l) * wre3 V c (ix2 l q)) + bia3 V c (ix2 (0 : Fin 1) q) :=
  congrFun (arr3_6 V c) (ix2 p q)

end Cert.KernelIdeal.KV

end
-- ==== Proof.KV.R4.lean ====
/-
  Region 4, an aggregation layer with rectifier and the residual average: what its output array holds after the region,
  entry by entry, as a function of the arrays the region finds.

  The body writes its output block [1024, 192] by two column slices: columns [0, 64) hold
  (H + max(A·S + b, 0))·½ and columns [64, 192) hold (H + max(R, 0))·½, where A is the row block of the adjacency, S the
  scaled features, b the bias row broadcast over the rows, R the row block of the other feature group, and H the same
  columns of the row block of the previous layer's features. The two slices are disjoint and cover the block, so each
  entry of the block is the payload of the slice that holds it. Row block t of the output array is written by grid
  point t (8 points of 1024 rows), and the points' blocks cover the array.
-/
import proofs.«405499_j28269474742810_3_alg».proof.Proof.Fr.KernelIdeal.Reg4
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r4_hz : (![0, 0] : Fin 2 → Nat) = fun _ => 0 := funext fun a => match a with | ⟨0, _⟩ => rfl | ⟨1, _⟩ => rfl

/-- The product's dimension numbers are those of a plain M×K by K×N product. -/
theorem r4_dot_plain : dot_S1024x8192_S8192x64_S1024x64_1_0_0_1_n_n = DotDims.plain 1024 8192 64 := rfl

/-- Columns [0, 64) at entry (a, b): the previous features' entry plus the rectified (product's entry plus the bias of
    column b), halved. -/
theorem r4_pay1_apply (x0 : Vec Ideal S1024x8192 .bf16) (x1 : Vec Ideal S8192x64 .bf16) (x3 : Vec Ideal S1x64 .f32)
    (u : Vec Ideal S1024x64 .f32) (a : Fin 1024) (b : Fin 64) :
    k4_pay1 (F := Ideal) x0 x1 x3 u (ix2 a b)
      = (u (ix2 a b) + max ((∑ k : Fin 8192, x0 (ix2 a k) * x1 (ix2 k b)) + x3 (ix2 (0 : Fin 1) b)) (Ideal.ofBits .f32 0x00000000#32))
          * Ideal.ofBits .f32 0x3F000000#32 := by
  unfold k4_pay1
  simp only [shapeCast_self]
  show (u (ix2 a b) + max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32)) * Ideal.ofBits .f32 0x3F000000#32 = _
  rw [r4_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the previous features' entry plus the other feature group's rectified entry, halved. -/
theorem r4_pay2_apply (x2 : Vec Ideal S1024x128 .f32) (u : Vec Ideal S1024x128 .f32) (a : Fin 1024) (b : Fin 128) :
    k4_pay2 (F := Ideal) x2 u (ix2 a b)
      = (u (ix2 a b) + max (x2 (ix2 a b)) (Ideal.ofBits .f32 0x00000000#32)) * Ideal.ofBits .f32 0x3F000000#32 := by
  unfold k4_pay2
  simp only [shapeCast_self]
  rfl

/-! ## What the body leaves in the output block: each entry is the payload of the slice that holds it -/

/-- An entry in columns [0, 64): off the later slice, under the earlier one. -/
theorem r4_out_lo (c : Dev nD) (i : grid4.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 64) (hy0 : (y 0).val = a.val) (hy1 : (y 1).val = b.val) :
    out4_A_5 (F := Ideal) c i a1 h1 a2 h2 a3 h3 a4 h4 a5 h5 a6 h6 x0 x1 x2 x3 x4 y
      = k4_pay1 (F := Ideal) x0 x1 x3
          (View.ld x4 (Rect.unit (s := S1024x192) ![0, 0] S1024x64.size inb_S1024x192_S1024x64_0_0)) (ix2 a b) := by
  unfold out4_A_5
  rw [View.read_writes_eq_canon _ _ _ (cover4_A_5 c i a1 h1 a2 h2 a3 h3 a4 h4 a5 h5 a6 h6 x0 x1 x2 x3 x4)]
  unfold kernelRun4_A
  dsimp only
  sl_unfold_words
  simp only [View.readAt_eq_ld, h1.read_unread, h2.read_unread, h3.read_unread, h4.read_unread, h5.read_unread,
    View.ld_unit_zero (S := S1024x8192) r4_hz, View.ld_unit_zero (S := S8192x64) r4_hz,
    View.ld_unit_zero (S := S1024x128) r4_hz, View.ld_unit_zero (S := S1x64) r4_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r4_out_hi (c : Dev nD) (i : grid4.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 128) (hy0 : (y 0).val = a.val) (hy1 : (y 1).val = 64 + b.val) :
    out4_A_5 (F := Ideal) c i a1 h1 a2 h2 a3 h3 a4 h4 a5 h5 a6 h6 x0 x1 x2 x3 x4 y
      = k4_pay2 (F := Ideal) x2
          (View.ld x4 (Rect.unit (s := S1024x192) ![0, 64] S1024x128.size inb_S1024x192_S1024x128_0_64)) (ix2 a b) := by
  unfold out4_A_5
  rw [View.read_writes_eq_canon _ _ _ (cover4_A_5 c i a1 h1 a2 h2 a3 h3 a4 h4 a5 h5 a6 h6 x0 x1 x2 x3 x4)]
  unfold kernelRun4_A
  dsimp only
  sl_unfold_words
  simp only [View.readAt_eq_ld, h1.read_unread, h2.read_unread, h3.read_unread, h4.read_unread, h5.read_unread,
    View.ld_unit_zero (S := S1024x8192) r4_hz, View.ld_unit_zero (S := S8192x64) r4_hz,
    View.ld_unit_zero (S := S1024x128) r4_hz, View.ld_unit_zero (S := S1x64) r4_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group, the bias row and the previous layer's
    features, as the region finds them. -/
abbrev r4_adj (c : Dev nD) : Vec Ideal S8192x8192 .bf16 := V c (Pipeline.arrRef spec4 0)
abbrev r4_scaled (c : Dev nD) : Vec Ideal S8192x64 .bf16 := V c (Pipeline.arrRef spec4 1)
abbrev r4_resid (c : Dev nD) : Vec Ideal S8192x128 .f32 := V c (Pipeline.arrRef spec4 2)
abbrev r4_bias (c : Dev nD) : Vec Ideal S1x64 .f32 := V c (Pipeline.arrRef spec4 3)
abbrev r4_prev (c : Dev nD) : Vec Ideal S8192x192 .f32 := V c (Pipeline.arrRef spec4 4)

/-- The windows' blocks at a point, at their literal types. -/
abbrev r4_b0 (c : Dev nD) (t : Fin cfg4.N) : Vec Ideal S1024x8192 .bf16 := iblk4 (F := Ideal) V c 0 t
abbrev r4_b1 (c : Dev nD) (t : Fin cfg4.N) : Vec Ideal S8192x64 .bf16 := iblk4 (F := Ideal) V c 1 t
abbrev r4_b2 (c : Dev nD) (t : Fin cfg4.N) : Vec Ideal S1024x128 .f32 := iblk4 (F := Ideal) V c 2 t
abbrev r4_b3 (c : Dev nD) (t : Fin cfg4.N) : Vec Ideal S1x64 .f32 := iblk4 (F := Ideal) V c 3 t
abbrev r4_b4 (c : Dev nD) (t : Fin cfg4.N) : Vec Ideal S1024x192 .f32 := iblk4 (F := Ideal) V c 4 t

/-- Entry (p, q) of the array the region leaves. -/
def r4_val (c : Dev nD) (p : Fin 8192) (q : Fin 192) : EReal :=
  if h : q.val < 64 then
    (r4_prev V c (ix2 p q)
      + max ((∑ k : Fin 8192, r4_adj V c (ix2 p k) * r4_scaled V c (ix2 k (⟨q.val, h⟩ : Fin 64)))
          + r4_bias V c (ix2 (0 : Fin 1) (⟨q.val, h⟩ : Fin 64))) (Ideal.ofBits .f32 0x00000000#32))
      * Ideal.ofBits .f32 0x3F000000#32
  else
    (r4_prev V c (ix2 p q)
      + max (r4_resid V c (ix2 p (⟨q.val - 64, by have := q.isLt; omega⟩ : Fin 128))) (Ideal.ofBits .f32 0x00000000#32))
      * Ideal.ofBits .f32 0x3F000000#32

/-- The array the region leaves. -/
def r4_G (c : Dev nD) : Vec Ideal S8192x192 .f32 := fun i => r4_val V c (i 0) (i 1)

/-- The printed index maps, decided over the grid: the row-blocked windows are at block row t, column block 0; the whole
    windows at block (0, 0). -/
theorem r4_idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Row block t of the adjacency: entry (a, k) of the block is entry (1024 t + a, k) of the array. -/
theorem r4_b0_apply (c : Dev nD) (t : Fin cfg4.N) (a : Fin 1024) (k : Fin 8192) (p : Fin 8192)
    (hp : p.val = t.val * 1024 + a.val) : r4_b0 V c t (ix2 a k) = r4_adj V c (ix2 p k) := by
  obtain ⟨e00, e01, -⟩ := r4_idx_facts t
  show V c (Pipeline.arrRef spec4 0) (((cfg4.win 0).blk t).view.emb (ix2 a k)) = V c (Pipeline.arrRef spec4 0) (ix2 p k)
  refine congrArg _ (funext fun d => Fin.ext ?_)
  match d with
  | ⟨0, _⟩ => show win4_0.index t (0 : Fin 2) * 1024 + 1 * a.val = p.val; omega
  | ⟨1, _⟩ => show win4_0.index t (1 : Fin 2) * 8192 + 1 * k.val = k.val; omega

/-- The scaled features' one block is the array. -/
theorem r4_b1_apply (c : Dev nD) (t : Fin cfg4.N) (k : Fin 8192) (b : Fin 64) :
    r4_b1 V c t (ix2 k b) = r4_scaled V c (ix2 k b) := by
  obtain ⟨-, -, e10, e11, -⟩ := r4_idx_facts t
  show V c (Pipeline.arrRef spec4 1) (((cfg4.win 1).blk t).view.emb (ix2 k b)) = V c (Pipeline.arrRef spec4 1) (ix2 k b)
  refine congrArg _ (funext fun d => Fin.ext ?_)
  match d with
  | ⟨0, _⟩ => show win4_1.index t (0 : Fin 2) * 8192 + 1 * k.val = k.val; omega
  | ⟨1, _⟩ => show win4_1.index t (1 : Fin 2) * 64 + 1 * b.val = b.val; omega

/-- Row block t of the other feature group. -/
theorem r4_b2_apply (c : Dev nD) (t : Fin cfg4.N) (a : Fin 1024) (b : Fin 128) (p : Fin 8192)
    (hp : p.val = t.val * 1024 + a.val) : r4_b2 V c t (ix2 a b) = r4_resid V c (ix2 p b) := by
  obtain ⟨-, -, -, -, e20, e21, -⟩ := r4_idx_facts t
  show V c (Pipeline.arrRef spec4 2) (((cfg4.win 2).blk t).view.emb (ix2 a b)) = V c (Pipeline.arrRef spec4 2) (ix2 p b)
  refine congrArg _ (funext fun d => Fin.ext ?_)
  match d with
  | ⟨0, _⟩ => show win4_2.index t (0 : Fin 2) * 1024 + 1 * a.val = p.val; omega
  | ⟨1, _⟩ => show win4_2.index t (1 : Fin 2) * 128 + 1 * b.val = b.val; omega

/-- The bias row's one block is the array. -/
theorem r4_b3_apply (c : Dev nD) (t : Fin cfg4.N) (b : Fin 64) :
    r4_b3 V c t (ix2 (0 : Fin 1) b) = r4_bias V c (ix2 (0 : Fin 1) b) := by
  obtain ⟨-, -, -, -, -, -, e30, e31, -⟩ := r4_idx_facts t
  show V c (Pipeline.arrRef spec4 3) (((cfg4.win 3).blk t).view.emb (ix2 (0 : Fin 1) b)) = V c (Pipeline.arrRef spec4 3) (ix2 (0 : Fin 1) b)
  refine congrArg _ (funext fun d => Fin.ext ?_)
  match d with
  | ⟨0, _⟩ => show win4_3.index t (0 : Fin 2) * 1 + 1 * 0 = 0; omega
  | ⟨1, _⟩ => show win4_3.index t (1 : Fin 2) * 64 + 1 * b.val = b.val; omega

/-- Row block t of the previous layer's features: entry y of the block is entry (1024 t + y₀, y₁) of the array. -/
theorem r4_b4_apply (c : Dev nD) (t : Fin cfg4.N) (y : S1024x192.Idx) (p : Fin 8192) (q : Fin 192)
    (hp : p.val = t.val * 1024 + (y 0).val) (hq : q.val = (y 1).val) : r4_b4 V c t y = r4_prev V c (ix2 p q) := by
  obtain ⟨-, -, -, -, -, -, -, -, e40, e41, -⟩ := r4_idx_facts t
  show V c (Pipeline.arrRef spec4 4) (((cfg4.win 4).blk t).view.emb y) = V c (Pipeline.arrRef spec4 4) (ix2 p q)
  refine congrArg _ (funext fun d => Fin.ext ?_)
  match d with
  | ⟨0, _⟩ => show win4_4.index t (0 : Fin 2) * 1024 + 1 * (y 0).val = p.val; omega
  | ⟨1, _⟩ => show win4_4.index t (1 : Fin 2) * 192 + 1 * (y 1).val = q.val; omega

/-- WHAT POINT t WRITES BACK is block t of the array the region leaves. -/
theorem r4_flushed_eq (c : Dev nD) (t : Fin cfg4.N) :
    (dat4 (F := Ideal) V c).flushed 5 t = ((cfg4.win 5).blk t).view.read (Elt Ideal) (r4_G V c) := by
  show (cfg4.win 5).cut (grid4.coords t) ((dat4 (F := Ideal) V c).after 5 t) = _
  rw [after4_5]
  obtain ⟨-, -, -, -, -, -, -, -, -, -, e50, e51⟩ := r4_idx_facts t
  funext j
  have hj0 : (j 0).val < 1024 := (j 0).isLt
  have hj1 : (j 1).val < 192 := (j 1).isLt
  have ht : t.val < 8 := lt_of_lt_of_eq t.isLt N_4
  have hp : t.val * 1024 + (j 0).val < 8192 := by omega
  have hemb : ((cfg4.win 5).blk t).view.emb j
      = ix2 (⟨t.val * 1024 + (j 0).val, hp⟩ : Fin 8192) (⟨(j 1).val, hj1⟩ : Fin 192) := by
    funext d; apply Fin.ext
    match d with
    | ⟨0, _⟩ => show win4_5.index t (0 : Fin 2) * 1024 + 1 * (j 0).val = t.val * 1024 + (j 0).val; omega
    | ⟨1, _⟩ => show win4_5.index t (1 : Fin 2) * 192 + 1 * (j 1).val = (j 1).val; omega
  show outsAt4 (F := Ideal) V c t ((cfg4.win 5).xinj (grid4.coords t) j) = r4_G V c (((cfg4.win 5).blk t).view.emb j)
  rw [hemb]
  show _ = r4_val V c (⟨t.val * 1024 + (j 0).val, hp⟩ : Fin 8192) (⟨(j 1).val, hj1⟩ : Fin 192)
  unfold outsAt4 r4_val
  by_cases h : (j 1).val < 64
  · rw [dif_pos h]
    refine (r4_out_lo c (grid4.coords t) (ms4_0 t) (hs4_0 t) (ms4_1 t) (hs4_1 t) (ms4_2 t) (hs4_2 t) (ms4_3 t) (hs4_3 t)
      (ms4_4 t) (hs4_4 t) (ms4_5 t) (hs4_5 t) (r4_b0 V c t) (r4_b1 V c t) (r4_b2 V c t) (r4_b3 V c t) (r4_b4 V c t)
      ((cfg4.win 5).xinj (grid4.coords t) j) (⟨(j 0).val, hj0⟩ : Fin 1024) (⟨(j 1).val, h⟩ : Fin 64) rfl rfl).trans ?_
    refine (r4_pay1_apply (r4_b0 V c t) (r4_b1 V c t) (r4_b3 V c t)
      (View.ld (r4_b4 V c t) (Rect.unit (s := S1024x192) ![0, 0] S1024x64.size inb_S1024x192_S1024x64_0_0))
      (⟨(j 0).val, hj0⟩ : Fin 1024) (⟨(j 1).val, h⟩ : Fin 64)).trans ?_
    refine congrArg₂ (· * ·) (congrArg₂ (· + ·)
      (r4_b4_apply V c t
        ((Rect.unit (s := S1024x192) ![0, 0] S1024x64.size inb_S1024x192_S1024x64_0_0).idx
          (ix2 (⟨(j 0).val, hj0⟩ : Fin 1024) (⟨(j 1).val, h⟩ : Fin 64)))
        (⟨t.val * 1024 + (j 0).val, hp⟩ : Fin 8192) (⟨(j 1).val, hj1⟩ : Fin 192)
        (by show t.val * 1024 + (j 0).val = t.val * 1024 + (0 + 1 * (j 0).val); omega)
        (by show (j 1).val = 0 + 1 * (j 1).val; omega))
      (congrArg₂ max (congrArg₂ (· + ·) (Finset.sum_congr rfl fun k _ =>
        congrArg₂ (· * ·) (r4_b0_apply V c t (⟨(j 0).val, hj0⟩ : Fin 1024) k (⟨t.val * 1024 + (j 0).val, hp⟩ : Fin 8192) rfl)
          (r4_b1_apply V c t k (⟨(j 1).val, h⟩ : Fin 64))) (r4_b3_apply V c t (⟨(j 1).val, h⟩ : Fin 64))) rfl)) rfl
  · rw [dif_neg h]
    have h128 : (j 1).val - 64 < 128 := by omega
    refine (r4_out_hi c (grid4.coords t) (ms4_0 t) (hs4_0 t) (ms4_1 t) (hs4_1 t) (ms4_2 t) (hs4_2 t) (ms4_3 t) (hs4_3 t)
      (ms4_4 t) (hs4_4 t) (ms4_5 t) (hs4_5 t) (r4_b0 V c t) (r4_b1 V c t) (r4_b2 V c t) (r4_b3 V c t) (r4_b4 V c t)
      ((cfg4.win 5).xinj (grid4.coords t) j) (⟨(j 0).val, hj0⟩ : Fin 1024) (⟨(j 1).val - 64, h128⟩ : Fin 128) rfl
      (by show (j 1).val = 64 + ((j 1).val - 64); omega)).trans ?_
    refine (r4_pay2_apply (r4_b2 V c t)
      (View.ld (r4_b4 V c t) (Rect.unit (s := S1024x192) ![0, 64] S1024x128.size inb_S1024x192_S1024x128_0_64))
      (⟨(j 0).val, hj0⟩ : Fin 1024) (⟨(j 1).val - 64, h128⟩ : Fin 128)).trans ?_
    exact congrArg₂ (· * ·) (congrArg₂ (· + ·)
      (r4_b4_apply V c t
        ((Rect.unit (s := S1024x192) ![0, 64] S1024x128.size inb_S1024x192_S1024x128_0_64).idx
          (ix2 (⟨(j 0).val, hj0⟩ : Fin 1024) (⟨(j 1).val - 64, h128⟩ : Fin 128)))
        (⟨t.val * 1024 + (j 0).val, hp⟩ : Fin 8192) (⟨(j 1).val, hj1⟩ : Fin 192)
        (by show t.val * 1024 + (j 0).val = t.val * 1024 + (0 + 1 * (j 0).val); omega)
        (by show (j 1).val = 64 + 1 * ((j 1).val - 64); omega))
      (congrArg₂ max (r4_b2_apply V c t (⟨(j 0).val, hj0⟩ : Fin 1024) (⟨(j 1).val - 64, h128⟩ : Fin 128)
        (⟨t.val * 1024 + (j 0).val, hp⟩ : Fin 8192) rfl) rfl)) rfl

/-! ## The points' blocks cover the array -/

/-- An index of the array is in point t's block iff each coordinate is in the block's range on its axis. -/
theorem r4_mem_blk (t : Fin cfg4.N) (i : S8192x192.Idx) :
    i ∈ ((cfg4.win 5).blk t).view.set ↔ ∀ a : Fin 2, win4_5.index t a * S1024x192.size a ≤ (i a).val
      ∧ (i a).val < win4_5.index t a * S1024x192.size a + S1024x192.size a := by
  show i ∈ ((View.whole (Pipeline.arrRef spec4 5)).slice (win4_5.rect t)).set ↔ _
  rw [View.set_slice_whole, Rect.mem_set_unit]
  exact Iff.rfl

/-- Row r of the array is in the block of point r / 1024. -/
theorem r4_cover (i : S8192x192.Idx) :
    ∃ t : Fin cfg4.N, (cfg4.win 5).flush t = true ∧ i ∈ ((cfg4.win 5).blk t).view.set := by
  have hi0 : (i 0).val < 8192 := (i 0).isLt
  have hi1 : (i 1).val < 192 := (i 1).isLt
  have hlt : (i 0).val / 1024 < cfg4.N := lt_of_lt_of_eq (by omega : (i 0).val / 1024 < 8) N_4.symm
  obtain ⟨-, -, -, -, -, -, -, -, -, -, e50, e51⟩ := r4_idx_facts ⟨(i 0).val / 1024, hlt⟩
  refine ⟨⟨(i 0).val / 1024, hlt⟩, flush4_5 _, ?_⟩
  rw [r4_mem_blk]
  intro a
  match a with
  | ⟨0, _⟩ =>
    show win4_5.index ⟨(i 0).val / 1024, hlt⟩ (0 : Fin 2) * 1024 ≤ (i 0).val
      ∧ (i 0).val < win4_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win4_5.index ⟨(i 0).val / 1024, hlt⟩ (1 : Fin 2) * 192 ≤ (i 1).val
      ∧ (i 1).val < win4_5.index ⟨(i 0).val / 1024, hlt⟩ (1 : Fin 2) * 192 + 192
    rw [e51]; omega

/-! ## The output array after the region -/

/-- The output array ends holding the array of the entries above. -/
theorem r4_final (c : Dev nD) : (dat4 (F := Ideal) V c).arrAt 5 cfg4.N = r4_G V c :=
  (dat4 (F := Ideal) V c).arrAt_eq_of_cover 5 (r4_G V c) (fun t _ => r4_flushed_eq V c t) r4_cover

/-- Columns [0, 64): the average of the previous features and the aggregated, biased, rectified features. -/
theorem r4_lo (c : Dev nD) (p : Fin 8192) (q : Fin 64) :
    (dat4 (F := Ideal) V c).arrAt 5 cfg4.N (ix2 p (⟨q.val, by have := q.isLt; omega⟩ : Fin 192))
      = (r4_prev V c (ix2 p (⟨q.val, by have := q.isLt; omega⟩ : Fin 192))
          + max ((∑ k : Fin 8192, r4_adj V c (ix2 p k) * r4_scaled V c (ix2 k q)) + r4_bias V c (ix2 (0 : Fin 1) q))
              (Ideal.ofBits .f32 0x00000000#32)) * Ideal.ofBits .f32 0x3F000000#32 := by
  rw [r4_final]
  show r4_val V c p (⟨q.val, _⟩ : Fin 192) = _
  unfold r4_val
  rw [dif_pos (show (⟨q.val, _⟩ : Fin 192).val < 64 from q.isLt)]

/-- Columns [64, 192): the average of the previous features and the other feature group rectified. -/
theorem r4_hi (c : Dev nD) (p : Fin 8192) (q : Fin 128) :
    (dat4 (F := Ideal) V c).arrAt 5 cfg4.N (ix2 p (⟨64 + q.val, by have := q.isLt; omega⟩ : Fin 192))
      = (r4_prev V c (ix2 p (⟨64 + q.val, by have := q.isLt; omega⟩ : Fin 192))
          + max (r4_resid V c (ix2 p q)) (Ideal.ofBits .f32 0x00000000#32)) * Ideal.ofBits .f32 0x3F000000#32 := by
  rw [r4_final]
  show r4_val V c p (⟨64 + q.val, _⟩ : Fin 192) = _
  unfold r4_val
  rw [dif_neg (show ¬ (⟨64 + q.val, _⟩ : Fin 192).val < 64 from by show ¬ 64 + q.val < 64; omega)]
  refine congrArg₂ (· * ·) (congrArg₂ (· + ·) rfl (congrArg₂ max (congrArg _ (congrArg (ix2 p) (Fin.ext ?_))) rfl)) rfl
  show 64 + q.val - 64 = q.val
  omega

end Cert.KernelIdeal.KV

end
-- ==== Proof.KV.L2.lean ====
/-
  Layer 2 of the first program (a middle layer with the residual-and-halve step, weight page 0): what its two
  pallas_calls leave in the output array, entry by entry, is the layer's specification applied to the entries of its input array.
-/
import proofs.«405499_j28269474742810_3_alg».proof.Proof.KV.R3
import proofs.«405499_j28269474742810_3_alg».proof.Proof.KV.R4
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L2_w (c : Dev nD) : V5 m ρ c main_arg5 = m ((c : Thread nD τ).loc main_arg5) := tr_main_arg5_0_5 m ρ c
theorem L2_b (c : Dev nD) : V5 m ρ c main_arg6 = m ((c : Thread nD τ).loc main_arg6) := tr_main_arg6_0_5 m ρ c

/-- The scaled column group of the layer's weights, at an entry. -/
theorem L2_ws (c : Dev nD) (l : Fin 192) (q : Fin 64) : V6 m ρ c main_v14 (ix2 l q) = (P m c).Wm 0 l ⟨q.val, by omega⟩ := by
  have e : V6 m ρ c main_v14 = extractStridedSlice S192x64 ![0, 0] (shapeCast S192x192 (extractStridedSlice S1x192x192 ![0, 0, 0] (V5 m ρ c main_arg5) slices_S12x192x192_S1x192x192_0_0_0) shapeCasts_S1x192x192_S192x192) slices_S192x192_S192x64_0_0 := by
    show StableHlo.after hostOps3 (W5 m ρ c) (Proc.devRef .tc main_v14) = _
    after_results <;> rfl
  rw [e, Cert.Slices.cols_apply _ 0 _ l q (by omega), Cert.Slices.page_apply _ 0 (by omega), L2_w]
  show _ = m ((c : Thread nD τ).loc main_arg5) (ix3 (0 : Fin 12) l ⟨q.val, by omega⟩)
  congr 2
  exact Fin.ext (Nat.zero_add _)

/-- The pass-through column group of the layer's weights, at an entry. -/
theorem L2_wr (c : Dev nD) (l : Fin 192) (q : Fin 128) : V6 m ρ c main_v15 (ix2 l q) = (P m c).Wm 0 l ⟨64 + q.val, by omega⟩ := by
  have e : V6 m ρ c main_v15 = extractStridedSlice S192x128 ![0, 64] (shapeCast S192x192 (extractStridedSlice S1x192x192 ![0, 0, 0] (V5 m ρ c main_arg5) slices_S12x192x192_S1x192x192_0_0_0) shapeCasts_S1x192x192_S192x192) slices_S192x192_S192x128_0_64 := by
    show StableHlo.after hostOps3 (W5 m ρ c) (Proc.devRef .tc main_v15) = _
    after_results <;> rfl
  rw [e, Cert.Slices.cols_apply _ 64 _ l q (by omega), Cert.Slices.page_apply _ 0 (by omega), L2_w]
  rfl

/-- The bias of the scaled columns, one row, at an entry. -/
theorem L2_bs (c : Dev nD) (q : Fin 64) : V6 m ρ c main_v17 (ix2 (0 : Fin 1) q) = (P m c).bm 0 ⟨q.val, by omega⟩ := by
  have e : V6 m ρ c main_v17 = shapeCast S1x64 (extractStridedSlice S64 ![0] (shapeCast S192 (extractStridedSlice S1x192 ![0, 0] (V5 m ρ c main_arg6) slices_S12x192_S1x192_0_0) shapeCasts_S1x192_S192) slices_S192_S64_0) shapeCasts_S64_S1x64 := by
    show StableHlo.after hostOps3 (W5 m ρ c) (Proc.devRef .tc main_v17) = _
    after_results <;> rfl
  rw [e, Cert.Slices.seg_row_apply _ 0 _ _ (0 : Fin 1) q (by omega), Cert.Slices.row_apply _ 0 (by omega), L2_b]
  show _ = m ((c : Thread nD τ).loc main_arg6) (ix2 (0 : Fin 12) ⟨q.val, by omega⟩)
  congr 2
  exact Fin.ext (Nat.zero_add _)

/-- The bias of the pass-through columns, one row, at an entry. -/
theorem L2_br (c : Dev nD) (q : Fin 128) : V6 m ρ c main_v19 (ix2 (0 : Fin 1) q) = (P m c).bm 0 ⟨64 + q.val, by omega⟩ := by
  have e : V6 m ρ c main_v19 = shapeCast S1x128 (extractStridedSlice S128 ![64] (shapeCast S192 (extractStridedSlice S1x192 ![0, 0] (V5 m ρ c main_arg6) slices_S12x192_S1x192_0_0) shapeCasts_S1x192_S192) slices_S192_S128_64) shapeCasts_S128_S1x128 := by
    show StableHlo.after hostOps3 (W5 m ρ c) (Proc.devRef .tc main_v19) = _
    after_results <;> rfl
  rw [e, Cert.Slices.seg_row_apply _ 64 _ _ (0 : Fin 1) q (by omega), Cert.Slices.row_apply _ 0 (by omega), L2_b]
  rfl

/-- THE LAYER: the output array after its second pallas_call, at (p, j), is the layer's specification of the input array's entries and of the residual array's. -/
theorem L2_out (c : Dev nD) (x : Cert.Spec.Mx 8192 192) (hx : ∀ k l, V5 m ρ c main_v9 (ix2 k l) = x k l)
    (prev : Cert.Spec.Mx 8192 192) (hprev : ∀ p j, W0 m ρ c (Proc.devRef .tc main_arg0) (ix2 p j) = prev p j)
    (p : Fin 8192) (j : Fin 192) : V8 m ρ c main_v21 (ix2 p j) = Cert.Spec.residK (P m c) 0 prev x p j := by
  unfold Cert.Spec.residK Cert.Spec.resK Cert.Spec.relu
  have hp : ∀ p j, V7 m ρ c main_arg0 (ix2 p j) = prev p j := fun p j =>
    (congrFun (tr_main_arg0_0_7 m ρ c) (ix2 p j)).trans (hprev p j)
  refine Cert.Spec.layer_assemble (S := 64) (R := 128) (O := 192) rfl (P m c).A x ((P m c).Wm 0) ((P m c).bm 0)
    (fun k => V6 m ρ c main_v1_1 (ix2 k (0 : Fin 1))) (fun k => ?hinv)
    (fun k q => V7 m ρ c main_v20_0 (ix2 k q)) (fun k q => ?hsc)
    (fun p q => V7 m ρ c main_v20_1 (ix2 p q)) (fun p q => ?hrs)
    (fun p j y => (prev p j + max y Cert.Spec.zero) * Cert.Spec.half) (fun p j => V8 m ρ c main_v21 (ix2 p j)) (fun p q => ?hlo) (fun p q => ?hhi) p j
  case hinv =>
    exact (congrFun (tr_main_v1_1_2_6 m ρ c) (ix2 k (0 : Fin 1))).trans (inv_W2 m ρ c k)
  case hsc =>
    refine (congrFun (W7_arr m ρ c 5) (ix2 k q)).trans ((r3_scaled (V6 m ρ) c k q).trans ?_)
    refine congrArg (· * _) (Finset.sum_congr rfl fun l _ => ?_)
    exact congrArg₂ (· * ·) ((congrFun (tr_main_v9_5_6 m ρ c) (ix2 k l)).trans (hx k l)) (L2_ws m ρ c l q)
  case hrs =>
    refine (congrFun (W7_arr m ρ c 6) (ix2 p q)).trans ((r3_resid (V6 m ρ) c p q).trans ?_)
    refine congrArg₂ (· + ·) (Finset.sum_congr rfl fun l _ => ?_) (L2_br m ρ c q)
    exact congrArg₂ (· * ·) ((congrFun (tr_main_v9_5_6 m ρ c) (ix2 p l)).trans (hx p l)) (L2_wr m ρ c l q)
  case hlo =>
    refine (congrFun (W8_arr m ρ c 5) (ix2 p _)).trans ((r4_lo (V7 m ρ) c p q).trans ?_)
    refine congrArg (· * _) (congrArg₂ (· + ·) (hp p _) (congrArg (max · _) ?_))
    refine congrArg₂ (· + ·) (Finset.sum_congr rfl fun k _ => ?_)
      ((congrFun (tr_main_v17_6_7 m ρ c) (ix2 (0 : Fin 1) q)).trans (L2_bs m ρ c q))
    exact congrArg (· * _) ((congrFun (tr_main_v1_0_2_7 m ρ c) (ix2 p k)).trans (adjb_W2 m ρ c p k))
  case hhi =>
    refine (congrFun (W8_arr m ρ c 5) (ix2 p _)).trans ((r4_hi (V7 m ρ) c p q).trans ?_)
    exact congrArg (· * _) (congrArg (· + _) (hp p _))

end Cert.KernelIdeal.KV

end
-- ==== Proof.KV.R5.lean ====
/-
  Region 5 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg5
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz5 : (![0, 0] : Fin 2 → Nat) = fun _ => 0 := funext fun a => by fin_cases a <;> rfl

/-! ## The payloads at an index -/

/-- The generated dimension record of the [2048,192]·[192,64] product is the plain one. -/
theorem dot5_scaled_eq : dot_S2048x192_S192x64_S2048x64_1_0_0_1_n_n = DotDims.plain 2048 192 64 := rfl
/-- The generated dimension record of the [2048,192]·[192,128] product is the plain one. -/
theorem dot5_resid_eq : dot_S2048x192_S192x128_S2048x128_1_0_0_1_n_n = DotDims.plain 2048 192 128 := rfl

/-- The narrowed copy of the x block is the x block (a format change is the identity on extended reals). -/
theorem xcast5_eq (v0 : FVec Ideal S2048x192 .f32) : k5_pay1 (F := Ideal) v0 = v0 := by
  unfold k5_pay1
  exact shapeCast_self v0 _

/-- The scaled payload at (a, b): (∑ₗ x(a, l) · W₁(l, b)) · s(a, 0). -/
theorem scaled5_pay_apply (v0 : FVec Ideal S2048x192 .f32) (v3 : FVec Ideal S192x64 .f32) (v11 : FVec Ideal S2048x1 .f32)
    (a : Fin 2048) (b : Fin 64) :
    k5_pay3 (F := Ideal) v0 v3 v11 (ix2 a b) = (∑ l : Fin 192, v0 (ix2 a l) * v3 (ix2 l b)) * v11 (ix2 a (0 : Fin 1)) := by
  unfold k5_pay3
  simp only [xcast5_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot5_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid5_pay_apply (v0 : FVec Ideal S2048x192 .f32) (v6 : FVec Ideal S192x128 .f32) (v15 : FVec Ideal S1x128 .f32)
    (a : Fin 2048) (b : Fin 128) :
    k5_pay2 (F := Ideal) v0 v6 v15 (ix2 a b) = (∑ l : Fin 192, v0 (ix2 a l) * v6 (ix2 l b)) + v15 (ix2 (0 : Fin 1) b) := by
  unfold k5_pay2
  simp only [xcast5_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot5_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin5 (c : Dev nD) : FVec Ideal S8192x192 .f32 := V c (Pipeline.arrRef spec5 0)
/-- The weight's scaled column group W₁. -/
abbrev wsc5 (c : Dev nD) : FVec Ideal S192x64 .f32 := V c (Pipeline.arrRef spec5 1)
/-- The weight's residual column group W₂. -/
abbrev wre5 (c : Dev nD) : FVec Ideal S192x128 .f32 := V c (Pipeline.arrRef spec5 2)
/-- The bias row b. -/
abbrev bia5 (c : Dev nD) : FVec Ideal S1x128 .f32 := V c (Pipeline.arrRef spec5 3)
/-- The column s of inverse row sums. -/
abbrev inv5 (c : Dev nD) : FVec Ideal S8192x1 .f32 := V c (Pipeline.arrRef spec5 4)

/-- Entry (p, q) of the scaled output. -/
def scaledAt5 (c : Dev nD) (p : Fin 8192) (q : Fin 64) : EReal :=
  (∑ l : Fin 192, xin5 V c (ix2 p l) * wsc5 V c (ix2 l q)) * inv5 V c (ix2 p (0 : Fin 1))

/-- Entry (p, q) of the residual output. -/
def residAt5 (c : Dev nD) (p : Fin 8192) (q : Fin 128) : EReal :=
  (∑ l : Fin 192, xin5 V c (ix2 p l) * wre5 V c (ix2 l q)) + bia5 V c (ix2 (0 : Fin 1) q)

/-- What the scaled output ends holding. -/
abbrev G5_5 (c : Dev nD) : FVec Ideal S8192x64 .bf16 := fun i => scaledAt5 V c ⟨(i 0).val, idx2_lt0 i⟩ ⟨(i 1).val, idx2_lt1 i⟩
/-- What the residual output ends holding. -/
abbrev G5_6 (c : Dev nD) : FVec Ideal S8192x128 .f32 := fun i => residAt5 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts5 : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = win5_5.index t (0 : Fin 2) ∧ win5_4.index t (1 : Fin 2) = 0
    ∧ win5_5.index t (1 : Fin 2) = 0
    ∧ win5_6.index t (0 : Fin 2) = win5_5.index t (0 : Fin 2) ∧ win5_6.index t (1 : Fin 2) = 0
    ∧ win5_5.index t (0 : Fin 2) < 4 :=
  (by decide +kernel : ∀ t : Fin grid5.N, _)

/-- Every row block is some point's, for the scaled output … -/
theorem idx_onto5_5 : ∀ q0 : Fin 4, ∃ t : Fin cfg5.N, win5_5.index t = ![q0.val, 0] :=
  (by decide +kernel : ∀ q0 : Fin 4, ∃ t : Fin grid5.N, win5_5.index t = ![q0.val, 0])

/-- … and for the residual output. -/
theorem idx_onto5_6 : ∀ q0 : Fin 4, ∃ t : Fin cfg5.N, win5_6.index t = ![q0.val, 0] :=
  (by decide +kernel : ∀ q0 : Fin 4, ∃ t : Fin grid5.N, win5_6.index t = ![q0.val, 0])

/-! ## Output window 5: the scaled output -/

/-- WHAT POINT t WRITES BACK is block t of the scaled output's function of the arrays. -/
theorem flushed5_5_eq (c : Dev nD) (t : Fin cfg5.N) :
    (dat5 (F := Ideal) V c).flushed 5 t = ((cfg5.win 5).blk t).view.read (Elt Ideal) (G5_5 V c) := by
  show (cfg5.win 5).cut (grid5.coords t) ((dat5 (F := Ideal) V c).after 5 t) = _
  rw [after5_5]
  unfold out5_5
  rw [View.canon_unit_zero hz5]
  simp only [View.ld_unit_zero (S := S2048x192) hz5, View.ld_unit_zero (S := S192x64) hz5, View.ld_unit_zero (S := S2048x1) hz5]
  obtain ⟨e00, e01, e10, e11, e20, e21, e30, e31, e40, e41, e51, e60, e61, e5⟩ := idx_facts5 t
  funext j
  obtain ⟨a, b, rfl⟩ : ∃ (a : Fin 2048) (b : Fin 64), j = ix2 a b := ⟨j 0, j 1, eq_ix2 j⟩
  refine (scaled5_pay_apply (iblk5 V c 0 t) (iblk5 V c 1 t) (iblk5 V c 4 t) a b).trans ?_
  show (∑ l : Fin 192, xin5 V c (((cfg5.win 0).blk t).view.emb (ix2 a l)) * wsc5 V c (((cfg5.win 1).blk t).view.emb (ix2 l b)))
      * inv5 V c (((cfg5.win 4).blk t).view.emb (ix2 a (0 : Fin 1)))
    = scaledAt5 V c ⟨((((cfg5.win 5).blk t).view.emb (ix2 a b)) 0).val, _⟩ ⟨((((cfg5.win 5).blk t).view.emb (ix2 a b)) 1).val, _⟩
  unfold scaledAt5
  refine congr (congrArg _ (Finset.sum_congr rfl fun l _ => congr (congrArg _ (congrArg _ ?_)) (congrArg _ ?_))) (congrArg _ ?_)
  · funext d; apply Fin.ext
    match d with
    | ⟨0, _⟩ => show win5_0.index t (0 : Fin 2) * 2048 + 1 * a.val = win5_5.index t (0 : Fin 2) * 2048 + 1 * a.val; omega
    | ⟨1, _⟩ => show win5_0.index t (1 : Fin 2) * 192 + 1 * l.val = l.val; omega
  · funext d; apply Fin.ext
    match d with
    | ⟨0, _⟩ => show win5_1.index t (0 : Fin 2) * 192 + 1 * l.val = l.val; omega
    | ⟨1, _⟩ => show win5_1.index t (1 : Fin 2) * 64 + 1 * b.val = win5_5.index t (1 : Fin 2) * 64 + 1 * b.val; omega
  · funext d; apply Fin.ext
    match d with
    | ⟨0, _⟩ => show win5_4.index t (0 : Fin 2) * 2048 + 1 * a.val = win5_5.index t (0 : Fin 2) * 2048 + 1 * a.val; omega
    | ⟨1, _⟩ => show win5_4.index t (1 : Fin 2) * 1 + 1 * 0 = 0; omega

/-- An index of the scaled output is in point t's block iff each coordinate is in the block's range on its axis. -/
theorem mem_blk5_5 (t : Fin cfg5.N) (i : S8192x64.Idx) :
    i ∈ ((cfg5.win 5).blk t).view.set ↔ ∀ a : Fin 2, win5_5.index t a * S2048x64.size a ≤ (i a).val ∧ (i a).val < win5_5.index t a * S2048x64.size a + S2048x64.size a := by
  show i ∈ ((View.whole (Pipeline.arrRef spec5 5)).slice (win5_5.rect t)).set ↔ _
  rw [View.set_slice_whole, Rect.mem_set_unit]
  exact Iff.rfl

/-- Every index is in the block of the point of its row block, row / 2048. -/
theorem covered5_5 (i : S8192x64.Idx) :
    ∃ t : Fin cfg5.N, (cfg5.win 5).flush t = true ∧ i ∈ ((cfg5.win 5).blk t).view.set := by
  have hi0 : (i 0).val < 8192 := (i 0).isLt
  have hi1 : (i 1).val < 64 := (i 1).isLt
  obtain ⟨t, ht⟩ := idx_onto5_5 ⟨(i 0).val / 2048, by omega⟩
  have q0 : win5_5.index t (0 : Fin 2) = (i 0).val / 2048 := congrFun ht 0
  have q1 : win5_5.index t (1 : Fin 2) = 0 := congrFun ht 1
  refine ⟨t, flush5_5 t, ?_⟩
  rw [mem_blk5_5]
  intro a
  match a with
  | ⟨0, _⟩ => show win5_5.index t (0 : Fin 2) * 2048 ≤ (i 0).val ∧ (i 0).val < win5_5.index t (0 : Fin 2) * 2048 + 2048; omega
  | ⟨1, _⟩ => show win5_5.index t (1 : Fin 2) * 64 ≤ (i 1).val ∧ (i 1).val < win5_5.index t (1 : Fin 2) * 64 + 64; omega

/-- THE SCALED OUTPUT after the region. -/
theorem arr5_5 (c : Dev nD) : (dat5 (F := Ideal) V c).arrAt 5 cfg5.N = G5_5 V c :=
  (dat5 (F := Ideal) V c).arrAt_eq_of_cover 5 (G5_5 V c) (fun t _ => flushed5_5_eq V c t) covered5_5

theorem r5_scaled (c : Dev nD) (p : Fin 8192) (q : Fin 64) :
    (dat5 (F := Ideal) V c).arrAt 5 cfg5.N (ix2 p q)
      = (∑ l : Fin 192, xin5 V c (ix2 p l) * wsc5 V c (ix2 l q)) * inv5 V c (ix2 p (0 : Fin 1)) :=
  congrFun (arr5_5 V c) (ix2 p q)

/-! ## Output window 6: the residual output -/

/-- WHAT POINT t WRITES BACK is block t of the residual output's function of the arrays. -/
theorem flushed5_6_eq (c : Dev nD) (t : Fin cfg5.N) :
    (dat5 (F := Ideal) V c).flushed 6 t = ((cfg5.win 6).blk t).view.read (Elt Ideal) (G5_6 V c) := by
  show (cfg5.win 6).cut (grid5.coords t) ((dat5 (F := Ideal) V c).after 6 t) = _
  rw [after5_6]
  unfold out5_6
  rw [View.canon_unit_zero hz5]
  simp only [View.ld_unit_zero (S := S2048x192) hz5, View.ld_unit_zero (S := S192x128) hz5, View.ld_unit_zero (S := S1x128) hz5]
  obtain ⟨e00, e01, e10, e11, e20, e21, e30, e31, e40, e41, e51, e60, e61, e5⟩ := idx_facts5 t
  funext j
  obtain ⟨a, b, rfl⟩ : ∃ (a : Fin 2048) (b : Fin 128), j = ix2 a b := ⟨j 0, j 1, eq_ix2 j⟩
  refine (resid5_pay_apply (iblk5 V c 0 t) (iblk5 V c 2 t) (iblk5 V c 3 t) a b).trans ?_
  show (∑ l : Fin 192, xin5 V c (((cfg5.win 0).blk t).view.emb (ix2 a l)) * wre5 V c (((cfg5.win 2).blk t).view.emb (ix2 l b)))
      + bia5 V c (((cfg5.win 3).blk t).view.emb (ix2 (0 : Fin 1) b))
    = residAt5 V c ⟨((((cfg5.win 6).blk t).view.emb (ix2 a b)) 0).val, _⟩ ⟨((((cfg5.win 6).blk t).view.emb (ix2 a b)) 1).val, _⟩
  unfold residAt5
  refine congr (congrArg _ (Finset.sum_congr rfl fun l _ => congr (congrArg _ (congrArg _ ?_)) (congrArg _ ?_))) (congrArg _ ?_)
  · funext d; apply Fin.ext
    match d with
    | ⟨0, _⟩ => show win5_0.index t (0 : Fin 2) * 2048 + 1 * a.val = win5_6.index t (0 : Fin 2) * 2048 + 1 * a.val; omega
    | ⟨1, _⟩ => show win5_0.index t (1 : Fin 2) * 192 + 1 * l.val = l.val; omega
  · funext d; apply Fin.ext
    match d with
    | ⟨0, _⟩ => show win5_2.index t (0 : Fin 2) * 192 + 1 * l.val = l.val; omega
    | ⟨1, _⟩ => show win5_2.index t (1 : Fin 2) * 128 + 1 * b.val = win5_6.index t (1 : Fin 2) * 128 + 1 * b.val; omega
  · funext d; apply Fin.ext
    match d with
    | ⟨0, _⟩ => show win5_3.index t (0 : Fin 2) * 1 + 1 * 0 = 0; omega
    | ⟨1, _⟩ => show win5_3.index t (1 : Fin 2) * 128 + 1 * b.val = win5_6.index t (1 : Fin 2) * 128 + 1 * b.val; omega

/-- An index of the residual output is in point t's block iff each coordinate is in the block's range on its axis. -/
theorem mem_blk5_6 (t : Fin cfg5.N) (i : S8192x128.Idx) :
    i ∈ ((cfg5.win 6).blk t).view.set ↔ ∀ a : Fin 2, win5_6.index t a * S2048x128.size a ≤ (i a).val ∧ (i a).val < win5_6.index t a * S2048x128.size a + S2048x128.size a := by
  show i ∈ ((View.whole (Pipeline.arrRef spec5 6)).slice (win5_6.rect t)).set ↔ _
  rw [View.set_slice_whole, Rect.mem_set_unit]
  exact Iff.rfl

/-- Every index is in the block of the point of its row block, row / 2048. -/
theorem covered5_6 (i : S8192x128.Idx) :
    ∃ t : Fin cfg5.N, (cfg5.win 6).flush t = true ∧ i ∈ ((cfg5.win 6).blk t).view.set := by
  have hi0 : (i 0).val < 8192 := (i 0).isLt
  have hi1 : (i 1).val < 128 := (i 1).isLt
  obtain ⟨t, ht⟩ := idx_onto5_6 ⟨(i 0).val / 2048, by omega⟩
  have q0 : win5_6.index t (0 : Fin 2) = (i 0).val / 2048 := congrFun ht 0
  have q1 : win5_6.index t (1 : Fin 2) = 0 := congrFun ht 1
  refine ⟨t, flush5_6 t, ?_⟩
  rw [mem_blk5_6]
  intro a
  match a with
  | ⟨0, _⟩ => show win5_6.index t (0 : Fin 2) * 2048 ≤ (i 0).val ∧ (i 0).val < win5_6.index t (0 : Fin 2) * 2048 + 2048; omega
  | ⟨1, _⟩ => show win5_6.index t (1 : Fin 2) * 128 ≤ (i 1).val ∧ (i 1).val < win5_6.index t (1 : Fin 2) * 128 + 128; omega

/-- THE RESIDUAL OUTPUT after the region. -/
theorem arr5_6 (c : Dev nD) : (dat5 (F := Ideal) V c).arrAt 6 cfg5.N = G5_6 V c :=
  (dat5 (F := Ideal) V c).arrAt_eq_of_cover 6 (G5_6 V c) (fun t _ => flushed5_6_eq V c t) covered5_6

theorem r5_resid (c : Dev nD) (p : Fin 8192) (q : Fin 128) :
    (dat5 (F := Ideal) V c).arrAt 6 cfg5.N (ix2 p q)
      = (∑ l : Fin 192, xin5 V c (ix2 p l) * wre5 V c (ix2 l q)) + bia5 V c (ix2 (0 : Fin 1) q) :=
  congrFun (arr5_6 V c) (ix2 p q)

end Cert.KernelIdeal.KV

end
-- ==== Proof.KV.R6.lean ====
/-
  Region 6, an aggregation layer with rectifier and no residual: what its output array holds after the region,
  entry by entry, as a function of the arrays the region finds.

  The body writes its output block [1024, 192] by two column slices: columns [0, 64) hold
  max(A·S + b, 0) (A the row block of the adjacency, S the scaled features, b the bias row broadcast over the rows) and
  columns [64, 192) hold max(R, 0) (R the row block of the other feature group). The two slices are disjoint and cover the
  block, so each entry of the block is the payload of the slice that holds it. Row block t of the output array is
  written by grid point t (8 points of 1024 rows), and the points' blocks cover the array; so entry (p, q) of the array
  is ∑ₖ A(p, k)·S(k, q) + b(0, q) rectified for q < 64, and R(p, q − 64) rectified for q ≥ 64.
-/
import proofs.«405499_j28269474742810_3_alg».proof.Proof.Fr.KernelIdeal.Reg6
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r6_hz : (![0, 0] : Fin 2 → Nat) = fun _ => 0 := funext fun a => match a with | ⟨0, _⟩ => rfl | ⟨1, _⟩ => rfl

/-- The product's dimension numbers are those of a plain M×K by K×N product. -/
theorem r6_dot_plain : dot_S1024x8192_S8192x64_S1024x64_1_0_0_1_n_n = DotDims.plain 1024 8192 64 := rfl

/-- Columns [0, 64) at entry (a, b): the product's entry plus the bias of column b, rectified. -/
theorem r6_pay1_apply (x0 : Vec Ideal S1024x8192 .bf16) (x1 : Vec Ideal S8192x64 .bf16) (x3 : Vec Ideal S1x64 .f32)
    (a : Fin 1024) (b : Fin 64) :
    k6_pay1 (F := Ideal) x0 x1 x3 (ix2 a b)
      = max ((∑ k : Fin 8192, x0 (ix2 a k) * x1 (ix2 k b)) + x3 (ix2 (0 : Fin 1) b)) (Ideal.ofBits .f32 0x00000000#32) := by
  unfold k6_pay1
  simp only [shapeCast_self]
  show max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32) = _
  rw [r6_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the other feature group's entry, rectified. -/
theorem r6_pay2_apply (x2 : Vec Ideal S1024x128 .f32) (a : Fin 1024) (b : Fin 128) :
    k6_pay2 (F := Ideal) x2 (ix2 a b) = max (x2 (ix2 a b)) (Ideal.ofBits .f32 0x00000000#32) := by
  unfold k6_pay2
  simp only [shapeCast_self]
  rfl

/-! ## What the body leaves in the output block: each entry is the payload of the slice that holds it -/

/-- An entry in columns [0, 64): off the later slice, under the earlier one. -/
theorem r6_out_lo (c : Dev nD) (i : grid6.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 64) (hy0 : (y 0).val = a.val) (hy1 : (y 1).val = b.val) :
    out6_A_4 (F := Ideal) c i a1 h1 a2 h2 a3 h3 a4 h4 a5 h5 x0 x1 x2 x3 y = k6_pay1 (F := Ideal) x0 x1 x3 (ix2 a b) := by
  unfold out6_A_4
  rw [View.read_writes_eq_canon _ _ _ (cover6_A_4 c i a1 h1 a2 h2 a3 h3 a4 h4 a5 h5 x0 x1 x2 x3)]
  unfold kernelRun6_A
  dsimp only
  sl_unfold_words
  simp only [View.readAt_eq_ld, h1.read_unread, h2.read_unread, h3.read_unread, h4.read_unread,
    View.ld_unit_zero (S := S1024x8192) r6_hz, View.ld_unit_zero (S := S8192x64) r6_hz,
    View.ld_unit_zero (S := S1024x128) r6_hz, View.ld_unit_zero (S := S1x64) r6_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r6_out_hi (c : Dev nD) (i : grid6.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 128) (hy0 : (y 0).val = a.val) (hy1 : (y 1).val = 64 + b.val) :
    out6_A_4 (F := Ideal) c i a1 h1 a2 h2 a3 h3 a4 h4 a5 h5 x0 x1 x2 x3 y = k6_pay2 (F := Ideal) x2 (ix2 a b) := by
  unfold out6_A_4
  rw [View.read_writes_eq_canon _ _ _ (cover6_A_4 c i a1 h1 a2 h2 a3 h3 a4 h4 a5 h5 x0 x1 x2 x3)]
  unfold kernelRun6_A
  dsimp only
  sl_unfold_words
  simp only [View.readAt_eq_ld, h1.read_unread, h2.read_unread, h3.read_unread, h4.read_unread,
    View.ld_unit_zero (S := S1024x8192) r6_hz, View.ld_unit_zero (S := S8192x64) r6_hz,
    View.ld_unit_zero (S := S1024x128) r6_hz, View.ld_unit_zero (S := S1x64) r6_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group and the bias row, as the region finds them. -/
abbrev r6_adj (c : Dev nD) : Vec Ideal S8192x8192 .bf16 := V c (Pipeline.arrRef spec6 0)
abbrev r6_scaled (c : Dev nD) : Vec Ideal S8192x64 .bf16 := V c (Pipeline.arrRef spec6 1)
abbrev r6_resid (c : Dev nD) : Vec Ideal S8192x128 .f32 := V c (Pipeline.arrRef spec6 2)
abbrev r6_bias (c : Dev nD) : Vec Ideal S1x64 .f32 := V c (Pipeline.arrRef spec6 3)

/-- The windows' blocks at a point, at their literal types. -/
abbrev r6_b0 (c : Dev nD) (t : Fin cfg6.N) : Vec Ideal S1024x8192 .bf16 := iblk6 (F := Ideal) V c 0 t
abbrev r6_b1 (c : Dev nD) (t : Fin cfg6.N) : Vec Ideal S8192x64 .bf16 := iblk6 (F := Ideal) V c 1 t
abbrev r6_b2 (c : Dev nD) (t : Fin cfg6.N) : Vec Ideal S1024x128 .f32 := iblk6 (F := Ideal) V c 2 t
abbrev r6_b3 (c : Dev nD) (t : Fin cfg6.N) : Vec Ideal S1x64 .f32 := iblk6 (F := Ideal) V c 3 t

/-- Entry (p, q) of the array the region leaves. -/
def r6_val (c : Dev nD) (p : Fin 8192) (q : Fin 192) : EReal :=
  if h : q.val < 64 then
    max ((∑ k : Fin 8192, r6_adj V c (ix2 p k) * r6_scaled V c (ix2 k (⟨q.val, h⟩ : Fin 64)))
      + r6_bias V c (ix2 (0 : Fin 1) (⟨q.val, h⟩ : Fin 64))) (Ideal.ofBits .f32 0x00000000#32)
  else
    max (r6_resid V c (ix2 p (⟨q.val - 64, by have := q.isLt; omega⟩ : Fin 128))) (Ideal.ofBits .f32 0x00000000#32)

/-- The array the region leaves. -/
def r6_G (c : Dev nD) : Vec Ideal S8192x192 .f32 := fun i => r6_val V c (i 0) (i 1)

/-- The printed index maps, decided over the grid: the row-blocked windows are at block row t, column block 0; the whole
    windows at block (0, 0). -/
theorem r6_idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row block t of the adjacency: entry (a, k) of the block is entry (1024 t + a, k) of the array. -/
theorem r6_b0_apply (c : Dev nD) (t : Fin cfg6.N) (a : Fin 1024) (k : Fin 8192) (p : Fin 8192)
    (hp : p.val = t.val * 1024 + a.val) : r6_b0 V c t (ix2 a k) = r6_adj V c (ix2 p k) := by
  obtain ⟨e00, e01, -⟩ := r6_idx_facts t
  show V c (Pipeline.arrRef spec6 0) (((cfg6.win 0).blk t).view.emb (ix2 a k)) = V c (Pipeline.arrRef spec6 0) (ix2 p k)
  refine congrArg _ (funext fun d => Fin.ext ?_)
  match d with
  | ⟨0, _⟩ => show win6_0.index t (0 : Fin 2) * 1024 + 1 * a.val = p.val; omega
  | ⟨1, _⟩ => show win6_0.index t (1 : Fin 2) * 8192 + 1 * k.val = k.val; omega

/-- The scaled features' one block is the array. -/
theorem r6_b1_apply (c : Dev nD) (t : Fin cfg6.N) (k : Fin 8192) (b : Fin 64) :
    r6_b1 V c t (ix2 k b) = r6_scaled V c (ix2 k b) := by
  obtain ⟨-, -, e10, e11, -⟩ := r6_idx_facts t
  show V c (Pipeline.arrRef spec6 1) (((cfg6.win 1).blk t).view.emb (ix2 k b)) = V c (Pipeline.arrRef spec6 1) (ix2 k b)
  refine congrArg _ (funext fun d => Fin.ext ?_)
  match d with
  | ⟨0, _⟩ => show win6_1.index t (0 : Fin 2) * 8192 + 1 * k.val = k.val; omega
  | ⟨1, _⟩ => show win6_1.index t (1 : Fin 2) * 64 + 1 * b.val = b.val; omega

/-- Row block t of the other feature group. -/
theorem r6_b2_apply (c : Dev nD) (t : Fin cfg6.N) (a : Fin 1024) (b : Fin 128) (p : Fin 8192)
    (hp : p.val = t.val * 1024 + a.val) : r6_b2 V c t (ix2 a b) = r6_resid V c (ix2 p b) := by
  obtain ⟨-, -, -, -, e20, e21, -⟩ := r6_idx_facts t
  show V c (Pipeline.arrRef spec6 2) (((cfg6.win 2).blk t).view.emb (ix2 a b)) = V c (Pipeline.arrRef spec6 2) (ix2 p b)
  refine congrArg _ (funext fun d => Fin.ext ?_)
  match d with
  | ⟨0, _⟩ => show win6_2.index t (0 : Fin 2) * 1024 + 1 * a.val = p.val; omega
  | ⟨1, _⟩ => show win6_2.index t (1 : Fin 2) * 128 + 1 * b.val = b.val; omega

/-- The bias row's one block is the array. -/
theorem r6_b3_apply (c : Dev nD) (t : Fin cfg6.N) (b : Fin 64) :
    r6_b3 V c t (ix2 (0 : Fin 1) b) = r6_bias V c (ix2 (0 : Fin 1) b) := by
  obtain ⟨-, -, -, -, -, -, e30, e31, -⟩ := r6_idx_facts t
  show V c (Pipeline.arrRef spec6 3) (((cfg6.win 3).blk t).view.emb (ix2 (0 : Fin 1) b)) = V c (Pipeline.arrRef spec6 3) (ix2 (0 : Fin 1) b)
  refine congrArg _ (funext fun d => Fin.ext ?_)
  match d with
  | ⟨0, _⟩ => show win6_3.index t (0 : Fin 2) * 1 + 1 * 0 = 0; omega
  | ⟨1, _⟩ => show win6_3.index t (1 : Fin 2) * 64 + 1 * b.val = b.val; omega

/-- WHAT POINT t WRITES BACK is block t of the array the region leaves. -/
theorem r6_flushed_eq (c : Dev nD) (t : Fin cfg6.N) :
    (dat6 (F := Ideal) V c).flushed 4 t = ((cfg6.win 4).blk t).view.read (Elt Ideal) (r6_G V c) := by
  show (cfg6.win 4).cut (grid6.coords t) ((dat6 (F := Ideal) V c).after 4 t) = _
  rw [after6_4]
  obtain ⟨-, -, -, -, -, -, -, -, e40, e41⟩ := r6_idx_facts t
  funext j
  have hj0 : (j 0).val < 1024 := (j 0).isLt
  have hj1 : (j 1).val < 192 := (j 1).isLt
  have ht : t.val < 8 := lt_of_lt_of_eq t.isLt N_6
  have hp : t.val * 1024 + (j 0).val < 8192 := by omega
  have hemb : ((cfg6.win 4).blk t).view.emb j
      = ix2 (⟨t.val * 1024 + (j 0).val, hp⟩ : Fin 8192) (⟨(j 1).val, hj1⟩ : Fin 192) := by
    funext d; apply Fin.ext
    match d with
    | ⟨0, _⟩ => show win6_4.index t (0 : Fin 2) * 1024 + 1 * (j 0).val = t.val * 1024 + (j 0).val; omega
    | ⟨1, _⟩ => show win6_4.index t (1 : Fin 2) * 192 + 1 * (j 1).val = (j 1).val; omega
  show outsAt6 (F := Ideal) V c t ((cfg6.win 4).xinj (grid6.coords t) j) = r6_G V c (((cfg6.win 4).blk t).view.emb j)
  rw [hemb]
  show _ = r6_val V c (⟨t.val * 1024 + (j 0).val, hp⟩ : Fin 8192) (⟨(j 1).val, hj1⟩ : Fin 192)
  unfold outsAt6 r6_val
  by_cases h : (j 1).val < 64
  · rw [dif_pos h]
    refine (r6_out_lo c (grid6.coords t) (ms6_0 t) (hs6_0 t) (ms6_1 t) (hs6_1 t) (ms6_2 t) (hs6_2 t) (ms6_3 t) (hs6_3 t)
      (ms6_4 t) (hs6_4 t) (r6_b0 V c t) (r6_b1 V c t) (r6_b2 V c t) (r6_b3 V c t)
      ((cfg6.win 4).xinj (grid6.coords t) j) (⟨(j 0).val, hj0⟩ : Fin 1024) (⟨(j 1).val, h⟩ : Fin 64) rfl rfl).trans ?_
    refine (r6_pay1_apply (r6_b0 V c t) (r6_b1 V c t) (r6_b3 V c t) (⟨(j 0).val, hj0⟩ : Fin 1024) (⟨(j 1).val, h⟩ : Fin 64)).trans ?_
    refine congrArg₂ max (congrArg₂ (· + ·) (Finset.sum_congr rfl fun k _ =>
      congrArg₂ (· * ·) (r6_b0_apply V c t (⟨(j 0).val, hj0⟩ : Fin 1024) k (⟨t.val * 1024 + (j 0).val, hp⟩ : Fin 8192) rfl)
        (r6_b1_apply V c t k (⟨(j 1).val, h⟩ : Fin 64))) (r6_b3_apply V c t (⟨(j 1).val, h⟩ : Fin 64))) rfl
  · rw [dif_neg h]
    have h128 : (j 1).val - 64 < 128 := by omega
    refine (r6_out_hi c (grid6.coords t) (ms6_0 t) (hs6_0 t) (ms6_1 t) (hs6_1 t) (ms6_2 t) (hs6_2 t) (ms6_3 t) (hs6_3 t)
      (ms6_4 t) (hs6_4 t) (r6_b0 V c t) (r6_b1 V c t) (r6_b2 V c t) (r6_b3 V c t)
      ((cfg6.win 4).xinj (grid6.coords t) j) (⟨(j 0).val, hj0⟩ : Fin 1024) (⟨(j 1).val - 64, h128⟩ : Fin 128) rfl
      (by show (j 1).val = 64 + ((j 1).val - 64); omega)).trans ?_
    refine (r6_pay2_apply (r6_b2 V c t) (⟨(j 0).val, hj0⟩ : Fin 1024) (⟨(j 1).val - 64, h128⟩ : Fin 128)).trans ?_
    exact congrArg₂ max (r6_b2_apply V c t (⟨(j 0).val, hj0⟩ : Fin 1024) (⟨(j 1).val - 64, h128⟩ : Fin 128)
      (⟨t.val * 1024 + (j 0).val, hp⟩ : Fin 8192) rfl) rfl

/-! ## The points' blocks cover the array -/

/-- An index of the array is in point t's block iff each coordinate is in the block's range on its axis. -/
theorem r6_mem_blk (t : Fin cfg6.N) (i : S8192x192.Idx) :
    i ∈ ((cfg6.win 4).blk t).view.set ↔ ∀ a : Fin 2, win6_4.index t a * S1024x192.size a ≤ (i a).val
      ∧ (i a).val < win6_4.index t a * S1024x192.size a + S1024x192.size a := by
  show i ∈ ((View.whole (Pipeline.arrRef spec6 4)).slice (win6_4.rect t)).set ↔ _
  rw [View.set_slice_whole, Rect.mem_set_unit]
  exact Iff.rfl

/-- Row r of the array is in the block of point r / 1024. -/
theorem r6_cover (i : S8192x192.Idx) :
    ∃ t : Fin cfg6.N, (cfg6.win 4).flush t = true ∧ i ∈ ((cfg6.win 4).blk t).view.set := by
  have hi0 : (i 0).val < 8192 := (i 0).isLt
  have hi1 : (i 1).val < 192 := (i 1).isLt
  have hlt : (i 0).val / 1024 < cfg6.N := lt_of_lt_of_eq (by omega : (i 0).val / 1024 < 8) N_6.symm
  obtain ⟨-, -, -, -, -, -, -, -, e40, e41⟩ := r6_idx_facts ⟨(i 0).val / 1024, hlt⟩
  refine ⟨⟨(i 0).val / 1024, hlt⟩, flush6_4 _, ?_⟩
  rw [r6_mem_blk]
  intro a
  match a with
  | ⟨0, _⟩ =>
    show win6_4.index ⟨(i 0).val / 1024, hlt⟩ (0 : Fin 2) * 1024 ≤ (i 0).val
      ∧ (i 0).val < win6_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win6_4.index ⟨(i 0).val / 1024, hlt⟩ (1 : Fin 2) * 192 ≤ (i 1).val
      ∧ (i 1).val < win6_4.index ⟨(i 0).val / 1024, hlt⟩ (1 : Fin 2) * 192 + 192
    rw [e41]; omega

/-! ## The output array after the region -/

/-- The output array ends holding the array of the entries above. -/
theorem r6_final (c : Dev nD) : (dat6 (F := Ideal) V c).arrAt 4 cfg6.N = r6_G V c :=
  (dat6 (F := Ideal) V c).arrAt_eq_of_cover 4 (r6_G V c) (fun t _ => r6_flushed_eq V c t) r6_cover

/-- Columns [0, 64): the aggregated, biased, rectified features. -/
theorem r6_lo (c : Dev nD) (p : Fin 8192) (q : Fin 64) :
    (dat6 (F := Ideal) V c).arrAt 4 cfg6.N (ix2 p (⟨q.val, by have := q.isLt; omega⟩ : Fin 192))
      = max ((∑ k : Fin 8192, r6_adj V c (ix2 p k) * r6_scaled V c (ix2 k q)) + r6_bias V c (ix2 (0 : Fin 1) q))
          (Ideal.ofBits .f32 0x00000000#32) := by
  rw [r6_final]
  show r6_val V c p (⟨q.val, _⟩ : Fin 192) = _
  unfold r6_val
  rw [dif_pos (show (⟨q.val, _⟩ : Fin 192).val < 64 from q.isLt)]

/-- Columns [64, 192): the other feature group, rectified. -/
theorem r6_hi (c : Dev nD) (p : Fin 8192) (q : Fin 128) :
    (dat6 (F := Ideal) V c).arrAt 4 cfg6.N (ix2 p (⟨64 + q.val, by have := q.isLt; omega⟩ : Fin 192))
      = max (r6_resid V c (ix2 p q)) (Ideal.ofBits .f32 0x00000000#32) := by
  rw [r6_final]
  show r6_val V c p (⟨64 + q.val, _⟩ : Fin 192) = _
  unfold r6_val
  rw [dif_neg (show ¬ (⟨64 + q.val, _⟩ : Fin 192).val < 64 from by show ¬ 64 + q.val < 64; omega)]
  refine congrArg₂ max (congrArg _ (congrArg (ix2 p) (Fin.ext ?_))) rfl
  show 64 + q.val - 64 = q.val
  omega

end Cert.KernelIdeal.KV

end
-- ==== Proof.KV.L3.lean ====
/-
  Layer 3 of the first program (a plain middle layer, weight page 1): what its two
  pallas_calls leave in the output array, entry by entry, is the layer's specification applied to the entries of its input array.
-/
import proofs.«405499_j28269474742810_3_alg».proof.Proof.KV.R5
import proofs.«405499_j28269474742810_3_alg».proof.Proof.KV.R6
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L3_w (c : Dev nD) : V8 m ρ c main_arg5 = m ((c : Thread nD τ).loc main_arg5) := tr_main_arg5_0_8 m ρ c
theorem L3_b (c : Dev nD) : V8 m ρ c main_arg6 = m ((c : Thread nD τ).loc main_arg6) := tr_main_arg6_0_8 m ρ c

/-- The scaled column group of the layer's weights, at an entry. -/
theorem L3_ws (c : Dev nD) (l : Fin 192) (q : Fin 64) : V9 m ρ c main_v26 (ix2 l q) = (P m c).Wm 1 l ⟨q.val, by omega⟩ := by
  have e : V9 m ρ c main_v26 = extractStridedSlice S192x64 ![0, 0] (shapeCast S192x192 (extractStridedSlice S1x192x192 ![1, 0, 0] (V8 m ρ c main_arg5) slices_S12x192x192_S1x192x192_1_0_0) shapeCasts_S1x192x192_S192x192) slices_S192x192_S192x64_0_0 := by
    show StableHlo.after hostOps5 (W8 m ρ c) (Proc.devRef .tc main_v26) = _
    after_results <;> rfl
  rw [e, Cert.Slices.cols_apply _ 0 _ l q (by omega), Cert.Slices.page_apply _ 1 (by omega), L3_w]
  show _ = m ((c : Thread nD τ).loc main_arg5) (ix3 (1 : Fin 12) l ⟨q.val, by omega⟩)
  congr 2
  exact Fin.ext (Nat.zero_add _)

/-- The pass-through column group of the layer's weights, at an entry. -/
theorem L3_wr (c : Dev nD) (l : Fin 192) (q : Fin 128) : V9 m ρ c main_v27 (ix2 l q) = (P m c).Wm 1 l ⟨64 + q.val, by omega⟩ := by
  have e : V9 m ρ c main_v27 = extractStridedSlice S192x128 ![0, 64] (shapeCast S192x192 (extractStridedSlice S1x192x192 ![1, 0, 0] (V8 m ρ c main_arg5) slices_S12x192x192_S1x192x192_1_0_0) shapeCasts_S1x192x192_S192x192) slices_S192x192_S192x128_0_64 := by
    show StableHlo.after hostOps5 (W8 m ρ c) (Proc.devRef .tc main_v27) = _
    after_results <;> rfl
  rw [e, Cert.Slices.cols_apply _ 64 _ l q (by omega), Cert.Slices.page_apply _ 1 (by omega), L3_w]
  rfl

/-- The bias of the scaled columns, one row, at an entry. -/
theorem L3_bs (c : Dev nD) (q : Fin 64) : V9 m ρ c main_v29 (ix2 (0 : Fin 1) q) = (P m c).bm 1 ⟨q.val, by omega⟩ := by
  have e : V9 m ρ c main_v29 = shapeCast S1x64 (extractStridedSlice S64 ![0] (shapeCast S192 (extractStridedSlice S1x192 ![1, 0] (V8 m ρ c main_arg6) slices_S12x192_S1x192_1_0) shapeCasts_S1x192_S192) slices_S192_S64_0) shapeCasts_S64_S1x64 := by
    show StableHlo.after hostOps5 (W8 m ρ c) (Proc.devRef .tc main_v29) = _
    after_results <;> rfl
  rw [e, Cert.Slices.seg_row_apply _ 0 _ _ (0 : Fin 1) q (by omega), Cert.Slices.row_apply _ 1 (by omega), L3_b]
  show _ = m ((c : Thread nD τ).loc main_arg6) (ix2 (1 : Fin 12) ⟨q.val, by omega⟩)
  congr 2
  exact Fin.ext (Nat.zero_add _)

/-- The bias of the pass-through columns, one row, at an entry. -/
theorem L3_br (c : Dev nD) (q : Fin 128) : V9 m ρ c main_v31 (ix2 (0 : Fin 1) q) = (P m c).bm 1 ⟨64 + q.val, by omega⟩ := by
  have e : V9 m ρ c main_v31 = shapeCast S1x128 (extractStridedSlice S128 ![64] (shapeCast S192 (extractStridedSlice S1x192 ![1, 0] (V8 m ρ c main_arg6) slices_S12x192_S1x192_1_0) shapeCasts_S1x192_S192) slices_S192_S128_64) shapeCasts_S128_S1x128 := by
    show StableHlo.after hostOps5 (W8 m ρ c) (Proc.devRef .tc main_v31) = _
    after_results <;> rfl
  rw [e, Cert.Slices.seg_row_apply _ 64 _ _ (0 : Fin 1) q (by omega), Cert.Slices.row_apply _ 1 (by omega), L3_b]
  rfl

/-- THE LAYER: the output array after its second pallas_call, at (p, j), is the layer's specification of the input array's entries. -/
theorem L3_out (c : Dev nD) (x : Cert.Spec.Mx 8192 192) (hx : ∀ k l, V8 m ρ c main_v21 (ix2 k l) = x k l)
    (p : Fin 8192) (j : Fin 192) : V11 m ρ c main_v33 (ix2 p j) = Cert.Spec.plainK (P m c) 1 x p j := by
  unfold Cert.Spec.plainK Cert.Spec.relu
  refine Cert.Spec.layer_assemble (S := 64) (R := 128) (O := 192) rfl (P m c).A x ((P m c).Wm 1) ((P m c).bm 1)
    (fun k => V9 m ρ c main_v1_1 (ix2 k (0 : Fin 1))) (fun k => ?hinv)
    (fun k q => V10 m ρ c main_v32_0 (ix2 k q)) (fun k q => ?hsc)
    (fun p q => V10 m ρ c main_v32_1 (ix2 p q)) (fun p q => ?hrs)
    (fun _ _ y => max y Cert.Spec.zero) (fun p j => V11 m ρ c main_v33 (ix2 p j)) (fun p q => ?hlo) (fun p q => ?hhi) p j
  case hinv =>
    exact (congrFun (tr_main_v1_1_2_9 m ρ c) (ix2 k (0 : Fin 1))).trans (inv_W2 m ρ c k)
  case hsc =>
    refine (congrFun (W10_arr m ρ c 5) (ix2 k q)).trans ((r5_scaled (V9 m ρ) c k q).trans ?_)
    refine congrArg (· * _) (Finset.sum_congr rfl fun l _ => ?_)
    exact congrArg₂ (· * ·) ((congrFun (tr_main_v21_8_9 m ρ c) (ix2 k l)).trans (hx k l)) (L3_ws m ρ c l q)
  case hrs =>
    refine (congrFun (W10_arr m ρ c 6) (ix2 p q)).trans ((r5_resid (V9 m ρ) c p q).trans ?_)
    refine congrArg₂ (· + ·) (Finset.sum_congr rfl fun l _ => ?_) (L3_br m ρ c q)
    exact congrArg₂ (· * ·) ((congrFun (tr_main_v21_8_9 m ρ c) (ix2 p l)).trans (hx p l)) (L3_wr m ρ c l q)
  case hlo =>
    refine (congrFun (W11_arr m ρ c 4) (ix2 p _)).trans ((r6_lo (V10 m ρ) c p q).trans ?_)
    refine congrArg (fun y : EReal => max y _) ?_
    refine congrArg₂ (· + ·) (Finset.sum_congr rfl fun k _ => ?_)
      ((congrFun (tr_main_v29_9_10 m ρ c) (ix2 (0 : Fin 1) q)).trans (L3_bs m ρ c q))
    exact congrArg (· * _) ((congrFun (tr_main_v1_0_2_10 m ρ c) (ix2 p k)).trans (adjb_W2 m ρ c p k))
  case hhi =>
    exact (congrFun (W11_arr m ρ c 4) (ix2 p _)).trans (r6_hi (V10 m ρ) c p q)

end Cert.KernelIdeal.KV

end
-- ==== Proof.KV.R7.lean ====
/-
  Region 7 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg7
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz7 : (![0, 0] : Fin 2 → Nat) = fun _ => 0 := funext fun a => by fin_cases a <;> rfl

/-! ## The payloads at an index -/

/-- The generated dimension record of the [2048,192]·[192,64] product is the plain one. -/
theorem dot7_scaled_eq : dot_S2048x192_S192x64_S2048x64_1_0_0_1_n_n = DotDims.plain 2048 192 64 := rfl
/-- The generated dimension record of the [2048,192]·[192,128] product is the plain one. -/
theorem dot7_resid_eq : dot_S2048x192_S192x128_S2048x128_1_0_0_1_n_n = DotDims.plain 2048 192 128 := rfl

/-- The narrowed copy of the x block is the x block (a format change is the identity on extended reals). -/
theorem xcast7_eq (v0 : FVec Ideal S2048x192 .f32) : k7_pay1 (F := Ideal) v0 = v0 := by
  unfold k7_pay1
  exact shapeCast_self v0 _

/-- The scaled payload at (a, b): (∑ₗ x(a, l) · W₁(l, b)) · s(a, 0). -/
theorem scaled7_pay_apply (v0 : FVec Ideal S2048x192 .f32) (v3 : FVec Ideal S192x64 .f32) (v11 : FVec Ideal S2048x1 .f32)
    (a : Fin 2048) (b : Fin 64) :
    k7_pay3 (F := Ideal) v0 v3 v11 (ix2 a b) = (∑ l : Fin 192, v0 (ix2 a l) * v3 (ix2 l b)) * v11 (ix2 a (0 : Fin 1)) := by
  unfold k7_pay3
  simp only [xcast7_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot7_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid7_pay_apply (v0 : FVec Ideal S2048x192 .f32) (v6 : FVec Ideal S192x128 .f32) (v15 : FVec Ideal S1x128 .f32)
    (a : Fin 2048) (b : Fin 128) :
    k7_pay2 (F := Ideal) v0 v6 v15 (ix2 a b) = (∑ l : Fin 192, v0 (ix2 a l) * v6 (ix2 l b)) + v15 (ix2 (0 : Fin 1) b) := by
  unfold k7_pay2
  simp only [xcast7_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot7_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin7 (c : Dev nD) : FVec Ideal S8192x192 .f32 := V c (Pipeline.arrRef spec7 0)
/-- The weight's scaled column group W₁. -/
abbrev wsc7 (c : Dev nD) : FVec Ideal S192x64 .f32 := V c (Pipeline.arrRef spec7 1)
/-- The weight's residual column group W₂. -/
abbrev wre7 (c : Dev nD) : FVec Ideal S192x128 .f32 := V c (Pipeline.arrRef spec7 2)
/-- The bias row b. -/
abbrev bia7 (c : Dev nD) : FVec Ideal S1x128 .f32 := V c (Pipeline.arrRef spec7 3)
/-- The column s of inverse row sums. -/
abbrev inv7 (c : Dev nD) : FVec Ideal S8192x1 .f32 := V c (Pipeline.arrRef spec7 4)

/-- Entry (p, q) of the scaled output. -/
def scaledAt7 (c : Dev nD) (p : Fin 8192) (q : Fin 64) : EReal :=
  (∑ l : Fin 192, xin7 V c (ix2 p l) * wsc7 V c (ix2 l q)) * inv7 V c (ix2 p (0 : Fin 1))

/-- Entry (p, q) of the residual output. -/
def residAt7 (c : Dev nD) (p : Fin 8192) (q : Fin 128) : EReal :=
  (∑ l : Fin 192, xin7 V c (ix2 p l) * wre7 V c (ix2 l q)) + bia7 V c (ix2 (0 : Fin 1) q)

/-- What the scaled output ends holding. -/
abbrev G7_5 (c : Dev nD) : FVec Ideal S8192x64 .bf16 := fun i => scaledAt7 V c ⟨(i 0).val, idx2_lt0 i⟩ ⟨(i 1).val, idx2_lt1 i⟩
/-- What the residual output ends holding. -/
abbrev G7_6 (c : Dev nD) : FVec Ideal S8192x128 .f32 := fun i => residAt7 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts7 : ∀ t : Fin cfg7.N,
    win7_0.index t (0 : Fin 2) = win7_5.index t (0 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = win7_5.index t (0 : Fin 2) ∧ win7_4.index t (1 : Fin 2) = 0
    ∧ win7_5.index t (1 : Fin 2) = 0
    ∧ win7_6.index t (0 : Fin 2) = win7_5.index t (0 : Fin 2) ∧ win7_6.index t (1 : Fin 2) = 0
    ∧ win7_5.index t (0 : Fin 2) < 4 :=
  (by decide +kernel : ∀ t : Fin grid7.N, _)

/-- Every row block is some point's, for the scaled output … -/
theorem idx_onto7_5 : ∀ q0 : Fin 4, ∃ t : Fin cfg7.N, win7_5.index t = ![q0.val, 0] :=
  (by decide +kernel : ∀ q0 : Fin 4, ∃ t : Fin grid7.N, win7_5.index t = ![q0.val, 0])

/-- … and for the residual output. -/
theorem idx_onto7_6 : ∀ q0 : Fin 4, ∃ t : Fin cfg7.N, win7_6.index t = ![q0.val, 0] :=
  (by decide +kernel : ∀ q0 : Fin 4, ∃ t : Fin grid7.N, win7_6.index t = ![q0.val, 0])

/-! ## Output window 5: the scaled output -/

/-- WHAT POINT t WRITES BACK is block t of the scaled output's function of the arrays. -/
theorem flushed7_5_eq (c : Dev nD) (t : Fin cfg7.N) :
    (dat7 (F := Ideal) V c).flushed 5 t = ((cfg7.win 5).blk t).view.read (Elt Ideal) (G7_5 V c) := by
  show (cfg7.win 5).cut (grid7.coords t) ((dat7 (F := Ideal) V c).after 5 t) = _
  rw [after7_5]
  unfold out7_5
  rw [View.canon_unit_zero hz7]
  simp only [View.ld_unit_zero (S := S2048x192) hz7, View.ld_unit_zero (S := S192x64) hz7, View.ld_unit_zero (S := S2048x1) hz7]
  obtain ⟨e00, e01, e10, e11, e20, e21, e30, e31, e40, e41, e51, e60, e61, e5⟩ := idx_facts7 t
  funext j
  obtain ⟨a, b, rfl⟩ : ∃ (a : Fin 2048) (b : Fin 64), j = ix2 a b := ⟨j 0, j 1, eq_ix2 j⟩
  refine (scaled7_pay_apply (iblk7 V c 0 t) (iblk7 V c 1 t) (iblk7 V c 4 t) a b).trans ?_
  show (∑ l : Fin 192, xin7 V c (((cfg7.win 0).blk t).view.emb (ix2 a l)) * wsc7 V c (((cfg7.win 1).blk t).view.emb (ix2 l b)))
      * inv7 V c (((cfg7.win 4).blk t).view.emb (ix2 a (0 : Fin 1)))
    = scaledAt7 V c ⟨((((cfg7.win 5).blk t).view.emb (ix2 a b)) 0).val, _⟩ ⟨((((cfg7.win 5).blk t).view.emb (ix2 a b)) 1).val, _⟩
  unfold scaledAt7
  refine congr (congrArg _ (Finset.sum_congr rfl fun l _ => congr (congrArg _ (congrArg _ ?_)) (congrArg _ ?_))) (congrArg _ ?_)
  · funext d; apply Fin.ext
    match d with
    | ⟨0, _⟩ => show win7_0.index t (0 : Fin 2) * 2048 + 1 * a.val = win7_5.index t (0 : Fin 2) * 2048 + 1 * a.val; omega
    | ⟨1, _⟩ => show win7_0.index t (1 : Fin 2) * 192 + 1 * l.val = l.val; omega
  · funext d; apply Fin.ext
    match d with
    | ⟨0, _⟩ => show win7_1.index t (0 : Fin 2) * 192 + 1 * l.val = l.val; omega
    | ⟨1, _⟩ => show win7_1.index t (1 : Fin 2) * 64 + 1 * b.val = win7_5.index t (1 : Fin 2) * 64 + 1 * b.val; omega
  · funext d; apply Fin.ext
    match d with
    | ⟨0, _⟩ => show win7_4.index t (0 : Fin 2) * 2048 + 1 * a.val = win7_5.index t (0 : Fin 2) * 2048 + 1 * a.val; omega
    | ⟨1, _⟩ => show win7_4.index t (1 : Fin 2) * 1 + 1 * 0 = 0; omega

/-- An index of the scaled output is in point t's block iff each coordinate is in the block's range on its axis. -/
theorem mem_blk7_5 (t : Fin cfg7.N) (i : S8192x64.Idx) :
    i ∈ ((cfg7.win 5).blk t).view.set ↔ ∀ a : Fin 2, win7_5.index t a * S2048x64.size a ≤ (i a).val ∧ (i a).val < win7_5.index t a * S2048x64.size a + S2048x64.size a := by
  show i ∈ ((View.whole (Pipeline.arrRef spec7 5)).slice (win7_5.rect t)).set ↔ _
  rw [View.set_slice_whole, Rect.mem_set_unit]
  exact Iff.rfl

/-- Every index is in the block of the point of its row block, row / 2048. -/
theorem covered7_5 (i : S8192x64.Idx) :
    ∃ t : Fin cfg7.N, (cfg7.win 5).flush t = true ∧ i ∈ ((cfg7.win 5).blk t).view.set := by
  have hi0 : (i 0).val < 8192 := (i 0).isLt
  have hi1 : (i 1).val < 64 := (i 1).isLt
  obtain ⟨t, ht⟩ := idx_onto7_5 ⟨(i 0).val / 2048, by omega⟩
  have q0 : win7_5.index t (0 : Fin 2) = (i 0).val / 2048 := congrFun ht 0
  have q1 : win7_5.index t (1 : Fin 2) = 0 := congrFun ht 1
  refine ⟨t, flush7_5 t, ?_⟩
  rw [mem_blk7_5]
  intro a
  match a with
  | ⟨0, _⟩ => show win7_5.index t (0 : Fin 2) * 2048 ≤ (i 0).val ∧ (i 0).val < win7_5.index t (0 : Fin 2) * 2048 + 2048; omega
  | ⟨1, _⟩ => show win7_5.index t (1 : Fin 2) * 64 ≤ (i 1).val ∧ (i 1).val < win7_5.index t (1 : Fin 2) * 64 + 64; omega

/-- THE SCALED OUTPUT after the region. -/
theorem arr7_5 (c : Dev nD) : (dat7 (F := Ideal) V c).arrAt 5 cfg7.N = G7_5 V c :=
  (dat7 (F := Ideal) V c).arrAt_eq_of_cover 5 (G7_5 V c) (fun t _ => flushed7_5_eq V c t) covered7_5

theorem r7_scaled (c : Dev nD) (p : Fin 8192) (q : Fin 64) :
    (dat7 (F := Ideal) V c).arrAt 5 cfg7.N (ix2 p q)
      = (∑ l : Fin 192, xin7 V c (ix2 p l) * wsc7 V c (ix2 l q)) * inv7 V c (ix2 p (0 : Fin 1)) :=
  congrFun (arr7_5 V c) (ix2 p q)

/-! ## Output window 6: the residual output -/

/-- WHAT POINT t WRITES BACK is block t of the residual output's function of the arrays. -/
theorem flushed7_6_eq (c : Dev nD) (t : Fin cfg7.N) :
    (dat7 (F := Ideal) V c).flushed 6 t = ((cfg7.win 6).blk t).view.read (Elt Ideal) (G7_6 V c) := by
  show (cfg7.win 6).cut (grid7.coords t) ((dat7 (F := Ideal) V c).after 6 t) = _
  rw [after7_6]
  unfold out7_6
  rw [View.canon_unit_zero hz7]
  simp only [View.ld_unit_zero (S := S2048x192) hz7, View.ld_unit_zero (S := S192x128) hz7, View.ld_unit_zero (S := S1x128) hz7]
  obtain ⟨e00, e01, e10, e11, e20, e21, e30, e31, e40, e41, e51, e60, e61, e5⟩ := idx_facts7 t
  funext j
  obtain ⟨a, b, rfl⟩ : ∃ (a : Fin 2048) (b : Fin 128), j = ix2 a b := ⟨j 0, j 1, eq_ix2 j⟩
  refine (resid7_pay_apply (iblk7 V c 0 t) (iblk7 V c 2 t) (iblk7 V c 3 t) a b).trans ?_
  show (∑ l : Fin 192, xin7 V c (((cfg7.win 0).blk t).view.emb (ix2 a l)) * wre7 V c (((cfg7.win 2).blk t).view.emb (ix2 l b)))
      + bia7 V c (((cfg7.win 3).blk t).view.emb (ix2 (0 : Fin 1) b))
    = residAt7 V c ⟨((((cfg7.win 6).blk t).view.emb (ix2 a b)) 0).val, _⟩ ⟨((((cfg7.win 6).blk t).view.emb (ix2 a b)) 1).val, _⟩
  unfold residAt7
  refine congr (congrArg _ (Finset.sum_congr rfl fun l _ => congr (congrArg _ (congrArg _ ?_)) (congrArg _ ?_))) (congrArg _ ?_)
  · funext d; apply Fin.ext
    match d with
    | ⟨0, _⟩ => show win7_0.index t (0 : Fin 2) * 2048 + 1 * a.val = win7_6.index t (0 : Fin 2) * 2048 + 1 * a.val; omega
    | ⟨1, _⟩ => show win7_0.index t (1 : Fin 2) * 192 + 1 * l.val = l.val; omega
  · funext d; apply Fin.ext
    match d with
    | ⟨0, _⟩ => show win7_2.index t (0 : Fin 2) * 192 + 1 * l.val = l.val; omega
    | ⟨1, _⟩ => show win7_2.index t (1 : Fin 2) * 128 + 1 * b.val = win7_6.index t (1 : Fin 2) * 128 + 1 * b.val; omega
  · funext d; apply Fin.ext
    match d with
    | ⟨0, _⟩ => show win7_3.index t (0 : Fin 2) * 1 + 1 * 0 = 0; omega
    | ⟨1, _⟩ => show win7_3.index t (1 : Fin 2) * 128 + 1 * b.val = win7_6.index t (1 : Fin 2) * 128 + 1 * b.val; omega

/-- An index of the residual output is in point t's block iff each coordinate is in the block's range on its axis. -/
theorem mem_blk7_6 (t : Fin cfg7.N) (i : S8192x128.Idx) :
    i ∈ ((cfg7.win 6).blk t).view.set ↔ ∀ a : Fin 2, win7_6.index t a * S2048x128.size a ≤ (i a).val ∧ (i a).val < win7_6.index t a * S2048x128.size a + S2048x128.size a := by
  show i ∈ ((View.whole (Pipeline.arrRef spec7 6)).slice (win7_6.rect t)).set ↔ _
  rw [View.set_slice_whole, Rect.mem_set_unit]
  exact Iff.rfl

/-- Every index is in the block of the point of its row block, row / 2048. -/
theorem covered7_6 (i : S8192x128.Idx) :
    ∃ t : Fin cfg7.N, (cfg7.win 6).flush t = true ∧ i ∈ ((cfg7.win 6).blk t).view.set := by
  have hi0 : (i 0).val < 8192 := (i 0).isLt
  have hi1 : (i 1).val < 128 := (i 1).isLt
  obtain ⟨t, ht⟩ := idx_onto7_6 ⟨(i 0).val / 2048, by omega⟩
  have q0 : win7_6.index t (0 : Fin 2) = (i 0).val / 2048 := congrFun ht 0
  have q1 : win7_6.index t (1 : Fin 2) = 0 := congrFun ht 1
  refine ⟨t, flush7_6 t, ?_⟩
  rw [mem_blk7_6]
  intro a
  match a with
  | ⟨0, _⟩ => show win7_6.index t (0 : Fin 2) * 2048 ≤ (i 0).val ∧ (i 0).val < win7_6.index t (0 : Fin 2) * 2048 + 2048; omega
  | ⟨1, _⟩ => show win7_6.index t (1 : Fin 2) * 128 ≤ (i 1).val ∧ (i 1).val < win7_6.index t (1 : Fin 2) * 128 + 128; omega

/-- THE RESIDUAL OUTPUT after the region. -/
theorem arr7_6 (c : Dev nD) : (dat7 (F := Ideal) V c).arrAt 6 cfg7.N = G7_6 V c :=
  (dat7 (F := Ideal) V c).arrAt_eq_of_cover 6 (G7_6 V c) (fun t _ => flushed7_6_eq V c t) covered7_6

theorem r7_resid (c : Dev nD) (p : Fin 8192) (q : Fin 128) :
    (dat7 (F := Ideal) V c).arrAt 6 cfg7.N (ix2 p q)
      = (∑ l : Fin 192, xin7 V c (ix2 p l) * wre7 V c (ix2 l q)) + bia7 V c (ix2 (0 : Fin 1) q) :=
  congrFun (arr7_6 V c) (ix2 p q)

end Cert.KernelIdeal.KV

end
-- ==== Proof.KV.R8.lean ====
/-
  Region 8, an aggregation layer with rectifier and the residual average: what its output array holds after the region,
  entry by entry, as a function of the arrays the region finds.

  The body writes its output block [1024, 192] by two column slices: columns [0, 64) hold
  (H + max(A·S + b, 0))·½ and columns [64, 192) hold (H + max(R, 0))·½, where A is the row block of the adjacency, S the
  scaled features, b the bias row broadcast over the rows, R the row block of the other feature group, and H the same
  columns of the row block of the previous layer's features. The two slices are disjoint and cover the block, so each
  entry of the block is the payload of the slice that holds it. Row block t of the output array is written by grid
  point t (8 points of 1024 rows), and the points' blocks cover the array.
-/
import proofs.«405499_j28269474742810_3_alg».proof.Proof.Fr.KernelIdeal.Reg8
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r8_hz : (![0, 0] : Fin 2 → Nat) = fun _ => 0 := funext fun a => match a with | ⟨0, _⟩ => rfl | ⟨1, _⟩ => rfl

/-- The product's dimension numbers are those of a plain M×K by K×N product. -/
theorem r8_dot_plain : dot_S1024x8192_S8192x64_S1024x64_1_0_0_1_n_n = DotDims.plain 1024 8192 64 := rfl

/-- Columns [0, 64) at entry (a, b): the previous features' entry plus the rectified (product's entry plus the bias of
    column b), halved. -/
theorem r8_pay1_apply (x0 : Vec Ideal S1024x8192 .bf16) (x1 : Vec Ideal S8192x64 .bf16) (x3 : Vec Ideal S1x64 .f32)
    (u : Vec Ideal S1024x64 .f32) (a : Fin 1024) (b : Fin 64) :
    k8_pay1 (F := Ideal) x0 x1 x3 u (ix2 a b)
      = (u (ix2 a b) + max ((∑ k : Fin 8192, x0 (ix2 a k) * x1 (ix2 k b)) + x3 (ix2 (0 : Fin 1) b)) (Ideal.ofBits .f32 0x00000000#32))
          * Ideal.ofBits .f32 0x3F000000#32 := by
  unfold k8_pay1
  simp only [shapeCast_self]
  show (u (ix2 a b) + max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32)) * Ideal.ofBits .f32 0x3F000000#32 = _
  rw [r8_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the previous features' entry plus the other feature group's rectified entry, halved. -/
theorem r8_pay2_apply (x2 : Vec Ideal S1024x128 .f32) (u : Vec Ideal S1024x128 .f32) (a : Fin 1024) (b : Fin 128) :
    k8_pay2 (F := Ideal) x2 u (ix2 a b)
      = (u (ix2 a b) + max (x2 (ix2 a b)) (Ideal.ofBits .f32 0x00000000#32)) * Ideal.ofBits .f32 0x3F000000#32 := by
  unfold k8_pay2
  simp only [shapeCast_self]
  rfl

/-! ## What the body leaves in the output block: each entry is the payload of the slice that holds it -/

/-- An entry in columns [0, 64): off the later slice, under the earlier one. -/
theorem r8_out_lo (c : Dev nD) (i : grid8.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 64) (hy0 : (y 0).val = a.val) (hy1 : (y 1).val = b.val) :
    out8_A_5 (F := Ideal) c i a1 h1 a2 h2 a3 h3 a4 h4 a5 h5 a6 h6 x0 x1 x2 x3 x4 y
      = k8_pay1 (F := Ideal) x0 x1 x3
          (View.ld x4 (Rect.unit (s := S1024x192) ![0, 0] S1024x64.size inb_S1024x192_S1024x64_0_0)) (ix2 a b) := by
  unfold out8_A_5
  rw [View.read_writes_eq_canon _ _ _ (cover8_A_5 c i a1 h1 a2 h2 a3 h3 a4 h4 a5 h5 a6 h6 x0 x1 x2 x3 x4)]
  unfold kernelRun8_A
  dsimp only
  sl_unfold_words
  simp only [View.readAt_eq_ld, h1.read_unread, h2.read_unread, h3.read_unread, h4.read_unread, h5.read_unread,
    View.ld_unit_zero (S := S1024x8192) r8_hz, View.ld_unit_zero (S := S8192x64) r8_hz,
    View.ld_unit_zero (S := S1024x128) r8_hz, View.ld_unit_zero (S := S1x64) r8_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r8_out_hi (c : Dev nD) (i : grid8.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 128) (hy0 : (y 0).val = a.val) (hy1 : (y 1).val = 64 + b.val) :
    out8_A_5 (F := Ideal) c i a1 h1 a2 h2 a3 h3 a4 h4 a5 h5 a6 h6 x0 x1 x2 x3 x4 y
      = k8_pay2 (F := Ideal) x2
          (View.ld x4 (Rect.unit (s := S1024x192) ![0, 64] S1024x128.size inb_S1024x192_S1024x128_0_64)) (ix2 a b) := by
  unfold out8_A_5
  rw [View.read_writes_eq_canon _ _ _ (cover8_A_5 c i a1 h1 a2 h2 a3 h3 a4 h4 a5 h5 a6 h6 x0 x1 x2 x3 x4)]
  unfold kernelRun8_A
  dsimp only
  sl_unfold_words
  simp only [View.readAt_eq_ld, h1.read_unread, h2.read_unread, h3.read_unread, h4.read_unread, h5.read_unread,
    View.ld_unit_zero (S := S1024x8192) r8_hz, View.ld_unit_zero (S := S8192x64) r8_hz,
    View.ld_unit_zero (S := S1024x128) r8_hz, View.ld_unit_zero (S := S1x64) r8_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group, the bias row and the previous layer's
    features, as the region finds them. -/
abbrev r8_adj (c : Dev nD) : Vec Ideal S8192x8192 .bf16 := V c (Pipeline.arrRef spec8 0)
abbrev r8_scaled (c : Dev nD) : Vec Ideal S8192x64 .bf16 := V c (Pipeline.arrRef spec8 1)
abbrev r8_resid (c : Dev nD) : Vec Ideal S8192x128 .f32 := V c (Pipeline.arrRef spec8 2)
abbrev r8_bias (c : Dev nD) : Vec Ideal S1x64 .f32 := V c (Pipeline.arrRef spec8 3)
abbrev r8_prev (c : Dev nD) : Vec Ideal S8192x192 .f32 := V c (Pipeline.arrRef spec8 4)

/-- The windows' blocks at a point, at their literal types. -/
abbrev r8_b0 (c : Dev nD) (t : Fin cfg8.N) : Vec Ideal S1024x8192 .bf16 := iblk8 (F := Ideal) V c 0 t
abbrev r8_b1 (c : Dev nD) (t : Fin cfg8.N) : Vec Ideal S8192x64 .bf16 := iblk8 (F := Ideal) V c 1 t
abbrev r8_b2 (c : Dev nD) (t : Fin cfg8.N) : Vec Ideal S1024x128 .f32 := iblk8 (F := Ideal) V c 2 t
abbrev r8_b3 (c : Dev nD) (t : Fin cfg8.N) : Vec Ideal S1x64 .f32 := iblk8 (F := Ideal) V c 3 t
abbrev r8_b4 (c : Dev nD) (t : Fin cfg8.N) : Vec Ideal S1024x192 .f32 := iblk8 (F := Ideal) V c 4 t

/-- Entry (p, q) of the array the region leaves. -/
def r8_val (c : Dev nD) (p : Fin 8192) (q : Fin 192) : EReal :=
  if h : q.val < 64 then
    (r8_prev V c (ix2 p q)
      + max ((∑ k : Fin 8192, r8_adj V c (ix2 p k) * r8_scaled V c (ix2 k (⟨q.val, h⟩ : Fin 64)))
          + r8_bias V c (ix2 (0 : Fin 1) (⟨q.val, h⟩ : Fin 64))) (Ideal.ofBits .f32 0x00000000#32))
      * Ideal.ofBits .f32 0x3F000000#32
  else
    (r8_prev V c (ix2 p q)
      + max (r8_resid V c (ix2 p (⟨q.val - 64, by have := q.isLt; omega⟩ : Fin 128))) (Ideal.ofBits .f32 0x00000000#32))
      * Ideal.ofBits .f32 0x3F000000#32

/-- The array the region leaves. -/
def r8_G (c : Dev nD) : Vec Ideal S8192x192 .f32 := fun i => r8_val V c (i 0) (i 1)

/-- The printed index maps, decided over the grid: the row-blocked windows are at block row t, column block 0; the whole
    windows at block (0, 0). -/
theorem r8_idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

/-- Row block t of the adjacency: entry (a, k) of the block is entry (1024 t + a, k) of the array. -/
theorem r8_b0_apply (c : Dev nD) (t : Fin cfg8.N) (a : Fin 1024) (k : Fin 8192) (p : Fin 8192)
    (hp : p.val = t.val * 1024 + a.val) : r8_b0 V c t (ix2 a k) = r8_adj V c (ix2 p k) := by
  obtain ⟨e00, e01, -⟩ := r8_idx_facts t
  show V c (Pipeline.arrRef spec8 0) (((cfg8.win 0).blk t).view.emb (ix2 a k)) = V c (Pipeline.arrRef spec8 0) (ix2 p k)
  refine congrArg _ (funext fun d => Fin.ext ?_)
  match d with
  | ⟨0, _⟩ => show win8_0.index t (0 : Fin 2) * 1024 + 1 * a.val = p.val; omega
  | ⟨1, _⟩ => show win8_0.index t (1 : Fin 2) * 8192 + 1 * k.val = k.val; omega

/-- The scaled features' one block is the array. -/
theorem r8_b1_apply (c : Dev nD) (t : Fin cfg8.N) (k : Fin 8192) (b : Fin 64) :
    r8_b1 V c t (ix2 k b) = r8_scaled V c (ix2 k b) := by
  obtain ⟨-, -, e10, e11, -⟩ := r8_idx_facts t
  show V c (Pipeline.arrRef spec8 1) (((cfg8.win 1).blk t).view.emb (ix2 k b)) = V c (Pipeline.arrRef spec8 1) (ix2 k b)
  refine congrArg _ (funext fun d => Fin.ext ?_)
  match d with
  | ⟨0, _⟩ => show win8_1.index t (0 : Fin 2) * 8192 + 1 * k.val = k.val; omega
  | ⟨1, _⟩ => show win8_1.index t (1 : Fin 2) * 64 + 1 * b.val = b.val; omega

/-- Row block t of the other feature group. -/
theorem r8_b2_apply (c : Dev nD) (t : Fin cfg8.N) (a : Fin 1024) (b : Fin 128) (p : Fin 8192)
    (hp : p.val = t.val * 1024 + a.val) : r8_b2 V c t (ix2 a b) = r8_resid V c (ix2 p b) := by
  obtain ⟨-, -, -, -, e20, e21, -⟩ := r8_idx_facts t
  show V c (Pipeline.arrRef spec8 2) (((cfg8.win 2).blk t).view.emb (ix2 a b)) = V c (Pipeline.arrRef spec8 2) (ix2 p b)
  refine congrArg _ (funext fun d => Fin.ext ?_)
  match d with
  | ⟨0, _⟩ => show win8_2.index t (0 : Fin 2) * 1024 + 1 * a.val = p.val; omega
  | ⟨1, _⟩ => show win8_2.index t (1 : Fin 2) * 128 + 1 * b.val = b.val; omega

/-- The bias row's one block is the array. -/
theorem r8_b3_apply (c : Dev nD) (t : Fin cfg8.N) (b : Fin 64) :
    r8_b3 V c t (ix2 (0 : Fin 1) b) = r8_bias V c (ix2 (0 : Fin 1) b) := by
  obtain ⟨-, -, -, -, -, -, e30, e31, -⟩ := r8_idx_facts t
  show V c (Pipeline.arrRef spec8 3) (((cfg8.win 3).blk t).view.emb (ix2 (0 : Fin 1) b)) = V c (Pipeline.arrRef spec8 3) (ix2 (0 : Fin 1) b)
  refine congrArg _ (funext fun d => Fin.ext ?_)
  match d with
  | ⟨0, _⟩ => show win8_3.index t (0 : Fin 2) * 1 + 1 * 0 = 0; omega
  | ⟨1, _⟩ => show win8_3.index t (1 : Fin 2) * 64 + 1 * b.val = b.val; omega

/-- Row block t of the previous layer's features: entry y of the block is entry (1024 t + y₀, y₁) of the array. -/
theorem r8_b4_apply (c : Dev nD) (t : Fin cfg8.N) (y : S1024x192.Idx) (p : Fin 8192) (q : Fin 192)
    (hp : p.val = t.val * 1024 + (y 0).val) (hq : q.val = (y 1).val) : r8_b4 V c t y = r8_prev V c (ix2 p q) := by
  obtain ⟨-, -, -, -, -, -, -, -, e40, e41, -⟩ := r8_idx_facts t
  show V c (Pipeline.arrRef spec8 4) (((cfg8.win 4).blk t).view.emb y) = V c (Pipeline.arrRef spec8 4) (ix2 p q)
  refine congrArg _ (funext fun d => Fin.ext ?_)
  match d with
  | ⟨0, _⟩ => show win8_4.index t (0 : Fin 2) * 1024 + 1 * (y 0).val = p.val; omega
  | ⟨1, _⟩ => show win8_4.index t (1 : Fin 2) * 192 + 1 * (y 1).val = q.val; omega

/-- WHAT POINT t WRITES BACK is block t of the array the region leaves. -/
theorem r8_flushed_eq (c : Dev nD) (t : Fin cfg8.N) :
    (dat8 (F := Ideal) V c).flushed 5 t = ((cfg8.win 5).blk t).view.read (Elt Ideal) (r8_G V c) := by
  show (cfg8.win 5).cut (grid8.coords t) ((dat8 (F := Ideal) V c).after 5 t) = _
  rw [after8_5]
  obtain ⟨-, -, -, -, -, -, -, -, -, -, e50, e51⟩ := r8_idx_facts t
  funext j
  have hj0 : (j 0).val < 1024 := (j 0).isLt
  have hj1 : (j 1).val < 192 := (j 1).isLt
  have ht : t.val < 8 := lt_of_lt_of_eq t.isLt N_8
  have hp : t.val * 1024 + (j 0).val < 8192 := by omega
  have hemb : ((cfg8.win 5).blk t).view.emb j
      = ix2 (⟨t.val * 1024 + (j 0).val, hp⟩ : Fin 8192) (⟨(j 1).val, hj1⟩ : Fin 192) := by
    funext d; apply Fin.ext
    match d with
    | ⟨0, _⟩ => show win8_5.index t (0 : Fin 2) * 1024 + 1 * (j 0).val = t.val * 1024 + (j 0).val; omega
    | ⟨1, _⟩ => show win8_5.index t (1 : Fin 2) * 192 + 1 * (j 1).val = (j 1).val; omega
  show outsAt8 (F := Ideal) V c t ((cfg8.win 5).xinj (grid8.coords t) j) = r8_G V c (((cfg8.win 5).blk t).view.emb j)
  rw [hemb]
  show _ = r8_val V c (⟨t.val * 1024 + (j 0).val, hp⟩ : Fin 8192) (⟨(j 1).val, hj1⟩ : Fin 192)
  unfold outsAt8 r8_val
  by_cases h : (j 1).val < 64
  · rw [dif_pos h]
    refine (r8_out_lo c (grid8.coords t) (ms8_0 t) (hs8_0 t) (ms8_1 t) (hs8_1 t) (ms8_2 t) (hs8_2 t) (ms8_3 t) (hs8_3 t)
      (ms8_4 t) (hs8_4 t) (ms8_5 t) (hs8_5 t) (r8_b0 V c t) (r8_b1 V c t) (r8_b2 V c t) (r8_b3 V c t) (r8_b4 V c t)
      ((cfg8.win 5).xinj (grid8.coords t) j) (⟨(j 0).val, hj0⟩ : Fin 1024) (⟨(j 1).val, h⟩ : Fin 64) rfl rfl).trans ?_
    refine (r8_pay1_apply (r8_b0 V c t) (r8_b1 V c t) (r8_b3 V c t)
      (View.ld (r8_b4 V c t) (Rect.unit (s := S1024x192) ![0, 0] S1024x64.size inb_S1024x192_S1024x64_0_0))
      (⟨(j 0).val, hj0⟩ : Fin 1024) (⟨(j 1).val, h⟩ : Fin 64)).trans ?_
    refine congrArg₂ (· * ·) (congrArg₂ (· + ·)
      (r8_b4_apply V c t
        ((Rect.unit (s := S1024x192) ![0, 0] S1024x64.size inb_S1024x192_S1024x64_0_0).idx
          (ix2 (⟨(j 0).val, hj0⟩ : Fin 1024) (⟨(j 1).val, h⟩ : Fin 64)))
        (⟨t.val * 1024 + (j 0).val, hp⟩ : Fin 8192) (⟨(j 1).val, hj1⟩ : Fin 192)
        (by show t.val * 1024 + (j 0).val = t.val * 1024 + (0 + 1 * (j 0).val); omega)
        (by show (j 1).val = 0 + 1 * (j 1).val; omega))
      (congrArg₂ max (congrArg₂ (· + ·) (Finset.sum_congr rfl fun k _ =>
        congrArg₂ (· * ·) (r8_b0_apply V c t (⟨(j 0).val, hj0⟩ : Fin 1024) k (⟨t.val * 1024 + (j 0).val, hp⟩ : Fin 8192) rfl)
          (r8_b1_apply V c t k (⟨(j 1).val, h⟩ : Fin 64))) (r8_b3_apply V c t (⟨(j 1).val, h⟩ : Fin 64))) rfl)) rfl
  · rw [dif_neg h]
    have h128 : (j 1).val - 64 < 128 := by omega
    refine (r8_out_hi c (grid8.coords t) (ms8_0 t) (hs8_0 t) (ms8_1 t) (hs8_1 t) (ms8_2 t) (hs8_2 t) (ms8_3 t) (hs8_3 t)
      (ms8_4 t) (hs8_4 t) (ms8_5 t) (hs8_5 t) (r8_b0 V c t) (r8_b1 V c t) (r8_b2 V c t) (r8_b3 V c t) (r8_b4 V c t)
      ((cfg8.win 5).xinj (grid8.coords t) j) (⟨(j 0).val, hj0⟩ : Fin 1024) (⟨(j 1).val - 64, h128⟩ : Fin 128) rfl
      (by show (j 1).val = 64 + ((j 1).val - 64); omega)).trans ?_
    refine (r8_pay2_apply (r8_b2 V c t)
      (View.ld (r8_b4 V c t) (Rect.unit (s := S1024x192) ![0, 64] S1024x128.size inb_S1024x192_S1024x128_0_64))
      (⟨(j 0).val, hj0⟩ : Fin 1024) (⟨(j 1).val - 64, h128⟩ : Fin 128)).trans ?_
    exact congrArg₂ (· * ·) (congrArg₂ (· + ·)
      (r8_b4_apply V c t
        ((Rect.unit (s := S1024x192) ![0, 64] S1024x128.size inb_S1024x192_S1024x128_0_64).idx
          (ix2 (⟨(j 0).val, hj0⟩ : Fin 1024) (⟨(j 1).val - 64, h128⟩ : Fin 128)))
        (⟨t.val * 1024 + (j 0).val, hp⟩ : Fin 8192) (⟨(j 1).val, hj1⟩ : Fin 192)
        (by show t.val * 1024 + (j 0).val = t.val * 1024 + (0 + 1 * (j 0).val); omega)
        (by show (j 1).val = 64 + 1 * ((j 1).val - 64); omega))
      (congrArg₂ max (r8_b2_apply V c t (⟨(j 0).val, hj0⟩ : Fin 1024) (⟨(j 1).val - 64, h128⟩ : Fin 128)
        (⟨t.val * 1024 + (j 0).val, hp⟩ : Fin 8192) rfl) rfl)) rfl

/-! ## The points' blocks cover the array -/

/-- An index of the array is in point t's block iff each coordinate is in the block's range on its axis. -/
theorem r8_mem_blk (t : Fin cfg8.N) (i : S8192x192.Idx) :
    i ∈ ((cfg8.win 5).blk t).view.set ↔ ∀ a : Fin 2, win8_5.index t a * S1024x192.size a ≤ (i a).val
      ∧ (i a).val < win8_5.index t a * S1024x192.size a + S1024x192.size a := by
  show i ∈ ((View.whole (Pipeline.arrRef spec8 5)).slice (win8_5.rect t)).set ↔ _
  rw [View.set_slice_whole, Rect.mem_set_unit]
  exact Iff.rfl

/-- Row r of the array is in the block of point r / 1024. -/
theorem r8_cover (i : S8192x192.Idx) :
    ∃ t : Fin cfg8.N, (cfg8.win 5).flush t = true ∧ i ∈ ((cfg8.win 5).blk t).view.set := by
  have hi0 : (i 0).val < 8192 := (i 0).isLt
  have hi1 : (i 1).val < 192 := (i 1).isLt
  have hlt : (i 0).val / 1024 < cfg8.N := lt_of_lt_of_eq (by omega : (i 0).val / 1024 < 8) N_8.symm
  obtain ⟨-, -, -, -, -, -, -, -, -, -, e50, e51⟩ := r8_idx_facts ⟨(i 0).val / 1024, hlt⟩
  refine ⟨⟨(i 0).val / 1024, hlt⟩, flush8_5 _, ?_⟩
  rw [r8_mem_blk]
  intro a
  match a with
  | ⟨0, _⟩ =>
    show win8_5.index ⟨(i 0).val / 1024, hlt⟩ (0 : Fin 2) * 1024 ≤ (i 0).val
      ∧ (i 0).val < win8_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win8_5.index ⟨(i 0).val / 1024, hlt⟩ (1 : Fin 2) * 192 ≤ (i 1).val
      ∧ (i 1).val < win8_5.index ⟨(i 0).val / 1024, hlt⟩ (1 : Fin 2) * 192 + 192
    rw [e51]; omega

/-! ## The output array after the region -/

/-- The output array ends holding the array of the entries above. -/
theorem r8_final (c : Dev nD) : (dat8 (F := Ideal) V c).arrAt 5 cfg8.N = r8_G V c :=
  (dat8 (F := Ideal) V c).arrAt_eq_of_cover 5 (r8_G V c) (fun t _ => r8_flushed_eq V c t) r8_cover

/-- Columns [0, 64): the average of the previous features and the aggregated, biased, rectified features. -/
theorem r8_lo (c : Dev nD) (p : Fin 8192) (q : Fin 64) :
    (dat8 (F := Ideal) V c).arrAt 5 cfg8.N (ix2 p (⟨q.val, by have := q.isLt; omega⟩ : Fin 192))
      = (r8_prev V c (ix2 p (⟨q.val, by have := q.isLt; omega⟩ : Fin 192))
          + max ((∑ k : Fin 8192, r8_adj V c (ix2 p k) * r8_scaled V c (ix2 k q)) + r8_bias V c (ix2 (0 : Fin 1) q))
              (Ideal.ofBits .f32 0x00000000#32)) * Ideal.ofBits .f32 0x3F000000#32 := by
  rw [r8_final]
  show r8_val V c p (⟨q.val, _⟩ : Fin 192) = _
  unfold r8_val
  rw [dif_pos (show (⟨q.val, _⟩ : Fin 192).val < 64 from q.isLt)]

/-- Columns [64, 192): the average of the previous features and the other feature group rectified. -/
theorem r8_hi (c : Dev nD) (p : Fin 8192) (q : Fin 128) :
    (dat8 (F := Ideal) V c).arrAt 5 cfg8.N (ix2 p (⟨64 + q.val, by have := q.isLt; omega⟩ : Fin 192))
      = (r8_prev V c (ix2 p (⟨64 + q.val, by have := q.isLt; omega⟩ : Fin 192))
          + max (r8_resid V c (ix2 p q)) (Ideal.ofBits .f32 0x00000000#32)) * Ideal.ofBits .f32 0x3F000000#32 := by
  rw [r8_final]
  show r8_val V c p (⟨64 + q.val, _⟩ : Fin 192) = _
  unfold r8_val
  rw [dif_neg (show ¬ (⟨64 + q.val, _⟩ : Fin 192).val < 64 from by show ¬ 64 + q.val < 64; omega)]
  refine congrArg₂ (· * ·) (congrArg₂ (· + ·) rfl (congrArg₂ max (congrArg _ (congrArg (ix2 p) (Fin.ext ?_))) rfl)) rfl
  show 64 + q.val - 64 = q.val
  omega

end Cert.KernelIdeal.KV

end
-- ==== Proof.KV.L4.lean ====
/-
  Layer 4 of the first program (a middle layer with the residual-and-halve step, weight page 2): what its two
  pallas_calls leave in the output array, entry by entry, is the layer's specification applied to the entries of its input array.
-/
import proofs.«405499_j28269474742810_3_alg».proof.Proof.KV.R7
import proofs.«405499_j28269474742810_3_alg».proof.Proof.KV.R8
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L4_w (c : Dev nD) : V11 m ρ c main_arg5 = m ((c : Thread nD τ).loc main_arg5) := tr_main_arg5_0_11 m ρ c
theorem L4_b (c : Dev nD) : V11 m ρ c main_arg6 = m ((c : Thread nD τ).loc main_arg6) := tr_main_arg6_0_11 m ρ c

/-- The scaled column group of the layer's weights, at an entry. -/
theorem L4_ws (c : Dev nD) (l : Fin 192) (q : Fin 64) : V12 m ρ c main_v38 (ix2 l q) = (P m c).Wm 2 l ⟨q.val, by omega⟩ := by
  have e : V12 m ρ c main_v38 = extractStridedSlice S192x64 ![0, 0] (shapeCast S192x192 (extractStridedSlice S1x192x192 ![2, 0, 0] (V11 m ρ c main_arg5) slices_S12x192x192_S1x192x192_2_0_0) shapeCasts_S1x192x192_S192x192) slices_S192x192_S192x64_0_0 := by
    show StableHlo.after hostOps7 (W11 m ρ c) (Proc.devRef .tc main_v38) = _
    after_results <;> rfl
  rw [e, Cert.Slices.cols_apply _ 0 _ l q (by omega), Cert.Slices.page_apply _ 2 (by omega), L4_w]
  show _ = m ((c : Thread nD τ).loc main_arg5) (ix3 (2 : Fin 12) l ⟨q.val, by omega⟩)
  congr 2
  exact Fin.ext (Nat.zero_add _)

/-- The pass-through column group of the layer's weights, at an entry. -/
theorem L4_wr (c : Dev nD) (l : Fin 192) (q : Fin 128) : V12 m ρ c main_v39 (ix2 l q) = (P m c).Wm 2 l ⟨64 + q.val, by omega⟩ := by
  have e : V12 m ρ c main_v39 = extractStridedSlice S192x128 ![0, 64] (shapeCast S192x192 (extractStridedSlice S1x192x192 ![2, 0, 0] (V11 m ρ c main_arg5) slices_S12x192x192_S1x192x192_2_0_0) shapeCasts_S1x192x192_S192x192) slices_S192x192_S192x128_0_64 := by
    show StableHlo.after hostOps7 (W11 m ρ c) (Proc.devRef .tc main_v39) = _
    after_results <;> rfl
  rw [e, Cert.Slices.cols_apply _ 64 _ l q (by omega), Cert.Slices.page_apply _ 2 (by omega), L4_w]
  rfl

/-- The bias of the scaled columns, one row, at an entry. -/
theorem L4_bs (c : Dev nD) (q : Fin 64) : V12 m ρ c main_v41 (ix2 (0 : Fin 1) q) = (P m c).bm 2 ⟨q.val, by omega⟩ := by
  have e : V12 m ρ c main_v41 = shapeCast S1x64 (extractStridedSlice S64 ![0] (shapeCast S192 (extractStridedSlice S1x192 ![2, 0] (V11 m ρ c main_arg6) slices_S12x192_S1x192_2_0) shapeCasts_S1x192_S192) slices_S192_S64_0) shapeCasts_S64_S1x64 := by
    show StableHlo.after hostOps7 (W11 m ρ c) (Proc.devRef .tc main_v41) = _
    after_results <;> rfl
  rw [e, Cert.Slices.seg_row_apply _ 0 _ _ (0 : Fin 1) q (by omega), Cert.Slices.row_apply _ 2 (by omega), L4_b]
  show _ = m ((c : Thread nD τ).loc main_arg6) (ix2 (2 : Fin 12) ⟨q.val, by omega⟩)
  congr 2
  exact Fin.ext (Nat.zero_add _)

/-- The bias of the pass-through columns, one row, at an entry. -/
theorem L4_br (c : Dev nD) (q : Fin 128) : V12 m ρ c main_v43 (ix2 (0 : Fin 1) q) = (P m c).bm 2 ⟨64 + q.val, by omega⟩ := by
  have e : V12 m ρ c main_v43 = shapeCast S1x128 (extractStridedSlice S128 ![64] (shapeCast S192 (extractStridedSlice S1x192 ![2, 0] (V11 m ρ c main_arg6) slices_S12x192_S1x192_2_0) shapeCasts_S1x192_S192) slices_S192_S128_64) shapeCasts_S128_S1x128 := by
    show StableHlo.after hostOps7 (W11 m ρ c) (Proc.devRef .tc main_v43) = _
    after_results <;> rfl
  rw [e, Cert.Slices.seg_row_apply _ 64 _ _ (0 : Fin 1) q (by omega), Cert.Slices.row_apply _ 2 (by omega), L4_b]
  rfl

/-- THE LAYER: the output array after its second pallas_call, at (p, j), is the layer's specification of the input array's entries and of the residual array's. -/
theorem L4_out (c : Dev nD) (x : Cert.Spec.Mx 8192 192) (hx : ∀ k l, V11 m ρ c main_v33 (ix2 k l) = x k l)
    (prev : Cert.Spec.Mx 8192 192) (hprev : ∀ p j, V8 m ρ c main_v21 (ix2 p j) = prev p j)
    (p : Fin 8192) (j : Fin 192) : V14 m ρ c main_v45 (ix2 p j) = Cert.Spec.residK (P m c) 2 prev x p j := by
  unfold Cert.Spec.residK Cert.Spec.resK Cert.Spec.relu
  have hp : ∀ p j, V13 m ρ c main_v21 (ix2 p j) = prev p j := fun p j =>
    (congrFun (tr_main_v21_8_13 m ρ c) (ix2 p j)).trans (hprev p j)
  refine Cert.Spec.layer_assemble (S := 64) (R := 128) (O := 192) rfl (P m c).A x ((P m c).Wm 2) ((P m c).bm 2)
    (fun k => V12 m ρ c main_v1_1 (ix2 k (0 : Fin 1))) (fun k => ?hinv)
    (fun k q => V13 m ρ c main_v44_0 (ix2 k q)) (fun k q => ?hsc)
    (fun p q => V13 m ρ c main_v44_1 (ix2 p q)) (fun p q => ?hrs)
    (fun p j y => (prev p j + max y Cert.Spec.zero) * Cert.Spec.half) (fun p j => V14 m ρ c main_v45 (ix2 p j)) (fun p q => ?hlo) (fun p q => ?hhi) p j
  case hinv =>
    exact (congrFun (tr_main_v1_1_2_12 m ρ c) (ix2 k (0 : Fin 1))).trans (inv_W2 m ρ c k)
  case hsc =>
    refine (congrFun (W13_arr m ρ c 5) (ix2 k q)).trans ((r7_scaled (V12 m ρ) c k q).trans ?_)
    refine congrArg (· * _) (Finset.sum_congr rfl fun l _ => ?_)
    exact congrArg₂ (· * ·) ((congrFun (tr_main_v33_11_12 m ρ c) (ix2 k l)).trans (hx k l)) (L4_ws m ρ c l q)
  case hrs =>
    refine (congrFun (W13_arr m ρ c 6) (ix2 p q)).trans ((r7_resid (V12 m ρ) c p q).trans ?_)
    refine congrArg₂ (· + ·) (Finset.sum_congr rfl fun l _ => ?_) (L4_br m ρ c q)
    exact congrArg₂ (· * ·) ((congrFun (tr_main_v33_11_12 m ρ c) (ix2 p l)).trans (hx p l)) (L4_wr m ρ c l q)
  case hlo =>
    refine (congrFun (W14_arr m ρ c 5) (ix2 p _)).trans ((r8_lo (V13 m ρ) c p q).trans ?_)
    refine congrArg (· * _) (congrArg₂ (· + ·) (hp p _) (congrArg (max · _) ?_))
    refine congrArg₂ (· + ·) (Finset.sum_congr rfl fun k _ => ?_)
      ((congrFun (tr_main_v41_12_13 m ρ c) (ix2 (0 : Fin 1) q)).trans (L4_bs m ρ c q))
    exact congrArg (· * _) ((congrFun (tr_main_v1_0_2_13 m ρ c) (ix2 p k)).trans (adjb_W2 m ρ c p k))
  case hhi =>
    refine (congrFun (W14_arr m ρ c 5) (ix2 p _)).trans ((r8_hi (V13 m ρ) c p q).trans ?_)
    exact congrArg (· * _) (congrArg (· + _) (hp p _))

end Cert.KernelIdeal.KV

end
-- ==== Proof.KV.R9.lean ====
/-
  Region 9 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg9
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz9 : (![0, 0] : Fin 2 → Nat) = fun _ => 0 := funext fun a => by fin_cases a <;> rfl

/-! ## The payloads at an index -/

/-- The generated dimension record of the [2048,192]·[192,64] product is the plain one. -/
theorem dot9_scaled_eq : dot_S2048x192_S192x64_S2048x64_1_0_0_1_n_n = DotDims.plain 2048 192 64 := rfl
/-- The generated dimension record of the [2048,192]·[192,128] product is the plain one. -/
theorem dot9_resid_eq : dot_S2048x192_S192x128_S2048x128_1_0_0_1_n_n = DotDims.plain 2048 192 128 := rfl

/-- The narrowed copy of the x block is the x block (a format change is the identity on extended reals). -/
theorem xcast9_eq (v0 : FVec Ideal S2048x192 .f32) : k9_pay1 (F := Ideal) v0 = v0 := by
  unfold k9_pay1
  exact shapeCast_self v0 _

/-- The scaled payload at (a, b): (∑ₗ x(a, l) · W₁(l, b)) · s(a, 0). -/
theorem scaled9_pay_apply (v0 : FVec Ideal S2048x192 .f32) (v3 : FVec Ideal S192x64 .f32) (v11 : FVec Ideal S2048x1 .f32)
    (a : Fin 2048) (b : Fin 64) :
    k9_pay3 (F := Ideal) v0 v3 v11 (ix2 a b) = (∑ l : Fin 192, v0 (ix2 a l) * v3 (ix2 l b)) * v11 (ix2 a (0 : Fin 1)) := by
  unfold k9_pay3
  simp only [xcast9_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot9_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid9_pay_apply (v0 : FVec Ideal S2048x192 .f32) (v6 : FVec Ideal S192x128 .f32) (v15 : FVec Ideal S1x128 .f32)
    (a : Fin 2048) (b : Fin 128) :
    k9_pay2 (F := Ideal) v0 v6 v15 (ix2 a b) = (∑ l : Fin 192, v0 (ix2 a l) * v6 (ix2 l b)) + v15 (ix2 (0 : Fin 1) b) := by
  unfold k9_pay2
  simp only [xcast9_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot9_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin9 (c : Dev nD) : FVec Ideal S8192x192 .f32 := V c (Pipeline.arrRef spec9 0)
/-- The weight's scaled column group W₁. -/
abbrev wsc9 (c : Dev nD) : FVec Ideal S192x64 .f32 := V c (Pipeline.arrRef spec9 1)
/-- The weight's residual column group W₂. -/
abbrev wre9 (c : Dev nD) : FVec Ideal S192x128 .f32 := V c (Pipeline.arrRef spec9 2)
/-- The bias row b. -/
abbrev bia9 (c : Dev nD) : FVec Ideal S1x128 .f32 := V c (Pipeline.arrRef spec9 3)
/-- The column s of inverse row sums. -/
abbrev inv9 (c : Dev nD) : FVec Ideal S8192x1 .f32 := V c (Pipeline.arrRef spec9 4)

/-- Entry (p, q) of the scaled output. -/
def scaledAt9 (c : Dev nD) (p : Fin 8192) (q : Fin 64) : EReal :=
  (∑ l : Fin 192, xin9 V c (ix2 p l) * wsc9 V c (ix2 l q)) * inv9 V c (ix2 p (0 : Fin 1))

/-- Entry (p, q) of the residual output. -/
def residAt9 (c : Dev nD) (p : Fin 8192) (q : Fin 128) : EReal :=
  (∑ l : Fin 192, xin9 V c (ix2 p l) * wre9 V c (ix2 l q)) + bia9 V c (ix2 (0 : Fin 1) q)

/-- What the scaled output ends holding. -/
abbrev G9_5 (c : Dev nD) : FVec Ideal S8192x64 .bf16 := fun i => scaledAt9 V c ⟨(i 0).val, idx2_lt0 i⟩ ⟨(i 1).val, idx2_lt1 i⟩
/-- What the residual output ends holding. -/
abbrev G9_6 (c : Dev nD) : FVec Ideal S8192x128 .f32 := fun i => residAt9 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts9 : ∀ t : Fin cfg9.N,
    win9_0.index t (0 : Fin 2) = win9_5.index t (0 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = win9_5.index t (0 : Fin 2) ∧ win9_4.index t (1 : Fin 2) = 0
    ∧ win9_5.index t (1 : Fin 2) = 0
    ∧ win9_6.index t (0 : Fin 2) = win9_5.index t (0 : Fin 2) ∧ win9_6.index t (1 : Fin 2) = 0
    ∧ win9_5.index t (0 : Fin 2) < 4 :=
  (by decide +kernel : ∀ t : Fin grid9.N, _)

/-- Every row block is some point's, for the scaled output … -/
theorem idx_onto9_5 : ∀ q0 : Fin 4, ∃ t : Fin cfg9.N, win9_5.index t = ![q0.val, 0] :=
  (by decide +kernel : ∀ q0 : Fin 4, ∃ t : Fin grid9.N, win9_5.index t = ![q0.val, 0])

/-- … and for the residual output. -/
theorem idx_onto9_6 : ∀ q0 : Fin 4, ∃ t : Fin cfg9.N, win9_6.index t = ![q0.val, 0] :=
  (by decide +kernel : ∀ q0 : Fin 4, ∃ t : Fin grid9.N, win9_6.index t = ![q0.val, 0])

/-! ## Output window 5: the scaled output -/

/-- WHAT POINT t WRITES BACK is block t of the scaled output's function of the arrays. -/
theorem flushed9_5_eq (c : Dev nD) (t : Fin cfg9.N) :
    (dat9 (F := Ideal) V c).flushed 5 t = ((cfg9.win 5).blk t).view.read (Elt Ideal) (G9_5 V c) := by
  show (cfg9.win 5).cut (grid9.coords t) ((dat9 (F := Ideal) V c).after 5 t) = _
  rw [after9_5]
  unfold out9_5
  rw [View.canon_unit_zero hz9]
  simp only [View.ld_unit_zero (S := S2048x192) hz9, View.ld_unit_zero (S := S192x64) hz9, View.ld_unit_zero (S := S2048x1) hz9]
  obtain ⟨e00, e01, e10, e11, e20, e21, e30, e31, e40, e41, e51, e60, e61, e5⟩ := idx_facts9 t
  funext j
  obtain ⟨a, b, rfl⟩ : ∃ (a : Fin 2048) (b : Fin 64), j = ix2 a b := ⟨j 0, j 1, eq_ix2 j⟩
  refine (scaled9_pay_apply (iblk9 V c 0 t) (iblk9 V c 1 t) (iblk9 V c 4 t) a b).trans ?_
  show (∑ l : Fin 192, xin9 V c (((cfg9.win 0).blk t).view.emb (ix2 a l)) * wsc9 V c (((cfg9.win 1).blk t).view.emb (ix2 l b)))
      * inv9 V c (((cfg9.win 4).blk t).view.emb (ix2 a (0 : Fin 1)))
    = scaledAt9 V c ⟨((((cfg9.win 5).blk t).view.emb (ix2 a b)) 0).val, _⟩ ⟨((((cfg9.win 5).blk t).view.emb (ix2 a b)) 1).val, _⟩
  unfold scaledAt9
  refine congr (congrArg _ (Finset.sum_congr rfl fun l _ => congr (congrArg _ (congrArg _ ?_)) (congrArg _ ?_))) (congrArg _ ?_)
  · funext d; apply Fin.ext
    match d with
    | ⟨0, _⟩ => show win9_0.index t (0 : Fin 2) * 2048 + 1 * a.val = win9_5.index t (0 : Fin 2) * 2048 + 1 * a.val; omega
    | ⟨1, _⟩ => show win9_0.index t (1 : Fin 2) * 192 + 1 * l.val = l.val; omega
  · funext d; apply Fin.ext
    match d with
    | ⟨0, _⟩ => show win9_1.index t (0 : Fin 2) * 192 + 1 * l.val = l.val; omega
    | ⟨1, _⟩ => show win9_1.index t (1 : Fin 2) * 64 + 1 * b.val = win9_5.index t (1 : Fin 2) * 64 + 1 * b.val; omega
  · funext d; apply Fin.ext
    match d with
    | ⟨0, _⟩ => show win9_4.index t (0 : Fin 2) * 2048 + 1 * a.val = win9_5.index t (0 : Fin 2) * 2048 + 1 * a.val; omega
    | ⟨1, _⟩ => show win9_4.index t (1 : Fin 2) * 1 + 1 * 0 = 0; omega

/-- An index of the scaled output is in point t's block iff each coordinate is in the block's range on its axis. -/
theorem mem_blk9_5 (t : Fin cfg9.N) (i : S8192x64.Idx) :
    i ∈ ((cfg9.win 5).blk t).view.set ↔ ∀ a : Fin 2, win9_5.index t a * S2048x64.size a ≤ (i a).val ∧ (i a).val < win9_5.index t a * S2048x64.size a + S2048x64.size a := by
  show i ∈ ((View.whole (Pipeline.arrRef spec9 5)).slice (win9_5.rect t)).set ↔ _
  rw [View.set_slice_whole, Rect.mem_set_unit]
  exact Iff.rfl

/-- Every index is in the block of the point of its row block, row / 2048. -/
theorem covered9_5 (i : S8192x64.Idx) :
    ∃ t : Fin cfg9.N, (cfg9.win 5).flush t = true ∧ i ∈ ((cfg9.win 5).blk t).view.set := by
  have hi0 : (i 0).val < 8192 := (i 0).isLt
  have hi1 : (i 1).val < 64 := (i 1).isLt
  obtain ⟨t, ht⟩ := idx_onto9_5 ⟨(i 0).val / 2048, by omega⟩
  have q0 : win9_5.index t (0 : Fin 2) = (i 0).val / 2048 := congrFun ht 0
  have q1 : win9_5.index t (1 : Fin 2) = 0 := congrFun ht 1
  refine ⟨t, flush9_5 t, ?_⟩
  rw [mem_blk9_5]
  intro a
  match a with
  | ⟨0, _⟩ => show win9_5.index t (0 : Fin 2) * 2048 ≤ (i 0).val ∧ (i 0).val < win9_5.index t (0 : Fin 2) * 2048 + 2048; omega
  | ⟨1, _⟩ => show win9_5.index t (1 : Fin 2) * 64 ≤ (i 1).val ∧ (i 1).val < win9_5.index t (1 : Fin 2) * 64 + 64; omega

/-- THE SCALED OUTPUT after the region. -/
theorem arr9_5 (c : Dev nD) : (dat9 (F := Ideal) V c).arrAt 5 cfg9.N = G9_5 V c :=
  (dat9 (F := Ideal) V c).arrAt_eq_of_cover 5 (G9_5 V c) (fun t _ => flushed9_5_eq V c t) covered9_5

theorem r9_scaled (c : Dev nD) (p : Fin 8192) (q : Fin 64) :
    (dat9 (F := Ideal) V c).arrAt 5 cfg9.N (ix2 p q)
      = (∑ l : Fin 192, xin9 V c (ix2 p l) * wsc9 V c (ix2 l q)) * inv9 V c (ix2 p (0 : Fin 1)) :=
  congrFun (arr9_5 V c) (ix2 p q)

/-! ## Output window 6: the residual output -/

/-- WHAT POINT t WRITES BACK is block t of the residual output's function of the arrays. -/
theorem flushed9_6_eq (c : Dev nD) (t : Fin cfg9.N) :
    (dat9 (F := Ideal) V c).flushed 6 t = ((cfg9.win 6).blk t).view.read (Elt Ideal) (G9_6 V c) := by
  show (cfg9.win 6).cut (grid9.coords t) ((dat9 (F := Ideal) V c).after 6 t) = _
  rw [after9_6]
  unfold out9_6
  rw [View.canon_unit_zero hz9]
  simp only [View.ld_unit_zero (S := S2048x192) hz9, View.ld_unit_zero (S := S192x128) hz9, View.ld_unit_zero (S := S1x128) hz9]
  obtain ⟨e00, e01, e10, e11, e20, e21, e30, e31, e40, e41, e51, e60, e61, e5⟩ := idx_facts9 t
  funext j
  obtain ⟨a, b, rfl⟩ : ∃ (a : Fin 2048) (b : Fin 128), j = ix2 a b := ⟨j 0, j 1, eq_ix2 j⟩
  refine (resid9_pay_apply (iblk9 V c 0 t) (iblk9 V c 2 t) (iblk9 V c 3 t) a b).trans ?_
  show (∑ l : Fin 192, xin9 V c (((cfg9.win 0).blk t).view.emb (ix2 a l)) * wre9 V c (((cfg9.win 2).blk t).view.emb (ix2 l b)))
      + bia9 V c (((cfg9.win 3).blk t).view.emb (ix2 (0 : Fin 1) b))
    = residAt9 V c ⟨((((cfg9.win 6).blk t).view.emb (ix2 a b)) 0).val, _⟩ ⟨((((cfg9.win 6).blk t).view.emb (ix2 a b)) 1).val, _⟩
  unfold residAt9
  refine congr (congrArg _ (Finset.sum_congr rfl fun l _ => congr (congrArg _ (congrArg _ ?_)) (congrArg _ ?_))) (congrArg _ ?_)
  · funext d; apply Fin.ext
    match d with
    | ⟨0, _⟩ => show win9_0.index t (0 : Fin 2) * 2048 + 1 * a.val = win9_6.index t (0 : Fin 2) * 2048 + 1 * a.val; omega
    | ⟨1, _⟩ => show win9_0.index t (1 : Fin 2) * 192 + 1 * l.val = l.val; omega
  · funext d; apply Fin.ext
    match d with
    | ⟨0, _⟩ => show win9_2.index t (0 : Fin 2) * 192 + 1 * l.val = l.val; omega
    | ⟨1, _⟩ => show win9_2.index t (1 : Fin 2) * 128 + 1 * b.val = win9_6.index t (1 : Fin 2) * 128 + 1 * b.val; omega
  · funext d; apply Fin.ext
    match d with
    | ⟨0, _⟩ => show win9_3.index t (0 : Fin 2) * 1 + 1 * 0 = 0; omega
    | ⟨1, _⟩ => show win9_3.index t (1 : Fin 2) * 128 + 1 * b.val = win9_6.index t (1 : Fin 2) * 128 + 1 * b.val; omega

/-- An index of the residual output is in point t's block iff each coordinate is in the block's range on its axis. -/
theorem mem_blk9_6 (t : Fin cfg9.N) (i : S8192x128.Idx) :
    i ∈ ((cfg9.win 6).blk t).view.set ↔ ∀ a : Fin 2, win9_6.index t a * S2048x128.size a ≤ (i a).val ∧ (i a).val < win9_6.index t a * S2048x128.size a + S2048x128.size a := by
  show i ∈ ((View.whole (Pipeline.arrRef spec9 6)).slice (win9_6.rect t)).set ↔ _
  rw [View.set_slice_whole, Rect.mem_set_unit]
  exact Iff.rfl

/-- Every index is in the block of the point of its row block, row / 2048. -/
theorem covered9_6 (i : S8192x128.Idx) :
    ∃ t : Fin cfg9.N, (cfg9.win 6).flush t = true ∧ i ∈ ((cfg9.win 6).blk t).view.set := by
  have hi0 : (i 0).val < 8192 := (i 0).isLt
  have hi1 : (i 1).val < 128 := (i 1).isLt
  obtain ⟨t, ht⟩ := idx_onto9_6 ⟨(i 0).val / 2048, by omega⟩
  have q0 : win9_6.index t (0 : Fin 2) = (i 0).val / 2048 := congrFun ht 0
  have q1 : win9_6.index t (1 : Fin 2) = 0 := congrFun ht 1
  refine ⟨t, flush9_6 t, ?_⟩
  rw [mem_blk9_6]
  intro a
  match a with
  | ⟨0, _⟩ => show win9_6.index t (0 : Fin 2) * 2048 ≤ (i 0).val ∧ (i 0).val < win9_6.index t (0 : Fin 2) * 2048 + 2048; omega
  | ⟨1, _⟩ => show win9_6.index t (1 : Fin 2) * 128 ≤ (i 1).val ∧ (i 1).val < win9_6.index t (1 : Fin 2) * 128 + 128; omega

/-- THE RESIDUAL OUTPUT after the region. -/
theorem arr9_6 (c : Dev nD) : (dat9 (F := Ideal) V c).arrAt 6 cfg9.N = G9_6 V c :=
  (dat9 (F := Ideal) V c).arrAt_eq_of_cover 6 (G9_6 V c) (fun t _ => flushed9_6_eq V c t) covered9_6

theorem r9_resid (c : Dev nD) (p : Fin 8192) (q : Fin 128) :
    (dat9 (F := Ideal) V c).arrAt 6 cfg9.N (ix2 p q)
      = (∑ l : Fin 192, xin9 V c (ix2 p l) * wre9 V c (ix2 l q)) + bia9 V c (ix2 (0 : Fin 1) q) :=
  congrFun (arr9_6 V c) (ix2 p q)

end Cert.KernelIdeal.KV

end
-- ==== Proof.KV.R10.lean ====
/-
  Region 10, an aggregation layer with rectifier and no residual: what its output array holds after the region,
  entry by entry, as a function of the arrays the region finds.

  The body writes its output block [1024, 192] by two column slices: columns [0, 64) hold
  max(A·S + b, 0) (A the row block of the adjacency, S the scaled features, b the bias row broadcast over the rows) and
  columns [64, 192) hold max(R, 0) (R the row block of the other feature group). The two slices are disjoint and cover the
  block, so each entry of the block is the payload of the slice that holds it. Row block t of the output array is
  written by grid point t (8 points of 1024 rows), and the points' blocks cover the array; so entry (p, q) of the array
  is ∑ₖ A(p, k)·S(k, q) + b(0, q) rectified for q < 64, and R(p, q − 64) rectified for q ≥ 64.
-/
import proofs.«405499_j28269474742810_3_alg».proof.Proof.Fr.KernelIdeal.Reg10
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r10_hz : (![0, 0] : Fin 2 → Nat) = fun _ => 0 := funext fun a => match a with | ⟨0, _⟩ => rfl | ⟨1, _⟩ => rfl

/-- The product's dimension numbers are those of a plain M×K by K×N product. -/
theorem r10_dot_plain : dot_S1024x8192_S8192x64_S1024x64_1_0_0_1_n_n = DotDims.plain 1024 8192 64 := rfl

/-- Columns [0, 64) at entry (a, b): the product's entry plus the bias of column b, rectified. -/
theorem r10_pay1_apply (x0 : Vec Ideal S1024x8192 .bf16) (x1 : Vec Ideal S8192x64 .bf16) (x3 : Vec Ideal S1x64 .f32)
    (a : Fin 1024) (b : Fin 64) :
    k10_pay1 (F := Ideal) x0 x1 x3 (ix2 a b)
      = max ((∑ k : Fin 8192, x0 (ix2 a k) * x1 (ix2 k b)) + x3 (ix2 (0 : Fin 1) b)) (Ideal.ofBits .f32 0x00000000#32) := by
  unfold k10_pay1
  simp only [shapeCast_self]
  show max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32) = _
  rw [r10_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the other feature group's entry, rectified. -/
theorem r10_pay2_apply (x2 : Vec Ideal S1024x128 .f32) (a : Fin 1024) (b : Fin 128) :
    k10_pay2 (F := Ideal) x2 (ix2 a b) = max (x2 (ix2 a b)) (Ideal.ofBits .f32 0x00000000#32) := by
  unfold k10_pay2
  simp only [shapeCast_self]
  rfl

/-! ## What the body leaves in the output block: each entry is the payload of the slice that holds it -/

/-- An entry in columns [0, 64): off the later slice, under the earlier one. -/
theorem r10_out_lo (c : Dev nD) (i : grid10.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 64) (hy0 : (y 0).val = a.val) (hy1 : (y 1).val = b.val) :
    out10_A_4 (F := Ideal) c i a1 h1 a2 h2 a3 h3 a4 h4 a5 h5 x0 x1 x2 x3 y = k10_pay1 (F := Ideal) x0 x1 x3 (ix2 a b) := by
  unfold out10_A_4
  rw [View.read_writes_eq_canon _ _ _ (cover10_A_4 c i a1 h1 a2 h2 a3 h3 a4 h4 a5 h5 x0 x1 x2 x3)]
  unfold kernelRun10_A
  dsimp only
  sl_unfold_words
  simp only [View.readAt_eq_ld, h1.read_unread, h2.read_unread, h3.read_unread, h4.read_unread,
    View.ld_unit_zero (S := S1024x8192) r10_hz, View.ld_unit_zero (S := S8192x64) r10_hz,
    View.ld_unit_zero (S := S1024x128) r10_hz, View.ld_unit_zero (S := S1x64) r10_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r10_out_hi (c : Dev nD) (i : grid10.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 128) (hy0 : (y 0).val = a.val) (hy1 : (y 1).val = 64 + b.val) :
    out10_A_4 (F := Ideal) c i a1 h1 a2 h2 a3 h3 a4 h4 a5 h5 x0 x1 x2 x3 y = k10_pay2 (F := Ideal) x2 (ix2 a b) := by
  unfold out10_A_4
  rw [View.read_writes_eq_canon _ _ _ (cover10_A_4 c i a1 h1 a2 h2 a3 h3 a4 h4 a5 h5 x0 x1 x2 x3)]
  unfold kernelRun10_A
  dsimp only
  sl_unfold_words
  simp only [View.readAt_eq_ld, h1.read_unread, h2.read_unread, h3.read_unread, h4.read_unread,
    View.ld_unit_zero (S := S1024x8192) r10_hz, View.ld_unit_zero (S := S8192x64) r10_hz,
    View.ld_unit_zero (S := S1024x128) r10_hz, View.ld_unit_zero (S := S1x64) r10_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group and the bias row, as the region finds them. -/
abbrev r10_adj (c : Dev nD) : Vec Ideal S8192x8192 .bf16 := V c (Pipeline.arrRef spec10 0)
abbrev r10_scaled (c : Dev nD) : Vec Ideal S8192x64 .bf16 := V c (Pipeline.arrRef spec10 1)
abbrev r10_resid (c : Dev nD) : Vec Ideal S8192x128 .f32 := V c (Pipeline.arrRef spec10 2)
abbrev r10_bias (c : Dev nD) : Vec Ideal S1x64 .f32 := V c (Pipeline.arrRef spec10 3)

/-- The windows' blocks at a point, at their literal types. -/
abbrev r10_b0 (c : Dev nD) (t : Fin cfg10.N) : Vec Ideal S1024x8192 .bf16 := iblk10 (F := Ideal) V c 0 t
abbrev r10_b1 (c : Dev nD) (t : Fin cfg10.N) : Vec Ideal S8192x64 .bf16 := iblk10 (F := Ideal) V c 1 t
abbrev r10_b2 (c : Dev nD) (t : Fin cfg10.N) : Vec Ideal S1024x128 .f32 := iblk10 (F := Ideal) V c 2 t
abbrev r10_b3 (c : Dev nD) (t : Fin cfg10.N) : Vec Ideal S1x64 .f32 := iblk10 (F := Ideal) V c 3 t

/-- Entry (p, q) of the array the region leaves. -/
def r10_val (c : Dev nD) (p : Fin 8192) (q : Fin 192) : EReal :=
  if h : q.val < 64 then
    max ((∑ k : Fin 8192, r10_adj V c (ix2 p k) * r10_scaled V c (ix2 k (⟨q.val, h⟩ : Fin 64)))
      + r10_bias V c (ix2 (0 : Fin 1) (⟨q.val, h⟩ : Fin 64))) (Ideal.ofBits .f32 0x00000000#32)
  else
    max (r10_resid V c (ix2 p (⟨q.val - 64, by have := q.isLt; omega⟩ : Fin 128))) (Ideal.ofBits .f32 0x00000000#32)

/-- The array the region leaves. -/
def r10_G (c : Dev nD) : Vec Ideal S8192x192 .f32 := fun i => r10_val V c (i 0) (i 1)

/-- The printed index maps, decided over the grid: the row-blocked windows are at block row t, column block 0; the whole
    windows at block (0, 0). -/
theorem r10_idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- Row block t of the adjacency: entry (a, k) of the block is entry (1024 t + a, k) of the array. -/
theorem r10_b0_apply (c : Dev nD) (t : Fin cfg10.N) (a : Fin 1024) (k : Fin 8192) (p : Fin 8192)
    (hp : p.val = t.val * 1024 + a.val) : r10_b0 V c t (ix2 a k) = r10_adj V c (ix2 p k) := by
  obtain ⟨e00, e01, -⟩ := r10_idx_facts t
  show V c (Pipeline.arrRef spec10 0) (((cfg10.win 0).blk t).view.emb (ix2 a k)) = V c (Pipeline.arrRef spec10 0) (ix2 p k)
  refine congrArg _ (funext fun d => Fin.ext ?_)
  match d with
  | ⟨0, _⟩ => show win10_0.index t (0 : Fin 2) * 1024 + 1 * a.val = p.val; omega
  | ⟨1, _⟩ => show win10_0.index t (1 : Fin 2) * 8192 + 1 * k.val = k.val; omega

/-- The scaled features' one block is the array. -/
theorem r10_b1_apply (c : Dev nD) (t : Fin cfg10.N) (k : Fin 8192) (b : Fin 64) :
    r10_b1 V c t (ix2 k b) = r10_scaled V c (ix2 k b) := by
  obtain ⟨-, -, e10, e11, -⟩ := r10_idx_facts t
  show V c (Pipeline.arrRef spec10 1) (((cfg10.win 1).blk t).view.emb (ix2 k b)) = V c (Pipeline.arrRef spec10 1) (ix2 k b)
  refine congrArg _ (funext fun d => Fin.ext ?_)
  match d with
  | ⟨0, _⟩ => show win10_1.index t (0 : Fin 2) * 8192 + 1 * k.val = k.val; omega
  | ⟨1, _⟩ => show win10_1.index t (1 : Fin 2) * 64 + 1 * b.val = b.val; omega

/-- Row block t of the other feature group. -/
theorem r10_b2_apply (c : Dev nD) (t : Fin cfg10.N) (a : Fin 1024) (b : Fin 128) (p : Fin 8192)
    (hp : p.val = t.val * 1024 + a.val) : r10_b2 V c t (ix2 a b) = r10_resid V c (ix2 p b) := by
  obtain ⟨-, -, -, -, e20, e21, -⟩ := r10_idx_facts t
  show V c (Pipeline.arrRef spec10 2) (((cfg10.win 2).blk t).view.emb (ix2 a b)) = V c (Pipeline.arrRef spec10 2) (ix2 p b)
  refine congrArg _ (funext fun d => Fin.ext ?_)
  match d with
  | ⟨0, _⟩ => show win10_2.index t (0 : Fin 2) * 1024 + 1 * a.val = p.val; omega
  | ⟨1, _⟩ => show win10_2.index t (1 : Fin 2) * 128 + 1 * b.val = b.val; omega

/-- The bias row's one block is the array. -/
theorem r10_b3_apply (c : Dev nD) (t : Fin cfg10.N) (b : Fin 64) :
    r10_b3 V c t (ix2 (0 : Fin 1) b) = r10_bias V c (ix2 (0 : Fin 1) b) := by
  obtain ⟨-, -, -, -, -, -, e30, e31, -⟩ := r10_idx_facts t
  show V c (Pipeline.arrRef spec10 3) (((cfg10.win 3).blk t).view.emb (ix2 (0 : Fin 1) b)) = V c (Pipeline.arrRef spec10 3) (ix2 (0 : Fin 1) b)
  refine congrArg _ (funext fun d => Fin.ext ?_)
  match d with
  | ⟨0, _⟩ => show win10_3.index t (0 : Fin 2) * 1 + 1 * 0 = 0; omega
  | ⟨1, _⟩ => show win10_3.index t (1 : Fin 2) * 64 + 1 * b.val = b.val; omega

/-- WHAT POINT t WRITES BACK is block t of the array the region leaves. -/
theorem r10_flushed_eq (c : Dev nD) (t : Fin cfg10.N) :
    (dat10 (F := Ideal) V c).flushed 4 t = ((cfg10.win 4).blk t).view.read (Elt Ideal) (r10_G V c) := by
  show (cfg10.win 4).cut (grid10.coords t) ((dat10 (F := Ideal) V c).after 4 t) = _
  rw [after10_4]
  obtain ⟨-, -, -, -, -, -, -, -, e40, e41⟩ := r10_idx_facts t
  funext j
  have hj0 : (j 0).val < 1024 := (j 0).isLt
  have hj1 : (j 1).val < 192 := (j 1).isLt
  have ht : t.val < 8 := lt_of_lt_of_eq t.isLt N_10
  have hp : t.val * 1024 + (j 0).val < 8192 := by omega
  have hemb : ((cfg10.win 4).blk t).view.emb j
      = ix2 (⟨t.val * 1024 + (j 0).val, hp⟩ : Fin 8192) (⟨(j 1).val, hj1⟩ : Fin 192) := by
    funext d; apply Fin.ext
    match d with
    | ⟨0, _⟩ => show win10_4.index t (0 : Fin 2) * 1024 + 1 * (j 0).val = t.val * 1024 + (j 0).val; omega
    | ⟨1, _⟩ => show win10_4.index t (1 : Fin 2) * 192 + 1 * (j 1).val = (j 1).val; omega
  show outsAt10 (F := Ideal) V c t ((cfg10.win 4).xinj (grid10.coords t) j) = r10_G V c (((cfg10.win 4).blk t).view.emb j)
  rw [hemb]
  show _ = r10_val V c (⟨t.val * 1024 + (j 0).val, hp⟩ : Fin 8192) (⟨(j 1).val, hj1⟩ : Fin 192)
  unfold outsAt10 r10_val
  by_cases h : (j 1).val < 64
  · rw [dif_pos h]
    refine (r10_out_lo c (grid10.coords t) (ms10_0 t) (hs10_0 t) (ms10_1 t) (hs10_1 t) (ms10_2 t) (hs10_2 t) (ms10_3 t) (hs10_3 t)
      (ms10_4 t) (hs10_4 t) (r10_b0 V c t) (r10_b1 V c t) (r10_b2 V c t) (r10_b3 V c t)
      ((cfg10.win 4).xinj (grid10.coords t) j) (⟨(j 0).val, hj0⟩ : Fin 1024) (⟨(j 1).val, h⟩ : Fin 64) rfl rfl).trans ?_
    refine (r10_pay1_apply (r10_b0 V c t) (r10_b1 V c t) (r10_b3 V c t) (⟨(j 0).val, hj0⟩ : Fin 1024) (⟨(j 1).val, h⟩ : Fin 64)).trans ?_
    refine congrArg₂ max (congrArg₂ (· + ·) (Finset.sum_congr rfl fun k _ =>
      congrArg₂ (· * ·) (r10_b0_apply V c t (⟨(j 0).val, hj0⟩ : Fin 1024) k (⟨t.val * 1024 + (j 0).val, hp⟩ : Fin 8192) rfl)
        (r10_b1_apply V c t k (⟨(j 1).val, h⟩ : Fin 64))) (r10_b3_apply V c t (⟨(j 1).val, h⟩ : Fin 64))) rfl
  · rw [dif_neg h]
    have h128 : (j 1).val - 64 < 128 := by omega
    refine (r10_out_hi c (grid10.coords t) (ms10_0 t) (hs10_0 t) (ms10_1 t) (hs10_1 t) (ms10_2 t) (hs10_2 t) (ms10_3 t) (hs10_3 t)
      (ms10_4 t) (hs10_4 t) (r10_b0 V c t) (r10_b1 V c t) (r10_b2 V c t) (r10_b3 V c t)
      ((cfg10.win 4).xinj (grid10.coords t) j) (⟨(j 0).val, hj0⟩ : Fin 1024) (⟨(j 1).val - 64, h128⟩ : Fin 128) rfl
      (by show (j 1).val = 64 + ((j 1).val - 64); omega)).trans ?_
    refine (r10_pay2_apply (r10_b2 V c t) (⟨(j 0).val, hj0⟩ : Fin 1024) (⟨(j 1).val - 64, h128⟩ : Fin 128)).trans ?_
    exact congrArg₂ max (r10_b2_apply V c t (⟨(j 0).val, hj0⟩ : Fin 1024) (⟨(j 1).val - 64, h128⟩ : Fin 128)
      (⟨t.val * 1024 + (j 0).val, hp⟩ : Fin 8192) rfl) rfl

/-! ## The points' blocks cover the array -/

/-- An index of the array is in point t's block iff each coordinate is in the block's range on its axis. -/
theorem r10_mem_blk (t : Fin cfg10.N) (i : S8192x192.Idx) :
    i ∈ ((cfg10.win 4).blk t).view.set ↔ ∀ a : Fin 2, win10_4.index t a * S1024x192.size a ≤ (i a).val
      ∧ (i a).val < win10_4.index t a * S1024x192.size a + S1024x192.size a := by
  show i ∈ ((View.whole (Pipeline.arrRef spec10 4)).slice (win10_4.rect t)).set ↔ _
  rw [View.set_slice_whole, Rect.mem_set_unit]
  exact Iff.rfl

/-- Row r of the array is in the block of point r / 1024. -/
theorem r10_cover (i : S8192x192.Idx) :
    ∃ t : Fin cfg10.N, (cfg10.win 4).flush t = true ∧ i ∈ ((cfg10.win 4).blk t).view.set := by
  have hi0 : (i 0).val < 8192 := (i 0).isLt
  have hi1 : (i 1).val < 192 := (i 1).isLt
  have hlt : (i 0).val / 1024 < cfg10.N := lt_of_lt_of_eq (by omega : (i 0).val / 1024 < 8) N_10.symm
  obtain ⟨-, -, -, -, -, -, -, -, e40, e41⟩ := r10_idx_facts ⟨(i 0).val / 1024, hlt⟩
  refine ⟨⟨(i 0).val / 1024, hlt⟩, flush10_4 _, ?_⟩
  rw [r10_mem_blk]
  intro a
  match a with
  | ⟨0, _⟩ =>
    show win10_4.index ⟨(i 0).val / 1024, hlt⟩ (0 : Fin 2) * 1024 ≤ (i 0).val
      ∧ (i 0).val < win10_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win10_4.index ⟨(i 0).val / 1024, hlt⟩ (1 : Fin 2) * 192 ≤ (i 1).val
      ∧ (i 1).val < win10_4.index ⟨(i 0).val / 1024, hlt⟩ (1 : Fin 2) * 192 + 192
    rw [e41]; omega

/-! ## The output array after the region -/

/-- The output array ends holding the array of the entries above. -/
theorem r10_final (c : Dev nD) : (dat10 (F := Ideal) V c).arrAt 4 cfg10.N = r10_G V c :=
  (dat10 (F := Ideal) V c).arrAt_eq_of_cover 4 (r10_G V c) (fun t _ => r10_flushed_eq V c t) r10_cover

/-- Columns [0, 64): the aggregated, biased, rectified features. -/
theorem r10_lo (c : Dev nD) (p : Fin 8192) (q : Fin 64) :
    (dat10 (F := Ideal) V c).arrAt 4 cfg10.N (ix2 p (⟨q.val, by have := q.isLt; omega⟩ : Fin 192))
      = max ((∑ k : Fin 8192, r10_adj V c (ix2 p k) * r10_scaled V c (ix2 k q)) + r10_bias V c (ix2 (0 : Fin 1) q))
          (Ideal.ofBits .f32 0x00000000#32) := by
  rw [r10_final]
  show r10_val V c p (⟨q.val, _⟩ : Fin 192) = _
  unfold r10_val
  rw [dif_pos (show (⟨q.val, _⟩ : Fin 192).val < 64 from q.isLt)]

/-- Columns [64, 192): the other feature group, rectified. -/
theorem r10_hi (c : Dev nD) (p : Fin 8192) (q : Fin 128) :
    (dat10 (F := Ideal) V c).arrAt 4 cfg10.N (ix2 p (⟨64 + q.val, by have := q.isLt; omega⟩ : Fin 192))
      = max (r10_resid V c (ix2 p q)) (Ideal.ofBits .f32 0x00000000#32) := by
  rw [r10_final]
  show r10_val V c p (⟨64 + q.val, _⟩ : Fin 192) = _
  unfold r10_val
  rw [dif_neg (show ¬ (⟨64 + q.val, _⟩ : Fin 192).val < 64 from by show ¬ 64 + q.val < 64; omega)]
  refine congrArg₂ max (congrArg _ (congrArg (ix2 p) (Fin.ext ?_))) rfl
  show 64 + q.val - 64 = q.val
  omega

end Cert.KernelIdeal.KV

end
-- ==== Proof.KV.L5.lean ====
/-
  Layer 5 of the first program (a plain middle layer, weight page 3): what its two
  pallas_calls leave in the output array, entry by entry, is the layer's specification applied to the entries of its input array.
-/
import proofs.«405499_j28269474742810_3_alg».proof.Proof.KV.R9
import proofs.«405499_j28269474742810_3_alg».proof.Proof.KV.R10
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L5_w (c : Dev nD) : V14 m ρ c main_arg5 = m ((c : Thread nD τ).loc main_arg5) := tr_main_arg5_0_14 m ρ c
theorem L5_b (c : Dev nD) : V14 m ρ c main_arg6 = m ((c : Thread nD τ).loc main_arg6) := tr_main_arg6_0_14 m ρ c

/-- The scaled column group of the layer's weights, at an entry. -/
theorem L5_ws (c : Dev nD) (l : Fin 192) (q : Fin 64) : V15 m ρ c main_v50 (ix2 l q) = (P m c).Wm 3 l ⟨q.val, by omega⟩ := by
  have e : V15 m ρ c main_v50 = extractStridedSlice S192x64 ![0, 0] (shapeCast S192x192 (extractStridedSlice S1x192x192 ![3, 0, 0] (V14 m ρ c main_arg5) slices_S12x192x192_S1x192x192_3_0_0) shapeCasts_S1x192x192_S192x192) slices_S192x192_S192x64_0_0 := by
    show StableHlo.after hostOps9 (W14 m ρ c) (Proc.devRef .tc main_v50) = _
    after_results <;> rfl
  rw [e, Cert.Slices.cols_apply _ 0 _ l q (by omega), Cert.Slices.page_apply _ 3 (by omega), L5_w]
  show _ = m ((c : Thread nD τ).loc main_arg5) (ix3 (3 : Fin 12) l ⟨q.val, by omega⟩)
  congr 2
  exact Fin.ext (Nat.zero_add _)

/-- The pass-through column group of the layer's weights, at an entry. -/
theorem L5_wr (c : Dev nD) (l : Fin 192) (q : Fin 128) : V15 m ρ c main_v51 (ix2 l q) = (P m c).Wm 3 l ⟨64 + q.val, by omega⟩ := by
  have e : V15 m ρ c main_v51 = extractStridedSlice S192x128 ![0, 64] (shapeCast S192x192 (extractStridedSlice S1x192x192 ![3, 0, 0] (V14 m ρ c main_arg5) slices_S12x192x192_S1x192x192_3_0_0) shapeCasts_S1x192x192_S192x192) slices_S192x192_S192x128_0_64 := by
    show StableHlo.after hostOps9 (W14 m ρ c) (Proc.devRef .tc main_v51) = _
    after_results <;> rfl
  rw [e, Cert.Slices.cols_apply _ 64 _ l q (by omega), Cert.Slices.page_apply _ 3 (by omega), L5_w]
  rfl

/-- The bias of the scaled columns, one row, at an entry. -/
theorem L5_bs (c : Dev nD) (q : Fin 64) : V15 m ρ c main_v53 (ix2 (0 : Fin 1) q) = (P m c).bm 3 ⟨q.val, by omega⟩ := by
  have e : V15 m ρ c main_v53 = shapeCast S1x64 (extractStridedSlice S64 ![0] (shapeCast S192 (extractStridedSlice S1x192 ![3, 0] (V14 m ρ c main_arg6) slices_S12x192_S1x192_3_0) shapeCasts_S1x192_S192) slices_S192_S64_0) shapeCasts_S64_S1x64 := by
    show StableHlo.after hostOps9 (W14 m ρ c) (Proc.devRef .tc main_v53) = _
    after_results <;> rfl
  rw [e, Cert.Slices.seg_row_apply _ 0 _ _ (0 : Fin 1) q (by omega), Cert.Slices.row_apply _ 3 (by omega), L5_b]
  show _ = m ((c : Thread nD τ).loc main_arg6) (ix2 (3 : Fin 12) ⟨q.val, by omega⟩)
  congr 2
  exact Fin.ext (Nat.zero_add _)

/-- The bias of the pass-through columns, one row, at an entry. -/
theorem L5_br (c : Dev nD) (q : Fin 128) : V15 m ρ c main_v55 (ix2 (0 : Fin 1) q) = (P m c).bm 3 ⟨64 + q.val, by omega⟩ := by
  have e : V15 m ρ c main_v55 = shapeCast S1x128 (extractStridedSlice S128 ![64] (shapeCast S192 (extractStridedSlice S1x192 ![3, 0] (V14 m ρ c main_arg6) slices_S12x192_S1x192_3_0) shapeCasts_S1x192_S192) slices_S192_S128_64) shapeCasts_S128_S1x128 := by
    show StableHlo.after hostOps9 (W14 m ρ c) (Proc.devRef .tc main_v55) = _
    after_results <;> rfl
  rw [e, Cert.Slices.seg_row_apply _ 64 _ _ (0 : Fin 1) q (by omega), Cert.Slices.row_apply _ 3 (by omega), L5_b]
  rfl

/-- THE LAYER: the output array after its second pallas_call, at (p, j), is the layer's specification of the input array's entries. -/
theorem L5_out (c : Dev nD) (x : Cert.Spec.Mx 8192 192) (hx : ∀ k l, V14 m ρ c main_v45 (ix2 k l) = x k l)
    (p : Fin 8192) (j : Fin 192) : V17 m ρ c main_v57 (ix2 p j) = Cert.Spec.plainK (P m c) 3 x p j := by
  unfold Cert.Spec.plainK Cert.Spec.relu
  refine Cert.Spec.layer_assemble (S := 64) (R := 128) (O := 192) rfl (P m c).A x ((P m c).Wm 3) ((P m c).bm 3)
    (fun k => V15 m ρ c main_v1_1 (ix2 k (0 : Fin 1))) (fun k => ?hinv)
    (fun k q => V16 m ρ c main_v56_0 (ix2 k q)) (fun k q => ?hsc)
    (fun p q => V16 m ρ c main_v56_1 (ix2 p q)) (fun p q => ?hrs)
    (fun _ _ y => max y Cert.Spec.zero) (fun p j => V17 m ρ c main_v57 (ix2 p j)) (fun p q => ?hlo) (fun p q => ?hhi) p j
  case hinv =>
    exact (congrFun (tr_main_v1_1_2_15 m ρ c) (ix2 k (0 : Fin 1))).trans (inv_W2 m ρ c k)
  case hsc =>
    refine (congrFun (W16_arr m ρ c 5) (ix2 k q)).trans ((r9_scaled (V15 m ρ) c k q).trans ?_)
    refine congrArg (· * _) (Finset.sum_congr rfl fun l _ => ?_)
    exact congrArg₂ (· * ·) ((congrFun (tr_main_v45_14_15 m ρ c) (ix2 k l)).trans (hx k l)) (L5_ws m ρ c l q)
  case hrs =>
    refine (congrFun (W16_arr m ρ c 6) (ix2 p q)).trans ((r9_resid (V15 m ρ) c p q).trans ?_)
    refine congrArg₂ (· + ·) (Finset.sum_congr rfl fun l _ => ?_) (L5_br m ρ c q)
    exact congrArg₂ (· * ·) ((congrFun (tr_main_v45_14_15 m ρ c) (ix2 p l)).trans (hx p l)) (L5_wr m ρ c l q)
  case hlo =>
    refine (congrFun (W17_arr m ρ c 4) (ix2 p _)).trans ((r10_lo (V16 m ρ) c p q).trans ?_)
    refine congrArg (fun y : EReal => max y _) ?_
    refine congrArg₂ (· + ·) (Finset.sum_congr rfl fun k _ => ?_)
      ((congrFun (tr_main_v53_15_16 m ρ c) (ix2 (0 : Fin 1) q)).trans (L5_bs m ρ c q))
    exact congrArg (· * _) ((congrFun (tr_main_v1_0_2_16 m ρ c) (ix2 p k)).trans (adjb_W2 m ρ c p k))
  case hhi =>
    exact (congrFun (W17_arr m ρ c 4) (ix2 p _)).trans (r10_hi (V16 m ρ) c p q)

end Cert.KernelIdeal.KV

end
-- ==== Proof.KV.R11.lean ====
/-
  Region 11 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg11
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz11 : (![0, 0] : Fin 2 → Nat) = fun _ => 0 := funext fun a => by fin_cases a <;> rfl

/-! ## The payloads at an index -/

/-- The generated dimension record of the [2048,192]·[192,64] product is the plain one. -/
theorem dot11_scaled_eq : dot_S2048x192_S192x64_S2048x64_1_0_0_1_n_n = DotDims.plain 2048 192 64 := rfl
/-- The generated dimension record of the [2048,192]·[192,128] product is the plain one. -/
theorem dot11_resid_eq : dot_S2048x192_S192x128_S2048x128_1_0_0_1_n_n = DotDims.plain 2048 192 128 := rfl

/-- The narrowed copy of the x block is the x block (a format change is the identity on extended reals). -/
theorem xcast11_eq (v0 : FVec Ideal S2048x192 .f32) : k11_pay1 (F := Ideal) v0 = v0 := by
  unfold k11_pay1
  exact shapeCast_self v0 _

/-- The scaled payload at (a, b): (∑ₗ x(a, l) · W₁(l, b)) · s(a, 0). -/
theorem scaled11_pay_apply (v0 : FVec Ideal S2048x192 .f32) (v3 : FVec Ideal S192x64 .f32) (v11 : FVec Ideal S2048x1 .f32)
    (a : Fin 2048) (b : Fin 64) :
    k11_pay3 (F := Ideal) v0 v3 v11 (ix2 a b) = (∑ l : Fin 192, v0 (ix2 a l) * v3 (ix2 l b)) * v11 (ix2 a (0 : Fin 1)) := by
  unfold k11_pay3
  simp only [xcast11_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot11_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid11_pay_apply (v0 : FVec Ideal S2048x192 .f32) (v6 : FVec Ideal S192x128 .f32) (v15 : FVec Ideal S1x128 .f32)
    (a : Fin 2048) (b : Fin 128) :
    k11_pay2 (F := Ideal) v0 v6 v15 (ix2 a b) = (∑ l : Fin 192, v0 (ix2 a l) * v6 (ix2 l b)) + v15 (ix2 (0 : Fin 1) b) := by
  unfold k11_pay2
  simp only [xcast11_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot11_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin11 (c : Dev nD) : FVec Ideal S8192x192 .f32 := V c (Pipeline.arrRef spec11 0)
/-- The weight's scaled column group W₁. -/
abbrev wsc11 (c : Dev nD) : FVec Ideal S192x64 .f32 := V c (Pipeline.arrRef spec11 1)
/-- The weight's residual column group W₂. -/
abbrev wre11 (c : Dev nD) : FVec Ideal S192x128 .f32 := V c (Pipeline.arrRef spec11 2)
/-- The bias row b. -/
abbrev bia11 (c : Dev nD) : FVec Ideal S1x128 .f32 := V c (Pipeline.arrRef spec11 3)
/-- The column s of inverse row sums. -/
abbrev inv11 (c : Dev nD) : FVec Ideal S8192x1 .f32 := V c (Pipeline.arrRef spec11 4)

/-- Entry (p, q) of the scaled output. -/
def scaledAt11 (c : Dev nD) (p : Fin 8192) (q : Fin 64) : EReal :=
  (∑ l : Fin 192, xin11 V c (ix2 p l) * wsc11 V c (ix2 l q)) * inv11 V c (ix2 p (0 : Fin 1))

/-- Entry (p, q) of the residual output. -/
def residAt11 (c : Dev nD) (p : Fin 8192) (q : Fin 128) : EReal :=
  (∑ l : Fin 192, xin11 V c (ix2 p l) * wre11 V c (ix2 l q)) + bia11 V c (ix2 (0 : Fin 1) q)

/-- What the scaled output ends holding. -/
abbrev G11_5 (c : Dev nD) : FVec Ideal S8192x64 .bf16 := fun i => scaledAt11 V c ⟨(i 0).val, idx2_lt0 i⟩ ⟨(i 1).val, idx2_lt1 i⟩
/-- What the residual output ends holding. -/
abbrev G11_6 (c : Dev nD) : FVec Ideal S8192x128 .f32 := fun i => residAt11 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts11 : ∀ t : Fin cfg11.N,
    win11_0.index t (0 : Fin 2) = win11_5.index t (0 : Fin 2) ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = win11_5.index t (0 : Fin 2) ∧ win11_4.index t (1 : Fin 2) = 0
    ∧ win11_5.index t (1 : Fin 2) = 0
    ∧ win11_6.index t (0 : Fin 2) = win11_5.index t (0 : Fin 2) ∧ win11_6.index t (1 : Fin 2) = 0
    ∧ win11_5.index t (0 : Fin 2) < 4 :=
  (by decide +kernel : ∀ t : Fin grid11.N, _)

/-- Every row block is some point's, for the scaled output … -/
theorem idx_onto11_5 : ∀ q0 : Fin 4, ∃ t : Fin cfg11.N, win11_5.index t = ![q0.val, 0] :=
  (by decide +kernel : ∀ q0 : Fin 4, ∃ t : Fin grid11.N, win11_5.index t = ![q0.val, 0])

/-- … and for the residual output. -/
theorem idx_onto11_6 : ∀ q0 : Fin 4, ∃ t : Fin cfg11.N, win11_6.index t = ![q0.val, 0] :=
  (by decide +kernel : ∀ q0 : Fin 4, ∃ t : Fin grid11.N, win11_6.index t = ![q0.val, 0])

/-! ## Output window 5: the scaled output -/

/-- WHAT POINT t WRITES BACK is block t of the scaled output's function of the arrays. -/
theorem flushed11_5_eq (c : Dev nD) (t : Fin cfg11.N) :
    (dat11 (F := Ideal) V c).flushed 5 t = ((cfg11.win 5).blk t).view.read (Elt Ideal) (G11_5 V c) := by
  show (cfg11.win 5).cut (grid11.coords t) ((dat11 (F := Ideal) V c).after 5 t) = _
  rw [after11_5]
  unfold out11_5
  rw [View.canon_unit_zero hz11]
  simp only [View.ld_unit_zero (S := S2048x192) hz11, View.ld_unit_zero (S := S192x64) hz11, View.ld_unit_zero (S := S2048x1) hz11]
  obtain ⟨e00, e01, e10, e11, e20, e21, e30, e31, e40, e41, e51, e60, e61, e5⟩ := idx_facts11 t
  funext j
  obtain ⟨a, b, rfl⟩ : ∃ (a : Fin 2048) (b : Fin 64), j = ix2 a b := ⟨j 0, j 1, eq_ix2 j⟩
  refine (scaled11_pay_apply (iblk11 V c 0 t) (iblk11 V c 1 t) (iblk11 V c 4 t) a b).trans ?_
  show (∑ l : Fin 192, xin11 V c (((cfg11.win 0).blk t).view.emb (ix2 a l)) * wsc11 V c (((cfg11.win 1).blk t).view.emb (ix2 l b)))
      * inv11 V c (((cfg11.win 4).blk t).view.emb (ix2 a (0 : Fin 1)))
    = scaledAt11 V c ⟨((((cfg11.win 5).blk t).view.emb (ix2 a b)) 0).val, _⟩ ⟨((((cfg11.win 5).blk t).view.emb (ix2 a b)) 1).val, _⟩
  unfold scaledAt11
  refine congr (congrArg _ (Finset.sum_congr rfl fun l _ => congr (congrArg _ (congrArg _ ?_)) (congrArg _ ?_))) (congrArg _ ?_)
  · funext d; apply Fin.ext
    match d with
    | ⟨0, _⟩ => show win11_0.index t (0 : Fin 2) * 2048 + 1 * a.val = win11_5.index t (0 : Fin 2) * 2048 + 1 * a.val; omega
    | ⟨1, _⟩ => show win11_0.index t (1 : Fin 2) * 192 + 1 * l.val = l.val; omega
  · funext d; apply Fin.ext
    match d with
    | ⟨0, _⟩ => show win11_1.index t (0 : Fin 2) * 192 + 1 * l.val = l.val; omega
    | ⟨1, _⟩ => show win11_1.index t (1 : Fin 2) * 64 + 1 * b.val = win11_5.index t (1 : Fin 2) * 64 + 1 * b.val; omega
  · funext d; apply Fin.ext
    match d with
    | ⟨0, _⟩ => show win11_4.index t (0 : Fin 2) * 2048 + 1 * a.val = win11_5.index t (0 : Fin 2) * 2048 + 1 * a.val; omega
    | ⟨1, _⟩ => show win11_4.index t (1 : Fin 2) * 1 + 1 * 0 = 0; omega

/-- An index of the scaled output is in point t's block iff each coordinate is in the block's range on its axis. -/
theorem mem_blk11_5 (t : Fin cfg11.N) (i : S8192x64.Idx) :
    i ∈ ((cfg11.win 5).blk t).view.set ↔ ∀ a : Fin 2, win11_5.index t a * S2048x64.size a ≤ (i a).val ∧ (i a).val < win11_5.index t a * S2048x64.size a + S2048x64.size a := by
  show i ∈ ((View.whole (Pipeline.arrRef spec11 5)).slice (win11_5.rect t)).set ↔ _
  rw [View.set_slice_whole, Rect.mem_set_unit]
  exact Iff.rfl

/-- Every index is in the block of the point of its row block, row / 2048. -/
theorem covered11_5 (i : S8192x64.Idx) :
    ∃ t : Fin cfg11.N, (cfg11.win 5).flush t = true ∧ i ∈ ((cfg11.win 5).blk t).view.set := by
  have hi0 : (i 0).val < 8192 := (i 0).isLt
  have hi1 : (i 1).val < 64 := (i 1).isLt
  obtain ⟨t, ht⟩ := idx_onto11_5 ⟨(i 0).val / 2048, by omega⟩
  have q0 : win11_5.index t (0 : Fin 2) = (i 0).val / 2048 := congrFun ht 0
  have q1 : win11_5.index t (1 : Fin 2) = 0 := congrFun ht 1
  refine ⟨t, flush11_5 t, ?_⟩
  rw [mem_blk11_5]
  intro a
  match a with
  | ⟨0, _⟩ => show win11_5.index t (0 : Fin 2) * 2048 ≤ (i 0).val ∧ (i 0).val < win11_5.index t (0 : Fin 2) * 2048 + 2048; omega
  | ⟨1, _⟩ => show win11_5.index t (1 : Fin 2) * 64 ≤ (i 1).val ∧ (i 1).val < win11_5.index t (1 : Fin 2) * 64 + 64; omega

/-- THE SCALED OUTPUT after the region. -/
theorem arr11_5 (c : Dev nD) : (dat11 (F := Ideal) V c).arrAt 5 cfg11.N = G11_5 V c :=
  (dat11 (F := Ideal) V c).arrAt_eq_of_cover 5 (G11_5 V c) (fun t _ => flushed11_5_eq V c t) covered11_5

theorem r11_scaled (c : Dev nD) (p : Fin 8192) (q : Fin 64) :
    (dat11 (F := Ideal) V c).arrAt 5 cfg11.N (ix2 p q)
      = (∑ l : Fin 192, xin11 V c (ix2 p l) * wsc11 V c (ix2 l q)) * inv11 V c (ix2 p (0 : Fin 1)) :=
  congrFun (arr11_5 V c) (ix2 p q)

/-! ## Output window 6: the residual output -/

/-- WHAT POINT t WRITES BACK is block t of the residual output's function of the arrays. -/
theorem flushed11_6_eq (c : Dev nD) (t : Fin cfg11.N) :
    (dat11 (F := Ideal) V c).flushed 6 t = ((cfg11.win 6).blk t).view.read (Elt Ideal) (G11_6 V c) := by
  show (cfg11.win 6).cut (grid11.coords t) ((dat11 (F := Ideal) V c).after 6 t) = _
  rw [after11_6]
  unfold out11_6
  rw [View.canon_unit_zero hz11]
  simp only [View.ld_unit_zero (S := S2048x192) hz11, View.ld_unit_zero (S := S192x128) hz11, View.ld_unit_zero (S := S1x128) hz11]
  obtain ⟨e00, e01, e10, e11, e20, e21, e30, e31, e40, e41, e51, e60, e61, e5⟩ := idx_facts11 t
  funext j
  obtain ⟨a, b, rfl⟩ : ∃ (a : Fin 2048) (b : Fin 128), j = ix2 a b := ⟨j 0, j 1, eq_ix2 j⟩
  refine (resid11_pay_apply (iblk11 V c 0 t) (iblk11 V c 2 t) (iblk11 V c 3 t) a b).trans ?_
  show (∑ l : Fin 192, xin11 V c (((cfg11.win 0).blk t).view.emb (ix2 a l)) * wre11 V c (((cfg11.win 2).blk t).view.emb (ix2 l b)))
      + bia11 V c (((cfg11.win 3).blk t).view.emb (ix2 (0 : Fin 1) b))
    = residAt11 V c ⟨((((cfg11.win 6).blk t).view.emb (ix2 a b)) 0).val, _⟩ ⟨((((cfg11.win 6).blk t).view.emb (ix2 a b)) 1).val, _⟩
  unfold residAt11
  refine congr (congrArg _ (Finset.sum_congr rfl fun l _ => congr (congrArg _ (congrArg _ ?_)) (congrArg _ ?_))) (congrArg _ ?_)
  · funext d; apply Fin.ext
    match d with
    | ⟨0, _⟩ => show win11_0.index t (0 : Fin 2) * 2048 + 1 * a.val = win11_6.index t (0 : Fin 2) * 2048 + 1 * a.val; omega
    | ⟨1, _⟩ => show win11_0.index t (1 : Fin 2) * 192 + 1 * l.val = l.val; omega
  · funext d; apply Fin.ext
    match d with
    | ⟨0, _⟩ => show win11_2.index t (0 : Fin 2) * 192 + 1 * l.val = l.val; omega
    | ⟨1, _⟩ => show win11_2.index t (1 : Fin 2) * 128 + 1 * b.val = win11_6.index t (1 : Fin 2) * 128 + 1 * b.val; omega
  · funext d; apply Fin.ext
    match d with
    | ⟨0, _⟩ => show win11_3.index t (0 : Fin 2) * 1 + 1 * 0 = 0; omega
    | ⟨1, _⟩ => show win11_3.index t (1 : Fin 2) * 128 + 1 * b.val = win11_6.index t (1 : Fin 2) * 128 + 1 * b.val; omega

/-- An index of the residual output is in point t's block iff each coordinate is in the block's range on its axis. -/
theorem mem_blk11_6 (t : Fin cfg11.N) (i : S8192x128.Idx) :
    i ∈ ((cfg11.win 6).blk t).view.set ↔ ∀ a : Fin 2, win11_6.index t a * S2048x128.size a ≤ (i a).val ∧ (i a).val < win11_6.index t a * S2048x128.size a + S2048x128.size a := by
  show i ∈ ((View.whole (Pipeline.arrRef spec11 6)).slice (win11_6.rect t)).set ↔ _
  rw [View.set_slice_whole, Rect.mem_set_unit]
  exact Iff.rfl

/-- Every index is in the block of the point of its row block, row / 2048. -/
theorem covered11_6 (i : S8192x128.Idx) :
    ∃ t : Fin cfg11.N, (cfg11.win 6).flush t = true ∧ i ∈ ((cfg11.win 6).blk t).view.set := by
  have hi0 : (i 0).val < 8192 := (i 0).isLt
  have hi1 : (i 1).val < 128 := (i 1).isLt
  obtain ⟨t, ht⟩ := idx_onto11_6 ⟨(i 0).val / 2048, by omega⟩
  have q0 : win11_6.index t (0 : Fin 2) = (i 0).val / 2048 := congrFun ht 0
  have q1 : win11_6.index t (1 : Fin 2) = 0 := congrFun ht 1
  refine ⟨t, flush11_6 t, ?_⟩
  rw [mem_blk11_6]
  intro a
  match a with
  | ⟨0, _⟩ => show win11_6.index t (0 : Fin 2) * 2048 ≤ (i 0).val ∧ (i 0).val < win11_6.index t (0 : Fin 2) * 2048 + 2048; omega
  | ⟨1, _⟩ => show win11_6.index t (1 : Fin 2) * 128 ≤ (i 1).val ∧ (i 1).val < win11_6.index t (1 : Fin 2) * 128 + 128; omega

/-- THE RESIDUAL OUTPUT after the region. -/
theorem arr11_6 (c : Dev nD) : (dat11 (F := Ideal) V c).arrAt 6 cfg11.N = G11_6 V c :=
  (dat11 (F := Ideal) V c).arrAt_eq_of_cover 6 (G11_6 V c) (fun t _ => flushed11_6_eq V c t) covered11_6

theorem r11_resid (c : Dev nD) (p : Fin 8192) (q : Fin 128) :
    (dat11 (F := Ideal) V c).arrAt 6 cfg11.N (ix2 p q)
      = (∑ l : Fin 192, xin11 V c (ix2 p l) * wre11 V c (ix2 l q)) + bia11 V c (ix2 (0 : Fin 1) q) :=
  congrFun (arr11_6 V c) (ix2 p q)

end Cert.KernelIdeal.KV

end
-- ==== Proof.KV.R12.lean ====
/-
  Region 12, an aggregation layer with rectifier and the residual average: what its output array holds after the region,
  entry by entry, as a function of the arrays the region finds.

  The body writes its output block [1024, 192] by two column slices: columns [0, 64) hold
  (H + max(A·S + b, 0))·½ and columns [64, 192) hold (H + max(R, 0))·½, where A is the row block of the adjacency, S the
  scaled features, b the bias row broadcast over the rows, R the row block of the other feature group, and H the same
  columns of the row block of the previous layer's features. The two slices are disjoint and cover the block, so each
  entry of the block is the payload of the slice that holds it. Row block t of the output array is written by grid
  point t (8 points of 1024 rows), and the points' blocks cover the array.
-/
import proofs.«405499_j28269474742810_3_alg».proof.Proof.Fr.KernelIdeal.Reg12
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r12_hz : (![0, 0] : Fin 2 → Nat) = fun _ => 0 := funext fun a => match a with | ⟨0, _⟩ => rfl | ⟨1, _⟩ => rfl

/-- The product's dimension numbers are those of a plain M×K by K×N product. -/
theorem r12_dot_plain : dot_S1024x8192_S8192x64_S1024x64_1_0_0_1_n_n = DotDims.plain 1024 8192 64 := rfl

/-- Columns [0, 64) at entry (a, b): the previous features' entry plus the rectified (product's entry plus the bias of
    column b), halved. -/
theorem r12_pay1_apply (x0 : Vec Ideal S1024x8192 .bf16) (x1 : Vec Ideal S8192x64 .bf16) (x3 : Vec Ideal S1x64 .f32)
    (u : Vec Ideal S1024x64 .f32) (a : Fin 1024) (b : Fin 64) :
    k12_pay1 (F := Ideal) x0 x1 x3 u (ix2 a b)
      = (u (ix2 a b) + max ((∑ k : Fin 8192, x0 (ix2 a k) * x1 (ix2 k b)) + x3 (ix2 (0 : Fin 1) b)) (Ideal.ofBits .f32 0x00000000#32))
          * Ideal.ofBits .f32 0x3F000000#32 := by
  unfold k12_pay1
  simp only [shapeCast_self]
  show (u (ix2 a b) + max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32)) * Ideal.ofBits .f32 0x3F000000#32 = _
  rw [r12_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the previous features' entry plus the other feature group's rectified entry, halved. -/
theorem r12_pay2_apply (x2 : Vec Ideal S1024x128 .f32) (u : Vec Ideal S1024x128 .f32) (a : Fin 1024) (b : Fin 128) :
    k12_pay2 (F := Ideal) x2 u (ix2 a b)
      = (u (ix2 a b) + max (x2 (ix2 a b)) (Ideal.ofBits .f32 0x00000000#32)) * Ideal.ofBits .f32 0x3F000000#32 := by
  unfold k12_pay2
  simp only [shapeCast_self]
  rfl

/-! ## What the body leaves in the output block: each entry is the payload of the slice that holds it -/

/-- An entry in columns [0, 64): off the later slice, under the earlier one. -/
theorem r12_out_lo (c : Dev nD) (i : grid12.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 64) (hy0 : (y 0).val = a.val) (hy1 : (y 1).val = b.val) :
    out12_A_5 (F := Ideal) c i a1 h1 a2 h2 a3 h3 a4 h4 a5 h5 a6 h6 x0 x1 x2 x3 x4 y
      = k12_pay1 (F := Ideal) x0 x1 x3
          (View.ld x4 (Rect.unit (s := S1024x192) ![0, 0] S1024x64.size inb_S1024x192_S1024x64_0_0)) (ix2 a b) := by
  unfold out12_A_5
  rw [View.read_writes_eq_canon _ _ _ (cover12_A_5 c i a1 h1 a2 h2 a3 h3 a4 h4 a5 h5 a6 h6 x0 x1 x2 x3 x4)]
  unfold kernelRun12_A
  dsimp only
  sl_unfold_words
  simp only [View.readAt_eq_ld, h1.read_unread, h2.read_unread, h3.read_unread, h4.read_unread, h5.read_unread,
    View.ld_unit_zero (S := S1024x8192) r12_hz, View.ld_unit_zero (S := S8192x64) r12_hz,
    View.ld_unit_zero (S := S1024x128) r12_hz, View.ld_unit_zero (S := S1x64) r12_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r12_out_hi (c : Dev nD) (i : grid12.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 128) (hy0 : (y 0).val = a.val) (hy1 : (y 1).val = 64 + b.val) :
    out12_A_5 (F := Ideal) c i a1 h1 a2 h2 a3 h3 a4 h4 a5 h5 a6 h6 x0 x1 x2 x3 x4 y
      = k12_pay2 (F := Ideal) x2
          (View.ld x4 (Rect.unit (s := S1024x192) ![0, 64] S1024x128.size inb_S1024x192_S1024x128_0_64)) (ix2 a b) := by
  unfold out12_A_5
  rw [View.read_writes_eq_canon _ _ _ (cover12_A_5 c i a1 h1 a2 h2 a3 h3 a4 h4 a5 h5 a6 h6 x0 x1 x2 x3 x4)]
  unfold kernelRun12_A
  dsimp only
  sl_unfold_words
  simp only [View.readAt_eq_ld, h1.read_unread, h2.read_unread, h3.read_unread, h4.read_unread, h5.read_unread,
    View.ld_unit_zero (S := S1024x8192) r12_hz, View.ld_unit_zero (S := S8192x64) r12_hz,
    View.ld_unit_zero (S := S1024x128) r12_hz, View.ld_unit_zero (S := S1x64) r12_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group, the bias row and the previous layer's
    features, as the region finds them. -/
abbrev r12_adj (c : Dev nD) : Vec Ideal S8192x8192 .bf16 := V c (Pipeline.arrRef spec12 0)
abbrev r12_scaled (c : Dev nD) : Vec Ideal S8192x64 .bf16 := V c (Pipeline.arrRef spec12 1)
abbrev r12_resid (c : Dev nD) : Vec Ideal S8192x128 .f32 := V c (Pipeline.arrRef spec12 2)
abbrev r12_bias (c : Dev nD) : Vec Ideal S1x64 .f32 := V c (Pipeline.arrRef spec12 3)
abbrev r12_prev (c : Dev nD) : Vec Ideal S8192x192 .f32 := V c (Pipeline.arrRef spec12 4)

/-- The windows' blocks at a point, at their literal types. -/
abbrev r12_b0 (c : Dev nD) (t : Fin cfg12.N) : Vec Ideal S1024x8192 .bf16 := iblk12 (F := Ideal) V c 0 t
abbrev r12_b1 (c : Dev nD) (t : Fin cfg12.N) : Vec Ideal S8192x64 .bf16 := iblk12 (F := Ideal) V c 1 t
abbrev r12_b2 (c : Dev nD) (t : Fin cfg12.N) : Vec Ideal S1024x128 .f32 := iblk12 (F := Ideal) V c 2 t
abbrev r12_b3 (c : Dev nD) (t : Fin cfg12.N) : Vec Ideal S1x64 .f32 := iblk12 (F := Ideal) V c 3 t
abbrev r12_b4 (c : Dev nD) (t : Fin cfg12.N) : Vec Ideal S1024x192 .f32 := iblk12 (F := Ideal) V c 4 t

/-- Entry (p, q) of the array the region leaves. -/
def r12_val (c : Dev nD) (p : Fin 8192) (q : Fin 192) : EReal :=
  if h : q.val < 64 then
    (r12_prev V c (ix2 p q)
      + max ((∑ k : Fin 8192, r12_adj V c (ix2 p k) * r12_scaled V c (ix2 k (⟨q.val, h⟩ : Fin 64)))
          + r12_bias V c (ix2 (0 : Fin 1) (⟨q.val, h⟩ : Fin 64))) (Ideal.ofBits .f32 0x00000000#32))
      * Ideal.ofBits .f32 0x3F000000#32
  else
    (r12_prev V c (ix2 p q)
      + max (r12_resid V c (ix2 p (⟨q.val - 64, by have := q.isLt; omega⟩ : Fin 128))) (Ideal.ofBits .f32 0x00000000#32))
      * Ideal.ofBits .f32 0x3F000000#32

/-- The array the region leaves. -/
def r12_G (c : Dev nD) : Vec Ideal S8192x192 .f32 := fun i => r12_val V c (i 0) (i 1)

/-- The printed index maps, decided over the grid: the row-blocked windows are at block row t, column block 0; the whole
    windows at block (0, 0). -/
theorem r12_idx_facts : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 2) = t.val ∧ win12_5.index t (1 : Fin 2) = 0 :=
  (by decide +kernel : ∀ t : Fin grid12.N, _)

/-- Row block t of the adjacency: entry (a, k) of the block is entry (1024 t + a, k) of the array. -/
theorem r12_b0_apply (c : Dev nD) (t : Fin cfg12.N) (a : Fin 1024) (k : Fin 8192) (p : Fin 8192)
    (hp : p.val = t.val * 1024 + a.val) : r12_b0 V c t (ix2 a k) = r12_adj V c (ix2 p k) := by
  obtain ⟨e00, e01, -⟩ := r12_idx_facts t
  show V c (Pipeline.arrRef spec12 0) (((cfg12.win 0).blk t).view.emb (ix2 a k)) = V c (Pipeline.arrRef spec12 0) (ix2 p k)
  refine congrArg _ (funext fun d => Fin.ext ?_)
  match d with
  | ⟨0, _⟩ => show win12_0.index t (0 : Fin 2) * 1024 + 1 * a.val = p.val; omega
  | ⟨1, _⟩ => show win12_0.index t (1 : Fin 2) * 8192 + 1 * k.val = k.val; omega

/-- The scaled features' one block is the array. -/
theorem r12_b1_apply (c : Dev nD) (t : Fin cfg12.N) (k : Fin 8192) (b : Fin 64) :
    r12_b1 V c t (ix2 k b) = r12_scaled V c (ix2 k b) := by
  obtain ⟨-, -, e10, e11, -⟩ := r12_idx_facts t
  show V c (Pipeline.arrRef spec12 1) (((cfg12.win 1).blk t).view.emb (ix2 k b)) = V c (Pipeline.arrRef spec12 1) (ix2 k b)
  refine congrArg _ (funext fun d => Fin.ext ?_)
  match d with
  | ⟨0, _⟩ => show win12_1.index t (0 : Fin 2) * 8192 + 1 * k.val = k.val; omega
  | ⟨1, _⟩ => show win12_1.index t (1 : Fin 2) * 64 + 1 * b.val = b.val; omega

/-- Row block t of the other feature group. -/
theorem r12_b2_apply (c : Dev nD) (t : Fin cfg12.N) (a : Fin 1024) (b : Fin 128) (p : Fin 8192)
    (hp : p.val = t.val * 1024 + a.val) : r12_b2 V c t (ix2 a b) = r12_resid V c (ix2 p b) := by
  obtain ⟨-, -, -, -, e20, e21, -⟩ := r12_idx_facts t
  show V c (Pipeline.arrRef spec12 2) (((cfg12.win 2).blk t).view.emb (ix2 a b)) = V c (Pipeline.arrRef spec12 2) (ix2 p b)
  refine congrArg _ (funext fun d => Fin.ext ?_)
  match d with
  | ⟨0, _⟩ => show win12_2.index t (0 : Fin 2) * 1024 + 1 * a.val = p.val; omega
  | ⟨1, _⟩ => show win12_2.index t (1 : Fin 2) * 128 + 1 * b.val = b.val; omega

/-- The bias row's one block is the array. -/
theorem r12_b3_apply (c : Dev nD) (t : Fin cfg12.N) (b : Fin 64) :
    r12_b3 V c t (ix2 (0 : Fin 1) b) = r12_bias V c (ix2 (0 : Fin 1) b) := by
  obtain ⟨-, -, -, -, -, -, e30, e31, -⟩ := r12_idx_facts t
  show V c (Pipeline.arrRef spec12 3) (((cfg12.win 3).blk t).view.emb (ix2 (0 : Fin 1) b)) = V c (Pipeline.arrRef spec12 3) (ix2 (0 : Fin 1) b)
  refine congrArg _ (funext fun d => Fin.ext ?_)
  match d with
  | ⟨0, _⟩ => show win12_3.index t (0 : Fin 2) * 1 + 1 * 0 = 0; omega
  | ⟨1, _⟩ => show win12_3.index t (1 : Fin 2) * 64 + 1 * b.val = b.val; omega

/-- Row block t of the previous layer's features: entry y of the block is entry (1024 t + y₀, y₁) of the array. -/
theorem r12_b4_apply (c : Dev nD) (t : Fin cfg12.N) (y : S1024x192.Idx) (p : Fin 8192) (q : Fin 192)
    (hp : p.val = t.val * 1024 + (y 0).val) (hq : q.val = (y 1).val) : r12_b4 V c t y = r12_prev V c (ix2 p q) := by
  obtain ⟨-, -, -, -, -, -, -, -, e40, e41, -⟩ := r12_idx_facts t
  show V c (Pipeline.arrRef spec12 4) (((cfg12.win 4).blk t).view.emb y) = V c (Pipeline.arrRef spec12 4) (ix2 p q)
  refine congrArg _ (funext fun d => Fin.ext ?_)
  match d with
  | ⟨0, _⟩ => show win12_4.index t (0 : Fin 2) * 1024 + 1 * (y 0).val = p.val; omega
  | ⟨1, _⟩ => show win12_4.index t (1 : Fin 2) * 192 + 1 * (y 1).val = q.val; omega

/-- WHAT POINT t WRITES BACK is block t of the array the region leaves. -/
theorem r12_flushed_eq (c : Dev nD) (t : Fin cfg12.N) :
    (dat12 (F := Ideal) V c).flushed 5 t = ((cfg12.win 5).blk t).view.read (Elt Ideal) (r12_G V c) := by
  show (cfg12.win 5).cut (grid12.coords t) ((dat12 (F := Ideal) V c).after 5 t) = _
  rw [after12_5]
  obtain ⟨-, -, -, -, -, -, -, -, -, -, e50, e51⟩ := r12_idx_facts t
  funext j
  have hj0 : (j 0).val < 1024 := (j 0).isLt
  have hj1 : (j 1).val < 192 := (j 1).isLt
  have ht : t.val < 8 := lt_of_lt_of_eq t.isLt N_12
  have hp : t.val * 1024 + (j 0).val < 8192 := by omega
  have hemb : ((cfg12.win 5).blk t).view.emb j
      = ix2 (⟨t.val * 1024 + (j 0).val, hp⟩ : Fin 8192) (⟨(j 1).val, hj1⟩ : Fin 192) := by
    funext d; apply Fin.ext
    match d with
    | ⟨0, _⟩ => show win12_5.index t (0 : Fin 2) * 1024 + 1 * (j 0).val = t.val * 1024 + (j 0).val; omega
    | ⟨1, _⟩ => show win12_5.index t (1 : Fin 2) * 192 + 1 * (j 1).val = (j 1).val; omega
  show outsAt12 (F := Ideal) V c t ((cfg12.win 5).xinj (grid12.coords t) j) = r12_G V c (((cfg12.win 5).blk t).view.emb j)
  rw [hemb]
  show _ = r12_val V c (⟨t.val * 1024 + (j 0).val, hp⟩ : Fin 8192) (⟨(j 1).val, hj1⟩ : Fin 192)
  unfold outsAt12 r12_val
  by_cases h : (j 1).val < 64
  · rw [dif_pos h]
    refine (r12_out_lo c (grid12.coords t) (ms12_0 t) (hs12_0 t) (ms12_1 t) (hs12_1 t) (ms12_2 t) (hs12_2 t) (ms12_3 t) (hs12_3 t)
      (ms12_4 t) (hs12_4 t) (ms12_5 t) (hs12_5 t) (r12_b0 V c t) (r12_b1 V c t) (r12_b2 V c t) (r12_b3 V c t) (r12_b4 V c t)
      ((cfg12.win 5).xinj (grid12.coords t) j) (⟨(j 0).val, hj0⟩ : Fin 1024) (⟨(j 1).val, h⟩ : Fin 64) rfl rfl).trans ?_
    refine (r12_pay1_apply (r12_b0 V c t) (r12_b1 V c t) (r12_b3 V c t)
      (View.ld (r12_b4 V c t) (Rect.unit (s := S1024x192) ![0, 0] S1024x64.size inb_S1024x192_S1024x64_0_0))
      (⟨(j 0).val, hj0⟩ : Fin 1024) (⟨(j 1).val, h⟩ : Fin 64)).trans ?_
    refine congrArg₂ (· * ·) (congrArg₂ (· + ·)
      (r12_b4_apply V c t
        ((Rect.unit (s := S1024x192) ![0, 0] S1024x64.size inb_S1024x192_S1024x64_0_0).idx
          (ix2 (⟨(j 0).val, hj0⟩ : Fin 1024) (⟨(j 1).val, h⟩ : Fin 64)))
        (⟨t.val * 1024 + (j 0).val, hp⟩ : Fin 8192) (⟨(j 1).val, hj1⟩ : Fin 192)
        (by show t.val * 1024 + (j 0).val = t.val * 1024 + (0 + 1 * (j 0).val); omega)
        (by show (j 1).val = 0 + 1 * (j 1).val; omega))
      (congrArg₂ max (congrArg₂ (· + ·) (Finset.sum_congr rfl fun k _ =>
        congrArg₂ (· * ·) (r12_b0_apply V c t (⟨(j 0).val, hj0⟩ : Fin 1024) k (⟨t.val * 1024 + (j 0).val, hp⟩ : Fin 8192) rfl)
          (r12_b1_apply V c t k (⟨(j 1).val, h⟩ : Fin 64))) (r12_b3_apply V c t (⟨(j 1).val, h⟩ : Fin 64))) rfl)) rfl
  · rw [dif_neg h]
    have h128 : (j 1).val - 64 < 128 := by omega
    refine (r12_out_hi c (grid12.coords t) (ms12_0 t) (hs12_0 t) (ms12_1 t) (hs12_1 t) (ms12_2 t) (hs12_2 t) (ms12_3 t) (hs12_3 t)
      (ms12_4 t) (hs12_4 t) (ms12_5 t) (hs12_5 t) (r12_b0 V c t) (r12_b1 V c t) (r12_b2 V c t) (r12_b3 V c t) (r12_b4 V c t)
      ((cfg12.win 5).xinj (grid12.coords t) j) (⟨(j 0).val, hj0⟩ : Fin 1024) (⟨(j 1).val - 64, h128⟩ : Fin 128) rfl
      (by show (j 1).val = 64 + ((j 1).val - 64); omega)).trans ?_
    refine (r12_pay2_apply (r12_b2 V c t)
      (View.ld (r12_b4 V c t) (Rect.unit (s := S1024x192) ![0, 64] S1024x128.size inb_S1024x192_S1024x128_0_64))
      (⟨(j 0).val, hj0⟩ : Fin 1024) (⟨(j 1).val - 64, h128⟩ : Fin 128)).trans ?_
    exact congrArg₂ (· * ·) (congrArg₂ (· + ·)
      (r12_b4_apply V c t
        ((Rect.unit (s := S1024x192) ![0, 64] S1024x128.size inb_S1024x192_S1024x128_0_64).idx
          (ix2 (⟨(j 0).val, hj0⟩ : Fin 1024) (⟨(j 1).val - 64, h128⟩ : Fin 128)))
        (⟨t.val * 1024 + (j 0).val, hp⟩ : Fin 8192) (⟨(j 1).val, hj1⟩ : Fin 192)
        (by show t.val * 1024 + (j 0).val = t.val * 1024 + (0 + 1 * (j 0).val); omega)
        (by show (j 1).val = 64 + 1 * ((j 1).val - 64); omega))
      (congrArg₂ max (r12_b2_apply V c t (⟨(j 0).val, hj0⟩ : Fin 1024) (⟨(j 1).val - 64, h128⟩ : Fin 128)
        (⟨t.val * 1024 + (j 0).val, hp⟩ : Fin 8192) rfl) rfl)) rfl

/-! ## The points' blocks cover the array -/

/-- An index of the array is in point t's block iff each coordinate is in the block's range on its axis. -/
theorem r12_mem_blk (t : Fin cfg12.N) (i : S8192x192.Idx) :
    i ∈ ((cfg12.win 5).blk t).view.set ↔ ∀ a : Fin 2, win12_5.index t a * S1024x192.size a ≤ (i a).val
      ∧ (i a).val < win12_5.index t a * S1024x192.size a + S1024x192.size a := by
  show i ∈ ((View.whole (Pipeline.arrRef spec12 5)).slice (win12_5.rect t)).set ↔ _
  rw [View.set_slice_whole, Rect.mem_set_unit]
  exact Iff.rfl

/-- Row r of the array is in the block of point r / 1024. -/
theorem r12_cover (i : S8192x192.Idx) :
    ∃ t : Fin cfg12.N, (cfg12.win 5).flush t = true ∧ i ∈ ((cfg12.win 5).blk t).view.set := by
  have hi0 : (i 0).val < 8192 := (i 0).isLt
  have hi1 : (i 1).val < 192 := (i 1).isLt
  have hlt : (i 0).val / 1024 < cfg12.N := lt_of_lt_of_eq (by omega : (i 0).val / 1024 < 8) N_12.symm
  obtain ⟨-, -, -, -, -, -, -, -, -, -, e50, e51⟩ := r12_idx_facts ⟨(i 0).val / 1024, hlt⟩
  refine ⟨⟨(i 0).val / 1024, hlt⟩, flush12_5 _, ?_⟩
  rw [r12_mem_blk]
  intro a
  match a with
  | ⟨0, _⟩ =>
    show win12_5.index ⟨(i 0).val / 1024, hlt⟩ (0 : Fin 2) * 1024 ≤ (i 0).val
      ∧ (i 0).val < win12_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win12_5.index ⟨(i 0).val / 1024, hlt⟩ (1 : Fin 2) * 192 ≤ (i 1).val
      ∧ (i 1).val < win12_5.index ⟨(i 0).val / 1024, hlt⟩ (1 : Fin 2) * 192 + 192
    rw [e51]; omega

/-! ## The output array after the region -/

/-- The output array ends holding the array of the entries above. -/
theorem r12_final (c : Dev nD) : (dat12 (F := Ideal) V c).arrAt 5 cfg12.N = r12_G V c :=
  (dat12 (F := Ideal) V c).arrAt_eq_of_cover 5 (r12_G V c) (fun t _ => r12_flushed_eq V c t) r12_cover

/-- Columns [0, 64): the average of the previous features and the aggregated, biased, rectified features. -/
theorem r12_lo (c : Dev nD) (p : Fin 8192) (q : Fin 64) :
    (dat12 (F := Ideal) V c).arrAt 5 cfg12.N (ix2 p (⟨q.val, by have := q.isLt; omega⟩ : Fin 192))
      = (r12_prev V c (ix2 p (⟨q.val, by have := q.isLt; omega⟩ : Fin 192))
          + max ((∑ k : Fin 8192, r12_adj V c (ix2 p k) * r12_scaled V c (ix2 k q)) + r12_bias V c (ix2 (0 : Fin 1) q))
              (Ideal.ofBits .f32 0x00000000#32)) * Ideal.ofBits .f32 0x3F000000#32 := by
  rw [r12_final]
  show r12_val V c p (⟨q.val, _⟩ : Fin 192) = _
  unfold r12_val
  rw [dif_pos (show (⟨q.val, _⟩ : Fin 192).val < 64 from q.isLt)]

/-- Columns [64, 192): the average of the previous features and the other feature group rectified. -/
theorem r12_hi (c : Dev nD) (p : Fin 8192) (q : Fin 128) :
    (dat12 (F := Ideal) V c).arrAt 5 cfg12.N (ix2 p (⟨64 + q.val, by have := q.isLt; omega⟩ : Fin 192))
      = (r12_prev V c (ix2 p (⟨64 + q.val, by have := q.isLt; omega⟩ : Fin 192))
          + max (r12_resid V c (ix2 p q)) (Ideal.ofBits .f32 0x00000000#32)) * Ideal.ofBits .f32 0x3F000000#32 := by
  rw [r12_final]
  show r12_val V c p (⟨64 + q.val, _⟩ : Fin 192) = _
  unfold r12_val
  rw [dif_neg (show ¬ (⟨64 + q.val, _⟩ : Fin 192).val < 64 from by show ¬ 64 + q.val < 64; omega)]
  refine congrArg₂ (· * ·) (congrArg₂ (· + ·) rfl (congrArg₂ max (congrArg _ (congrArg (ix2 p) (Fin.ext ?_))) rfl)) rfl
  show 64 + q.val - 64 = q.val
  omega

end Cert.KernelIdeal.KV

end
-- ==== Proof.KV.L6.lean ====
/-
  Layer 6 of the first program (a middle layer with the residual-and-halve step, weight page 4): what its two
  pallas_calls leave in the output array, entry by entry, is the layer's specification applied to the entries of its input array.
-/
import proofs.«405499_j28269474742810_3_alg».proof.Proof.KV.R11
import proofs.«405499_j28269474742810_3_alg».proof.Proof.KV.R12
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L6_w (c : Dev nD) : V17 m ρ c main_arg5 = m ((c : Thread nD τ).loc main_arg5) := tr_main_arg5_0_17 m ρ c
theorem L6_b (c : Dev nD) : V17 m ρ c main_arg6 = m ((c : Thread nD τ).loc main_arg6) := tr_main_arg6_0_17 m ρ c

/-- The scaled column group of the layer's weights, at an entry. -/
theorem L6_ws (c : Dev nD) (l : Fin 192) (q : Fin 64) : V18 m ρ c main_v62 (ix2 l q) = (P m c).Wm 4 l ⟨q.val, by omega⟩ := by
  have e : V18 m ρ c main_v62 = extractStridedSlice S192x64 ![0, 0] (shapeCast S192x192 (extractStridedSlice S1x192x192 ![4, 0, 0] (V17 m ρ c main_arg5) slices_S12x192x192_S1x192x192_4_0_0) shapeCasts_S1x192x192_S192x192) slices_S192x192_S192x64_0_0 := by
    show StableHlo.after hostOps11 (W17 m ρ c) (Proc.devRef .tc main_v62) = _
    after_results <;> rfl
  rw [e, Cert.Slices.cols_apply _ 0 _ l q (by omega), Cert.Slices.page_apply _ 4 (by omega), L6_w]
  show _ = m ((c : Thread nD τ).loc main_arg5) (ix3 (4 : Fin 12) l ⟨q.val, by omega⟩)
  congr 2
  exact Fin.ext (Nat.zero_add _)

/-- The pass-through column group of the layer's weights, at an entry. -/
theorem L6_wr (c : Dev nD) (l : Fin 192) (q : Fin 128) : V18 m ρ c main_v63 (ix2 l q) = (P m c).Wm 4 l ⟨64 + q.val, by omega⟩ := by
  have e : V18 m ρ c main_v63 = extractStridedSlice S192x128 ![0, 64] (shapeCast S192x192 (extractStridedSlice S1x192x192 ![4, 0, 0] (V17 m ρ c main_arg5) slices_S12x192x192_S1x192x192_4_0_0) shapeCasts_S1x192x192_S192x192) slices_S192x192_S192x128_0_64 := by
    show StableHlo.after hostOps11 (W17 m ρ c) (Proc.devRef .tc main_v63) = _
    after_results <;> rfl
  rw [e, Cert.Slices.cols_apply _ 64 _ l q (by omega), Cert.Slices.page_apply _ 4 (by omega), L6_w]
  rfl

/-- The bias of the scaled columns, one row, at an entry. -/
theorem L6_bs (c : Dev nD) (q : Fin 64) : V18 m ρ c main_v65 (ix2 (0 : Fin 1) q) = (P m c).bm 4 ⟨q.val, by omega⟩ := by
  have e : V18 m ρ c main_v65 = shapeCast S1x64 (extractStridedSlice S64 ![0] (shapeCast S192 (extractStridedSlice S1x192 ![4, 0] (V17 m ρ c main_arg6) slices_S12x192_S1x192_4_0) shapeCasts_S1x192_S192) slices_S192_S64_0) shapeCasts_S64_S1x64 := by
    show StableHlo.after hostOps11 (W17 m ρ c) (Proc.devRef .tc main_v65) = _
    after_results <;> rfl
  rw [e, Cert.Slices.seg_row_apply _ 0 _ _ (0 : Fin 1) q (by omega), Cert.Slices.row_apply _ 4 (by omega), L6_b]
  show _ = m ((c : Thread nD τ).loc main_arg6) (ix2 (4 : Fin 12) ⟨q.val, by omega⟩)
  congr 2
  exact Fin.ext (Nat.zero_add _)

/-- The bias of the pass-through columns, one row, at an entry. -/
theorem L6_br (c : Dev nD) (q : Fin 128) : V18 m ρ c main_v67 (ix2 (0 : Fin 1) q) = (P m c).bm 4 ⟨64 + q.val, by omega⟩ := by
  have e : V18 m ρ c main_v67 = shapeCast S1x128 (extractStridedSlice S128 ![64] (shapeCast S192 (extractStridedSlice S1x192 ![4, 0] (V17 m ρ c main_arg6) slices_S12x192_S1x192_4_0) shapeCasts_S1x192_S192) slices_S192_S128_64) shapeCasts_S128_S1x128 := by
    show StableHlo.after hostOps11 (W17 m ρ c) (Proc.devRef .tc main_v67) = _
    after_results <;> rfl
  rw [e, Cert.Slices.seg_row_apply _ 64 _ _ (0 : Fin 1) q (by omega), Cert.Slices.row_apply _ 4 (by omega), L6_b]
  rfl

/-- THE LAYER: the output array after its second pallas_call, at (p, j), is the layer's specification of the input array's entries and of the residual array's. -/
theorem L6_out (c : Dev nD) (x : Cert.Spec.Mx 8192 192) (hx : ∀ k l, V17 m ρ c main_v57 (ix2 k l) = x k l)
    (prev : Cert.Spec.Mx 8192 192) (hprev : ∀ p j, V14 m ρ c main_v45 (ix2 p j) = prev p j)
    (p : Fin 8192) (j : Fin 192) : V20 m ρ c main_v69 (ix2 p j) = Cert.Spec.residK (P m c) 4 prev x p j := by
  unfold Cert.Spec.residK Cert.Spec.resK Cert.Spec.relu
  have hp : ∀ p j, V19 m ρ c main_v45 (ix2 p j) = prev p j := fun p j =>
    (congrFun (tr_main_v45_14_19 m ρ c) (ix2 p j)).trans (hprev p j)
  refine Cert.Spec.layer_assemble (S := 64) (R := 128) (O := 192) rfl (P m c).A x ((P m c).Wm 4) ((P m c).bm 4)
    (fun k => V18 m ρ c main_v1_1 (ix2 k (0 : Fin 1))) (fun k => ?hinv)
    (fun k q => V19 m ρ c main_v68_0 (ix2 k q)) (fun k q => ?hsc)
    (fun p q => V19 m ρ c main_v68_1 (ix2 p q)) (fun p q => ?hrs)
    (fun p j y => (prev p j + max y Cert.Spec.zero) * Cert.Spec.half) (fun p j => V20 m ρ c main_v69 (ix2 p j)) (fun p q => ?hlo) (fun p q => ?hhi) p j
  case hinv =>
    exact (congrFun (tr_main_v1_1_2_18 m ρ c) (ix2 k (0 : Fin 1))).trans (inv_W2 m ρ c k)
  case hsc =>
    refine (congrFun (W19_arr m ρ c 5) (ix2 k q)).trans ((r11_scaled (V18 m ρ) c k q).trans ?_)
    refine congrArg (· * _) (Finset.sum_congr rfl fun l _ => ?_)
    exact congrArg₂ (· * ·) ((congrFun (tr_main_v57_17_18 m ρ c) (ix2 k l)).trans (hx k l)) (L6_ws m ρ c l q)
  case hrs =>
    refine (congrFun (W19_arr m ρ c 6) (ix2 p q)).trans ((r11_resid (V18 m ρ) c p q).trans ?_)
    refine congrArg₂ (· + ·) (Finset.sum_congr rfl fun l _ => ?_) (L6_br m ρ c q)
    exact congrArg₂ (· * ·) ((congrFun (tr_main_v57_17_18 m ρ c) (ix2 p l)).trans (hx p l)) (L6_wr m ρ c l q)
  case hlo =>
    refine (congrFun (W20_arr m ρ c 5) (ix2 p _)).trans ((r12_lo (V19 m ρ) c p q).trans ?_)
    refine congrArg (· * _) (congrArg₂ (· + ·) (hp p _) (congrArg (max · _) ?_))
    refine congrArg₂ (· + ·) (Finset.sum_congr rfl fun k _ => ?_)
      ((congrFun (tr_main_v65_18_19 m ρ c) (ix2 (0 : Fin 1) q)).trans (L6_bs m ρ c q))
    exact congrArg (· * _) ((congrFun (tr_main_v1_0_2_19 m ρ c) (ix2 p k)).trans (adjb_W2 m ρ c p k))
  case hhi =>
    refine (congrFun (W20_arr m ρ c 5) (ix2 p _)).trans ((r12_hi (V19 m ρ) c p q).trans ?_)
    exact congrArg (· * _) (congrArg (· + _) (hp p _))

end Cert.KernelIdeal.KV

end
-- ==== Proof.KV.R13.lean ====
/-
  Region 13 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg13
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz13 : (![0, 0] : Fin 2 → Nat) = fun _ => 0 := funext fun a => by fin_cases a <;> rfl

/-! ## The payloads at an index -/

/-- The generated dimension record of the [2048,192]·[192,64] product is the plain one. -/
theorem dot13_scaled_eq : dot_S2048x192_S192x64_S2048x64_1_0_0_1_n_n = DotDims.plain 2048 192 64 := rfl
/-- The generated dimension record of the [2048,192]·[192,128] product is the plain one. -/
theorem dot13_resid_eq : dot_S2048x192_S192x128_S2048x128_1_0_0_1_n_n = DotDims.plain 2048 192 128 := rfl

/-- The narrowed copy of the x block is the x block (a format change is the identity on extended reals). -/
theorem xcast13_eq (v0 : FVec Ideal S2048x192 .f32) : k13_pay1 (F := Ideal) v0 = v0 := by
  unfold k13_pay1
  exact shapeCast_self v0 _

/-- The scaled payload at (a, b): (∑ₗ x(a, l) · W₁(l, b)) · s(a, 0). -/
theorem scaled13_pay_apply (v0 : FVec Ideal S2048x192 .f32) (v3 : FVec Ideal S192x64 .f32) (v11 : FVec Ideal S2048x1 .f32)
    (a : Fin 2048) (b : Fin 64) :
    k13_pay3 (F := Ideal) v0 v3 v11 (ix2 a b) = (∑ l : Fin 192, v0 (ix2 a l) * v3 (ix2 l b)) * v11 (ix2 a (0 : Fin 1)) := by
  unfold k13_pay3
  simp only [xcast13_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot13_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid13_pay_apply (v0 : FVec Ideal S2048x192 .f32) (v6 : FVec Ideal S192x128 .f32) (v15 : FVec Ideal S1x128 .f32)
    (a : Fin 2048) (b : Fin 128) :
    k13_pay2 (F := Ideal) v0 v6 v15 (ix2 a b) = (∑ l : Fin 192, v0 (ix2 a l) * v6 (ix2 l b)) + v15 (ix2 (0 : Fin 1) b) := by
  unfold k13_pay2
  simp only [xcast13_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot13_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin13 (c : Dev nD) : FVec Ideal S8192x192 .f32 := V c (Pipeline.arrRef spec13 0)
/-- The weight's scaled column group W₁. -/
abbrev wsc13 (c : Dev nD) : FVec Ideal S192x64 .f32 := V c (Pipeline.arrRef spec13 1)
/-- The weight's residual column group W₂. -/
abbrev wre13 (c : Dev nD) : FVec Ideal S192x128 .f32 := V c (Pipeline.arrRef spec13 2)
/-- The bias row b. -/
abbrev bia13 (c : Dev nD) : FVec Ideal S1x128 .f32 := V c (Pipeline.arrRef spec13 3)
/-- The column s of inverse row sums. -/
abbrev inv13 (c : Dev nD) : FVec Ideal S8192x1 .f32 := V c (Pipeline.arrRef spec13 4)

/-- Entry (p, q) of the scaled output. -/
def scaledAt13 (c : Dev nD) (p : Fin 8192) (q : Fin 64) : EReal :=
  (∑ l : Fin 192, xin13 V c (ix2 p l) * wsc13 V c (ix2 l q)) * inv13 V c (ix2 p (0 : Fin 1))

/-- Entry (p, q) of the residual output. -/
def residAt13 (c : Dev nD) (p : Fin 8192) (q : Fin 128) : EReal :=
  (∑ l : Fin 192, xin13 V c (ix2 p l) * wre13 V c (ix2 l q)) + bia13 V c (ix2 (0 : Fin 1) q)

/-- What the scaled output ends holding. -/
abbrev G13_5 (c : Dev nD) : FVec Ideal S8192x64 .bf16 := fun i => scaledAt13 V c ⟨(i 0).val, idx2_lt0 i⟩ ⟨(i 1).val, idx2_lt1 i⟩
/-- What the residual output ends holding. -/
abbrev G13_6 (c : Dev nD) : FVec Ideal S8192x128 .f32 := fun i => residAt13 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts13 : ∀ t : Fin cfg13.N,
    win13_0.index t (0 : Fin 2) = win13_5.index t (0 : Fin 2) ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = win13_5.index t (0 : Fin 2) ∧ win13_4.index t (1 : Fin 2) = 0
    ∧ win13_5.index t (1 : Fin 2) = 0
    ∧ win13_6.index t (0 : Fin 2) = win13_5.index t (0 : Fin 2) ∧ win13_6.index t (1 : Fin 2) = 0
    ∧ win13_5.index t (0 : Fin 2) < 4 :=
  (by decide +kernel : ∀ t : Fin grid13.N, _)

/-- Every row block is some point's, for the scaled output … -/
theorem idx_onto13_5 : ∀ q0 : Fin 4, ∃ t : Fin cfg13.N, win13_5.index t = ![q0.val, 0] :=
  (by decide +kernel : ∀ q0 : Fin 4, ∃ t : Fin grid13.N, win13_5.index t = ![q0.val, 0])

/-- … and for the residual output. -/
theorem idx_onto13_6 : ∀ q0 : Fin 4, ∃ t : Fin cfg13.N, win13_6.index t = ![q0.val, 0] :=
  (by decide +kernel : ∀ q0 : Fin 4, ∃ t : Fin grid13.N, win13_6.index t = ![q0.val, 0])

/-! ## Output window 5: the scaled output -/

/-- WHAT POINT t WRITES BACK is block t of the scaled output's function of the arrays. -/
theorem flushed13_5_eq (c : Dev nD) (t : Fin cfg13.N) :
    (dat13 (F := Ideal) V c).flushed 5 t = ((cfg13.win 5).blk t).view.read (Elt Ideal) (G13_5 V c) := by
  show (cfg13.win 5).cut (grid13.coords t) ((dat13 (F := Ideal) V c).after 5 t) = _
  rw [after13_5]
  unfold out13_5
  rw [View.canon_unit_zero hz13]
  simp only [View.ld_unit_zero (S := S2048x192) hz13, View.ld_unit_zero (S := S192x64) hz13, View.ld_unit_zero (S := S2048x1) hz13]
  obtain ⟨e00, e01, e10, e11, e20, e21, e30, e31, e40, e41, e51, e60, e61, e5⟩ := idx_facts13 t
  funext j
  obtain ⟨a, b, rfl⟩ : ∃ (a : Fin 2048) (b : Fin 64), j = ix2 a b := ⟨j 0, j 1, eq_ix2 j⟩
  refine (scaled13_pay_apply (iblk13 V c 0 t) (iblk13 V c 1 t) (iblk13 V c 4 t) a b).trans ?_
  show (∑ l : Fin 192, xin13 V c (((cfg13.win 0).blk t).view.emb (ix2 a l)) * wsc13 V c (((cfg13.win 1).blk t).view.emb (ix2 l b)))
      * inv13 V c (((cfg13.win 4).blk t).view.emb (ix2 a (0 : Fin 1)))
    = scaledAt13 V c ⟨((((cfg13.win 5).blk t).view.emb (ix2 a b)) 0).val, _⟩ ⟨((((cfg13.win 5).blk t).view.emb (ix2 a b)) 1).val, _⟩
  unfold scaledAt13
  refine congr (congrArg _ (Finset.sum_congr rfl fun l _ => congr (congrArg _ (congrArg _ ?_)) (congrArg _ ?_))) (congrArg _ ?_)
  · funext d; apply Fin.ext
    match d with
    | ⟨0, _⟩ => show win13_0.index t (0 : Fin 2) * 2048 + 1 * a.val = win13_5.index t (0 : Fin 2) * 2048 + 1 * a.val; omega
    | ⟨1, _⟩ => show win13_0.index t (1 : Fin 2) * 192 + 1 * l.val = l.val; omega
  · funext d; apply Fin.ext
    match d with
    | ⟨0, _⟩ => show win13_1.index t (0 : Fin 2) * 192 + 1 * l.val = l.val; omega
    | ⟨1, _⟩ => show win13_1.index t (1 : Fin 2) * 64 + 1 * b.val = win13_5.index t (1 : Fin 2) * 64 + 1 * b.val; omega
  · funext d; apply Fin.ext
    match d with
    | ⟨0, _⟩ => show win13_4.index t (0 : Fin 2) * 2048 + 1 * a.val = win13_5.index t (0 : Fin 2) * 2048 + 1 * a.val; omega
    | ⟨1, _⟩ => show win13_4.index t (1 : Fin 2) * 1 + 1 * 0 = 0; omega

/-- An index of the scaled output is in point t's block iff each coordinate is in the block's range on its axis. -/
theorem mem_blk13_5 (t : Fin cfg13.N) (i : S8192x64.Idx) :
    i ∈ ((cfg13.win 5).blk t).view.set ↔ ∀ a : Fin 2, win13_5.index t a * S2048x64.size a ≤ (i a).val ∧ (i a).val < win13_5.index t a * S2048x64.size a + S2048x64.size a := by
  show i ∈ ((View.whole (Pipeline.arrRef spec13 5)).slice (win13_5.rect t)).set ↔ _
  rw [View.set_slice_whole, Rect.mem_set_unit]
  exact Iff.rfl

/-- Every index is in the block of the point of its row block, row / 2048. -/
theorem covered13_5 (i : S8192x64.Idx) :
    ∃ t : Fin cfg13.N, (cfg13.win 5).flush t = true ∧ i ∈ ((cfg13.win 5).blk t).view.set := by
  have hi0 : (i 0).val < 8192 := (i 0).isLt
  have hi1 : (i 1).val < 64 := (i 1).isLt
  obtain ⟨t, ht⟩ := idx_onto13_5 ⟨(i 0).val / 2048, by omega⟩
  have q0 : win13_5.index t (0 : Fin 2) = (i 0).val / 2048 := congrFun ht 0
  have q1 : win13_5.index t (1 : Fin 2) = 0 := congrFun ht 1
  refine ⟨t, flush13_5 t, ?_⟩
  rw [mem_blk13_5]
  intro a
  match a with
  | ⟨0, _⟩ => show win13_5.index t (0 : Fin 2) * 2048 ≤ (i 0).val ∧ (i 0).val < win13_5.index t (0 : Fin 2) * 2048 + 2048; omega
  | ⟨1, _⟩ => show win13_5.index t (1 : Fin 2) * 64 ≤ (i 1).val ∧ (i 1).val < win13_5.index t (1 : Fin 2) * 64 + 64; omega

/-- THE SCALED OUTPUT after the region. -/
theorem arr13_5 (c : Dev nD) : (dat13 (F := Ideal) V c).arrAt 5 cfg13.N = G13_5 V c :=
  (dat13 (F := Ideal) V c).arrAt_eq_of_cover 5 (G13_5 V c) (fun t _ => flushed13_5_eq V c t) covered13_5

theorem r13_scaled (c : Dev nD) (p : Fin 8192) (q : Fin 64) :
    (dat13 (F := Ideal) V c).arrAt 5 cfg13.N (ix2 p q)
      = (∑ l : Fin 192, xin13 V c (ix2 p l) * wsc13 V c (ix2 l q)) * inv13 V c (ix2 p (0 : Fin 1)) :=
  congrFun (arr13_5 V c) (ix2 p q)

/-! ## Output window 6: the residual output -/

/-- WHAT POINT t WRITES BACK is block t of the residual output's function of the arrays. -/
theorem flushed13_6_eq (c : Dev nD) (t : Fin cfg13.N) :
    (dat13 (F := Ideal) V c).flushed 6 t = ((cfg13.win 6).blk t).view.read (Elt Ideal) (G13_6 V c) := by
  show (cfg13.win 6).cut (grid13.coords t) ((dat13 (F := Ideal) V c).after 6 t) = _
  rw [after13_6]
  unfold out13_6
  rw [View.canon_unit_zero hz13]
  simp only [View.ld_unit_zero (S := S2048x192) hz13, View.ld_unit_zero (S := S192x128) hz13, View.ld_unit_zero (S := S1x128) hz13]
  obtain ⟨e00, e01, e10, e11, e20, e21, e30, e31, e40, e41, e51, e60, e61, e5⟩ := idx_facts13 t
  funext j
  obtain ⟨a, b, rfl⟩ : ∃ (a : Fin 2048) (b : Fin 128), j = ix2 a b := ⟨j 0, j 1, eq_ix2 j⟩
  refine (resid13_pay_apply (iblk13 V c 0 t) (iblk13 V c 2 t) (iblk13 V c 3 t) a b).trans ?_
  show (∑ l : Fin 192, xin13 V c (((cfg13.win 0).blk t).view.emb (ix2 a l)) * wre13 V c (((cfg13.win 2).blk t).view.emb (ix2 l b)))
      + bia13 V c (((cfg13.win 3).blk t).view.emb (ix2 (0 : Fin 1) b))
    = residAt13 V c ⟨((((cfg13.win 6).blk t).view.emb (ix2 a b)) 0).val, _⟩ ⟨((((cfg13.win 6).blk t).view.emb (ix2 a b)) 1).val, _⟩
  unfold residAt13
  refine congr (congrArg _ (Finset.sum_congr rfl fun l _ => congr (congrArg _ (congrArg _ ?_)) (congrArg _ ?_))) (congrArg _ ?_)
  · funext d; apply Fin.ext
    match d with
    | ⟨0, _⟩ => show win13_0.index t (0 : Fin 2) * 2048 + 1 * a.val = win13_6.index t (0 : Fin 2) * 2048 + 1 * a.val; omega
    | ⟨1, _⟩ => show win13_0.index t (1 : Fin 2) * 192 + 1 * l.val = l.val; omega
  · funext d; apply Fin.ext
    match d with
    | ⟨0, _⟩ => show win13_2.index t (0 : Fin 2) * 192 + 1 * l.val = l.val; omega
    | ⟨1, _⟩ => show win13_2.index t (1 : Fin 2) * 128 + 1 * b.val = win13_6.index t (1 : Fin 2) * 128 + 1 * b.val; omega
  · funext d; apply Fin.ext
    match d with
    | ⟨0, _⟩ => show win13_3.index t (0 : Fin 2) * 1 + 1 * 0 = 0; omega
    | ⟨1, _⟩ => show win13_3.index t (1 : Fin 2) * 128 + 1 * b.val = win13_6.index t (1 : Fin 2) * 128 + 1 * b.val; omega

/-- An index of the residual output is in point t's block iff each coordinate is in the block's range on its axis. -/
theorem mem_blk13_6 (t : Fin cfg13.N) (i : S8192x128.Idx) :
    i ∈ ((cfg13.win 6).blk t).view.set ↔ ∀ a : Fin 2, win13_6.index t a * S2048x128.size a ≤ (i a).val ∧ (i a).val < win13_6.index t a * S2048x128.size a + S2048x128.size a := by
  show i ∈ ((View.whole (Pipeline.arrRef spec13 6)).slice (win13_6.rect t)).set ↔ _
  rw [View.set_slice_whole, Rect.mem_set_unit]
  exact Iff.rfl

/-- Every index is in the block of the point of its row block, row / 2048. -/
theorem covered13_6 (i : S8192x128.Idx) :
    ∃ t : Fin cfg13.N, (cfg13.win 6).flush t = true ∧ i ∈ ((cfg13.win 6).blk t).view.set := by
  have hi0 : (i 0).val < 8192 := (i 0).isLt
  have hi1 : (i 1).val < 128 := (i 1).isLt
  obtain ⟨t, ht⟩ := idx_onto13_6 ⟨(i 0).val / 2048, by omega⟩
  have q0 : win13_6.index t (0 : Fin 2) = (i 0).val / 2048 := congrFun ht 0
  have q1 : win13_6.index t (1 : Fin 2) = 0 := congrFun ht 1
  refine ⟨t, flush13_6 t, ?_⟩
  rw [mem_blk13_6]
  intro a
  match a with
  | ⟨0, _⟩ => show win13_6.index t (0 : Fin 2) * 2048 ≤ (i 0).val ∧ (i 0).val < win13_6.index t (0 : Fin 2) * 2048 + 2048; omega
  | ⟨1, _⟩ => show win13_6.index t (1 : Fin 2) * 128 ≤ (i 1).val ∧ (i 1).val < win13_6.index t (1 : Fin 2) * 128 + 128; omega

/-- THE RESIDUAL OUTPUT after the region. -/
theorem arr13_6 (c : Dev nD) : (dat13 (F := Ideal) V c).arrAt 6 cfg13.N = G13_6 V c :=
  (dat13 (F := Ideal) V c).arrAt_eq_of_cover 6 (G13_6 V c) (fun t _ => flushed13_6_eq V c t) covered13_6

theorem r13_resid (c : Dev nD) (p : Fin 8192) (q : Fin 128) :
    (dat13 (F := Ideal) V c).arrAt 6 cfg13.N (ix2 p q)
      = (∑ l : Fin 192, xin13 V c (ix2 p l) * wre13 V c (ix2 l q)) + bia13 V c (ix2 (0 : Fin 1) q) :=
  congrFun (arr13_6 V c) (ix2 p q)

end Cert.KernelIdeal.KV

end
-- ==== Proof.KV.R14.lean ====
/-
  Region 14, an aggregation layer with rectifier and no residual: what its output array holds after the region,
  entry by entry, as a function of the arrays the region finds.

  The body writes its output block [1024, 192] by two column slices: columns [0, 64) hold
  max(A·S + b, 0) (A the row block of the adjacency, S the scaled features, b the bias row broadcast over the rows) and
  columns [64, 192) hold max(R, 0) (R the row block of the other feature group). The two slices are disjoint and cover the
  block, so each entry of the block is the payload of the slice that holds it. Row block t of the output array is
  written by grid point t (8 points of 1024 rows), and the points' blocks cover the array; so entry (p, q) of the array
  is ∑ₖ A(p, k)·S(k, q) + b(0, q) rectified for q < 64, and R(p, q − 64) rectified for q ≥ 64.
-/
import proofs.«405499_j28269474742810_3_alg».proof.Proof.Fr.KernelIdeal.Reg14
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r14_hz : (![0, 0] : Fin 2 → Nat) = fun _ => 0 := funext fun a => match a with | ⟨0, _⟩ => rfl | ⟨1, _⟩ => rfl

/-- The product's dimension numbers are those of a plain M×K by K×N product. -/
theorem r14_dot_plain : dot_S1024x8192_S8192x64_S1024x64_1_0_0_1_n_n = DotDims.plain 1024 8192 64 := rfl

/-- Columns [0, 64) at entry (a, b): the product's entry plus the bias of column b, rectified. -/
theorem r14_pay1_apply (x0 : Vec Ideal S1024x8192 .bf16) (x1 : Vec Ideal S8192x64 .bf16) (x3 : Vec Ideal S1x64 .f32)
    (a : Fin 1024) (b : Fin 64) :
    k14_pay1 (F := Ideal) x0 x1 x3 (ix2 a b)
      = max ((∑ k : Fin 8192, x0 (ix2 a k) * x1 (ix2 k b)) + x3 (ix2 (0 : Fin 1) b)) (Ideal.ofBits .f32 0x00000000#32) := by
  unfold k14_pay1
  simp only [shapeCast_self]
  show max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32) = _
  rw [r14_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the other feature group's entry, rectified. -/
theorem r14_pay2_apply (x2 : Vec Ideal S1024x128 .f32) (a : Fin 1024) (b : Fin 128) :
    k14_pay2 (F := Ideal) x2 (ix2 a b) = max (x2 (ix2 a b)) (Ideal.ofBits .f32 0x00000000#32) := by
  unfold k14_pay2
  simp only [shapeCast_self]
  rfl

/-! ## What the body leaves in the output block: each entry is the payload of the slice that holds it -/

/-- An entry in columns [0, 64): off the later slice, under the earlier one. -/
theorem r14_out_lo (c : Dev nD) (i : grid14.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 64) (hy0 : (y 0).val = a.val) (hy1 : (y 1).val = b.val) :
    out14_A_4 (F := Ideal) c i a1 h1 a2 h2 a3 h3 a4 h4 a5 h5 x0 x1 x2 x3 y = k14_pay1 (F := Ideal) x0 x1 x3 (ix2 a b) := by
  unfold out14_A_4
  rw [View.read_writes_eq_canon _ _ _ (cover14_A_4 c i a1 h1 a2 h2 a3 h3 a4 h4 a5 h5 x0 x1 x2 x3)]
  unfold kernelRun14_A
  dsimp only
  sl_unfold_words
  simp only [View.readAt_eq_ld, h1.read_unread, h2.read_unread, h3.read_unread, h4.read_unread,
    View.ld_unit_zero (S := S1024x8192) r14_hz, View.ld_unit_zero (S := S8192x64) r14_hz,
    View.ld_unit_zero (S := S1024x128) r14_hz, View.ld_unit_zero (S := S1x64) r14_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r14_out_hi (c : Dev nD) (i : grid14.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 128) (hy0 : (y 0).val = a.val) (hy1 : (y 1).val = 64 + b.val) :
    out14_A_4 (F := Ideal) c i a1 h1 a2 h2 a3 h3 a4 h4 a5 h5 x0 x1 x2 x3 y = k14_pay2 (F := Ideal) x2 (ix2 a b) := by
  unfold out14_A_4
  rw [View.read_writes_eq_canon _ _ _ (cover14_A_4 c i a1 h1 a2 h2 a3 h3 a4 h4 a5 h5 x0 x1 x2 x3)]
  unfold kernelRun14_A
  dsimp only
  sl_unfold_words
  simp only [View.readAt_eq_ld, h1.read_unread, h2.read_unread, h3.read_unread, h4.read_unread,
    View.ld_unit_zero (S := S1024x8192) r14_hz, View.ld_unit_zero (S := S8192x64) r14_hz,
    View.ld_unit_zero (S := S1024x128) r14_hz, View.ld_unit_zero (S := S1x64) r14_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group and the bias row, as the region finds them. -/
abbrev r14_adj (c : Dev nD) : Vec Ideal S8192x8192 .bf16 := V c (Pipeline.arrRef spec14 0)
abbrev r14_scaled (c : Dev nD) : Vec Ideal S8192x64 .bf16 := V c (Pipeline.arrRef spec14 1)
abbrev r14_resid (c : Dev nD) : Vec Ideal S8192x128 .f32 := V c (Pipeline.arrRef spec14 2)
abbrev r14_bias (c : Dev nD) : Vec Ideal S1x64 .f32 := V c (Pipeline.arrRef spec14 3)

/-- The windows' blocks at a point, at their literal types. -/
abbrev r14_b0 (c : Dev nD) (t : Fin cfg14.N) : Vec Ideal S1024x8192 .bf16 := iblk14 (F := Ideal) V c 0 t
abbrev r14_b1 (c : Dev nD) (t : Fin cfg14.N) : Vec Ideal S8192x64 .bf16 := iblk14 (F := Ideal) V c 1 t
abbrev r14_b2 (c : Dev nD) (t : Fin cfg14.N) : Vec Ideal S1024x128 .f32 := iblk14 (F := Ideal) V c 2 t
abbrev r14_b3 (c : Dev nD) (t : Fin cfg14.N) : Vec Ideal S1x64 .f32 := iblk14 (F := Ideal) V c 3 t

/-- Entry (p, q) of the array the region leaves. -/
def r14_val (c : Dev nD) (p : Fin 8192) (q : Fin 192) : EReal :=
  if h : q.val < 64 then
    max ((∑ k : Fin 8192, r14_adj V c (ix2 p k) * r14_scaled V c (ix2 k (⟨q.val, h⟩ : Fin 64)))
      + r14_bias V c (ix2 (0 : Fin 1) (⟨q.val, h⟩ : Fin 64))) (Ideal.ofBits .f32 0x00000000#32)
  else
    max (r14_resid V c (ix2 p (⟨q.val - 64, by have := q.isLt; omega⟩ : Fin 128))) (Ideal.ofBits .f32 0x00000000#32)

/-- The array the region leaves. -/
def r14_G (c : Dev nD) : Vec Ideal S8192x192 .f32 := fun i => r14_val V c (i 0) (i 1)

/-- The printed index maps, decided over the grid: the row-blocked windows are at block row t, column block 0; the whole
    windows at block (0, 0). -/
theorem r14_idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0
    ∧ win14_3.index t (0 : Fin 2) = 0 ∧ win14_3.index t (1 : Fin 2) = 0
    ∧ win14_4.index t (0 : Fin 2) = t.val ∧ win14_4.index t (1 : Fin 2) = 0 :=
  (by decide +kernel : ∀ t : Fin grid14.N, _)

/-- Row block t of the adjacency: entry (a, k) of the block is entry (1024 t + a, k) of the array. -/
theorem r14_b0_apply (c : Dev nD) (t : Fin cfg14.N) (a : Fin 1024) (k : Fin 8192) (p : Fin 8192)
    (hp : p.val = t.val * 1024 + a.val) : r14_b0 V c t (ix2 a k) = r14_adj V c (ix2 p k) := by
  obtain ⟨e00, e01, -⟩ := r14_idx_facts t
  show V c (Pipeline.arrRef spec14 0) (((cfg14.win 0).blk t).view.emb (ix2 a k)) = V c (Pipeline.arrRef spec14 0) (ix2 p k)
  refine congrArg _ (funext fun d => Fin.ext ?_)
  match d with
  | ⟨0, _⟩ => show win14_0.index t (0 : Fin 2) * 1024 + 1 * a.val = p.val; omega
  | ⟨1, _⟩ => show win14_0.index t (1 : Fin 2) * 8192 + 1 * k.val = k.val; omega

/-- The scaled features' one block is the array. -/
theorem r14_b1_apply (c : Dev nD) (t : Fin cfg14.N) (k : Fin 8192) (b : Fin 64) :
    r14_b1 V c t (ix2 k b) = r14_scaled V c (ix2 k b) := by
  obtain ⟨-, -, e10, e11, -⟩ := r14_idx_facts t
  show V c (Pipeline.arrRef spec14 1) (((cfg14.win 1).blk t).view.emb (ix2 k b)) = V c (Pipeline.arrRef spec14 1) (ix2 k b)
  refine congrArg _ (funext fun d => Fin.ext ?_)
  match d with
  | ⟨0, _⟩ => show win14_1.index t (0 : Fin 2) * 8192 + 1 * k.val = k.val; omega
  | ⟨1, _⟩ => show win14_1.index t (1 : Fin 2) * 64 + 1 * b.val = b.val; omega

/-- Row block t of the other feature group. -/
theorem r14_b2_apply (c : Dev nD) (t : Fin cfg14.N) (a : Fin 1024) (b : Fin 128) (p : Fin 8192)
    (hp : p.val = t.val * 1024 + a.val) : r14_b2 V c t (ix2 a b) = r14_resid V c (ix2 p b) := by
  obtain ⟨-, -, -, -, e20, e21, -⟩ := r14_idx_facts t
  show V c (Pipeline.arrRef spec14 2) (((cfg14.win 2).blk t).view.emb (ix2 a b)) = V c (Pipeline.arrRef spec14 2) (ix2 p b)
  refine congrArg _ (funext fun d => Fin.ext ?_)
  match d with
  | ⟨0, _⟩ => show win14_2.index t (0 : Fin 2) * 1024 + 1 * a.val = p.val; omega
  | ⟨1, _⟩ => show win14_2.index t (1 : Fin 2) * 128 + 1 * b.val = b.val; omega

/-- The bias row's one block is the array. -/
theorem r14_b3_apply (c : Dev nD) (t : Fin cfg14.N) (b : Fin 64) :
    r14_b3 V c t (ix2 (0 : Fin 1) b) = r14_bias V c (ix2 (0 : Fin 1) b) := by
  obtain ⟨-, -, -, -, -, -, e30, e31, -⟩ := r14_idx_facts t
  show V c (Pipeline.arrRef spec14 3) (((cfg14.win 3).blk t).view.emb (ix2 (0 : Fin 1) b)) = V c (Pipeline.arrRef spec14 3) (ix2 (0 : Fin 1) b)
  refine congrArg _ (funext fun d => Fin.ext ?_)
  match d with
  | ⟨0, _⟩ => show win14_3.index t (0 : Fin 2) * 1 + 1 * 0 = 0; omega
  | ⟨1, _⟩ => show win14_3.index t (1 : Fin 2) * 64 + 1 * b.val = b.val; omega

/-- WHAT POINT t WRITES BACK is block t of the array the region leaves. -/
theorem r14_flushed_eq (c : Dev nD) (t : Fin cfg14.N) :
    (dat14 (F := Ideal) V c).flushed 4 t = ((cfg14.win 4).blk t).view.read (Elt Ideal) (r14_G V c) := by
  show (cfg14.win 4).cut (grid14.coords t) ((dat14 (F := Ideal) V c).after 4 t) = _
  rw [after14_4]
  obtain ⟨-, -, -, -, -, -, -, -, e40, e41⟩ := r14_idx_facts t
  funext j
  have hj0 : (j 0).val < 1024 := (j 0).isLt
  have hj1 : (j 1).val < 192 := (j 1).isLt
  have ht : t.val < 8 := lt_of_lt_of_eq t.isLt N_14
  have hp : t.val * 1024 + (j 0).val < 8192 := by omega
  have hemb : ((cfg14.win 4).blk t).view.emb j
      = ix2 (⟨t.val * 1024 + (j 0).val, hp⟩ : Fin 8192) (⟨(j 1).val, hj1⟩ : Fin 192) := by
    funext d; apply Fin.ext
    match d with
    | ⟨0, _⟩ => show win14_4.index t (0 : Fin 2) * 1024 + 1 * (j 0).val = t.val * 1024 + (j 0).val; omega
    | ⟨1, _⟩ => show win14_4.index t (1 : Fin 2) * 192 + 1 * (j 1).val = (j 1).val; omega
  show outsAt14 (F := Ideal) V c t ((cfg14.win 4).xinj (grid14.coords t) j) = r14_G V c (((cfg14.win 4).blk t).view.emb j)
  rw [hemb]
  show _ = r14_val V c (⟨t.val * 1024 + (j 0).val, hp⟩ : Fin 8192) (⟨(j 1).val, hj1⟩ : Fin 192)
  unfold outsAt14 r14_val
  by_cases h : (j 1).val < 64
  · rw [dif_pos h]
    refine (r14_out_lo c (grid14.coords t) (ms14_0 t) (hs14_0 t) (ms14_1 t) (hs14_1 t) (ms14_2 t) (hs14_2 t) (ms14_3 t) (hs14_3 t)
      (ms14_4 t) (hs14_4 t) (r14_b0 V c t) (r14_b1 V c t) (r14_b2 V c t) (r14_b3 V c t)
      ((cfg14.win 4).xinj (grid14.coords t) j) (⟨(j 0).val, hj0⟩ : Fin 1024) (⟨(j 1).val, h⟩ : Fin 64) rfl rfl).trans ?_
    refine (r14_pay1_apply (r14_b0 V c t) (r14_b1 V c t) (r14_b3 V c t) (⟨(j 0).val, hj0⟩ : Fin 1024) (⟨(j 1).val, h⟩ : Fin 64)).trans ?_
    refine congrArg₂ max (congrArg₂ (· + ·) (Finset.sum_congr rfl fun k _ =>
      congrArg₂ (· * ·) (r14_b0_apply V c t (⟨(j 0).val, hj0⟩ : Fin 1024) k (⟨t.val * 1024 + (j 0).val, hp⟩ : Fin 8192) rfl)
        (r14_b1_apply V c t k (⟨(j 1).val, h⟩ : Fin 64))) (r14_b3_apply V c t (⟨(j 1).val, h⟩ : Fin 64))) rfl
  · rw [dif_neg h]
    have h128 : (j 1).val - 64 < 128 := by omega
    refine (r14_out_hi c (grid14.coords t) (ms14_0 t) (hs14_0 t) (ms14_1 t) (hs14_1 t) (ms14_2 t) (hs14_2 t) (ms14_3 t) (hs14_3 t)
      (ms14_4 t) (hs14_4 t) (r14_b0 V c t) (r14_b1 V c t) (r14_b2 V c t) (r14_b3 V c t)
      ((cfg14.win 4).xinj (grid14.coords t) j) (⟨(j 0).val, hj0⟩ : Fin 1024) (⟨(j 1).val - 64, h128⟩ : Fin 128) rfl
      (by show (j 1).val = 64 + ((j 1).val - 64); omega)).trans ?_
    refine (r14_pay2_apply (r14_b2 V c t) (⟨(j 0).val, hj0⟩ : Fin 1024) (⟨(j 1).val - 64, h128⟩ : Fin 128)).trans ?_
    exact congrArg₂ max (r14_b2_apply V c t (⟨(j 0).val, hj0⟩ : Fin 1024) (⟨(j 1).val - 64, h128⟩ : Fin 128)
      (⟨t.val * 1024 + (j 0).val, hp⟩ : Fin 8192) rfl) rfl

/-! ## The points' blocks cover the array -/

/-- An index of the array is in point t's block iff each coordinate is in the block's range on its axis. -/
theorem r14_mem_blk (t : Fin cfg14.N) (i : S8192x192.Idx) :
    i ∈ ((cfg14.win 4).blk t).view.set ↔ ∀ a : Fin 2, win14_4.index t a * S1024x192.size a ≤ (i a).val
      ∧ (i a).val < win14_4.index t a * S1024x192.size a + S1024x192.size a := by
  show i ∈ ((View.whole (Pipeline.arrRef spec14 4)).slice (win14_4.rect t)).set ↔ _
  rw [View.set_slice_whole, Rect.mem_set_unit]
  exact Iff.rfl

/-- Row r of the array is in the block of point r / 1024. -/
theorem r14_cover (i : S8192x192.Idx) :
    ∃ t : Fin cfg14.N, (cfg14.win 4).flush t = true ∧ i ∈ ((cfg14.win 4).blk t).view.set := by
  have hi0 : (i 0).val < 8192 := (i 0).isLt
  have hi1 : (i 1).val < 192 := (i 1).isLt
  have hlt : (i 0).val / 1024 < cfg14.N := lt_of_lt_of_eq (by omega : (i 0).val / 1024 < 8) N_14.symm
  obtain ⟨-, -, -, -, -, -, -, -, e40, e41⟩ := r14_idx_facts ⟨(i 0).val / 1024, hlt⟩
  refine ⟨⟨(i 0).val / 1024, hlt⟩, flush14_4 _, ?_⟩
  rw [r14_mem_blk]
  intro a
  match a with
  | ⟨0, _⟩ =>
    show win14_4.index ⟨(i 0).val / 1024, hlt⟩ (0 : Fin 2) * 1024 ≤ (i 0).val
      ∧ (i 0).val < win14_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win14_4.index ⟨(i 0).val / 1024, hlt⟩ (1 : Fin 2) * 192 ≤ (i 1).val
      ∧ (i 1).val < win14_4.index ⟨(i 0).val / 1024, hlt⟩ (1 : Fin 2) * 192 + 192
    rw [e41]; omega

/-! ## The output array after the region -/

/-- The output array ends holding the array of the entries above. -/
theorem r14_final (c : Dev nD) : (dat14 (F := Ideal) V c).arrAt 4 cfg14.N = r14_G V c :=
  (dat14 (F := Ideal) V c).arrAt_eq_of_cover 4 (r14_G V c) (fun t _ => r14_flushed_eq V c t) r14_cover

/-- Columns [0, 64): the aggregated, biased, rectified features. -/
theorem r14_lo (c : Dev nD) (p : Fin 8192) (q : Fin 64) :
    (dat14 (F := Ideal) V c).arrAt 4 cfg14.N (ix2 p (⟨q.val, by have := q.isLt; omega⟩ : Fin 192))
      = max ((∑ k : Fin 8192, r14_adj V c (ix2 p k) * r14_scaled V c (ix2 k q)) + r14_bias V c (ix2 (0 : Fin 1) q))
          (Ideal.ofBits .f32 0x00000000#32) := by
  rw [r14_final]
  show r14_val V c p (⟨q.val, _⟩ : Fin 192) = _
  unfold r14_val
  rw [dif_pos (show (⟨q.val, _⟩ : Fin 192).val < 64 from q.isLt)]

/-- Columns [64, 192): the other feature group, rectified. -/
theorem r14_hi (c : Dev nD) (p : Fin 8192) (q : Fin 128) :
    (dat14 (F := Ideal) V c).arrAt 4 cfg14.N (ix2 p (⟨64 + q.val, by have := q.isLt; omega⟩ : Fin 192))
      = max (r14_resid V c (ix2 p q)) (Ideal.ofBits .f32 0x00000000#32) := by
  rw [r14_final]
  show r14_val V c p (⟨64 + q.val, _⟩ : Fin 192) = _
  unfold r14_val
  rw [dif_neg (show ¬ (⟨64 + q.val, _⟩ : Fin 192).val < 64 from by show ¬ 64 + q.val < 64; omega)]
  refine congrArg₂ max (congrArg _ (congrArg (ix2 p) (Fin.ext ?_))) rfl
  show 64 + q.val - 64 = q.val
  omega

end Cert.KernelIdeal.KV

end
-- ==== Proof.KV.L7.lean ====
/-
  Layer 7 of the first program (a plain middle layer, weight page 5): what its two
  pallas_calls leave in the output array, entry by entry, is the layer's specification applied to the entries of its input array.
-/
import proofs.«405499_j28269474742810_3_alg».proof.Proof.KV.R13
import proofs.«405499_j28269474742810_3_alg».proof.Proof.KV.R14
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L7_w (c : Dev nD) : V20 m ρ c main_arg5 = m ((c : Thread nD τ).loc main_arg5) := tr_main_arg5_0_20 m ρ c
theorem L7_b (c : Dev nD) : V20 m ρ c main_arg6 = m ((c : Thread nD τ).loc main_arg6) := tr_main_arg6_0_20 m ρ c

/-- The scaled column group of the layer's weights, at an entry. -/
theorem L7_ws (c : Dev nD) (l : Fin 192) (q : Fin 64) : V21 m ρ c main_v74 (ix2 l q) = (P m c).Wm 5 l ⟨q.val, by omega⟩ := by
  have e : V21 m ρ c main_v74 = extractStridedSlice S192x64 ![0, 0] (shapeCast S192x192 (extractStridedSlice S1x192x192 ![5, 0, 0] (V20 m ρ c main_arg5) slices_S12x192x192_S1x192x192_5_0_0) shapeCasts_S1x192x192_S192x192) slices_S192x192_S192x64_0_0 := by
    show StableHlo.after hostOps13 (W20 m ρ c) (Proc.devRef .tc main_v74) = _
    after_results <;> rfl
  rw [e, Cert.Slices.cols_apply _ 0 _ l q (by omega), Cert.Slices.page_apply _ 5 (by omega), L7_w]
  show _ = m ((c : Thread nD τ).loc main_arg5) (ix3 (5 : Fin 12) l ⟨q.val, by omega⟩)
  congr 2
  exact Fin.ext (Nat.zero_add _)

/-- The pass-through column group of the layer's weights, at an entry. -/
theorem L7_wr (c : Dev nD) (l : Fin 192) (q : Fin 128) : V21 m ρ c main_v75 (ix2 l q) = (P m c).Wm 5 l ⟨64 + q.val, by omega⟩ := by
  have e : V21 m ρ c main_v75 = extractStridedSlice S192x128 ![0, 64] (shapeCast S192x192 (extractStridedSlice S1x192x192 ![5, 0, 0] (V20 m ρ c main_arg5) slices_S12x192x192_S1x192x192_5_0_0) shapeCasts_S1x192x192_S192x192) slices_S192x192_S192x128_0_64 := by
    show StableHlo.after hostOps13 (W20 m ρ c) (Proc.devRef .tc main_v75) = _
    after_results <;> rfl
  rw [e, Cert.Slices.cols_apply _ 64 _ l q (by omega), Cert.Slices.page_apply _ 5 (by omega), L7_w]
  rfl

/-- The bias of the scaled columns, one row, at an entry. -/
theorem L7_bs (c : Dev nD) (q : Fin 64) : V21 m ρ c main_v77 (ix2 (0 : Fin 1) q) = (P m c).bm 5 ⟨q.val, by omega⟩ := by
  have e : V21 m ρ c main_v77 = shapeCast S1x64 (extractStridedSlice S64 ![0] (shapeCast S192 (extractStridedSlice S1x192 ![5, 0] (V20 m ρ c main_arg6) slices_S12x192_S1x192_5_0) shapeCasts_S1x192_S192) slices_S192_S64_0) shapeCasts_S64_S1x64 := by
    show StableHlo.after hostOps13 (W20 m ρ c) (Proc.devRef .tc main_v77) = _
    after_results <;> rfl
  rw [e, Cert.Slices.seg_row_apply _ 0 _ _ (0 : Fin 1) q (by omega), Cert.Slices.row_apply _ 5 (by omega), L7_b]
  show _ = m ((c : Thread nD τ).loc main_arg6) (ix2 (5 : Fin 12) ⟨q.val, by omega⟩)
  congr 2
  exact Fin.ext (Nat.zero_add _)

/-- The bias of the pass-through columns, one row, at an entry. -/
theorem L7_br (c : Dev nD) (q : Fin 128) : V21 m ρ c main_v79 (ix2 (0 : Fin 1) q) = (P m c).bm 5 ⟨64 + q.val, by omega⟩ := by
  have e : V21 m ρ c main_v79 = shapeCast S1x128 (extractStridedSlice S128 ![64] (shapeCast S192 (extractStridedSlice S1x192 ![5, 0] (V20 m ρ c main_arg6) slices_S12x192_S1x192_5_0) shapeCasts_S1x192_S192) slices_S192_S128_64) shapeCasts_S128_S1x128 := by
    show StableHlo.after hostOps13 (W20 m ρ c) (Proc.devRef .tc main_v79) = _
    after_results <;> rfl
  rw [e, Cert.Slices.seg_row_apply _ 64 _ _ (0 : Fin 1) q (by omega), Cert.Slices.row_apply _ 5 (by omega), L7_b]
  rfl

/-- THE LAYER: the output array after its second pallas_call, at (p, j), is the layer's specification of the input array's entries. -/
theorem L7_out (c : Dev nD) (x : Cert.Spec.Mx 8192 192) (hx : ∀ k l, V20 m ρ c main_v69 (ix2 k l) = x k l)
    (p : Fin 8192) (j : Fin 192) : V23 m ρ c main_v81 (ix2 p j) = Cert.Spec.plainK (P m c) 5 x p j := by
  unfold Cert.Spec.plainK Cert.Spec.relu
  refine Cert.Spec.layer_assemble (S := 64) (R := 128) (O := 192) rfl (P m c).A x ((P m c).Wm 5) ((P m c).bm 5)
    (fun k => V21 m ρ c main_v1_1 (ix2 k (0 : Fin 1))) (fun k => ?hinv)
    (fun k q => V22 m ρ c main_v80_0 (ix2 k q)) (fun k q => ?hsc)
    (fun p q => V22 m ρ c main_v80_1 (ix2 p q)) (fun p q => ?hrs)
    (fun _ _ y => max y Cert.Spec.zero) (fun p j => V23 m ρ c main_v81 (ix2 p j)) (fun p q => ?hlo) (fun p q => ?hhi) p j
  case hinv =>
    exact (congrFun (tr_main_v1_1_2_21 m ρ c) (ix2 k (0 : Fin 1))).trans (inv_W2 m ρ c k)
  case hsc =>
    refine (congrFun (W22_arr m ρ c 5) (ix2 k q)).trans ((r13_scaled (V21 m ρ) c k q).trans ?_)
    refine congrArg (· * _) (Finset.sum_congr rfl fun l _ => ?_)
    exact congrArg₂ (· * ·) ((congrFun (tr_main_v69_20_21 m ρ c) (ix2 k l)).trans (hx k l)) (L7_ws m ρ c l q)
  case hrs =>
    refine (congrFun (W22_arr m ρ c 6) (ix2 p q)).trans ((r13_resid (V21 m ρ) c p q).trans ?_)
    refine congrArg₂ (· + ·) (Finset.sum_congr rfl fun l _ => ?_) (L7_br m ρ c q)
    exact congrArg₂ (· * ·) ((congrFun (tr_main_v69_20_21 m ρ c) (ix2 p l)).trans (hx p l)) (L7_wr m ρ c l q)
  case hlo =>
    refine (congrFun (W23_arr m ρ c 4) (ix2 p _)).trans ((r14_lo (V22 m ρ) c p q).trans ?_)
    refine congrArg (fun y : EReal => max y _) ?_
    refine congrArg₂ (· + ·) (Finset.sum_congr rfl fun k _ => ?_)
      ((congrFun (tr_main_v77_21_22 m ρ c) (ix2 (0 : Fin 1) q)).trans (L7_bs m ρ c q))
    exact congrArg (· * _) ((congrFun (tr_main_v1_0_2_22 m ρ c) (ix2 p k)).trans (adjb_W2 m ρ c p k))
  case hhi =>
    exact (congrFun (W23_arr m ρ c 4) (ix2 p _)).trans (r14_hi (V22 m ρ) c p q)

end Cert.KernelIdeal.KV

end
-- ==== Proof.KV.R15.lean ====
/-
  Region 15 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg15
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz15 : (![0, 0] : Fin 2 → Nat) = fun _ => 0 := funext fun a => by fin_cases a <;> rfl

/-! ## The payloads at an index -/

/-- The generated dimension record of the [2048,192]·[192,64] product is the plain one. -/
theorem dot15_scaled_eq : dot_S2048x192_S192x64_S2048x64_1_0_0_1_n_n = DotDims.plain 2048 192 64 := rfl
/-- The generated dimension record of the [2048,192]·[192,128] product is the plain one. -/
theorem dot15_resid_eq : dot_S2048x192_S192x128_S2048x128_1_0_0_1_n_n = DotDims.plain 2048 192 128 := rfl

/-- The narrowed copy of the x block is the x block (a format change is the identity on extended reals). -/
theorem xcast15_eq (v0 : FVec Ideal S2048x192 .f32) : k15_pay1 (F := Ideal) v0 = v0 := by
  unfold k15_pay1
  exact shapeCast_self v0 _

/-- The scaled payload at (a, b): (∑ₗ x(a, l) · W₁(l, b)) · s(a, 0). -/
theorem scaled15_pay_apply (v0 : FVec Ideal S2048x192 .f32) (v3 : FVec Ideal S192x64 .f32) (v11 : FVec Ideal S2048x1 .f32)
    (a : Fin 2048) (b : Fin 64) :
    k15_pay3 (F := Ideal) v0 v3 v11 (ix2 a b) = (∑ l : Fin 192, v0 (ix2 a l) * v3 (ix2 l b)) * v11 (ix2 a (0 : Fin 1)) := by
  unfold k15_pay3
  simp only [xcast15_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot15_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid15_pay_apply (v0 : FVec Ideal S2048x192 .f32) (v6 : FVec Ideal S192x128 .f32) (v15 : FVec Ideal S1x128 .f32)
    (a : Fin 2048) (b : Fin 128) :
    k15_pay2 (F := Ideal) v0 v6 v15 (ix2 a b) = (∑ l : Fin 192, v0 (ix2 a l) * v6 (ix2 l b)) + v15 (ix2 (0 : Fin 1) b) := by
  unfold k15_pay2
  simp only [xcast15_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot15_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin15 (c : Dev nD) : FVec Ideal S8192x192 .f32 := V c (Pipeline.arrRef spec15 0)
/-- The weight's scaled column group W₁. -/
abbrev wsc15 (c : Dev nD) : FVec Ideal S192x64 .f32 := V c (Pipeline.arrRef spec15 1)
/-- The weight's residual column group W₂. -/
abbrev wre15 (c : Dev nD) : FVec Ideal S192x128 .f32 := V c (Pipeline.arrRef spec15 2)
/-- The bias row b. -/
abbrev bia15 (c : Dev nD) : FVec Ideal S1x128 .f32 := V c (Pipeline.arrRef spec15 3)
/-- The column s of inverse row sums. -/
abbrev inv15 (c : Dev nD) : FVec Ideal S8192x1 .f32 := V c (Pipeline.arrRef spec15 4)

/-- Entry (p, q) of the scaled output. -/
def scaledAt15 (c : Dev nD) (p : Fin 8192) (q : Fin 64) : EReal :=
  (∑ l : Fin 192, xin15 V c (ix2 p l) * wsc15 V c (ix2 l q)) * inv15 V c (ix2 p (0 : Fin 1))

/-- Entry (p, q) of the residual output. -/
def residAt15 (c : Dev nD) (p : Fin 8192) (q : Fin 128) : EReal :=
  (∑ l : Fin 192, xin15 V c (ix2 p l) * wre15 V c (ix2 l q)) + bia15 V c (ix2 (0 : Fin 1) q)

/-- What the scaled output ends holding. -/
abbrev G15_5 (c : Dev nD) : FVec Ideal S8192x64 .bf16 := fun i => scaledAt15 V c ⟨(i 0).val, idx2_lt0 i⟩ ⟨(i 1).val, idx2_lt1 i⟩
/-- What the residual output ends holding. -/
abbrev G15_6 (c : Dev nD) : FVec Ideal S8192x128 .f32 := fun i => residAt15 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts15 : ∀ t : Fin cfg15.N,
    win15_0.index t (0 : Fin 2) = win15_5.index t (0 : Fin 2) ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = win15_5.index t (0 : Fin 2) ∧ win15_4.index t (1 : Fin 2) = 0
    ∧ win15_5.index t (1 : Fin 2) = 0
    ∧ win15_6.index t (0 : Fin 2) = win15_5.index t (0 : Fin 2) ∧ win15_6.index t (1 : Fin 2) = 0
    ∧ win15_5.index t (0 : Fin 2) < 4 :=
  (by decide +kernel : ∀ t : Fin grid15.N, _)

/-- Every row block is some point's, for the scaled output … -/
theorem idx_onto15_5 : ∀ q0 : Fin 4, ∃ t : Fin cfg15.N, win15_5.index t = ![q0.val, 0] :=
  (by decide +kernel : ∀ q0 : Fin 4, ∃ t : Fin grid15.N, win15_5.index t = ![q0.val, 0])

/-- … and for the residual output. -/
theorem idx_onto15_6 : ∀ q0 : Fin 4, ∃ t : Fin cfg15.N, win15_6.index t = ![q0.val, 0] :=
  (by decide +kernel : ∀ q0 : Fin 4, ∃ t : Fin grid15.N, win15_6.index t = ![q0.val, 0])

/-! ## Output window 5: the scaled output -/

/-- WHAT POINT t WRITES BACK is block t of the scaled output's function of the arrays. -/
theorem flushed15_5_eq (c : Dev nD) (t : Fin cfg15.N) :
    (dat15 (F := Ideal) V c).flushed 5 t = ((cfg15.win 5).blk t).view.read (Elt Ideal) (G15_5 V c) := by
  show (cfg15.win 5).cut (grid15.coords t) ((dat15 (F := Ideal) V c).after 5 t) = _
  rw [after15_5]
  unfold out15_5
  rw [View.canon_unit_zero hz15]
  simp only [View.ld_unit_zero (S := S2048x192) hz15, View.ld_unit_zero (S := S192x64) hz15, View.ld_unit_zero (S := S2048x1) hz15]
  obtain ⟨e00, e01, e10, e11, e20, e21, e30, e31, e40, e41, e51, e60, e61, e5⟩ := idx_facts15 t
  funext j
  obtain ⟨a, b, rfl⟩ : ∃ (a : Fin 2048) (b : Fin 64), j = ix2 a b := ⟨j 0, j 1, eq_ix2 j⟩
  refine (scaled15_pay_apply (iblk15 V c 0 t) (iblk15 V c 1 t) (iblk15 V c 4 t) a b).trans ?_
  show (∑ l : Fin 192, xin15 V c (((cfg15.win 0).blk t).view.emb (ix2 a l)) * wsc15 V c (((cfg15.win 1).blk t).view.emb (ix2 l b)))
      * inv15 V c (((cfg15.win 4).blk t).view.emb (ix2 a (0 : Fin 1)))
    = scaledAt15 V c ⟨((((cfg15.win 5).blk t).view.emb (ix2 a b)) 0).val, _⟩ ⟨((((cfg15.win 5).blk t).view.emb (ix2 a b)) 1).val, _⟩
  unfold scaledAt15
  refine congr (congrArg _ (Finset.sum_congr rfl fun l _ => congr (congrArg _ (congrArg _ ?_)) (congrArg _ ?_))) (congrArg _ ?_)
  · funext d; apply Fin.ext
    match d with
    | ⟨0, _⟩ => show win15_0.index t (0 : Fin 2) * 2048 + 1 * a.val = win15_5.index t (0 : Fin 2) * 2048 + 1 * a.val; omega
    | ⟨1, _⟩ => show win15_0.index t (1 : Fin 2) * 192 + 1 * l.val = l.val; omega
  · funext d; apply Fin.ext
    match d with
    | ⟨0, _⟩ => show win15_1.index t (0 : Fin 2) * 192 + 1 * l.val = l.val; omega
    | ⟨1, _⟩ => show win15_1.index t (1 : Fin 2) * 64 + 1 * b.val = win15_5.index t (1 : Fin 2) * 64 + 1 * b.val; omega
  · funext d; apply Fin.ext
    match d with
    | ⟨0, _⟩ => show win15_4.index t (0 : Fin 2) * 2048 + 1 * a.val = win15_5.index t (0 : Fin 2) * 2048 + 1 * a.val; omega
    | ⟨1, _⟩ => show win15_4.index t (1 : Fin 2) * 1 + 1 * 0 = 0; omega

/-- An index of the scaled output is in point t's block iff each coordinate is in the block's range on its axis. -/
theorem mem_blk15_5 (t : Fin cfg15.N) (i : S8192x64.Idx) :
    i ∈ ((cfg15.win 5).blk t).view.set ↔ ∀ a : Fin 2, win15_5.index t a * S2048x64.size a ≤ (i a).val ∧ (i a).val < win15_5.index t a * S2048x64.size a + S2048x64.size a := by
  show i ∈ ((View.whole (Pipeline.arrRef spec15 5)).slice (win15_5.rect t)).set ↔ _
  rw [View.set_slice_whole, Rect.mem_set_unit]
  exact Iff.rfl

/-- Every index is in the block of the point of its row block, row / 2048. -/
theorem covered15_5 (i : S8192x64.Idx) :
    ∃ t : Fin cfg15.N, (cfg15.win 5).flush t = true ∧ i ∈ ((cfg15.win 5).blk t).view.set := by
  have hi0 : (i 0).val < 8192 := (i 0).isLt
  have hi1 : (i 1).val < 64 := (i 1).isLt
  obtain ⟨t, ht⟩ := idx_onto15_5 ⟨(i 0).val / 2048, by omega⟩
  have q0 : win15_5.index t (0 : Fin 2) = (i 0).val / 2048 := congrFun ht 0
  have q1 : win15_5.index t (1 : Fin 2) = 0 := congrFun ht 1
  refine ⟨t, flush15_5 t, ?_⟩
  rw [mem_blk15_5]
  intro a
  match a with
  | ⟨0, _⟩ => show win15_5.index t (0 : Fin 2) * 2048 ≤ (i 0).val ∧ (i 0).val < win15_5.index t (0 : Fin 2) * 2048 + 2048; omega
  | ⟨1, _⟩ => show win15_5.index t (1 : Fin 2) * 64 ≤ (i 1).val ∧ (i 1).val < win15_5.index t (1 : Fin 2) * 64 + 64; omega

/-- THE SCALED OUTPUT after the region. -/
theorem arr15_5 (c : Dev nD) : (dat15 (F := Ideal) V c).arrAt 5 cfg15.N = G15_5 V c :=
  (dat15 (F := Ideal) V c).arrAt_eq_of_cover 5 (G15_5 V c) (fun t _ => flushed15_5_eq V c t) covered15_5

theorem r15_scaled (c : Dev nD) (p : Fin 8192) (q : Fin 64) :
    (dat15 (F := Ideal) V c).arrAt 5 cfg15.N (ix2 p q)
      = (∑ l : Fin 192, xin15 V c (ix2 p l) * wsc15 V c (ix2 l q)) * inv15 V c (ix2 p (0 : Fin 1)) :=
  congrFun (arr15_5 V c) (ix2 p q)

/-! ## Output window 6: the residual output -/

/-- WHAT POINT t WRITES BACK is block t of the residual output's function of the arrays. -/
theorem flushed15_6_eq (c : Dev nD) (t : Fin cfg15.N) :
    (dat15 (F := Ideal) V c).flushed 6 t = ((cfg15.win 6).blk t).view.read (Elt Ideal) (G15_6 V c) := by
  show (cfg15.win 6).cut (grid15.coords t) ((dat15 (F := Ideal) V c).after 6 t) = _
  rw [after15_6]
  unfold out15_6
  rw [View.canon_unit_zero hz15]
  simp only [View.ld_unit_zero (S := S2048x192) hz15, View.ld_unit_zero (S := S192x128) hz15, View.ld_unit_zero (S := S1x128) hz15]
  obtain ⟨e00, e01, e10, e11, e20, e21, e30, e31, e40, e41, e51, e60, e61, e5⟩ := idx_facts15 t
  funext j
  obtain ⟨a, b, rfl⟩ : ∃ (a : Fin 2048) (b : Fin 128), j = ix2 a b := ⟨j 0, j 1, eq_ix2 j⟩
  refine (resid15_pay_apply (iblk15 V c 0 t) (iblk15 V c 2 t) (iblk15 V c 3 t) a b).trans ?_
  show (∑ l : Fin 192, xin15 V c (((cfg15.win 0).blk t).view.emb (ix2 a l)) * wre15 V c (((cfg15.win 2).blk t).view.emb (ix2 l b)))
      + bia15 V c (((cfg15.win 3).blk t).view.emb (ix2 (0 : Fin 1) b))
    = residAt15 V c ⟨((((cfg15.win 6).blk t).view.emb (ix2 a b)) 0).val, _⟩ ⟨((((cfg15.win 6).blk t).view.emb (ix2 a b)) 1).val, _⟩
  unfold residAt15
  refine congr (congrArg _ (Finset.sum_congr rfl fun l _ => congr (congrArg _ (congrArg _ ?_)) (congrArg _ ?_))) (congrArg _ ?_)
  · funext d; apply Fin.ext
    match d with
    | ⟨0, _⟩ => show win15_0.index t (0 : Fin 2) * 2048 + 1 * a.val = win15_6.index t (0 : Fin 2) * 2048 + 1 * a.val; omega
    | ⟨1, _⟩ => show win15_0.index t (1 : Fin 2) * 192 + 1 * l.val = l.val; omega
  · funext d; apply Fin.ext
    match d with
    | ⟨0, _⟩ => show win15_2.index t (0 : Fin 2) * 192 + 1 * l.val = l.val; omega
    | ⟨1, _⟩ => show win15_2.index t (1 : Fin 2) * 128 + 1 * b.val = win15_6.index t (1 : Fin 2) * 128 + 1 * b.val; omega
  · funext d; apply Fin.ext
    match d with
    | ⟨0, _⟩ => show win15_3.index t (0 : Fin 2) * 1 + 1 * 0 = 0; omega
    | ⟨1, _⟩ => show win15_3.index t (1 : Fin 2) * 128 + 1 * b.val = win15_6.index t (1 : Fin 2) * 128 + 1 * b.val; omega

/-- An index of the residual output is in point t's block iff each coordinate is in the block's range on its axis. -/
theorem mem_blk15_6 (t : Fin cfg15.N) (i : S8192x128.Idx) :
    i ∈ ((cfg15.win 6).blk t).view.set ↔ ∀ a : Fin 2, win15_6.index t a * S2048x128.size a ≤ (i a).val ∧ (i a).val < win15_6.index t a * S2048x128.size a + S2048x128.size a := by
  show i ∈ ((View.whole (Pipeline.arrRef spec15 6)).slice (win15_6.rect t)).set ↔ _
  rw [View.set_slice_whole, Rect.mem_set_unit]
  exact Iff.rfl

/-- Every index is in the block of the point of its row block, row / 2048. -/
theorem covered15_6 (i : S8192x128.Idx) :
    ∃ t : Fin cfg15.N, (cfg15.win 6).flush t = true ∧ i ∈ ((cfg15.win 6).blk t).view.set := by
  have hi0 : (i 0).val < 8192 := (i 0).isLt
  have hi1 : (i 1).val < 128 := (i 1).isLt
  obtain ⟨t, ht⟩ := idx_onto15_6 ⟨(i 0).val / 2048, by omega⟩
  have q0 : win15_6.index t (0 : Fin 2) = (i 0).val / 2048 := congrFun ht 0
  have q1 : win15_6.index t (1 : Fin 2) = 0 := congrFun ht 1
  refine ⟨t, flush15_6 t, ?_⟩
  rw [mem_blk15_6]
  intro a
  match a with
  | ⟨0, _⟩ => show win15_6.index t (0 : Fin 2) * 2048 ≤ (i 0).val ∧ (i 0).val < win15_6.index t (0 : Fin 2) * 2048 + 2048; omega
  | ⟨1, _⟩ => show win15_6.index t (1 : Fin 2) * 128 ≤ (i 1).val ∧ (i 1).val < win15_6.index t (1 : Fin 2) * 128 + 128; omega

/-- THE RESIDUAL OUTPUT after the region. -/
theorem arr15_6 (c : Dev nD) : (dat15 (F := Ideal) V c).arrAt 6 cfg15.N = G15_6 V c :=
  (dat15 (F := Ideal) V c).arrAt_eq_of_cover 6 (G15_6 V c) (fun t _ => flushed15_6_eq V c t) covered15_6

theorem r15_resid (c : Dev nD) (p : Fin 8192) (q : Fin 128) :
    (dat15 (F := Ideal) V c).arrAt 6 cfg15.N (ix2 p q)
      = (∑ l : Fin 192, xin15 V c (ix2 p l) * wre15 V c (ix2 l q)) + bia15 V c (ix2 (0 : Fin 1) q) :=
  congrFun (arr15_6 V c) (ix2 p q)

end Cert.KernelIdeal.KV

end
-- ==== Proof.KV.R16.lean ====
/-
  Region 16, an aggregation layer with rectifier and the residual average: what its output array holds after the region,
  entry by entry, as a function of the arrays the region finds.

  The body writes its output block [1024, 192] by two column slices: columns [0, 64) hold
  (H + max(A·S + b, 0))·½ and columns [64, 192) hold (H + max(R, 0))·½, where A is the row block of the adjacency, S the
  scaled features, b the bias row broadcast over the rows, R the row block of the other feature group, and H the same
  columns of the row block of the previous layer's features. The two slices are disjoint and cover the block, so each
  entry of the block is the payload of the slice that holds it. Row block t of the output array is written by grid
  point t (8 points of 1024 rows), and the points' blocks cover the array.
-/
import proofs.«405499_j28269474742810_3_alg».proof.Proof.Fr.KernelIdeal.Reg16
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r16_hz : (![0, 0] : Fin 2 → Nat) = fun _ => 0 := funext fun a => match a with | ⟨0, _⟩ => rfl | ⟨1, _⟩ => rfl

/-- The product's dimension numbers are those of a plain M×K by K×N product. -/
theorem r16_dot_plain : dot_S1024x8192_S8192x64_S1024x64_1_0_0_1_n_n = DotDims.plain 1024 8192 64 := rfl

/-- Columns [0, 64) at entry (a, b): the previous features' entry plus the rectified (product's entry plus the bias of
    column b), halved. -/
theorem r16_pay1_apply (x0 : Vec Ideal S1024x8192 .bf16) (x1 : Vec Ideal S8192x64 .bf16) (x3 : Vec Ideal S1x64 .f32)
    (u : Vec Ideal S1024x64 .f32) (a : Fin 1024) (b : Fin 64) :
    k16_pay1 (F := Ideal) x0 x1 x3 u (ix2 a b)
      = (u (ix2 a b) + max ((∑ k : Fin 8192, x0 (ix2 a k) * x1 (ix2 k b)) + x3 (ix2 (0 : Fin 1) b)) (Ideal.ofBits .f32 0x00000000#32))
          * Ideal.ofBits .f32 0x3F000000#32 := by
  unfold k16_pay1
  simp only [shapeCast_self]
  show (u (ix2 a b) + max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32)) * Ideal.ofBits .f32 0x3F000000#32 = _
  rw [r16_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the previous features' entry plus the other feature group's rectified entry, halved. -/
theorem r16_pay2_apply (x2 : Vec Ideal S1024x128 .f32) (u : Vec Ideal S1024x128 .f32) (a : Fin 1024) (b : Fin 128) :
    k16_pay2 (F := Ideal) x2 u (ix2 a b)
      = (u (ix2 a b) + max (x2 (ix2 a b)) (Ideal.ofBits .f32 0x00000000#32)) * Ideal.ofBits .f32 0x3F000000#32 := by
  unfold k16_pay2
  simp only [shapeCast_self]
  rfl

/-! ## What the body leaves in the output block: each entry is the payload of the slice that holds it -/

/-- An entry in columns [0, 64): off the later slice, under the earlier one. -/
theorem r16_out_lo (c : Dev nD) (i : grid16.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 64) (hy0 : (y 0).val = a.val) (hy1 : (y 1).val = b.val) :
    out16_A_5 (F := Ideal) c i a1 h1 a2 h2 a3 h3 a4 h4 a5 h5 a6 h6 x0 x1 x2 x3 x4 y
      = k16_pay1 (F := Ideal) x0 x1 x3
          (View.ld x4 (Rect.unit (s := S1024x192) ![0, 0] S1024x64.size inb_S1024x192_S1024x64_0_0)) (ix2 a b) := by
  unfold out16_A_5
  rw [View.read_writes_eq_canon _ _ _ (cover16_A_5 c i a1 h1 a2 h2 a3 h3 a4 h4 a5 h5 a6 h6 x0 x1 x2 x3 x4)]
  unfold kernelRun16_A
  dsimp only
  sl_unfold_words
  simp only [View.readAt_eq_ld, h1.read_unread, h2.read_unread, h3.read_unread, h4.read_unread, h5.read_unread,
    View.ld_unit_zero (S := S1024x8192) r16_hz, View.ld_unit_zero (S := S8192x64) r16_hz,
    View.ld_unit_zero (S := S1024x128) r16_hz, View.ld_unit_zero (S := S1x64) r16_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r16_out_hi (c : Dev nD) (i : grid16.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 128) (hy0 : (y 0).val = a.val) (hy1 : (y 1).val = 64 + b.val) :
    out16_A_5 (F := Ideal) c i a1 h1 a2 h2 a3 h3 a4 h4 a5 h5 a6 h6 x0 x1 x2 x3 x4 y
      = k16_pay2 (F := Ideal) x2
          (View.ld x4 (Rect.unit (s := S1024x192) ![0, 64] S1024x128.size inb_S1024x192_S1024x128_0_64)) (ix2 a b) := by
  unfold out16_A_5
  rw [View.read_writes_eq_canon _ _ _ (cover16_A_5 c i a1 h1 a2 h2 a3 h3 a4 h4 a5 h5 a6 h6 x0 x1 x2 x3 x4)]
  unfold kernelRun16_A
  dsimp only
  sl_unfold_words
  simp only [View.readAt_eq_ld, h1.read_unread, h2.read_unread, h3.read_unread, h4.read_unread, h5.read_unread,
    View.ld_unit_zero (S := S1024x8192) r16_hz, View.ld_unit_zero (S := S8192x64) r16_hz,
    View.ld_unit_zero (S := S1024x128) r16_hz, View.ld_unit_zero (S := S1x64) r16_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group, the bias row and the previous layer's
    features, as the region finds them. -/
abbrev r16_adj (c : Dev nD) : Vec Ideal S8192x8192 .bf16 := V c (Pipeline.arrRef spec16 0)
abbrev r16_scaled (c : Dev nD) : Vec Ideal S8192x64 .bf16 := V c (Pipeline.arrRef spec16 1)
abbrev r16_resid (c : Dev nD) : Vec Ideal S8192x128 .f32 := V c (Pipeline.arrRef spec16 2)
abbrev r16_bias (c : Dev nD) : Vec Ideal S1x64 .f32 := V c (Pipeline.arrRef spec16 3)
abbrev r16_prev (c : Dev nD) : Vec Ideal S8192x192 .f32 := V c (Pipeline.arrRef spec16 4)

/-- The windows' blocks at a point, at their literal types. -/
abbrev r16_b0 (c : Dev nD) (t : Fin cfg16.N) : Vec Ideal S1024x8192 .bf16 := iblk16 (F := Ideal) V c 0 t
abbrev r16_b1 (c : Dev nD) (t : Fin cfg16.N) : Vec Ideal S8192x64 .bf16 := iblk16 (F := Ideal) V c 1 t
abbrev r16_b2 (c : Dev nD) (t : Fin cfg16.N) : Vec Ideal S1024x128 .f32 := iblk16 (F := Ideal) V c 2 t
abbrev r16_b3 (c : Dev nD) (t : Fin cfg16.N) : Vec Ideal S1x64 .f32 := iblk16 (F := Ideal) V c 3 t
abbrev r16_b4 (c : Dev nD) (t : Fin cfg16.N) : Vec Ideal S1024x192 .f32 := iblk16 (F := Ideal) V c 4 t

/-- Entry (p, q) of the array the region leaves. -/
def r16_val (c : Dev nD) (p : Fin 8192) (q : Fin 192) : EReal :=
  if h : q.val < 64 then
    (r16_prev V c (ix2 p q)
      + max ((∑ k : Fin 8192, r16_adj V c (ix2 p k) * r16_scaled V c (ix2 k (⟨q.val, h⟩ : Fin 64)))
          + r16_bias V c (ix2 (0 : Fin 1) (⟨q.val, h⟩ : Fin 64))) (Ideal.ofBits .f32 0x00000000#32))
      * Ideal.ofBits .f32 0x3F000000#32
  else
    (r16_prev V c (ix2 p q)
      + max (r16_resid V c (ix2 p (⟨q.val - 64, by have := q.isLt; omega⟩ : Fin 128))) (Ideal.ofBits .f32 0x00000000#32))
      * Ideal.ofBits .f32 0x3F000000#32

/-- The array the region leaves. -/
def r16_G (c : Dev nD) : Vec Ideal S8192x192 .f32 := fun i => r16_val V c (i 0) (i 1)

/-- The printed index maps, decided over the grid: the row-blocked windows are at block row t, column block 0; the whole
    windows at block (0, 0). -/
theorem r16_idx_facts : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0
    ∧ win16_3.index t (0 : Fin 2) = 0 ∧ win16_3.index t (1 : Fin 2) = 0
    ∧ win16_4.index t (0 : Fin 2) = t.val ∧ win16_4.index t (1 : Fin 2) = 0
    ∧ win16_5.index t (0 : Fin 2) = t.val ∧ win16_5.index t (1 : Fin 2) = 0 :=
  (by decide +kernel : ∀ t : Fin grid16.N, _)

/-- Row block t of the adjacency: entry (a, k) of the block is entry (1024 t + a, k) of the array. -/
theorem r16_b0_apply (c : Dev nD) (t : Fin cfg16.N) (a : Fin 1024) (k : Fin 8192) (p : Fin 8192)
    (hp : p.val = t.val * 1024 + a.val) : r16_b0 V c t (ix2 a k) = r16_adj V c (ix2 p k) := by
  obtain ⟨e00, e01, -⟩ := r16_idx_facts t
  show V c (Pipeline.arrRef spec16 0) (((cfg16.win 0).blk t).view.emb (ix2 a k)) = V c (Pipeline.arrRef spec16 0) (ix2 p k)
  refine congrArg _ (funext fun d => Fin.ext ?_)
  match d with
  | ⟨0, _⟩ => show win16_0.index t (0 : Fin 2) * 1024 + 1 * a.val = p.val; omega
  | ⟨1, _⟩ => show win16_0.index t (1 : Fin 2) * 8192 + 1 * k.val = k.val; omega

/-- The scaled features' one block is the array. -/
theorem r16_b1_apply (c : Dev nD) (t : Fin cfg16.N) (k : Fin 8192) (b : Fin 64) :
    r16_b1 V c t (ix2 k b) = r16_scaled V c (ix2 k b) := by
  obtain ⟨-, -, e10, e11, -⟩ := r16_idx_facts t
  show V c (Pipeline.arrRef spec16 1) (((cfg16.win 1).blk t).view.emb (ix2 k b)) = V c (Pipeline.arrRef spec16 1) (ix2 k b)
  refine congrArg _ (funext fun d => Fin.ext ?_)
  match d with
  | ⟨0, _⟩ => show win16_1.index t (0 : Fin 2) * 8192 + 1 * k.val = k.val; omega
  | ⟨1, _⟩ => show win16_1.index t (1 : Fin 2) * 64 + 1 * b.val = b.val; omega

/-- Row block t of the other feature group. -/
theorem r16_b2_apply (c : Dev nD) (t : Fin cfg16.N) (a : Fin 1024) (b : Fin 128) (p : Fin 8192)
    (hp : p.val = t.val * 1024 + a.val) : r16_b2 V c t (ix2 a b) = r16_resid V c (ix2 p b) := by
  obtain ⟨-, -, -, -, e20, e21, -⟩ := r16_idx_facts t
  show V c (Pipeline.arrRef spec16 2) (((cfg16.win 2).blk t).view.emb (ix2 a b)) = V c (Pipeline.arrRef spec16 2) (ix2 p b)
  refine congrArg _ (funext fun d => Fin.ext ?_)
  match d with
  | ⟨0, _⟩ => show win16_2.index t (0 : Fin 2) * 1024 + 1 * a.val = p.val; omega
  | ⟨1, _⟩ => show win16_2.index t (1 : Fin 2) * 128 + 1 * b.val = b.val; omega

/-- The bias row's one block is the array. -/
theorem r16_b3_apply (c : Dev nD) (t : Fin cfg16.N) (b : Fin 64) :
    r16_b3 V c t (ix2 (0 : Fin 1) b) = r16_bias V c (ix2 (0 : Fin 1) b) := by
  obtain ⟨-, -, -, -, -, -, e30, e31, -⟩ := r16_idx_facts t
  show V c (Pipeline.arrRef spec16 3) (((cfg16.win 3).blk t).view.emb (ix2 (0 : Fin 1) b)) = V c (Pipeline.arrRef spec16 3) (ix2 (0 : Fin 1) b)
  refine congrArg _ (funext fun d => Fin.ext ?_)
  match d with
  | ⟨0, _⟩ => show win16_3.index t (0 : Fin 2) * 1 + 1 * 0 = 0; omega
  | ⟨1, _⟩ => show win16_3.index t (1 : Fin 2) * 64 + 1 * b.val = b.val; omega

/-- Row block t of the previous layer's features: entry y of the block is entry (1024 t + y₀, y₁) of the array. -/
theorem r16_b4_apply (c : Dev nD) (t : Fin cfg16.N) (y : S1024x192.Idx) (p : Fin 8192) (q : Fin 192)
    (hp : p.val = t.val * 1024 + (y 0).val) (hq : q.val = (y 1).val) : r16_b4 V c t y = r16_prev V c (ix2 p q) := by
  obtain ⟨-, -, -, -, -, -, -, -, e40, e41, -⟩ := r16_idx_facts t
  show V c (Pipeline.arrRef spec16 4) (((cfg16.win 4).blk t).view.emb y) = V c (Pipeline.arrRef spec16 4) (ix2 p q)
  refine congrArg _ (funext fun d => Fin.ext ?_)
  match d with
  | ⟨0, _⟩ => show win16_4.index t (0 : Fin 2) * 1024 + 1 * (y 0).val = p.val; omega
  | ⟨1, _⟩ => show win16_4.index t (1 : Fin 2) * 192 + 1 * (y 1).val = q.val; omega

/-- WHAT POINT t WRITES BACK is block t of the array the region leaves. -/
theorem r16_flushed_eq (c : Dev nD) (t : Fin cfg16.N) :
    (dat16 (F := Ideal) V c).flushed 5 t = ((cfg16.win 5).blk t).view.read (Elt Ideal) (r16_G V c) := by
  show (cfg16.win 5).cut (grid16.coords t) ((dat16 (F := Ideal) V c).after 5 t) = _
  rw [after16_5]
  obtain ⟨-, -, -, -, -, -, -, -, -, -, e50, e51⟩ := r16_idx_facts t
  funext j
  have hj0 : (j 0).val < 1024 := (j 0).isLt
  have hj1 : (j 1).val < 192 := (j 1).isLt
  have ht : t.val < 8 := lt_of_lt_of_eq t.isLt N_16
  have hp : t.val * 1024 + (j 0).val < 8192 := by omega
  have hemb : ((cfg16.win 5).blk t).view.emb j
      = ix2 (⟨t.val * 1024 + (j 0).val, hp⟩ : Fin 8192) (⟨(j 1).val, hj1⟩ : Fin 192) := by
    funext d; apply Fin.ext
    match d with
    | ⟨0, _⟩ => show win16_5.index t (0 : Fin 2) * 1024 + 1 * (j 0).val = t.val * 1024 + (j 0).val; omega
    | ⟨1, _⟩ => show win16_5.index t (1 : Fin 2) * 192 + 1 * (j 1).val = (j 1).val; omega
  show outsAt16 (F := Ideal) V c t ((cfg16.win 5).xinj (grid16.coords t) j) = r16_G V c (((cfg16.win 5).blk t).view.emb j)
  rw [hemb]
  show _ = r16_val V c (⟨t.val * 1024 + (j 0).val, hp⟩ : Fin 8192) (⟨(j 1).val, hj1⟩ : Fin 192)
  unfold outsAt16 r16_val
  by_cases h : (j 1).val < 64
  · rw [dif_pos h]
    refine (r16_out_lo c (grid16.coords t) (ms16_0 t) (hs16_0 t) (ms16_1 t) (hs16_1 t) (ms16_2 t) (hs16_2 t) (ms16_3 t) (hs16_3 t)
      (ms16_4 t) (hs16_4 t) (ms16_5 t) (hs16_5 t) (r16_b0 V c t) (r16_b1 V c t) (r16_b2 V c t) (r16_b3 V c t) (r16_b4 V c t)
      ((cfg16.win 5).xinj (grid16.coords t) j) (⟨(j 0).val, hj0⟩ : Fin 1024) (⟨(j 1).val, h⟩ : Fin 64) rfl rfl).trans ?_
    refine (r16_pay1_apply (r16_b0 V c t) (r16_b1 V c t) (r16_b3 V c t)
      (View.ld (r16_b4 V c t) (Rect.unit (s := S1024x192) ![0, 0] S1024x64.size inb_S1024x192_S1024x64_0_0))
      (⟨(j 0).val, hj0⟩ : Fin 1024) (⟨(j 1).val, h⟩ : Fin 64)).trans ?_
    refine congrArg₂ (· * ·) (congrArg₂ (· + ·)
      (r16_b4_apply V c t
        ((Rect.unit (s := S1024x192) ![0, 0] S1024x64.size inb_S1024x192_S1024x64_0_0).idx
          (ix2 (⟨(j 0).val, hj0⟩ : Fin 1024) (⟨(j 1).val, h⟩ : Fin 64)))
        (⟨t.val * 1024 + (j 0).val, hp⟩ : Fin 8192) (⟨(j 1).val, hj1⟩ : Fin 192)
        (by show t.val * 1024 + (j 0).val = t.val * 1024 + (0 + 1 * (j 0).val); omega)
        (by show (j 1).val = 0 + 1 * (j 1).val; omega))
      (congrArg₂ max (congrArg₂ (· + ·) (Finset.sum_congr rfl fun k _ =>
        congrArg₂ (· * ·) (r16_b0_apply V c t (⟨(j 0).val, hj0⟩ : Fin 1024) k (⟨t.val * 1024 + (j 0).val, hp⟩ : Fin 8192) rfl)
          (r16_b1_apply V c t k (⟨(j 1).val, h⟩ : Fin 64))) (r16_b3_apply V c t (⟨(j 1).val, h⟩ : Fin 64))) rfl)) rfl
  · rw [dif_neg h]
    have h128 : (j 1).val - 64 < 128 := by omega
    refine (r16_out_hi c (grid16.coords t) (ms16_0 t) (hs16_0 t) (ms16_1 t) (hs16_1 t) (ms16_2 t) (hs16_2 t) (ms16_3 t) (hs16_3 t)
      (ms16_4 t) (hs16_4 t) (ms16_5 t) (hs16_5 t) (r16_b0 V c t) (r16_b1 V c t) (r16_b2 V c t) (r16_b3 V c t) (r16_b4 V c t)
      ((cfg16.win 5).xinj (grid16.coords t) j) (⟨(j 0).val, hj0⟩ : Fin 1024) (⟨(j 1).val - 64, h128⟩ : Fin 128) rfl
      (by show (j 1).val = 64 + ((j 1).val - 64); omega)).trans ?_
    refine (r16_pay2_apply (r16_b2 V c t)
      (View.ld (r16_b4 V c t) (Rect.unit (s := S1024x192) ![0, 64] S1024x128.size inb_S1024x192_S1024x128_0_64))
      (⟨(j 0).val, hj0⟩ : Fin 1024) (⟨(j 1).val - 64, h128⟩ : Fin 128)).trans ?_
    exact congrArg₂ (· * ·) (congrArg₂ (· + ·)
      (r16_b4_apply V c t
        ((Rect.unit (s := S1024x192) ![0, 64] S1024x128.size inb_S1024x192_S1024x128_0_64).idx
          (ix2 (⟨(j 0).val, hj0⟩ : Fin 1024) (⟨(j 1).val - 64, h128⟩ : Fin 128)))
        (⟨t.val * 1024 + (j 0).val, hp⟩ : Fin 8192) (⟨(j 1).val, hj1⟩ : Fin 192)
        (by show t.val * 1024 + (j 0).val = t.val * 1024 + (0 + 1 * (j 0).val); omega)
        (by show (j 1).val = 64 + 1 * ((j 1).val - 64); omega))
      (congrArg₂ max (r16_b2_apply V c t (⟨(j 0).val, hj0⟩ : Fin 1024) (⟨(j 1).val - 64, h128⟩ : Fin 128)
        (⟨t.val * 1024 + (j 0).val, hp⟩ : Fin 8192) rfl) rfl)) rfl

/-! ## The points' blocks cover the array -/

/-- An index of the array is in point t's block iff each coordinate is in the block's range on its axis. -/
theorem r16_mem_blk (t : Fin cfg16.N) (i : S8192x192.Idx) :
    i ∈ ((cfg16.win 5).blk t).view.set ↔ ∀ a : Fin 2, win16_5.index t a * S1024x192.size a ≤ (i a).val
      ∧ (i a).val < win16_5.index t a * S1024x192.size a + S1024x192.size a := by
  show i ∈ ((View.whole (Pipeline.arrRef spec16 5)).slice (win16_5.rect t)).set ↔ _
  rw [View.set_slice_whole, Rect.mem_set_unit]
  exact Iff.rfl

/-- Row r of the array is in the block of point r / 1024. -/
theorem r16_cover (i : S8192x192.Idx) :
    ∃ t : Fin cfg16.N, (cfg16.win 5).flush t = true ∧ i ∈ ((cfg16.win 5).blk t).view.set := by
  have hi0 : (i 0).val < 8192 := (i 0).isLt
  have hi1 : (i 1).val < 192 := (i 1).isLt
  have hlt : (i 0).val / 1024 < cfg16.N := lt_of_lt_of_eq (by omega : (i 0).val / 1024 < 8) N_16.symm
  obtain ⟨-, -, -, -, -, -, -, -, -, -, e50, e51⟩ := r16_idx_facts ⟨(i 0).val / 1024, hlt⟩
  refine ⟨⟨(i 0).val / 1024, hlt⟩, flush16_5 _, ?_⟩
  rw [r16_mem_blk]
  intro a
  match a with
  | ⟨0, _⟩ =>
    show win16_5.index ⟨(i 0).val / 1024, hlt⟩ (0 : Fin 2) * 1024 ≤ (i 0).val
      ∧ (i 0).val < win16_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win16_5.index ⟨(i 0).val / 1024, hlt⟩ (1 : Fin 2) * 192 ≤ (i 1).val
      ∧ (i 1).val < win16_5.index ⟨(i 0).val / 1024, hlt⟩ (1 : Fin 2) * 192 + 192
    rw [e51]; omega

/-! ## The output array after the region -/

/-- The output array ends holding the array of the entries above. -/
theorem r16_final (c : Dev nD) : (dat16 (F := Ideal) V c).arrAt 5 cfg16.N = r16_G V c :=
  (dat16 (F := Ideal) V c).arrAt_eq_of_cover 5 (r16_G V c) (fun t _ => r16_flushed_eq V c t) r16_cover

/-- Columns [0, 64): the average of the previous features and the aggregated, biased, rectified features. -/
theorem r16_lo (c : Dev nD) (p : Fin 8192) (q : Fin 64) :
    (dat16 (F := Ideal) V c).arrAt 5 cfg16.N (ix2 p (⟨q.val, by have := q.isLt; omega⟩ : Fin 192))
      = (r16_prev V c (ix2 p (⟨q.val, by have := q.isLt; omega⟩ : Fin 192))
          + max ((∑ k : Fin 8192, r16_adj V c (ix2 p k) * r16_scaled V c (ix2 k q)) + r16_bias V c (ix2 (0 : Fin 1) q))
              (Ideal.ofBits .f32 0x00000000#32)) * Ideal.ofBits .f32 0x3F000000#32 := by
  rw [r16_final]
  show r16_val V c p (⟨q.val, _⟩ : Fin 192) = _
  unfold r16_val
  rw [dif_pos (show (⟨q.val, _⟩ : Fin 192).val < 64 from q.isLt)]

/-- Columns [64, 192): the average of the previous features and the other feature group rectified. -/
theorem r16_hi (c : Dev nD) (p : Fin 8192) (q : Fin 128) :
    (dat16 (F := Ideal) V c).arrAt 5 cfg16.N (ix2 p (⟨64 + q.val, by have := q.isLt; omega⟩ : Fin 192))
      = (r16_prev V c (ix2 p (⟨64 + q.val, by have := q.isLt; omega⟩ : Fin 192))
          + max (r16_resid V c (ix2 p q)) (Ideal.ofBits .f32 0x00000000#32)) * Ideal.ofBits .f32 0x3F000000#32 := by
  rw [r16_final]
  show r16_val V c p (⟨64 + q.val, _⟩ : Fin 192) = _
  unfold r16_val
  rw [dif_neg (show ¬ (⟨64 + q.val, _⟩ : Fin 192).val < 64 from by show ¬ 64 + q.val < 64; omega)]
  refine congrArg₂ (· * ·) (congrArg₂ (· + ·) rfl (congrArg₂ max (congrArg _ (congrArg (ix2 p) (Fin.ext ?_))) rfl)) rfl
  show 64 + q.val - 64 = q.val
  omega

end Cert.KernelIdeal.KV

end
-- ==== Proof.KV.L8.lean ====
/-
  Layer 8 of the first program (a middle layer with the residual-and-halve step, weight page 6): what its two
  pallas_calls leave in the output array, entry by entry, is the layer's specification applied to the entries of its input array.
-/
import proofs.«405499_j28269474742810_3_alg».proof.Proof.KV.R15
import proofs.«405499_j28269474742810_3_alg».proof.Proof.KV.R16
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L8_w (c : Dev nD) : V23 m ρ c main_arg5 = m ((c : Thread nD τ).loc main_arg5) := tr_main_arg5_0_23 m ρ c
theorem L8_b (c : Dev nD) : V23 m ρ c main_arg6 = m ((c : Thread nD τ).loc main_arg6) := tr_main_arg6_0_23 m ρ c

/-- The scaled column group of the layer's weights, at an entry. -/
theorem L8_ws (c : Dev nD) (l : Fin 192) (q : Fin 64) : V24 m ρ c main_v86 (ix2 l q) = (P m c).Wm 6 l ⟨q.val, by omega⟩ := by
  have e : V24 m ρ c main_v86 = extractStridedSlice S192x64 ![0, 0] (shapeCast S192x192 (extractStridedSlice S1x192x192 ![6, 0, 0] (V23 m ρ c main_arg5) slices_S12x192x192_S1x192x192_6_0_0) shapeCasts_S1x192x192_S192x192) slices_S192x192_S192x64_0_0 := by
    show StableHlo.after hostOps15 (W23 m ρ c) (Proc.devRef .tc main_v86) = _
    after_results <;> rfl
  rw [e, Cert.Slices.cols_apply _ 0 _ l q (by omega), Cert.Slices.page_apply _ 6 (by omega), L8_w]
  show _ = m ((c : Thread nD τ).loc main_arg5) (ix3 (6 : Fin 12) l ⟨q.val, by omega⟩)
  congr 2
  exact Fin.ext (Nat.zero_add _)

/-- The pass-through column group of the layer's weights, at an entry. -/
theorem L8_wr (c : Dev nD) (l : Fin 192) (q : Fin 128) : V24 m ρ c main_v87 (ix2 l q) = (P m c).Wm 6 l ⟨64 + q.val, by omega⟩ := by
  have e : V24 m ρ c main_v87 = extractStridedSlice S192x128 ![0, 64] (shapeCast S192x192 (extractStridedSlice S1x192x192 ![6, 0, 0] (V23 m ρ c main_arg5) slices_S12x192x192_S1x192x192_6_0_0) shapeCasts_S1x192x192_S192x192) slices_S192x192_S192x128_0_64 := by
    show StableHlo.after hostOps15 (W23 m ρ c) (Proc.devRef .tc main_v87) = _
    after_results <;> rfl
  rw [e, Cert.Slices.cols_apply _ 64 _ l q (by omega), Cert.Slices.page_apply _ 6 (by omega), L8_w]
  rfl

/-- The bias of the scaled columns, one row, at an entry. -/
theorem L8_bs (c : Dev nD) (q : Fin 64) : V24 m ρ c main_v89 (ix2 (0 : Fin 1) q) = (P m c).bm 6 ⟨q.val, by omega⟩ := by
  have e : V24 m ρ c main_v89 = shapeCast S1x64 (extractStridedSlice S64 ![0] (shapeCast S192 (extractStridedSlice S1x192 ![6, 0] (V23 m ρ c main_arg6) slices_S12x192_S1x192_6_0) shapeCasts_S1x192_S192) slices_S192_S64_0) shapeCasts_S64_S1x64 := by
    show StableHlo.after hostOps15 (W23 m ρ c) (Proc.devRef .tc main_v89) = _
    after_results <;> rfl
  rw [e, Cert.Slices.seg_row_apply _ 0 _ _ (0 : Fin 1) q (by omega), Cert.Slices.row_apply _ 6 (by omega), L8_b]
  show _ = m ((c : Thread nD τ).loc main_arg6) (ix2 (6 : Fin 12) ⟨q.val, by omega⟩)
  congr 2
  exact Fin.ext (Nat.zero_add _)

/-- The bias of the pass-through columns, one row, at an entry. -/
theorem L8_br (c : Dev nD) (q : Fin 128) : V24 m ρ c main_v91 (ix2 (0 : Fin 1) q) = (P m c).bm 6 ⟨64 + q.val, by omega⟩ := by
  have e : V24 m ρ c main_v91 = shapeCast S1x128 (extractStridedSlice S128 ![64] (shapeCast S192 (extractStridedSlice S1x192 ![6, 0] (V23 m ρ c main_arg6) slices_S12x192_S1x192_6_0) shapeCasts_S1x192_S192) slices_S192_S128_64) shapeCasts_S128_S1x128 := by
    show StableHlo.after hostOps15 (W23 m ρ c) (Proc.devRef .tc main_v91) = _
    after_results <;> rfl
  rw [e, Cert.Slices.seg_row_apply _ 64 _ _ (0 : Fin 1) q (by omega), Cert.Slices.row_apply _ 6 (by omega), L8_b]
  rfl

/-- THE LAYER: the output array after its second pallas_call, at (p, j), is the layer's specification of the input array's entries and of the residual array's. -/
theorem L8_out (c : Dev nD) (x : Cert.Spec.Mx 8192 192) (hx : ∀ k l, V23 m ρ c main_v81 (ix2 k l) = x k l)
    (prev : Cert.Spec.Mx 8192 192) (hprev : ∀ p j, V20 m ρ c main_v69 (ix2 p j) = prev p j)
    (p : Fin 8192) (j : Fin 192) : V26 m ρ c main_v93 (ix2 p j) = Cert.Spec.residK (P m c) 6 prev x p j := by
  unfold Cert.Spec.residK Cert.Spec.resK Cert.Spec.relu
  have hp : ∀ p j, V25 m ρ c main_v69 (ix2 p j) = prev p j := fun p j =>
    (congrFun (tr_main_v69_20_25 m ρ c) (ix2 p j)).trans (hprev p j)
  refine Cert.Spec.layer_assemble (S := 64) (R := 128) (O := 192) rfl (P m c).A x ((P m c).Wm 6) ((P m c).bm 6)
    (fun k => V24 m ρ c main_v1_1 (ix2 k (0 : Fin 1))) (fun k => ?hinv)
    (fun k q => V25 m ρ c main_v92_0 (ix2 k q)) (fun k q => ?hsc)
    (fun p q => V25 m ρ c main_v92_1 (ix2 p q)) (fun p q => ?hrs)
    (fun p j y => (prev p j + max y Cert.Spec.zero) * Cert.Spec.half) (fun p j => V26 m ρ c main_v93 (ix2 p j)) (fun p q => ?hlo) (fun p q => ?hhi) p j
  case hinv =>
    exact (congrFun (tr_main_v1_1_2_24 m ρ c) (ix2 k (0 : Fin 1))).trans (inv_W2 m ρ c k)
  case hsc =>
    refine (congrFun (W25_arr m ρ c 5) (ix2 k q)).trans ((r15_scaled (V24 m ρ) c k q).trans ?_)
    refine congrArg (· * _) (Finset.sum_congr rfl fun l _ => ?_)
    exact congrArg₂ (· * ·) ((congrFun (tr_main_v81_23_24 m ρ c) (ix2 k l)).trans (hx k l)) (L8_ws m ρ c l q)
  case hrs =>
    refine (congrFun (W25_arr m ρ c 6) (ix2 p q)).trans ((r15_resid (V24 m ρ) c p q).trans ?_)
    refine congrArg₂ (· + ·) (Finset.sum_congr rfl fun l _ => ?_) (L8_br m ρ c q)
    exact congrArg₂ (· * ·) ((congrFun (tr_main_v81_23_24 m ρ c) (ix2 p l)).trans (hx p l)) (L8_wr m ρ c l q)
  case hlo =>
    refine (congrFun (W26_arr m ρ c 5) (ix2 p _)).trans ((r16_lo (V25 m ρ) c p q).trans ?_)
    refine congrArg (· * _) (congrArg₂ (· + ·) (hp p _) (congrArg (max · _) ?_))
    refine congrArg₂ (· + ·) (Finset.sum_congr rfl fun k _ => ?_)
      ((congrFun (tr_main_v89_24_25 m ρ c) (ix2 (0 : Fin 1) q)).trans (L8_bs m ρ c q))
    exact congrArg (· * _) ((congrFun (tr_main_v1_0_2_25 m ρ c) (ix2 p k)).trans (adjb_W2 m ρ c p k))
  case hhi =>
    refine (congrFun (W26_arr m ρ c 5) (ix2 p _)).trans ((r16_hi (V25 m ρ) c p q).trans ?_)
    exact congrArg (· * _) (congrArg (· + _) (hp p _))

end Cert.KernelIdeal.KV

end
-- ==== Proof.KV.R17.lean ====
/-
  Region 17 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg17
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz17 : (![0, 0] : Fin 2 → Nat) = fun _ => 0 := funext fun a => by fin_cases a <;> rfl

/-! ## The payloads at an index -/

/-- The generated dimension record of the [2048,192]·[192,64] product is the plain one. -/
theorem dot17_scaled_eq : dot_S2048x192_S192x64_S2048x64_1_0_0_1_n_n = DotDims.plain 2048 192 64 := rfl
/-- The generated dimension record of the [2048,192]·[192,128] product is the plain one. -/
theorem dot17_resid_eq : dot_S2048x192_S192x128_S2048x128_1_0_0_1_n_n = DotDims.plain 2048 192 128 := rfl

/-- The narrowed copy of the x block is the x block (a format change is the identity on extended reals). -/
theorem xcast17_eq (v0 : FVec Ideal S2048x192 .f32) : k17_pay1 (F := Ideal) v0 = v0 := by
  unfold k17_pay1
  exact shapeCast_self v0 _

/-- The scaled payload at (a, b): (∑ₗ x(a, l) · W₁(l, b)) · s(a, 0). -/
theorem scaled17_pay_apply (v0 : FVec Ideal S2048x192 .f32) (v3 : FVec Ideal S192x64 .f32) (v11 : FVec Ideal S2048x1 .f32)
    (a : Fin 2048) (b : Fin 64) :
    k17_pay3 (F := Ideal) v0 v3 v11 (ix2 a b) = (∑ l : Fin 192, v0 (ix2 a l) * v3 (ix2 l b)) * v11 (ix2 a (0 : Fin 1)) := by
  unfold k17_pay3
  simp only [xcast17_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot17_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid17_pay_apply (v0 : FVec Ideal S2048x192 .f32) (v6 : FVec Ideal S192x128 .f32) (v15 : FVec Ideal S1x128 .f32)
    (a : Fin 2048) (b : Fin 128) :
    k17_pay2 (F := Ideal) v0 v6 v15 (ix2 a b) = (∑ l : Fin 192, v0 (ix2 a l) * v6 (ix2 l b)) + v15 (ix2 (0 : Fin 1) b) := by
  unfold k17_pay2
  simp only [xcast17_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot17_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin17 (c : Dev nD) : FVec Ideal S8192x192 .f32 := V c (Pipeline.arrRef spec17 0)
/-- The weight's scaled column group W₁. -/
abbrev wsc17 (c : Dev nD) : FVec Ideal S192x64 .f32 := V c (Pipeline.arrRef spec17 1)
/-- The weight's residual column group W₂. -/
abbrev wre17 (c : Dev nD) : FVec Ideal S192x128 .f32 := V c (Pipeline.arrRef spec17 2)
/-- The bias row b. -/
abbrev bia17 (c : Dev nD) : FVec Ideal S1x128 .f32 := V c (Pipeline.arrRef spec17 3)
/-- The column s of inverse row sums. -/
abbrev inv17 (c : Dev nD) : FVec Ideal S8192x1 .f32 := V c (Pipeline.arrRef spec17 4)

/-- Entry (p, q) of the scaled output. -/
def scaledAt17 (c : Dev nD) (p : Fin 8192) (q : Fin 64) : EReal :=
  (∑ l : Fin 192, xin17 V c (ix2 p l) * wsc17 V c (ix2 l q)) * inv17 V c (ix2 p (0 : Fin 1))

/-- Entry (p, q) of the residual output. -/
def residAt17 (c : Dev nD) (p : Fin 8192) (q : Fin 128) : EReal :=
  (∑ l : Fin 192, xin17 V c (ix2 p l) * wre17 V c (ix2 l q)) + bia17 V c (ix2 (0 : Fin 1) q)

/-- What the scaled output ends holding. -/
abbrev G17_5 (c : Dev nD) : FVec Ideal S8192x64 .bf16 := fun i => scaledAt17 V c ⟨(i 0).val, idx2_lt0 i⟩ ⟨(i 1).val, idx2_lt1 i⟩
/-- What the residual output ends holding. -/
abbrev G17_6 (c : Dev nD) : FVec Ideal S8192x128 .f32 := fun i => residAt17 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts17 : ∀ t : Fin cfg17.N,
    win17_0.index t (0 : Fin 2) = win17_5.index t (0 : Fin 2) ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = win17_5.index t (0 : Fin 2) ∧ win17_4.index t (1 : Fin 2) = 0
    ∧ win17_5.index t (1 : Fin 2) = 0
    ∧ win17_6.index t (0 : Fin 2) = win17_5.index t (0 : Fin 2) ∧ win17_6.index t (1 : Fin 2) = 0
    ∧ win17_5.index t (0 : Fin 2) < 4 :=
  (by decide +kernel : ∀ t : Fin grid17.N, _)

/-- Every row block is some point's, for the scaled output … -/
theorem idx_onto17_5 : ∀ q0 : Fin 4, ∃ t : Fin cfg17.N, win17_5.index t = ![q0.val, 0] :=
  (by decide +kernel : ∀ q0 : Fin 4, ∃ t : Fin grid17.N, win17_5.index t = ![q0.val, 0])

/-- … and for the residual output. -/
theorem idx_onto17_6 : ∀ q0 : Fin 4, ∃ t : Fin cfg17.N, win17_6.index t = ![q0.val, 0] :=
  (by decide +kernel : ∀ q0 : Fin 4, ∃ t : Fin grid17.N, win17_6.index t = ![q0.val, 0])

/-! ## Output window 5: the scaled output -/

/-- WHAT POINT t WRITES BACK is block t of the scaled output's function of the arrays. -/
theorem flushed17_5_eq (c : Dev nD) (t : Fin cfg17.N) :
    (dat17 (F := Ideal) V c).flushed 5 t = ((cfg17.win 5).blk t).view.read (Elt Ideal) (G17_5 V c) := by
  show (cfg17.win 5).cut (grid17.coords t) ((dat17 (F := Ideal) V c).after 5 t) = _
  rw [after17_5]
  unfold out17_5
  rw [View.canon_unit_zero hz17]
  simp only [View.ld_unit_zero (S := S2048x192) hz17, View.ld_unit_zero (S := S192x64) hz17, View.ld_unit_zero (S := S2048x1) hz17]
  obtain ⟨e00, e01, e10, e11, e20, e21, e30, e31, e40, e41, e51, e60, e61, e5⟩ := idx_facts17 t
  funext j
  obtain ⟨a, b, rfl⟩ : ∃ (a : Fin 2048) (b : Fin 64), j = ix2 a b := ⟨j 0, j 1, eq_ix2 j⟩
  refine (scaled17_pay_apply (iblk17 V c 0 t) (iblk17 V c 1 t) (iblk17 V c 4 t) a b).trans ?_
  show (∑ l : Fin 192, xin17 V c (((cfg17.win 0).blk t).view.emb (ix2 a l)) * wsc17 V c (((cfg17.win 1).blk t).view.emb (ix2 l b)))
      * inv17 V c (((cfg17.win 4).blk t).view.emb (ix2 a (0 : Fin 1)))
    = scaledAt17 V c ⟨((((cfg17.win 5).blk t).view.emb (ix2 a b)) 0).val, _⟩ ⟨((((cfg17.win 5).blk t).view.emb (ix2 a b)) 1).val, _⟩
  unfold scaledAt17
  refine congr (congrArg _ (Finset.sum_congr rfl fun l _ => congr (congrArg _ (congrArg _ ?_)) (congrArg _ ?_))) (congrArg _ ?_)
  · funext d; apply Fin.ext
    match d with
    | ⟨0, _⟩ => show win17_0.index t (0 : Fin 2) * 2048 + 1 * a.val = win17_5.index t (0 : Fin 2) * 2048 + 1 * a.val; omega
    | ⟨1, _⟩ => show win17_0.index t (1 : Fin 2) * 192 + 1 * l.val = l.val; omega
  · funext d; apply Fin.ext
    match d with
    | ⟨0, _⟩ => show win17_1.index t (0 : Fin 2) * 192 + 1 * l.val = l.val; omega
    | ⟨1, _⟩ => show win17_1.index t (1 : Fin 2) * 64 + 1 * b.val = win17_5.index t (1 : Fin 2) * 64 + 1 * b.val; omega
  · funext d; apply Fin.ext
    match d with
    | ⟨0, _⟩ => show win17_4.index t (0 : Fin 2) * 2048 + 1 * a.val = win17_5.index t (0 : Fin 2) * 2048 + 1 * a.val; omega
    | ⟨1, _⟩ => show win17_4.index t (1 : Fin 2) * 1 + 1 * 0 = 0; omega

/-- An index of the scaled output is in point t's block iff each coordinate is in the block's range on its axis. -/
theorem mem_blk17_5 (t : Fin cfg17.N) (i : S8192x64.Idx) :
    i ∈ ((cfg17.win 5).blk t).view.set ↔ ∀ a : Fin 2, win17_5.index t a * S2048x64.size a ≤ (i a).val ∧ (i a).val < win17_5.index t a * S2048x64.size a + S2048x64.size a := by
  show i ∈ ((View.whole (Pipeline.arrRef spec17 5)).slice (win17_5.rect t)).set ↔ _
  rw [View.set_slice_whole, Rect.mem_set_unit]
  exact Iff.rfl

/-- Every index is in the block of the point of its row block, row / 2048. -/
theorem covered17_5 (i : S8192x64.Idx) :
    ∃ t : Fin cfg17.N, (cfg17.win 5).flush t = true ∧ i ∈ ((cfg17.win 5).blk t).view.set := by
  have hi0 : (i 0).val < 8192 := (i 0).isLt
  have hi1 : (i 1).val < 64 := (i 1).isLt
  obtain ⟨t, ht⟩ := idx_onto17_5 ⟨(i 0).val / 2048, by omega⟩
  have q0 : win17_5.index t (0 : Fin 2) = (i 0).val / 2048 := congrFun ht 0
  have q1 : win17_5.index t (1 : Fin 2) = 0 := congrFun ht 1
  refine ⟨t, flush17_5 t, ?_⟩
  rw [mem_blk17_5]
  intro a
  match a with
  | ⟨0, _⟩ => show win17_5.index t (0 : Fin 2) * 2048 ≤ (i 0).val ∧ (i 0).val < win17_5.index t (0 : Fin 2) * 2048 + 2048; omega
  | ⟨1, _⟩ => show win17_5.index t (1 : Fin 2) * 64 ≤ (i 1).val ∧ (i 1).val < win17_5.index t (1 : Fin 2) * 64 + 64; omega

/-- THE SCALED OUTPUT after the region. -/
theorem arr17_5 (c : Dev nD) : (dat17 (F := Ideal) V c).arrAt 5 cfg17.N = G17_5 V c :=
  (dat17 (F := Ideal) V c).arrAt_eq_of_cover 5 (G17_5 V c) (fun t _ => flushed17_5_eq V c t) covered17_5

theorem r17_scaled (c : Dev nD) (p : Fin 8192) (q : Fin 64) :
    (dat17 (F := Ideal) V c).arrAt 5 cfg17.N (ix2 p q)
      = (∑ l : Fin 192, xin17 V c (ix2 p l) * wsc17 V c (ix2 l q)) * inv17 V c (ix2 p (0 : Fin 1)) :=
  congrFun (arr17_5 V c) (ix2 p q)

/-! ## Output window 6: the residual output -/

/-- WHAT POINT t WRITES BACK is block t of the residual output's function of the arrays. -/
theorem flushed17_6_eq (c : Dev nD) (t : Fin cfg17.N) :
    (dat17 (F := Ideal) V c).flushed 6 t = ((cfg17.win 6).blk t).view.read (Elt Ideal) (G17_6 V c) := by
  show (cfg17.win 6).cut (grid17.coords t) ((dat17 (F := Ideal) V c).after 6 t) = _
  rw [after17_6]
  unfold out17_6
  rw [View.canon_unit_zero hz17]
  simp only [View.ld_unit_zero (S := S2048x192) hz17, View.ld_unit_zero (S := S192x128) hz17, View.ld_unit_zero (S := S1x128) hz17]
  obtain ⟨e00, e01, e10, e11, e20, e21, e30, e31, e40, e41, e51, e60, e61, e5⟩ := idx_facts17 t
  funext j
  obtain ⟨a, b, rfl⟩ : ∃ (a : Fin 2048) (b : Fin 128), j = ix2 a b := ⟨j 0, j 1, eq_ix2 j⟩
  refine (resid17_pay_apply (iblk17 V c 0 t) (iblk17 V c 2 t) (iblk17 V c 3 t) a b).trans ?_
  show (∑ l : Fin 192, xin17 V c (((cfg17.win 0).blk t).view.emb (ix2 a l)) * wre17 V c (((cfg17.win 2).blk t).view.emb (ix2 l b)))
      + bia17 V c (((cfg17.win 3).blk t).view.emb (ix2 (0 : Fin 1) b))
    = residAt17 V c ⟨((((cfg17.win 6).blk t).view.emb (ix2 a b)) 0).val, _⟩ ⟨((((cfg17.win 6).blk t).view.emb (ix2 a b)) 1).val, _⟩
  unfold residAt17
  refine congr (congrArg _ (Finset.sum_congr rfl fun l _ => congr (congrArg _ (congrArg _ ?_)) (congrArg _ ?_))) (congrArg _ ?_)
  · funext d; apply Fin.ext
    match d with
    | ⟨0, _⟩ => show win17_0.index t (0 : Fin 2) * 2048 + 1 * a.val = win17_6.index t (0 : Fin 2) * 2048 + 1 * a.val; omega
    | ⟨1, _⟩ => show win17_0.index t (1 : Fin 2) * 192 + 1 * l.val = l.val; omega
  · funext d; apply Fin.ext
    match d with
    | ⟨0, _⟩ => show win17_2.index t (0 : Fin 2) * 192 + 1 * l.val = l.val; omega
    | ⟨1, _⟩ => show win17_2.index t (1 : Fin 2) * 128 + 1 * b.val = win17_6.index t (1 : Fin 2) * 128 + 1 * b.val; omega
  · funext d; apply Fin.ext
    match d with
    | ⟨0, _⟩ => show win17_3.index t (0 : Fin 2) * 1 + 1 * 0 = 0; omega
    | ⟨1, _⟩ => show win17_3.index t (1 : Fin 2) * 128 + 1 * b.val = win17_6.index t (1 : Fin 2) * 128 + 1 * b.val; omega

/-- An index of the residual output is in point t's block iff each coordinate is in the block's range on its axis. -/
theorem mem_blk17_6 (t : Fin cfg17.N) (i : S8192x128.Idx) :
    i ∈ ((cfg17.win 6).blk t).view.set ↔ ∀ a : Fin 2, win17_6.index t a * S2048x128.size a ≤ (i a).val ∧ (i a).val < win17_6.index t a * S2048x128.size a + S2048x128.size a := by
  show i ∈ ((View.whole (Pipeline.arrRef spec17 6)).slice (win17_6.rect t)).set ↔ _
  rw [View.set_slice_whole, Rect.mem_set_unit]
  exact Iff.rfl

/-- Every index is in the block of the point of its row block, row / 2048. -/
theorem covered17_6 (i : S8192x128.Idx) :
    ∃ t : Fin cfg17.N, (cfg17.win 6).flush t = true ∧ i ∈ ((cfg17.win 6).blk t).view.set := by
  have hi0 : (i 0).val < 8192 := (i 0).isLt
  have hi1 : (i 1).val < 128 := (i 1).isLt
  obtain ⟨t, ht⟩ := idx_onto17_6 ⟨(i 0).val / 2048, by omega⟩
  have q0 : win17_6.index t (0 : Fin 2) = (i 0).val / 2048 := congrFun ht 0
  have q1 : win17_6.index t (1 : Fin 2) = 0 := congrFun ht 1
  refine ⟨t, flush17_6 t, ?_⟩
  rw [mem_blk17_6]
  intro a
  match a with
  | ⟨0, _⟩ => show win17_6.index t (0 : Fin 2) * 2048 ≤ (i 0).val ∧ (i 0).val < win17_6.index t (0 : Fin 2) * 2048 + 2048; omega
  | ⟨1, _⟩ => show win17_6.index t (1 : Fin 2) * 128 ≤ (i 1).val ∧ (i 1).val < win17_6.index t (1 : Fin 2) * 128 + 128; omega

/-- THE RESIDUAL OUTPUT after the region. -/
theorem arr17_6 (c : Dev nD) : (dat17 (F := Ideal) V c).arrAt 6 cfg17.N = G17_6 V c :=
  (dat17 (F := Ideal) V c).arrAt_eq_of_cover 6 (G17_6 V c) (fun t _ => flushed17_6_eq V c t) covered17_6

theorem r17_resid (c : Dev nD) (p : Fin 8192) (q : Fin 128) :
    (dat17 (F := Ideal) V c).arrAt 6 cfg17.N (ix2 p q)
      = (∑ l : Fin 192, xin17 V c (ix2 p l) * wre17 V c (ix2 l q)) + bia17 V c (ix2 (0 : Fin 1) q) :=
  congrFun (arr17_6 V c) (ix2 p q)

end Cert.KernelIdeal.KV

end
-- ==== Proof.KV.R18.lean ====
/-
  Region 18, an aggregation layer with rectifier and no residual: what its output array holds after the region,
  entry by entry, as a function of the arrays the region finds.

  The body writes its output block [1024, 192] by two column slices: columns [0, 64) hold
  max(A·S + b, 0) (A the row block of the adjacency, S the scaled features, b the bias row broadcast over the rows) and
  columns [64, 192) hold max(R, 0) (R the row block of the other feature group). The two slices are disjoint and cover the
  block, so each entry of the block is the payload of the slice that holds it. Row block t of the output array is
  written by grid point t (8 points of 1024 rows), and the points' blocks cover the array; so entry (p, q) of the array
  is ∑ₖ A(p, k)·S(k, q) + b(0, q) rectified for q < 64, and R(p, q − 64) rectified for q ≥ 64.
-/
import proofs.«405499_j28269474742810_3_alg».proof.Proof.Fr.KernelIdeal.Reg18
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r18_hz : (![0, 0] : Fin 2 → Nat) = fun _ => 0 := funext fun a => match a with | ⟨0, _⟩ => rfl | ⟨1, _⟩ => rfl

/-- The product's dimension numbers are those of a plain M×K by K×N product. -/
theorem r18_dot_plain : dot_S1024x8192_S8192x64_S1024x64_1_0_0_1_n_n = DotDims.plain 1024 8192 64 := rfl

/-- Columns [0, 64) at entry (a, b): the product's entry plus the bias of column b, rectified. -/
theorem r18_pay1_apply (x0 : Vec Ideal S1024x8192 .bf16) (x1 : Vec Ideal S8192x64 .bf16) (x3 : Vec Ideal S1x64 .f32)
    (a : Fin 1024) (b : Fin 64) :
    k18_pay1 (F := Ideal) x0 x1 x3 (ix2 a b)
      = max ((∑ k : Fin 8192, x0 (ix2 a k) * x1 (ix2 k b)) + x3 (ix2 (0 : Fin 1) b)) (Ideal.ofBits .f32 0x00000000#32) := by
  unfold k18_pay1
  simp only [shapeCast_self]
  show max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32) = _
  rw [r18_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the other feature group's entry, rectified. -/
theorem r18_pay2_apply (x2 : Vec Ideal S1024x128 .f32) (a : Fin 1024) (b : Fin 128) :
    k18_pay2 (F := Ideal) x2 (ix2 a b) = max (x2 (ix2 a b)) (Ideal.ofBits .f32 0x00000000#32) := by
  unfold k18_pay2
  simp only [shapeCast_self]
  rfl

/-! ## What the body leaves in the output block: each entry is the payload of the slice that holds it -/

/-- An entry in columns [0, 64): off the later slice, under the earlier one. -/
theorem r18_out_lo (c : Dev nD) (i : grid18.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 64) (hy0 : (y 0).val = a.val) (hy1 : (y 1).val = b.val) :
    out18_A_4 (F := Ideal) c i a1 h1 a2 h2 a3 h3 a4 h4 a5 h5 x0 x1 x2 x3 y = k18_pay1 (F := Ideal) x0 x1 x3 (ix2 a b) := by
  unfold out18_A_4
  rw [View.read_writes_eq_canon _ _ _ (cover18_A_4 c i a1 h1 a2 h2 a3 h3 a4 h4 a5 h5 x0 x1 x2 x3)]
  unfold kernelRun18_A
  dsimp only
  sl_unfold_words
  simp only [View.readAt_eq_ld, h1.read_unread, h2.read_unread, h3.read_unread, h4.read_unread,
    View.ld_unit_zero (S := S1024x8192) r18_hz, View.ld_unit_zero (S := S8192x64) r18_hz,
    View.ld_unit_zero (S := S1024x128) r18_hz, View.ld_unit_zero (S := S1x64) r18_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r18_out_hi (c : Dev nD) (i : grid18.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 128) (hy0 : (y 0).val = a.val) (hy1 : (y 1).val = 64 + b.val) :
    out18_A_4 (F := Ideal) c i a1 h1 a2 h2 a3 h3 a4 h4 a5 h5 x0 x1 x2 x3 y = k18_pay2 (F := Ideal) x2 (ix2 a b) := by
  unfold out18_A_4
  rw [View.read_writes_eq_canon _ _ _ (cover18_A_4 c i a1 h1 a2 h2 a3 h3 a4 h4 a5 h5 x0 x1 x2 x3)]
  unfold kernelRun18_A
  dsimp only
  sl_unfold_words
  simp only [View.readAt_eq_ld, h1.read_unread, h2.read_unread, h3.read_unread, h4.read_unread,
    View.ld_unit_zero (S := S1024x8192) r18_hz, View.ld_unit_zero (S := S8192x64) r18_hz,
    View.ld_unit_zero (S := S1024x128) r18_hz, View.ld_unit_zero (S := S1x64) r18_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group and the bias row, as the region finds them. -/
abbrev r18_adj (c : Dev nD) : Vec Ideal S8192x8192 .bf16 := V c (Pipeline.arrRef spec18 0)
abbrev r18_scaled (c : Dev nD) : Vec Ideal S8192x64 .bf16 := V c (Pipeline.arrRef spec18 1)
abbrev r18_resid (c : Dev nD) : Vec Ideal S8192x128 .f32 := V c (Pipeline.arrRef spec18 2)
abbrev r18_bias (c : Dev nD) : Vec Ideal S1x64 .f32 := V c (Pipeline.arrRef spec18 3)

/-- The windows' blocks at a point, at their literal types. -/
abbrev r18_b0 (c : Dev nD) (t : Fin cfg18.N) : Vec Ideal S1024x8192 .bf16 := iblk18 (F := Ideal) V c 0 t
abbrev r18_b1 (c : Dev nD) (t : Fin cfg18.N) : Vec Ideal S8192x64 .bf16 := iblk18 (F := Ideal) V c 1 t
abbrev r18_b2 (c : Dev nD) (t : Fin cfg18.N) : Vec Ideal S1024x128 .f32 := iblk18 (F := Ideal) V c 2 t
abbrev r18_b3 (c : Dev nD) (t : Fin cfg18.N) : Vec Ideal S1x64 .f32 := iblk18 (F := Ideal) V c 3 t

/-- Entry (p, q) of the array the region leaves. -/
def r18_val (c : Dev nD) (p : Fin 8192) (q : Fin 192) : EReal :=
  if h : q.val < 64 then
    max ((∑ k : Fin 8192, r18_adj V c (ix2 p k) * r18_scaled V c (ix2 k (⟨q.val, h⟩ : Fin 64)))
      + r18_bias V c (ix2 (0 : Fin 1) (⟨q.val, h⟩ : Fin 64))) (Ideal.ofBits .f32 0x00000000#32)
  else
    max (r18_resid V c (ix2 p (⟨q.val - 64, by have := q.isLt; omega⟩ : Fin 128))) (Ideal.ofBits .f32 0x00000000#32)

/-- The array the region leaves. -/
def r18_G (c : Dev nD) : Vec Ideal S8192x192 .f32 := fun i => r18_val V c (i 0) (i 1)

/-- The printed index maps, decided over the grid: the row-blocked windows are at block row t, column block 0; the whole
    windows at block (0, 0). -/
theorem r18_idx_facts : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0
    ∧ win18_3.index t (0 : Fin 2) = 0 ∧ win18_3.index t (1 : Fin 2) = 0
    ∧ win18_4.index t (0 : Fin 2) = t.val ∧ win18_4.index t (1 : Fin 2) = 0 :=
  (by decide +kernel : ∀ t : Fin grid18.N, _)

/-- Row block t of the adjacency: entry (a, k) of the block is entry (1024 t + a, k) of the array. -/
theorem r18_b0_apply (c : Dev nD) (t : Fin cfg18.N) (a : Fin 1024) (k : Fin 8192) (p : Fin 8192)
    (hp : p.val = t.val * 1024 + a.val) : r18_b0 V c t (ix2 a k) = r18_adj V c (ix2 p k) := by
  obtain ⟨e00, e01, -⟩ := r18_idx_facts t
  show V c (Pipeline.arrRef spec18 0) (((cfg18.win 0).blk t).view.emb (ix2 a k)) = V c (Pipeline.arrRef spec18 0) (ix2 p k)
  refine congrArg _ (funext fun d => Fin.ext ?_)
  match d with
  | ⟨0, _⟩ => show win18_0.index t (0 : Fin 2) * 1024 + 1 * a.val = p.val; omega
  | ⟨1, _⟩ => show win18_0.index t (1 : Fin 2) * 8192 + 1 * k.val = k.val; omega

/-- The scaled features' one block is the array. -/
theorem r18_b1_apply (c : Dev nD) (t : Fin cfg18.N) (k : Fin 8192) (b : Fin 64) :
    r18_b1 V c t (ix2 k b) = r18_scaled V c (ix2 k b) := by
  obtain ⟨-, -, e10, e11, -⟩ := r18_idx_facts t
  show V c (Pipeline.arrRef spec18 1) (((cfg18.win 1).blk t).view.emb (ix2 k b)) = V c (Pipeline.arrRef spec18 1) (ix2 k b)
  refine congrArg _ (funext fun d => Fin.ext ?_)
  match d with
  | ⟨0, _⟩ => show win18_1.index t (0 : Fin 2) * 8192 + 1 * k.val = k.val; omega
  | ⟨1, _⟩ => show win18_1.index t (1 : Fin 2) * 64 + 1 * b.val = b.val; omega

/-- Row block t of the other feature group. -/
theorem r18_b2_apply (c : Dev nD) (t : Fin cfg18.N) (a : Fin 1024) (b : Fin 128) (p : Fin 8192)
    (hp : p.val = t.val * 1024 + a.val) : r18_b2 V c t (ix2 a b) = r18_resid V c (ix2 p b) := by
  obtain ⟨-, -, -, -, e20, e21, -⟩ := r18_idx_facts t
  show V c (Pipeline.arrRef spec18 2) (((cfg18.win 2).blk t).view.emb (ix2 a b)) = V c (Pipeline.arrRef spec18 2) (ix2 p b)
  refine congrArg _ (funext fun d => Fin.ext ?_)
  match d with
  | ⟨0, _⟩ => show win18_2.index t (0 : Fin 2) * 1024 + 1 * a.val = p.val; omega
  | ⟨1, _⟩ => show win18_2.index t (1 : Fin 2) * 128 + 1 * b.val = b.val; omega

/-- The bias row's one block is the array. -/
theorem r18_b3_apply (c : Dev nD) (t : Fin cfg18.N) (b : Fin 64) :
    r18_b3 V c t (ix2 (0 : Fin 1) b) = r18_bias V c (ix2 (0 : Fin 1) b) := by
  obtain ⟨-, -, -, -, -, -, e30, e31, -⟩ := r18_idx_facts t
  show V c (Pipeline.arrRef spec18 3) (((cfg18.win 3).blk t).view.emb (ix2 (0 : Fin 1) b)) = V c (Pipeline.arrRef spec18 3) (ix2 (0 : Fin 1) b)
  refine congrArg _ (funext fun d => Fin.ext ?_)
  match d with
  | ⟨0, _⟩ => show win18_3.index t (0 : Fin 2) * 1 + 1 * 0 = 0; omega
  | ⟨1, _⟩ => show win18_3.index t (1 : Fin 2) * 64 + 1 * b.val = b.val; omega

/-- WHAT POINT t WRITES BACK is block t of the array the region leaves. -/
theorem r18_flushed_eq (c : Dev nD) (t : Fin cfg18.N) :
    (dat18 (F := Ideal) V c).flushed 4 t = ((cfg18.win 4).blk t).view.read (Elt Ideal) (r18_G V c) := by
  show (cfg18.win 4).cut (grid18.coords t) ((dat18 (F := Ideal) V c).after 4 t) = _
  rw [after18_4]
  obtain ⟨-, -, -, -, -, -, -, -, e40, e41⟩ := r18_idx_facts t
  funext j
  have hj0 : (j 0).val < 1024 := (j 0).isLt
  have hj1 : (j 1).val < 192 := (j 1).isLt
  have ht : t.val < 8 := lt_of_lt_of_eq t.isLt N_18
  have hp : t.val * 1024 + (j 0).val < 8192 := by omega
  have hemb : ((cfg18.win 4).blk t).view.emb j
      = ix2 (⟨t.val * 1024 + (j 0).val, hp⟩ : Fin 8192) (⟨(j 1).val, hj1⟩ : Fin 192) := by
    funext d; apply Fin.ext
    match d with
    | ⟨0, _⟩ => show win18_4.index t (0 : Fin 2) * 1024 + 1 * (j 0).val = t.val * 1024 + (j 0).val; omega
    | ⟨1, _⟩ => show win18_4.index t (1 : Fin 2) * 192 + 1 * (j 1).val = (j 1).val; omega
  show outsAt18 (F := Ideal) V c t ((cfg18.win 4).xinj (grid18.coords t) j) = r18_G V c (((cfg18.win 4).blk t).view.emb j)
  rw [hemb]
  show _ = r18_val V c (⟨t.val * 1024 + (j 0).val, hp⟩ : Fin 8192) (⟨(j 1).val, hj1⟩ : Fin 192)
  unfold outsAt18 r18_val
  by_cases h : (j 1).val < 64
  · rw [dif_pos h]
    refine (r18_out_lo c (grid18.coords t) (ms18_0 t) (hs18_0 t) (ms18_1 t) (hs18_1 t) (ms18_2 t) (hs18_2 t) (ms18_3 t) (hs18_3 t)
      (ms18_4 t) (hs18_4 t) (r18_b0 V c t) (r18_b1 V c t) (r18_b2 V c t) (r18_b3 V c t)
      ((cfg18.win 4).xinj (grid18.coords t) j) (⟨(j 0).val, hj0⟩ : Fin 1024) (⟨(j 1).val, h⟩ : Fin 64) rfl rfl).trans ?_
    refine (r18_pay1_apply (r18_b0 V c t) (r18_b1 V c t) (r18_b3 V c t) (⟨(j 0).val, hj0⟩ : Fin 1024) (⟨(j 1).val, h⟩ : Fin 64)).trans ?_
    refine congrArg₂ max (congrArg₂ (· + ·) (Finset.sum_congr rfl fun k _ =>
      congrArg₂ (· * ·) (r18_b0_apply V c t (⟨(j 0).val, hj0⟩ : Fin 1024) k (⟨t.val * 1024 + (j 0).val, hp⟩ : Fin 8192) rfl)
        (r18_b1_apply V c t k (⟨(j 1).val, h⟩ : Fin 64))) (r18_b3_apply V c t (⟨(j 1).val, h⟩ : Fin 64))) rfl
  · rw [dif_neg h]
    have h128 : (j 1).val - 64 < 128 := by omega
    refine (r18_out_hi c (grid18.coords t) (ms18_0 t) (hs18_0 t) (ms18_1 t) (hs18_1 t) (ms18_2 t) (hs18_2 t) (ms18_3 t) (hs18_3 t)
      (ms18_4 t) (hs18_4 t) (r18_b0 V c t) (r18_b1 V c t) (r18_b2 V c t) (r18_b3 V c t)
      ((cfg18.win 4).xinj (grid18.coords t) j) (⟨(j 0).val, hj0⟩ : Fin 1024) (⟨(j 1).val - 64, h128⟩ : Fin 128) rfl
      (by show (j 1).val = 64 + ((j 1).val - 64); omega)).trans ?_
    refine (r18_pay2_apply (r18_b2 V c t) (⟨(j 0).val, hj0⟩ : Fin 1024) (⟨(j 1).val - 64, h128⟩ : Fin 128)).trans ?_
    exact congrArg₂ max (r18_b2_apply V c t (⟨(j 0).val, hj0⟩ : Fin 1024) (⟨(j 1).val - 64, h128⟩ : Fin 128)
      (⟨t.val * 1024 + (j 0).val, hp⟩ : Fin 8192) rfl) rfl

/-! ## The points' blocks cover the array -/

/-- An index of the array is in point t's block iff each coordinate is in the block's range on its axis. -/
theorem r18_mem_blk (t : Fin cfg18.N) (i : S8192x192.Idx) :
    i ∈ ((cfg18.win 4).blk t).view.set ↔ ∀ a : Fin 2, win18_4.index t a * S1024x192.size a ≤ (i a).val
      ∧ (i a).val < win18_4.index t a * S1024x192.size a + S1024x192.size a := by
  show i ∈ ((View.whole (Pipeline.arrRef spec18 4)).slice (win18_4.rect t)).set ↔ _
  rw [View.set_slice_whole, Rect.mem_set_unit]
  exact Iff.rfl

/-- Row r of the array is in the block of point r / 1024. -/
theorem r18_cover (i : S8192x192.Idx) :
    ∃ t : Fin cfg18.N, (cfg18.win 4).flush t = true ∧ i ∈ ((cfg18.win 4).blk t).view.set := by
  have hi0 : (i 0).val < 8192 := (i 0).isLt
  have hi1 : (i 1).val < 192 := (i 1).isLt
  have hlt : (i 0).val / 1024 < cfg18.N := lt_of_lt_of_eq (by omega : (i 0).val / 1024 < 8) N_18.symm
  obtain ⟨-, -, -, -, -, -, -, -, e40, e41⟩ := r18_idx_facts ⟨(i 0).val / 1024, hlt⟩
  refine ⟨⟨(i 0).val / 1024, hlt⟩, flush18_4 _, ?_⟩
  rw [r18_mem_blk]
  intro a
  match a with
  | ⟨0, _⟩ =>
    show win18_4.index ⟨(i 0).val / 1024, hlt⟩ (0 : Fin 2) * 1024 ≤ (i 0).val
      ∧ (i 0).val < win18_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win18_4.index ⟨(i 0).val / 1024, hlt⟩ (1 : Fin 2) * 192 ≤ (i 1).val
      ∧ (i 1).val < win18_4.index ⟨(i 0).val / 1024, hlt⟩ (1 : Fin 2) * 192 + 192
    rw [e41]; omega

/-! ## The output array after the region -/

/-- The output array ends holding the array of the entries above. -/
theorem r18_final (c : Dev nD) : (dat18 (F := Ideal) V c).arrAt 4 cfg18.N = r18_G V c :=
  (dat18 (F := Ideal) V c).arrAt_eq_of_cover 4 (r18_G V c) (fun t _ => r18_flushed_eq V c t) r18_cover

/-- Columns [0, 64): the aggregated, biased, rectified features. -/
theorem r18_lo (c : Dev nD) (p : Fin 8192) (q : Fin 64) :
    (dat18 (F := Ideal) V c).arrAt 4 cfg18.N (ix2 p (⟨q.val, by have := q.isLt; omega⟩ : Fin 192))
      = max ((∑ k : Fin 8192, r18_adj V c (ix2 p k) * r18_scaled V c (ix2 k q)) + r18_bias V c (ix2 (0 : Fin 1) q))
          (Ideal.ofBits .f32 0x00000000#32) := by
  rw [r18_final]
  show r18_val V c p (⟨q.val, _⟩ : Fin 192) = _
  unfold r18_val
  rw [dif_pos (show (⟨q.val, _⟩ : Fin 192).val < 64 from q.isLt)]

/-- Columns [64, 192): the other feature group, rectified. -/
theorem r18_hi (c : Dev nD) (p : Fin 8192) (q : Fin 128) :
    (dat18 (F := Ideal) V c).arrAt 4 cfg18.N (ix2 p (⟨64 + q.val, by have := q.isLt; omega⟩ : Fin 192))
      = max (r18_resid V c (ix2 p q)) (Ideal.ofBits .f32 0x00000000#32) := by
  rw [r18_final]
  show r18_val V c p (⟨64 + q.val, _⟩ : Fin 192) = _
  unfold r18_val
  rw [dif_neg (show ¬ (⟨64 + q.val, _⟩ : Fin 192).val < 64 from by show ¬ 64 + q.val < 64; omega)]
  refine congrArg₂ max (congrArg _ (congrArg (ix2 p) (Fin.ext ?_))) rfl
  show 64 + q.val - 64 = q.val
  omega

end Cert.KernelIdeal.KV

end
-- ==== Proof.KV.L9.lean ====
/-
  Layer 9 of the first program (a plain middle layer, weight page 7): what its two
  pallas_calls leave in the output array, entry by entry, is the layer's specification applied to the entries of its input array.
-/
import proofs.«405499_j28269474742810_3_alg».proof.Proof.KV.R17
import proofs.«405499_j28269474742810_3_alg».proof.Proof.KV.R18
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L9_w (c : Dev nD) : V26 m ρ c main_arg5 = m ((c : Thread nD τ).loc main_arg5) := tr_main_arg5_0_26 m ρ c
theorem L9_b (c : Dev nD) : V26 m ρ c main_arg6 = m ((c : Thread nD τ).loc main_arg6) := tr_main_arg6_0_26 m ρ c

/-- The scaled column group of the layer's weights, at an entry. -/
theorem L9_ws (c : Dev nD) (l : Fin 192) (q : Fin 64) : V27 m ρ c main_v98 (ix2 l q) = (P m c).Wm 7 l ⟨q.val, by omega⟩ := by
  have e : V27 m ρ c main_v98 = extractStridedSlice S192x64 ![0, 0] (shapeCast S192x192 (extractStridedSlice S1x192x192 ![7, 0, 0] (V26 m ρ c main_arg5) slices_S12x192x192_S1x192x192_7_0_0) shapeCasts_S1x192x192_S192x192) slices_S192x192_S192x64_0_0 := by
    show StableHlo.after hostOps17 (W26 m ρ c) (Proc.devRef .tc main_v98) = _
    after_results <;> rfl
  rw [e, Cert.Slices.cols_apply _ 0 _ l q (by omega), Cert.Slices.page_apply _ 7 (by omega), L9_w]
  show _ = m ((c : Thread nD τ).loc main_arg5) (ix3 (7 : Fin 12) l ⟨q.val, by omega⟩)
  congr 2
  exact Fin.ext (Nat.zero_add _)

/-- The pass-through column group of the layer's weights, at an entry. -/
theorem L9_wr (c : Dev nD) (l : Fin 192) (q : Fin 128) : V27 m ρ c main_v99 (ix2 l q) = (P m c).Wm 7 l ⟨64 + q.val, by omega⟩ := by
  have e : V27 m ρ c main_v99 = extractStridedSlice S192x128 ![0, 64] (shapeCast S192x192 (extractStridedSlice S1x192x192 ![7, 0, 0] (V26 m ρ c main_arg5) slices_S12x192x192_S1x192x192_7_0_0) shapeCasts_S1x192x192_S192x192) slices_S192x192_S192x128_0_64 := by
    show StableHlo.after hostOps17 (W26 m ρ c) (Proc.devRef .tc main_v99) = _
    after_results <;> rfl
  rw [e, Cert.Slices.cols_apply _ 64 _ l q (by omega), Cert.Slices.page_apply _ 7 (by omega), L9_w]
  rfl

/-- The bias of the scaled columns, one row, at an entry. -/
theorem L9_bs (c : Dev nD) (q : Fin 64) : V27 m ρ c main_v101 (ix2 (0 : Fin 1) q) = (P m c).bm 7 ⟨q.val, by omega⟩ := by
  have e : V27 m ρ c main_v101 = shapeCast S1x64 (extractStridedSlice S64 ![0] (shapeCast S192 (extractStridedSlice S1x192 ![7, 0] (V26 m ρ c main_arg6) slices_S12x192_S1x192_7_0) shapeCasts_S1x192_S192) slices_S192_S64_0) shapeCasts_S64_S1x64 := by
    show StableHlo.after hostOps17 (W26 m ρ c) (Proc.devRef .tc main_v101) = _
    after_results <;> rfl
  rw [e, Cert.Slices.seg_row_apply _ 0 _ _ (0 : Fin 1) q (by omega), Cert.Slices.row_apply _ 7 (by omega), L9_b]
  show _ = m ((c : Thread nD τ).loc main_arg6) (ix2 (7 : Fin 12) ⟨q.val, by omega⟩)
  congr 2
  exact Fin.ext (Nat.zero_add _)

/-- The bias of the pass-through columns, one row, at an entry. -/
theorem L9_br (c : Dev nD) (q : Fin 128) : V27 m ρ c main_v103 (ix2 (0 : Fin 1) q) = (P m c).bm 7 ⟨64 + q.val, by omega⟩ := by
  have e : V27 m ρ c main_v103 = shapeCast S1x128 (extractStridedSlice S128 ![64] (shapeCast S192 (extractStridedSlice S1x192 ![7, 0] (V26 m ρ c main_arg6) slices_S12x192_S1x192_7_0) shapeCasts_S1x192_S192) slices_S192_S128_64) shapeCasts_S128_S1x128 := by
    show StableHlo.after hostOps17 (W26 m ρ c) (Proc.devRef .tc main_v103) = _
    after_results <;> rfl
  rw [e, Cert.Slices.seg_row_apply _ 64 _ _ (0 : Fin 1) q (by omega), Cert.Slices.row_apply _ 7 (by omega), L9_b]
  rfl

/-- THE LAYER: the output array after its second pallas_call, at (p, j), is the layer's specification of the input array's entries. -/
theorem L9_out (c : Dev nD) (x : Cert.Spec.Mx 8192 192) (hx : ∀ k l, V26 m ρ c main_v93 (ix2 k l) = x k l)
    (p : Fin 8192) (j : Fin 192) : V29 m ρ c main_v105 (ix2 p j) = Cert.Spec.plainK (P m c) 7 x p j := by
  unfold Cert.Spec.plainK Cert.Spec.relu
  refine Cert.Spec.layer_assemble (S := 64) (R := 128) (O := 192) rfl (P m c).A x ((P m c).Wm 7) ((P m c).bm 7)
    (fun k => V27 m ρ c main_v1_1 (ix2 k (0 : Fin 1))) (fun k => ?hinv)
    (fun k q => V28 m ρ c main_v104_0 (ix2 k q)) (fun k q => ?hsc)
    (fun p q => V28 m ρ c main_v104_1 (ix2 p q)) (fun p q => ?hrs)
    (fun _ _ y => max y Cert.Spec.zero) (fun p j => V29 m ρ c main_v105 (ix2 p j)) (fun p q => ?hlo) (fun p q => ?hhi) p j
  case hinv =>
    exact (congrFun (tr_main_v1_1_2_27 m ρ c) (ix2 k (0 : Fin 1))).trans (inv_W2 m ρ c k)
  case hsc =>
    refine (congrFun (W28_arr m ρ c 5) (ix2 k q)).trans ((r17_scaled (V27 m ρ) c k q).trans ?_)
    refine congrArg (· * _) (Finset.sum_congr rfl fun l _ => ?_)
    exact congrArg₂ (· * ·) ((congrFun (tr_main_v93_26_27 m ρ c) (ix2 k l)).trans (hx k l)) (L9_ws m ρ c l q)
  case hrs =>
    refine (congrFun (W28_arr m ρ c 6) (ix2 p q)).trans ((r17_resid (V27 m ρ) c p q).trans ?_)
    refine congrArg₂ (· + ·) (Finset.sum_congr rfl fun l _ => ?_) (L9_br m ρ c q)
    exact congrArg₂ (· * ·) ((congrFun (tr_main_v93_26_27 m ρ c) (ix2 p l)).trans (hx p l)) (L9_wr m ρ c l q)
  case hlo =>
    refine (congrFun (W29_arr m ρ c 4) (ix2 p _)).trans ((r18_lo (V28 m ρ) c p q).trans ?_)
    refine congrArg (fun y : EReal => max y _) ?_
    refine congrArg₂ (· + ·) (Finset.sum_congr rfl fun k _ => ?_)
      ((congrFun (tr_main_v101_27_28 m ρ c) (ix2 (0 : Fin 1) q)).trans (L9_bs m ρ c q))
    exact congrArg (· * _) ((congrFun (tr_main_v1_0_2_28 m ρ c) (ix2 p k)).trans (adjb_W2 m ρ c p k))
  case hhi =>
    exact (congrFun (W29_arr m ρ c 4) (ix2 p _)).trans (r18_hi (V28 m ρ) c p q)

end Cert.KernelIdeal.KV

end
-- ==== Proof.KV.R19.lean ====
/-
  Region 19 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg19
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz19 : (![0, 0] : Fin 2 → Nat) = fun _ => 0 := funext fun a => by fin_cases a <;> rfl

/-! ## The payloads at an index -/

/-- The generated dimension record of the [2048,192]·[192,64] product is the plain one. -/
theorem dot19_scaled_eq : dot_S2048x192_S192x64_S2048x64_1_0_0_1_n_n = DotDims.plain 2048 192 64 := rfl
/-- The generated dimension record of the [2048,192]·[192,128] product is the plain one. -/
theorem dot19_resid_eq : dot_S2048x192_S192x128_S2048x128_1_0_0_1_n_n = DotDims.plain 2048 192 128 := rfl

/-- The narrowed copy of the x block is the x block (a format change is the identity on extended reals). -/
theorem xcast19_eq (v0 : FVec Ideal S2048x192 .f32) : k19_pay1 (F := Ideal) v0 = v0 := by
  unfold k19_pay1
  exact shapeCast_self v0 _

/-- The scaled payload at (a, b): (∑ₗ x(a, l) · W₁(l, b)) · s(a, 0). -/
theorem scaled19_pay_apply (v0 : FVec Ideal S2048x192 .f32) (v3 : FVec Ideal S192x64 .f32) (v11 : FVec Ideal S2048x1 .f32)
    (a : Fin 2048) (b : Fin 64) :
    k19_pay3 (F := Ideal) v0 v3 v11 (ix2 a b) = (∑ l : Fin 192, v0 (ix2 a l) * v3 (ix2 l b)) * v11 (ix2 a (0 : Fin 1)) := by
  unfold k19_pay3
  simp only [xcast19_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot19_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid19_pay_apply (v0 : FVec Ideal S2048x192 .f32) (v6 : FVec Ideal S192x128 .f32) (v15 : FVec Ideal S1x128 .f32)
    (a : Fin 2048) (b : Fin 128) :
    k19_pay2 (F := Ideal) v0 v6 v15 (ix2 a b) = (∑ l : Fin 192, v0 (ix2 a l) * v6 (ix2 l b)) + v15 (ix2 (0 : Fin 1) b) := by
  unfold k19_pay2
  simp only [xcast19_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot19_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin19 (c : Dev nD) : FVec Ideal S8192x192 .f32 := V c (Pipeline.arrRef spec19 0)
/-- The weight's scaled column group W₁. -/
abbrev wsc19 (c : Dev nD) : FVec Ideal S192x64 .f32 := V c (Pipeline.arrRef spec19 1)
/-- The weight's residual column group W₂. -/
abbrev wre19 (c : Dev nD) : FVec Ideal S192x128 .f32 := V c (Pipeline.arrRef spec19 2)
/-- The bias row b. -/
abbrev bia19 (c : Dev nD) : FVec Ideal S1x128 .f32 := V c (Pipeline.arrRef spec19 3)
/-- The column s of inverse row sums. -/
abbrev inv19 (c : Dev nD) : FVec Ideal S8192x1 .f32 := V c (Pipeline.arrRef spec19 4)

/-- Entry (p, q) of the scaled output. -/
def scaledAt19 (c : Dev nD) (p : Fin 8192) (q : Fin 64) : EReal :=
  (∑ l : Fin 192, xin19 V c (ix2 p l) * wsc19 V c (ix2 l q)) * inv19 V c (ix2 p (0 : Fin 1))

/-- Entry (p, q) of the residual output. -/
def residAt19 (c : Dev nD) (p : Fin 8192) (q : Fin 128) : EReal :=
  (∑ l : Fin 192, xin19 V c (ix2 p l) * wre19 V c (ix2 l q)) + bia19 V c (ix2 (0 : Fin 1) q)

/-- What the scaled output ends holding. -/
abbrev G19_5 (c : Dev nD) : FVec Ideal S8192x64 .bf16 := fun i => scaledAt19 V c ⟨(i 0).val, idx2_lt0 i⟩ ⟨(i 1).val, idx2_lt1 i⟩
/-- What the residual output ends holding. -/
abbrev G19_6 (c : Dev nD) : FVec Ideal S8192x128 .f32 := fun i => residAt19 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts19 : ∀ t : Fin cfg19.N,
    win19_0.index t (0 : Fin 2) = win19_5.index t (0 : Fin 2) ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = win19_5.index t (0 : Fin 2) ∧ win19_4.index t (1 : Fin 2) = 0
    ∧ win19_5.index t (1 : Fin 2) = 0
    ∧ win19_6.index t (0 : Fin 2) = win19_5.index t (0 : Fin 2) ∧ win19_6.index t (1 : Fin 2) = 0
    ∧ win19_5.index t (0 : Fin 2) < 4 :=
  (by decide +kernel : ∀ t : Fin grid19.N, _)

/-- Every row block is some point's, for the scaled output … -/
theorem idx_onto19_5 : ∀ q0 : Fin 4, ∃ t : Fin cfg19.N, win19_5.index t = ![q0.val, 0] :=
  (by decide +kernel : ∀ q0 : Fin 4, ∃ t : Fin grid19.N, win19_5.index t = ![q0.val, 0])

/-- … and for the residual output. -/
theorem idx_onto19_6 : ∀ q0 : Fin 4, ∃ t : Fin cfg19.N, win19_6.index t = ![q0.val, 0] :=
  (by decide +kernel : ∀ q0 : Fin 4, ∃ t : Fin grid19.N, win19_6.index t = ![q0.val, 0])

/-! ## Output window 5: the scaled output -/

/-- WHAT POINT t WRITES BACK is block t of the scaled output's function of the arrays. -/
theorem flushed19_5_eq (c : Dev nD) (t : Fin cfg19.N) :
    (dat19 (F := Ideal) V c).flushed 5 t = ((cfg19.win 5).blk t).view.read (Elt Ideal) (G19_5 V c) := by
  show (cfg19.win 5).cut (grid19.coords t) ((dat19 (F := Ideal) V c).after 5 t) = _
  rw [after19_5]
  unfold out19_5
  rw [View.canon_unit_zero hz19]
  simp only [View.ld_unit_zero (S := S2048x192) hz19, View.ld_unit_zero (S := S192x64) hz19, View.ld_unit_zero (S := S2048x1) hz19]
  obtain ⟨e00, e01, e10, e11, e20, e21, e30, e31, e40, e41, e51, e60, e61, e5⟩ := idx_facts19 t
  funext j
  obtain ⟨a, b, rfl⟩ : ∃ (a : Fin 2048) (b : Fin 64), j = ix2 a b := ⟨j 0, j 1, eq_ix2 j⟩
  refine (scaled19_pay_apply (iblk19 V c 0 t) (iblk19 V c 1 t) (iblk19 V c 4 t) a b).trans ?_
  show (∑ l : Fin 192, xin19 V c (((cfg19.win 0).blk t).view.emb (ix2 a l)) * wsc19 V c (((cfg19.win 1).blk t).view.emb (ix2 l b)))
      * inv19 V c (((cfg19.win 4).blk t).view.emb (ix2 a (0 : Fin 1)))
    = scaledAt19 V c ⟨((((cfg19.win 5).blk t).view.emb (ix2 a b)) 0).val, _⟩ ⟨((((cfg19.win 5).blk t).view.emb (ix2 a b)) 1).val, _⟩
  unfold scaledAt19
  refine congr (congrArg _ (Finset.sum_congr rfl fun l _ => congr (congrArg _ (congrArg _ ?_)) (congrArg _ ?_))) (congrArg _ ?_)
  · funext d; apply Fin.ext
    match d with
    | ⟨0, _⟩ => show win19_0.index t (0 : Fin 2) * 2048 + 1 * a.val = win19_5.index t (0 : Fin 2) * 2048 + 1 * a.val; omega
    | ⟨1, _⟩ => show win19_0.index t (1 : Fin 2) * 192 + 1 * l.val = l.val; omega
  · funext d; apply Fin.ext
    match d with
    | ⟨0, _⟩ => show win19_1.index t (0 : Fin 2) * 192 + 1 * l.val = l.val; omega
    | ⟨1, _⟩ => show win19_1.index t (1 : Fin 2) * 64 + 1 * b.val = win19_5.index t (1 : Fin 2) * 64 + 1 * b.val; omega
  · funext d; apply Fin.ext
    match d with
    | ⟨0, _⟩ => show win19_4.index t (0 : Fin 2) * 2048 + 1 * a.val = win19_5.index t (0 : Fin 2) * 2048 + 1 * a.val; omega
    | ⟨1, _⟩ => show win19_4.index t (1 : Fin 2) * 1 + 1 * 0 = 0; omega

/-- An index of the scaled output is in point t's block iff each coordinate is in the block's range on its axis. -/
theorem mem_blk19_5 (t : Fin cfg19.N) (i : S8192x64.Idx) :
    i ∈ ((cfg19.win 5).blk t).view.set ↔ ∀ a : Fin 2, win19_5.index t a * S2048x64.size a ≤ (i a).val ∧ (i a).val < win19_5.index t a * S2048x64.size a + S2048x64.size a := by
  show i ∈ ((View.whole (Pipeline.arrRef spec19 5)).slice (win19_5.rect t)).set ↔ _
  rw [View.set_slice_whole, Rect.mem_set_unit]
  exact Iff.rfl

/-- Every index is in the block of the point of its row block, row / 2048. -/
theorem covered19_5 (i : S8192x64.Idx) :
    ∃ t : Fin cfg19.N, (cfg19.win 5).flush t = true ∧ i ∈ ((cfg19.win 5).blk t).view.set := by
  have hi0 : (i 0).val < 8192 := (i 0).isLt
  have hi1 : (i 1).val < 64 := (i 1).isLt
  obtain ⟨t, ht⟩ := idx_onto19_5 ⟨(i 0).val / 2048, by omega⟩
  have q0 : win19_5.index t (0 : Fin 2) = (i 0).val / 2048 := congrFun ht 0
  have q1 : win19_5.index t (1 : Fin 2) = 0 := congrFun ht 1
  refine ⟨t, flush19_5 t, ?_⟩
  rw [mem_blk19_5]
  intro a
  match a with
  | ⟨0, _⟩ => show win19_5.index t (0 : Fin 2) * 2048 ≤ (i 0).val ∧ (i 0).val < win19_5.index t (0 : Fin 2) * 2048 + 2048; omega
  | ⟨1, _⟩ => show win19_5.index t (1 : Fin 2) * 64 ≤ (i 1).val ∧ (i 1).val < win19_5.index t (1 : Fin 2) * 64 + 64; omega

/-- THE SCALED OUTPUT after the region. -/
theorem arr19_5 (c : Dev nD) : (dat19 (F := Ideal) V c).arrAt 5 cfg19.N = G19_5 V c :=
  (dat19 (F := Ideal) V c).arrAt_eq_of_cover 5 (G19_5 V c) (fun t _ => flushed19_5_eq V c t) covered19_5

theorem r19_scaled (c : Dev nD) (p : Fin 8192) (q : Fin 64) :
    (dat19 (F := Ideal) V c).arrAt 5 cfg19.N (ix2 p q)
      = (∑ l : Fin 192, xin19 V c (ix2 p l) * wsc19 V c (ix2 l q)) * inv19 V c (ix2 p (0 : Fin 1)) :=
  congrFun (arr19_5 V c) (ix2 p q)

/-! ## Output window 6: the residual output -/

/-- WHAT POINT t WRITES BACK is block t of the residual output's function of the arrays. -/
theorem flushed19_6_eq (c : Dev nD) (t : Fin cfg19.N) :
    (dat19 (F := Ideal) V c).flushed 6 t = ((cfg19.win 6).blk t).view.read (Elt Ideal) (G19_6 V c) := by
  show (cfg19.win 6).cut (grid19.coords t) ((dat19 (F := Ideal) V c).after 6 t) = _
  rw [after19_6]
  unfold out19_6
  rw [View.canon_unit_zero hz19]
  simp only [View.ld_unit_zero (S := S2048x192) hz19, View.ld_unit_zero (S := S192x128) hz19, View.ld_unit_zero (S := S1x128) hz19]
  obtain ⟨e00, e01, e10, e11, e20, e21, e30, e31, e40, e41, e51, e60, e61, e5⟩ := idx_facts19 t
  funext j
  obtain ⟨a, b, rfl⟩ : ∃ (a : Fin 2048) (b : Fin 128), j = ix2 a b := ⟨j 0, j 1, eq_ix2 j⟩
  refine (resid19_pay_apply (iblk19 V c 0 t) (iblk19 V c 2 t) (iblk19 V c 3 t) a b).trans ?_
  show (∑ l : Fin 192, xin19 V c (((cfg19.win 0).blk t).view.emb (ix2 a l)) * wre19 V c (((cfg19.win 2).blk t).view.emb (ix2 l b)))
      + bia19 V c (((cfg19.win 3).blk t).view.emb (ix2 (0 : Fin 1) b))
    = residAt19 V c ⟨((((cfg19.win 6).blk t).view.emb (ix2 a b)) 0).val, _⟩ ⟨((((cfg19.win 6).blk t).view.emb (ix2 a b)) 1).val, _⟩
  unfold residAt19
  refine congr (congrArg _ (Finset.sum_congr rfl fun l _ => congr (congrArg _ (congrArg _ ?_)) (congrArg _ ?_))) (congrArg _ ?_)
  · funext d; apply Fin.ext
    match d with
    | ⟨0, _⟩ => show win19_0.index t (0 : Fin 2) * 2048 + 1 * a.val = win19_6.index t (0 : Fin 2) * 2048 + 1 * a.val; omega
    | ⟨1, _⟩ => show win19_0.index t (1 : Fin 2) * 192 + 1 * l.val = l.val; omega
  · funext d; apply Fin.ext
    match d with
    | ⟨0, _⟩ => show win19_2.index t (0 : Fin 2) * 192 + 1 * l.val = l.val; omega
    | ⟨1, _⟩ => show win19_2.index t (1 : Fin 2) * 128 + 1 * b.val = win19_6.index t (1 : Fin 2) * 128 + 1 * b.val; omega
  · funext d; apply Fin.ext
    match d with
    | ⟨0, _⟩ => show win19_3.index t (0 : Fin 2) * 1 + 1 * 0 = 0; omega
    | ⟨1, _⟩ => show win19_3.index t (1 : Fin 2) * 128 + 1 * b.val = win19_6.index t (1 : Fin 2) * 128 + 1 * b.val; omega

/-- An index of the residual output is in point t's block iff each coordinate is in the block's range on its axis. -/
theorem mem_blk19_6 (t : Fin cfg19.N) (i : S8192x128.Idx) :
    i ∈ ((cfg19.win 6).blk t).view.set ↔ ∀ a : Fin 2, win19_6.index t a * S2048x128.size a ≤ (i a).val ∧ (i a).val < win19_6.index t a * S2048x128.size a + S2048x128.size a := by
  show i ∈ ((View.whole (Pipeline.arrRef spec19 6)).slice (win19_6.rect t)).set ↔ _
  rw [View.set_slice_whole, Rect.mem_set_unit]
  exact Iff.rfl

/-- Every index is in the block of the point of its row block, row / 2048. -/
theorem covered19_6 (i : S8192x128.Idx) :
    ∃ t : Fin cfg19.N, (cfg19.win 6).flush t = true ∧ i ∈ ((cfg19.win 6).blk t).view.set := by
  have hi0 : (i 0).val < 8192 := (i 0).isLt
  have hi1 : (i 1).val < 128 := (i 1).isLt
  obtain ⟨t, ht⟩ := idx_onto19_6 ⟨(i 0).val / 2048, by omega⟩
  have q0 : win19_6.index t (0 : Fin 2) = (i 0).val / 2048 := congrFun ht 0
  have q1 : win19_6.index t (1 : Fin 2) = 0 := congrFun ht 1
  refine ⟨t, flush19_6 t, ?_⟩
  rw [mem_blk19_6]
  intro a
  match a with
  | ⟨0, _⟩ => show win19_6.index t (0 : Fin 2) * 2048 ≤ (i 0).val ∧ (i 0).val < win19_6.index t (0 : Fin 2) * 2048 + 2048; omega
  | ⟨1, _⟩ => show win19_6.index t (1 : Fin 2) * 128 ≤ (i 1).val ∧ (i 1).val < win19_6.index t (1 : Fin 2) * 128 + 128; omega

/-- THE RESIDUAL OUTPUT after the region. -/
theorem arr19_6 (c : Dev nD) : (dat19 (F := Ideal) V c).arrAt 6 cfg19.N = G19_6 V c :=
  (dat19 (F := Ideal) V c).arrAt_eq_of_cover 6 (G19_6 V c) (fun t _ => flushed19_6_eq V c t) covered19_6

theorem r19_resid (c : Dev nD) (p : Fin 8192) (q : Fin 128) :
    (dat19 (F := Ideal) V c).arrAt 6 cfg19.N (ix2 p q)
      = (∑ l : Fin 192, xin19 V c (ix2 p l) * wre19 V c (ix2 l q)) + bia19 V c (ix2 (0 : Fin 1) q) :=
  congrFun (arr19_6 V c) (ix2 p q)

end Cert.KernelIdeal.KV

end
-- ==== Proof.KV.R20.lean ====
/-
  Region 20, an aggregation layer with rectifier and the residual average: what its output array holds after the region,
  entry by entry, as a function of the arrays the region finds.

  The body writes its output block [1024, 192] by two column slices: columns [0, 64) hold
  (H + max(A·S + b, 0))·½ and columns [64, 192) hold (H + max(R, 0))·½, where A is the row block of the adjacency, S the
  scaled features, b the bias row broadcast over the rows, R the row block of the other feature group, and H the same
  columns of the row block of the previous layer's features. The two slices are disjoint and cover the block, so each
  entry of the block is the payload of the slice that holds it. Row block t of the output array is written by grid
  point t (8 points of 1024 rows), and the points' blocks cover the array.
-/
import proofs.«405499_j28269474742810_3_alg».proof.Proof.Fr.KernelIdeal.Reg20
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r20_hz : (![0, 0] : Fin 2 → Nat) = fun _ => 0 := funext fun a => match a with | ⟨0, _⟩ => rfl | ⟨1, _⟩ => rfl

/-- The product's dimension numbers are those of a plain M×K by K×N product. -/
theorem r20_dot_plain : dot_S1024x8192_S8192x64_S1024x64_1_0_0_1_n_n = DotDims.plain 1024 8192 64 := rfl

/-- Columns [0, 64) at entry (a, b): the previous features' entry plus the rectified (product's entry plus the bias of
    column b), halved. -/
theorem r20_pay1_apply (x0 : Vec Ideal S1024x8192 .bf16) (x1 : Vec Ideal S8192x64 .bf16) (x3 : Vec Ideal S1x64 .f32)
    (u : Vec Ideal S1024x64 .f32) (a : Fin 1024) (b : Fin 64) :
    k20_pay1 (F := Ideal) x0 x1 x3 u (ix2 a b)
      = (u (ix2 a b) + max ((∑ k : Fin 8192, x0 (ix2 a k) * x1 (ix2 k b)) + x3 (ix2 (0 : Fin 1) b)) (Ideal.ofBits .f32 0x00000000#32))
          * Ideal.ofBits .f32 0x3F000000#32 := by
  unfold k20_pay1
  simp only [shapeCast_self]
  show (u (ix2 a b) + max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32)) * Ideal.ofBits .f32 0x3F000000#32 = _
  rw [r20_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the previous features' entry plus the other feature group's rectified entry, halved. -/
theorem r20_pay2_apply (x2 : Vec Ideal S1024x128 .f32) (u : Vec Ideal S1024x128 .f32) (a : Fin 1024) (b : Fin 128) :
    k20_pay2 (F := Ideal) x2 u (ix2 a b)
      = (u (ix2 a b) + max (x2 (ix2 a b)) (Ideal.ofBits .f32 0x00000000#32)) * Ideal.ofBits .f32 0x3F000000#32 := by
  unfold k20_pay2
  simp only [shapeCast_self]
  rfl

/-! ## What the body leaves in the output block: each entry is the payload of the slice that holds it -/

/-- An entry in columns [0, 64): off the later slice, under the earlier one. -/
theorem r20_out_lo (c : Dev nD) (i : grid20.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 64) (hy0 : (y 0).val = a.val) (hy1 : (y 1).val = b.val) :
    out20_A_5 (F := Ideal) c i a1 h1 a2 h2 a3 h3 a4 h4 a5 h5 a6 h6 x0 x1 x2 x3 x4 y
      = k20_pay1 (F := Ideal) x0 x1 x3
          (View.ld x4 (Rect.unit (s := S1024x192) ![0, 0] S1024x64.size inb_S1024x192_S1024x64_0_0)) (ix2 a b) := by
  unfold out20_A_5
  rw [View.read_writes_eq_canon _ _ _ (cover20_A_5 c i a1 h1 a2 h2 a3 h3 a4 h4 a5 h5 a6 h6 x0 x1 x2 x3 x4)]
  unfold kernelRun20_A
  dsimp only
  sl_unfold_words
  simp only [View.readAt_eq_ld, h1.read_unread, h2.read_unread, h3.read_unread, h4.read_unread, h5.read_unread,
    View.ld_unit_zero (S := S1024x8192) r20_hz, View.ld_unit_zero (S := S8192x64) r20_hz,
    View.ld_unit_zero (S := S1024x128) r20_hz, View.ld_unit_zero (S := S1x64) r20_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r20_out_hi (c : Dev nD) (i : grid20.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 128) (hy0 : (y 0).val = a.val) (hy1 : (y 1).val = 64 + b.val) :
    out20_A_5 (F := Ideal) c i a1 h1 a2 h2 a3 h3 a4 h4 a5 h5 a6 h6 x0 x1 x2 x3 x4 y
      = k20_pay2 (F := Ideal) x2
          (View.ld x4 (Rect.unit (s := S1024x192) ![0, 64] S1024x128.size inb_S1024x192_S1024x128_0_64)) (ix2 a b) := by
  unfold out20_A_5
  rw [View.read_writes_eq_canon _ _ _ (cover20_A_5 c i a1 h1 a2 h2 a3 h3 a4 h4 a5 h5 a6 h6 x0 x1 x2 x3 x4)]
  unfold kernelRun20_A
  dsimp only
  sl_unfold_words
  simp only [View.readAt_eq_ld, h1.read_unread, h2.read_unread, h3.read_unread, h4.read_unread, h5.read_unread,
    View.ld_unit_zero (S := S1024x8192) r20_hz, View.ld_unit_zero (S := S8192x64) r20_hz,
    View.ld_unit_zero (S := S1024x128) r20_hz, View.ld_unit_zero (S := S1x64) r20_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group, the bias row and the previous layer's
    features, as the region finds them. -/
abbrev r20_adj (c : Dev nD) : Vec Ideal S8192x8192 .bf16 := V c (Pipeline.arrRef spec20 0)
abbrev r20_scaled (c : Dev nD) : Vec Ideal S8192x64 .bf16 := V c (Pipeline.arrRef spec20 1)
abbrev r20_resid (c : Dev nD) : Vec Ideal S8192x128 .f32 := V c (Pipeline.arrRef spec20 2)
abbrev r20_bias (c : Dev nD) : Vec Ideal S1x64 .f32 := V c (Pipeline.arrRef spec20 3)
abbrev r20_prev (c : Dev nD) : Vec Ideal S8192x192 .f32 := V c (Pipeline.arrRef spec20 4)

/-- The windows' blocks at a point, at their literal types. -/
abbrev r20_b0 (c : Dev nD) (t : Fin cfg20.N) : Vec Ideal S1024x8192 .bf16 := iblk20 (F := Ideal) V c 0 t
abbrev r20_b1 (c : Dev nD) (t : Fin cfg20.N) : Vec Ideal S8192x64 .bf16 := iblk20 (F := Ideal) V c 1 t
abbrev r20_b2 (c : Dev nD) (t : Fin cfg20.N) : Vec Ideal S1024x128 .f32 := iblk20 (F := Ideal) V c 2 t
abbrev r20_b3 (c : Dev nD) (t : Fin cfg20.N) : Vec Ideal S1x64 .f32 := iblk20 (F := Ideal) V c 3 t
abbrev r20_b4 (c : Dev nD) (t : Fin cfg20.N) : Vec Ideal S1024x192 .f32 := iblk20 (F := Ideal) V c 4 t

/-- Entry (p, q) of the array the region leaves. -/
def r20_val (c : Dev nD) (p : Fin 8192) (q : Fin 192) : EReal :=
  if h : q.val < 64 then
    (r20_prev V c (ix2 p q)
      + max ((∑ k : Fin 8192, r20_adj V c (ix2 p k) * r20_scaled V c (ix2 k (⟨q.val, h⟩ : Fin 64)))
          + r20_bias V c (ix2 (0 : Fin 1) (⟨q.val, h⟩ : Fin 64))) (Ideal.ofBits .f32 0x00000000#32))
      * Ideal.ofBits .f32 0x3F000000#32
  else
    (r20_prev V c (ix2 p q)
      + max (r20_resid V c (ix2 p (⟨q.val - 64, by have := q.isLt; omega⟩ : Fin 128))) (Ideal.ofBits .f32 0x00000000#32))
      * Ideal.ofBits .f32 0x3F000000#32

/-- The array the region leaves. -/
def r20_G (c : Dev nD) : Vec Ideal S8192x192 .f32 := fun i => r20_val V c (i 0) (i 1)

/-- The printed index maps, decided over the grid: the row-blocked windows are at block row t, column block 0; the whole
    windows at block (0, 0). -/
theorem r20_idx_facts : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0
    ∧ win20_3.index t (0 : Fin 2) = 0 ∧ win20_3.index t (1 : Fin 2) = 0
    ∧ win20_4.index t (0 : Fin 2) = t.val ∧ win20_4.index t (1 : Fin 2) = 0
    ∧ win20_5.index t (0 : Fin 2) = t.val ∧ win20_5.index t (1 : Fin 2) = 0 :=
  (by decide +kernel : ∀ t : Fin grid20.N, _)

/-- Row block t of the adjacency: entry (a, k) of the block is entry (1024 t + a, k) of the array. -/
theorem r20_b0_apply (c : Dev nD) (t : Fin cfg20.N) (a : Fin 1024) (k : Fin 8192) (p : Fin 8192)
    (hp : p.val = t.val * 1024 + a.val) : r20_b0 V c t (ix2 a k) = r20_adj V c (ix2 p k) := by
  obtain ⟨e00, e01, -⟩ := r20_idx_facts t
  show V c (Pipeline.arrRef spec20 0) (((cfg20.win 0).blk t).view.emb (ix2 a k)) = V c (Pipeline.arrRef spec20 0) (ix2 p k)
  refine congrArg _ (funext fun d => Fin.ext ?_)
  match d with
  | ⟨0, _⟩ => show win20_0.index t (0 : Fin 2) * 1024 + 1 * a.val = p.val; omega
  | ⟨1, _⟩ => show win20_0.index t (1 : Fin 2) * 8192 + 1 * k.val = k.val; omega

/-- The scaled features' one block is the array. -/
theorem r20_b1_apply (c : Dev nD) (t : Fin cfg20.N) (k : Fin 8192) (b : Fin 64) :
    r20_b1 V c t (ix2 k b) = r20_scaled V c (ix2 k b) := by
  obtain ⟨-, -, e10, e11, -⟩ := r20_idx_facts t
  show V c (Pipeline.arrRef spec20 1) (((cfg20.win 1).blk t).view.emb (ix2 k b)) = V c (Pipeline.arrRef spec20 1) (ix2 k b)
  refine congrArg _ (funext fun d => Fin.ext ?_)
  match d with
  | ⟨0, _⟩ => show win20_1.index t (0 : Fin 2) * 8192 + 1 * k.val = k.val; omega
  | ⟨1, _⟩ => show win20_1.index t (1 : Fin 2) * 64 + 1 * b.val = b.val; omega

/-- Row block t of the other feature group. -/
theorem r20_b2_apply (c : Dev nD) (t : Fin cfg20.N) (a : Fin 1024) (b : Fin 128) (p : Fin 8192)
    (hp : p.val = t.val * 1024 + a.val) : r20_b2 V c t (ix2 a b) = r20_resid V c (ix2 p b) := by
  obtain ⟨-, -, -, -, e20, e21, -⟩ := r20_idx_facts t
  show V c (Pipeline.arrRef spec20 2) (((cfg20.win 2).blk t).view.emb (ix2 a b)) = V c (Pipeline.arrRef spec20 2) (ix2 p b)
  refine congrArg _ (funext fun d => Fin.ext ?_)
  match d with
  | ⟨0, _⟩ => show win20_2.index t (0 : Fin 2) * 1024 + 1 * a.val = p.val; omega
  | ⟨1, _⟩ => show win20_2.index t (1 : Fin 2) * 128 + 1 * b.val = b.val; omega

/-- The bias row's one block is the array. -/
theorem r20_b3_apply (c : Dev nD) (t : Fin cfg20.N) (b : Fin 64) :
    r20_b3 V c t (ix2 (0 : Fin 1) b) = r20_bias V c (ix2 (0 : Fin 1) b) := by
  obtain ⟨-, -, -, -, -, -, e30, e31, -⟩ := r20_idx_facts t
  show V c (Pipeline.arrRef spec20 3) (((cfg20.win 3).blk t).view.emb (ix2 (0 : Fin 1) b)) = V c (Pipeline.arrRef spec20 3) (ix2 (0 : Fin 1) b)
  refine congrArg _ (funext fun d => Fin.ext ?_)
  match d with
  | ⟨0, _⟩ => show win20_3.index t (0 : Fin 2) * 1 + 1 * 0 = 0; omega
  | ⟨1, _⟩ => show win20_3.index t (1 : Fin 2) * 64 + 1 * b.val = b.val; omega

/-- Row block t of the previous layer's features: entry y of the block is entry (1024 t + y₀, y₁) of the array. -/
theorem r20_b4_apply (c : Dev nD) (t : Fin cfg20.N) (y : S1024x192.Idx) (p : Fin 8192) (q : Fin 192)
    (hp : p.val = t.val * 1024 + (y 0).val) (hq : q.val = (y 1).val) : r20_b4 V c t y = r20_prev V c (ix2 p q) := by
  obtain ⟨-, -, -, -, -, -, -, -, e40, e41, -⟩ := r20_idx_facts t
  show V c (Pipeline.arrRef spec20 4) (((cfg20.win 4).blk t).view.emb y) = V c (Pipeline.arrRef spec20 4) (ix2 p q)
  refine congrArg _ (funext fun d => Fin.ext ?_)
  match d with
  | ⟨0, _⟩ => show win20_4.index t (0 : Fin 2) * 1024 + 1 * (y 0).val = p.val; omega
  | ⟨1, _⟩ => show win20_4.index t (1 : Fin 2) * 192 + 1 * (y 1).val = q.val; omega

/-- WHAT POINT t WRITES BACK is block t of the array the region leaves. -/
theorem r20_flushed_eq (c : Dev nD) (t : Fin cfg20.N) :
    (dat20 (F := Ideal) V c).flushed 5 t = ((cfg20.win 5).blk t).view.read (Elt Ideal) (r20_G V c) := by
  show (cfg20.win 5).cut (grid20.coords t) ((dat20 (F := Ideal) V c).after 5 t) = _
  rw [after20_5]
  obtain ⟨-, -, -, -, -, -, -, -, -, -, e50, e51⟩ := r20_idx_facts t
  funext j
  have hj0 : (j 0).val < 1024 := (j 0).isLt
  have hj1 : (j 1).val < 192 := (j 1).isLt
  have ht : t.val < 8 := lt_of_lt_of_eq t.isLt N_20
  have hp : t.val * 1024 + (j 0).val < 8192 := by omega
  have hemb : ((cfg20.win 5).blk t).view.emb j
      = ix2 (⟨t.val * 1024 + (j 0).val, hp⟩ : Fin 8192) (⟨(j 1).val, hj1⟩ : Fin 192) := by
    funext d; apply Fin.ext
    match d with
    | ⟨0, _⟩ => show win20_5.index t (0 : Fin 2) * 1024 + 1 * (j 0).val = t.val * 1024 + (j 0).val; omega
    | ⟨1, _⟩ => show win20_5.index t (1 : Fin 2) * 192 + 1 * (j 1).val = (j 1).val; omega
  show outsAt20 (F := Ideal) V c t ((cfg20.win 5).xinj (grid20.coords t) j) = r20_G V c (((cfg20.win 5).blk t).view.emb j)
  rw [hemb]
  show _ = r20_val V c (⟨t.val * 1024 + (j 0).val, hp⟩ : Fin 8192) (⟨(j 1).val, hj1⟩ : Fin 192)
  unfold outsAt20 r20_val
  by_cases h : (j 1).val < 64
  · rw [dif_pos h]
    refine (r20_out_lo c (grid20.coords t) (ms20_0 t) (hs20_0 t) (ms20_1 t) (hs20_1 t) (ms20_2 t) (hs20_2 t) (ms20_3 t) (hs20_3 t)
      (ms20_4 t) (hs20_4 t) (ms20_5 t) (hs20_5 t) (r20_b0 V c t) (r20_b1 V c t) (r20_b2 V c t) (r20_b3 V c t) (r20_b4 V c t)
      ((cfg20.win 5).xinj (grid20.coords t) j) (⟨(j 0).val, hj0⟩ : Fin 1024) (⟨(j 1).val, h⟩ : Fin 64) rfl rfl).trans ?_
    refine (r20_pay1_apply (r20_b0 V c t) (r20_b1 V c t) (r20_b3 V c t)
      (View.ld (r20_b4 V c t) (Rect.unit (s := S1024x192) ![0, 0] S1024x64.size inb_S1024x192_S1024x64_0_0))
      (⟨(j 0).val, hj0⟩ : Fin 1024) (⟨(j 1).val, h⟩ : Fin 64)).trans ?_
    refine congrArg₂ (· * ·) (congrArg₂ (· + ·)
      (r20_b4_apply V c t
        ((Rect.unit (s := S1024x192) ![0, 0] S1024x64.size inb_S1024x192_S1024x64_0_0).idx
          (ix2 (⟨(j 0).val, hj0⟩ : Fin 1024) (⟨(j 1).val, h⟩ : Fin 64)))
        (⟨t.val * 1024 + (j 0).val, hp⟩ : Fin 8192) (⟨(j 1).val, hj1⟩ : Fin 192)
        (by show t.val * 1024 + (j 0).val = t.val * 1024 + (0 + 1 * (j 0).val); omega)
        (by show (j 1).val = 0 + 1 * (j 1).val; omega))
      (congrArg₂ max (congrArg₂ (· + ·) (Finset.sum_congr rfl fun k _ =>
        congrArg₂ (· * ·) (r20_b0_apply V c t (⟨(j 0).val, hj0⟩ : Fin 1024) k (⟨t.val * 1024 + (j 0).val, hp⟩ : Fin 8192) rfl)
          (r20_b1_apply V c t k (⟨(j 1).val, h⟩ : Fin 64))) (r20_b3_apply V c t (⟨(j 1).val, h⟩ : Fin 64))) rfl)) rfl
  · rw [dif_neg h]
    have h128 : (j 1).val - 64 < 128 := by omega
    refine (r20_out_hi c (grid20.coords t) (ms20_0 t) (hs20_0 t) (ms20_1 t) (hs20_1 t) (ms20_2 t) (hs20_2 t) (ms20_3 t) (hs20_3 t)
      (ms20_4 t) (hs20_4 t) (ms20_5 t) (hs20_5 t) (r20_b0 V c t) (r20_b1 V c t) (r20_b2 V c t) (r20_b3 V c t) (r20_b4 V c t)
      ((cfg20.win 5).xinj (grid20.coords t) j) (⟨(j 0).val, hj0⟩ : Fin 1024) (⟨(j 1).val - 64, h128⟩ : Fin 128) rfl
      (by show (j 1).val = 64 + ((j 1).val - 64); omega)).trans ?_
    refine (r20_pay2_apply (r20_b2 V c t)
      (View.ld (r20_b4 V c t) (Rect.unit (s := S1024x192) ![0, 64] S1024x128.size inb_S1024x192_S1024x128_0_64))
      (⟨(j 0).val, hj0⟩ : Fin 1024) (⟨(j 1).val - 64, h128⟩ : Fin 128)).trans ?_
    exact congrArg₂ (· * ·) (congrArg₂ (· + ·)
      (r20_b4_apply V c t
        ((Rect.unit (s := S1024x192) ![0, 64] S1024x128.size inb_S1024x192_S1024x128_0_64).idx
          (ix2 (⟨(j 0).val, hj0⟩ : Fin 1024) (⟨(j 1).val - 64, h128⟩ : Fin 128)))
        (⟨t.val * 1024 + (j 0).val, hp⟩ : Fin 8192) (⟨(j 1).val, hj1⟩ : Fin 192)
        (by show t.val * 1024 + (j 0).val = t.val * 1024 + (0 + 1 * (j 0).val); omega)
        (by show (j 1).val = 64 + 1 * ((j 1).val - 64); omega))
      (congrArg₂ max (r20_b2_apply V c t (⟨(j 0).val, hj0⟩ : Fin 1024) (⟨(j 1).val - 64, h128⟩ : Fin 128)
        (⟨t.val * 1024 + (j 0).val, hp⟩ : Fin 8192) rfl) rfl)) rfl

/-! ## The points' blocks cover the array -/

/-- An index of the array is in point t's block iff each coordinate is in the block's range on its axis. -/
theorem r20_mem_blk (t : Fin cfg20.N) (i : S8192x192.Idx) :
    i ∈ ((cfg20.win 5).blk t).view.set ↔ ∀ a : Fin 2, win20_5.index t a * S1024x192.size a ≤ (i a).val
      ∧ (i a).val < win20_5.index t a * S1024x192.size a + S1024x192.size a := by
  show i ∈ ((View.whole (Pipeline.arrRef spec20 5)).slice (win20_5.rect t)).set ↔ _
  rw [View.set_slice_whole, Rect.mem_set_unit]
  exact Iff.rfl

/-- Row r of the array is in the block of point r / 1024. -/
theorem r20_cover (i : S8192x192.Idx) :
    ∃ t : Fin cfg20.N, (cfg20.win 5).flush t = true ∧ i ∈ ((cfg20.win 5).blk t).view.set := by
  have hi0 : (i 0).val < 8192 := (i 0).isLt
  have hi1 : (i 1).val < 192 := (i 1).isLt
  have hlt : (i 0).val / 1024 < cfg20.N := lt_of_lt_of_eq (by omega : (i 0).val / 1024 < 8) N_20.symm
  obtain ⟨-, -, -, -, -, -, -, -, -, -, e50, e51⟩ := r20_idx_facts ⟨(i 0).val / 1024, hlt⟩
  refine ⟨⟨(i 0).val / 1024, hlt⟩, flush20_5 _, ?_⟩
  rw [r20_mem_blk]
  intro a
  match a with
  | ⟨0, _⟩ =>
    show win20_5.index ⟨(i 0).val / 1024, hlt⟩ (0 : Fin 2) * 1024 ≤ (i 0).val
      ∧ (i 0).val < win20_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win20_5.index ⟨(i 0).val / 1024, hlt⟩ (1 : Fin 2) * 192 ≤ (i 1).val
      ∧ (i 1).val < win20_5.index ⟨(i 0).val / 1024, hlt⟩ (1 : Fin 2) * 192 + 192
    rw [e51]; omega

/-! ## The output array after the region -/

/-- The output array ends holding the array of the entries above. -/
theorem r20_final (c : Dev nD) : (dat20 (F := Ideal) V c).arrAt 5 cfg20.N = r20_G V c :=
  (dat20 (F := Ideal) V c).arrAt_eq_of_cover 5 (r20_G V c) (fun t _ => r20_flushed_eq V c t) r20_cover

/-- Columns [0, 64): the average of the previous features and the aggregated, biased, rectified features. -/
theorem r20_lo (c : Dev nD) (p : Fin 8192) (q : Fin 64) :
    (dat20 (F := Ideal) V c).arrAt 5 cfg20.N (ix2 p (⟨q.val, by have := q.isLt; omega⟩ : Fin 192))
      = (r20_prev V c (ix2 p (⟨q.val, by have := q.isLt; omega⟩ : Fin 192))
          + max ((∑ k : Fin 8192, r20_adj V c (ix2 p k) * r20_scaled V c (ix2 k q)) + r20_bias V c (ix2 (0 : Fin 1) q))
              (Ideal.ofBits .f32 0x00000000#32)) * Ideal.ofBits .f32 0x3F000000#32 := by
  rw [r20_final]
  show r20_val V c p (⟨q.val, _⟩ : Fin 192) = _
  unfold r20_val
  rw [dif_pos (show (⟨q.val, _⟩ : Fin 192).val < 64 from q.isLt)]

/-- Columns [64, 192): the average of the previous features and the other feature group rectified. -/
theorem r20_hi (c : Dev nD) (p : Fin 8192) (q : Fin 128) :
    (dat20 (F := Ideal) V c).arrAt 5 cfg20.N (ix2 p (⟨64 + q.val, by have := q.isLt; omega⟩ : Fin 192))
      = (r20_prev V c (ix2 p (⟨64 + q.val, by have := q.isLt; omega⟩ : Fin 192))
          + max (r20_resid V c (ix2 p q)) (Ideal.ofBits .f32 0x00000000#32)) * Ideal.ofBits .f32 0x3F000000#32 := by
  rw [r20_final]
  show r20_val V c p (⟨64 + q.val, _⟩ : Fin 192) = _
  unfold r20_val
  rw [dif_neg (show ¬ (⟨64 + q.val, _⟩ : Fin 192).val < 64 from by show ¬ 64 + q.val < 64; omega)]
  refine congrArg₂ (· * ·) (congrArg₂ (· + ·) rfl (congrArg₂ max (congrArg _ (congrArg (ix2 p) (Fin.ext ?_))) rfl)) rfl
  show 64 + q.val - 64 = q.val
  omega

end Cert.KernelIdeal.KV

end
-- ==== Proof.KV.L10.lean ====
/-
  Layer 10 of the first program (a middle layer with the residual-and-halve step, weight page 8): what its two
  pallas_calls leave in the output array, entry by entry, is the layer's specification applied to the entries of its input array.
-/
import proofs.«405499_j28269474742810_3_alg».proof.Proof.KV.R19
import proofs.«405499_j28269474742810_3_alg».proof.Proof.KV.R20
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L10_w (c : Dev nD) : V29 m ρ c main_arg5 = m ((c : Thread nD τ).loc main_arg5) := tr_main_arg5_0_29 m ρ c
theorem L10_b (c : Dev nD) : V29 m ρ c main_arg6 = m ((c : Thread nD τ).loc main_arg6) := tr_main_arg6_0_29 m ρ c

/-- The scaled column group of the layer's weights, at an entry. -/
theorem L10_ws (c : Dev nD) (l : Fin 192) (q : Fin 64) : V30 m ρ c main_v110 (ix2 l q) = (P m c).Wm 8 l ⟨q.val, by omega⟩ := by
  have e : V30 m ρ c main_v110 = extractStridedSlice S192x64 ![0, 0] (shapeCast S192x192 (extractStridedSlice S1x192x192 ![8, 0, 0] (V29 m ρ c main_arg5) slices_S12x192x192_S1x192x192_8_0_0) shapeCasts_S1x192x192_S192x192) slices_S192x192_S192x64_0_0 := by
    show StableHlo.after hostOps19 (W29 m ρ c) (Proc.devRef .tc main_v110) = _
    after_results <;> rfl
  rw [e, Cert.Slices.cols_apply _ 0 _ l q (by omega), Cert.Slices.page_apply _ 8 (by omega), L10_w]
  show _ = m ((c : Thread nD τ).loc main_arg5) (ix3 (8 : Fin 12) l ⟨q.val, by omega⟩)
  congr 2
  exact Fin.ext (Nat.zero_add _)

/-- The pass-through column group of the layer's weights, at an entry. -/
theorem L10_wr (c : Dev nD) (l : Fin 192) (q : Fin 128) : V30 m ρ c main_v111 (ix2 l q) = (P m c).Wm 8 l ⟨64 + q.val, by omega⟩ := by
  have e : V30 m ρ c main_v111 = extractStridedSlice S192x128 ![0, 64] (shapeCast S192x192 (extractStridedSlice S1x192x192 ![8, 0, 0] (V29 m ρ c main_arg5) slices_S12x192x192_S1x192x192_8_0_0) shapeCasts_S1x192x192_S192x192) slices_S192x192_S192x128_0_64 := by
    show StableHlo.after hostOps19 (W29 m ρ c) (Proc.devRef .tc main_v111) = _
    after_results <;> rfl
  rw [e, Cert.Slices.cols_apply _ 64 _ l q (by omega), Cert.Slices.page_apply _ 8 (by omega), L10_w]
  rfl

/-- The bias of the scaled columns, one row, at an entry. -/
theorem L10_bs (c : Dev nD) (q : Fin 64) : V30 m ρ c main_v113 (ix2 (0 : Fin 1) q) = (P m c).bm 8 ⟨q.val, by omega⟩ := by
  have e : V30 m ρ c main_v113 = shapeCast S1x64 (extractStridedSlice S64 ![0] (shapeCast S192 (extractStridedSlice S1x192 ![8, 0] (V29 m ρ c main_arg6) slices_S12x192_S1x192_8_0) shapeCasts_S1x192_S192) slices_S192_S64_0) shapeCasts_S64_S1x64 := by
    show StableHlo.after hostOps19 (W29 m ρ c) (Proc.devRef .tc main_v113) = _
    after_results <;> rfl
  rw [e, Cert.Slices.seg_row_apply _ 0 _ _ (0 : Fin 1) q (by omega), Cert.Slices.row_apply _ 8 (by omega), L10_b]
  show _ = m ((c : Thread nD τ).loc main_arg6) (ix2 (8 : Fin 12) ⟨q.val, by omega⟩)
  congr 2
  exact Fin.ext (Nat.zero_add _)

/-- The bias of the pass-through columns, one row, at an entry. -/
theorem L10_br (c : Dev nD) (q : Fin 128) : V30 m ρ c main_v115 (ix2 (0 : Fin 1) q) = (P m c).bm 8 ⟨64 + q.val, by omega⟩ := by
  have e : V30 m ρ c main_v115 = shapeCast S1x128 (extractStridedSlice S128 ![64] (shapeCast S192 (extractStridedSlice S1x192 ![8, 0] (V29 m ρ c main_arg6) slices_S12x192_S1x192_8_0) shapeCasts_S1x192_S192) slices_S192_S128_64) shapeCasts_S128_S1x128 := by
    show StableHlo.after hostOps19 (W29 m ρ c) (Proc.devRef .tc main_v115) = _
    after_results <;> rfl
  rw [e, Cert.Slices.seg_row_apply _ 64 _ _ (0 : Fin 1) q (by omega), Cert.Slices.row_apply _ 8 (by omega), L10_b]
  rfl

/-- THE LAYER: the output array after its second pallas_call, at (p, j), is the layer's specification of the input array's entries and of the residual array's. -/
theorem L10_out (c : Dev nD) (x : Cert.Spec.Mx 8192 192) (hx : ∀ k l, V29 m ρ c main_v105 (ix2 k l) = x k l)
    (prev : Cert.Spec.Mx 8192 192) (hprev : ∀ p j, V26 m ρ c main_v93 (ix2 p j) = prev p j)
    (p : Fin 8192) (j : Fin 192) : V32 m ρ c main_v117 (ix2 p j) = Cert.Spec.residK (P m c) 8 prev x p j := by
  unfold Cert.Spec.residK Cert.Spec.resK Cert.Spec.relu
  have hp : ∀ p j, V31 m ρ c main_v93 (ix2 p j) = prev p j := fun p j =>
    (congrFun (tr_main_v93_26_31 m ρ c) (ix2 p j)).trans (hprev p j)
  refine Cert.Spec.layer_assemble (S := 64) (R := 128) (O := 192) rfl (P m c).A x ((P m c).Wm 8) ((P m c).bm 8)
    (fun k => V30 m ρ c main_v1_1 (ix2 k (0 : Fin 1))) (fun k => ?hinv)
    (fun k q => V31 m ρ c main_v116_0 (ix2 k q)) (fun k q => ?hsc)
    (fun p q => V31 m ρ c main_v116_1 (ix2 p q)) (fun p q => ?hrs)
    (fun p j y => (prev p j + max y Cert.Spec.zero) * Cert.Spec.half) (fun p j => V32 m ρ c main_v117 (ix2 p j)) (fun p q => ?hlo) (fun p q => ?hhi) p j
  case hinv =>
    exact (congrFun (tr_main_v1_1_2_30 m ρ c) (ix2 k (0 : Fin 1))).trans (inv_W2 m ρ c k)
  case hsc =>
    refine (congrFun (W31_arr m ρ c 5) (ix2 k q)).trans ((r19_scaled (V30 m ρ) c k q).trans ?_)
    refine congrArg (· * _) (Finset.sum_congr rfl fun l _ => ?_)
    exact congrArg₂ (· * ·) ((congrFun (tr_main_v105_29_30 m ρ c) (ix2 k l)).trans (hx k l)) (L10_ws m ρ c l q)
  case hrs =>
    refine (congrFun (W31_arr m ρ c 6) (ix2 p q)).trans ((r19_resid (V30 m ρ) c p q).trans ?_)
    refine congrArg₂ (· + ·) (Finset.sum_congr rfl fun l _ => ?_) (L10_br m ρ c q)
    exact congrArg₂ (· * ·) ((congrFun (tr_main_v105_29_30 m ρ c) (ix2 p l)).trans (hx p l)) (L10_wr m ρ c l q)
  case hlo =>
    refine (congrFun (W32_arr m ρ c 5) (ix2 p _)).trans ((r20_lo (V31 m ρ) c p q).trans ?_)
    refine congrArg (· * _) (congrArg₂ (· + ·) (hp p _) (congrArg (max · _) ?_))
    refine congrArg₂ (· + ·) (Finset.sum_congr rfl fun k _ => ?_)
      ((congrFun (tr_main_v113_30_31 m ρ c) (ix2 (0 : Fin 1) q)).trans (L10_bs m ρ c q))
    exact congrArg (· * _) ((congrFun (tr_main_v1_0_2_31 m ρ c) (ix2 p k)).trans (adjb_W2 m ρ c p k))
  case hhi =>
    refine (congrFun (W32_arr m ρ c 5) (ix2 p _)).trans ((r20_hi (V31 m ρ) c p q).trans ?_)
    exact congrArg (· * _) (congrArg (· + _) (hp p _))

end Cert.KernelIdeal.KV

end
-- ==== Proof.KV.R21.lean ====
/-
  Region 21 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg21
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz21 : (![0, 0] : Fin 2 → Nat) = fun _ => 0 := funext fun a => by fin_cases a <;> rfl

/-! ## The payloads at an index -/

/-- The generated dimension record of the [2048,192]·[192,64] product is the plain one. -/
theorem dot21_scaled_eq : dot_S2048x192_S192x64_S2048x64_1_0_0_1_n_n = DotDims.plain 2048 192 64 := rfl
/-- The generated dimension record of the [2048,192]·[192,128] product is the plain one. -/
theorem dot21_resid_eq : dot_S2048x192_S192x128_S2048x128_1_0_0_1_n_n = DotDims.plain 2048 192 128 := rfl

/-- The narrowed copy of the x block is the x block (a format change is the identity on extended reals). -/
theorem xcast21_eq (v0 : FVec Ideal S2048x192 .f32) : k21_pay1 (F := Ideal) v0 = v0 := by
  unfold k21_pay1
  exact shapeCast_self v0 _

/-- The scaled payload at (a, b): (∑ₗ x(a, l) · W₁(l, b)) · s(a, 0). -/
theorem scaled21_pay_apply (v0 : FVec Ideal S2048x192 .f32) (v3 : FVec Ideal S192x64 .f32) (v11 : FVec Ideal S2048x1 .f32)
    (a : Fin 2048) (b : Fin 64) :
    k21_pay3 (F := Ideal) v0 v3 v11 (ix2 a b) = (∑ l : Fin 192, v0 (ix2 a l) * v3 (ix2 l b)) * v11 (ix2 a (0 : Fin 1)) := by
  unfold k21_pay3
  simp only [xcast21_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot21_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid21_pay_apply (v0 : FVec Ideal S2048x192 .f32) (v6 : FVec Ideal S192x128 .f32) (v15 : FVec Ideal S1x128 .f32)
    (a : Fin 2048) (b : Fin 128) :
    k21_pay2 (F := Ideal) v0 v6 v15 (ix2 a b) = (∑ l : Fin 192, v0 (ix2 a l) * v6 (ix2 l b)) + v15 (ix2 (0 : Fin 1) b) := by
  unfold k21_pay2
  simp only [xcast21_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot21_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin21 (c : Dev nD) : FVec Ideal S8192x192 .f32 := V c (Pipeline.arrRef spec21 0)
/-- The weight's scaled column group W₁. -/
abbrev wsc21 (c : Dev nD) : FVec Ideal S192x64 .f32 := V c (Pipeline.arrRef spec21 1)
/-- The weight's residual column group W₂. -/
abbrev wre21 (c : Dev nD) : FVec Ideal S192x128 .f32 := V c (Pipeline.arrRef spec21 2)
/-- The bias row b. -/
abbrev bia21 (c : Dev nD) : FVec Ideal S1x128 .f32 := V c (Pipeline.arrRef spec21 3)
/-- The column s of inverse row sums. -/
abbrev inv21 (c : Dev nD) : FVec Ideal S8192x1 .f32 := V c (Pipeline.arrRef spec21 4)

/-- Entry (p, q) of the scaled output. -/
def scaledAt21 (c : Dev nD) (p : Fin 8192) (q : Fin 64) : EReal :=
  (∑ l : Fin 192, xin21 V c (ix2 p l) * wsc21 V c (ix2 l q)) * inv21 V c (ix2 p (0 : Fin 1))

/-- Entry (p, q) of the residual output. -/
def residAt21 (c : Dev nD) (p : Fin 8192) (q : Fin 128) : EReal :=
  (∑ l : Fin 192, xin21 V c (ix2 p l) * wre21 V c (ix2 l q)) + bia21 V c (ix2 (0 : Fin 1) q)

/-- What the scaled output ends holding. -/
abbrev G21_5 (c : Dev nD) : FVec Ideal S8192x64 .bf16 := fun i => scaledAt21 V c ⟨(i 0).val, idx2_lt0 i⟩ ⟨(i 1).val, idx2_lt1 i⟩
/-- What the residual output ends holding. -/
abbrev G21_6 (c : Dev nD) : FVec Ideal S8192x128 .f32 := fun i => residAt21 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts21 : ∀ t : Fin cfg21.N,
    win21_0.index t (0 : Fin 2) = win21_5.index t (0 : Fin 2) ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = 0 ∧ win21_3.index t (1 : Fin 2) = 0
    ∧ win21_4.index t (0 : Fin 2) = win21_5.index t (0 : Fin 2) ∧ win21_4.index t (1 : Fin 2) = 0
    ∧ win21_5.index t (1 : Fin 2) = 0
    ∧ win21_6.index t (0 : Fin 2) = win21_5.index t (0 : Fin 2) ∧ win21_6.index t (1 : Fin 2) = 0
    ∧ win21_5.index t (0 : Fin 2) < 4 :=
  (by decide +kernel : ∀ t : Fin grid21.N, _)

/-- Every row block is some point's, for the scaled output … -/
theorem idx_onto21_5 : ∀ q0 : Fin 4, ∃ t : Fin cfg21.N, win21_5.index t = ![q0.val, 0] :=
  (by decide +kernel : ∀ q0 : Fin 4, ∃ t : Fin grid21.N, win21_5.index t = ![q0.val, 0])

/-- … and for the residual output. -/
theorem idx_onto21_6 : ∀ q0 : Fin 4, ∃ t : Fin cfg21.N, win21_6.index t = ![q0.val, 0] :=
  (by decide +kernel : ∀ q0 : Fin 4, ∃ t : Fin grid21.N, win21_6.index t = ![q0.val, 0])

/-! ## Output window 5: the scaled output -/

/-- WHAT POINT t WRITES BACK is block t of the scaled output's function of the arrays. -/
theorem flushed21_5_eq (c : Dev nD) (t : Fin cfg21.N) :
    (dat21 (F := Ideal) V c).flushed 5 t = ((cfg21.win 5).blk t).view.read (Elt Ideal) (G21_5 V c) := by
  show (cfg21.win 5).cut (grid21.coords t) ((dat21 (F := Ideal) V c).after 5 t) = _
  rw [after21_5]
  unfold out21_5
  rw [View.canon_unit_zero hz21]
  simp only [View.ld_unit_zero (S := S2048x192) hz21, View.ld_unit_zero (S := S192x64) hz21, View.ld_unit_zero (S := S2048x1) hz21]
  obtain ⟨e00, e01, e10, e11, e20, e21, e30, e31, e40, e41, e51, e60, e61, e5⟩ := idx_facts21 t
  funext j
  obtain ⟨a, b, rfl⟩ : ∃ (a : Fin 2048) (b : Fin 64), j = ix2 a b := ⟨j 0, j 1, eq_ix2 j⟩
  refine (scaled21_pay_apply (iblk21 V c 0 t) (iblk21 V c 1 t) (iblk21 V c 4 t) a b).trans ?_
  show (∑ l : Fin 192, xin21 V c (((cfg21.win 0).blk t).view.emb (ix2 a l)) * wsc21 V c (((cfg21.win 1).blk t).view.emb (ix2 l b)))
      * inv21 V c (((cfg21.win 4).blk t).view.emb (ix2 a (0 : Fin 1)))
    = scaledAt21 V c ⟨((((cfg21.win 5).blk t).view.emb (ix2 a b)) 0).val, _⟩ ⟨((((cfg21.win 5).blk t).view.emb (ix2 a b)) 1).val, _⟩
  unfold scaledAt21
  refine congr (congrArg _ (Finset.sum_congr rfl fun l _ => congr (congrArg _ (congrArg _ ?_)) (congrArg _ ?_))) (congrArg _ ?_)
  · funext d; apply Fin.ext
    match d with
    | ⟨0, _⟩ => show win21_0.index t (0 : Fin 2) * 2048 + 1 * a.val = win21_5.index t (0 : Fin 2) * 2048 + 1 * a.val; omega
    | ⟨1, _⟩ => show win21_0.index t (1 : Fin 2) * 192 + 1 * l.val = l.val; omega
  · funext d; apply Fin.ext
    match d with
    | ⟨0, _⟩ => show win21_1.index t (0 : Fin 2) * 192 + 1 * l.val = l.val; omega
    | ⟨1, _⟩ => show win21_1.index t (1 : Fin 2) * 64 + 1 * b.val = win21_5.index t (1 : Fin 2) * 64 + 1 * b.val; omega
  · funext d; apply Fin.ext
    match d with
    | ⟨0, _⟩ => show win21_4.index t (0 : Fin 2) * 2048 + 1 * a.val = win21_5.index t (0 : Fin 2) * 2048 + 1 * a.val; omega
    | ⟨1, _⟩ => show win21_4.index t (1 : Fin 2) * 1 + 1 * 0 = 0; omega

/-- An index of the scaled output is in point t's block iff each coordinate is in the block's range on its axis. -/
theorem mem_blk21_5 (t : Fin cfg21.N) (i : S8192x64.Idx) :
    i ∈ ((cfg21.win 5).blk t).view.set ↔ ∀ a : Fin 2, win21_5.index t a * S2048x64.size a ≤ (i a).val ∧ (i a).val < win21_5.index t a * S2048x64.size a + S2048x64.size a := by
  show i ∈ ((View.whole (Pipeline.arrRef spec21 5)).slice (win21_5.rect t)).set ↔ _
  rw [View.set_slice_whole, Rect.mem_set_unit]
  exact Iff.rfl

/-- Every index is in the block of the point of its row block, row / 2048. -/
theorem covered21_5 (i : S8192x64.Idx) :
    ∃ t : Fin cfg21.N, (cfg21.win 5).flush t = true ∧ i ∈ ((cfg21.win 5).blk t).view.set := by
  have hi0 : (i 0).val < 8192 := (i 0).isLt
  have hi1 : (i 1).val < 64 := (i 1).isLt
  obtain ⟨t, ht⟩ := idx_onto21_5 ⟨(i 0).val / 2048, by omega⟩
  have q0 : win21_5.index t (0 : Fin 2) = (i 0).val / 2048 := congrFun ht 0
  have q1 : win21_5.index t (1 : Fin 2) = 0 := congrFun ht 1
  refine ⟨t, flush21_5 t, ?_⟩
  rw [mem_blk21_5]
  intro a
  match a with
  | ⟨0, _⟩ => show win21_5.index t (0 : Fin 2) * 2048 ≤ (i 0).val ∧ (i 0).val < win21_5.index t (0 : Fin 2) * 2048 + 2048; omega
  | ⟨1, _⟩ => show win21_5.index t (1 : Fin 2) * 64 ≤ (i 1).val ∧ (i 1).val < win21_5.index t (1 : Fin 2) * 64 + 64; omega

/-- THE SCALED OUTPUT after the region. -/
theorem arr21_5 (c : Dev nD) : (dat21 (F := Ideal) V c).arrAt 5 cfg21.N = G21_5 V c :=
  (dat21 (F := Ideal) V c).arrAt_eq_of_cover 5 (G21_5 V c) (fun t _ => flushed21_5_eq V c t) covered21_5

theorem r21_scaled (c : Dev nD) (p : Fin 8192) (q : Fin 64) :
    (dat21 (F := Ideal) V c).arrAt 5 cfg21.N (ix2 p q)
      = (∑ l : Fin 192, xin21 V c (ix2 p l) * wsc21 V c (ix2 l q)) * inv21 V c (ix2 p (0 : Fin 1)) :=
  congrFun (arr21_5 V c) (ix2 p q)

/-! ## Output window 6: the residual output -/

/-- WHAT POINT t WRITES BACK is block t of the residual output's function of the arrays. -/
theorem flushed21_6_eq (c : Dev nD) (t : Fin cfg21.N) :
    (dat21 (F := Ideal) V c).flushed 6 t = ((cfg21.win 6).blk t).view.read (Elt Ideal) (G21_6 V c) := by
  show (cfg21.win 6).cut (grid21.coords t) ((dat21 (F := Ideal) V c).after 6 t) = _
  rw [after21_6]
  unfold out21_6
  rw [View.canon_unit_zero hz21]
  simp only [View.ld_unit_zero (S := S2048x192) hz21, View.ld_unit_zero (S := S192x128) hz21, View.ld_unit_zero (S := S1x128) hz21]
  obtain ⟨e00, e01, e10, e11, e20, e21, e30, e31, e40, e41, e51, e60, e61, e5⟩ := idx_facts21 t
  funext j
  obtain ⟨a, b, rfl⟩ : ∃ (a : Fin 2048) (b : Fin 128), j = ix2 a b := ⟨j 0, j 1, eq_ix2 j⟩
  refine (resid21_pay_apply (iblk21 V c 0 t) (iblk21 V c 2 t) (iblk21 V c 3 t) a b).trans ?_
  show (∑ l : Fin 192, xin21 V c (((cfg21.win 0).blk t).view.emb (ix2 a l)) * wre21 V c (((cfg21.win 2).blk t).view.emb (ix2 l b)))
      + bia21 V c (((cfg21.win 3).blk t).view.emb (ix2 (0 : Fin 1) b))
    = residAt21 V c ⟨((((cfg21.win 6).blk t).view.emb (ix2 a b)) 0).val, _⟩ ⟨((((cfg21.win 6).blk t).view.emb (ix2 a b)) 1).val, _⟩
  unfold residAt21
  refine congr (congrArg _ (Finset.sum_congr rfl fun l _ => congr (congrArg _ (congrArg _ ?_)) (congrArg _ ?_))) (congrArg _ ?_)
  · funext d; apply Fin.ext
    match d with
    | ⟨0, _⟩ => show win21_0.index t (0 : Fin 2) * 2048 + 1 * a.val = win21_6.index t (0 : Fin 2) * 2048 + 1 * a.val; omega
    | ⟨1, _⟩ => show win21_0.index t (1 : Fin 2) * 192 + 1 * l.val = l.val; omega
  · funext d; apply Fin.ext
    match d with
    | ⟨0, _⟩ => show win21_2.index t (0 : Fin 2) * 192 + 1 * l.val = l.val; omega
    | ⟨1, _⟩ => show win21_2.index t (1 : Fin 2) * 128 + 1 * b.val = win21_6.index t (1 : Fin 2) * 128 + 1 * b.val; omega
  · funext d; apply Fin.ext
    match d with
    | ⟨0, _⟩ => show win21_3.index t (0 : Fin 2) * 1 + 1 * 0 = 0; omega
    | ⟨1, _⟩ => show win21_3.index t (1 : Fin 2) * 128 + 1 * b.val = win21_6.index t (1 : Fin 2) * 128 + 1 * b.val; omega

/-- An index of the residual output is in point t's block iff each coordinate is in the block's range on its axis. -/
theorem mem_blk21_6 (t : Fin cfg21.N) (i : S8192x128.Idx) :
    i ∈ ((cfg21.win 6).blk t).view.set ↔ ∀ a : Fin 2, win21_6.index t a * S2048x128.size a ≤ (i a).val ∧ (i a).val < win21_6.index t a * S2048x128.size a + S2048x128.size a := by
  show i ∈ ((View.whole (Pipeline.arrRef spec21 6)).slice (win21_6.rect t)).set ↔ _
  rw [View.set_slice_whole, Rect.mem_set_unit]
  exact Iff.rfl

/-- Every index is in the block of the point of its row block, row / 2048. -/
theorem covered21_6 (i : S8192x128.Idx) :
    ∃ t : Fin cfg21.N, (cfg21.win 6).flush t = true ∧ i ∈ ((cfg21.win 6).blk t).view.set := by
  have hi0 : (i 0).val < 8192 := (i 0).isLt
  have hi1 : (i 1).val < 128 := (i 1).isLt
  obtain ⟨t, ht⟩ := idx_onto21_6 ⟨(i 0).val / 2048, by omega⟩
  have q0 : win21_6.index t (0 : Fin 2) = (i 0).val / 2048 := congrFun ht 0
  have q1 : win21_6.index t (1 : Fin 2) = 0 := congrFun ht 1
  refine ⟨t, flush21_6 t, ?_⟩
  rw [mem_blk21_6]
  intro a
  match a with
  | ⟨0, _⟩ => show win21_6.index t (0 : Fin 2) * 2048 ≤ (i 0).val ∧ (i 0).val < win21_6.index t (0 : Fin 2) * 2048 + 2048; omega
  | ⟨1, _⟩ => show win21_6.index t (1 : Fin 2) * 128 ≤ (i 1).val ∧ (i 1).val < win21_6.index t (1 : Fin 2) * 128 + 128; omega

/-- THE RESIDUAL OUTPUT after the region. -/
theorem arr21_6 (c : Dev nD) : (dat21 (F := Ideal) V c).arrAt 6 cfg21.N = G21_6 V c :=
  (dat21 (F := Ideal) V c).arrAt_eq_of_cover 6 (G21_6 V c) (fun t _ => flushed21_6_eq V c t) covered21_6

theorem r21_resid (c : Dev nD) (p : Fin 8192) (q : Fin 128) :
    (dat21 (F := Ideal) V c).arrAt 6 cfg21.N (ix2 p q)
      = (∑ l : Fin 192, xin21 V c (ix2 p l) * wre21 V c (ix2 l q)) + bia21 V c (ix2 (0 : Fin 1) q) :=
  congrFun (arr21_6 V c) (ix2 p q)

end Cert.KernelIdeal.KV

end
-- ==== Proof.KV.R22.lean ====
/-
  Region 22, an aggregation layer with rectifier and no residual: what its output array holds after the region,
  entry by entry, as a function of the arrays the region finds.

  The body writes its output block [1024, 192] by two column slices: columns [0, 64) hold
  max(A·S + b, 0) (A the row block of the adjacency, S the scaled features, b the bias row broadcast over the rows) and
  columns [64, 192) hold max(R, 0) (R the row block of the other feature group). The two slices are disjoint and cover the
  block, so each entry of the block is the payload of the slice that holds it. Row block t of the output array is
  written by grid point t (8 points of 1024 rows), and the points' blocks cover the array; so entry (p, q) of the array
  is ∑ₖ A(p, k)·S(k, q) + b(0, q) rectified for q < 64, and R(p, q − 64) rectified for q ≥ 64.
-/
import proofs.«405499_j28269474742810_3_alg».proof.Proof.Fr.KernelIdeal.Reg22
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r22_hz : (![0, 0] : Fin 2 → Nat) = fun _ => 0 := funext fun a => match a with | ⟨0, _⟩ => rfl | ⟨1, _⟩ => rfl

/-- The product's dimension numbers are those of a plain M×K by K×N product. -/
theorem r22_dot_plain : dot_S1024x8192_S8192x64_S1024x64_1_0_0_1_n_n = DotDims.plain 1024 8192 64 := rfl

/-- Columns [0, 64) at entry (a, b): the product's entry plus the bias of column b, rectified. -/
theorem r22_pay1_apply (x0 : Vec Ideal S1024x8192 .bf16) (x1 : Vec Ideal S8192x64 .bf16) (x3 : Vec Ideal S1x64 .f32)
    (a : Fin 1024) (b : Fin 64) :
    k22_pay1 (F := Ideal) x0 x1 x3 (ix2 a b)
      = max ((∑ k : Fin 8192, x0 (ix2 a k) * x1 (ix2 k b)) + x3 (ix2 (0 : Fin 1) b)) (Ideal.ofBits .f32 0x00000000#32) := by
  unfold k22_pay1
  simp only [shapeCast_self]
  show max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32) = _
  rw [r22_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the other feature group's entry, rectified. -/
theorem r22_pay2_apply (x2 : Vec Ideal S1024x128 .f32) (a : Fin 1024) (b : Fin 128) :
    k22_pay2 (F := Ideal) x2 (ix2 a b) = max (x2 (ix2 a b)) (Ideal.ofBits .f32 0x00000000#32) := by
  unfold k22_pay2
  simp only [shapeCast_self]
  rfl

/-! ## What the body leaves in the output block: each entry is the payload of the slice that holds it -/

/-- An entry in columns [0, 64): off the later slice, under the earlier one. -/
theorem r22_out_lo (c : Dev nD) (i : grid22.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 64) (hy0 : (y 0).val = a.val) (hy1 : (y 1).val = b.val) :
    out22_A_4 (F := Ideal) c i a1 h1 a2 h2 a3 h3 a4 h4 a5 h5 x0 x1 x2 x3 y = k22_pay1 (F := Ideal) x0 x1 x3 (ix2 a b) := by
  unfold out22_A_4
  rw [View.read_writes_eq_canon _ _ _ (cover22_A_4 c i a1 h1 a2 h2 a3 h3 a4 h4 a5 h5 x0 x1 x2 x3)]
  unfold kernelRun22_A
  dsimp only
  sl_unfold_words
  simp only [View.readAt_eq_ld, h1.read_unread, h2.read_unread, h3.read_unread, h4.read_unread,
    View.ld_unit_zero (S := S1024x8192) r22_hz, View.ld_unit_zero (S := S8192x64) r22_hz,
    View.ld_unit_zero (S := S1024x128) r22_hz, View.ld_unit_zero (S := S1x64) r22_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r22_out_hi (c : Dev nD) (i : grid22.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole)
    (x0 : Vec Ideal S1024x8192 .bf16) (x1 : Vec Ideal S8192x64 .bf16) (x2 : Vec Ideal S1024x128 .f32) (x3 : Vec Ideal S1x64 .f32)
    (y : S1024x192.Idx) (a : Fin 1024) (b : Fin 128) (hy0 : (y 0).val = a.val) (hy1 : (y 1).val = 64 + b.val) :
    out22_A_4 (F := Ideal) c i a1 h1 a2 h2 a3 h3 a4 h4 a5 h5 x0 x1 x2 x3 y = k22_pay2 (F := Ideal) x2 (ix2 a b) := by
  unfold out22_A_4
  rw [View.read_writes_eq_canon _ _ _ (cover22_A_4 c i a1 h1 a2 h2 a3 h3 a4 h4 a5 h5 x0 x1 x2 x3)]
  unfold kernelRun22_A
  dsimp only
  sl_unfold_words
  simp only [View.readAt_eq_ld, h1.read_unread, h2.read_unread, h3.read_unread, h4.read_unread,
    View.ld_unit_zero (S := S1024x8192) r22_hz, View.ld_unit_zero (S := S8192x64) r22_hz,
    View.ld_unit_zero (S := S1024x128) r22_hz, View.ld_unit_zero (S := S1x64) r22_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group and the bias row, as the region finds them. -/
abbrev r22_adj (c : Dev nD) : Vec Ideal S8192x8192 .bf16 := V c (Pipeline.arrRef spec22 0)
abbrev r22_scaled (c : Dev nD) : Vec Ideal S8192x64 .bf16 := V c (Pipeline.arrRef spec22 1)
abbrev r22_resid (c : Dev nD) : Vec Ideal S8192x128 .f32 := V c (Pipeline.arrRef spec22 2)
abbrev r22_bias (c : Dev nD) : Vec Ideal S1x64 .f32 := V c (Pipeline.arrRef spec22 3)

/-- The windows' blocks at a point, at their literal types. -/
abbrev r22_b0 (c : Dev nD) (t : Fin cfg22.N) : Vec Ideal S1024x8192 .bf16 := iblk22 (F := Ideal) V c 0 t
abbrev r22_b1 (c : Dev nD) (t : Fin cfg22.N) : Vec Ideal S8192x64 .bf16 := iblk22 (F := Ideal) V c 1 t
abbrev r22_b2 (c : Dev nD) (t : Fin cfg22.N) : Vec Ideal S1024x128 .f32 := iblk22 (F := Ideal) V c 2 t
abbrev r22_b3 (c : Dev nD) (t : Fin cfg22.N) : Vec Ideal S1x64 .f32 := iblk22 (F := Ideal) V c 3 t

/-- Entry (p, q) of the array the region leaves. -/
def r22_val (c : Dev nD) (p : Fin 8192) (q : Fin 192) : EReal :=
  if h : q.val < 64 then
    max ((∑ k : Fin 8192, r22_adj V c (ix2 p k) * r22_scaled V c (ix2 k (⟨q.val, h⟩ : Fin 64)))
      + r22_bias V c (ix2 (0 : Fin 1) (⟨q.val, h⟩ : Fin 64))) (Ideal.ofBits .f32 0x00000000#32)
  else
    max (r22_resid V c (ix2 p (⟨q.val - 64, by have := q.isLt; omega⟩ : Fin 128))) (Ideal.ofBits .f32 0x00000000#32)

/-- The array the region leaves. -/
def r22_G (c : Dev nD) : Vec Ideal S8192x192 .f32 := fun i => r22_val V c (i 0) (i 1)

/-- The printed index maps, decided over the grid: the row-blocked windows are at block row t, column block 0; the whole
    windows at block (0, 0). -/
theorem r22_idx_facts : ∀ t : Fin cfg22.N,
    win22_0.index t (0 : Fin 2) = t.val ∧ win22_0.index t (1 : Fin 2) = 0
    ∧ win22_1.index t (0 : Fin 2) = 0 ∧ win22_1.index t (1 : Fin 2) = 0
    ∧ win22_2.index t (0 : Fin 2) = t.val ∧ win22_2.index t (1 : Fin 2) = 0
    ∧ win22_3.index t (0 : Fin 2) = 0 ∧ win22_3.index t (1 : Fin 2) = 0
    ∧ win22_4.index t (0 : Fin 2) = t.val ∧ win22_4.index t (1 : Fin 2) = 0 :=
  (by decide +kernel : ∀ t : Fin grid22.N, _)

/-- Row block t of the adjacency: entry (a, k) of the block is entry (1024 t + a, k) of the array. -/
theorem r22_b0_apply (c : Dev nD) (t : Fin cfg22.N) (a : Fin 1024) (k : Fin 8192) (p : Fin 8192)
    (hp : p.val = t.val * 1024 + a.val) : r22_b0 V c t (ix2 a k) = r22_adj V c (ix2 p k) := by
  obtain ⟨e00, e01, -⟩ := r22_idx_facts t
  show V c (Pipeline.arrRef spec22 0) (((cfg22.win 0).blk t).view.emb (ix2 a k)) = V c (Pipeline.arrRef spec22 0) (ix2 p k)
  refine congrArg _ (funext fun d => Fin.ext ?_)
  match d with
  | ⟨0, _⟩ => show win22_0.index t (0 : Fin 2) * 1024 + 1 * a.val = p.val; omega
  | ⟨1, _⟩ => show win22_0.index t (1 : Fin 2) * 8192 + 1 * k.val = k.val; omega

/-- The scaled features' one block is the array. -/
theorem r22_b1_apply (c : Dev nD) (t : Fin cfg22.N) (k : Fin 8192) (b : Fin 64) :
    r22_b1 V c t (ix2 k b) = r22_scaled V c (ix2 k b) := by
  obtain ⟨-, -, e10, e11, -⟩ := r22_idx_facts t
  show V c (Pipeline.arrRef spec22 1) (((cfg22.win 1).blk t).view.emb (ix2 k b)) = V c (Pipeline.arrRef spec22 1) (ix2 k b)
  refine congrArg _ (funext fun d => Fin.ext ?_)
  match d with
  | ⟨0, _⟩ => show win22_1.index t (0 : Fin 2) * 8192 + 1 * k.val = k.val; omega
  | ⟨1, _⟩ => show win22_1.index t (1 : Fin 2) * 64 + 1 * b.val = b.val; omega

/-- Row block t of the other feature group. -/
theorem r22_b2_apply (c : Dev nD) (t : Fin cfg22.N) (a : Fin 1024) (b : Fin 128) (p : Fin 8192)
    (hp : p.val = t.val * 1024 + a.val) : r22_b2 V c t (ix2 a b) = r22_resid V c (ix2 p b) := by
  obtain ⟨-, -, -, -, e20, e21, -⟩ := r22_idx_facts t
  show V c (Pipeline.arrRef spec22 2) (((cfg22.win 2).blk t).view.emb (ix2 a b)) = V c (Pipeline.arrRef spec22 2) (ix2 p b)
  refine congrArg _ (funext fun d => Fin.ext ?_)
  match d with
  | ⟨0, _⟩ => show win22_2.index t (0 : Fin 2) * 1024 + 1 * a.val = p.val; omega
  | ⟨1, _⟩ => show win22_2.index t (1 : Fin 2) * 128 + 1 * b.val = b.val; omega

/-- The bias row's one block is the array. -/
theorem r22_b3_apply (c : Dev nD) (t : Fin cfg22.N) (b : Fin 64) :
    r22_b3 V c t (ix2 (0 : Fin 1) b) = r22_bias V c (ix2 (0 : Fin 1) b) := by
  obtain ⟨-, -, -, -, -, -, e30, e31, -⟩ := r22_idx_facts t
  show V c (Pipeline.arrRef spec22 3) (((cfg22.win 3).blk t).view.emb (ix2 (0 : Fin 1) b)) = V c (Pipeline.arrRef spec22 3) (ix2 (0 : Fin 1) b)
  refine congrArg _ (funext fun d => Fin.ext ?_)
  match d with
  | ⟨0, _⟩ => show win22_3.index t (0 : Fin 2) * 1 + 1 * 0 = 0; omega
  | ⟨1, _⟩ => show win22_3.index t (1 : Fin 2) * 64 + 1 * b.val = b.val; omega

/-- WHAT POINT t WRITES BACK is block t of the array the region leaves. -/
theorem r22_flushed_eq (c : Dev nD) (t : Fin cfg22.N) :
    (dat22 (F := Ideal) V c).flushed 4 t = ((cfg22.win 4).blk t).view.read (Elt Ideal) (r22_G V c) := by
  show (cfg22.win 4).cut (grid22.coords t) ((dat22 (F := Ideal) V c).after 4 t) = _
  rw [after22_4]
  obtain ⟨-, -, -, -, -, -, -, -, e40, e41⟩ := r22_idx_facts t
  funext j
  have hj0 : (j 0).val < 1024 := (j 0).isLt
  have hj1 : (j 1).val < 192 := (j 1).isLt
  have ht : t.val < 8 := lt_of_lt_of_eq t.isLt N_22
  have hp : t.val * 1024 + (j 0).val < 8192 := by omega
  have hemb : ((cfg22.win 4).blk t).view.emb j
      = ix2 (⟨t.val * 1024 + (j 0).val, hp⟩ : Fin 8192) (⟨(j 1).val, hj1⟩ : Fin 192) := by
    funext d; apply Fin.ext
    match d with
    | ⟨0, _⟩ => show win22_4.index t (0 : Fin 2) * 1024 + 1 * (j 0).val = t.val * 1024 + (j 0).val; omega
    | ⟨1, _⟩ => show win22_4.index t (1 : Fin 2) * 192 + 1 * (j 1).val = (j 1).val; omega
  show outsAt22 (F := Ideal) V c t ((cfg22.win 4).xinj (grid22.coords t) j) = r22_G V c (((cfg22.win 4).blk t).view.emb j)
  rw [hemb]
  show _ = r22_val V c (⟨t.val * 1024 + (j 0).val, hp⟩ : Fin 8192) (⟨(j 1).val, hj1⟩ : Fin 192)
  unfold outsAt22 r22_val
  by_cases h : (j 1).val < 64
  · rw [dif_pos h]
    refine (r22_out_lo c (grid22.coords t) (ms22_0 t) (hs22_0 t) (ms22_1 t) (hs22_1 t) (ms22_2 t) (hs22_2 t) (ms22_3 t) (hs22_3 t)
      (ms22_4 t) (hs22_4 t) (r22_b0 V c t) (r22_b1 V c t) (r22_b2 V c t) (r22_b3 V c t)
      ((cfg22.win 4).xinj (grid22.coords t) j) (⟨(j 0).val, hj0⟩ : Fin 1024) (⟨(j 1).val, h⟩ : Fin 64) rfl rfl).trans ?_
    refine (r22_pay1_apply (r22_b0 V c t) (r22_b1 V c t) (r22_b3 V c t) (⟨(j 0).val, hj0⟩ : Fin 1024) (⟨(j 1).val, h⟩ : Fin 64)).trans ?_
    refine congrArg₂ max (congrArg₂ (· + ·) (Finset.sum_congr rfl fun k _ =>
      congrArg₂ (· * ·) (r22_b0_apply V c t (⟨(j 0).val, hj0⟩ : Fin 1024) k (⟨t.val * 1024 + (j 0).val, hp⟩ : Fin 8192) rfl)
        (r22_b1_apply V c t k (⟨(j 1).val, h⟩ : Fin 64))) (r22_b3_apply V c t (⟨(j 1).val, h⟩ : Fin 64))) rfl
  · rw [dif_neg h]
    have h128 : (j 1).val - 64 < 128 := by omega
    refine (r22_out_hi c (grid22.coords t) (ms22_0 t) (hs22_0 t) (ms22_1 t) (hs22_1 t) (ms22_2 t) (hs22_2 t) (ms22_3 t) (hs22_3 t)
      (ms22_4 t) (hs22_4 t) (r22_b0 V c t) (r22_b1 V c t) (r22_b2 V c t) (r22_b3 V c t)
      ((cfg22.win 4).xinj (grid22.coords t) j) (⟨(j 0).val, hj0⟩ : Fin 1024) (⟨(j 1).val - 64, h128⟩ : Fin 128) rfl
      (by show (j 1).val = 64 + ((j 1).val - 64); omega)).trans ?_
    refine (r22_pay2_apply (r22_b2 V c t) (⟨(j 0).val, hj0⟩ : Fin 1024) (⟨(j 1).val - 64, h128⟩ : Fin 128)).trans ?_
    exact congrArg₂ max (r22_b2_apply V c t (⟨(j 0).val, hj0⟩ : Fin 1024) (⟨(j 1).val - 64, h128⟩ : Fin 128)
      (⟨t.val * 1024 + (j 0).val, hp⟩ : Fin 8192) rfl) rfl

/-! ## The points' blocks cover the array -/

/-- An index of the array is in point t's block iff each coordinate is in the block's range on its axis. -/
theorem r22_mem_blk (t : Fin cfg22.N) (i : S8192x192.Idx) :
    i ∈ ((cfg22.win 4).blk t).view.set ↔ ∀ a : Fin 2, win22_4.index t a * S1024x192.size a ≤ (i a).val
      ∧ (i a).val < win22_4.index t a * S1024x192.size a + S1024x192.size a := by
  show i ∈ ((View.whole (Pipeline.arrRef spec22 4)).slice (win22_4.rect t)).set ↔ _
  rw [View.set_slice_whole, Rect.mem_set_unit]
  exact Iff.rfl

/-- Row r of the array is in the block of point r / 1024. -/
theorem r22_cover (i : S8192x192.Idx) :
    ∃ t : Fin cfg22.N, (cfg22.win 4).flush t = true ∧ i ∈ ((cfg22.win 4).blk t).view.set := by
  have hi0 : (i 0).val < 8192 := (i 0).isLt
  have hi1 : (i 1).val < 192 := (i 1).isLt
  have hlt : (i 0).val / 1024 < cfg22.N := lt_of_lt_of_eq (by omega : (i 0).val / 1024 < 8) N_22.symm
  obtain ⟨-, -, -, -, -, -, -, -, e40, e41⟩ := r22_idx_facts ⟨(i 0).val / 1024, hlt⟩
  refine ⟨⟨(i 0).val / 1024, hlt⟩, flush22_4 _, ?_⟩
  rw [r22_mem_blk]
  intro a
  match a with
  | ⟨0, _⟩ =>
    show win22_4.index ⟨(i 0).val / 1024, hlt⟩ (0 : Fin 2) * 1024 ≤ (i 0).val
      ∧ (i 0).val < win22_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win22_4.index ⟨(i 0).val / 1024, hlt⟩ (1 : Fin 2) * 192 ≤ (i 1).val
      ∧ (i 1).val < win22_4.index ⟨(i 0).val / 1024, hlt⟩ (1 : Fin 2) * 192 + 192
    rw [e41]; omega

/-! ## The output array after the region -/

/-- The output array ends holding the array of the entries above. -/
theorem r22_final (c : Dev nD) : (dat22 (F := Ideal) V c).arrAt 4 cfg22.N = r22_G V c :=
  (dat22 (F := Ideal) V c).arrAt_eq_of_cover 4 (r22_G V c) (fun t _ => r22_flushed_eq V c t) r22_cover

/-- Columns [0, 64): the aggregated, biased, rectified features. -/
theorem r22_lo (c : Dev nD) (p : Fin 8192) (q : Fin 64) :
    (dat22 (F := Ideal) V c).arrAt 4 cfg22.N (ix2 p (⟨q.val, by have := q.isLt; omega⟩ : Fin 192))
      = max ((∑ k : Fin 8192, r22_adj V c (ix2 p k) * r22_scaled V c (ix2 k q)) + r22_bias V c (ix2 (0 : Fin 1) q))
          (Ideal.ofBits .f32 0x00000000#32) := by
  rw [r22_final]
  show r22_val V c p (⟨q.val, _⟩ : Fin 192) = _
  unfold r22_val
  rw [dif_pos (show (⟨q.val, _⟩ : Fin 192).val < 64 from q.isLt)]

/-- Columns [64, 192): the other feature group, rectified. -/
theorem r22_hi (c : Dev nD) (p : Fin 8192) (q : Fin 128) :
    (dat22 (F := Ideal) V c).arrAt 4 cfg22.N (ix2 p (⟨64 + q.val, by have := q.isLt; omega⟩ : Fin 192))
      = max (r22_resid V c (ix2 p q)) (Ideal.ofBits .f32 0x00000000#32) := by
  rw [r22_final]
  show r22_val V c p (⟨64 + q.val, _⟩ : Fin 192) = _
  unfold r22_val
  rw [dif_neg (show ¬ (⟨64 + q.val, _⟩ : Fin 192).val < 64 from by show ¬ 64 + q.val < 64; omega)]
  refine congrArg₂ max (congrArg _ (congrArg (ix2 p) (Fin.ext ?_))) rfl
  show 64 + q.val - 64 = q.val
  omega

end Cert.KernelIdeal.KV

end
-- ==== Proof.KV.L11.lean ====
/-
  Layer 11 of the first program (a plain middle layer, weight page 9): what its two
  pallas_calls leave in the output array, entry by entry, is the layer's specification applied to the entries of its input array.
-/
import proofs.«405499_j28269474742810_3_alg».proof.Proof.KV.R21
import proofs.«405499_j28269474742810_3_alg».proof.Proof.KV.R22
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L11_w (c : Dev nD) : V32 m ρ c main_arg5 = m ((c : Thread nD τ).loc main_arg5) := tr_main_arg5_0_32 m ρ c
theorem L11_b (c : Dev nD) : V32 m ρ c main_arg6 = m ((c : Thread nD τ).loc main_arg6) := tr_main_arg6_0_32 m ρ c

/-- The scaled column group of the layer's weights, at an entry. -/
theorem L11_ws (c : Dev nD) (l : Fin 192) (q : Fin 64) : V33 m ρ c main_v122 (ix2 l q) = (P m c).Wm 9 l ⟨q.val, by omega⟩ := by
  have e : V33 m ρ c main_v122 = extractStridedSlice S192x64 ![0, 0] (shapeCast S192x192 (extractStridedSlice S1x192x192 ![9, 0, 0] (V32 m ρ c main_arg5) slices_S12x192x192_S1x192x192_9_0_0) shapeCasts_S1x192x192_S192x192) slices_S192x192_S192x64_0_0 := by
    show StableHlo.after hostOps21 (W32 m ρ c) (Proc.devRef .tc main_v122) = _
    after_results <;> rfl
  rw [e, Cert.Slices.cols_apply _ 0 _ l q (by omega), Cert.Slices.page_apply _ 9 (by omega), L11_w]
  show _ = m ((c : Thread nD τ).loc main_arg5) (ix3 (9 : Fin 12) l ⟨q.val, by omega⟩)
  congr 2
  exact Fin.ext (Nat.zero_add _)

/-- The pass-through column group of the layer's weights, at an entry. -/
theorem L11_wr (c : Dev nD) (l : Fin 192) (q : Fin 128) : V33 m ρ c main_v123 (ix2 l q) = (P m c).Wm 9 l ⟨64 + q.val, by omega⟩ := by
  have e : V33 m ρ c main_v123 = extractStridedSlice S192x128 ![0, 64] (shapeCast S192x192 (extractStridedSlice S1x192x192 ![9, 0, 0] (V32 m ρ c main_arg5) slices_S12x192x192_S1x192x192_9_0_0) shapeCasts_S1x192x192_S192x192) slices_S192x192_S192x128_0_64 := by
    show StableHlo.after hostOps21 (W32 m ρ c) (Proc.devRef .tc main_v123) = _
    after_results <;> rfl
  rw [e, Cert.Slices.cols_apply _ 64 _ l q (by omega), Cert.Slices.page_apply _ 9 (by omega), L11_w]
  rfl

/-- The bias of the scaled columns, one row, at an entry. -/
theorem L11_bs (c : Dev nD) (q : Fin 64) : V33 m ρ c main_v125 (ix2 (0 : Fin 1) q) = (P m c).bm 9 ⟨q.val, by omega⟩ := by
  have e : V33 m ρ c main_v125 = shapeCast S1x64 (extractStridedSlice S64 ![0] (shapeCast S192 (extractStridedSlice S1x192 ![9, 0] (V32 m ρ c main_arg6) slices_S12x192_S1x192_9_0) shapeCasts_S1x192_S192) slices_S192_S64_0) shapeCasts_S64_S1x64 := by
    show StableHlo.after hostOps21 (W32 m ρ c) (Proc.devRef .tc main_v125) = _
    after_results <;> rfl
  rw [e, Cert.Slices.seg_row_apply _ 0 _ _ (0 : Fin 1) q (by omega), Cert.Slices.row_apply _ 9 (by omega), L11_b]
  show _ = m ((c : Thread nD τ).loc main_arg6) (ix2 (9 : Fin 12) ⟨q.val, by omega⟩)
  congr 2
  exact Fin.ext (Nat.zero_add _)

/-- The bias of the pass-through columns, one row, at an entry. -/
theorem L11_br (c : Dev nD) (q : Fin 128) : V33 m ρ c main_v127 (ix2 (0 : Fin 1) q) = (P m c).bm 9 ⟨64 + q.val, by omega⟩ := by
  have e : V33 m ρ c main_v127 = shapeCast S1x128 (extractStridedSlice S128 ![64] (shapeCast S192 (extractStridedSlice S1x192 ![9, 0] (V32 m ρ c main_arg6) slices_S12x192_S1x192_9_0) shapeCasts_S1x192_S192) slices_S192_S128_64) shapeCasts_S128_S1x128 := by
    show StableHlo.after hostOps21 (W32 m ρ c) (Proc.devRef .tc main_v127) = _
    after_results <;> rfl
  rw [e, Cert.Slices.seg_row_apply _ 64 _ _ (0 : Fin 1) q (by omega), Cert.Slices.row_apply _ 9 (by omega), L11_b]
  rfl

/-- THE LAYER: the output array after its second pallas_call, at (p, j), is the layer's specification of the input array's entries. -/
theorem L11_out (c : Dev nD) (x : Cert.Spec.Mx 8192 192) (hx : ∀ k l, V32 m ρ c main_v117 (ix2 k l) = x k l)
    (p : Fin 8192) (j : Fin 192) : V35 m ρ c main_v129 (ix2 p j) = Cert.Spec.plainK (P m c) 9 x p j := by
  unfold Cert.Spec.plainK Cert.Spec.relu
  refine Cert.Spec.layer_assemble (S := 64) (R := 128) (O := 192) rfl (P m c).A x ((P m c).Wm 9) ((P m c).bm 9)
    (fun k => V33 m ρ c main_v1_1 (ix2 k (0 : Fin 1))) (fun k => ?hinv)
    (fun k q => V34 m ρ c main_v128_0 (ix2 k q)) (fun k q => ?hsc)
    (fun p q => V34 m ρ c main_v128_1 (ix2 p q)) (fun p q => ?hrs)
    (fun _ _ y => max y Cert.Spec.zero) (fun p j => V35 m ρ c main_v129 (ix2 p j)) (fun p q => ?hlo) (fun p q => ?hhi) p j
  case hinv =>
    exact (congrFun (tr_main_v1_1_2_33 m ρ c) (ix2 k (0 : Fin 1))).trans (inv_W2 m ρ c k)
  case hsc =>
    refine (congrFun (W34_arr m ρ c 5) (ix2 k q)).trans ((r21_scaled (V33 m ρ) c k q).trans ?_)
    refine congrArg (· * _) (Finset.sum_congr rfl fun l _ => ?_)
    exact congrArg₂ (· * ·) ((congrFun (tr_main_v117_32_33 m ρ c) (ix2 k l)).trans (hx k l)) (L11_ws m ρ c l q)
  case hrs =>
    refine (congrFun (W34_arr m ρ c 6) (ix2 p q)).trans ((r21_resid (V33 m ρ) c p q).trans ?_)
    refine congrArg₂ (· + ·) (Finset.sum_congr rfl fun l _ => ?_) (L11_br m ρ c q)
    exact congrArg₂ (· * ·) ((congrFun (tr_main_v117_32_33 m ρ c) (ix2 p l)).trans (hx p l)) (L11_wr m ρ c l q)
  case hlo =>
    refine (congrFun (W35_arr m ρ c 4) (ix2 p _)).trans ((r22_lo (V34 m ρ) c p q).trans ?_)
    refine congrArg (fun y : EReal => max y _) ?_
    refine congrArg₂ (· + ·) (Finset.sum_congr rfl fun k _ => ?_)
      ((congrFun (tr_main_v125_33_34 m ρ c) (ix2 (0 : Fin 1) q)).trans (L11_bs m ρ c q))
    exact congrArg (· * _) ((congrFun (tr_main_v1_0_2_34 m ρ c) (ix2 p k)).trans (adjb_W2 m ρ c p k))
  case hhi =>
    exact (congrFun (W35_arr m ρ c 4) (ix2 p _)).trans (r22_hi (V34 m ρ) c p q)

end Cert.KernelIdeal.KV

end
-- ==== Proof.KV.R23.lean ====
/-
  Region 23 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg23
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz23 : (![0, 0] : Fin 2 → Nat) = fun _ => 0 := funext fun a => by fin_cases a <;> rfl

/-! ## The payloads at an index -/

/-- The generated dimension record of the [2048,192]·[192,64] product is the plain one. -/
theorem dot23_scaled_eq : dot_S2048x192_S192x64_S2048x64_1_0_0_1_n_n = DotDims.plain 2048 192 64 := rfl
/-- The generated dimension record of the [2048,192]·[192,128] product is the plain one. -/
theorem dot23_resid_eq : dot_S2048x192_S192x128_S2048x128_1_0_0_1_n_n = DotDims.plain 2048 192 128 := rfl

/-- The narrowed copy of the x block is the x block (a format change is the identity on extended reals). -/
theorem xcast23_eq (v0 : FVec Ideal S2048x192 .f32) : k23_pay1 (F := Ideal) v0 = v0 := by
  unfold k23_pay1
  exact shapeCast_self v0 _

/-- The scaled payload at (a, b): (∑ₗ x(a, l) · W₁(l, b)) · s(a, 0). -/
theorem scaled23_pay_apply (v0 : FVec Ideal S2048x192 .f32) (v3 : FVec Ideal S192x64 .f32) (v11 : FVec Ideal S2048x1 .f32)
    (a : Fin 2048) (b : Fin 64) :
    k23_pay3 (F := Ideal) v0 v3 v11 (ix2 a b) = (∑ l : Fin 192, v0 (ix2 a l) * v3 (ix2 l b)) * v11 (ix2 a (0 : Fin 1)) := by
  unfold k23_pay3
  simp only [xcast23_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot23_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid23_pay_apply (v0 : FVec Ideal S2048x192 .f32) (v6 : FVec Ideal S192x128 .f32) (v15 : FVec Ideal S1x128 .f32)
    (a : Fin 2048) (b : Fin 128) :
    k23_pay2 (F := Ideal) v0 v6 v15 (ix2 a b) = (∑ l : Fin 192, v0 (ix2 a l) * v6 (ix2 l b)) + v15 (ix2 (0 : Fin 1) b) := by
  unfold k23_pay2
  simp only [xcast23_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot23_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin23 (c : Dev nD) : FVec Ideal S8192x192 .f32 := V c (Pipeline.arrRef spec23 0)
/-- The weight's scaled column group W₁. -/
abbrev wsc23 (c : Dev nD) : FVec Ideal S192x64 .f32 := V c (Pipeline.arrRef spec23 1)
/-- The weight's residual column group W₂. -/
abbrev wre23 (c : Dev nD) : FVec Ideal S192x128 .f32 := V c (Pipeline.arrRef spec23 2)
/-- The bias row b. -/
abbrev bia23 (c : Dev nD) : FVec Ideal S1x128 .f32 := V c (Pipeline.arrRef spec23 3)
/-- The column s of inverse row sums. -/
abbrev inv23 (c : Dev nD) : FVec Ideal S8192x1 .f32 := V c (Pipeline.arrRef spec23 4)

/-- Entry (p, q) of the scaled output. -/
def scaledAt23 (c : Dev nD) (p : Fin 8192) (q : Fin 64) : EReal :=
  (∑ l : Fin 192, xin23 V c (ix2 p l) * wsc23 V c (ix2 l q)) * inv23 V c (ix2 p (0 : Fin 1))

/-- Entry (p, q) of the residual output. -/
def residAt23 (c : Dev nD) (p : Fin 8192) (q : Fin 128) : EReal :=
  (∑ l : Fin 192, xin23 V c (ix2 p l) * wre23 V c (ix2 l q)) + bia23 V c (ix2 (0 : Fin 1) q)

/-- What the scaled output ends holding. -/
abbrev G23_5 (c : Dev nD) : FVec Ideal S8192x64 .bf16 := fun i => scaledAt23 V c ⟨(i 0).val, idx2_lt0 i⟩ ⟨(i 1).val, idx2_lt1 i⟩
/-- What the residual output ends holding. -/
abbrev G23_6 (c : Dev nD) : FVec Ideal S8192x128 .f32 := fun i => residAt23 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts23 : ∀ t : Fin cfg23.N,
    win23_0.index t (0 : Fin 2) = win23_5.index t (0 : Fin 2) ∧ win23_0.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = 0 ∧ win23_3.index t (1 : Fin 2) = 0
    ∧ win23_4.index t (0 : Fin 2) = win23_5.index t (0 : Fin 2) ∧ win23_4.index t (1 : Fin 2) = 0
    ∧ win23_5.index t (1 : Fin 2) = 0
    ∧ win23_6.index t (0 : Fin 2) = win23_5.index t (0 : Fin 2) ∧ win23_6.index t (1 : Fin 2) = 0
    ∧ win23_5.index t (0 : Fin 2) < 4 :=
  (by decide +kernel : ∀ t : Fin grid23.N, _)

/-- Every row block is some point's, for the scaled output … -/
theorem idx_onto23_5 : ∀ q0 : Fin 4, ∃ t : Fin cfg23.N, win23_5.index t = ![q0.val, 0] :=
  (by decide +kernel : ∀ q0 : Fin 4, ∃ t : Fin grid23.N, win23_5.index t = ![q0.val, 0])

/-- … and for the residual output. -/
theorem idx_onto23_6 : ∀ q0 : Fin 4, ∃ t : Fin cfg23.N, win23_6.index t = ![q0.val, 0] :=
  (by decide +kernel : ∀ q0 : Fin 4, ∃ t : Fin grid23.N, win23_6.index t = ![q0.val, 0])

/-! ## Output window 5: the scaled output -/

/-- WHAT POINT t WRITES BACK is block t of the scaled output's function of the arrays. -/
theorem flushed23_5_eq (c : Dev nD) (t : Fin cfg23.N) :
    (dat23 (F := Ideal) V c).flushed 5 t = ((cfg23.win 5).blk t).view.read (Elt Ideal) (G23_5 V c) := by
  show (cfg23.win 5).cut (grid23.coords t) ((dat23 (F := Ideal) V c).after 5 t) = _
  rw [after23_5]
  unfold out23_5
  rw [View.canon_unit_zero hz23]
  simp only [View.ld_unit_zero (S := S2048x192) hz23, View.ld_unit_zero (S := S192x64) hz23, View.ld_unit_zero (S := S2048x1) hz23]
  obtain ⟨e00, e01, e10, e11, e20, e21, e30, e31, e40, e41, e51, e60, e61, e5⟩ := idx_facts23 t
  funext j
  obtain ⟨a, b, rfl⟩ : ∃ (a : Fin 2048) (b : Fin 64), j = ix2 a b := ⟨j 0, j 1, eq_ix2 j⟩
  refine (scaled23_pay_apply (iblk23 V c 0 t) (iblk23 V c 1 t) (iblk23 V c 4 t) a b).trans ?_
  show (∑ l : Fin 192, xin23 V c (((cfg23.win 0).blk t).view.emb (ix2 a l)) * wsc23 V c (((cfg23.win 1).blk t).view.emb (ix2 l b)))
      * inv23 V c (((cfg23.win 4).blk t).view.emb (ix2 a (0 : Fin 1)))
    = scaledAt23 V c ⟨((((cfg23.win 5).blk t).view.emb (ix2 a b)) 0).val, _⟩ ⟨((((cfg23.win 5).blk t).view.emb (ix2 a b)) 1).val, _⟩
  unfold scaledAt23
  refine congr (congrArg _ (Finset.sum_congr rfl fun l _ => congr (congrArg _ (congrArg _ ?_)) (congrArg _ ?_))) (congrArg _ ?_)
  · funext d; apply Fin.ext
    match d with
    | ⟨0, _⟩ => show win23_0.index t (0 : Fin 2) * 2048 + 1 * a.val = win23_5.index t (0 : Fin 2) * 2048 + 1 * a.val; omega
    | ⟨1, _⟩ => show win23_0.index t (1 : Fin 2) * 192 + 1 * l.val = l.val; omega
  · funext d; apply Fin.ext
    match d with
    | ⟨0, _⟩ => show win23_1.index t (0 : Fin 2) * 192 + 1 * l.val = l.val; omega
    | ⟨1, _⟩ => show win23_1.index t (1 : Fin 2) * 64 + 1 * b.val = win23_5.index t (1 : Fin 2) * 64 + 1 * b.val; omega
  · funext d; apply Fin.ext
    match d with
    | ⟨0, _⟩ => show win23_4.index t (0 : Fin 2) * 2048 + 1 * a.val = win23_5.index t (0 : Fin 2) * 2048 + 1 * a.val; omega
    | ⟨1, _⟩ => show win23_4.index t (1 : Fin 2) * 1 + 1 * 0 = 0; omega

/-- An index of the scaled output is in point t's block iff each coordinate is in the block's range on its axis. -/
theorem mem_blk23_5 (t : Fin cfg23.N) (i : S8192x64.Idx) :
    i ∈ ((cfg23.win 5).blk t).view.set ↔ ∀ a : Fin 2, win23_5.index t a * S2048x64.size a ≤ (i a).val ∧ (i a).val < win23_5.index t a * S2048x64.size a + S2048x64.size a := by
  show i ∈ ((View.whole (Pipeline.arrRef spec23 5)).slice (win23_5.rect t)).set ↔ _
  rw [View.set_slice_whole, Rect.mem_set_unit]
  exact Iff.rfl

/-- Every index is in the block of the point of its row block, row / 2048. -/
theorem covered23_5 (i : S8192x64.Idx) :
    ∃ t : Fin cfg23.N, (cfg23.win 5).flush t = true ∧ i ∈ ((cfg23.win 5).blk t).view.set := by
  have hi0 : (i 0).val < 8192 := (i 0).isLt
  have hi1 : (i 1).val < 64 := (i 1).isLt
  obtain ⟨t, ht⟩ := idx_onto23_5 ⟨(i 0).val / 2048, by omega⟩
  have q0 : win23_5.index t (0 : Fin 2) = (i 0).val / 2048 := congrFun ht 0
  have q1 : win23_5.index t (1 : Fin 2) = 0 := congrFun ht 1
  refine ⟨t, flush23_5 t, ?_⟩
  rw [mem_blk23_5]
  intro a
  match a with
  | ⟨0, _⟩ => show win23_5.index t (0 : Fin 2) * 2048 ≤ (i 0).val ∧ (i 0).val < win23_5.index t (0 : Fin 2) * 2048 + 2048; omega
  | ⟨1, _⟩ => show win23_5.index t (1 : Fin 2) * 64 ≤ (i 1).val ∧ (i 1).val < win23_5.index t (1 : Fin 2) * 64 + 64; omega

/-- THE SCALED OUTPUT after the region. -/
theorem arr23_5 (c : Dev nD) : (dat23 (F := Ideal) V c).arrAt 5 cfg23.N = G23_5 V c :=
  (dat23 (F := Ideal) V c).arrAt_eq_of_cover 5 (G23_5 V c) (fun t _ => flushed23_5_eq V c t) covered23_5

theorem r23_scaled (c : Dev nD) (p : Fin 8192) (q : Fin 64) :
    (dat23 (F := Ideal) V c).arrAt 5 cfg23.N (ix2 p q)
      = (∑ l : Fin 192, xin23 V c (ix2 p l) * wsc23 V c (ix2 l q)) * inv23 V c (ix2 p (0 : Fin 1)) :=
  congrFun (arr23_5 V c) (ix2 p q)

/-! ## Output window 6: the residual output -/

/-- WHAT POINT t WRITES BACK is block t of the residual output's function of the arrays. -/
theorem flushed23_6_eq (c : Dev nD) (t : Fin cfg23.N) :
    (dat23 (F := Ideal) V c).flushed 6 t = ((cfg23.win 6).blk t).view.read (Elt Ideal) (G23_6 V c) := by
  show (cfg23.win 6).cut (grid23.coords t) ((dat23 (F := Ideal) V c).after 6 t) = _
  rw [after23_6]
  unfold out23_6
  rw [View.canon_unit_zero hz23]
  simp only [View.ld_unit_zero (S := S2048x192) hz23, View.ld_unit_zero (S := S192x128) hz23, View.ld_unit_zero (S := S1x128) hz23]
  obtain ⟨e00, e01, e10, e11, e20, e21, e30, e31, e40, e41, e51, e60, e61, e5⟩ := idx_facts23 t
  funext j
  obtain ⟨a, b, rfl⟩ : ∃ (a : Fin 2048) (b : Fin 128), j = ix2 a b := ⟨j 0, j 1, eq_ix2 j⟩
  refine (resid23_pay_apply (iblk23 V c 0 t) (iblk23 V c 2 t) (iblk23 V c 3 t) a b).trans ?_
  show (∑ l : Fin 192, xin23 V c (((cfg23.win 0).blk t).view.emb (ix2 a l)) * wre23 V c (((cfg23.win 2).blk t).view.emb (ix2 l b)))
      + bia23 V c (((cfg23.win 3).blk t).view.emb (ix2 (0 : Fin 1) b))
    = residAt23 V c ⟨((((cfg23.win 6).blk t).view.emb (ix2 a b)) 0).val, _⟩ ⟨((((cfg23.win 6).blk t).view.emb (ix2 a b)) 1).val, _⟩
  unfold residAt23
  refine congr (congrArg _ (Finset.sum_congr rfl fun l _ => congr (congrArg _ (congrArg _ ?_)) (congrArg _ ?_))) (congrArg _ ?_)
  · funext d; apply Fin.ext
    match d with
    | ⟨0, _⟩ => show win23_0.index t (0 : Fin 2) * 2048 + 1 * a.val = win23_6.index t (0 : Fin 2) * 2048 + 1 * a.val; omega
    | ⟨1, _⟩ => show win23_0.index t (1 : Fin 2) * 192 + 1 * l.val = l.val; omega
  · funext d; apply Fin.ext
    match d with
    | ⟨0, _⟩ => show win23_2.index t (0 : Fin 2) * 192 + 1 * l.val = l.val; omega
    | ⟨1, _⟩ => show win23_2.index t (1 : Fin 2) * 128 + 1 * b.val = win23_6.index t (1 : Fin 2) * 128 + 1 * b.val; omega
  · funext d; apply Fin.ext
    match d with
    | ⟨0, _⟩ => show win23_3.index t (0 : Fin 2) * 1 + 1 * 0 = 0; omega
    | ⟨1, _⟩ => show win23_3.index t (1 : Fin 2) * 128 + 1 * b.val = win23_6.index t (1 : Fin 2) * 128 + 1 * b.val; omega

/-- An index of the residual output is in point t's block iff each coordinate is in the block's range on its axis. -/
theorem mem_blk23_6 (t : Fin cfg23.N) (i : S8192x128.Idx) :
    i ∈ ((cfg23.win 6).blk t).view.set ↔ ∀ a : Fin 2, win23_6.index t a * S2048x128.size a ≤ (i a).val ∧ (i a).val < win23_6.index t a * S2048x128.size a + S2048x128.size a := by
  show i ∈ ((View.whole (Pipeline.arrRef spec23 6)).slice (win23_6.rect t)).set ↔ _
  rw [View.set_slice_whole, Rect.mem_set_unit]
  exact Iff.rfl

/-- Every index is in the block of the point of its row block, row / 2048. -/
theorem covered23_6 (i : S8192x128.Idx) :
    ∃ t : Fin cfg23.N, (cfg23.win 6).flush t = true ∧ i ∈ ((cfg23.win 6).blk t).view.set := by
  have hi0 : (i 0).val < 8192 := (i 0).isLt
  have hi1 : (i 1).val < 128 := (i 1).isLt
  obtain ⟨t, ht⟩ := idx_onto23_6 ⟨(i 0).val / 2048, by omega⟩
  have q0 : win23_6.index t (0 : Fin 2) = (i 0).val / 2048 := congrFun ht 0
  have q1 : win23_6.index t (1 : Fin 2) = 0 := congrFun ht 1
  refine ⟨t, flush23_6 t, ?_⟩
  rw [mem_blk23_6]
  intro a
  match a with
  | ⟨0, _⟩ => show win23_6.index t (0 : Fin 2) * 2048 ≤ (i 0).val ∧ (i 0).val < win23_6.index t (0 : Fin 2) * 2048 + 2048; omega
  | ⟨1, _⟩ => show win23_6.index t (1 : Fin 2) * 128 ≤ (i 1).val ∧ (i 1).val < win23_6.index t (1 : Fin 2) * 128 + 128; omega

/-- THE RESIDUAL OUTPUT after the region. -/
theorem arr23_6 (c : Dev nD) : (dat23 (F := Ideal) V c).arrAt 6 cfg23.N = G23_6 V c :=
  (dat23 (F := Ideal) V c).arrAt_eq_of_cover 6 (G23_6 V c) (fun t _ => flushed23_6_eq V c t) covered23_6

theorem r23_resid (c : Dev nD) (p : Fin 8192) (q : Fin 128) :
    (dat23 (F := Ideal) V c).arrAt 6 cfg23.N (ix2 p q)
      = (∑ l : Fin 192, xin23 V c (ix2 p l) * wre23 V c (ix2 l q)) + bia23 V c (ix2 (0 : Fin 1) q) :=
  congrFun (arr23_6 V c) (ix2 p q)

end Cert.KernelIdeal.KV

end
-- ==== Proof.KV.R24.lean ====
/-
  Region 24, an aggregation layer with rectifier and the residual average: what its output array holds after the region,
  entry by entry, as a function of the arrays the region finds.

  The body writes its output block [1024, 192] by two column slices: columns [0, 64) hold
  (H + max(A·S + b, 0))·½ and columns [64, 192) hold (H + max(R, 0))·½, where A is the row block of the adjacency, S the
  scaled features, b the bias row broadcast over the rows, R the row block of the other feature group, and H the same
  columns of the row block of the previous layer's features. The two slices are disjoint and cover the block, so each
  entry of the block is the payload of the slice that holds it. Row block t of the output array is written by grid
  point t (8 points of 1024 rows), and the points' blocks cover the array.
-/
import proofs.«405499_j28269474742810_3_alg».proof.Proof.Fr.KernelIdeal.Reg24
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r24_hz : (![0, 0] : Fin 2 → Nat) = fun _ => 0 := funext fun a => match a with | ⟨0, _⟩ => rfl | ⟨1, _⟩ => rfl

/-- The product's dimension numbers are those of a plain M×K by K×N product. -/
theorem r24_dot_plain : dot_S1024x8192_S8192x64_S1024x64_1_0_0_1_n_n = DotDims.plain 1024 8192 64 := rfl

/-- Columns [0, 64) at entry (a, b): the previous features' entry plus the rectified (product's entry plus the bias of
    column b), halved. -/
theorem r24_pay1_apply (x0 : Vec Ideal S1024x8192 .bf16) (x1 : Vec Ideal S8192x64 .bf16) (x3 : Vec Ideal S1x64 .f32)
    (u : Vec Ideal S1024x64 .f32) (a : Fin 1024) (b : Fin 64) :
    k24_pay1 (F := Ideal) x0 x1 x3 u (ix2 a b)
      = (u (ix2 a b) + max ((∑ k : Fin 8192, x0 (ix2 a k) * x1 (ix2 k b)) + x3 (ix2 (0 : Fin 1) b)) (Ideal.ofBits .f32 0x00000000#32))
          * Ideal.ofBits .f32 0x3F000000#32 := by
  unfold k24_pay1
  simp only [shapeCast_self]
  show (u (ix2 a b) + max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32)) * Ideal.ofBits .f32 0x3F000000#32 = _
  rw [r24_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the previous features' entry plus the other feature group's rectified entry, halved. -/
theorem r24_pay2_apply (x2 : Vec Ideal S1024x128 .f32) (u : Vec Ideal S1024x128 .f32) (a : Fin 1024) (b : Fin 128) :
    k24_pay2 (F := Ideal) x2 u (ix2 a b)
      = (u (ix2 a b) + max (x2 (ix2 a b)) (Ideal.ofBits .f32 0x00000000#32)) * Ideal.ofBits .f32 0x3F000000#32 := by
  unfold k24_pay2
  simp only [shapeCast_self]
  rfl

/-! ## What the body leaves in the output block: each entry is the payload of the slice that holds it -/

/-- An entry in columns [0, 64): off the later slice, under the earlier one. -/
theorem r24_out_lo (c : Dev nD) (i : grid24.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 64) (hy0 : (y 0).val = a.val) (hy1 : (y 1).val = b.val) :
    out24_A_5 (F := Ideal) c i a1 h1 a2 h2 a3 h3 a4 h4 a5 h5 a6 h6 x0 x1 x2 x3 x4 y
      = k24_pay1 (F := Ideal) x0 x1 x3
          (View.ld x4 (Rect.unit (s := S1024x192) ![0, 0] S1024x64.size inb_S1024x192_S1024x64_0_0)) (ix2 a b) := by
  unfold out24_A_5
  rw [View.read_writes_eq_canon _ _ _ (cover24_A_5 c i a1 h1 a2 h2 a3 h3 a4 h4 a5 h5 a6 h6 x0 x1 x2 x3 x4)]
  unfold kernelRun24_A
  dsimp only
  sl_unfold_words
  simp only [View.readAt_eq_ld, h1.read_unread, h2.read_unread, h3.read_unread, h4.read_unread, h5.read_unread,
    View.ld_unit_zero (S := S1024x8192) r24_hz, View.ld_unit_zero (S := S8192x64) r24_hz,
    View.ld_unit_zero (S := S1024x128) r24_hz, View.ld_unit_zero (S := S1x64) r24_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r24_out_hi (c : Dev nD) (i : grid24.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 128) (hy0 : (y 0).val = a.val) (hy1 : (y 1).val = 64 + b.val) :
    out24_A_5 (F := Ideal) c i a1 h1 a2 h2 a3 h3 a4 h4 a5 h5 a6 h6 x0 x1 x2 x3 x4 y
      = k24_pay2 (F := Ideal) x2
          (View.ld x4 (Rect.unit (s := S1024x192) ![0, 64] S1024x128.size inb_S1024x192_S1024x128_0_64)) (ix2 a b) := by
  unfold out24_A_5
  rw [View.read_writes_eq_canon _ _ _ (cover24_A_5 c i a1 h1 a2 h2 a3 h3 a4 h4 a5 h5 a6 h6 x0 x1 x2 x3 x4)]
  unfold kernelRun24_A
  dsimp only
  sl_unfold_words
  simp only [View.readAt_eq_ld, h1.read_unread, h2.read_unread, h3.read_unread, h4.read_unread, h5.read_unread,
    View.ld_unit_zero (S := S1024x8192) r24_hz, View.ld_unit_zero (S := S8192x64) r24_hz,
    View.ld_unit_zero (S := S1024x128) r24_hz, View.ld_unit_zero (S := S1x64) r24_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group, the bias row and the previous layer's
    features, as the region finds them. -/
abbrev r24_adj (c : Dev nD) : Vec Ideal S8192x8192 .bf16 := V c (Pipeline.arrRef spec24 0)
abbrev r24_scaled (c : Dev nD) : Vec Ideal S8192x64 .bf16 := V c (Pipeline.arrRef spec24 1)
abbrev r24_resid (c : Dev nD) : Vec Ideal S8192x128 .f32 := V c (Pipeline.arrRef spec24 2)
abbrev r24_bias (c : Dev nD) : Vec Ideal S1x64 .f32 := V c (Pipeline.arrRef spec24 3)
abbrev r24_prev (c : Dev nD) : Vec Ideal S8192x192 .f32 := V c (Pipeline.arrRef spec24 4)

/-- The windows' blocks at a point, at their literal types. -/
abbrev r24_b0 (c : Dev nD) (t : Fin cfg24.N) : Vec Ideal S1024x8192 .bf16 := iblk24 (F := Ideal) V c 0 t
abbrev r24_b1 (c : Dev nD) (t : Fin cfg24.N) : Vec Ideal S8192x64 .bf16 := iblk24 (F := Ideal) V c 1 t
abbrev r24_b2 (c : Dev nD) (t : Fin cfg24.N) : Vec Ideal S1024x128 .f32 := iblk24 (F := Ideal) V c 2 t
abbrev r24_b3 (c : Dev nD) (t : Fin cfg24.N) : Vec Ideal S1x64 .f32 := iblk24 (F := Ideal) V c 3 t
abbrev r24_b4 (c : Dev nD) (t : Fin cfg24.N) : Vec Ideal S1024x192 .f32 := iblk24 (F := Ideal) V c 4 t

/-- Entry (p, q) of the array the region leaves. -/
def r24_val (c : Dev nD) (p : Fin 8192) (q : Fin 192) : EReal :=
  if h : q.val < 64 then
    (r24_prev V c (ix2 p q)
      + max ((∑ k : Fin 8192, r24_adj V c (ix2 p k) * r24_scaled V c (ix2 k (⟨q.val, h⟩ : Fin 64)))
          + r24_bias V c (ix2 (0 : Fin 1) (⟨q.val, h⟩ : Fin 64))) (Ideal.ofBits .f32 0x00000000#32))
      * Ideal.ofBits .f32 0x3F000000#32
  else
    (r24_prev V c (ix2 p q)
      + max (r24_resid V c (ix2 p (⟨q.val - 64, by have := q.isLt; omega⟩ : Fin 128))) (Ideal.ofBits .f32 0x00000000#32))
      * Ideal.ofBits .f32 0x3F000000#32

/-- The array the region leaves. -/
def r24_G (c : Dev nD) : Vec Ideal S8192x192 .f32 := fun i => r24_val V c (i 0) (i 1)

/-- The printed index maps, decided over the grid: the row-blocked windows are at block row t, column block 0; the whole
    windows at block (0, 0). -/
theorem r24_idx_facts : ∀ t : Fin cfg24.N,
    win24_0.index t (0 : Fin 2) = t.val ∧ win24_0.index t (1 : Fin 2) = 0
    ∧ win24_1.index t (0 : Fin 2) = 0 ∧ win24_1.index t (1 : Fin 2) = 0
    ∧ win24_2.index t (0 : Fin 2) = t.val ∧ win24_2.index t (1 : Fin 2) = 0
    ∧ win24_3.index t (0 : Fin 2) = 0 ∧ win24_3.index t (1 : Fin 2) = 0
    ∧ win24_4.index t (0 : Fin 2) = t.val ∧ win24_4.index t (1 : Fin 2) = 0
    ∧ win24_5.index t (0 : Fin 2) = t.val ∧ win24_5.index t (1 : Fin 2) = 0 :=
  (by decide +kernel : ∀ t : Fin grid24.N, _)

/-- Row block t of the adjacency: entry (a, k) of the block is entry (1024 t + a, k) of the array. -/
theorem r24_b0_apply (c : Dev nD) (t : Fin cfg24.N) (a : Fin 1024) (k : Fin 8192) (p : Fin 8192)
    (hp : p.val = t.val * 1024 + a.val) : r24_b0 V c t (ix2 a k) = r24_adj V c (ix2 p k) := by
  obtain ⟨e00, e01, -⟩ := r24_idx_facts t
  show V c (Pipeline.arrRef spec24 0) (((cfg24.win 0).blk t).view.emb (ix2 a k)) = V c (Pipeline.arrRef spec24 0) (ix2 p k)
  refine congrArg _ (funext fun d => Fin.ext ?_)
  match d with
  | ⟨0, _⟩ => show win24_0.index t (0 : Fin 2) * 1024 + 1 * a.val = p.val; omega
  | ⟨1, _⟩ => show win24_0.index t (1 : Fin 2) * 8192 + 1 * k.val = k.val; omega

/-- The scaled features' one block is the array. -/
theorem r24_b1_apply (c : Dev nD) (t : Fin cfg24.N) (k : Fin 8192) (b : Fin 64) :
    r24_b1 V c t (ix2 k b) = r24_scaled V c (ix2 k b) := by
  obtain ⟨-, -, e10, e11, -⟩ := r24_idx_facts t
  show V c (Pipeline.arrRef spec24 1) (((cfg24.win 1).blk t).view.emb (ix2 k b)) = V c (Pipeline.arrRef spec24 1) (ix2 k b)
  refine congrArg _ (funext fun d => Fin.ext ?_)
  match d with
  | ⟨0, _⟩ => show win24_1.index t (0 : Fin 2) * 8192 + 1 * k.val = k.val; omega
  | ⟨1, _⟩ => show win24_1.index t (1 : Fin 2) * 64 + 1 * b.val = b.val; omega

/-- Row block t of the other feature group. -/
theorem r24_b2_apply (c : Dev nD) (t : Fin cfg24.N) (a : Fin 1024) (b : Fin 128) (p : Fin 8192)
    (hp : p.val = t.val * 1024 + a.val) : r24_b2 V c t (ix2 a b) = r24_resid V c (ix2 p b) := by
  obtain ⟨-, -, -, -, e20, e21, -⟩ := r24_idx_facts t
  show V c (Pipeline.arrRef spec24 2) (((cfg24.win 2).blk t).view.emb (ix2 a b)) = V c (Pipeline.arrRef spec24 2) (ix2 p b)
  refine congrArg _ (funext fun d => Fin.ext ?_)
  match d with
  | ⟨0, _⟩ => show win24_2.index t (0 : Fin 2) * 1024 + 1 * a.val = p.val; omega
  | ⟨1, _⟩ => show win24_2.index t (1 : Fin 2) * 128 + 1 * b.val = b.val; omega

/-- The bias row's one block is the array. -/
theorem r24_b3_apply (c : Dev nD) (t : Fin cfg24.N) (b : Fin 64) :
    r24_b3 V c t (ix2 (0 : Fin 1) b) = r24_bias V c (ix2 (0 : Fin 1) b) := by
  obtain ⟨-, -, -, -, -, -, e30, e31, -⟩ := r24_idx_facts t
  show V c (Pipeline.arrRef spec24 3) (((cfg24.win 3).blk t).view.emb (ix2 (0 : Fin 1) b)) = V c (Pipeline.arrRef spec24 3) (ix2 (0 : Fin 1) b)
  refine congrArg _ (funext fun d => Fin.ext ?_)
  match d with
  | ⟨0, _⟩ => show win24_3.index t (0 : Fin 2) * 1 + 1 * 0 = 0; omega
  | ⟨1, _⟩ => show win24_3.index t (1 : Fin 2) * 64 + 1 * b.val = b.val; omega

/-- Row block t of the previous layer's features: entry y of the block is entry (1024 t + y₀, y₁) of the array. -/
theorem r24_b4_apply (c : Dev nD) (t : Fin cfg24.N) (y : S1024x192.Idx) (p : Fin 8192) (q : Fin 192)
    (hp : p.val = t.val * 1024 + (y 0).val) (hq : q.val = (y 1).val) : r24_b4 V c t y = r24_prev V c (ix2 p q) := by
  obtain ⟨-, -, -, -, -, -, -, -, e40, e41, -⟩ := r24_idx_facts t
  show V c (Pipeline.arrRef spec24 4) (((cfg24.win 4).blk t).view.emb y) = V c (Pipeline.arrRef spec24 4) (ix2 p q)
  refine congrArg _ (funext fun d => Fin.ext ?_)
  match d with
  | ⟨0, _⟩ => show win24_4.index t (0 : Fin 2) * 1024 + 1 * (y 0).val = p.val; omega
  | ⟨1, _⟩ => show win24_4.index t (1 : Fin 2) * 192 + 1 * (y 1).val = q.val; omega

/-- WHAT POINT t WRITES BACK is block t of the array the region leaves. -/
theorem r24_flushed_eq (c : Dev nD) (t : Fin cfg24.N) :
    (dat24 (F := Ideal) V c).flushed 5 t = ((cfg24.win 5).blk t).view.read (Elt Ideal) (r24_G V c) := by
  show (cfg24.win 5).cut (grid24.coords t) ((dat24 (F := Ideal) V c).after 5 t) = _
  rw [after24_5]
  obtain ⟨-, -, -, -, -, -, -, -, -, -, e50, e51⟩ := r24_idx_facts t
  funext j
  have hj0 : (j 0).val < 1024 := (j 0).isLt
  have hj1 : (j 1).val < 192 := (j 1).isLt
  have ht : t.val < 8 := lt_of_lt_of_eq t.isLt N_24
  have hp : t.val * 1024 + (j 0).val < 8192 := by omega
  have hemb : ((cfg24.win 5).blk t).view.emb j
      = ix2 (⟨t.val * 1024 + (j 0).val, hp⟩ : Fin 8192) (⟨(j 1).val, hj1⟩ : Fin 192) := by
    funext d; apply Fin.ext
    match d with
    | ⟨0, _⟩ => show win24_5.index t (0 : Fin 2) * 1024 + 1 * (j 0).val = t.val * 1024 + (j 0).val; omega
    | ⟨1, _⟩ => show win24_5.index t (1 : Fin 2) * 192 + 1 * (j 1).val = (j 1).val; omega
  show outsAt24 (F := Ideal) V c t ((cfg24.win 5).xinj (grid24.coords t) j) = r24_G V c (((cfg24.win 5).blk t).view.emb j)
  rw [hemb]
  show _ = r24_val V c (⟨t.val * 1024 + (j 0).val, hp⟩ : Fin 8192) (⟨(j 1).val, hj1⟩ : Fin 192)
  unfold outsAt24 r24_val
  by_cases h : (j 1).val < 64
  · rw [dif_pos h]
    refine (r24_out_lo c (grid24.coords t) (ms24_0 t) (hs24_0 t) (ms24_1 t) (hs24_1 t) (ms24_2 t) (hs24_2 t) (ms24_3 t) (hs24_3 t)
      (ms24_4 t) (hs24_4 t) (ms24_5 t) (hs24_5 t) (r24_b0 V c t) (r24_b1 V c t) (r24_b2 V c t) (r24_b3 V c t) (r24_b4 V c t)
      ((cfg24.win 5).xinj (grid24.coords t) j) (⟨(j 0).val, hj0⟩ : Fin 1024) (⟨(j 1).val, h⟩ : Fin 64) rfl rfl).trans ?_
    refine (r24_pay1_apply (r24_b0 V c t) (r24_b1 V c t) (r24_b3 V c t)
      (View.ld (r24_b4 V c t) (Rect.unit (s := S1024x192) ![0, 0] S1024x64.size inb_S1024x192_S1024x64_0_0))
      (⟨(j 0).val, hj0⟩ : Fin 1024) (⟨(j 1).val, h⟩ : Fin 64)).trans ?_
    refine congrArg₂ (· * ·) (congrArg₂ (· + ·)
      (r24_b4_apply V c t
        ((Rect.unit (s := S1024x192) ![0, 0] S1024x64.size inb_S1024x192_S1024x64_0_0).idx
          (ix2 (⟨(j 0).val, hj0⟩ : Fin 1024) (⟨(j 1).val, h⟩ : Fin 64)))
        (⟨t.val * 1024 + (j 0).val, hp⟩ : Fin 8192) (⟨(j 1).val, hj1⟩ : Fin 192)
        (by show t.val * 1024 + (j 0).val = t.val * 1024 + (0 + 1 * (j 0).val); omega)
        (by show (j 1).val = 0 + 1 * (j 1).val; omega))
      (congrArg₂ max (congrArg₂ (· + ·) (Finset.sum_congr rfl fun k _ =>
        congrArg₂ (· * ·) (r24_b0_apply V c t (⟨(j 0).val, hj0⟩ : Fin 1024) k (⟨t.val * 1024 + (j 0).val, hp⟩ : Fin 8192) rfl)
          (r24_b1_apply V c t k (⟨(j 1).val, h⟩ : Fin 64))) (r24_b3_apply V c t (⟨(j 1).val, h⟩ : Fin 64))) rfl)) rfl
  · rw [dif_neg h]
    have h128 : (j 1).val - 64 < 128 := by omega
    refine (r24_out_hi c (grid24.coords t) (ms24_0 t) (hs24_0 t) (ms24_1 t) (hs24_1 t) (ms24_2 t) (hs24_2 t) (ms24_3 t) (hs24_3 t)
      (ms24_4 t) (hs24_4 t) (ms24_5 t) (hs24_5 t) (r24_b0 V c t) (r24_b1 V c t) (r24_b2 V c t) (r24_b3 V c t) (r24_b4 V c t)
      ((cfg24.win 5).xinj (grid24.coords t) j) (⟨(j 0).val, hj0⟩ : Fin 1024) (⟨(j 1).val - 64, h128⟩ : Fin 128) rfl
      (by show (j 1).val = 64 + ((j 1).val - 64); omega)).trans ?_
    refine (r24_pay2_apply (r24_b2 V c t)
      (View.ld (r24_b4 V c t) (Rect.unit (s := S1024x192) ![0, 64] S1024x128.size inb_S1024x192_S1024x128_0_64))
      (⟨(j 0).val, hj0⟩ : Fin 1024) (⟨(j 1).val - 64, h128⟩ : Fin 128)).trans ?_
    exact congrArg₂ (· * ·) (congrArg₂ (· + ·)
      (r24_b4_apply V c t
        ((Rect.unit (s := S1024x192) ![0, 64] S1024x128.size inb_S1024x192_S1024x128_0_64).idx
          (ix2 (⟨(j 0).val, hj0⟩ : Fin 1024) (⟨(j 1).val - 64, h128⟩ : Fin 128)))
        (⟨t.val * 1024 + (j 0).val, hp⟩ : Fin 8192) (⟨(j 1).val, hj1⟩ : Fin 192)
        (by show t.val * 1024 + (j 0).val = t.val * 1024 + (0 + 1 * (j 0).val); omega)
        (by show (j 1).val = 64 + 1 * ((j 1).val - 64); omega))
      (congrArg₂ max (r24_b2_apply V c t (⟨(j 0).val, hj0⟩ : Fin 1024) (⟨(j 1).val - 64, h128⟩ : Fin 128)
        (⟨t.val * 1024 + (j 0).val, hp⟩ : Fin 8192) rfl) rfl)) rfl

/-! ## The points' blocks cover the array -/

/-- An index of the array is in point t's block iff each coordinate is in the block's range on its axis. -/
theorem r24_mem_blk (t : Fin cfg24.N) (i : S8192x192.Idx) :
    i ∈ ((cfg24.win 5).blk t).view.set ↔ ∀ a : Fin 2, win24_5.index t a * S1024x192.size a ≤ (i a).val
      ∧ (i a).val < win24_5.index t a * S1024x192.size a + S1024x192.size a := by
  show i ∈ ((View.whole (Pipeline.arrRef spec24 5)).slice (win24_5.rect t)).set ↔ _
  rw [View.set_slice_whole, Rect.mem_set_unit]
  exact Iff.rfl

/-- Row r of the array is in the block of point r / 1024. -/
theorem r24_cover (i : S8192x192.Idx) :
    ∃ t : Fin cfg24.N, (cfg24.win 5).flush t = true ∧ i ∈ ((cfg24.win 5).blk t).view.set := by
  have hi0 : (i 0).val < 8192 := (i 0).isLt
  have hi1 : (i 1).val < 192 := (i 1).isLt
  have hlt : (i 0).val / 1024 < cfg24.N := lt_of_lt_of_eq (by omega : (i 0).val / 1024 < 8) N_24.symm
  obtain ⟨-, -, -, -, -, -, -, -, -, -, e50, e51⟩ := r24_idx_facts ⟨(i 0).val / 1024, hlt⟩
  refine ⟨⟨(i 0).val / 1024, hlt⟩, flush24_5 _, ?_⟩
  rw [r24_mem_blk]
  intro a
  match a with
  | ⟨0, _⟩ =>
    show win24_5.index ⟨(i 0).val / 1024, hlt⟩ (0 : Fin 2) * 1024 ≤ (i 0).val
      ∧ (i 0).val < win24_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win24_5.index ⟨(i 0).val / 1024, hlt⟩ (1 : Fin 2) * 192 ≤ (i 1).val
      ∧ (i 1).val < win24_5.index ⟨(i 0).val / 1024, hlt⟩ (1 : Fin 2) * 192 + 192
    rw [e51]; omega

/-! ## The output array after the region -/

/-- The output array ends holding the array of the entries above. -/
theorem r24_final (c : Dev nD) : (dat24 (F := Ideal) V c).arrAt 5 cfg24.N = r24_G V c :=
  (dat24 (F := Ideal) V c).arrAt_eq_of_cover 5 (r24_G V c) (fun t _ => r24_flushed_eq V c t) r24_cover

/-- Columns [0, 64): the average of the previous features and the aggregated, biased, rectified features. -/
theorem r24_lo (c : Dev nD) (p : Fin 8192) (q : Fin 64) :
    (dat24 (F := Ideal) V c).arrAt 5 cfg24.N (ix2 p (⟨q.val, by have := q.isLt; omega⟩ : Fin 192))
      = (r24_prev V c (ix2 p (⟨q.val, by have := q.isLt; omega⟩ : Fin 192))
          + max ((∑ k : Fin 8192, r24_adj V c (ix2 p k) * r24_scaled V c (ix2 k q)) + r24_bias V c (ix2 (0 : Fin 1) q))
              (Ideal.ofBits .f32 0x00000000#32)) * Ideal.ofBits .f32 0x3F000000#32 := by
  rw [r24_final]
  show r24_val V c p (⟨q.val, _⟩ : Fin 192) = _
  unfold r24_val
  rw [dif_pos (show (⟨q.val, _⟩ : Fin 192).val < 64 from q.isLt)]

/-- Columns [64, 192): the average of the previous features and the other feature group rectified. -/
theorem r24_hi (c : Dev nD) (p : Fin 8192) (q : Fin 128) :
    (dat24 (F := Ideal) V c).arrAt 5 cfg24.N (ix2 p (⟨64 + q.val, by have := q.isLt; omega⟩ : Fin 192))
      = (r24_prev V c (ix2 p (⟨64 + q.val, by have := q.isLt; omega⟩ : Fin 192))
          + max (r24_resid V c (ix2 p q)) (Ideal.ofBits .f32 0x00000000#32)) * Ideal.ofBits .f32 0x3F000000#32 := by
  rw [r24_final]
  show r24_val V c p (⟨64 + q.val, _⟩ : Fin 192) = _
  unfold r24_val
  rw [dif_neg (show ¬ (⟨64 + q.val, _⟩ : Fin 192).val < 64 from by show ¬ 64 + q.val < 64; omega)]
  refine congrArg₂ (· * ·) (congrArg₂ (· + ·) rfl (congrArg₂ max (congrArg _ (congrArg (ix2 p) (Fin.ext ?_))) rfl)) rfl
  show 64 + q.val - 64 = q.val
  omega

end Cert.KernelIdeal.KV

end
-- ==== Proof.KV.L12.lean ====
/-
  Layer 12 of the first program (a middle layer with the residual-and-halve step, weight page 10): what its two
  pallas_calls leave in the output array, entry by entry, is the layer's specification applied to the entries of its input array.
-/
import proofs.«405499_j28269474742810_3_alg».proof.Proof.KV.R23
import proofs.«405499_j28269474742810_3_alg».proof.Proof.KV.R24
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L12_w (c : Dev nD) : V35 m ρ c main_arg5 = m ((c : Thread nD τ).loc main_arg5) := tr_main_arg5_0_35 m ρ c
theorem L12_b (c : Dev nD) : V35 m ρ c main_arg6 = m ((c : Thread nD τ).loc main_arg6) := tr_main_arg6_0_35 m ρ c

/-- The scaled column group of the layer's weights, at an entry. -/
theorem L12_ws (c : Dev nD) (l : Fin 192) (q : Fin 64) : V36 m ρ c main_v134 (ix2 l q) = (P m c).Wm 10 l ⟨q.val, by omega⟩ := by
  have e : V36 m ρ c main_v134 = extractStridedSlice S192x64 ![0, 0] (shapeCast S192x192 (extractStridedSlice S1x192x192 ![10, 0, 0] (V35 m ρ c main_arg5) slices_S12x192x192_S1x192x192_10_0_0) shapeCasts_S1x192x192_S192x192) slices_S192x192_S192x64_0_0 := by
    show StableHlo.after hostOps23 (W35 m ρ c) (Proc.devRef .tc main_v134) = _
    after_results <;> rfl
  rw [e, Cert.Slices.cols_apply _ 0 _ l q (by omega), Cert.Slices.page_apply _ 10 (by omega), L12_w]
  show _ = m ((c : Thread nD τ).loc main_arg5) (ix3 (10 : Fin 12) l ⟨q.val, by omega⟩)
  congr 2
  exact Fin.ext (Nat.zero_add _)

/-- The pass-through column group of the layer's weights, at an entry. -/
theorem L12_wr (c : Dev nD) (l : Fin 192) (q : Fin 128) : V36 m ρ c main_v135 (ix2 l q) = (P m c).Wm 10 l ⟨64 + q.val, by omega⟩ := by
  have e : V36 m ρ c main_v135 = extractStridedSlice S192x128 ![0, 64] (shapeCast S192x192 (extractStridedSlice S1x192x192 ![10, 0, 0] (V35 m ρ c main_arg5) slices_S12x192x192_S1x192x192_10_0_0) shapeCasts_S1x192x192_S192x192) slices_S192x192_S192x128_0_64 := by
    show StableHlo.after hostOps23 (W35 m ρ c) (Proc.devRef .tc main_v135) = _
    after_results <;> rfl
  rw [e, Cert.Slices.cols_apply _ 64 _ l q (by omega), Cert.Slices.page_apply _ 10 (by omega), L12_w]
  rfl

/-- The bias of the scaled columns, one row, at an entry. -/
theorem L12_bs (c : Dev nD) (q : Fin 64) : V36 m ρ c main_v137 (ix2 (0 : Fin 1) q) = (P m c).bm 10 ⟨q.val, by omega⟩ := by
  have e : V36 m ρ c main_v137 = shapeCast S1x64 (extractStridedSlice S64 ![0] (shapeCast S192 (extractStridedSlice S1x192 ![10, 0] (V35 m ρ c main_arg6) slices_S12x192_S1x192_10_0) shapeCasts_S1x192_S192) slices_S192_S64_0) shapeCasts_S64_S1x64 := by
    show StableHlo.after hostOps23 (W35 m ρ c) (Proc.devRef .tc main_v137) = _
    after_results <;> rfl
  rw [e, Cert.Slices.seg_row_apply _ 0 _ _ (0 : Fin 1) q (by omega), Cert.Slices.row_apply _ 10 (by omega), L12_b]
  show _ = m ((c : Thread nD τ).loc main_arg6) (ix2 (10 : Fin 12) ⟨q.val, by omega⟩)
  congr 2
  exact Fin.ext (Nat.zero_add _)

/-- The bias of the pass-through columns, one row, at an entry. -/
theorem L12_br (c : Dev nD) (q : Fin 128) : V36 m ρ c main_v139 (ix2 (0 : Fin 1) q) = (P m c).bm 10 ⟨64 + q.val, by omega⟩ := by
  have e : V36 m ρ c main_v139 = shapeCast S1x128 (extractStridedSlice S128 ![64] (shapeCast S192 (extractStridedSlice S1x192 ![10, 0] (V35 m ρ c main_arg6) slices_S12x192_S1x192_10_0) shapeCasts_S1x192_S192) slices_S192_S128_64) shapeCasts_S128_S1x128 := by
    show StableHlo.after hostOps23 (W35 m ρ c) (Proc.devRef .tc main_v139) = _
    after_results <;> rfl
  rw [e, Cert.Slices.seg_row_apply _ 64 _ _ (0 : Fin 1) q (by omega), Cert.Slices.row_apply _ 10 (by omega), L12_b]
  rfl

/-- THE LAYER: the output array after its second pallas_call, at (p, j), is the layer's specification of the input array's entries and of the residual array's. -/
theorem L12_out (c : Dev nD) (x : Cert.Spec.Mx 8192 192) (hx : ∀ k l, V35 m ρ c main_v129 (ix2 k l) = x k l)
    (prev : Cert.Spec.Mx 8192 192) (hprev : ∀ p j, V32 m ρ c main_v117 (ix2 p j) = prev p j)
    (p : Fin 8192) (j : Fin 192) : V38 m ρ c main_v141 (ix2 p j) = Cert.Spec.residK (P m c) 10 prev x p j := by
  unfold Cert.Spec.residK Cert.Spec.resK Cert.Spec.relu
  have hp : ∀ p j, V37 m ρ c main_v117 (ix2 p j) = prev p j := fun p j =>
    (congrFun (tr_main_v117_32_37 m ρ c) (ix2 p j)).trans (hprev p j)
  refine Cert.Spec.layer_assemble (S := 64) (R := 128) (O := 192) rfl (P m c).A x ((P m c).Wm 10) ((P m c).bm 10)
    (fun k => V36 m ρ c main_v1_1 (ix2 k (0 : Fin 1))) (fun k => ?hinv)
    (fun k q => V37 m ρ c main_v140_0 (ix2 k q)) (fun k q => ?hsc)
    (fun p q => V37 m ρ c main_v140_1 (ix2 p q)) (fun p q => ?hrs)
    (fun p j y => (prev p j + max y Cert.Spec.zero) * Cert.Spec.half) (fun p j => V38 m ρ c main_v141 (ix2 p j)) (fun p q => ?hlo) (fun p q => ?hhi) p j
  case hinv =>
    exact (congrFun (tr_main_v1_1_2_36 m ρ c) (ix2 k (0 : Fin 1))).trans (inv_W2 m ρ c k)
  case hsc =>
    refine (congrFun (W37_arr m ρ c 5) (ix2 k q)).trans ((r23_scaled (V36 m ρ) c k q).trans ?_)
    refine congrArg (· * _) (Finset.sum_congr rfl fun l _ => ?_)
    exact congrArg₂ (· * ·) ((congrFun (tr_main_v129_35_36 m ρ c) (ix2 k l)).trans (hx k l)) (L12_ws m ρ c l q)
  case hrs =>
    refine (congrFun (W37_arr m ρ c 6) (ix2 p q)).trans ((r23_resid (V36 m ρ) c p q).trans ?_)
    refine congrArg₂ (· + ·) (Finset.sum_congr rfl fun l _ => ?_) (L12_br m ρ c q)
    exact congrArg₂ (· * ·) ((congrFun (tr_main_v129_35_36 m ρ c) (ix2 p l)).trans (hx p l)) (L12_wr m ρ c l q)
  case hlo =>
    refine (congrFun (W38_arr m ρ c 5) (ix2 p _)).trans ((r24_lo (V37 m ρ) c p q).trans ?_)
    refine congrArg (· * _) (congrArg₂ (· + ·) (hp p _) (congrArg (max · _) ?_))
    refine congrArg₂ (· + ·) (Finset.sum_congr rfl fun k _ => ?_)
      ((congrFun (tr_main_v137_36_37 m ρ c) (ix2 (0 : Fin 1) q)).trans (L12_bs m ρ c q))
    exact congrArg (· * _) ((congrFun (tr_main_v1_0_2_37 m ρ c) (ix2 p k)).trans (adjb_W2 m ρ c p k))
  case hhi =>
    refine (congrFun (W38_arr m ρ c 5) (ix2 p _)).trans ((r24_hi (V37 m ρ) c p q).trans ?_)
    exact congrArg (· * _) (congrArg (· + _) (hp p _))

end Cert.KernelIdeal.KV

end
-- ==== Proof.KV.R25.lean ====
/-
  Region 25 (a layer's support kernel), read at the extended reals. With x the layer's input [8192, 192], W₁ [192, 64] and
  W₂ [192, 128] the two column groups of the weight, b the bias row [1, 128] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg25
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz25 : (![0, 0] : Fin 2 → Nat) = fun _ => 0 := funext fun a => by fin_cases a <;> rfl

/-! ## The payloads at an index -/

/-- The generated dimension record of the [2048,192]·[192,64] product is the plain one. -/
theorem dot25_scaled_eq : dot_S2048x192_S192x64_S2048x64_1_0_0_1_n_n = DotDims.plain 2048 192 64 := rfl
/-- The generated dimension record of the [2048,192]·[192,128] product is the plain one. -/
theorem dot25_resid_eq : dot_S2048x192_S192x128_S2048x128_1_0_0_1_n_n = DotDims.plain 2048 192 128 := rfl

/-- The narrowed copy of the x block is the x block (a format change is the identity on extended reals). -/
theorem xcast25_eq (v0 : FVec Ideal S2048x192 .f32) : k25_pay1 (F := Ideal) v0 = v0 := by
  unfold k25_pay1
  exact shapeCast_self v0 _

/-- The scaled payload at (a, b): (∑ₗ x(a, l) · W₁(l, b)) · s(a, 0). -/
theorem scaled25_pay_apply (v0 : FVec Ideal S2048x192 .f32) (v3 : FVec Ideal S192x64 .f32) (v11 : FVec Ideal S2048x1 .f32)
    (a : Fin 2048) (b : Fin 64) :
    k25_pay3 (F := Ideal) v0 v3 v11 (ix2 a b) = (∑ l : Fin 192, v0 (ix2 a l) * v3 (ix2 l b)) * v11 (ix2 a (0 : Fin 1)) := by
  unfold k25_pay3
  simp only [xcast25_eq, shapeCast_self]
  show (matmul dot_S2048x192_S192x64_S2048x64_1_0_0_1_n_n none v0 v3 (constant (F := Ideal) S2048x64 .f32 0x00000000#32) (ix2 a b))
    * (broadcastTo S2048x64 v11 broadcasts_S2048x1_S2048x64 (ix2 a b)) = _
  rw [dot25_scaled_eq]
  exact congr (congrArg _ (LibPlainMatmul.matmul_zero_apply 2048 192 64 none v0 v3 a b))
    (LibKeepdims.broadcastTo_a1_ab_apply v11 broadcasts_S2048x1_S2048x64 a b)

/-- The residual payload at (a, b): (∑ₗ x(a, l) · W₂(l, b)) + b(0, b). -/
theorem resid25_pay_apply (v0 : FVec Ideal S2048x192 .f32) (v6 : FVec Ideal S192x128 .f32) (v15 : FVec Ideal S1x128 .f32)
    (a : Fin 2048) (b : Fin 128) :
    k25_pay2 (F := Ideal) v0 v6 v15 (ix2 a b) = (∑ l : Fin 192, v0 (ix2 a l) * v6 (ix2 l b)) + v15 (ix2 (0 : Fin 1) b) := by
  unfold k25_pay2
  simp only [xcast25_eq, shapeCast_self]
  show (matmul dot_S2048x192_S192x128_S2048x128_1_0_0_1_n_n none v0 v6 (constant (F := Ideal) S2048x128 .f32 0x00000000#32) (ix2 a b))
    + (broadcastTo S2048x128 v15 broadcasts_S1x128_S2048x128 (ix2 a b)) = _
  rw [dot25_resid_eq]
  refine congr (congrArg _ (LibPlainMatmul.matmul_zero_apply 2048 192 128 none v0 v6 a b)) ?_
  refine broadcastTo_apply v15 broadcasts_S1x128_S2048x128 (ix2 a b) (ix2 (0 : Fin 1) b) fun ax => ?_
  match ax with
  | ⟨0, _⟩ => rfl
  | ⟨1, _⟩ => rfl

/-! ## The arrays as the region finds them -/

/-- The layer's input x. -/
abbrev xin25 (c : Dev nD) : FVec Ideal S8192x192 .f32 := V c (Pipeline.arrRef spec25 0)
/-- The weight's scaled column group W₁. -/
abbrev wsc25 (c : Dev nD) : FVec Ideal S192x64 .f32 := V c (Pipeline.arrRef spec25 1)
/-- The weight's residual column group W₂. -/
abbrev wre25 (c : Dev nD) : FVec Ideal S192x128 .f32 := V c (Pipeline.arrRef spec25 2)
/-- The bias row b. -/
abbrev bia25 (c : Dev nD) : FVec Ideal S1x128 .f32 := V c (Pipeline.arrRef spec25 3)
/-- The column s of inverse row sums. -/
abbrev inv25 (c : Dev nD) : FVec Ideal S8192x1 .f32 := V c (Pipeline.arrRef spec25 4)

/-- Entry (p, q) of the scaled output. -/
def scaledAt25 (c : Dev nD) (p : Fin 8192) (q : Fin 64) : EReal :=
  (∑ l : Fin 192, xin25 V c (ix2 p l) * wsc25 V c (ix2 l q)) * inv25 V c (ix2 p (0 : Fin 1))

/-- Entry (p, q) of the residual output. -/
def residAt25 (c : Dev nD) (p : Fin 8192) (q : Fin 128) : EReal :=
  (∑ l : Fin 192, xin25 V c (ix2 p l) * wre25 V c (ix2 l q)) + bia25 V c (ix2 (0 : Fin 1) q)

/-- What the scaled output ends holding. -/
abbrev G25_5 (c : Dev nD) : FVec Ideal S8192x64 .bf16 := fun i => scaledAt25 V c ⟨(i 0).val, idx2_lt0 i⟩ ⟨(i 1).val, idx2_lt1 i⟩
/-- What the residual output ends holding. -/
abbrev G25_6 (c : Dev nD) : FVec Ideal S8192x128 .f32 := fun i => residAt25 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts25 : ∀ t : Fin cfg25.N,
    win25_0.index t (0 : Fin 2) = win25_5.index t (0 : Fin 2) ∧ win25_0.index t (1 : Fin 2) = 0
    ∧ win25_1.index t (0 : Fin 2) = 0 ∧ win25_1.index t (1 : Fin 2) = 0
    ∧ win25_2.index t (0 : Fin 2) = 0 ∧ win25_2.index t (1 : Fin 2) = 0
    ∧ win25_3.index t (0 : Fin 2) = 0 ∧ win25_3.index t (1 : Fin 2) = 0
    ∧ win25_4.index t (0 : Fin 2) = win25_5.index t (0 : Fin 2) ∧ win25_4.index t (1 : Fin 2) = 0
    ∧ win25_5.index t (1 : Fin 2) = 0
    ∧ win25_6.index t (0 : Fin 2) = win25_5.index t (0 : Fin 2) ∧ win25_6.index t (1 : Fin 2) = 0
    ∧ win25_5.index t (0 : Fin 2) < 4 :=
  (by decide +kernel : ∀ t : Fin grid25.N, _)

/-- Every row block is some point's, for the scaled output … -/
theorem idx_onto25_5 : ∀ q0 : Fin 4, ∃ t : Fin cfg25.N, win25_5.index t = ![q0.val, 0] :=
  (by decide +kernel : ∀ q0 : Fin 4, ∃ t : Fin grid25.N, win25_5.index t = ![q0.val, 0])

/-- … and for the residual output. -/
theorem idx_onto25_6 : ∀ q0 : Fin 4, ∃ t : Fin cfg25.N, win25_6.index t = ![q0.val, 0] :=
  (by decide +kernel : ∀ q0 : Fin 4, ∃ t : Fin grid25.N, win25_6.index t = ![q0.val, 0])

/-! ## Output window 5: the scaled output -/

/-- WHAT POINT t WRITES BACK is block t of the scaled output's function of the arrays. -/
theorem flushed25_5_eq (c : Dev nD) (t : Fin cfg25.N) :
    (dat25 (F := Ideal) V c).flushed 5 t = ((cfg25.win 5).blk t).view.read (Elt Ideal) (G25_5 V c) := by
  show (cfg25.win 5).cut (grid25.coords t) ((dat25 (F := Ideal) V c).after 5 t) = _
  rw [after25_5]
  unfold out25_5
  rw [View.canon_unit_zero hz25]
  simp only [View.ld_unit_zero (S := S2048x192) hz25, View.ld_unit_zero (S := S192x64) hz25, View.ld_unit_zero (S := S2048x1) hz25]
  obtain ⟨e00, e01, e10, e11, e20, e21, e30, e31, e40, e41, e51, e60, e61, e5⟩ := idx_facts25 t
  funext j
  obtain ⟨a, b, rfl⟩ : ∃ (a : Fin 2048) (b : Fin 64), j = ix2 a b := ⟨j 0, j 1, eq_ix2 j⟩
  refine (scaled25_pay_apply (iblk25 V c 0 t) (iblk25 V c 1 t) (iblk25 V c 4 t) a b).trans ?_
  show (∑ l : Fin 192, xin25 V c (((cfg25.win 0).blk t).view.emb (ix2 a l)) * wsc25 V c (((cfg25.win 1).blk t).view.emb (ix2 l b)))
      * inv25 V c (((cfg25.win 4).blk t).view.emb (ix2 a (0 : Fin 1)))
    = scaledAt25 V c ⟨((((cfg25.win 5).blk t).view.emb (ix2 a b)) 0).val, _⟩ ⟨((((cfg25.win 5).blk t).view.emb (ix2 a b)) 1).val, _⟩
  unfold scaledAt25
  refine congr (congrArg _ (Finset.sum_congr rfl fun l _ => congr (congrArg _ (congrArg _ ?_)) (congrArg _ ?_))) (congrArg _ ?_)
  · funext d; apply Fin.ext
    match d with
    | ⟨0, _⟩ => show win25_0.index t (0 : Fin 2) * 2048 + 1 * a.val = win25_5.index t (0 : Fin 2) * 2048 + 1 * a.val; omega
    | ⟨1, _⟩ => show win25_0.index t (1 : Fin 2) * 192 + 1 * l.val = l.val; omega
  · funext d; apply Fin.ext
    match d with
    | ⟨0, _⟩ => show win25_1.index t (0 : Fin 2) * 192 + 1 * l.val = l.val; omega
    | ⟨1, _⟩ => show win25_1.index t (1 : Fin 2) * 64 + 1 * b.val = win25_5.index t (1 : Fin 2) * 64 + 1 * b.val; omega
  · funext d; apply Fin.ext
    match d with
    | ⟨0, _⟩ => show win25_4.index t (0 : Fin 2) * 2048 + 1 * a.val = win25_5.index t (0 : Fin 2) * 2048 + 1 * a.val; omega
    | ⟨1, _⟩ => show win25_4.index t (1 : Fin 2) * 1 + 1 * 0 = 0; omega

/-- An index of the scaled output is in point t's block iff each coordinate is in the block's range on its axis. -/
theorem mem_blk25_5 (t : Fin cfg25.N) (i : S8192x64.Idx) :
    i ∈ ((cfg25.win 5).blk t).view.set ↔ ∀ a : Fin 2, win25_5.index t a * S2048x64.size a ≤ (i a).val ∧ (i a).val < win25_5.index t a * S2048x64.size a + S2048x64.size a := by
  show i ∈ ((View.whole (Pipeline.arrRef spec25 5)).slice (win25_5.rect t)).set ↔ _
  rw [View.set_slice_whole, Rect.mem_set_unit]
  exact Iff.rfl

/-- Every index is in the block of the point of its row block, row / 2048. -/
theorem covered25_5 (i : S8192x64.Idx) :
    ∃ t : Fin cfg25.N, (cfg25.win 5).flush t = true ∧ i ∈ ((cfg25.win 5).blk t).view.set := by
  have hi0 : (i 0).val < 8192 := (i 0).isLt
  have hi1 : (i 1).val < 64 := (i 1).isLt
  obtain ⟨t, ht⟩ := idx_onto25_5 ⟨(i 0).val / 2048, by omega⟩
  have q0 : win25_5.index t (0 : Fin 2) = (i 0).val / 2048 := congrFun ht 0
  have q1 : win25_5.index t (1 : Fin 2) = 0 := congrFun ht 1
  refine ⟨t, flush25_5 t, ?_⟩
  rw [mem_blk25_5]
  intro a
  match a with
  | ⟨0, _⟩ => show win25_5.index t (0 : Fin 2) * 2048 ≤ (i 0).val ∧ (i 0).val < win25_5.index t (0 : Fin 2) * 2048 + 2048; omega
  | ⟨1, _⟩ => show win25_5.index t (1 : Fin 2) * 64 ≤ (i 1).val ∧ (i 1).val < win25_5.index t (1 : Fin 2) * 64 + 64; omega

/-- THE SCALED OUTPUT after the region. -/
theorem arr25_5 (c : Dev nD) : (dat25 (F := Ideal) V c).arrAt 5 cfg25.N = G25_5 V c :=
  (dat25 (F := Ideal) V c).arrAt_eq_of_cover 5 (G25_5 V c) (fun t _ => flushed25_5_eq V c t) covered25_5

theorem r25_scaled (c : Dev nD) (p : Fin 8192) (q : Fin 64) :
    (dat25 (F := Ideal) V c).arrAt 5 cfg25.N (ix2 p q)
      = (∑ l : Fin 192, xin25 V c (ix2 p l) * wsc25 V c (ix2 l q)) * inv25 V c (ix2 p (0 : Fin 1)) :=
  congrFun (arr25_5 V c) (ix2 p q)

/-! ## Output window 6: the residual output -/

/-- WHAT POINT t WRITES BACK is block t of the residual output's function of the arrays. -/
theorem flushed25_6_eq (c : Dev nD) (t : Fin cfg25.N) :
    (dat25 (F := Ideal) V c).flushed 6 t = ((cfg25.win 6).blk t).view.read (Elt Ideal) (G25_6 V c) := by
  show (cfg25.win 6).cut (grid25.coords t) ((dat25 (F := Ideal) V c).after 6 t) = _
  rw [after25_6]
  unfold out25_6
  rw [View.canon_unit_zero hz25]
  simp only [View.ld_unit_zero (S := S2048x192) hz25, View.ld_unit_zero (S := S192x128) hz25, View.ld_unit_zero (S := S1x128) hz25]
  obtain ⟨e00, e01, e10, e11, e20, e21, e30, e31, e40, e41, e51, e60, e61, e5⟩ := idx_facts25 t
  funext j
  obtain ⟨a, b, rfl⟩ : ∃ (a : Fin 2048) (b : Fin 128), j = ix2 a b := ⟨j 0, j 1, eq_ix2 j⟩
  refine (resid25_pay_apply (iblk25 V c 0 t) (iblk25 V c 2 t) (iblk25 V c 3 t) a b).trans ?_
  show (∑ l : Fin 192, xin25 V c (((cfg25.win 0).blk t).view.emb (ix2 a l)) * wre25 V c (((cfg25.win 2).blk t).view.emb (ix2 l b)))
      + bia25 V c (((cfg25.win 3).blk t).view.emb (ix2 (0 : Fin 1) b))
    = residAt25 V c ⟨((((cfg25.win 6).blk t).view.emb (ix2 a b)) 0).val, _⟩ ⟨((((cfg25.win 6).blk t).view.emb (ix2 a b)) 1).val, _⟩
  unfold residAt25
  refine congr (congrArg _ (Finset.sum_congr rfl fun l _ => congr (congrArg _ (congrArg _ ?_)) (congrArg _ ?_))) (congrArg _ ?_)
  · funext d; apply Fin.ext
    match d with
    | ⟨0, _⟩ => show win25_0.index t (0 : Fin 2) * 2048 + 1 * a.val = win25_6.index t (0 : Fin 2) * 2048 + 1 * a.val; omega
    | ⟨1, _⟩ => show win25_0.index t (1 : Fin 2) * 192 + 1 * l.val = l.val; omega
  · funext d; apply Fin.ext
    match d with
    | ⟨0, _⟩ => show win25_2.index t (0 : Fin 2) * 192 + 1 * l.val = l.val; omega
    | ⟨1, _⟩ => show win25_2.index t (1 : Fin 2) * 128 + 1 * b.val = win25_6.index t (1 : Fin 2) * 128 + 1 * b.val; omega
  · funext d; apply Fin.ext
    match d with
    | ⟨0, _⟩ => show win25_3.index t (0 : Fin 2) * 1 + 1 * 0 = 0; omega
    | ⟨1, _⟩ => show win25_3.index t (1 : Fin 2) * 128 + 1 * b.val = win25_6.index t (1 : Fin 2) * 128 + 1 * b.val; omega

/-- An index of the residual output is in point t's block iff each coordinate is in the block's range on its axis. -/
theorem mem_blk25_6 (t : Fin cfg25.N) (i : S8192x128.Idx) :
    i ∈ ((cfg25.win 6).blk t).view.set ↔ ∀ a : Fin 2, win25_6.index t a * S2048x128.size a ≤ (i a).val ∧ (i a).val < win25_6.index t a * S2048x128.size a + S2048x128.size a := by
  show i ∈ ((View.whole (Pipeline.arrRef spec25 6)).slice (win25_6.rect t)).set ↔ _
  rw [View.set_slice_whole, Rect.mem_set_unit]
  exact Iff.rfl

/-- Every index is in the block of the point of its row block, row / 2048. -/
theorem covered25_6 (i : S8192x128.Idx) :
    ∃ t : Fin cfg25.N, (cfg25.win 6).flush t = true ∧ i ∈ ((cfg25.win 6).blk t).view.set := by
  have hi0 : (i 0).val < 8192 := (i 0).isLt
  have hi1 : (i 1).val < 128 := (i 1).isLt
  obtain ⟨t, ht⟩ := idx_onto25_6 ⟨(i 0).val / 2048, by omega⟩
  have q0 : win25_6.index t (0 : Fin 2) = (i 0).val / 2048 := congrFun ht 0
  have q1 : win25_6.index t (1 : Fin 2) = 0 := congrFun ht 1
  refine ⟨t, flush25_6 t, ?_⟩
  rw [mem_blk25_6]
  intro a
  match a with
  | ⟨0, _⟩ => show win25_6.index t (0 : Fin 2) * 2048 ≤ (i 0).val ∧ (i 0).val < win25_6.index t (0 : Fin 2) * 2048 + 2048; omega
  | ⟨1, _⟩ => show win25_6.index t (1 : Fin 2) * 128 ≤ (i 1).val ∧ (i 1).val < win25_6.index t (1 : Fin 2) * 128 + 128; omega

/-- THE RESIDUAL OUTPUT after the region. -/
theorem arr25_6 (c : Dev nD) : (dat25 (F := Ideal) V c).arrAt 6 cfg25.N = G25_6 V c :=
  (dat25 (F := Ideal) V c).arrAt_eq_of_cover 6 (G25_6 V c) (fun t _ => flushed25_6_eq V c t) covered25_6

theorem r25_resid (c : Dev nD) (p : Fin 8192) (q : Fin 128) :
    (dat25 (F := Ideal) V c).arrAt 6 cfg25.N (ix2 p q)
      = (∑ l : Fin 192, xin25 V c (ix2 p l) * wre25 V c (ix2 l q)) + bia25 V c (ix2 (0 : Fin 1) q) :=
  congrFun (arr25_6 V c) (ix2 p q)

end Cert.KernelIdeal.KV

end
-- ==== Proof.KV.R26.lean ====
/-
  Region 26, an aggregation layer with rectifier and the residual average: what its output array holds after the region,
  entry by entry, as a function of the arrays the region finds.

  The body writes its output block [1024, 192] by two column slices: columns [0, 64) hold
  (H + max(A·S + b, 0))·½ and columns [64, 192) hold (H + max(R, 0))·½, where A is the row block of the adjacency, S the
  scaled features, b the bias row broadcast over the rows, R the row block of the other feature group, and H the same
  columns of the row block of the previous layer's features. The two slices are disjoint and cover the block, so each
  entry of the block is the payload of the slice that holds it. Row block t of the output array is written by grid
  point t (8 points of 1024 rows), and the points' blocks cover the array.
-/
import proofs.«405499_j28269474742810_3_alg».proof.Proof.Fr.KernelIdeal.Reg26
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r26_hz : (![0, 0] : Fin 2 → Nat) = fun _ => 0 := funext fun a => match a with | ⟨0, _⟩ => rfl | ⟨1, _⟩ => rfl

/-- The product's dimension numbers are those of a plain M×K by K×N product. -/
theorem r26_dot_plain : dot_S1024x8192_S8192x64_S1024x64_1_0_0_1_n_n = DotDims.plain 1024 8192 64 := rfl

/-- Columns [0, 64) at entry (a, b): the previous features' entry plus the rectified (product's entry plus the bias of
    column b), halved. -/
theorem r26_pay1_apply (x0 : Vec Ideal S1024x8192 .bf16) (x1 : Vec Ideal S8192x64 .bf16) (x3 : Vec Ideal S1x64 .f32)
    (u : Vec Ideal S1024x64 .f32) (a : Fin 1024) (b : Fin 64) :
    k26_pay1 (F := Ideal) x0 x1 x3 u (ix2 a b)
      = (u (ix2 a b) + max ((∑ k : Fin 8192, x0 (ix2 a k) * x1 (ix2 k b)) + x3 (ix2 (0 : Fin 1) b)) (Ideal.ofBits .f32 0x00000000#32))
          * Ideal.ofBits .f32 0x3F000000#32 := by
  unfold k26_pay1
  simp only [shapeCast_self]
  show (u (ix2 a b) + max (matmul (F := Ideal) dot_S1024x8192_S8192x64_S1024x64_1_0_0_1_n_n none x0 x1 (constant (F := Ideal) S1024x64 .f32 0x00000000#32) (ix2 a b)
      + broadcastTo S1024x64 x3 broadcasts_S1x64_S1024x64 (ix2 a b)) (Ideal.ofBits .f32 0x00000000#32)) * Ideal.ofBits .f32 0x3F000000#32 = _
  rw [r26_dot_plain]
  rw [show matmul (F := Ideal) (DotDims.plain 1024 8192 64) none x0 x1 (constant (F := Ideal) S1024x64 .f32 0x00000000#32) (ix2 a b)
        = ∑ k : Fin 8192, x0 (ix2 a k) * x1 (ix2 k b) from Cert.LibPlainMatmul.matmul_zero_apply 1024 8192 64 none x0 x1 a b]
  rw [broadcastTo_apply x3 broadcasts_S1x64_S1024x64 (ix2 a b) (ix2 (0 : Fin 1) b) (fun ax => by
    match ax with
    | ⟨0, _⟩ => rfl
    | ⟨1, _⟩ => rfl)]

/-- Columns [64, 192) at entry (a, b): the previous features' entry plus the other feature group's rectified entry, halved. -/
theorem r26_pay2_apply (x2 : Vec Ideal S1024x128 .f32) (u : Vec Ideal S1024x128 .f32) (a : Fin 1024) (b : Fin 128) :
    k26_pay2 (F := Ideal) x2 u (ix2 a b)
      = (u (ix2 a b) + max (x2 (ix2 a b)) (Ideal.ofBits .f32 0x00000000#32)) * Ideal.ofBits .f32 0x3F000000#32 := by
  unfold k26_pay2
  simp only [shapeCast_self]
  rfl

/-! ## What the body leaves in the output block: each entry is the payload of the slice that holds it -/

/-- An entry in columns [0, 64): off the later slice, under the earlier one. -/
theorem r26_out_lo (c : Dev nD) (i : grid26.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 64) (hy0 : (y 0).val = a.val) (hy1 : (y 1).val = b.val) :
    out26_A_5 (F := Ideal) c i a1 h1 a2 h2 a3 h3 a4 h4 a5 h5 a6 h6 x0 x1 x2 x3 x4 y
      = k26_pay1 (F := Ideal) x0 x1 x3
          (View.ld x4 (Rect.unit (s := S1024x192) ![0, 0] S1024x64.size inb_S1024x192_S1024x64_0_0)) (ix2 a b) := by
  unfold out26_A_5
  rw [View.read_writes_eq_canon _ _ _ (cover26_A_5 c i a1 h1 a2 h2 a3 h3 a4 h4 a5 h5 a6 h6 x0 x1 x2 x3 x4)]
  unfold kernelRun26_A
  dsimp only
  sl_unfold_words
  simp only [View.readAt_eq_ld, h1.read_unread, h2.read_unread, h3.read_unread, h4.read_unread, h5.read_unread,
    View.ld_unit_zero (S := S1024x8192) r26_hz, View.ld_unit_zero (S := S8192x64) r26_hz,
    View.ld_unit_zero (S := S1024x128) r26_hz, View.ld_unit_zero (S := S1x64) r26_hz]
  have hb : b.val < 64 := b.isLt
  refine (View.canon_cons_of_not_mem _ _ (fun hm => ?_)).trans ?_
  · have h64 : 64 ≤ (y 1).val := (((Rect.mem_set_unit (inb := inb_S1024x192_S1024x128_0_64)).mp hm) 1).1
    omega
  · have hy : y = (Rect.unit (s := S1024x192) ![0, 0] S1024x64.size inb_S1024x192_S1024x64_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in columns [64, 192): under the later slice. -/
theorem r26_out_hi (c : Dev nD) (i : grid26.Coords)
    (a1 : Memref sig .tc .vmem S1024x8192 .bf16) (h1 : a1.IsWhole) (a2 : Memref sig .tc .vmem S8192x64 .bf16) (h2 : a2.IsWhole)
    (a3 : Memref sig .tc .vmem S1024x128 .f32) (h3 : a3.IsWhole) (a4 : Memref sig .tc .vmem S1x64 .f32) (h4 : a4.IsWhole)
    (a5 : Memref sig .tc .vmem S1024x192 .f32) (h5 : a5.IsWhole) (a6 : Memref sig .tc .vmem S1024x192 .f32) (h6 : a6.IsWhole)
    (x0 : Vec Ideal S1024x8192 .bf16) (x1 : Vec Ideal S8192x64 .bf16) (x2 : Vec Ideal S1024x128 .f32) (x3 : Vec Ideal S1x64 .f32)
    (x4 : Vec Ideal S1024x192 .f32)
    (y : S1024x192.Idx) (a : Fin 1024) (b : Fin 128) (hy0 : (y 0).val = a.val) (hy1 : (y 1).val = 64 + b.val) :
    out26_A_5 (F := Ideal) c i a1 h1 a2 h2 a3 h3 a4 h4 a5 h5 a6 h6 x0 x1 x2 x3 x4 y
      = k26_pay2 (F := Ideal) x2
          (View.ld x4 (Rect.unit (s := S1024x192) ![0, 64] S1024x128.size inb_S1024x192_S1024x128_0_64)) (ix2 a b) := by
  unfold out26_A_5
  rw [View.read_writes_eq_canon _ _ _ (cover26_A_5 c i a1 h1 a2 h2 a3 h3 a4 h4 a5 h5 a6 h6 x0 x1 x2 x3 x4)]
  unfold kernelRun26_A
  dsimp only
  sl_unfold_words
  simp only [View.readAt_eq_ld, h1.read_unread, h2.read_unread, h3.read_unread, h4.read_unread, h5.read_unread,
    View.ld_unit_zero (S := S1024x8192) r26_hz, View.ld_unit_zero (S := S8192x64) r26_hz,
    View.ld_unit_zero (S := S1024x128) r26_hz, View.ld_unit_zero (S := S1x64) r26_hz]
  have hy : y = (Rect.unit (s := S1024x192) ![0, 64] S1024x128.size inb_S1024x192_S1024x128_0_64).emb (ix2 a b) := by
    funext d; apply Fin.ext
    match d with
    | ⟨0, _⟩ => show (y 0).val = 0 + 1 * a.val; omega
    | ⟨1, _⟩ => show (y 1).val = 64 + 1 * b.val; omega
  rw [hy]
  exact View.canon_cons_emb _ _ _ _

/-! ## The arrays the region finds, and the array it leaves -/

/-- The adjacency (rounded copy), the scaled features, the other feature group, the bias row and the previous layer's
    features, as the region finds them. -/
abbrev r26_adj (c : Dev nD) : Vec Ideal S8192x8192 .bf16 := V c (Pipeline.arrRef spec26 0)
abbrev r26_scaled (c : Dev nD) : Vec Ideal S8192x64 .bf16 := V c (Pipeline.arrRef spec26 1)
abbrev r26_resid (c : Dev nD) : Vec Ideal S8192x128 .f32 := V c (Pipeline.arrRef spec26 2)
abbrev r26_bias (c : Dev nD) : Vec Ideal S1x64 .f32 := V c (Pipeline.arrRef spec26 3)
abbrev r26_prev (c : Dev nD) : Vec Ideal S8192x192 .f32 := V c (Pipeline.arrRef spec26 4)

/-- The windows' blocks at a point, at their literal types. -/
abbrev r26_b0 (c : Dev nD) (t : Fin cfg26.N) : Vec Ideal S1024x8192 .bf16 := iblk26 (F := Ideal) V c 0 t
abbrev r26_b1 (c : Dev nD) (t : Fin cfg26.N) : Vec Ideal S8192x64 .bf16 := iblk26 (F := Ideal) V c 1 t
abbrev r26_b2 (c : Dev nD) (t : Fin cfg26.N) : Vec Ideal S1024x128 .f32 := iblk26 (F := Ideal) V c 2 t
abbrev r26_b3 (c : Dev nD) (t : Fin cfg26.N) : Vec Ideal S1x64 .f32 := iblk26 (F := Ideal) V c 3 t
abbrev r26_b4 (c : Dev nD) (t : Fin cfg26.N) : Vec Ideal S1024x192 .f32 := iblk26 (F := Ideal) V c 4 t

/-- Entry (p, q) of the array the region leaves. -/
def r26_val (c : Dev nD) (p : Fin 8192) (q : Fin 192) : EReal :=
  if h : q.val < 64 then
    (r26_prev V c (ix2 p q)
      + max ((∑ k : Fin 8192, r26_adj V c (ix2 p k) * r26_scaled V c (ix2 k (⟨q.val, h⟩ : Fin 64)))
          + r26_bias V c (ix2 (0 : Fin 1) (⟨q.val, h⟩ : Fin 64))) (Ideal.ofBits .f32 0x00000000#32))
      * Ideal.ofBits .f32 0x3F000000#32
  else
    (r26_prev V c (ix2 p q)
      + max (r26_resid V c (ix2 p (⟨q.val - 64, by have := q.isLt; omega⟩ : Fin 128))) (Ideal.ofBits .f32 0x00000000#32))
      * Ideal.ofBits .f32 0x3F000000#32

/-- The array the region leaves. -/
def r26_G (c : Dev nD) : Vec Ideal S8192x192 .f32 := fun i => r26_val V c (i 0) (i 1)

/-- The printed index maps, decided over the grid: the row-blocked windows are at block row t, column block 0; the whole
    windows at block (0, 0). -/
theorem r26_idx_facts : ∀ t : Fin cfg26.N,
    win26_0.index t (0 : Fin 2) = t.val ∧ win26_0.index t (1 : Fin 2) = 0
    ∧ win26_1.index t (0 : Fin 2) = 0 ∧ win26_1.index t (1 : Fin 2) = 0
    ∧ win26_2.index t (0 : Fin 2) = t.val ∧ win26_2.index t (1 : Fin 2) = 0
    ∧ win26_3.index t (0 : Fin 2) = 0 ∧ win26_3.index t (1 : Fin 2) = 0
    ∧ win26_4.index t (0 : Fin 2) = t.val ∧ win26_4.index t (1 : Fin 2) = 0
    ∧ win26_5.index t (0 : Fin 2) = t.val ∧ win26_5.index t (1 : Fin 2) = 0 :=
  (by decide +kernel : ∀ t : Fin grid26.N, _)

/-- Row block t of the adjacency: entry (a, k) of the block is entry (1024 t + a, k) of the array. -/
theorem r26_b0_apply (c : Dev nD) (t : Fin cfg26.N) (a : Fin 1024) (k : Fin 8192) (p : Fin 8192)
    (hp : p.val = t.val * 1024 + a.val) : r26_b0 V c t (ix2 a k) = r26_adj V c (ix2 p k) := by
  obtain ⟨e00, e01, -⟩ := r26_idx_facts t
  show V c (Pipeline.arrRef spec26 0) (((cfg26.win 0).blk t).view.emb (ix2 a k)) = V c (Pipeline.arrRef spec26 0) (ix2 p k)
  refine congrArg _ (funext fun d => Fin.ext ?_)
  match d with
  | ⟨0, _⟩ => show win26_0.index t (0 : Fin 2) * 1024 + 1 * a.val = p.val; omega
  | ⟨1, _⟩ => show win26_0.index t (1 : Fin 2) * 8192 + 1 * k.val = k.val; omega

/-- The scaled features' one block is the array. -/
theorem r26_b1_apply (c : Dev nD) (t : Fin cfg26.N) (k : Fin 8192) (b : Fin 64) :
    r26_b1 V c t (ix2 k b) = r26_scaled V c (ix2 k b) := by
  obtain ⟨-, -, e10, e11, -⟩ := r26_idx_facts t
  show V c (Pipeline.arrRef spec26 1) (((cfg26.win 1).blk t).view.emb (ix2 k b)) = V c (Pipeline.arrRef spec26 1) (ix2 k b)
  refine congrArg _ (funext fun d => Fin.ext ?_)
  match d with
  | ⟨0, _⟩ => show win26_1.index t (0 : Fin 2) * 8192 + 1 * k.val = k.val; omega
  | ⟨1, _⟩ => show win26_1.index t (1 : Fin 2) * 64 + 1 * b.val = b.val; omega

/-- Row block t of the other feature group. -/
theorem r26_b2_apply (c : Dev nD) (t : Fin cfg26.N) (a : Fin 1024) (b : Fin 128) (p : Fin 8192)
    (hp : p.val = t.val * 1024 + a.val) : r26_b2 V c t (ix2 a b) = r26_resid V c (ix2 p b) := by
  obtain ⟨-, -, -, -, e20, e21, -⟩ := r26_idx_facts t
  show V c (Pipeline.arrRef spec26 2) (((cfg26.win 2).blk t).view.emb (ix2 a b)) = V c (Pipeline.arrRef spec26 2) (ix2 p b)
  refine congrArg _ (funext fun d => Fin.ext ?_)
  match d with
  | ⟨0, _⟩ => show win26_2.index t (0 : Fin 2) * 1024 + 1 * a.val = p.val; omega
  | ⟨1, _⟩ => show win26_2.index t (1 : Fin 2) * 128 + 1 * b.val = b.val; omega

/-- The bias row's one block is the array. -/
theorem r26_b3_apply (c : Dev nD) (t : Fin cfg26.N) (b : Fin 64) :
    r26_b3 V c t (ix2 (0 : Fin 1) b) = r26_bias V c (ix2 (0 : Fin 1) b) := by
  obtain ⟨-, -, -, -, -, -, e30, e31, -⟩ := r26_idx_facts t
  show V c (Pipeline.arrRef spec26 3) (((cfg26.win 3).blk t).view.emb (ix2 (0 : Fin 1) b)) = V c (Pipeline.arrRef spec26 3) (ix2 (0 : Fin 1) b)
  refine congrArg _ (funext fun d => Fin.ext ?_)
  match d with
  | ⟨0, _⟩ => show win26_3.index t (0 : Fin 2) * 1 + 1 * 0 = 0; omega
  | ⟨1, _⟩ => show win26_3.index t (1 : Fin 2) * 64 + 1 * b.val = b.val; omega

/-- Row block t of the previous layer's features: entry y of the block is entry (1024 t + y₀, y₁) of the array. -/
theorem r26_b4_apply (c : Dev nD) (t : Fin cfg26.N) (y : S1024x192.Idx) (p : Fin 8192) (q : Fin 192)
    (hp : p.val = t.val * 1024 + (y 0).val) (hq : q.val = (y 1).val) : r26_b4 V c t y = r26_prev V c (ix2 p q) := by
  obtain ⟨-, -, -, -, -, -, -, -, e40, e41, -⟩ := r26_idx_facts t
  show V c (Pipeline.arrRef spec26 4) (((cfg26.win 4).blk t).view.emb y) = V c (Pipeline.arrRef spec26 4) (ix2 p q)
  refine congrArg _ (funext fun d => Fin.ext ?_)
  match d with
  | ⟨0, _⟩ => show win26_4.index t (0 : Fin 2) * 1024 + 1 * (y 0).val = p.val; omega
  | ⟨1, _⟩ => show win26_4.index t (1 : Fin 2) * 192 + 1 * (y 1).val = q.val; omega

/-- WHAT POINT t WRITES BACK is block t of the array the region leaves. -/
theorem r26_flushed_eq (c : Dev nD) (t : Fin cfg26.N) :
    (dat26 (F := Ideal) V c).flushed 5 t = ((cfg26.win 5).blk t).view.read (Elt Ideal) (r26_G V c) := by
  show (cfg26.win 5).cut (grid26.coords t) ((dat26 (F := Ideal) V c).after 5 t) = _
  rw [after26_5]
  obtain ⟨-, -, -, -, -, -, -, -, -, -, e50, e51⟩ := r26_idx_facts t
  funext j
  have hj0 : (j 0).val < 1024 := (j 0).isLt
  have hj1 : (j 1).val < 192 := (j 1).isLt
  have ht : t.val < 8 := lt_of_lt_of_eq t.isLt N_26
  have hp : t.val * 1024 + (j 0).val < 8192 := by omega
  have hemb : ((cfg26.win 5).blk t).view.emb j
      = ix2 (⟨t.val * 1024 + (j 0).val, hp⟩ : Fin 8192) (⟨(j 1).val, hj1⟩ : Fin 192) := by
    funext d; apply Fin.ext
    match d with
    | ⟨0, _⟩ => show win26_5.index t (0 : Fin 2) * 1024 + 1 * (j 0).val = t.val * 1024 + (j 0).val; omega
    | ⟨1, _⟩ => show win26_5.index t (1 : Fin 2) * 192 + 1 * (j 1).val = (j 1).val; omega
  show outsAt26 (F := Ideal) V c t ((cfg26.win 5).xinj (grid26.coords t) j) = r26_G V c (((cfg26.win 5).blk t).view.emb j)
  rw [hemb]
  show _ = r26_val V c (⟨t.val * 1024 + (j 0).val, hp⟩ : Fin 8192) (⟨(j 1).val, hj1⟩ : Fin 192)
  unfold outsAt26 r26_val
  by_cases h : (j 1).val < 64
  · rw [dif_pos h]
    refine (r26_out_lo c (grid26.coords t) (ms26_0 t) (hs26_0 t) (ms26_1 t) (hs26_1 t) (ms26_2 t) (hs26_2 t) (ms26_3 t) (hs26_3 t)
      (ms26_4 t) (hs26_4 t) (ms26_5 t) (hs26_5 t) (r26_b0 V c t) (r26_b1 V c t) (r26_b2 V c t) (r26_b3 V c t) (r26_b4 V c t)
      ((cfg26.win 5).xinj (grid26.coords t) j) (⟨(j 0).val, hj0⟩ : Fin 1024) (⟨(j 1).val, h⟩ : Fin 64) rfl rfl).trans ?_
    refine (r26_pay1_apply (r26_b0 V c t) (r26_b1 V c t) (r26_b3 V c t)
      (View.ld (r26_b4 V c t) (Rect.unit (s := S1024x192) ![0, 0] S1024x64.size inb_S1024x192_S1024x64_0_0))
      (⟨(j 0).val, hj0⟩ : Fin 1024) (⟨(j 1).val, h⟩ : Fin 64)).trans ?_
    refine congrArg₂ (· * ·) (congrArg₂ (· + ·)
      (r26_b4_apply V c t
        ((Rect.unit (s := S1024x192) ![0, 0] S1024x64.size inb_S1024x192_S1024x64_0_0).idx
          (ix2 (⟨(j 0).val, hj0⟩ : Fin 1024) (⟨(j 1).val, h⟩ : Fin 64)))
        (⟨t.val * 1024 + (j 0).val, hp⟩ : Fin 8192) (⟨(j 1).val, hj1⟩ : Fin 192)
        (by show t.val * 1024 + (j 0).val = t.val * 1024 + (0 + 1 * (j 0).val); omega)
        (by show (j 1).val = 0 + 1 * (j 1).val; omega))
      (congrArg₂ max (congrArg₂ (· + ·) (Finset.sum_congr rfl fun k _ =>
        congrArg₂ (· * ·) (r26_b0_apply V c t (⟨(j 0).val, hj0⟩ : Fin 1024) k (⟨t.val * 1024 + (j 0).val, hp⟩ : Fin 8192) rfl)
          (r26_b1_apply V c t k (⟨(j 1).val, h⟩ : Fin 64))) (r26_b3_apply V c t (⟨(j 1).val, h⟩ : Fin 64))) rfl)) rfl
  · rw [dif_neg h]
    have h128 : (j 1).val - 64 < 128 := by omega
    refine (r26_out_hi c (grid26.coords t) (ms26_0 t) (hs26_0 t) (ms26_1 t) (hs26_1 t) (ms26_2 t) (hs26_2 t) (ms26_3 t) (hs26_3 t)
      (ms26_4 t) (hs26_4 t) (ms26_5 t) (hs26_5 t) (r26_b0 V c t) (r26_b1 V c t) (r26_b2 V c t) (r26_b3 V c t) (r26_b4 V c t)
      ((cfg26.win 5).xinj (grid26.coords t) j) (⟨(j 0).val, hj0⟩ : Fin 1024) (⟨(j 1).val - 64, h128⟩ : Fin 128) rfl
      (by show (j 1).val = 64 + ((j 1).val - 64); omega)).trans ?_
    refine (r26_pay2_apply (r26_b2 V c t)
      (View.ld (r26_b4 V c t) (Rect.unit (s := S1024x192) ![0, 64] S1024x128.size inb_S1024x192_S1024x128_0_64))
      (⟨(j 0).val, hj0⟩ : Fin 1024) (⟨(j 1).val - 64, h128⟩ : Fin 128)).trans ?_
    exact congrArg₂ (· * ·) (congrArg₂ (· + ·)
      (r26_b4_apply V c t
        ((Rect.unit (s := S1024x192) ![0, 64] S1024x128.size inb_S1024x192_S1024x128_0_64).idx
          (ix2 (⟨(j 0).val, hj0⟩ : Fin 1024) (⟨(j 1).val - 64, h128⟩ : Fin 128)))
        (⟨t.val * 1024 + (j 0).val, hp⟩ : Fin 8192) (⟨(j 1).val, hj1⟩ : Fin 192)
        (by show t.val * 1024 + (j 0).val = t.val * 1024 + (0 + 1 * (j 0).val); omega)
        (by show (j 1).val = 64 + 1 * ((j 1).val - 64); omega))
      (congrArg₂ max (r26_b2_apply V c t (⟨(j 0).val, hj0⟩ : Fin 1024) (⟨(j 1).val - 64, h128⟩ : Fin 128)
        (⟨t.val * 1024 + (j 0).val, hp⟩ : Fin 8192) rfl) rfl)) rfl

/-! ## The points' blocks cover the array -/

/-- An index of the array is in point t's block iff each coordinate is in the block's range on its axis. -/
theorem r26_mem_blk (t : Fin cfg26.N) (i : S8192x192.Idx) :
    i ∈ ((cfg26.win 5).blk t).view.set ↔ ∀ a : Fin 2, win26_5.index t a * S1024x192.size a ≤ (i a).val
      ∧ (i a).val < win26_5.index t a * S1024x192.size a + S1024x192.size a := by
  show i ∈ ((View.whole (Pipeline.arrRef spec26 5)).slice (win26_5.rect t)).set ↔ _
  rw [View.set_slice_whole, Rect.mem_set_unit]
  exact Iff.rfl

/-- Row r of the array is in the block of point r / 1024. -/
theorem r26_cover (i : S8192x192.Idx) :
    ∃ t : Fin cfg26.N, (cfg26.win 5).flush t = true ∧ i ∈ ((cfg26.win 5).blk t).view.set := by
  have hi0 : (i 0).val < 8192 := (i 0).isLt
  have hi1 : (i 1).val < 192 := (i 1).isLt
  have hlt : (i 0).val / 1024 < cfg26.N := lt_of_lt_of_eq (by omega : (i 0).val / 1024 < 8) N_26.symm
  obtain ⟨-, -, -, -, -, -, -, -, -, -, e50, e51⟩ := r26_idx_facts ⟨(i 0).val / 1024, hlt⟩
  refine ⟨⟨(i 0).val / 1024, hlt⟩, flush26_5 _, ?_⟩
  rw [r26_mem_blk]
  intro a
  match a with
  | ⟨0, _⟩ =>
    show win26_5.index ⟨(i 0).val / 1024, hlt⟩ (0 : Fin 2) * 1024 ≤ (i 0).val
      ∧ (i 0).val < win26_5.index ⟨(i 0).val / 1024, hlt⟩ (0 : Fin 2) * 1024 + 1024
    rw [e50]; show (i 0).val / 1024 * 1024 ≤ (i 0).val ∧ (i 0).val < (i 0).val / 1024 * 1024 + 1024; omega
  | ⟨1, _⟩ =>
    show win26_5.index ⟨(i 0).val / 1024, hlt⟩ (1 : Fin 2) * 192 ≤ (i 1).val
      ∧ (i 1).val < win26_5.index ⟨(i 0).val / 1024, hlt⟩ (1 : Fin 2) * 192 + 192
    rw [e51]; omega

/-! ## The output array after the region -/

/-- The output array ends holding the array of the entries above. -/
theorem r26_final (c : Dev nD) : (dat26 (F := Ideal) V c).arrAt 5 cfg26.N = r26_G V c :=
  (dat26 (F := Ideal) V c).arrAt_eq_of_cover 5 (r26_G V c) (fun t _ => r26_flushed_eq V c t) r26_cover

/-- Columns [0, 64): the average of the previous features and the aggregated, biased, rectified features. -/
theorem r26_lo (c : Dev nD) (p : Fin 8192) (q : Fin 64) :
    (dat26 (F := Ideal) V c).arrAt 5 cfg26.N (ix2 p (⟨q.val, by have := q.isLt; omega⟩ : Fin 192))
      = (r26_prev V c (ix2 p (⟨q.val, by have := q.isLt; omega⟩ : Fin 192))
          + max ((∑ k : Fin 8192, r26_adj V c (ix2 p k) * r26_scaled V c (ix2 k q)) + r26_bias V c (ix2 (0 : Fin 1) q))
              (Ideal.ofBits .f32 0x00000000#32)) * Ideal.ofBits .f32 0x3F000000#32 := by
  rw [r26_final]
  show r26_val V c p (⟨q.val, _⟩ : Fin 192) = _
  unfold r26_val
  rw [dif_pos (show (⟨q.val, _⟩ : Fin 192).val < 64 from q.isLt)]

/-- Columns [64, 192): the average of the previous features and the other feature group rectified. -/
theorem r26_hi (c : Dev nD) (p : Fin 8192) (q : Fin 128) :
    (dat26 (F := Ideal) V c).arrAt 5 cfg26.N (ix2 p (⟨64 + q.val, by have := q.isLt; omega⟩ : Fin 192))
      = (r26_prev V c (ix2 p (⟨64 + q.val, by have := q.isLt; omega⟩ : Fin 192))
          + max (r26_resid V c (ix2 p q)) (Ideal.ofBits .f32 0x00000000#32)) * Ideal.ofBits .f32 0x3F000000#32 := by
  rw [r26_final]
  show r26_val V c p (⟨64 + q.val, _⟩ : Fin 192) = _
  unfold r26_val
  rw [dif_neg (show ¬ (⟨64 + q.val, _⟩ : Fin 192).val < 64 from by show ¬ 64 + q.val < 64; omega)]
  refine congrArg₂ (· * ·) (congrArg₂ (· + ·) rfl (congrArg₂ max (congrArg _ (congrArg (ix2 p) (Fin.ext ?_))) rfl)) rfl
  show 64 + q.val - 64 = q.val
  omega

end Cert.KernelIdeal.KV

end
-- ==== Proof.KV.L13.lean ====
/-
  Layer 13 of the first program (a middle layer with the residual-and-halve step, weight page 11): what its two
  pallas_calls leave in the output array, entry by entry, is the layer's specification applied to the entries of its input array.
-/
import proofs.«405499_j28269474742810_3_alg».proof.Proof.KV.R25
import proofs.«405499_j28269474742810_3_alg».proof.Proof.KV.R26
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L13_w (c : Dev nD) : V38 m ρ c main_arg5 = m ((c : Thread nD τ).loc main_arg5) := tr_main_arg5_0_38 m ρ c
theorem L13_b (c : Dev nD) : V38 m ρ c main_arg6 = m ((c : Thread nD τ).loc main_arg6) := tr_main_arg6_0_38 m ρ c

/-- The scaled column group of the layer's weights, at an entry. -/
theorem L13_ws (c : Dev nD) (l : Fin 192) (q : Fin 64) : V39 m ρ c main_v146 (ix2 l q) = (P m c).Wm 11 l ⟨q.val, by omega⟩ := by
  have e : V39 m ρ c main_v146 = extractStridedSlice S192x64 ![0, 0] (shapeCast S192x192 (extractStridedSlice S1x192x192 ![11, 0, 0] (V38 m ρ c main_arg5) slices_S12x192x192_S1x192x192_11_0_0) shapeCasts_S1x192x192_S192x192) slices_S192x192_S192x64_0_0 := by
    show StableHlo.after hostOps25 (W38 m ρ c) (Proc.devRef .tc main_v146) = _
    after_results <;> rfl
  rw [e, Cert.Slices.cols_apply _ 0 _ l q (by omega), Cert.Slices.page_apply _ 11 (by omega), L13_w]
  show _ = m ((c : Thread nD τ).loc main_arg5) (ix3 (11 : Fin 12) l ⟨q.val, by omega⟩)
  congr 2
  exact Fin.ext (Nat.zero_add _)

/-- The pass-through column group of the layer's weights, at an entry. -/
theorem L13_wr (c : Dev nD) (l : Fin 192) (q : Fin 128) : V39 m ρ c main_v147 (ix2 l q) = (P m c).Wm 11 l ⟨64 + q.val, by omega⟩ := by
  have e : V39 m ρ c main_v147 = extractStridedSlice S192x128 ![0, 64] (shapeCast S192x192 (extractStridedSlice S1x192x192 ![11, 0, 0] (V38 m ρ c main_arg5) slices_S12x192x192_S1x192x192_11_0_0) shapeCasts_S1x192x192_S192x192) slices_S192x192_S192x128_0_64 := by
    show StableHlo.after hostOps25 (W38 m ρ c) (Proc.devRef .tc main_v147) = _
    after_results <;> rfl
  rw [e, Cert.Slices.cols_apply _ 64 _ l q (by omega), Cert.Slices.page_apply _ 11 (by omega), L13_w]
  rfl

/-- The bias of the scaled columns, one row, at an entry. -/
theorem L13_bs (c : Dev nD) (q : Fin 64) : V39 m ρ c main_v149 (ix2 (0 : Fin 1) q) = (P m c).bm 11 ⟨q.val, by omega⟩ := by
  have e : V39 m ρ c main_v149 = shapeCast S1x64 (extractStridedSlice S64 ![0] (shapeCast S192 (extractStridedSlice S1x192 ![11, 0] (V38 m ρ c main_arg6) slices_S12x192_S1x192_11_0) shapeCasts_S1x192_S192) slices_S192_S64_0) shapeCasts_S64_S1x64 := by
    show StableHlo.after hostOps25 (W38 m ρ c) (Proc.devRef .tc main_v149) = _
    after_results <;> rfl
  rw [e, Cert.Slices.seg_row_apply _ 0 _ _ (0 : Fin 1) q (by omega), Cert.Slices.row_apply _ 11 (by omega), L13_b]
  show _ = m ((c : Thread nD τ).loc main_arg6) (ix2 (11 : Fin 12) ⟨q.val, by omega⟩)
  congr 2
  exact Fin.ext (Nat.zero_add _)

/-- The bias of the pass-through columns, one row, at an entry. -/
theorem L13_br (c : Dev nD) (q : Fin 128) : V39 m ρ c main_v151 (ix2 (0 : Fin 1) q) = (P m c).bm 11 ⟨64 + q.val, by omega⟩ := by
  have e : V39 m ρ c main_v151 = shapeCast S1x128 (extractStridedSlice S128 ![64] (shapeCast S192 (extractStridedSlice S1x192 ![11, 0] (V38 m ρ c main_arg6) slices_S12x192_S1x192_11_0) shapeCasts_S1x192_S192) slices_S192_S128_64) shapeCasts_S128_S1x128 := by
    show StableHlo.after hostOps25 (W38 m ρ c) (Proc.devRef .tc main_v151) = _
    after_results <;> rfl
  rw [e, Cert.Slices.seg_row_apply _ 64 _ _ (0 : Fin 1) q (by omega), Cert.Slices.row_apply _ 11 (by omega), L13_b]
  rfl

/-- THE LAYER: the output array after its second pallas_call, at (p, j), is the layer's specification of the input array's entries and of the residual array's. -/
theorem L13_out (c : Dev nD) (x : Cert.Spec.Mx 8192 192) (hx : ∀ k l, V38 m ρ c main_v141 (ix2 k l) = x k l)
    (prev : Cert.Spec.Mx 8192 192) (hprev : ∀ p j, V38 m ρ c main_v141 (ix2 p j) = prev p j)
    (p : Fin 8192) (j : Fin 192) : V41 m ρ c main_v153 (ix2 p j) = Cert.Spec.residK (P m c) 11 prev x p j := by
  unfold Cert.Spec.residK Cert.Spec.resK Cert.Spec.relu
  have hp : ∀ p j, V40 m ρ c main_v141 (ix2 p j) = prev p j := fun p j =>
    (congrFun (tr_main_v141_38_40 m ρ c) (ix2 p j)).trans (hprev p j)
  refine Cert.Spec.layer_assemble (S := 64) (R := 128) (O := 192) rfl (P m c).A x ((P m c).Wm 11) ((P m c).bm 11)
    (fun k => V39 m ρ c main_v1_1 (ix2 k (0 : Fin 1))) (fun k => ?hinv)
    (fun k q => V40 m ρ c main_v152_0 (ix2 k q)) (fun k q => ?hsc)
    (fun p q => V40 m ρ c main_v152_1 (ix2 p q)) (fun p q => ?hrs)
    (fun p j y => (prev p j + max y Cert.Spec.zero) * Cert.Spec.half) (fun p j => V41 m ρ c main_v153 (ix2 p j)) (fun p q => ?hlo) (fun p q => ?hhi) p j
  case hinv =>
    exact (congrFun (tr_main_v1_1_2_39 m ρ c) (ix2 k (0 : Fin 1))).trans (inv_W2 m ρ c k)
  case hsc =>
    refine (congrFun (W40_arr m ρ c 5) (ix2 k q)).trans ((r25_scaled (V39 m ρ) c k q).trans ?_)
    refine congrArg (· * _) (Finset.sum_congr rfl fun l _ => ?_)
    exact congrArg₂ (· * ·) ((congrFun (tr_main_v141_38_39 m ρ c) (ix2 k l)).trans (hx k l)) (L13_ws m ρ c l q)
  case hrs =>
    refine (congrFun (W40_arr m ρ c 6) (ix2 p q)).trans ((r25_resid (V39 m ρ) c p q).trans ?_)
    refine congrArg₂ (· + ·) (Finset.sum_congr rfl fun l _ => ?_) (L13_br m ρ c q)
    exact congrArg₂ (· * ·) ((congrFun (tr_main_v141_38_39 m ρ c) (ix2 p l)).trans (hx p l)) (L13_wr m ρ c l q)
  case hlo =>
    refine (congrFun (W41_arr m ρ c 5) (ix2 p _)).trans ((r26_lo (V40 m ρ) c p q).trans ?_)
    refine congrArg (· * _) (congrArg₂ (· + ·) (hp p _) (congrArg (max · _) ?_))
    refine congrArg₂ (· + ·) (Finset.sum_congr rfl fun k _ => ?_)
      ((congrFun (tr_main_v149_39_40 m ρ c) (ix2 (0 : Fin 1) q)).trans (L13_bs m ρ c q))
    exact congrArg (· * _) ((congrFun (tr_main_v1_0_2_40 m ρ c) (ix2 p k)).trans (adjb_W2 m ρ c p k))
  case hhi =>
    refine (congrFun (W41_arr m ρ c 5) (ix2 p _)).trans ((r26_hi (V40 m ρ) c p q).trans ?_)
    exact congrArg (· * _) (congrArg (· + _) (hp p _))

end Cert.KernelIdeal.KV

end
-- ==== Proof.KV.R27.lean ====
/-
  Region 27 (a layer's support kernel), read at the extended reals. With x the layer's input [8192, 192], W₁ [192, 2] and
  W₂ [192, 1] the two column groups of the weight, b the bias row [1, 1] and s the column [8192, 1] of inverse row sums,
  after the region
    the scaled output holds, at (p, q), (∑ₗ x(p, l) · W₁(l, q)) · s(p, 0), and
    the residual output holds, at (p, q), (∑ₗ x(p, l) · W₂(l, q)) + b(0, q).
  (The narrowings of the operands and of the scaled result are the identity on extended reals, and the product into the
  zero accumulator is the plain sum of products.)

  Each of the 4 grid points t reads rows 2048·t … 2048·t+2047 of x and of s and the whole of W₁, W₂, b, and writes the same
  rows of the two outputs; the 4 row blocks cover the 8192 rows.
-/
import proofs.«405499_j28269474742810_3_alg».proof.Proof.Fr.KernelIdeal.Reg27
import proofs.«405499_j28269474742810_3_alg».proof.Proof.LibKeepdims
import proofs.«405499_j28269474742810_3_alg».proof.Proof.LibPlainMatmul
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.KV

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

theorem hz27 : (![0, 0] : Fin 2 → Nat) = fun _ => 0 := funext fun a => by fin_cases a <;> rfl

/-! ## The payloads at an index -/

/-- The generated dimension record of the [2048,192]·[192,2] product is the plain one. -/
theorem dot27_scaled_eq : dot_S2048x192_S192x2_S2048x2_1_0_0_1_n_n = DotDims.plain 2048 192 2 := rfl
/-- The generated dimension record of the [2048,192]·[192,1] product is the plain one. -/
theorem dot27_resid_eq : dot_S2048x192_S192x1_S2048x1_1_0_0_1_n_n = DotDims.plain 2048 192 1 := rfl

/-- The narrowed copy of the x block is the x block (a format change is the identity on extended reals). -/
theorem xcast27_eq (v0 : FVec Ideal S2048x192 .f32) : k27_pay1 (F := Ideal) v0 = v0 := by
  unfold k27_pay1
  exact shapeCast_self v0 _

/-- The scaled payload at (a, b): (∑ₗ x(a, l) · W₁(l, b)) · s(a, 0). -/
theorem scaled27_pay_apply (v0 : FVec Ideal S2048x192 .f32) (v3 : FVec Ideal S192x2 .f32) (v11 : FVec Ideal S2048x1 .f32)
    (a : Fin 2048) (b : Fin 2) :
    k27_pay3 (F := Ideal) v0 v3 v11 (ix2 a b) = (∑ l : Fin 192, v0 (ix2 a l) * v3 (ix2 l b)) * v11 (ix2 a (0 : Fin 1)) := by
  unfold k27_pay3
  simp only [xcast27_eq, shapeCast_self]
  show (matmul dot_S2048x192_S192x2_S2048x2_1_0_0_1_n_n none v0 v3 (constant (F := Ideal) S2048x2 .f32 0x00000000#32) (ix2 a b))
    * (broadcastTo S2048x2 v11 broadcasts_S2048x1_S2048x2 (ix2 a b)) = _
  rw [dot27_scaled_eq]
  exact congr (congrArg _ (LibPlainMatmul.matmul_zero_apply 2048 192 2 none v0 v3 a b))
    (LibKeepdims.broadcastTo_a1_ab_apply v11 broadcasts_S2048x1_S2048x2 a b)

/-- The residual payload at (a, b): (∑ₗ x(a, l) · W₂(l, b)) + b(0, b). -/
theorem resid27_pay_apply (v0 : FVec Ideal S2048x192 .f32) (v6 : FVec Ideal S192x1 .f32) (v15 : FVec Ideal S1x1 .f32)
    (a : Fin 2048) (b : Fin 1) :
    k27_pay2 (F := Ideal) v0 v6 v15 (ix2 a b) = (∑ l : Fin 192, v0 (ix2 a l) * v6 (ix2 l b)) + v15 (ix2 (0 : Fin 1) b) := by
  unfold k27_pay2
  simp only [xcast27_eq, shapeCast_self]
  show (matmul dot_S2048x192_S192x1_S2048x1_1_0_0_1_n_n none v0 v6 (constant (F := Ideal) S2048x1 .f32 0x00000000#32) (ix2 a b))
    + (broadcastTo S2048x1 v15 broadcasts_S1x1_S2048x1 (ix2 a b)) = _
  rw [dot27_resid_eq]
  refine congr (congrArg _ (LibPlainMatmul.matmul_zero_apply 2048 192 1 none v0 v6 a b)) ?_
  refine broadcastTo_apply v15 broadcasts_S1x1_S2048x1 (ix2 a b) (ix2 (0 : Fin 1) b) fun ax => ?_
  match ax with
  | ⟨0, _⟩ => rfl
  | ⟨1, _⟩ => show b.val = 0; omega

/-! ## The arrays as the region finds them -/

/-- The layer's input x. -/
abbrev xin27 (c : Dev nD) : FVec Ideal S8192x192 .f32 := V c (Pipeline.arrRef spec27 0)
/-- The weight's scaled column group W₁. -/
abbrev wsc27 (c : Dev nD) : FVec Ideal S192x2 .f32 := V c (Pipeline.arrRef spec27 1)
/-- The weight's residual column group W₂. -/
abbrev wre27 (c : Dev nD) : FVec Ideal S192x1 .f32 := V c (Pipeline.arrRef spec27 2)
/-- The bias row b. -/
abbrev bia27 (c : Dev nD) : FVec Ideal S1x1 .f32 := V c (Pipeline.arrRef spec27 3)
/-- The column s of inverse row sums. -/
abbrev inv27 (c : Dev nD) : FVec Ideal S8192x1 .f32 := V c (Pipeline.arrRef spec27 4)

/-- Entry (p, q) of the scaled output. -/
def scaledAt27 (c : Dev nD) (p : Fin 8192) (q : Fin 2) : EReal :=
  (∑ l : Fin 192, xin27 V c (ix2 p l) * wsc27 V c (ix2 l q)) * inv27 V c (ix2 p (0 : Fin 1))

/-- Entry (p, q) of the residual output. -/
def residAt27 (c : Dev nD) (p : Fin 8192) (q : Fin 1) : EReal :=
  (∑ l : Fin 192, xin27 V c (ix2 p l) * wre27 V c (ix2 l q)) + bia27 V c (ix2 (0 : Fin 1) q)

/-- What the scaled output ends holding. -/
abbrev G27_5 (c : Dev nD) : FVec Ideal S8192x2 .bf16 := fun i => scaledAt27 V c ⟨(i 0).val, idx2_lt0 i⟩ ⟨(i 1).val, idx2_lt1 i⟩
/-- What the residual output ends holding. -/
abbrev G27_6 (c : Dev nD) : FVec Ideal S8192x1 .f32 := fun i => residAt27 V c ⟨(i 0).val, idx2_lt0 i⟩ ⟨(i 1).val, idx2_lt1 i⟩

/-! ## The index maps over the grid -/

/-- The printed index maps, decided over the 4 points: the row-blocked windows (x, s and the two outputs) sit at one row
    block, column block 0; the whole windows (W₁, W₂, b) at block (0, 0). -/
theorem idx_facts27 : ∀ t : Fin cfg27.N,
    win27_0.index t (0 : Fin 2) = win27_5.index t (0 : Fin 2) ∧ win27_0.index t (1 : Fin 2) = 0
    ∧ win27_1.index t (0 : Fin 2) = 0 ∧ win27_1.index t (1 : Fin 2) = 0
    ∧ win27_2.index t (0 : Fin 2) = 0 ∧ win27_2.index t (1 : Fin 2) = 0
    ∧ win27_3.index t (0 : Fin 2) = 0 ∧ win27_3.index t (1 : Fin 2) = 0
    ∧ win27_4.index t (0 : Fin 2) = win27_5.index t (0 : Fin 2) ∧ win27_4.index t (1 : Fin 2) = 0
    ∧ win27_5.index t (1 : Fin 2) = 0
    ∧ win27_6.index t (0 : Fin 2) = win27_5.index t (0 : Fin 2) ∧ win27_6.index t (1 : Fin 2) = 0
    ∧ win27_5.index t (0 : Fin 2) < 4 :=
  (by decide +kernel : ∀ t : Fin grid27.N, _)

/-- Every row block is some point's, for the scaled output … -/
theorem idx_onto27_5 : ∀ q0 : Fin 4, ∃ t : Fin cfg27.N, win27_5.index t = ![q0.val, 0] :=
  (by decide +kernel : ∀ q0 : Fin 4, ∃ t : Fin grid27.N, win27_5.index t = ![q0.val, 0])

/-- … and for the residual output. -/
theorem idx_onto27_6 : ∀ q0 : Fin 4, ∃ t : Fin cfg27.N, win27_6.index t = ![q0.val, 0] :=
  (by decide +kernel : ∀ q0 : Fin 4, ∃ t : Fin grid27.N, win27_6.index t = ![q0.val, 0])

/-! ## Output window 5: the scaled output -/

/-- WHAT POINT t WRITES BACK is block t of the scaled output's function of the arrays. -/
theorem flushed27_5_eq (c : Dev nD) (t : Fin cfg27.N) :
    (dat27 (F := Ideal) V c).flushed 5 t = ((cfg27.win 5).blk t).view.read (Elt Ideal) (G27_5 V c) := by
  show (cfg27.win 5).cut (grid27.coords t) ((dat27 (F := Ideal) V c).after 5 t) = _
  rw [after27_5]
  unfold out27_5
  rw [View.canon_unit_zero hz27]
  simp only [View.ld_unit_zero (S := S2048x192) hz27, View.ld_unit_zero (S := S192x2) hz27, View.ld_unit_zero (S := S2048x1) hz27]
  obtain ⟨e00, e01, e10, e11, e20, e21, e30, e31, e40, e41, e51, e60, e61, e5⟩ := idx_facts27 t
  funext j
  obtain ⟨a, b, rfl⟩ : ∃ (a : Fin 2048) (b : Fin 2), j = ix2 a b := ⟨j 0, j 1, eq_ix2 j⟩
  refine (scaled27_pay_apply (iblk27 V c 0 t) (iblk27 V c 1 t) (iblk27 V c 4 t) a b).trans ?_
  show (∑ l : Fin 192, xin27 V c (((cfg27.win 0).blk t).view.emb (ix2 a l)) * wsc27 V c (((cfg27.win 1).blk t).view.emb (ix2 l b)))
      * inv27 V c (((cfg27.win 4).blk t).view.emb (ix2 a (0 : Fin 1)))
    = scaledAt27 V c ⟨((((cfg27.win 5).blk t).view.emb (ix2 a b)) 0).val, _⟩ ⟨((((cfg27.win 5).blk t).view.emb (ix2 a b)) 1).val, _⟩
  unfold scaledAt27
  refine congr (congrArg _ (Finset.sum_congr rfl fun l _ => congr (congrArg _ (congrArg _ ?_)) (congrArg _ ?_))) (congrArg _ ?_)
  · funext d; apply Fin.ext
    match d with
    | ⟨0, _⟩ => show win27_0.index t (0 : Fin 2) * 2048 + 1 * a.val = win27_5.index t (0 : Fin 2) * 2048 + 1 * a.val; omega
    | ⟨1, _⟩ => show win27_0.index t (1 : Fin 2) * 192 + 1 * l.val = l.val; omega
  · funext d; apply Fin.ext
    match d with
    | ⟨0, _⟩ => show win27_1.index t (0 : Fin 2) * 192 + 1 * l.val = l.val; omega
    | ⟨1, _⟩ => show win27_1.index t (1 : Fin 2) * 2 + 1 * b.val = win27_5.index t (1 : Fin 2) * 2 + 1 * b.val; omega
  · funext d; apply Fin.ext
    match d with
    | ⟨0, _⟩ => show win27_4.index t (0 : Fin 2) * 2048 + 1 * a.val = win27_5.index t (0 : Fin 2) * 2048 + 1 * a.val; omega
    | ⟨1, _⟩ => show win27_4.index t (1 : Fin 2) * 1 + 1 * 0 = 0; omega

/-- An index of the scaled output is in point t's block iff each coordinate is in the block's range on its axis. -/
theorem mem_blk27_5 (t : Fin cfg27.N) (i : S8192x2.Idx) :
    i ∈ ((cfg27.win 5).blk t).view.set ↔ ∀ a : Fin 2, win27_5.index t a * S2048x2.size a ≤ (i a).val ∧ (i a).val < win27_5.index t a * S2048x2.size a + S2048x2.size a := by
  show i ∈ ((View.whole (Pipeline.arrRef spec27 5)).slice (win27_5.rect t)).set ↔ _
  rw [View.set_slice_whole, Rect.mem_set_unit]
  exact Iff.rfl

/-- Every index is in the block of the point of its row block, row / 2048. -/
theorem covered27_5 (i : S8192x2.Idx) :
    ∃ t : Fin cfg27.N, (cfg27.win 5).flush t = true ∧ i ∈ ((cfg27.win 5).blk t).view.set := by
  have hi0 : (i 0).val < 8192 := (i 0).isLt
  have hi1 : (i 1).val < 2 := (i 1).isLt
  obtain ⟨t, ht⟩ := idx_onto27_5 ⟨(i 0).val / 2048, by omega⟩
  have q0 : win27_5.index t (0 : Fin 2) = (i 0).val / 2048 := congrFun ht 0
  have q1 : win27_5.index t (1 : Fin 2) = 0 := congrFun ht 1
  refine ⟨t, flush27_5 t, ?_⟩
  rw [mem_blk27_5]
  intro a
  match a with
  | ⟨0, _⟩ => show win27_5.index t (0 : Fin 2) * 2048 ≤ (i 0).val ∧ (i 0).val < win27_5.index t (0 : Fin 2) * 2048 + 2048; omega
  | ⟨1, _⟩ => show win27_5.index t (1 : Fin 2) * 2 ≤ (i 1).val ∧ (i 1).val < win27_5.index t (1 : Fin 2) * 2 + 2; omega

/-- THE SCALED OUTPUT after the region. -/
theorem arr27_5 (c : Dev nD) : (dat27 (F := Ideal) V c).arrAt 5 cfg27.N = G27_5 V c :=
  (dat27 (F := Ideal) V c).arrAt_eq_of_cover 5 (G27_5 V c) (fun t _ => flushed27_5_eq V c t) covered27_5

theorem r27_scaled (c : Dev nD) (p : Fin 8192) (q : Fin 2) :
    (dat27 (F := Ideal) V c).arrAt 5 cfg27.N (ix2 p q)
      = (∑ l : Fin 192, xin27 V c (ix2 p l) * wsc27 V c (ix2 l q)) * inv27 V c (ix2 p (0 : Fin 1)) :=
  congrFun (arr27_5 V c) (ix2 p q)

/-! ## Output window 6: the residual output -/

/-- WHAT POINT t WRITES BACK is block t of the residual output's function of the arrays. -/
theorem flushed27_6_eq (c : Dev nD) (t : Fin cfg27.N) :
    (dat27 (F := Ideal) V c).flushed 6 t = ((cfg27.win 6).blk t).view.read (Elt Ideal) (G27_6 V c) := by
  show (cfg27.win 6).cut (grid27.coords t) ((dat27 (F := Ideal) V c).after 6 t) = _
  rw [after27_6]
  unfold out27_6
  rw [View.canon_unit_zero hz27]
  simp only [View.ld_unit_zero (S := S2048x192) hz27, View.ld_unit_zero (S := S192x1) hz27, View.ld_unit_zero (S := S1x1) hz27]
  obtain ⟨e00, e01, e10, e11, e20, e21, e30, e31, e40, e41, e51, e60, e61, e5⟩ := idx_facts27 t
  funext j
  obtain ⟨a, b, rfl⟩ : ∃ (a : Fin 2048) (b : Fin 1), j = ix2 a b := ⟨j 0, j 1, eq_ix2 j⟩
  refine (resid27_pay_apply (iblk27 V c 0 t) (iblk27 V c 2 t) (iblk27 V c 3 t) a b).trans ?_
  show (∑ l : Fin 192, xin27 V c (((cfg27.win 0).blk t).view.emb (ix2 a l)) * wre27 V c (((cfg27.win 2).blk t).view.emb (ix2 l b)))
      + bia27 V c (((cfg27.win 3).blk t).view.emb (ix2 (0 : Fin 1) b))
    = residAt27 V c ⟨((((cfg27.win 6).blk t).view.emb (ix2 a b)) 0).val, _⟩ ⟨((((cfg27.win 6).blk t).view.emb (ix2 a b)) 1).val, _⟩
  unfold residAt27
  refine congr (congrArg _ (Finset.sum_congr rfl fun l _ => congr (congrArg _ (congrArg _ ?_)) (congrArg _ ?_))) (congrArg _ ?_)
  · funext d; apply Fin.ext
    match d with
    | ⟨0, _⟩ => show win27_0.index t (0 : Fin 2) * 2048 + 1 * a.val = win27_6.index t (0 : Fin 2) * 2048 + 1 * a.val; omega
    | ⟨1, _⟩ => show win27_0.index t (1 : Fin 2) * 192 + 1 * l.val = l.val; omega
  · funext d; apply Fin.ext
    match d with
    | ⟨0, _⟩ => show win27_2.index t (0 : Fin 2) * 192 + 1 * l.val = l.val; omega
    | ⟨1, _⟩ => show win27_2.index t (1 : Fin 2) * 1 + 1 * b.val = win27_6.index t (1 : Fin 2) * 1 + 1 * b.val; omega
  · funext d; apply Fin.ext
    match d with
    | ⟨0, _⟩ => show win27_3.index t (0 : Fin 2) * 1 + 1 * 0 = 0; omega
    | ⟨1, _⟩ => show win27_3.index t (1 : Fin 2) * 1 + 1 * b.val = win27_6.index t (1 : Fin 2) * 1 + 1 * b.val; omega

/-- An index of the residual output is in point t's block iff each coordinate is in the block's range on its axis. -/
theorem mem_blk27_6 (t : Fin cfg27.N) (i : S8192x1.Idx) :
    i ∈ ((cfg27.win 6).blk t).view.set ↔ ∀ a : Fin 2, win27_6.index t a * S2048x1.size a ≤ (i a).val ∧ (i a).val < win27_6.index t a * S2048x1.size a + S2048x1.size a := by
  show i ∈ ((View.whole (Pipeline.arrRef spec27 6)).slice (win27_6.rect t)).set ↔ _
  rw [View.set_slice_whole, Rect.mem_set_unit]
  exact Iff.rfl

/-- Every index is in the block of the point of its row block, row / 2048. -/
theorem covered27_6 (i : S8192x1.Idx) :
    ∃ t : Fin cfg27.N, (cfg27.win 6).flush t = true ∧ i ∈ ((cfg27.win 6).blk t).view.set := by
  have hi0 : (i 0).val < 8192 := (i 0).isLt
  have hi1 : (i 1).val < 1 := (i 1).isLt
  obtain ⟨t, ht⟩ := idx_onto27_6 ⟨(i 0).val / 2048, by omega⟩
  have q0 : win27_6.index t (0 : Fin 2) = (i 0).val / 2048 := congrFun ht 0
  have q1 : win27_6.index t (1 : Fin 2) = 0 := congrFun ht 1
  refine ⟨t, flush27_6 t, ?_⟩
  rw [mem_blk27_6]
  intro a
  match a with
  | ⟨0, _⟩ => show win27_6.index t (0 : Fin 2) * 2048 ≤ (i 0).val ∧ (i 0).val < win27_6.index t (0 : Fin 2) * 2048 + 2048; omega
  | ⟨1, _⟩ => show win27_6.index t (1 : Fin 2) * 1 ≤ (i 1).val ∧ (i 1).val < win27_6.index t (1 : Fin 2) * 1 + 1; omega

/-- THE RESIDUAL OUTPUT after the region. -/
theorem arr27_6 (c : Dev nD) : (dat27 (F := Ideal) V c).arrAt 6 cfg27.N = G27_6 V c :=
  (dat27 (F := Ideal) V c).arrAt_eq_of_cover 6 (G27_6 V c) (fun t _ => flushed27_6_eq V c t) covered27_6

theorem r27_resid (c : Dev nD) (p : Fin 8192) (q : Fin 1) :
    (dat27 (F := Ideal) V c).arrAt 6 cfg27.N (ix2 p q)
      = (∑ l : Fin 192, xin27 V c (ix2 p l) * wre27 V c (ix2 l q)) + bia27 V c (ix2 (0 : Fin 1) q) :=
  congrFun (arr27_6 V c) (ix2 p q)

end Cert.KernelIdeal.KV

end
-- ==== Proof.KV.R28.lean ====
/-
  Region 28, the last aggregation layer (no rectifier, no residual): what its output array holds after the region,
  entry by entry, as a function of the arrays the region finds.

  The body writes its output block [1024, 3] by two column slices: columns [0, 2) hold A·S + b (A the row block of the
  adjacency, S the scaled features, b the bias row broadcast over the rows) and column 2 holds R, the row block of the
  other feature group. The two slices are disjoint and cover the block, so each entry of the block is the payload of the
  slice that holds it. Row block t of the output array is written by grid point t (8 points of 1024 rows), and the
  points' blocks cover the array; so entry (p, q) of the array is ∑ₖ A(p, k)·S(k, q) + b(0, q) for q < 2, and R(p, 0)
  for q = 2.
-/
import proofs.«405499_j28269474742810_3_alg».proof.Proof.Fr.KernelIdeal.Reg28
import proofs.«405499_j28269474742810_3_alg».proof.Proof.LibPlainMatmul
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.KV

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! ## The payloads at an entry -/

/-- The zero offsets, however spelt. -/
theorem r28_hz : (![0, 0] : Fin 2 → Nat) = fun _ => 0 := funext fun a => match a with | ⟨0, _⟩ => rfl | ⟨1, _⟩ => rfl

/-- The product's dimension numbers are those of a plain M×K by K×N product. -/
theorem r28_dot_plain : dot_S1024x8192_S8192x2_S1024x2_1_0_0_1_n_n = DotDims.plain 1024 8192 2 := rfl

/-- Columns [0, 2) at entry (a, b): the product's entry plus the bias of column b. -/
theorem r28_pay1_apply (x0 : Vec Ideal S1024x8192 .bf16) (x1 : Vec Ideal S8192x2 .bf16) (x3 : Vec Ideal S1x2 .f32)
    (a : Fin 1024) (b : Fin 2) :
    k28_pay1 (F := Ideal) x0 x1 x3 (ix2 a b)
      = (∑ k : Fin 8192, x0 (ix2 a k) * x1 (ix2 k b)) + x3 (ix2 (0 : Fin 1) b) := by
  unfold k28_pay1
  simp only [shapeCast_self]
  show matmul (F := Ideal) dot_S1024x8192_S8192x2_S1024x2_1_0_0_1_n_n none x0 x1 (constant (F := Ideal) S1024x2 .f32 0x00000000#32) (ix2 a b)
      + broadcastTo S1024x2 x3 broadcasts_S1x2_S1024x2 (ix2 a b) = _
  rw [r28_dot_plain]
  rw [show matmul (F := Ideal) (DotDims.plain 1024 8192 2) none x0 x1 (constant (F := Ideal) S1024x2 .f32 0x00000000#32) (ix2 a b)
        = ∑ k : Fin 8192, x0 (ix2 a k) * x1 (ix2 k b) from Cert.LibPlainMatmul.matmul_zero_apply 1024 8192 2 none x0 x1 a b]
  rw [broadcastTo_apply x3 broadcasts_S1x2_S1024x2 (ix2 a b) (ix2 (0 : Fin 1) b) (fun ax => by
    match ax with
    | ⟨0, _⟩ => rfl
    | ⟨1, _⟩ => rfl)]

/-- Column 2 at entry (a, b): the other feature group's entry. -/
theorem r28_pay2_apply (x2 : Vec Ideal S1024x1 .f32) (a : Fin 1024) (b : Fin 1) :
    k28_pay2 (F := Ideal) x2 (ix2 a b) = x2 (ix2 a b) := by
  unfold k28_pay2
  simp only [shapeCast_self]

/-! ## What the body leaves in the output block: each entry is the payload of the slice that holds it -/

/-- An entry in columns [0, 2): off the later slice, under the earlier one. -/
theorem r28_out_lo (c : Dev nD) (i : grid28.Coords)
    (a1 : Memref sig .tc .vmem S1024x8192 .bf16) (h1 : a1.IsWhole) (a2 : Memref sig .tc .vmem S8192x2 .bf16) (h2 : a2.IsWhole)
    (a3 : Memref sig .tc .vmem S1024x1 .f32) (h3 : a3.IsWhole) (a4 : Memref sig .tc .vmem S1x2 .f32) (h4 : a4.IsWhole)
    (a5 : Memref sig .tc .vmem S1024x3 .f32) (h5 : a5.IsWhole)
    (x0 : Vec Ideal S1024x8192 .bf16) (x1 : Vec Ideal S8192x2 .bf16) (x2 : Vec Ideal S1024x1 .f32) (x3 : Vec Ideal S1x2 .f32)
    (y : S1024x3.Idx) (a : Fin 1024) (b : Fin 2) (hy0 : (y 0).val = a.val) (hy1 : (y 1).val = b.val) :
    out28_A_4 (F := Ideal) c i a1 h1 a2 h2 a3 h3 a4 h4 a5 h5 x0 x1 x2 x3 y = k28_pay1 (F := Ideal) x0 x1 x3 (ix2 a b) := by
  unfold out28_A_4
  rw [View.read_writes_eq_canon _ _ _ (cover28_A_4 c i a1 h1 a2 h2 a3 h3 a4 h4 a5 h5 x0 x1 x2 x3)]
  unfold kernelRun28_A
  dsimp only
  sl_unfold_words
  simp only [View.readAt_eq_ld, h1.read_unread, h2.read_unread, h3.read_unread, h4.read_unread,
    View.ld_unit_zero (S := S1024x8192) r28_hz, View.ld_unit_zero (S := S8192x2) r28_hz,
    View.ld_unit_zero (S := S1024x1) r28_hz, View.ld_unit_zero (S := S1x2) r28_hz]
  have hb : b.val < 2 := b.isLt
  refine (View.canon_cons_of_not_mem _ _ (fun hm => ?_)).trans ?_
  · have h2' : 2 ≤ (y 1).val := (((Rect.mem_set_unit (inb := inb_S1024x3_S1024x1_0_2)).mp hm) 1).1
    omega
  · have hy : y = (Rect.unit (s := S1024x3) ![0, 0] S1024x2.size inb_S1024x3_S1024x2_0_0).emb (ix2 a b) := by
      funext d; apply Fin.ext
      match d with
      | ⟨0, _⟩ => show (y 0).val = 0 + 1 * a.val; omega
      | ⟨1, _⟩ => show (y 1).val = 0 + 1 * b.val; omega
    rw [hy]
    exact View.canon_cons_emb _ _ _ _

/-- An entry in column 2: under the later slice. -/
theorem r28_out_hi (c : Dev nD) (i : grid28.Coords)
    (a1 : Memref sig .tc .vmem S1024x8192 .bf16) (h1 : a1.IsWhole) (a2 : Memref sig .tc .vmem S8192x2 .bf16) (h2 : a2.IsWhole)
    (a3 : Memref sig .tc .vmem S1024x1 .f32) (h3 : a3.IsWhole) (a4 : Memref sig .tc .vmem S1x2 .f32) (h4 : a4.IsWhole)
    (a5 : Memref sig .tc .vmem S1024x3 .f32) (h5 : a5.IsWhole)
    (x0 : Vec Ideal S1024x8192 .bf16) (x1 : Vec Ideal S8192x2 .bf16) (x2 : Vec Ideal S1024x1 .f32) (x3 : Vec Ideal S1x2 .f32)
    (y : S1024x3.Idx) (a : Fin 1024) (b : Fin 1) (hy0 : (y 0).val = a.val) (hy1 : (y 1).val = 2 + b.val) :
    out28_A_4 (F := Ideal) c i a1 h1 a2 h2 a3 h3 a4 h4 a5 h5 x0 x1 x2 x3 y = k28_pay2 (F := Ideal) x2 (ix2 a b) := by
  unfold out28_A_4
  rw [View.read_writes_eq_canon _ _ _ (cover28_A_4 c i a1 h1 a2 h2 a3 h3 a4 h4 a5 h5 x0 x1 x2 x3)]
  unfold kernelRun28_A
  dsimp only
  sl_unfold_words
  simp only [View.readAt_eq_ld, h1.read_unread, h2.read_unread, h3.read_unread, h4.read_unread,
    View.ld_unit_zero (S := S1024x8192) r28_hz, View.ld_unit_zero (S := S8192x2) r28_hz,
    View.ld_unit_zero (S := S1024x1) r28_hz, View.ld_unit_zero (S := S1x2) r28_hz]
  have hy : y = (Rect.unit (s := S1024x3) ![0, 2] S1024x1.size inb_S1024x3_S1024x1_0_2).emb (ix2 a b) := by
    funext d; apply Fin.ext
    match d with
    | ⟨0, _⟩ => show (y 0).val = 0 + 1 * a.val; omega
    | ⟨1, _⟩ => show (y 1).val = 2 + 1 * b.val; omega
  rw [hy]
  exact View.canon_cons_emb _ _ _ _

/-! ## The arrays the region finds, and the array it leaves -/

/-- The adjacency (rounded copy), the scaled features, the other feature group and the bias row, as the region finds them. -/
abbrev r28_adj (c : Dev nD) : Vec Ideal S8192x8192 .bf16 := V c (Pipeline.arrRef spec28 0)
abbrev r28_scaled (c : Dev nD) : Vec Ideal S8192x2 .bf16 := V c (Pipeline.arrRef spec28 1)
abbrev r28_resid (c : Dev nD) : Vec Ideal S8192x1 .f32 := V c (Pipeline.arrRef spec28 2)
abbrev r28_bias (c : Dev nD) : Vec Ideal S1x2 .f32 := V c (Pipeline.arrRef spec28 3)

/-- The windows' blocks at a point, at their literal types. -/
abbrev r28_b0 (c : Dev nD) (t : Fin cfg28.N) : Vec Ideal S1024x8192 .bf16 := iblk28 (F := Ideal) V c 0 t
abbrev r28_b1 (c : Dev nD) (t : Fin cfg28.N) : Vec Ideal S8192x2 .bf16 := iblk28 (F := Ideal) V c 1 t
abbrev r28_b2 (c : Dev nD) (t : Fin cfg28.N) : Vec Ideal S1024x1 .f32 := iblk28 (F := Ideal) V c 2 t
abbrev r28_b3 (c : Dev nD) (t : Fin cfg28.N) : Vec Ideal S1x2 .f32 := iblk28 (F := Ideal) V c 3 t

/-- Entry (p, q) of the array the region leaves. -/
def r28_val (c : Dev nD) (p : Fin 8192) (q : Fin 3) : EReal :=
  if h : q.val < 2 then
    (∑ k : Fin 8192, r28_adj V c (ix2 p k) * r28_scaled V c (ix2 k (⟨q.val, h⟩ : Fin 2)))
      + r28_bias V c (ix2 (0 : Fin 1) (⟨q.val, h⟩ : Fin 2))
  else
    r28_resid V c (ix2 p (⟨q.val - 2, by have := q.isLt; omega⟩ : Fin 1))

/-- The array the region leaves. -/
def r28_G (c : Dev nD) : Vec Ideal S8192x3 .f32 := fun i => r28_val V c (i 0) (i 1)

/-- The printed index maps, decided over the grid: the row-blocked windows are at block row t, column block 0; the whole
    windows at block (0, 0). -/
theorem r28_idx_facts : ∀ t : Fin cfg28.N,
    win28_0.index t (0 : Fin 2) = t.val ∧ win28_0.index t (1 : Fin 2) = 0
    ∧ win28_1.index t (0 : Fin 2) = 0 ∧ win28_1.index t (1 : Fin 2) = 0
    ∧ win28_2.index t (0 : Fin 2) = t.val ∧ win28_2.index t (1 : Fin 2) = 0
    ∧ win28_3.index t (0 : Fin 2) = 0 ∧ win28_3.index t (1 : Fin 2) = 0
    ∧ win28_4.index t (0 : Fin 2) = t.val ∧ win28_4.index t (1 : Fin 2) = 0 :=
  (by decide +kernel : ∀ t : Fin grid28.N, _)

/-- Row block t of the adjacency: entry (a, k) of the block is entry (1024 t + a, k) of the array. -/
theorem r28_b0_apply (c : Dev nD) (t : Fin cfg28.N) (a : Fin 1024) (k : Fin 8192) (p : Fin 8192)
    (hp : p.val = t.val * 1024 + a.val) : r28_b0 V c t (ix2 a k) = r28_adj V c (ix2 p k) := by
  obtain ⟨e00, e01, -⟩ := r28_idx_facts t
  show V c (Pipeline.arrRef spec28 0) (((cfg28.win 0).blk t).view.emb (ix2 a k)) = V c (Pipeline.arrRef spec28 0) (ix2 p k)
  refine congrArg _ (funext fun d => Fin.ext ?_)
  match d with
  | ⟨0, _⟩ => show win28_0.index t (0 : Fin 2) * 1024 + 1 * a.val = p.val; omega
  | ⟨1, _⟩ => show win28_0.index t (1 : Fin 2) * 8192 + 1 * k.val = k.val; omega

/-- The scaled features' one block is the array. -/
theorem r28_b1_apply (c : Dev nD) (t : Fin cfg28.N) (k : Fin 8192) (b : Fin 2) :
    r28_b1 V c t (ix2 k b) = r28_scaled V c (ix2 k b) := by
  obtain ⟨-, -, e10, e11, -⟩ := r28_idx_facts t
  show V c (Pipeline.arrRef spec28 1) (((cfg28.win 1).blk t).view.emb (ix2 k b)) = V c (Pipeline.arrRef spec28 1) (ix2 k b)
  refine congrArg _ (funext fun d => Fin.ext ?_)
  match d with
  | ⟨0, _⟩ => show win28_1.index t (0 : Fin 2) * 8192 + 1 * k.val = k.val; omega
  | ⟨1, _⟩ => show win28_1.index t (1 : Fin 2) * 2 + 1 * b.val = b.val; omega

/-- Row block t of the other feature group. -/
theorem r28_b2_apply (c : Dev nD) (t : Fin cfg28.N) (a : Fin 1024) (b : Fin 1) (p : Fin 8192)
    (hp : p.val = t.val * 1024 + a.val) : r28_b2 V c t (ix2 a b) = r28_resid V c (ix2 p b) := by
  obtain ⟨-, -, -, -, e20, e21, -⟩ := r28_idx_facts t
  show V c (Pipeline.arrRef spec28 2) (((cfg28.win 2).blk t).view.emb (ix2 a b)) = V c (Pipeline.arrRef spec28 2) (ix2 p b)
  refine congrArg _ (funext fun d => Fin.ext ?_)
  match d with
  | ⟨0, _⟩ => show win28_2.index t (0 : Fin 2) * 1024 + 1 * a.val = p.val; omega
  | ⟨1, _⟩ => show win28_2.index t (1 : Fin 2) * 1 + 1 * b.val = b.val; omega

/-- The bias row's one block is the array. -/
theorem r28_b3_apply (c : Dev nD) (t : Fin cfg28.N) (b : Fin 2) :
    r28_b3 V c t (ix2 (0 : Fin 1) b) = r28_bias V c (ix2 (0 : Fin 1) b) := by
  obtain ⟨-, -, -, -, -, -, e30, e31, -⟩ := r28_idx_facts t
  show V c (Pipeline.arrRef spec28 3) (((cfg28.win 3).blk t).view.emb (ix2 (0 : Fin 1) b)) = V c (Pipeline.arrRef spec28 3) (ix2 (0 : Fin 1) b)
  refine congrArg _ (funext fun d => Fin.ext ?_)
  match d with
  | ⟨0, _⟩ => show win28_3.index t (0 : Fin 2) * 1 + 1 * 0 = 0; omega
  | ⟨1, _⟩ => show win28_3.index t (1 : Fin 2) * 2 + 1 * b.val = b.val; omega

/-- WHAT POINT t WRITES BACK is block t of the array the region leaves. -/
theorem r28_flushed_eq (c : Dev nD) (t : Fin cfg28.N) :
    (dat28 (F := Ideal) V c).flushed 4 t = ((cfg28.win 4).blk t).view.read (Elt Ideal) (r28_G V c) := by
  show (cfg28.win 4).cut (grid28.coords t) ((dat28 (F := Ideal) V c).after 4 t) = _
  rw [after28_4]
  obtain ⟨-, -, -, -, -, -, -, -, e40, e41⟩ := r28_idx_facts t
  funext j
  have hj0 : (j 0).val < 1024 := (j 0).isLt
  have hj1 : (j 1).val < 3 := (j 1).isLt
  have ht : t.val < 8 := lt_of_lt_of_eq t.isLt N_28
  have hp : t.val * 1024 + (j 0).val < 8192 := by omega
  have hemb : ((cfg28.win 4).blk t).view.emb j
      = ix2 (⟨t.val * 1024 + (j 0).val, hp⟩ : Fin 8192) (⟨(j 1).val, hj1⟩ : Fin 3) := by
    funext d; apply Fin.ext
    match d with
    | ⟨0, _⟩ => show win28_4.index t (0 : Fin 2) * 1024 + 1 * (j 0).val = t.val * 1024 + (j 0).val; omega
    | ⟨1, _⟩ => show win28_4.index t (1 : Fin 2) * 3 + 1 * (j 1).val = (j 1).val; omega
  show outsAt28 (F := Ideal) V c t ((cfg28.win 4).xinj (grid28.coords t) j) = r28_G V c (((cfg28.win 4).blk t).view.emb j)
  rw [hemb]
  show _ = r28_val V c (⟨t.val * 1024 + (j 0).val, hp⟩ : Fin 8192) (⟨(j 1).val, hj1⟩ : Fin 3)
  unfold outsAt28 r28_val
  by_cases h : (j 1).val < 2
  · rw [dif_pos h]
    refine (r28_out_lo c (grid28.coords t) (ms28_0 t) (hs28_0 t) (ms28_1 t) (hs28_1 t) (ms28_2 t) (hs28_2 t) (ms28_3 t) (hs28_3 t)
      (ms28_4 t) (hs28_4 t) (r28_b0 V c t) (r28_b1 V c t) (r28_b2 V c t) (r28_b3 V c t)
      ((cfg28.win 4).xinj (grid28.coords t) j) (⟨(j 0).val, hj0⟩ : Fin 1024) (⟨(j 1).val, h⟩ : Fin 2) rfl rfl).trans ?_
    refine (r28_pay1_apply (r28_b0 V c t) (r28_b1 V c t) (r28_b3 V c t) (⟨(j 0).val, hj0⟩ : Fin 1024) (⟨(j 1).val, h⟩ : Fin 2)).trans ?_
    exact congrArg₂ (· + ·) (Finset.sum_congr rfl fun k _ =>
      congrArg₂ (· * ·) (r28_b0_apply V c t (⟨(j 0).val, hj0⟩ : Fin 1024) k (⟨t.val * 1024 + (j 0).val, hp⟩ : Fin 8192) rfl)
        (r28_b1_apply V c t k (⟨(j 1).val, h⟩ : Fin 2))) (r28_b3_apply V c t (⟨(j 1).val, h⟩ : Fin 2))
  · rw [dif_neg h]
    have h1' : (j 1).val - 2 < 1 := by omega
    refine (r28_out_hi c (grid28.coords t) (ms28_0 t) (hs28_0 t) (ms28_1 t) (hs28_1 t) (ms28_2 t) (hs28_2 t) (ms28_3 t) (hs28_3 t)
      (ms28_4 t) (hs28_4 t) (r28_b0 V c t) (r28_b1 V c t) (r28_b2 V c t) (r28_b3 V c t)
      ((cfg28.win 4).xinj (grid28.coords t) j) (⟨(j 0).val, hj0⟩ : Fin 1024) (⟨(j 1).val - 2, h1'⟩ : Fin 1) rfl
      (by show (j 1).val = 2 + ((j 1).val - 2); omega)).trans ?_
    refine (r28_pay2_apply (r28_b2 V c t) (⟨(j 0).val, hj0⟩ : Fin 1024) (⟨(j 1).val - 2, h1'⟩ : Fin 1)).trans ?_
    exact r28_b2_apply V c t (⟨(j 0).val, hj0⟩ : Fin 1024) (⟨(j 1).val - 2, h1'⟩ : Fin 1)
      (⟨t.val * 1024 + (j 0).val, hp⟩ : Fin 8192) rfl

/-! ## The points' blocks cover the array -/

/-- An index of the array is in point t's block iff each coordinate is in the block's range on its axis. -/
theorem r28_mem_blk (t : Fin cfg28.N) (i : S8192x3.Idx) :
    i ∈ ((cfg28.win 4).blk t).view.set ↔ ∀ a : Fin 2, win28_4.index t a * S1024x3.size a ≤ (i a).val
      ∧ (i a).val < win28_4.index t a * S1024x3.size a + S1024x3.size a := by
  show i ∈ ((View.whole (Pipeline.arrRef spec28 4)).slice (win28_4.rect t)).set ↔ _
  rw [View.set_slice_whole, Rect.mem_set_unit]
  exact Iff.rfl

/-- Row r of the array is in the block of point r / 1024. -/
theorem r28_cover (i : S8192x3.Idx) :
    ∃ t : Fin cfg28.N, (cfg28.win 4).flush t = true ∧ i ∈ ((cfg28.win 4).blk t).view.set := by
  have hi0 : (i 0).val < 8192 := (i 0).isLt
  have hi1 : (i 1).val < 3 := (i 1).isLt
  have hlt : (i 0).val / 1024 < cfg28.N := lt_of_lt_of_eq (by omega : (i 0).val / 1024 < 8) N_28.symm
  obtain ⟨-, -, -, -, -, -, -, -, e40, e41⟩ := r28_idx_facts ⟨(i 0).val / 1024, hlt⟩
  refine ⟨⟨(i 0).val / 1024, hlt⟩, flush28_4 _, ?_⟩
  rw [r28_mem_blk]
  intro a
  match a with
  | ⟨0, _⟩ =>
    show win28_4.index ⟨(i 0).val / 1024, hlt⟩ (0 : Fin 2) * 1024 ≤ (i 0).val
      ∧ (i 0).val < win28_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win28_4.index ⟨(i 0).val / 1024, hlt⟩ (1 : Fin 2) * 3 ≤ (i 1).val
      ∧ (i 1).val < win28_4.index ⟨(i 0).val / 1024, hlt⟩ (1 : Fin 2) * 3 + 3
    rw [e41]; omega

/-! ## The output array after the region -/

/-- The output array ends holding the array of the entries above. -/
theorem r28_final (c : Dev nD) : (dat28 (F := Ideal) V c).arrAt 4 cfg28.N = r28_G V c :=
  (dat28 (F := Ideal) V c).arrAt_eq_of_cover 4 (r28_G V c) (fun t _ => r28_flushed_eq V c t) r28_cover

/-- Columns [0, 2): the aggregated, biased features. -/
theorem r28_lo (c : Dev nD) (p : Fin 8192) (q : Fin 2) :
    (dat28 (F := Ideal) V c).arrAt 4 cfg28.N (ix2 p (⟨q.val, by have := q.isLt; omega⟩ : Fin 3))
      = (∑ k : Fin 8192, r28_adj V c (ix2 p k) * r28_scaled V c (ix2 k q)) + r28_bias V c (ix2 (0 : Fin 1) q) := by
  rw [r28_final]
  show r28_val V c p (⟨q.val, _⟩ : Fin 3) = _
  unfold r28_val
  rw [dif_pos (show (⟨q.val, _⟩ : Fin 3).val < 2 from q.isLt)]

/-- Column 2: the other feature group. -/
theorem r28_hi (c : Dev nD) (p : Fin 8192) (q : Fin 1) :
    (dat28 (F := Ideal) V c).arrAt 4 cfg28.N (ix2 p (⟨2 + q.val, by have := q.isLt; omega⟩ : Fin 3))
      = r28_resid V c (ix2 p q) := by
  rw [r28_final]
  show r28_val V c p (⟨2 + q.val, _⟩ : Fin 3) = _
  unfold r28_val
  rw [dif_neg (show ¬ (⟨2 + q.val, _⟩ : Fin 3).val < 2 from by show ¬ 2 + q.val < 2; omega)]
  refine congrArg _ (congrArg (ix2 p) (Fin.ext ?_))
  show 2 + q.val - 2 = q.val
  omega

end Cert.KernelIdeal.KV

end
-- ==== Proof.KV.L14.lean ====
/-
  Layer 14 of the first program (the last layer: width 3, two averaged columns, no activation): what its two
  pallas_calls leave in the output array, entry by entry, is the layer's specification applied to the entries of its input array.
-/
import proofs.«405499_j28269474742810_3_alg».proof.Proof.KV.R27
import proofs.«405499_j28269474742810_3_alg».proof.Proof.KV.R28
import proofs.«405499_j28269474742810_3_alg».proof.Proof.KV.Prep
import proofs.«405499_j28269474742810_3_alg».proof.Proof.Slices
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The weights and the bias reach the layer's host stretch as launched. -/
theorem L14_w (c : Dev nD) : V41 m ρ c main_arg7 = m ((c : Thread nD τ).loc main_arg7) := tr_main_arg7_0_41 m ρ c
theorem L14_b (c : Dev nD) : V41 m ρ c main_arg8 = m ((c : Thread nD τ).loc main_arg8) := tr_main_arg8_0_41 m ρ c

/-- The scaled column group of the layer's weights, at an entry. -/
theorem L14_ws (c : Dev nD) (l : Fin 192) (q : Fin 2) : V42 m ρ c main_v154 (ix2 l q) = (P m c).W15 l ⟨q.val, by omega⟩ := by
  have e : V42 m ρ c main_v154 = extractStridedSlice S192x2 ![0, 0] (V41 m ρ c main_arg7) slices_S192x3_S192x2_0_0 := by
    show StableHlo.after hostOps27 (W41 m ρ c) (Proc.devRef .tc main_v154) = _
    after_results <;> rfl
  rw [e, Cert.Slices.cols_apply _ 0 _ l q (by omega), L14_w]
  show _ = m ((c : Thread nD τ).loc main_arg7) (ix2 l ⟨q.val, by omega⟩)
  congr 2
  exact Fin.ext (Nat.zero_add _)

/-- The pass-through column group of the layer's weights, at an entry. -/
theorem L14_wr (c : Dev nD) (l : Fin 192) (q : Fin 1) : V42 m ρ c main_v155 (ix2 l q) = (P m c).W15 l ⟨2 + q.val, by omega⟩ := by
  have e : V42 m ρ c main_v155 = extractStridedSlice S192x1 ![0, 2] (V41 m ρ c main_arg7) slices_S192x3_S192x1_0_2 := by
    show StableHlo.after hostOps27 (W41 m ρ c) (Proc.devRef .tc main_v155) = _
    after_results <;> rfl
  rw [e, Cert.Slices.cols_apply _ 2 _ l q (by omega), L14_w]
  rfl

/-- The bias of the scaled columns, one row, at an entry. -/
theorem L14_bs (c : Dev nD) (q : Fin 2) : V42 m ρ c main_v157 (ix2 (0 : Fin 1) q) = (P m c).b15 ⟨q.val, by omega⟩ := by
  have e : V42 m ρ c main_v157 = shapeCast S1x2 (extractStridedSlice S2 ![0] (V41 m ρ c main_arg8) slices_S3_S2_0) shapeCasts_S2_S1x2 := by
    show StableHlo.after hostOps27 (W41 m ρ c) (Proc.devRef .tc main_v157) = _
    after_results <;> rfl
  rw [e, Cert.Slices.seg_row_apply _ 0 _ _ (0 : Fin 1) q (by omega), L14_b]
  show _ = m ((c : Thread nD τ).loc main_arg8) (ix1 ⟨q.val, by omega⟩)
  congr 2
  exact Fin.ext (Nat.zero_add _)

/-- The bias of the pass-through columns, one row, at an entry. -/
theorem L14_br (c : Dev nD) (q : Fin 1) : V42 m ρ c main_v159 (ix2 (0 : Fin 1) q) = (P m c).b15 ⟨2 + q.val, by omega⟩ := by
  have e : V42 m ρ c main_v159 = shapeCast S1x1 (extractStridedSlice S1 ![2] (V41 m ρ c main_arg8) slices_S3_S1_2) shapeCasts_S1_S1x1 := by
    show StableHlo.after hostOps27 (W41 m ρ c) (Proc.devRef .tc main_v159) = _
    after_results <;> rfl
  rw [e, Cert.Slices.seg_row_apply _ 2 _ _ (0 : Fin 1) q (by omega), L14_b]
  rfl

/-- THE LAYER: the output array after its second pallas_call, at (p, j), is the layer's specification of the input array's entries. -/
theorem L14_out (c : Dev nD) (x : Cert.Spec.Mx 8192 192) (hx : ∀ k l, V41 m ρ c main_v153 (ix2 k l) = x k l)
    (p : Fin 8192) (j : Fin 3) : V44 m ρ c main_v161 (ix2 p j) = Cert.Spec.preK 2 (P m c).A x (P m c).W15 (P m c).b15 p j := by
  refine Cert.Spec.layer_assemble (S := 2) (R := 1) (O := 3) rfl (P m c).A x (P m c).W15 (P m c).b15
    (fun k => V42 m ρ c main_v1_1 (ix2 k (0 : Fin 1))) (fun k => ?hinv)
    (fun k q => V43 m ρ c main_v160_0 (ix2 k q)) (fun k q => ?hsc)
    (fun p q => V43 m ρ c main_v160_1 (ix2 p q)) (fun p q => ?hrs)
    (fun _ _ y => y) (fun p j => V44 m ρ c main_v161 (ix2 p j)) (fun p q => ?hlo) (fun p q => ?hhi) p j
  case hinv =>
    exact (congrFun (tr_main_v1_1_2_42 m ρ c) (ix2 k (0 : Fin 1))).trans (inv_W2 m ρ c k)
  case hsc =>
    refine (congrFun (W43_arr m ρ c 5) (ix2 k q)).trans ((r27_scaled (V42 m ρ) c k q).trans ?_)
    refine congrArg (· * _) (Finset.sum_congr rfl fun l _ => ?_)
    exact congrArg₂ (· * ·) ((congrFun (tr_main_v153_41_42 m ρ c) (ix2 k l)).trans (hx k l)) (L14_ws m ρ c l q)
  case hrs =>
    refine (congrFun (W43_arr m ρ c 6) (ix2 p q)).trans ((r27_resid (V42 m ρ) c p q).trans ?_)
    refine congrArg₂ (· + ·) (Finset.sum_congr rfl fun l _ => ?_) (L14_br m ρ c q)
    exact congrArg₂ (· * ·) ((congrFun (tr_main_v153_41_42 m ρ c) (ix2 p l)).trans (hx p l)) (L14_wr m ρ c l q)
  case hlo =>
    refine (congrFun (W44_arr m ρ c 4) (ix2 p _)).trans ((r28_lo (V43 m ρ) c p q).trans ?_)
    refine congrArg₂ (· + ·) (Finset.sum_congr rfl fun k _ => ?_)
      ((congrFun (tr_main_v157_42_43 m ρ c) (ix2 (0 : Fin 1) q)).trans (L14_bs m ρ c q))
    exact congrArg (· * _) ((congrFun (tr_main_v1_0_2_43 m ρ c) (ix2 p k)).trans (adjb_W2 m ρ c p k))
  case hhi =>
    exact (congrFun (W44_arr m ρ c 4) (ix2 p _)).trans (r28_hi (V43 m ρ) c p q)

end Cert.KernelIdeal.KV

end
-- ==== Proof.KV.Final.lean ====
/-
  The first program's two results, entry by entry: the fourteen layers chained. Each layer's output array is the
  layer's specification of its input array; the input of a layer is the output of the one before (of the pair's
  first layer for a residual), so the last features array is kf7 of the parameters and the coordinates are kcoords.
-/
import proofs.«405499_j28269474742810_3_alg».proof.Proof.KV.L1
import proofs.«405499_j28269474742810_3_alg».proof.Proof.KV.L2
import proofs.«405499_j28269474742810_3_alg».proof.Proof.KV.L3
import proofs.«405499_j28269474742810_3_alg».proof.Proof.KV.L4
import proofs.«405499_j28269474742810_3_alg».proof.Proof.KV.L5
import proofs.«405499_j28269474742810_3_alg».proof.Proof.KV.L6
import proofs.«405499_j28269474742810_3_alg».proof.Proof.KV.L7
import proofs.«405499_j28269474742810_3_alg».proof.Proof.KV.L8
import proofs.«405499_j28269474742810_3_alg».proof.Proof.KV.L9
import proofs.«405499_j28269474742810_3_alg».proof.Proof.KV.L10
import proofs.«405499_j28269474742810_3_alg».proof.Proof.KV.L11
import proofs.«405499_j28269474742810_3_alg».proof.Proof.KV.L12
import proofs.«405499_j28269474742810_3_alg».proof.Proof.KV.L13
import proofs.«405499_j28269474742810_3_alg».proof.Proof.KV.L14

set_option maxRecDepth 16384

noncomputable section

namespace Cert.KernelIdeal.KV

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

theorem k1_at (c : Dev nD) (p : Fin 8192) (j : Fin 192) : V5 m ρ c main_v9 (ix2 p j) = Cert.Spec.k1 (P m c) p j :=
  L1_out m ρ c _ (x0_entry m ρ c) p j
theorem kf1_at (c : Dev nD) (p : Fin 8192) (j : Fin 192) : V8 m ρ c main_v21 (ix2 p j) = Cert.Spec.kf1 (P m c) p j :=
  L2_out m ρ c _ (k1_at m ρ c) _ (fun _ _ => rfl) p j
theorem x2_at (c : Dev nD) (p : Fin 8192) (j : Fin 192) : V11 m ρ c main_v33 (ix2 p j) = Cert.Spec.plainK (P m c) 1 (Cert.Spec.kf1 (P m c)) p j :=
  L3_out m ρ c _ (kf1_at m ρ c) p j
theorem kf2_at (c : Dev nD) (p : Fin 8192) (j : Fin 192) : V14 m ρ c main_v45 (ix2 p j) = Cert.Spec.kf2 (P m c) p j :=
  L4_out m ρ c _ (x2_at m ρ c) _ (kf1_at m ρ c) p j
theorem x3_at (c : Dev nD) (p : Fin 8192) (j : Fin 192) : V17 m ρ c main_v57 (ix2 p j) = Cert.Spec.plainK (P m c) 3 (Cert.Spec.kf2 (P m c)) p j :=
  L5_out m ρ c _ (kf2_at m ρ c) p j
theorem kf3_at (c : Dev nD) (p : Fin 8192) (j : Fin 192) : V20 m ρ c main_v69 (ix2 p j) = Cert.Spec.kf3 (P m c) p j :=
  L6_out m ρ c _ (x3_at m ρ c) _ (kf2_at m ρ c) p j
theorem x4_at (c : Dev nD) (p : Fin 8192) (j : Fin 192) : V23 m ρ c main_v81 (ix2 p j) = Cert.Spec.plainK (P m c) 5 (Cert.Spec.kf3 (P m c)) p j :=
  L7_out m ρ c _ (kf3_at m ρ c) p j
theorem kf4_at (c : Dev nD) (p : Fin 8192) (j : Fin 192) : V26 m ρ c main_v93 (ix2 p j) = Cert.Spec.kf4 (P m c) p j :=
  L8_out m ρ c _ (x4_at m ρ c) _ (kf3_at m ρ c) p j
theorem x5_at (c : Dev nD) (p : Fin 8192) (j : Fin 192) : V29 m ρ c main_v105 (ix2 p j) = Cert.Spec.plainK (P m c) 7 (Cert.Spec.kf4 (P m c)) p j :=
  L9_out m ρ c _ (kf4_at m ρ c) p j
theorem kf5_at (c : Dev nD) (p : Fin 8192) (j : Fin 192) : V32 m ρ c main_v117 (ix2 p j) = Cert.Spec.kf5 (P m c) p j :=
  L10_out m ρ c _ (x5_at m ρ c) _ (kf4_at m ρ c) p j
theorem x6_at (c : Dev nD) (p : Fin 8192) (j : Fin 192) : V35 m ρ c main_v129 (ix2 p j) = Cert.Spec.plainK (P m c) 9 (Cert.Spec.kf5 (P m c)) p j :=
  L11_out m ρ c _ (kf5_at m ρ c) p j
theorem kf6_at (c : Dev nD) (p : Fin 8192) (j : Fin 192) : V38 m ρ c main_v141 (ix2 p j) = Cert.Spec.kf6 (P m c) p j :=
  L12_out m ρ c _ (x6_at m ρ c) _ (kf5_at m ρ c) p j
theorem kf7_at (c : Dev nD) (p : Fin 8192) (j : Fin 192) : V41 m ρ c main_v153 (ix2 p j) = Cert.Spec.kf7 (P m c) p j :=
  L13_out m ρ c _ (kf6_at m ρ c) _ (kf6_at m ρ c) p j

/-- THE FIRST RESULT at the end of the run. -/
theorem feats_apply (c : Dev nD) (p : Fin 8192) (j : Fin 192) :
    W44 m ρ c (Proc.devRef .tc main_v153) (ix2 p j) = Cert.Spec.kf7 (P m c) p j :=
  (congrFun (tr_main_v153_41_44 m ρ c) (ix2 p j)).trans (kf7_at m ρ c p j)

/-- THE SECOND RESULT at the end of the run. -/
theorem coords_apply (c : Dev nD) (p : Fin 8192) (j : Fin 3) :
    W44 m ρ c (Proc.devRef .tc main_v161) (ix2 p j) = Cert.Spec.kcoords (P m c) p j :=
  L14_out m ρ c _ (kf7_at m ρ c) p j

end Cert.KernelIdeal.KV

end
-- ==== Proof.RV.LayerOps.lean ====
/-
  One layer of the reference network as its host operations compose it, read at one entry.

  The layer is: support = X · W (named by the program, so taken here as an array with known entries); norm = A · (a column of ones); the first S columns of support divided, row by row,
  by norm, then multiplied by A; these S columns laid beside the remaining R columns of support; the bias added to
  every row. At entry (p, j) this is, for j < S, ∑ₖ A(p,k) · ((∑ₗ X(k,l) · W(l,j)) / ∑ₘ A(k,m) · 1) + b(j), and for
  j ≥ S, ∑ₗ X(p,l) · W(l,j) + b(j): the specification's layer before its activation. The activation max(·, 0) and the
  residual step (prev + y) / 2 are pointwise. Everything is stated for any sizes n, d, o = S + R, over the plain
  dimension numbers of an M×K by K×N product.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost
import proofs.«405499_j28269474742810_3_alg».proof.Proof.Spec
import proofs.«405499_j28269474742810_3_alg».proof.Proof.Params
import proofs.«405499_j28269474742810_3_alg».proof.Proof.Slices
import proofs.«405499_j28269474742810_3_alg».proof.Proof.LibPlainMatmul

noncomputable section

open scoped BigOperators

namespace Cert.ReferenceIdeal.RV

open Idealize.ShloMosaic Idealize.ShloMosaic.ValueIdx

/-- Entry (a, b) of a plain host product: ∑ₖ l(a, k) · r(k, b). -/
theorem dot_plain_apply (M K N : ℕ) (prec : Option ContractPrecision)
    (l : FVec Ideal ⟨2, ![M, K]⟩ .f32) (r : FVec Ideal ⟨2, ![K, N]⟩ .f32) (a : Fin M) (b : Fin N) :
    Host.dotGeneral (DotDims.plain M K N) prec l r (ix2 a b) = ∑ k : Fin K, l (ix2 a k) * r (ix2 k b) := by
  simp only [Host.dotGeneral]
  rw [Ideal.dotGeneral_apply, ← Equiv.sum_comp (contrEquiv1 (DotDims.plain M K N) K rfl rfl).symm]
  refine Finset.sum_congr rfl fun k _ => ?_
  rw [Cert.LibPlainMatmul.lhsIdx_plain, Cert.LibPlainMatmul.rhsIdx_plain]

variable {α : Type}

/-- A column [a, 1] spread over the b entries of each row reads, at (p, c), the column's entry in row p. -/
theorem bcast_col_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, b] repeated over a rows reads, at (p, c), the row's entry c. -/
theorem bcast_row_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] laid out as one row [1, b] reads, at (u, c), the vector's entry c. -/
theorem bcast_vec_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- ONE LAYER BEFORE ITS ACTIVATION, as the host operations compose it from the support Sup = X · W (given here by its
    entries, hS), at entry (p, j): the specification's layer. -/
theorem layer_pre_apply {n d o S R : ℕ} (hO : S + R = o)
    (A : FVec Ideal ⟨2, ![n, n]⟩ .f32) (Sup : FVec Ideal ⟨2, ![n, o]⟩ .f32) (b : FVec Ideal ⟨1, ![o]⟩ .f32)
    (x : Cert.Spec.Mx n d) (w : Cert.Spec.Mx d o) (hS : ∀ k j, Sup (ix2 k j) = ∑ l, x k l * w l j)
    (hb0 : (⟨0, ![]⟩ : Shape).BroadcastsInDim ⟨2, ![n, 1]⟩ ![])
    (hsl : (⟨2, ![n, o]⟩ : Shape).Slices ![0, 0] ⟨2, ![n, S]⟩)
    (hbn : (⟨2, ![n, 1]⟩ : Shape).BroadcastsInDim ⟨2, ![n, S]⟩ (![0, 1] : Fin 2 → Fin 2))
    (hsr : (⟨2, ![n, o]⟩ : Shape).Slices ![0, S] ⟨2, ![n, R]⟩)
    (hcat : Shape.Concatenates [⟨2, ![n, S]⟩, ⟨2, ![n, R]⟩] ⟨2, ![n, o]⟩ (1 : Fin 2))
    (hb1 : (⟨1, ![o]⟩ : Shape).BroadcastsInDim ⟨2, ![1, o]⟩ (![1] : Fin 1 → Fin 2))
    (hb2 : (⟨2, ![1, o]⟩ : Shape).BroadcastsInDim ⟨2, ![n, o]⟩ (![0, 1] : Fin 2 → Fin 2))
    (p : Fin n) (j : Fin o) :
    addf (concatenate ⟨2, ![n, o]⟩ (1 : Fin 2)
        [⟨⟨2, ![n, S]⟩, Host.dotGeneral (DotDims.plain n n S) none A
            (Host.divf (extractStridedSlice ⟨2, ![n, S]⟩ ![0, 0] Sup hsl)
              (broadcastInDim ⟨2, ![n, S]⟩ ![0, 1] hbn (Host.dotGeneral (DotDims.plain n n 1) none A
                (broadcastInDim ⟨2, ![n, 1]⟩ ![] hb0 (constant (F := Ideal) ⟨0, ![]⟩ .f32 0x3F800000#32)))))⟩,
          ⟨⟨2, ![n, R]⟩, extractStridedSlice ⟨2, ![n, R]⟩ ![0, S] Sup hsr⟩] hcat)
      (broadcastInDim ⟨2, ![n, o]⟩ ![0, 1] hb2 (broadcastInDim ⟨2, ![1, o]⟩ ![1] hb1 b)) (ix2 p j)
      = Cert.Spec.preR S (fun p k => A (ix2 p k)) x w (fun j => b (ix1 j)) p j := by
  unfold Cert.Spec.preR
  rw [addf_apply, bcast_row_apply, bcast_vec_row_apply, Cert.Spec.concat_cols_apply hO _ _ hcat p j]
  split
  · rename_i hj
    beta_reduce
    rw [dot_plain_apply]
    refine congrArg (· + b (ix1 j)) (Finset.sum_congr rfl fun k _ => ?_)
    have e : (⟨0 + (⟨j.val, hj⟩ : Fin S).val, by have := j.isLt; simp only; omega⟩ : Fin o) = j := Fin.ext (Nat.zero_add _)
    rw [hostDivf_apply, Cert.Slices.cols_apply _ 0 hsl k ⟨j.val, hj⟩ (by have := j.isLt; simp only; omega), e,
      hS, bcast_col_apply, dot_plain_apply]
    refine congrArg (fun t => A (ix2 p k) * Ideal.div (∑ l : Fin d, x k l * w l j) t) ?_
    unfold Cert.Spec.rowsumOnes
    refine Finset.sum_congr rfl fun m _ => ?_
    rw [broadcastInDim_scalar_apply, constant_apply]
  · rename_i hj
    beta_reduce
    have hq : S + (⟨j.val - S, by have := j.isLt; omega⟩ : Fin R).val < o := by have := j.isLt; simp only; omega
    have e : (⟨S + (⟨j.val - S, by have := j.isLt; omega⟩ : Fin R).val, hq⟩ : Fin o) = j := Fin.ext (by simp only; omega)
    rw [Cert.Slices.cols_apply _ S hsr p ⟨j.val - S, by have := j.isLt; omega⟩ hq, e, hS]

/-- The activation max(·, 0) at an index. -/
theorem relu_apply {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) Cert.Spec.zero := by
  rw [maximumf_apply, broadcastInDim_scalar_apply, constant_apply]

/-- The residual step (prev + y) / 2 at an index. -/
theorem resid_apply {s : Shape} (prev y : FVec Ideal s .f32) (h : (⟨0, ![]⟩ : Shape).BroadcastsInDim s ![]) (i : s.Idx) :
    Host.divf (addf prev y) (broadcastInDim s ![] h (constant (F := Ideal) ⟨0, ![]⟩ .f32 0x40000000#32)) i
      = Ideal.div (prev i + y i) Cert.Spec.two := by
  rw [hostDivf_apply, addf_apply, broadcastInDim_scalar_apply, constant_apply]

end Cert.ReferenceIdeal.RV

end
-- ==== Proof.RV.LayerLit.lean ====
/-
  The layer readings at the literal shapes and dimension records of the reference program: the three supports
  (960 → 192, 192 → 192, 192 → 3 columns) as sums, and the layer before its activation for 192 output columns
  (64 averaged, 128 local) and for 3 output columns (2 averaged, 1 local).
-/
import proofs.«405499_j28269474742810_3_alg».proof.Proof.Gen.ReferenceIdeal
import proofs.«405499_j28269474742810_3_alg».proof.Proof.RV.LayerOps

noncomputable section

open scoped BigOperators

namespace Cert.ReferenceIdeal.RV

open Cert.ReferenceIdeal Idealize.ShloMosaic Idealize.ShloMosaic.ValueIdx

/-- The first layer's support at an entry. -/
theorem sup960_apply (X : FVec Ideal S8192x960 .f32) (W : FVec Ideal S960x192 .f32) (k : Fin 8192) (j : Fin 192) :
    Host.dotGeneral dot_S8192x960_S960x192_S8192x192_1_0_0_1_n_n none X W (ix2 k j) = ∑ l : Fin 960, X (ix2 k l) * W (ix2 l j) :=
  dot_plain_apply 8192 960 192 none X W k j

/-- A middle layer's support at an entry. -/
theorem sup192_apply (X : FVec Ideal S8192x192 .f32) (W : FVec Ideal S192x192 .f32) (k : Fin 8192) (j : Fin 192) :
    Host.dotGeneral dot_S8192x192_S192x192_S8192x192_1_0_0_1_n_n none X W (ix2 k j) = ∑ l : Fin 192, X (ix2 k l) * W (ix2 l j) :=
  dot_plain_apply 8192 192 192 none X W k j

/-- The last layer's support at an entry. -/
theorem sup3_apply (X : FVec Ideal S8192x192 .f32) (W : FVec Ideal S192x3 .f32) (k : Fin 8192) (j : Fin 3) :
    Host.dotGeneral dot_S8192x192_S192x3_S8192x3_1_0_0_1_n_n none X W (ix2 k j) = ∑ l : Fin 192, X (ix2 k l) * W (ix2 l j) :=
  dot_plain_apply 8192 192 3 none X W k j

/-- A layer of 192 output columns before its activation, from its support. -/
theorem pre192_apply (A : FVec Ideal S8192x8192 .f32) (Sup : FVec Ideal S8192x192 .f32) (b : FVec Ideal S192 .f32)
    {d : ℕ} (x : Cert.Spec.Mx 8192 d) (w : Cert.Spec.Mx d 192) (hS : ∀ k j, Sup (ix2 k j) = ∑ l, x k l * w l j)
    (hb0 : S_.BroadcastsInDim S8192x1 (![] : Fin 0 → Fin S8192x1.rank))
    (hsl : S8192x192.Slices ![0, 0] S8192x64)
    (hbn : S8192x1.BroadcastsInDim S8192x64 (![0, 1] : Fin 2 → Fin S8192x64.rank))
    (hsr : S8192x192.Slices ![0, 64] S8192x128)
    (hcat : Shape.Concatenates [S8192x64, S8192x128] S8192x192 1)
    (hb1 : S192.BroadcastsInDim S1x192 (![1] : Fin 1 → Fin S1x192.rank))
    (hb2 : S1x192.BroadcastsInDim S8192x192 (![0, 1] : Fin 2 → Fin S8192x192.rank))
    (p : Fin 8192) (j : Fin 192) :
    addf (concatenate S8192x192 1
        [⟨S8192x64, Host.dotGeneral dot_S8192x8192_S8192x64_S8192x64_1_0_0_1_n_n none A
            (Host.divf (extractStridedSlice S8192x64 ![0, 0] Sup hsl)
              (broadcastInDim S8192x64 ![0, 1] hbn (Host.dotGeneral dot_S8192x8192_S8192x1_S8192x1_1_0_0_1_n_n none A
                (broadcastInDim S8192x1 ![] hb0 (constant (F := Ideal) S_ .f32 0x3F800000#32)))))⟩,
          ⟨S8192x128, extractStridedSlice S8192x128 ![0, 64] Sup hsr⟩] hcat)
      (broadcastInDim S8192x192 ![0, 1] hb2 (broadcastInDim S1x192 ![1] hb1 b)) (ix2 p j)
      = Cert.Spec.preR 64 (fun p k => A (ix2 p k)) x w (fun j => b (ix1 j)) p j :=
  layer_pre_apply (S := 64) (R := 128) rfl A Sup b x w hS hb0 hsl hbn hsr hcat hb1 hb2 p j

/-- The last layer (3 output columns) before any activation, from its support. -/
theorem pre3_apply (A : FVec Ideal S8192x8192 .f32) (Sup : FVec Ideal S8192x3 .f32) (b : FVec Ideal S3 .f32)
    {d : ℕ} (x : Cert.Spec.Mx 8192 d) (w : Cert.Spec.Mx d 3) (hS : ∀ k j, Sup (ix2 k j) = ∑ l, x k l * w l j)
    (hb0 : S_.BroadcastsInDim S8192x1 (![] : Fin 0 → Fin S8192x1.rank))
    (hsl : S8192x3.Slices ![0, 0] S8192x2)
    (hbn : S8192x1.BroadcastsInDim S8192x2 (![0, 1] : Fin 2 → Fin S8192x2.rank))
    (hsr : S8192x3.Slices ![0, 2] S8192x1)
    (hcat : Shape.Concatenates [S8192x2, S8192x1] S8192x3 1)
    (hb1 : S3.BroadcastsInDim S1x3 (![1] : Fin 1 → Fin S1x3.rank))
    (hb2 : S1x3.BroadcastsInDim S8192x3 (![0, 1] : Fin 2 → Fin S8192x3.rank))
    (p : Fin 8192) (j : Fin 3) :
    addf (concatenate S8192x3 1
        [⟨S8192x2, Host.dotGeneral dot_S8192x8192_S8192x2_S8192x2_1_0_0_1_n_n none A
            (Host.divf (extractStridedSlice S8192x2 ![0, 0] Sup hsl)
              (broadcastInDim S8192x2 ![0, 1] hbn (Host.dotGeneral dot_S8192x8192_S8192x1_S8192x1_1_0_0_1_n_n none A
                (broadcastInDim S8192x1 ![] hb0 (constant (F := Ideal) S_ .f32 0x3F800000#32)))))⟩,
          ⟨S8192x1, extractStridedSlice S8192x1 ![0, 2] Sup hsr⟩] hcat)
      (broadcastInDim S8192x3 ![0, 1] hb2 (broadcastInDim S1x3 ![1] hb1 b)) (ix2 p j)
      = Cert.Spec.preR 2 (fun p k => A (ix2 p k)) x w (fun j => b (ix1 j)) p j :=
  layer_pre_apply (S := 2) (R := 1) rfl A Sup b x w hS hb0 hsl hbn hsr hcat hb1 hb2 p j

/-- A middle layer's support against page i of the weight stack, at an entry. -/
theorem sup192_page_apply (X : FVec Ideal S8192x192 .f32) (a5 : FVec Ideal S12x192x192 .f32) (i : ℕ) (hi : i < 12)
    (h1 : S12x192x192.Slices ![i, 0, 0] S1x192x192) (h2 : S1x192x192.ShapeCasts S192x192) (k : Fin 8192) (j : Fin 192) :
    Host.dotGeneral dot_S8192x192_S192x192_S8192x192_1_0_0_1_n_n none X
        (shapeCast S192x192 (extractStridedSlice S1x192x192 ![i, 0, 0] a5 h1) h2) (ix2 k j)
      = ∑ l : Fin 192, X (ix2 k l) * a5 (ix3 ⟨i, hi⟩ l j) := by
  rw [sup192_apply]
  exact Finset.sum_congr rfl fun l _ => by rw [Cert.Slices.page_apply a5 i hi h1 h2 l j]

/-- A middle layer's output, activation applied, with row i of the bias stack, from its support. -/
theorem mid_out_apply (A : FVec Ideal S8192x8192 .f32) (Sup : FVec Ideal S8192x192 .f32) (a6 : FVec Ideal S12x192 .f32)
    (i : ℕ) (hi : i < 12) {d : ℕ} (x : Cert.Spec.Mx 8192 d) (w : Cert.Spec.Mx d 192)
    (hS : ∀ k j, Sup (ix2 k j) = ∑ l, x k l * w l j)
    (hb0 : S_.BroadcastsInDim S8192x1 (![] : Fin 0 → Fin S8192x1.rank))
    (hsl : S8192x192.Slices ![0, 0] S8192x64)
    (hbn : S8192x1.BroadcastsInDim S8192x64 (![0, 1] : Fin 2 → Fin S8192x64.rank))
    (hsr : S8192x192.Slices ![0, 64] S8192x128)
    (hcat : Shape.Concatenates [S8192x64, S8192x128] S8192x192 1)
    (hb1 : S192.BroadcastsInDim S1x192 (![1] : Fin 1 → Fin S1x192.rank))
    (hb2 : S1x192.BroadcastsInDim S8192x192 (![0, 1] : Fin 2 → Fin S8192x192.rank))
    (h1 : S12x192.Slices ![i, 0] S1x192) (h2 : S1x192.ShapeCasts S192)
    (hz : S_.BroadcastsInDim S8192x192 (![] : Fin 0 → Fin S8192x192.rank))
    (p : Fin 8192) (j : Fin 192) :
    maximumf (addf (concatenate S8192x192 1
        [⟨S8192x64, Host.dotGeneral dot_S8192x8192_S8192x64_S8192x64_1_0_0_1_n_n none A
            (Host.divf (extractStridedSlice S8192x64 ![0, 0] Sup hsl)
              (broadcastInDim S8192x64 ![0, 1] hbn (Host.dotGeneral dot_S8192x8192_S8192x1_S8192x1_1_0_0_1_n_n none A
                (broadcastInDim S8192x1 ![] hb0 (constant (F := Ideal) S_ .f32 0x3F800000#32)))))⟩,
          ⟨S8192x128, extractStridedSlice S8192x128 ![0, 64] Sup hsr⟩] hcat)
      (broadcastInDim S8192x192 ![0, 1] hb2 (broadcastInDim S1x192 ![1] hb1
        (shapeCast S192 (extractStridedSlice S1x192 ![i, 0] a6 h1) h2))))
      (broadcastInDim S8192x192 ![] hz (constant (F := Ideal) S_ .f32 0x00000000#32)) (ix2 p j)
      = max (Cert.Spec.preR 64 (fun p k => A (ix2 p k)) x w (fun j => a6 (ix2 ⟨i, hi⟩ j)) p j) Cert.Spec.zero := by
  rw [relu_apply, pre192_apply A Sup _ x w hS]
  have hb : (fun j : Fin 192 => shapeCast S192 (extractStridedSlice S1x192 ![i, 0] a6 h1) h2 (ix1 j))
      = fun j => a6 (ix2 ⟨i, hi⟩ j) := funext fun j => Cert.Slices.row_apply a6 i hi h1 h2 j
  rw [hb]

end Cert.ReferenceIdeal.RV

end
-- ==== Proof.RV.Stages.lean ====
/-
  The reference's two results read at an entry: the network of the specification.

  The run names the values that later operations read more than once: each layer's support X · W and the features
  after each residual step. Read at an entry, stage by stage: a support is a sum over the input's row and a page of
  the weight stack; a layer's output is the specification's layer of its input (from the support's entries); a residual
  step is (previous + output) / 2. Chaining the fourteen layers gives the specification's rf7 for the first result and
  rcoords for the second.
-/
import proofs.«405499_j28269474742810_3_alg».proof.Proof.RV.Run
import proofs.«405499_j28269474742810_3_alg».proof.Proof.RV.LayerLit
import proofs.«405499_j28269474742810_3_alg».proof.Proof.Params
import proofs.«405499_j28269474742810_3_alg».proof.Proof.Slices

noncomputable section

open scoped BigOperators

namespace Cert.ReferenceIdeal.RV

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

variable (V : Valuation τ sig (Elt Ideal))

/-- The network's parameters as entries of the nine argument buffers of a device. -/
def P : Cert.Spec.Params :=
  Cert.Spec.mkParams (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))

/-- An array of rank two read at (p, j). -/
abbrev rd2 {a b : ℕ} (x : FVec Ideal ⟨2, ![a, b]⟩ .f32) (p : Fin a) (j : Fin b) : EReal := x (ix2 p j)

/-- The first result (the features after the last residual step) and the second (the coordinates), as the run
    leaves them from buffer contents V. -/
def out0 : FVec Ideal S8192x192 .f32 := val5 V (Proc.devRef .tc main_v239)
def out1 : FVec Ideal S8192x3 .f32 := val5 V (Proc.devRef .tc main_v251)

/-- The 960-column input: features, then pooled. -/
theorem x0_apply (p : Fin 8192) (l : Fin 960) : rd2 (res_main_v0 V) p l = (P V).x0 p l := by
  unfold rd2 res_main_v0
  exact Cert.Spec.concat_960_apply _ _ _ p l

/-- Its first 192 columns are the features. -/
theorem f0_apply (h : S8192x960.Slices ![0, 0] S8192x192) (p : Fin 8192) (j : Fin 192) :
    extractStridedSlice S8192x192 ![0, 0] (res_main_v0 V) h (ix2 p j) = (P V).f0 p j := by
  have hq : 0 + j.val < 960 := by have := j.isLt; omega
  have hl : (0 + j.val) < 192 := by have := j.isLt; omega
  refine (Cert.Slices.cols_apply _ 0 h p j hq).trans ?_
  refine (x0_apply V p _).trans ?_
  show (if hl : (0 + j.val) < 192 then V (Proc.devRef .tc main_arg0) (ix2 p ⟨0 + j.val, hl⟩) else _)
    = V (Proc.devRef .tc main_arg0) (ix2 p j)
  rw [dif_pos hl]
  exact congrArg (fun t => V (Proc.devRef .tc main_arg0) (ix2 p t)) (Fin.ext (Nat.zero_add _))

/-- The first layer's support. -/
theorem sup1_apply (k : Fin 8192) (j : Fin 192) : rd2 (res_main_v1 V) k j = ∑ l, (P V).x0 k l * (P V).W1 l j := by
  unfold rd2 res_main_v1
  erw [sup960_apply]
  exact Finset.sum_congr rfl fun l _ => congrArg₂ (· * ·) (x0_apply V k l) rfl

/-- The second layer's support: its input is the first layer's output. -/
theorem sup2_apply (k : Fin 8192) (j : Fin 192) :
    rd2 (res_main_v18 V) k j = ∑ l, Cert.Spec.r1 (P V) k l * (P V).Wm 0 l j := by
  unfold rd2 res_main_v18
  erw [sup192_page_apply _ _ 0 (by norm_num)]
  refine Finset.sum_congr rfl fun l _ => ?_
  erw [relu_apply, pre192_apply _ (res_main_v1 V) _ (P V).x0 (P V).W1 (sup1_apply V)]
  rfl

/-- The features after the first residual step (with the original features). -/
theorem feats1_apply (p : Fin 8192) (j : Fin 192) : rd2 (res_main_v34 V) p j = Cert.Spec.rf1 (P V) p j := by
  unfold rd2 res_main_v34
  erw [resid_apply, mid_out_apply _ (res_main_v18 V) _ 0 (by norm_num) (Cert.Spec.r1 (P V)) ((P V).Wm 0) (sup2_apply V),
    f0_apply]
  rfl

/-- Pair 1: the plain layer's support, the residual layer's support, and the next features. -/
theorem supA1_apply (k : Fin 8192) (j : Fin 192) :
    rd2 (res_main_v39 V) k j = ∑ l, Cert.Spec.rf1 (P V) k l * (P V).Wm 1 l j := by
  unfold rd2 res_main_v39
  erw [sup192_page_apply _ _ 1 (by norm_num)]
  exact Finset.sum_congr rfl fun l _ => congrArg₂ (· * ·) (feats1_apply V k l) rfl

theorem supB1_apply (k : Fin 8192) (j : Fin 192) :
    rd2 (res_main_v56 V) k j
      = ∑ l, Cert.Spec.plainR (P V) 1 (Cert.Spec.rf1 (P V)) k l * (P V).Wm 2 l j := by
  unfold rd2 res_main_v56
  erw [sup192_page_apply _ _ 2 (by norm_num)]
  refine Finset.sum_congr rfl fun l _ => ?_
  erw [mid_out_apply _ (res_main_v39 V) _ 1 (by norm_num) (Cert.Spec.rf1 (P V)) ((P V).Wm 1) (supA1_apply V)]
  rfl

theorem feats2_apply (p : Fin 8192) (j : Fin 192) : rd2 (res_main_v71 V) p j = Cert.Spec.rf2 (P V) p j := by
  unfold rd2 res_main_v71
  erw [resid_apply, mid_out_apply _ (res_main_v56 V) _ 2 (by norm_num)
    (Cert.Spec.plainR (P V) 1 (Cert.Spec.rf1 (P V))) ((P V).Wm 2) (supB1_apply V)]
  rw [show res_main_v34 V (ix2 p j) = _ from feats1_apply V p j]
  rfl

/-- Pair 2: the plain layer's support, the residual layer's support, and the next features. -/
theorem supA2_apply (k : Fin 8192) (j : Fin 192) :
    rd2 (res_main_v76 V) k j = ∑ l, Cert.Spec.rf2 (P V) k l * (P V).Wm 3 l j := by
  unfold rd2 res_main_v76
  erw [sup192_page_apply _ _ 3 (by norm_num)]
  exact Finset.sum_congr rfl fun l _ => congrArg₂ (· * ·) (feats2_apply V k l) rfl

theorem supB2_apply (k : Fin 8192) (j : Fin 192) :
    rd2 (res_main_v93 V) k j
      = ∑ l, Cert.Spec.plainR (P V) 3 (Cert.Spec.rf2 (P V)) k l * (P V).Wm 4 l j := by
  unfold rd2 res_main_v93
  erw [sup192_page_apply _ _ 4 (by norm_num)]
  refine Finset.sum_congr rfl fun l _ => ?_
  erw [mid_out_apply _ (res_main_v76 V) _ 3 (by norm_num) (Cert.Spec.rf2 (P V)) ((P V).Wm 3) (supA2_apply V)]
  rfl

theorem feats3_apply (p : Fin 8192) (j : Fin 192) : rd2 (res_main_v108 V) p j = Cert.Spec.rf3 (P V) p j := by
  unfold rd2 res_main_v108
  erw [resid_apply, mid_out_apply _ (res_main_v93 V) _ 4 (by norm_num)
    (Cert.Spec.plainR (P V) 3 (Cert.Spec.rf2 (P V))) ((P V).Wm 4) (supB2_apply V)]
  rw [show res_main_v71 V (ix2 p j) = _ from feats2_apply V p j]
  rfl

/-- Pair 3: the plain layer's support, the residual layer's support, and the next features. -/
theorem supA3_apply (k : Fin 8192) (j : Fin 192) :
    rd2 (res_main_v113 V) k j = ∑ l, Cert.Spec.rf3 (P V) k l * (P V).Wm 5 l j := by
  unfold rd2 res_main_v113
  erw [sup192_page_apply _ _ 5 (by norm_num)]
  exact Finset.sum_congr rfl fun l _ => congrArg₂ (· * ·) (feats3_apply V k l) rfl

theorem supB3_apply (k : Fin 8192) (j : Fin 192) :
    rd2 (res_main_v130 V) k j
      = ∑ l, Cert.Spec.plainR (P V) 5 (Cert.Spec.rf3 (P V)) k l * (P V).Wm 6 l j := by
  unfold rd2 res_main_v130
  erw [sup192_page_apply _ _ 6 (by norm_num)]
  refine Finset.sum_congr rfl fun l _ => ?_
  erw [mid_out_apply _ (res_main_v113 V) _ 5 (by norm_num) (Cert.Spec.rf3 (P V)) ((P V).Wm 5) (supA3_apply V)]
  rfl

theorem feats4_apply (p : Fin 8192) (j : Fin 192) : rd2 (res_main_v145 V) p j = Cert.Spec.rf4 (P V) p j := by
  unfold rd2 res_main_v145
  erw [resid_apply, mid_out_apply _ (res_main_v130 V) _ 6 (by norm_num)
    (Cert.Spec.plainR (P V) 5 (Cert.Spec.rf3 (P V))) ((P V).Wm 6) (supB3_apply V)]
  rw [show res_main_v108 V (ix2 p j) = _ from feats3_apply V p j]
  rfl

/-- Pair 4: the plain layer's support, the residual layer's support, and the next features. -/
theorem supA4_apply (k : Fin 8192) (j : Fin 192) :
    rd2 (res_main_v150 V) k j = ∑ l, Cert.Spec.rf4 (P V) k l * (P V).Wm 7 l j := by
  unfold rd2 res_main_v150
  erw [sup192_page_apply _ _ 7 (by norm_num)]
  exact Finset.sum_congr rfl fun l _ => congrArg₂ (· * ·) (feats4_apply V k l) rfl

theorem supB4_apply (k : Fin 8192) (j : Fin 192) :
    rd2 (res_main_v167 V) k j
      = ∑ l, Cert.Spec.plainR (P V) 7 (Cert.Spec.rf4 (P V)) k l * (P V).Wm 8 l j := by
  unfold rd2 res_main_v167
  erw [sup192_page_apply _ _ 8 (by norm_num)]
  refine Finset.sum_congr rfl fun l _ => ?_
  erw [mid_out_apply _ (res_main_v150 V) _ 7 (by norm_num) (Cert.Spec.rf4 (P V)) ((P V).Wm 7) (supA4_apply V)]
  rfl

theorem feats5_apply (p : Fin 8192) (j : Fin 192) : rd2 (res_main_v182 V) p j = Cert.Spec.rf5 (P V) p j := by
  unfold rd2 res_main_v182
  erw [resid_apply, mid_out_apply _ (res_main_v167 V) _ 8 (by norm_num)
    (Cert.Spec.plainR (P V) 7 (Cert.Spec.rf4 (P V))) ((P V).Wm 8) (supB4_apply V)]
  rw [show res_main_v145 V (ix2 p j) = _ from feats4_apply V p j]
  rfl

/-- Pair 5: the plain layer's support, the residual layer's support, and the next features. -/
theorem supA5_apply (k : Fin 8192) (j : Fin 192) :
    rd2 (res_main_v187 V) k j = ∑ l, Cert.Spec.rf5 (P V) k l * (P V).Wm 9 l j := by
  unfold rd2 res_main_v187
  erw [sup192_page_apply _ _ 9 (by norm_num)]
  exact Finset.sum_congr rfl fun l _ => congrArg₂ (· * ·) (feats5_apply V k l) rfl

theorem supB5_apply (k : Fin 8192) (j : Fin 192) :
    rd2 (res_main_v204 V) k j
      = ∑ l, Cert.Spec.plainR (P V) 9 (Cert.Spec.rf5 (P V)) k l * (P V).Wm 10 l j := by
  unfold rd2 res_main_v204
  erw [sup192_page_apply _ _ 10 (by norm_num)]
  refine Finset.sum_congr rfl fun l _ => ?_
  erw [mid_out_apply _ (res_main_v187 V) _ 9 (by norm_num) (Cert.Spec.rf5 (P V)) ((P V).Wm 9) (supA5_apply V)]
  rfl

theorem feats6_apply (p : Fin 8192) (j : Fin 192) : rd2 (res_main_v219 V) p j = Cert.Spec.rf6 (P V) p j := by
  unfold rd2 res_main_v219
  erw [resid_apply, mid_out_apply _ (res_main_v204 V) _ 10 (by norm_num)
    (Cert.Spec.plainR (P V) 9 (Cert.Spec.rf5 (P V))) ((P V).Wm 10) (supB5_apply V)]
  rw [show res_main_v182 V (ix2 p j) = _ from feats5_apply V p j]
  rfl

/-- The last residual layer's support: its input and its residual are the same features. -/
theorem sup13_apply (k : Fin 8192) (j : Fin 192) :
    rd2 (res_main_v224 V) k j = ∑ l, Cert.Spec.rf6 (P V) k l * (P V).Wm 11 l j := by
  unfold rd2 res_main_v224
  erw [sup192_page_apply _ _ 11 (by norm_num)]
  exact Finset.sum_congr rfl fun l _ => congrArg₂ (· * ·) (feats6_apply V k l) rfl

/-- THE FIRST RESULT at an entry: the specification's features after the last residual step. -/
theorem out0_apply (p : Fin 8192) (j : Fin 192) : out0 V (ix2 p j) = Cert.Spec.rf7 (P V) p j := by
  unfold out0
  erw [val5_main_v239, resid_apply, mid_out_apply _ (res_main_v224 V) _ 11 (by norm_num) (Cert.Spec.rf6 (P V)) ((P V).Wm 11)
    (sup13_apply V)]
  rw [show res_main_v219 V (ix2 p j) = _ from feats6_apply V p j]
  rfl

/-- The last layer's support: its input is the first result. -/
theorem sup15_apply (k : Fin 8192) (j : Fin 3) :
    rd2 (res_main_v240 V) k j = ∑ l, Cert.Spec.rf7 (P V) k l * (P V).W15 l j := by
  unfold rd2 res_main_v240
  erw [sup3_apply]
  refine Finset.sum_congr rfl fun l _ => ?_
  erw [resid_apply, mid_out_apply _ (res_main_v224 V) _ 11 (by norm_num) (Cert.Spec.rf6 (P V)) ((P V).Wm 11)
    (sup13_apply V)]
  rw [show res_main_v219 V (ix2 k l) = _ from feats6_apply V k l]
  rfl

/-- THE SECOND RESULT at an entry: the specification's coordinates. -/
theorem out1_apply (p : Fin 8192) (j : Fin 3) : out1 V (ix2 p j) = Cert.Spec.rcoords (P V) p j := by
  unfold out1
  erw [val5_main_v251, pre3_apply _ (res_main_v240 V) _ (Cert.Spec.rf7 (P V)) (P V).W15 (sup15_apply V)]
  rfl

/-- THE RUN: every weakly fair execution of the reference terminates with its two results at out0 and out1 of the
    launch contents and its nine arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v239) = out0 (launchContents m c)
      ∧ r.2.mem ((c.tc : Thread nD τ).loc main_v251) = out1 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c).1.trans (val5_main_v239 (launchContents m c)).symm, (h c).2.1.trans (val5_main_v251 (launchContents m c)).symm,
        (h c).2.2⟩)
    (Cert.ReferenceIdeal.Value.run (F := Ideal) m ρ)

end Cert.ReferenceIdeal.RV

end
-- ==== Proof.RV.Launch.lean ====
/-
  The reference's two results after a run from launch memory, read at an entry over the argument arrays as the launch
  memory holds them on a device.
-/
import proofs.«405499_j28269474742810_3_alg».proof.Proof.RV.Stages

noncomputable section

namespace Cert.ReferenceIdeal.RV

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

/-- The two results of the run from launch memory m on device c, at an entry, over the argument arrays as the
    launch memory holds them. -/
theorem out0_launch (m : (ℓ : Loc nD τ sig) → Buf (Elt Ideal) ℓ) (c : Dev nD) (p : Fin 8192) (j : Fin 192) :
    out0 (launchContents m c) (ix2 p j)
      = Cert.Spec.rf7 (Cert.Spec.mkParams (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))) p j :=
  out0_apply (launchContents m c) p j

theorem out1_launch (m : (ℓ : Loc nD τ sig) → Buf (Elt Ideal) ℓ) (c : Dev nD) (p : Fin 8192) (j : Fin 3) :
    out1 (launchContents m c) (ix2 p j)
      = Cert.Spec.rcoords (Cert.Spec.mkParams (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))) p j :=
  out1_apply (launchContents m c) p j

end Cert.ReferenceIdeal.RV

end
-- ==== Proof.PreRead.lean ====
/-
  The precondition read at the ideal values, and four small laws on the extended reals.

  The precondition is the conjunction "every input entry is finite" and "every row sum of the adjacency matrix is
  nonzero". Its last conjunct is an all-reduce by "and" of the comparison (row sum ≠ 0), the row sums being the product
  of the matrix with a column of ones: at row p that product is ∑ₖ a(p, k) · 1 = ∑ₖ a(p, k).

  The laws: the pattern of 1.0 denotes 1; x · (1 / s) = x / s off s = 0; y · 0.5 = y / 2; and the product of a
  matrix with a column of ones is the row sum.
-/
import proofs.«405499_j28269474742810_3_alg».proof.Pre_finite_inputs
import proofs.«405499_j28269474742810_3_alg».proof.Proof.Gen.Pre_finite_inputs
import proofs.«405499_j28269474742810_3_alg».proof.Proof.LibPlainMatmul
import Idealize.ShloMosaic.Lib.ReduceAll
import Idealize.ShloMosaic.Lib.ValueIdx
import Idealize.ShloMosaic.Lib.IdealHost
import Idealize.ShloMosaic.Lib.Affine
import Idealize.ShloMosaic.PureOps.Ideal.Laws

noncomputable section

open scoped BigOperators

namespace Cert.PreRead

open Idealize.ShloMosaic Idealize.ShloMosaic.ValueIdx

/-! ## Constants -/

/-- The pattern of 1.0 denotes 1. -/
theorem ofBits_one : Ideal.ofBits .f32 0x3F800000#32 = (1 : EReal) := by
  simp [Ideal.ofBits, Ideal.ieee, -EReal.coe_mul]; norm_num

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-! ## Laws -/

/-- Off s = 0, x · (1 / s) = x / s: both are x · s⁻¹. -/
theorem mul_inv_rowsum (x s : EReal) (hs : s ≠ 0) :
    x * Ideal.div (Ideal.ofBits .f32 0x3F800000#32) s = Ideal.div x s := by
  rw [ofBits_one]
  unfold Ideal.div
  rw [if_neg hs, if_neg hs, one_mul]

/-- y · 0.5 = y / 2, at the infinities too. -/
theorem mul_half (y : EReal) :
    y * Ideal.ofBits .f32 0x3F000000#32 = Ideal.div y (Ideal.ofBits .f32 0x40000000#32) := by
  rw [ofBits_half, ofBits_two, Ideal.div_coe (by norm_num : (2 : ℝ) ≠ 0)]

/-- THE PRODUCT WITH A COLUMN OF ONES IS THE ROW SUM: for the dimension numbers of an M×K by K×1 product and a right
    operand that reads 1 everywhere, entry (p, u) of the product is ∑ₖ l(p, k). -/
theorem dot_ones (M K : Nat) (d : DotDims ⟨2, ![M, K]⟩ ⟨2, ![K, 1]⟩ ⟨2, ![M, 1]⟩) (hd : d = DotDims.plain M K 1)
    (prec : Option ContractPrecision) (sched : HostSchedule)
    (l : FVec Ideal ⟨2, ![M, K]⟩ .f32) (ones : FVec Ideal ⟨2, ![K, 1]⟩ .f32) (h1 : ∀ i, ones i = 1)
    (p : Fin M) (u : Fin 1) :
    FloatOps.dotGeneral d prec sched l ones (ix2 p u) = ∑ k : Fin K, l (ix2 p k) := by
  subst hd
  rw [Ideal.dotGeneral_apply, ← Equiv.sum_comp (contrEquiv1 (DotDims.plain M K 1) K rfl rfl).symm]
  refine Finset.sum_congr rfl fun k _ => ?_
  rw [Cert.LibPlainMatmul.lhsIdx_plain, Cert.LibPlainMatmul.rhsIdx_plain, h1, mul_one]

/-- A comparison "not equal" that holds says the two values differ. -/
theorem ne_of_cmp_une (x y : EReal) (h : Ideal.cmp .une x y = 1#1) : x ≠ y := by
  intro hxy
  subst hxy
  simp [Ideal.cmp] at h

/-! ## The precondition's last conjunct -/

/-- The rank-0 shape has one index. -/
instance : Subsingleton Cert.Pre_finite_inputs.S_.Idx := ⟨fun a b => funext fun d => d.elim0⟩

/-- EVERY ROW SUM OF THE ADJACENCY MATRIX IS NONZERO, under the precondition. -/
theorem rowsum_ne_zero (a0 : FVec Ideal Cert.Pre_finite_inputs.S8192x192 .f32) (a1 : FVec Ideal Cert.Pre_finite_inputs.S8192x768 .f32)
    (a2 : FVec Ideal Cert.Pre_finite_inputs.S8192x8192 .f32) (a3 : FVec Ideal Cert.Pre_finite_inputs.S960x192 .f32)
    (a4 : FVec Ideal Cert.Pre_finite_inputs.S192 .f32) (a5 : FVec Ideal Cert.Pre_finite_inputs.S12x192x192 .f32)
    (a6 : FVec Ideal Cert.Pre_finite_inputs.S12x192 .f32) (a7 : FVec Ideal Cert.Pre_finite_inputs.S192x3 .f32)
    (a8 : FVec Ideal Cert.Pre_finite_inputs.S3 .f32)
    (h : Cert.Pre_finite_inputs.fn (F := Ideal) a0 a1 a2 a3 a4 a5 a6 a7 a8 = fun _ => 1#1) (p : Fin 8192) :
    (∑ k : Fin 8192, a2 (ValueIdx.ix2 p k)) ≠ 0 := by
  have e := congrFun h ix0
  dsimp only [Cert.Pre_finite_inputs.fn, Cert.Pre_finite_inputs.fn_part1, Cert.Pre_finite_inputs.fn_part2] at e
  -- the last conjunct: the all-reduce of the comparison
  have e2 := (IntOp.andi_eq_one.mp e).2
  -- every entry of the comparison holds; read it at (p, 0)
  have e3 := Host.reduce_andi_all _ _ _ _ _ e2 (ix2 p (0 : Fin 1))
  rw [cmpf_apply, Ideal.cmpf_def] at e3
  have e4 := ne_of_cmp_une _ _ e3
  rw [broadcastInDim_scalar_apply, constant_apply, Ideal.ofBits_zero_f32] at e4
  -- the row sums are the product with the column of ones
  have hx := dot_ones 8192 8192 Cert.Pre_finite_inputs.dot_S8192x8192_S8192x1_S8192x1_1_0_0_1_n_n rfl none .single a2
    (broadcastInDim Cert.Pre_finite_inputs.S8192x1 ![] Cert.Pre_finite_inputs.Facts.bcast_S_S8192x1
      (constant Cert.Pre_finite_inputs.S_ .f32 0x3F800000#32))
    (fun i => by rw [broadcastInDim_scalar_apply, constant_apply, ofBits_one]) p 0
  exact fun hz => e4 (hx.trans hz)

end Cert.PreRead

end
-- ==== Proof.lean ====
/-
  The certificate: three frames, the (empty) idealization ledger, and the equivalence of the two idealized programs over
  the extended reals where every row sum of the adjacency matrix is nonzero.

  Both programs compute the same fourteen layers. One divides each support row by the row sum of the adjacency
  matrix; the other multiplies it by the reciprocal row sum, computed once in its first pass. On the extended reals
  x / s and x · (1 / s) are both x · s⁻¹ for s ≠ 0, and the precondition says every row sum is nonzero, so each layer
  of one is the same function as the layer of the other; the halving by 1/2 against the division by 2 agrees
  everywhere. The first program's result arrays are read off its run layer by layer; the reference's are the values of
  its host operations; both are the same composition of layers of the same parameters.
-/
import proofs.«405499_j28269474742810_3_alg».proof.Defs
import proofs.«405499_j28269474742810_3_alg».proof.Proof.Gen.Kernel
import proofs.«405499_j28269474742810_3_alg».proof.Proof.Gen.KernelIdeal
import proofs.«405499_j28269474742810_3_alg».proof.Proof.Gen.ReferenceIdeal
import proofs.«405499_j28269474742810_3_alg».proof.Proof.Gen.Pre_finite_inputs
import proofs.«405499_j28269474742810_3_alg».proof.Proof.Fr.Kernel.Main
import proofs.«405499_j28269474742810_3_alg».proof.Proof.Fr.KernelIdeal.Main
import proofs.«405499_j28269474742810_3_alg».proof.Proof.KV.Run
import proofs.«405499_j28269474742810_3_alg».proof.Proof.KV.Final
import proofs.«405499_j28269474742810_3_alg».proof.Proof.RV.Stages
import proofs.«405499_j28269474742810_3_alg».proof.Proof.RV.Launch
import proofs.«405499_j28269474742810_3_alg».proof.Proof.Net
import proofs.«405499_j28269474742810_3_alg».proof.Proof.PreRead
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2) (Cert.ReferenceIdeal.RV.run' m ρ)

/-- The precondition gives every row sum of the adjacency matrix nonzero. -/
theorem rowsums_ne_zero (m : (ℓ : Loc Cert.KernelIdeal.nD Cert.KernelIdeal.τ Cert.KernelIdeal.sig) → Buf (Elt Ideal) ℓ)
    (hpre : Cert.Pre_KernelIdeal m) (c : Dev Cert.KernelIdeal.nD) (k : Fin 8192) :
    Cert.Spec.rowsum (Cert.KernelIdeal.KV.P m c).A k ≠ 0 :=
  Cert.PreRead.rowsum_ne_zero _ _ _ _ _ _ _ _ _ (hpre c) k

/-- Memories that agree on the nine arguments give the two programs the same parameters. -/
theorem params_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.Spec.mkParams (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = Cert.KernelIdeal.KV.P m c := by
  obtain ⟨e0, e1, e2, e3, e4, e5, e6, e7, e8⟩ := h
  rw [e0, e1, e2, e3, e4, e5, e6, e7, e8]
  rfl

/-- The two idealized programs end with equal results: both are the fourteen layers of the same parameters, and the
    layers agree where every row sum is nonzero. -/
theorem algebraic : Cert.algebraic_KernelIdeal_ReferenceIdeal := by
  intro m ρ m' ρ' hpre hagree
  refine ⟨fun c => Cert.KernelIdeal.Gen.W44 m ρ c (Proc.devRef .tc Cert.KernelIdeal.main_v153),
    fun c => Cert.KernelIdeal.Gen.W44 m ρ c (Proc.devRef .tc Cert.KernelIdeal.main_v161),
    Cert.KernelIdeal.KV.run_results m ρ, ?_⟩
  refine (θ_run Cert.ReferenceIdeal.defs _ _).mono (fun r h c => ?_) (Cert.ReferenceIdeal.RV.run' m' ρ')
  obtain ⟨h1, h2, hargs⟩ := h c
  have hP := params_agree m m' c (hagree c)
  have hA := rowsums_ne_zero m hpre c
  refine ⟨h1.trans ?_, h2.trans ?_, hargs⟩
  · funext i
    obtain ⟨p, j, rfl⟩ : ∃ (p : Fin 8192) (j : Fin 192), i = ix2 p j := ⟨i 0, i 1, eq_ix2 i⟩
    refine (Cert.ReferenceIdeal.RV.out0_launch m' c p j).trans ?_
    rw [hP, ← Cert.Spec.kf7_eq _ hA]
    exact (Cert.KernelIdeal.KV.feats_apply m ρ c p j).symm
  · funext i
    obtain ⟨p, j, rfl⟩ : ∃ (p : Fin 8192) (j : Fin 3), i = ix2 p j := ⟨i 0, i 1, eq_ix2 i⟩
    refine (Cert.ReferenceIdeal.RV.out1_launch m' c p j).trans ?_
    rw [hP, ← Cert.Spec.kcoords_eq _ hA]
    exact (Cert.KernelIdeal.KV.coords_apply m ρ c p j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
